-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v374)) (v1 : (c : Dev Cert.KernelIdeal.nD) → Buf (Elt Ideal) ((c.tc : Thread Cert.KernelIdeal.nD Cert.KernelIdeal.τ).loc Cert.KernelIdeal.main_v391)) (v2 : (c : Dev Cert.KernelIdeal.nD) → Buf (Elt Ideal) ((c.tc : Thread Cert.KernelIdeal.nD Cert.KernelIdeal.τ).loc Cert.KernelIdeal.main_v408)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v374) = v0 c
          ∧ r.2.mem ((c.tc : Thread Cert.KernelIdeal.nD Cert.KernelIdeal.τ).loc Cert.KernelIdeal.main_v391) = v1 c
          ∧ r.2.mem ((c.tc : Thread Cert.KernelIdeal.nD Cert.KernelIdeal.τ).loc Cert.KernelIdeal.main_v408) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v598) = v0 c
          ∧ r.2.mem ((c.tc : Thread Cert.ReferenceIdeal.nD Cert.ReferenceIdeal.τ).loc Cert.ReferenceIdeal.main_v630) = v1 c
          ∧ r.2.mem ((c.tc : Thread Cert.ReferenceIdeal.nD Cert.ReferenceIdeal.τ).loc Cert.ReferenceIdeal.main_v662) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x6 : Shape := ⟨2, ![100000, 6]⟩
abbrev S50000x4 : Shape := ⟨2, ![50000, 4]⟩
abbrev S5000x3 : Shape := ⟨2, ![5000, 3]⟩
abbrev S2x500000 : Shape := ⟨2, ![2, 500000]⟩
abbrev S2x300000 : Shape := ⟨2, ![2, 300000]⟩
abbrev S2x150000 : Shape := ⟨2, ![2, 150000]⟩
abbrev S128x6 : Shape := ⟨2, ![128, 6]⟩
abbrev S128 : Shape := ⟨1, ![128]⟩
abbrev S128x4 : Shape := ⟨2, ![128, 4]⟩
abbrev S128x3 : Shape := ⟨2, ![128, 3]⟩
abbrev S2x6x128x128 : Shape := ⟨4, ![2, 6, 128, 128]⟩
abbrev S2x6x128 : Shape := ⟨3, ![2, 6, 128]⟩
abbrev S2x3x128 : Shape := ⟨3, ![2, 3, 128]⟩
abbrev S_ : Shape := ⟨0, ![]⟩

class Facts : Prop where
  bcast_S_S100000x6 : S_.BroadcastsInDim S100000x6 (![] : Fin 0 → Fin S100000x6.rank)
  reducesTo_S100000x6_S_d0_1 : S100000x6.ReducesTo [0, 1] S_
  h_S_ : 0 < S_.numel
  bcast_S_S50000x4 : S_.BroadcastsInDim S50000x4 (![] : Fin 0 → Fin S50000x4.rank)
  reducesTo_S50000x4_S_d0_1 : S50000x4.ReducesTo [0, 1] S_
  bcast_S_S5000x3 : S_.BroadcastsInDim S5000x3 (![] : Fin 0 → Fin S5000x3.rank)
  reducesTo_S5000x3_S_d0_1 : S5000x3.ReducesTo [0, 1] S_
  bcast_S_S128x6 : S_.BroadcastsInDim S128x6 (![] : Fin 0 → Fin S128x6.rank)
  reducesTo_S128x6_S_d0_1 : S128x6.ReducesTo [0, 1] S_
  bcast_S_S128 : S_.BroadcastsInDim S128 (![] : Fin 0 → Fin S128.rank)
  reducesTo_S128_S_d0 : S128.ReducesTo [0] S_
  bcast_S_S128x4 : S_.BroadcastsInDim S128x4 (![] : Fin 0 → Fin S128x4.rank)
  reducesTo_S128x4_S_d0_1 : S128x4.ReducesTo [0, 1] S_
  bcast_S_S128x3 : S_.BroadcastsInDim S128x3 (![] : Fin 0 → Fin S128x3.rank)
  reducesTo_S128x3_S_d0_1 : S128x3.ReducesTo [0, 1] S_
  bcast_S_S2x6x128x128 : S_.BroadcastsInDim S2x6x128x128 (![] : Fin 0 → Fin S2x6x128x128.rank)
  reducesTo_S2x6x128x128_S_d0_1_2_3 : S2x6x128x128.ReducesTo [0, 1, 2, 3] S_
  bcast_S_S2x6x128 : S_.BroadcastsInDim S2x6x128 (![] : Fin 0 → Fin S2x6x128.rank)
  reducesTo_S2x6x128_S_d0_1_2 : S2x6x128.ReducesTo [0, 1, 2] S_
  bcast_S_S2x3x128 : S_.BroadcastsInDim S2x3x128 (![] : Fin 0 → Fin S2x3x128.rank)
  reducesTo_S2x3x128_S_d0_1_2 : S2x3x128.ReducesTo [0, 1, 2] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg17 : FVec F S2x6x128x128 .f32) (main_arg18 : FVec F S2x3x128 .f32) (main_arg19 : FVec F S2x3x128 .f32) (main_v48 : IVec S_ 1) (main_v49 : FVec F S2x6x128 .f32) (main_v50 : FVec F S2x6x128 .f32) : IVec S_ 1 :=
  let main_v51 : IVec S2x6x128 1 := cmpf .olt main_v49 main_v50
  let main_c_19 : IVec S_ 1 := constantI S_ 1 1#1
  let main_v52 : IVec S_ 1 := (fun x v => Host.reduce IntOp.andi x v reducesTo_S2x6x128_S_d0_1_2 h_S_) main_v51 main_c_19
  let main_v53 : IVec S_ 1 := andi main_v48 main_v52
  let main_v54 : FVec F S2x6x128x128 .f32 := Host.absf main_arg17
  let main_cst_20 : FVec F S_ .f32 := constant S_ .f32 0x7F800000#32
  let main_v55 : FVec F S2x6x128x128 .f32 := broadcastInDim S2x6x128x128 ![] bcast_S_S2x6x128x128 main_cst_20
  let main_v56 : IVec S2x6x128x128 1 := cmpf .olt main_v54 main_v55
  let main_c_21 : IVec S_ 1 := constantI S_ 1 1#1
  let main_v57 : IVec S_ 1 := (fun x v => Host.reduce IntOp.andi x v reducesTo_S2x6x128x128_S_d0_1_2_3 h_S_) main_v56 main_c_21
  let main_v58 : IVec S_ 1 := andi main_v53 main_v57
  let main_v59 : FVec F S2x3x128 .f32 := Host.absf main_arg18
  let main_cst_22 : FVec F S_ .f32 := constant S_ .f32 0x7F800000#32
  let main_v60 : FVec F S2x3x128 .f32 := broadcastInDim S2x3x128 ![] bcast_S_S2x3x128 main_cst_22
  let main_v61 : IVec S2x3x128 1 := cmpf .olt main_v59 main_v60
  let main_c_23 : IVec S_ 1 := constantI S_ 1 1#1
  let main_v62 : IVec S_ 1 := (fun x v => Host.reduce IntOp.andi x v reducesTo_S2x3x128_S_d0_1_2 h_S_) main_v61 main_c_23
  let main_v63 : IVec S_ 1 := andi main_v58 main_v62
  let main_v64 : FVec F S2x3x128 .f32 := Host.absf main_arg19
  let main_cst_24 : FVec F S_ .f32 := constant S_ .f32 0x7F800000#32
  let main_v65 : FVec F S2x3x128 .f32 := broadcastInDim S2x3x128 ![] bcast_S_S2x3x128 main_cst_24
  let main_v66 : IVec S2x3x128 1 := cmpf .olt main_v64 main_v65
  let main_c_25 : IVec S_ 1 := constantI S_ 1 1#1
  let main_v67 : IVec S_ 1 := (fun x v => Host.reduce IntOp.andi x v reducesTo_S2x3x128_S_d0_1_2 h_S_) main_v66 main_c_25
  fn_part4 (F := F) main_v63 main_v67

def fn_part2 {F : FTy → Type} [FloatOps F] (main_arg13 : FVec F S128x3 .f32) (main_arg14 : FVec F S128 .f32) (main_arg15 : FVec F S2x6x128x128 .f32) (main_arg16 : FVec F S2x6x128 .f32) (main_arg17 : FVec F S2x6x128x128 .f32) (main_arg18 : FVec F S2x3x128 .f32) (main_arg19 : FVec F S2x3x128 .f32) (main_v33 : IVec S_ 1) : IVec S_ 1 :=
  let main_v34 : FVec F S128x3 .f32 := Host.absf main_arg13
  let main_cst_12 : FVec F S_ .f32 := constant S_ .f32 0x7F800000#32
  let main_v35 : FVec F S128x3 .f32 := broadcastInDim S128x3 ![] bcast_S_S128x3 main_cst_12
  let main_v36 : IVec S128x3 1 := cmpf .olt main_v34 main_v35
  let main_c_13 : IVec S_ 1 := constantI S_ 1 1#1
  let main_v37 : IVec S_ 1 := (fun x v => Host.reduce IntOp.andi x v reducesTo_S128x3_S_d0_1 h_S_) main_v36 main_c_13
  let main_v38 : IVec S_ 1 := andi main_v33 main_v37
  let main_v39 : FVec F S128 .f32 := Host.absf main_arg14
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S2x6x128x128 .f32 := Host.absf main_arg15
  let main_cst_16 : FVec F S_ .f32 := constant S_ .f32 0x7F800000#32
  let main_v45 : FVec F S2x6x128x128 .f32 := broadcastInDim S2x6x128x128 ![] bcast_S_S2x6x128x128 main_cst_16
  let main_v46 : IVec S2x6x128x128 1 := cmpf .olt main_v44 main_v45
  let main_c_17 : IVec S_ 1 := constantI S_ 1 1#1
  let main_v47 : IVec S_ 1 := (fun x v => Host.reduce IntOp.andi x v reducesTo_S2x6x128x128_S_d0_1_2_3 h_S_) main_v46 main_c_17
  let main_v48 : IVec S_ 1 := andi main_v43 main_v47
  let main_v49 : FVec F S2x6x128 .f32 := Host.absf main_arg16
  let main_cst_18 : FVec F S_ .f32 := constant S_ .f32 0x7F800000#32
  let main_v50 : FVec F S2x6x128 .f32 := broadcastInDim S2x6x128 ![] bcast_S_S2x6x128 main_cst_18
  fn_part3 (F := F) main_arg17 main_arg18 main_arg19 main_v48 main_v49 main_v50

def fn_part1 {F : FTy → Type} [FloatOps F] (main_arg10 : FVec F S128 .f32) (main_arg11 : FVec F S128x4 .f32) (main_arg12 : FVec F S128 .f32) (main_arg13 : FVec F S128x3 .f32) (main_arg14 : FVec F S128 .f32) (main_arg15 : FVec F S2x6x128x128 .f32) (main_arg16 : FVec F S2x6x128 .f32) (main_arg17 : FVec F S2x6x128x128 .f32) (main_arg18 : FVec F S2x3x128 .f32) (main_arg19 : FVec F S2x3x128 .f32) (main_v13 : IVec S_ 1) (main_v16 : IVec S128x6 1) : IVec S_ 1 :=
  let main_c_5 : IVec S_ 1 := constantI S_ 1 1#1
  let main_v17 : IVec S_ 1 := (fun x v => Host.reduce IntOp.andi x v reducesTo_S128x6_S_d0_1 h_S_) main_v16 main_c_5
  let main_v18 : IVec S_ 1 := andi main_v13 main_v17
  let main_v19 : FVec F S128 .f32 := Host.absf main_arg10
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x4 .f32 := Host.absf main_arg11
  let main_cst_8 : FVec F S_ .f32 := constant S_ .f32 0x7F800000#32
  let main_v25 : FVec F S128x4 .f32 := broadcastInDim S128x4 ![] bcast_S_S128x4 main_cst_8
  let main_v26 : IVec S128x4 1 := cmpf .olt main_v24 main_v25
  let main_c_9 : IVec S_ 1 := constantI S_ 1 1#1
  let main_v27 : IVec S_ 1 := (fun x v => Host.reduce IntOp.andi x v reducesTo_S128x4_S_d0_1 h_S_) main_v26 main_c_9
  let main_v28 : IVec S_ 1 := andi main_v23 main_v27
  let main_v29 : FVec F S128 .f32 := Host.absf main_arg12
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg13 main_arg14 main_arg15 main_arg16 main_arg17 main_arg18 main_arg19 main_v33

def fn {F : FTy → Type} [FloatOps F] (main_arg0 : FVec F S100000x6 .f32) (main_arg1 : FVec F S50000x4 .f32) (main_arg2 : FVec F S5000x3 .f32) (main_arg3 : IVec S2x500000 32) (main_arg4 : IVec S2x500000 32) (main_arg5 : IVec S2x300000 32) (main_arg6 : IVec S2x300000 32) (main_arg7 : IVec S2x150000 32) (main_arg8 : IVec S2x150000 32) (main_arg9 : FVec F S128x6 .f32) (main_arg10 : FVec F S128 .f32) (main_arg11 : FVec F S128x4 .f32) (main_arg12 : FVec F S128 .f32) (main_arg13 : FVec F S128x3 .f32) (main_arg14 : FVec F S128 .f32) (main_arg15 : FVec F S2x6x128x128 .f32) (main_arg16 : FVec F S2x6x128 .f32) (main_arg17 : FVec F S2x6x128x128 .f32) (main_arg18 : FVec F S2x3x128 .f32) (main_arg19 : FVec F S2x3x128 .f32) : IVec S_ 1 :=
  let main_v0 : FVec F S100000x6 .f32 := Host.absf main_arg0
  let main_cst : FVec F S_ .f32 := constant S_ .f32 0x7F800000#32
  let main_v1 : FVec F S100000x6 .f32 := broadcastInDim S100000x6 ![] bcast_S_S100000x6 main_cst
  let main_v2 : IVec S100000x6 1 := cmpf .olt main_v0 main_v1
  let main_c : IVec S_ 1 := constantI S_ 1 1#1
  let main_v3 : IVec S_ 1 := (fun x v => Host.reduce IntOp.andi x v reducesTo_S100000x6_S_d0_1 h_S_) main_v2 main_c
  let main_v4 : FVec F S50000x4 .f32 := Host.absf main_arg1
  let main_cst_0 : FVec F S_ .f32 := constant S_ .f32 0x7F800000#32
  let main_v5 : FVec F S50000x4 .f32 := broadcastInDim S50000x4 ![] bcast_S_S50000x4 main_cst_0
  let main_v6 : IVec S50000x4 1 := cmpf .olt main_v4 main_v5
  let main_c_1 : IVec S_ 1 := constantI S_ 1 1#1
  let main_v7 : IVec S_ 1 := (fun x v => Host.reduce IntOp.andi x v reducesTo_S50000x4_S_d0_1 h_S_) main_v6 main_c_1
  let main_v8 : IVec S_ 1 := andi main_v3 main_v7
  let main_v9 : FVec F S5000x3 .f32 := Host.absf main_arg2
  let main_cst_2 : FVec F S_ .f32 := constant S_ .f32 0x7F800000#32
  let main_v10 : FVec F S5000x3 .f32 := broadcastInDim S5000x3 ![] bcast_S_S5000x3 main_cst_2
  let main_v11 : IVec S5000x3 1 := cmpf .olt main_v9 main_v10
  let main_c_3 : IVec S_ 1 := constantI S_ 1 1#1
  let main_v12 : IVec S_ 1 := (fun x v => Host.reduce IntOp.andi x v reducesTo_S5000x3_S_d0_1 h_S_) main_v11 main_c_3
  let main_v13 : IVec S_ 1 := andi main_v8 main_v12
  let main_v14 : FVec F S128x6 .f32 := Host.absf main_arg9
  let main_cst_4 : FVec F S_ .f32 := constant S_ .f32 0x7F800000#32
  let main_v15 : FVec F S128x6 .f32 := broadcastInDim S128x6 ![] bcast_S_S128x6 main_cst_4
  let main_v16 : IVec S128x6 1 := cmpf .olt main_v14 main_v15
  fn_part1 (F := F) main_arg10 main_arg11 main_arg12 main_arg13 main_arg14 main_arg15 main_arg16 main_arg17 main_arg18 main_arg19 main_v13 main_v16
-- ==== Kernel.lean ====
abbrev S100000x6 : Shape := ⟨2, ![100000, 6]⟩
abbrev S50000x4 : Shape := ⟨2, ![50000, 4]⟩
abbrev S5000x3 : Shape := ⟨2, ![5000, 3]⟩
abbrev S2x500000 : Shape := ⟨2, ![2, 500000]⟩
abbrev S2x300000 : Shape := ⟨2, ![2, 300000]⟩
abbrev S2x150000 : Shape := ⟨2, ![2, 150000]⟩
abbrev S128x6 : Shape := ⟨2, ![128, 6]⟩
abbrev S128 : Shape := ⟨1, ![128]⟩
abbrev S128x4 : Shape := ⟨2, ![128, 4]⟩
abbrev S128x3 : Shape := ⟨2, ![128, 3]⟩
abbrev S2x6x128x128 : Shape := ⟨4, ![2, 6, 128, 128]⟩
abbrev S2x6x128 : Shape := ⟨3, ![2, 6, 128]⟩
abbrev S2x3x128 : Shape := ⟨3, ![2, 3, 128]⟩
abbrev S6x128 : Shape := ⟨2, ![6, 128]⟩
abbrev S100000x128 : Shape := ⟨2, ![100000, 128]⟩
abbrev S1x128 : Shape := ⟨2, ![1, 128]⟩
abbrev S4x128 : Shape := ⟨2, ![4, 128]⟩
abbrev S50000x128 : Shape := ⟨2, ![50000, 128]⟩
abbrev S3x128 : Shape := ⟨2, ![3, 128]⟩
abbrev S5000x128 : Shape := ⟨2, ![5000, 128]⟩
abbrev S1x6x128x128 : Shape := ⟨4, ![1, 6, 128, 128]⟩
abbrev S6x128x128 : Shape := ⟨3, ![6, 128, 128]⟩
abbrev S1x6x128 : Shape := ⟨3, ![1, 6, 128]⟩
abbrev S1x500000 : Shape := ⟨2, ![1, 500000]⟩
abbrev S500000 : Shape := ⟨1, ![500000]⟩
abbrev S_ : Shape := ⟨0, ![]⟩
abbrev S500000x1 : Shape := ⟨2, ![500000, 1]⟩
abbrev S500000x128 : Shape := ⟨2, ![500000, 128]⟩
abbrev S50000 : Shape := ⟨1, ![50000]⟩
abbrev S50000x1 : Shape := ⟨2, ![50000, 1]⟩
abbrev S100000 : Shape := ⟨1, ![100000]⟩
abbrev S100000x1 : Shape := ⟨2, ![100000, 1]⟩
abbrev S1x300000 : Shape := ⟨2, ![1, 300000]⟩
abbrev S300000 : Shape := ⟨1, ![300000]⟩
abbrev S300000x1 : Shape := ⟨2, ![300000, 1]⟩
abbrev S300000x128 : Shape := ⟨2, ![300000, 128]⟩
abbrev S5000 : Shape := ⟨1, ![5000]⟩
abbrev S5000x1 : Shape := ⟨2, ![5000, 1]⟩
abbrev S1x150000 : Shape := ⟨2, ![1, 150000]⟩
abbrev S150000 : Shape := ⟨1, ![150000]⟩
abbrev S150000x1 : Shape := ⟨2, ![150000, 1]⟩
abbrev S150000x128 : Shape := ⟨2, ![150000, 128]⟩
abbrev S1x128x128 : Shape := ⟨3, ![1, 128, 128]⟩
abbrev S128x128 : Shape := ⟨2, ![128, 128]⟩
abbrev S1x1x128 : Shape := ⟨3, ![1, 1, 128]⟩
abbrev S4000x128 : Shape := ⟨2, ![4000, 128]⟩
abbrev S4000 : Shape := ⟨1, ![4000]⟩
abbrev S4000x1 : Shape := ⟨2, ![4000, 1]⟩
abbrev S2000x128 : Shape := ⟨2, ![2000, 128]⟩
abbrev S2000 : Shape := ⟨1, ![2000]⟩
abbrev S2000x1 : Shape := ⟨2, ![2000, 1]⟩

abbrev nBuf : Space → Nat
  | .hbm => 501
  | .vmem => 88
  | .smem => 0
  | _ => 0

abbrev hbmTy0_0 (i : Nat) : BufTy := match i % 128 with
  | 0 => ⟨S100000x6, .f32⟩
  | 1 => ⟨S50000x4, .f32⟩
  | 2 => ⟨S5000x3, .f32⟩
  | 3 => ⟨S2x500000, .i32⟩
  | 4 => ⟨S2x500000, .i32⟩
  | 5 => ⟨S2x300000, .i32⟩
  | 6 => ⟨S2x300000, .i32⟩
  | 7 => ⟨S2x150000, .i32⟩
  | 8 => ⟨S2x150000, .i32⟩
  | 9 => ⟨S128x6, .f32⟩
  | 10 => ⟨S128, .f32⟩
  | 11 => ⟨S128x4, .f32⟩
  | 12 => ⟨S128, .f32⟩
  | 13 => ⟨S128x3, .f32⟩
  | 14 => ⟨S128, .f32⟩
  | 15 => ⟨S2x6x128x128, .f32⟩
  | 16 => ⟨S2x6x128, .f32⟩
  | 17 => ⟨S2x6x128x128, .f32⟩
  | 18 => ⟨S2x3x128, .f32⟩
  | 19 => ⟨S2x3x128, .f32⟩
  | 20 => ⟨S6x128, .f32⟩
  | 21 => ⟨S100000x128, .f32⟩
  | 22 => ⟨S1x128, .f32⟩
  | 23 => ⟨S100000x128, .f32⟩
  | 24 => ⟨S100000x128, .f32⟩
  | 25 => ⟨S4x128, .f32⟩
  | 26 => ⟨S50000x128, .f32⟩
  | 27 => ⟨S1x128, .f32⟩
  | 28 => ⟨S50000x128, .f32⟩
  | 29 => ⟨S50000x128, .f32⟩
  | 30 => ⟨S3x128, .f32⟩
  | 31 => ⟨S5000x128, .f32⟩
  | 32 => ⟨S1x128, .f32⟩
  | 33 => ⟨S5000x128, .f32⟩
  | 34 => ⟨S5000x128, .f32⟩
  | 35 => ⟨S1x6x128x128, .f32⟩
  | 36 => ⟨S6x128x128, .f32⟩
  | 37 => ⟨S1x6x128, .f32⟩
  | 38 => ⟨S6x128, .f32⟩
  | 39 => ⟨S1x6x128x128, .f32⟩
  | 40 => ⟨S6x128x128, .f32⟩
  | 41 => ⟨S6x128x128, .f32⟩
  | 42 => ⟨S6x128x128, .f32⟩
  | 43 => ⟨S1x500000, .i32⟩
  | 44 => ⟨S500000, .i32⟩
  | 45 => ⟨S1x500000, .i32⟩
  | 46 => ⟨S500000, .i32⟩
  | 47 => ⟨S_, .i32⟩
  | 48 => ⟨S500000, .i32⟩
  | 49 => ⟨S500000, .i1⟩
  | 50 => ⟨S_, .i32⟩
  | 51 => ⟨S500000, .i32⟩
  | 52 => ⟨S500000, .i32⟩
  | 53 => ⟨S500000, .i32⟩
  | 54 => ⟨S500000x1, .i32⟩
  | 55 => ⟨S500000x128, .f32⟩
  | 56 => ⟨S_, .f32⟩
  | 57 => ⟨S50000x128, .f32⟩
  | 58 => ⟨S500000x1, .i32⟩
  | 59 => ⟨S50000x128, .f32⟩
  | 60 => ⟨S_, .f32⟩
  | 61 => ⟨S500000, .f32⟩
  | 62 => ⟨S_, .f32⟩
  | 63 => ⟨S50000, .f32⟩
  | 64 => ⟨S500000x1, .i32⟩
  | 65 => ⟨S50000, .f32⟩
  | 66 => ⟨S_, .f32⟩
  | 67 => ⟨S50000, .f32⟩
  | 68 => ⟨S50000, .f32⟩
  | 69 => ⟨S50000x1, .f32⟩
  | 70 => ⟨S50000x128, .f32⟩
  | 71 => ⟨S50000x128, .f32⟩
  | 72 => ⟨S1x500000, .i32⟩
  | 73 => ⟨S500000, .i32⟩
  | 74 => ⟨S1x500000, .i32⟩
  | 75 => ⟨S500000, .i32⟩
  | 76 => ⟨S_, .i32⟩
  | 77 => ⟨S500000, .i32⟩
  | 78 => ⟨S500000, .i1⟩
  | 79 => ⟨S_, .i32⟩
  | 80 => ⟨S500000, .i32⟩
  | 81 => ⟨S500000, .i32⟩
  | 82 => ⟨S500000, .i32⟩
  | 83 => ⟨S500000x1, .i32⟩
  | 84 => ⟨S500000x128, .f32⟩
  | 85 => ⟨S_, .f32⟩
  | 86 => ⟨S100000x128, .f32⟩
  | 87 => ⟨S500000x1, .i32⟩
  | 88 => ⟨S100000x128, .f32⟩
  | 89 => ⟨S_, .f32⟩
  | 90 => ⟨S500000, .f32⟩
  | 91 => ⟨S_, .f32⟩
  | 92 => ⟨S100000, .f32⟩
  | 93 => ⟨S500000x1, .i32⟩
  | 94 => ⟨S100000, .f32⟩
  | 95 => ⟨S_, .f32⟩
  | 96 => ⟨S100000, .f32⟩
  | 97 => ⟨S100000, .f32⟩
  | 98 => ⟨S100000x1, .f32⟩
  | 99 => ⟨S100000x128, .f32⟩
  | 100 => ⟨S100000x128, .f32⟩
  | 101 => ⟨S1x300000, .i32⟩
  | 102 => ⟨S300000, .i32⟩
  | 103 => ⟨S1x300000, .i32⟩
  | 104 => ⟨S300000, .i32⟩
  | 105 => ⟨S_, .i32⟩
  | 106 => ⟨S300000, .i32⟩
  | 107 => ⟨S300000, .i1⟩
  | 108 => ⟨S_, .i32⟩
  | 109 => ⟨S300000, .i32⟩
  | 110 => ⟨S300000, .i32⟩
  | 111 => ⟨S300000, .i32⟩
  | 112 => ⟨S300000x1, .i32⟩
  | 113 => ⟨S300000x128, .f32⟩
  | 114 => ⟨S_, .f32⟩
  | 115 => ⟨S5000x128, .f32⟩
  | 116 => ⟨S300000x1, .i32⟩
  | 117 => ⟨S5000x128, .f32⟩
  | 118 => ⟨S_, .f32⟩
  | 119 => ⟨S300000, .f32⟩
  | 120 => ⟨S_, .f32⟩
  | 121 => ⟨S5000, .f32⟩
  | 122 => ⟨S300000x1, .i32⟩
  | 123 => ⟨S5000, .f32⟩
  | 124 => ⟨S_, .f32⟩
  | 125 => ⟨S5000, .f32⟩
  | 126 => ⟨S5000, .f32⟩
  | 127 => ⟨S5000x1, .f32⟩
  | _ => ⟨S100000x6, .f32⟩

abbrev hbmTy0_1 (i : Nat) : BufTy := match i % 128 with
  | 0 => ⟨S5000x128, .f32⟩
  | 1 => ⟨S5000x128, .f32⟩
  | 2 => ⟨S1x300000, .i32⟩
  | 3 => ⟨S300000, .i32⟩
  | 4 => ⟨S1x300000, .i32⟩
  | 5 => ⟨S300000, .i32⟩
  | 6 => ⟨S_, .i32⟩
  | 7 => ⟨S300000, .i32⟩
  | 8 => ⟨S300000, .i1⟩
  | 9 => ⟨S_, .i32⟩
  | 10 => ⟨S300000, .i32⟩
  | 11 => ⟨S300000, .i32⟩
  | 12 => ⟨S300000, .i32⟩
  | 13 => ⟨S300000x1, .i32⟩
  | 14 => ⟨S300000x128, .f32⟩
  | 15 => ⟨S_, .f32⟩
  | 16 => ⟨S100000x128, .f32⟩
  | 17 => ⟨S300000x1, .i32⟩
  | 18 => ⟨S100000x128, .f32⟩
  | 19 => ⟨S_, .f32⟩
  | 20 => ⟨S300000, .f32⟩
  | 21 => ⟨S_, .f32⟩
  | 22 => ⟨S100000, .f32⟩
  | 23 => ⟨S300000x1, .i32⟩
  | 24 => ⟨S100000, .f32⟩
  | 25 => ⟨S_, .f32⟩
  | 26 => ⟨S100000, .f32⟩
  | 27 => ⟨S100000, .f32⟩
  | 28 => ⟨S100000x1, .f32⟩
  | 29 => ⟨S100000x128, .f32⟩
  | 30 => ⟨S100000x128, .f32⟩
  | 31 => ⟨S1x150000, .i32⟩
  | 32 => ⟨S150000, .i32⟩
  | 33 => ⟨S1x150000, .i32⟩
  | 34 => ⟨S150000, .i32⟩
  | 35 => ⟨S_, .i32⟩
  | 36 => ⟨S150000, .i32⟩
  | 37 => ⟨S150000, .i1⟩
  | 38 => ⟨S_, .i32⟩
  | 39 => ⟨S150000, .i32⟩
  | 40 => ⟨S150000, .i32⟩
  | 41 => ⟨S150000, .i32⟩
  | 42 => ⟨S150000x1, .i32⟩
  | 43 => ⟨S150000x128, .f32⟩
  | 44 => ⟨S_, .f32⟩
  | 45 => ⟨S5000x128, .f32⟩
  | 46 => ⟨S150000x1, .i32⟩
  | 47 => ⟨S5000x128, .f32⟩
  | 48 => ⟨S_, .f32⟩
  | 49 => ⟨S150000, .f32⟩
  | 50 => ⟨S_, .f32⟩
  | 51 => ⟨S5000, .f32⟩
  | 52 => ⟨S150000x1, .i32⟩
  | 53 => ⟨S5000, .f32⟩
  | 54 => ⟨S_, .f32⟩
  | 55 => ⟨S5000, .f32⟩
  | 56 => ⟨S5000, .f32⟩
  | 57 => ⟨S5000x1, .f32⟩
  | 58 => ⟨S5000x128, .f32⟩
  | 59 => ⟨S5000x128, .f32⟩
  | 60 => ⟨S1x150000, .i32⟩
  | 61 => ⟨S150000, .i32⟩
  | 62 => ⟨S1x150000, .i32⟩
  | 63 => ⟨S150000, .i32⟩
  | 64 => ⟨S_, .i32⟩
  | 65 => ⟨S150000, .i32⟩
  | 66 => ⟨S150000, .i1⟩
  | 67 => ⟨S_, .i32⟩
  | 68 => ⟨S150000, .i32⟩
  | 69 => ⟨S150000, .i32⟩
  | 70 => ⟨S150000, .i32⟩
  | 71 => ⟨S150000x1, .i32⟩
  | 72 => ⟨S150000x128, .f32⟩
  | 73 => ⟨S_, .f32⟩
  | 74 => ⟨S50000x128, .f32⟩
  | 75 => ⟨S150000x1, .i32⟩
  | 76 => ⟨S50000x128, .f32⟩
  | 77 => ⟨S_, .f32⟩
  | 78 => ⟨S150000, .f32⟩
  | 79 => ⟨S_, .f32⟩
  | 80 => ⟨S50000, .f32⟩
  | 81 => ⟨S150000x1, .i32⟩
  | 82 => ⟨S50000, .f32⟩
  | 83 => ⟨S_, .f32⟩
  | 84 => ⟨S50000, .f32⟩
  | 85 => ⟨S50000, .f32⟩
  | 86 => ⟨S50000x1, .f32⟩
  | 87 => ⟨S50000x128, .f32⟩
  | 88 => ⟨S50000x128, .f32⟩
  | 89 => ⟨S1x128x128, .f32⟩
  | 90 => ⟨S128x128, .f32⟩
  | 91 => ⟨S1x128x128, .f32⟩
  | 92 => ⟨S128x128, .f32⟩
  | 93 => ⟨S1x128x128, .f32⟩
  | 94 => ⟨S128x128, .f32⟩
  | 95 => ⟨S1x128x128, .f32⟩
  | 96 => ⟨S128x128, .f32⟩
  | 97 => ⟨S1x128, .f32⟩
  | 98 => ⟨S128, .f32⟩
  | 99 => ⟨S1x128, .f32⟩
  | 100 => ⟨S128, .f32⟩
  | 101 => ⟨S1x1x128, .f32⟩
  | 102 => ⟨S128, .f32⟩
  | 103 => ⟨S1x1x128, .f32⟩
  | 104 => ⟨S128, .f32⟩
  | 105 => ⟨S100000x128, .f32⟩
  | 106 => ⟨S1x128x128, .f32⟩
  | 107 => ⟨S128x128, .f32⟩
  | 108 => ⟨S1x128x128, .f32⟩
  | 109 => ⟨S128x128, .f32⟩
  | 110 => ⟨S1x128x128, .f32⟩
  | 111 => ⟨S128x128, .f32⟩
  | 112 => ⟨S1x128x128, .f32⟩
  | 113 => ⟨S128x128, .f32⟩
  | 114 => ⟨S1x128, .f32⟩
  | 115 => ⟨S128, .f32⟩
  | 116 => ⟨S1x128, .f32⟩
  | 117 => ⟨S128, .f32⟩
  | 118 => ⟨S1x1x128, .f32⟩
  | 119 => ⟨S128, .f32⟩
  | 120 => ⟨S1x1x128, .f32⟩
  | 121 => ⟨S128, .f32⟩
  | 122 => ⟨S50000x128, .f32⟩
  | 123 => ⟨S1x128x128, .f32⟩
  | 124 => ⟨S128x128, .f32⟩
  | 125 => ⟨S1x128x128, .f32⟩
  | 126 => ⟨S128x128, .f32⟩
  | 127 => ⟨S1x128x128, .f32⟩
  | _ => ⟨S100000x6, .f32⟩

abbrev hbmTy0_2 (i : Nat) : BufTy := match i % 128 with
  | 0 => ⟨S128x128, .f32⟩
  | 1 => ⟨S1x128x128, .f32⟩
  | 2 => ⟨S128x128, .f32⟩
  | 3 => ⟨S1x128, .f32⟩
  | 4 => ⟨S128, .f32⟩
  | 5 => ⟨S1x128, .f32⟩
  | 6 => ⟨S128, .f32⟩
  | 7 => ⟨S1x1x128, .f32⟩
  | 8 => ⟨S128, .f32⟩
  | 9 => ⟨S1x1x128, .f32⟩
  | 10 => ⟨S128, .f32⟩
  | 11 => ⟨S5000x128, .f32⟩
  | 12 => ⟨S1x6x128x128, .f32⟩
  | 13 => ⟨S6x128x128, .f32⟩
  | 14 => ⟨S1x6x128, .f32⟩
  | 15 => ⟨S6x128, .f32⟩
  | 16 => ⟨S1x6x128x128, .f32⟩
  | 17 => ⟨S6x128x128, .f32⟩
  | 18 => ⟨S6x128x128, .f32⟩
  | 19 => ⟨S6x128x128, .f32⟩
  | 20 => ⟨S1x500000, .i32⟩
  | 21 => ⟨S500000, .i32⟩
  | 22 => ⟨S1x500000, .i32⟩
  | 23 => ⟨S500000, .i32⟩
  | 24 => ⟨S_, .i32⟩
  | 25 => ⟨S500000, .i32⟩
  | 26 => ⟨S500000, .i1⟩
  | 27 => ⟨S_, .i32⟩
  | 28 => ⟨S500000, .i32⟩
  | 29 => ⟨S500000, .i32⟩
  | 30 => ⟨S500000, .i32⟩
  | 31 => ⟨S500000x1, .i32⟩
  | 32 => ⟨S500000x128, .f32⟩
  | 33 => ⟨S_, .f32⟩
  | 34 => ⟨S50000x128, .f32⟩
  | 35 => ⟨S500000x1, .i32⟩
  | 36 => ⟨S50000x128, .f32⟩
  | 37 => ⟨S_, .f32⟩
  | 38 => ⟨S500000, .f32⟩
  | 39 => ⟨S_, .f32⟩
  | 40 => ⟨S50000, .f32⟩
  | 41 => ⟨S500000x1, .i32⟩
  | 42 => ⟨S50000, .f32⟩
  | 43 => ⟨S_, .f32⟩
  | 44 => ⟨S50000, .f32⟩
  | 45 => ⟨S50000, .f32⟩
  | 46 => ⟨S50000x1, .f32⟩
  | 47 => ⟨S50000x128, .f32⟩
  | 48 => ⟨S50000x128, .f32⟩
  | 49 => ⟨S1x500000, .i32⟩
  | 50 => ⟨S500000, .i32⟩
  | 51 => ⟨S1x500000, .i32⟩
  | 52 => ⟨S500000, .i32⟩
  | 53 => ⟨S_, .i32⟩
  | 54 => ⟨S500000, .i32⟩
  | 55 => ⟨S500000, .i1⟩
  | 56 => ⟨S_, .i32⟩
  | 57 => ⟨S500000, .i32⟩
  | 58 => ⟨S500000, .i32⟩
  | 59 => ⟨S500000, .i32⟩
  | 60 => ⟨S500000x1, .i32⟩
  | 61 => ⟨S500000x128, .f32⟩
  | 62 => ⟨S_, .f32⟩
  | 63 => ⟨S100000x128, .f32⟩
  | 64 => ⟨S500000x1, .i32⟩
  | 65 => ⟨S100000x128, .f32⟩
  | 66 => ⟨S_, .f32⟩
  | 67 => ⟨S500000, .f32⟩
  | 68 => ⟨S_, .f32⟩
  | 69 => ⟨S100000, .f32⟩
  | 70 => ⟨S500000x1, .i32⟩
  | 71 => ⟨S100000, .f32⟩
  | 72 => ⟨S_, .f32⟩
  | 73 => ⟨S100000, .f32⟩
  | 74 => ⟨S100000, .f32⟩
  | 75 => ⟨S100000x1, .f32⟩
  | 76 => ⟨S100000x128, .f32⟩
  | 77 => ⟨S100000x128, .f32⟩
  | 78 => ⟨S1x300000, .i32⟩
  | 79 => ⟨S300000, .i32⟩
  | 80 => ⟨S1x300000, .i32⟩
  | 81 => ⟨S300000, .i32⟩
  | 82 => ⟨S_, .i32⟩
  | 83 => ⟨S300000, .i32⟩
  | 84 => ⟨S300000, .i1⟩
  | 85 => ⟨S_, .i32⟩
  | 86 => ⟨S300000, .i32⟩
  | 87 => ⟨S300000, .i32⟩
  | 88 => ⟨S300000, .i32⟩
  | 89 => ⟨S300000x1, .i32⟩
  | 90 => ⟨S300000x128, .f32⟩
  | 91 => ⟨S_, .f32⟩
  | 92 => ⟨S5000x128, .f32⟩
  | 93 => ⟨S300000x1, .i32⟩
  | 94 => ⟨S5000x128, .f32⟩
  | 95 => ⟨S_, .f32⟩
  | 96 => ⟨S300000, .f32⟩
  | 97 => ⟨S_, .f32⟩
  | 98 => ⟨S5000, .f32⟩
  | 99 => ⟨S300000x1, .i32⟩
  | 100 => ⟨S5000, .f32⟩
  | 101 => ⟨S_, .f32⟩
  | 102 => ⟨S5000, .f32⟩
  | 103 => ⟨S5000, .f32⟩
  | 104 => ⟨S5000x1, .f32⟩
  | 105 => ⟨S5000x128, .f32⟩
  | 106 => ⟨S5000x128, .f32⟩
  | 107 => ⟨S1x300000, .i32⟩
  | 108 => ⟨S300000, .i32⟩
  | 109 => ⟨S1x300000, .i32⟩
  | 110 => ⟨S300000, .i32⟩
  | 111 => ⟨S_, .i32⟩
  | 112 => ⟨S300000, .i32⟩
  | 113 => ⟨S300000, .i1⟩
  | 114 => ⟨S_, .i32⟩
  | 115 => ⟨S300000, .i32⟩
  | 116 => ⟨S300000, .i32⟩
  | 117 => ⟨S300000, .i32⟩
  | 118 => ⟨S300000x1, .i32⟩
  | 119 => ⟨S300000x128, .f32⟩
  | 120 => ⟨S_, .f32⟩
  | 121 => ⟨S100000x128, .f32⟩
  | 122 => ⟨S300000x1, .i32⟩
  | 123 => ⟨S100000x128, .f32⟩
  | 124 => ⟨S_, .f32⟩
  | 125 => ⟨S300000, .f32⟩
  | 126 => ⟨S_, .f32⟩
  | 127 => ⟨S100000, .f32⟩
  | _ => ⟨S100000x6, .f32⟩

abbrev hbmTy0_3 (i : Nat) : BufTy := match i % 128 with
  | 0 => ⟨S300000x1, .i32⟩
  | 1 => ⟨S100000, .f32⟩
  | 2 => ⟨S_, .f32⟩
  | 3 => ⟨S100000, .f32⟩
  | 4 => ⟨S100000, .f32⟩
  | 5 => ⟨S100000x1, .f32⟩
  | 6 => ⟨S100000x128, .f32⟩
  | 7 => ⟨S100000x128, .f32⟩
  | 8 => ⟨S1x150000, .i32⟩
  | 9 => ⟨S150000, .i32⟩
  | 10 => ⟨S1x150000, .i32⟩
  | 11 => ⟨S150000, .i32⟩
  | 12 => ⟨S_, .i32⟩
  | 13 => ⟨S150000, .i32⟩
  | 14 => ⟨S150000, .i1⟩
  | 15 => ⟨S_, .i32⟩
  | 16 => ⟨S150000, .i32⟩
  | 17 => ⟨S150000, .i32⟩
  | 18 => ⟨S150000, .i32⟩
  | 19 => ⟨S150000x1, .i32⟩
  | 20 => ⟨S150000x128, .f32⟩
  | 21 => ⟨S_, .f32⟩
  | 22 => ⟨S5000x128, .f32⟩
  | 23 => ⟨S150000x1, .i32⟩
  | 24 => ⟨S5000x128, .f32⟩
  | 25 => ⟨S_, .f32⟩
  | 26 => ⟨S150000, .f32⟩
  | 27 => ⟨S_, .f32⟩
  | 28 => ⟨S5000, .f32⟩
  | 29 => ⟨S150000x1, .i32⟩
  | 30 => ⟨S5000, .f32⟩
  | 31 => ⟨S_, .f32⟩
  | 32 => ⟨S5000, .f32⟩
  | 33 => ⟨S5000, .f32⟩
  | 34 => ⟨S5000x1, .f32⟩
  | 35 => ⟨S5000x128, .f32⟩
  | 36 => ⟨S5000x128, .f32⟩
  | 37 => ⟨S1x150000, .i32⟩
  | 38 => ⟨S150000, .i32⟩
  | 39 => ⟨S1x150000, .i32⟩
  | 40 => ⟨S150000, .i32⟩
  | 41 => ⟨S_, .i32⟩
  | 42 => ⟨S150000, .i32⟩
  | 43 => ⟨S150000, .i1⟩
  | 44 => ⟨S_, .i32⟩
  | 45 => ⟨S150000, .i32⟩
  | 46 => ⟨S150000, .i32⟩
  | 47 => ⟨S150000, .i32⟩
  | 48 => ⟨S150000x1, .i32⟩
  | 49 => ⟨S150000x128, .f32⟩
  | 50 => ⟨S_, .f32⟩
  | 51 => ⟨S50000x128, .f32⟩
  | 52 => ⟨S150000x1, .i32⟩
  | 53 => ⟨S50000x128, .f32⟩
  | 54 => ⟨S_, .f32⟩
  | 55 => ⟨S150000, .f32⟩
  | 56 => ⟨S_, .f32⟩
  | 57 => ⟨S50000, .f32⟩
  | 58 => ⟨S150000x1, .i32⟩
  | 59 => ⟨S50000, .f32⟩
  | 60 => ⟨S_, .f32⟩
  | 61 => ⟨S50000, .f32⟩
  | 62 => ⟨S50000, .f32⟩
  | 63 => ⟨S50000x1, .f32⟩
  | 64 => ⟨S50000x128, .f32⟩
  | 65 => ⟨S50000x128, .f32⟩
  | 66 => ⟨S1x128x128, .f32⟩
  | 67 => ⟨S128x128, .f32⟩
  | 68 => ⟨S1x128x128, .f32⟩
  | 69 => ⟨S128x128, .f32⟩
  | 70 => ⟨S1x128x128, .f32⟩
  | 71 => ⟨S128x128, .f32⟩
  | 72 => ⟨S1x128x128, .f32⟩
  | 73 => ⟨S128x128, .f32⟩
  | 74 => ⟨S1x128, .f32⟩
  | 75 => ⟨S128, .f32⟩
  | 76 => ⟨S1x128, .f32⟩
  | 77 => ⟨S128, .f32⟩
  | 78 => ⟨S1x1x128, .f32⟩
  | 79 => ⟨S128, .f32⟩
  | 80 => ⟨S1x1x128, .f32⟩
  | 81 => ⟨S128, .f32⟩
  | 82 => ⟨S100000x128, .f32⟩
  | 83 => ⟨S1x128x128, .f32⟩
  | 84 => ⟨S128x128, .f32⟩
  | 85 => ⟨S1x128x128, .f32⟩
  | 86 => ⟨S128x128, .f32⟩
  | 87 => ⟨S1x128x128, .f32⟩
  | 88 => ⟨S128x128, .f32⟩
  | 89 => ⟨S1x128x128, .f32⟩
  | 90 => ⟨S128x128, .f32⟩
  | 91 => ⟨S1x128, .f32⟩
  | 92 => ⟨S128, .f32⟩
  | 93 => ⟨S1x128, .f32⟩
  | 94 => ⟨S128, .f32⟩
  | 95 => ⟨S1x1x128, .f32⟩
  | 96 => ⟨S128, .f32⟩
  | 97 => ⟨S1x1x128, .f32⟩
  | 98 => ⟨S128, .f32⟩
  | 99 => ⟨S50000x128, .f32⟩
  | 100 => ⟨S1x128x128, .f32⟩
  | 101 => ⟨S128x128, .f32⟩
  | 102 => ⟨S1x128x128, .f32⟩
  | 103 => ⟨S128x128, .f32⟩
  | 104 => ⟨S1x128x128, .f32⟩
  | 105 => ⟨S128x128, .f32⟩
  | 106 => ⟨S1x128x128, .f32⟩
  | 107 => ⟨S128x128, .f32⟩
  | 108 => ⟨S1x128, .f32⟩
  | 109 => ⟨S128, .f32⟩
  | 110 => ⟨S1x128, .f32⟩
  | 111 => ⟨S128, .f32⟩
  | 112 => ⟨S1x1x128, .f32⟩
  | 113 => ⟨S128, .f32⟩
  | 114 => ⟨S1x1x128, .f32⟩
  | 115 => ⟨S128, .f32⟩
  | 116 => ⟨S5000x128, .f32⟩
  | _ => ⟨S100000x6, .f32⟩

abbrev hbmTy (i : Nat) : BufTy := match i / 128 with
  | 0 => hbmTy0_0 i
  | 1 => hbmTy0_1 i
  | 2 => hbmTy0_2 i
  | 3 => hbmTy0_3 i
  | _ => ⟨S100000x6, .f32⟩

abbrev bufTy : (tb : Table) → Fin (tcTables nBuf tb) → BufTy
  | .hbm, ⟨i, _⟩ => hbmTy i
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S4000x128, .f32⟩
  | .local _ .vmem, ⟨5, _⟩ => ⟨S4000x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S128x128, .f32⟩
  | .local _ .vmem, ⟨10, _⟩ => ⟨S128, .f32⟩
  | .local _ .vmem, ⟨11, _⟩ => ⟨S128, .f32⟩
  | .local _ .vmem, ⟨12, _⟩ => ⟨S128, .f32⟩
  | .local _ .vmem, ⟨13, _⟩ => ⟨S128, .f32⟩
  | .local _ .vmem, ⟨14, _⟩ => ⟨S4000x128, .f32⟩
  | .local _ .vmem, ⟨15, _⟩ => ⟨S4000x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S128x128, .f32⟩
  | .local _ .vmem, ⟨23, _⟩ => ⟨S128x128, .f32⟩
  | .local _ .vmem, ⟨24, _⟩ => ⟨S128x128, .f32⟩
  | .local _ .vmem, ⟨25, _⟩ => ⟨S128x128, .f32⟩
  | .local _ .vmem, ⟨26, _⟩ => ⟨S128, .f32⟩
  | .local _ .vmem, ⟨27, _⟩ => ⟨S128, .f32⟩
  | .local _ .vmem, ⟨28, _⟩ => ⟨S128, .f32⟩
  | .local _ .vmem, ⟨29, _⟩ => ⟨S128, .f32⟩
  | .local _ .vmem, ⟨30, _⟩ => ⟨S2000x128, .f32⟩
  | .local _ .vmem, ⟨31, _⟩ => ⟨S2000x128, .f32⟩
  | .local _ .vmem, ⟨32, _⟩ => ⟨S5000x128, .f32⟩
  | .local _ .vmem, ⟨33, _⟩ => ⟨S5000x128, .f32⟩
  | .local _ .vmem, ⟨34, _⟩ => ⟨S5000x128, .f32⟩
  | .local _ .vmem, ⟨35, _⟩ => ⟨S128x128, .f32⟩
  | .local _ .vmem, ⟨36, _⟩ => ⟨S128x128, .f32⟩
  | .local _ .vmem, ⟨37, _⟩ => ⟨S128x128, .f32⟩
  | .local _ .vmem, ⟨38, _⟩ => ⟨S128x128, .f32⟩
  | .local _ .vmem, ⟨39, _⟩ => ⟨S128, .f32⟩
  | .local _ .vmem, ⟨40, _⟩ => ⟨S128, .f32⟩
  | .local _ .vmem, ⟨41, _⟩ => ⟨S128, .f32⟩
  | .local _ .vmem, ⟨42, _⟩ => ⟨S128, .f32⟩
  | .local _ .vmem, ⟨43, _⟩ => ⟨S5000x128, .f32⟩
  | .local _ .vmem, ⟨44, _⟩ => ⟨S4000x128, .f32⟩
  | .local _ .vmem, ⟨45, _⟩ => ⟨S4000x128, .f32⟩
  | .local _ .vmem, ⟨46, _⟩ => ⟨S4000x128, .f32⟩
  | .local _ .vmem, ⟨47, _⟩ => ⟨S4000x128, .f32⟩
  | .local _ .vmem, ⟨48, _⟩ => ⟨S4000x128, .f32⟩
  | .local _ .vmem, ⟨49, _⟩ => ⟨S4000x128, .f32⟩
  | .local _ .vmem, ⟨50, _⟩ => ⟨S128x128, .f32⟩
  | .local _ .vmem, ⟨51, _⟩ => ⟨S128x128, .f32⟩
  | .local _ .vmem, ⟨52, _⟩ => ⟨S128x128, .f32⟩
  | .local _ .vmem, ⟨53, _⟩ => ⟨S128x128, .f32⟩
  | .local _ .vmem, ⟨54, _⟩ => ⟨S128, .f32⟩
  | .local _ .vmem, ⟨55, _⟩ => ⟨S128, .f32⟩
  | .local _ .vmem, ⟨56, _⟩ => ⟨S128, .f32⟩
  | .local _ .vmem, ⟨57, _⟩ => ⟨S128, .f32⟩
  | .local _ .vmem, ⟨58, _⟩ => ⟨S4000x128, .f32⟩
  | .local _ .vmem, ⟨59, _⟩ => ⟨S4000x128, .f32⟩
  | .local _ .vmem, ⟨60, _⟩ => ⟨S2000x128, .f32⟩
  | .local _ .vmem, ⟨61, _⟩ => ⟨S2000x128, .f32⟩
  | .local _ .vmem, ⟨62, _⟩ => ⟨S2000x128, .f32⟩
  | .local _ .vmem, ⟨63, _⟩ => ⟨S2000x128, .f32⟩
  | .local _ .vmem, ⟨64, _⟩ => ⟨S2000x128, .f32⟩
  | .local _ .vmem, ⟨65, _⟩ => ⟨S2000x128, .f32⟩
  | .local _ .vmem, ⟨66, _⟩ => ⟨S128x128, .f32⟩
  | .local _ .vmem, ⟨67, _⟩ => ⟨S128x128, .f32⟩
  | .local _ .vmem, ⟨68, _⟩ => ⟨S128x128, .f32⟩
  | .local _ .vmem, ⟨69, _⟩ => ⟨S128x128, .f32⟩
  | .local _ .vmem, ⟨70, _⟩ => ⟨S128, .f32⟩
  | .local _ .vmem, ⟨71, _⟩ => ⟨S128, .f32⟩
  | .local _ .vmem, ⟨72, _⟩ => ⟨S128, .f32⟩
  | .local _ .vmem, ⟨73, _⟩ => ⟨S128, .f32⟩
  | .local _ .vmem, ⟨74, _⟩ => ⟨S2000x128, .f32⟩
  | .local _ .vmem, ⟨75, _⟩ => ⟨S2000x128, .f32⟩
  | .local _ .vmem, ⟨76, _⟩ => ⟨S5000x128, .f32⟩
  | .local _ .vmem, ⟨77, _⟩ => ⟨S5000x128, .f32⟩
  | .local _ .vmem, ⟨78, _⟩ => ⟨S5000x128, .f32⟩
  | .local _ .vmem, ⟨79, _⟩ => ⟨S128x128, .f32⟩
  | .local _ .vmem, ⟨80, _⟩ => ⟨S128x128, .f32⟩
  | .local _ .vmem, ⟨81, _⟩ => ⟨S128x128, .f32⟩
  | .local _ .vmem, ⟨82, _⟩ => ⟨S128x128, .f32⟩
  | .local _ .vmem, ⟨83, _⟩ => ⟨S128, .f32⟩
  | .local _ .vmem, ⟨84, _⟩ => ⟨S128, .f32⟩
  | .local _ .vmem, ⟨85, _⟩ => ⟨S128, .f32⟩
  | .local _ .vmem, ⟨86, _⟩ => ⟨S128, .f32⟩
  | .local _ .vmem, ⟨87, _⟩ => ⟨S5000x128, .f32⟩
  | _, _ => ⟨S100000x6, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | _, _ => false

abbrev semScoped : Fin 0 → Bool
  | ⟨_, h⟩ => absurd h (Nat.not_lt_zero _)

abbrev dmaSemScoped : Fin 88 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | _ => false

abbrev sig : RefSig :=
  ofTc nBuf bufTy 0 88 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_c : Ref sig .tc := ⟨.hbm, 47, rfl⟩
abbrev main_v27 : Ref sig .tc := ⟨.hbm, 48, rfl⟩
abbrev main_v28 : Ref sig .tc := ⟨.hbm, 49, rfl⟩
abbrev main_c_0 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_cst_1 : Ref sig .tc := ⟨.hbm, 60, rfl⟩
abbrev main_v37 : Ref sig .tc := ⟨.hbm, 61, rfl⟩
abbrev main_cst_2 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_cst_3 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_c_4 : Ref sig .tc := ⟨.hbm, 76, rfl⟩
abbrev main_v50 : Ref sig .tc := ⟨.hbm, 77, rfl⟩
abbrev main_v51 : Ref sig .tc := ⟨.hbm, 78, rfl⟩
abbrev main_c_5 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_cst_6 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_cst_7 : Ref sig .tc := ⟨.hbm, 89, rfl⟩
abbrev main_v60 : Ref sig .tc := ⟨.hbm, 90, rfl⟩
abbrev main_cst_8 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_cst_9 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_c_10 : Ref sig .tc := ⟨.hbm, 105, rfl⟩
abbrev main_v73 : Ref sig .tc := ⟨.hbm, 106, rfl⟩
abbrev main_v74 : Ref sig .tc := ⟨.hbm, 107, rfl⟩
abbrev main_c_11 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_cst_12 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_cst_13 : Ref sig .tc := ⟨.hbm, 118, rfl⟩
abbrev main_v83 : Ref sig .tc := ⟨.hbm, 119, rfl⟩
abbrev main_cst_14 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_cst_15 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_c_16 : Ref sig .tc := ⟨.hbm, 134, rfl⟩
abbrev main_v96 : Ref sig .tc := ⟨.hbm, 135, rfl⟩
abbrev main_v97 : Ref sig .tc := ⟨.hbm, 136, rfl⟩
abbrev main_c_17 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_cst_18 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_cst_19 : Ref sig .tc := ⟨.hbm, 147, rfl⟩
abbrev main_v106 : Ref sig .tc := ⟨.hbm, 148, rfl⟩
abbrev main_cst_20 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_cst_21 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_c_22 : Ref sig .tc := ⟨.hbm, 163, rfl⟩
abbrev main_v119 : Ref sig .tc := ⟨.hbm, 164, rfl⟩
abbrev main_v120 : Ref sig .tc := ⟨.hbm, 165, rfl⟩
abbrev main_c_23 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev main_cst_24 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_cst_25 : Ref sig .tc := ⟨.hbm, 176, rfl⟩
abbrev main_v129 : Ref sig .tc := ⟨.hbm, 177, rfl⟩
abbrev main_cst_26 : Ref sig .tc := ⟨.hbm, 178, rfl⟩
abbrev main_v130 : Ref sig .tc := ⟨.hbm, 179, rfl⟩
abbrev main_v131 : Ref sig .tc := ⟨.hbm, 180, rfl⟩
abbrev main_v132 : Ref sig .tc := ⟨.hbm, 181, rfl⟩
abbrev main_cst_27 : Ref sig .tc := ⟨.hbm, 182, rfl⟩
abbrev main_v133 : Ref sig .tc := ⟨.hbm, 183, rfl⟩
abbrev main_v134 : Ref sig .tc := ⟨.hbm, 184, rfl⟩
abbrev main_v135 : Ref sig .tc := ⟨.hbm, 185, rfl⟩
abbrev main_v136 : Ref sig .tc := ⟨.hbm, 186, rfl⟩
abbrev main_v137 : Ref sig .tc := ⟨.hbm, 187, rfl⟩
abbrev main_v138 : Ref sig .tc := ⟨.hbm, 188, rfl⟩
abbrev main_v139 : Ref sig .tc := ⟨.hbm, 189, rfl⟩
abbrev main_v140 : Ref sig .tc := ⟨.hbm, 190, rfl⟩
abbrev main_v141 : Ref sig .tc := ⟨.hbm, 191, rfl⟩
abbrev main_c_28 : Ref sig .tc := ⟨.hbm, 192, rfl⟩
abbrev main_v142 : Ref sig .tc := ⟨.hbm, 193, rfl⟩
abbrev main_v143 : Ref sig .tc := ⟨.hbm, 194, rfl⟩
abbrev main_c_29 : Ref sig .tc := ⟨.hbm, 195, rfl⟩
abbrev main_v144 : Ref sig .tc := ⟨.hbm, 196, rfl⟩
abbrev main_v145 : Ref sig .tc := ⟨.hbm, 197, rfl⟩
abbrev main_v146 : Ref sig .tc := ⟨.hbm, 198, rfl⟩
abbrev main_v147 : Ref sig .tc := ⟨.hbm, 199, rfl⟩
abbrev main_v148 : Ref sig .tc := ⟨.hbm, 200, rfl⟩
abbrev main_cst_30 : Ref sig .tc := ⟨.hbm, 201, rfl⟩
abbrev main_v149 : Ref sig .tc := ⟨.hbm, 202, rfl⟩
abbrev main_v150 : Ref sig .tc := ⟨.hbm, 203, rfl⟩
abbrev main_v151 : Ref sig .tc := ⟨.hbm, 204, rfl⟩
abbrev main_cst_31 : Ref sig .tc := ⟨.hbm, 205, rfl⟩
abbrev main_v152 : Ref sig .tc := ⟨.hbm, 206, rfl⟩
abbrev main_cst_32 : Ref sig .tc := ⟨.hbm, 207, rfl⟩
abbrev main_v153 : Ref sig .tc := ⟨.hbm, 208, rfl⟩
abbrev main_v154 : Ref sig .tc := ⟨.hbm, 209, rfl⟩
abbrev main_v155 : Ref sig .tc := ⟨.hbm, 210, rfl⟩
abbrev main_cst_33 : Ref sig .tc := ⟨.hbm, 211, rfl⟩
abbrev main_v156 : Ref sig .tc := ⟨.hbm, 212, rfl⟩
abbrev main_v157 : Ref sig .tc := ⟨.hbm, 213, rfl⟩
abbrev main_v158 : Ref sig .tc := ⟨.hbm, 214, rfl⟩
abbrev main_v159 : Ref sig .tc := ⟨.hbm, 215, rfl⟩
abbrev main_v160 : Ref sig .tc := ⟨.hbm, 216, rfl⟩
abbrev main_v161 : Ref sig .tc := ⟨.hbm, 217, rfl⟩
abbrev main_v162 : Ref sig .tc := ⟨.hbm, 218, rfl⟩
abbrev main_v163 : Ref sig .tc := ⟨.hbm, 219, rfl⟩
abbrev main_v164 : Ref sig .tc := ⟨.hbm, 220, rfl⟩
abbrev main_v165 : Ref sig .tc := ⟨.hbm, 221, rfl⟩
abbrev main_v166 : Ref sig .tc := ⟨.hbm, 222, rfl⟩
abbrev main_v167 : Ref sig .tc := ⟨.hbm, 223, rfl⟩
abbrev main_v168 : Ref sig .tc := ⟨.hbm, 224, rfl⟩
abbrev main_v169 : Ref sig .tc := ⟨.hbm, 225, rfl⟩
abbrev main_v170 : Ref sig .tc := ⟨.hbm, 226, rfl⟩
abbrev main_v171 : Ref sig .tc := ⟨.hbm, 227, rfl⟩
abbrev main_v172 : Ref sig .tc := ⟨.hbm, 228, rfl⟩
abbrev main_v173 : Ref sig .tc := ⟨.hbm, 229, rfl⟩
abbrev main_v174 : Ref sig .tc := ⟨.hbm, 230, rfl⟩
abbrev main_v175 : Ref sig .tc := ⟨.hbm, 231, rfl⟩
abbrev main_v176 : Ref sig .tc := ⟨.hbm, 232, rfl⟩
abbrev main_v177 : Ref sig .tc := ⟨.hbm, 233, rfl⟩
abbrev main_v178 : Ref sig .tc := ⟨.hbm, 234, rfl⟩
abbrev main_v179 : Ref sig .tc := ⟨.hbm, 235, rfl⟩
abbrev main_v180 : Ref sig .tc := ⟨.hbm, 236, rfl⟩
abbrev main_v181 : Ref sig .tc := ⟨.hbm, 237, rfl⟩
abbrev main_v182 : Ref sig .tc := ⟨.hbm, 238, rfl⟩
abbrev main_v183 : Ref sig .tc := ⟨.hbm, 239, rfl⟩
abbrev main_v184 : Ref sig .tc := ⟨.hbm, 240, rfl⟩
abbrev main_v185 : Ref sig .tc := ⟨.hbm, 241, rfl⟩
abbrev main_v186 : Ref sig .tc := ⟨.hbm, 242, rfl⟩
abbrev main_v187 : Ref sig .tc := ⟨.hbm, 243, rfl⟩
abbrev main_v188 : Ref sig .tc := ⟨.hbm, 244, rfl⟩
abbrev main_v189 : Ref sig .tc := ⟨.hbm, 245, rfl⟩
abbrev main_v190 : Ref sig .tc := ⟨.hbm, 246, rfl⟩
abbrev main_v191 : Ref sig .tc := ⟨.hbm, 247, rfl⟩
abbrev main_v192 : Ref sig .tc := ⟨.hbm, 248, rfl⟩
abbrev main_v193 : Ref sig .tc := ⟨.hbm, 249, rfl⟩
abbrev main_v194 : Ref sig .tc := ⟨.hbm, 250, rfl⟩
abbrev main_v195 : Ref sig .tc := ⟨.hbm, 251, rfl⟩
abbrev main_v196 : Ref sig .tc := ⟨.hbm, 252, rfl⟩
abbrev main_v197 : Ref sig .tc := ⟨.hbm, 253, rfl⟩
abbrev main_v198 : Ref sig .tc := ⟨.hbm, 254, rfl⟩
abbrev main_v199 : Ref sig .tc := ⟨.hbm, 255, rfl⟩
abbrev main_v200 : Ref sig .tc := ⟨.hbm, 256, rfl⟩
abbrev main_v201 : Ref sig .tc := ⟨.hbm, 257, rfl⟩
abbrev main_v202 : Ref sig .tc := ⟨.hbm, 258, rfl⟩
abbrev main_v203 : Ref sig .tc := ⟨.hbm, 259, rfl⟩
abbrev main_v204 : Ref sig .tc := ⟨.hbm, 260, rfl⟩
abbrev main_v205 : Ref sig .tc := ⟨.hbm, 261, rfl⟩
abbrev main_v206 : Ref sig .tc := ⟨.hbm, 262, rfl⟩
abbrev main_v207 : Ref sig .tc := ⟨.hbm, 263, rfl⟩
abbrev main_v208 : Ref sig .tc := ⟨.hbm, 264, rfl⟩
abbrev main_v209 : Ref sig .tc := ⟨.hbm, 265, rfl⟩
abbrev main_v210 : Ref sig .tc := ⟨.hbm, 266, rfl⟩
abbrev main_v211 : Ref sig .tc := ⟨.hbm, 267, rfl⟩
abbrev main_v212 : Ref sig .tc := ⟨.hbm, 268, rfl⟩
abbrev main_v213 : Ref sig .tc := ⟨.hbm, 269, rfl⟩
abbrev main_v214 : Ref sig .tc := ⟨.hbm, 270, rfl⟩
abbrev main_v215 : Ref sig .tc := ⟨.hbm, 271, rfl⟩
abbrev main_v216 : Ref sig .tc := ⟨.hbm, 272, rfl⟩
abbrev main_v217 : Ref sig .tc := ⟨.hbm, 273, rfl⟩
abbrev main_v218 : Ref sig .tc := ⟨.hbm, 274, rfl⟩
abbrev main_v219 : Ref sig .tc := ⟨.hbm, 275, rfl⟩
abbrev main_v220 : Ref sig .tc := ⟨.hbm, 276, rfl⟩
abbrev main_v221 : Ref sig .tc := ⟨.hbm, 277, rfl⟩
abbrev main_v222 : Ref sig .tc := ⟨.hbm, 278, rfl⟩
abbrev main_v223 : Ref sig .tc := ⟨.hbm, 279, rfl⟩
abbrev main_c_34 : Ref sig .tc := ⟨.hbm, 280, rfl⟩
abbrev main_v224 : Ref sig .tc := ⟨.hbm, 281, rfl⟩
abbrev main_v225 : Ref sig .tc := ⟨.hbm, 282, rfl⟩
abbrev main_c_35 : Ref sig .tc := ⟨.hbm, 283, rfl⟩
abbrev main_v226 : Ref sig .tc := ⟨.hbm, 284, rfl⟩
abbrev main_v227 : Ref sig .tc := ⟨.hbm, 285, rfl⟩
abbrev main_v228 : Ref sig .tc := ⟨.hbm, 286, rfl⟩
abbrev main_v229 : Ref sig .tc := ⟨.hbm, 287, rfl⟩
abbrev main_v230 : Ref sig .tc := ⟨.hbm, 288, rfl⟩
abbrev main_cst_36 : Ref sig .tc := ⟨.hbm, 289, rfl⟩
abbrev main_v231 : Ref sig .tc := ⟨.hbm, 290, rfl⟩
abbrev main_v232 : Ref sig .tc := ⟨.hbm, 291, rfl⟩
abbrev main_v233 : Ref sig .tc := ⟨.hbm, 292, rfl⟩
abbrev main_cst_37 : Ref sig .tc := ⟨.hbm, 293, rfl⟩
abbrev main_v234 : Ref sig .tc := ⟨.hbm, 294, rfl⟩
abbrev main_cst_38 : Ref sig .tc := ⟨.hbm, 295, rfl⟩
abbrev main_v235 : Ref sig .tc := ⟨.hbm, 296, rfl⟩
abbrev main_v236 : Ref sig .tc := ⟨.hbm, 297, rfl⟩
abbrev main_v237 : Ref sig .tc := ⟨.hbm, 298, rfl⟩
abbrev main_cst_39 : Ref sig .tc := ⟨.hbm, 299, rfl⟩
abbrev main_v238 : Ref sig .tc := ⟨.hbm, 300, rfl⟩
abbrev main_v239 : Ref sig .tc := ⟨.hbm, 301, rfl⟩
abbrev main_v240 : Ref sig .tc := ⟨.hbm, 302, rfl⟩
abbrev main_v241 : Ref sig .tc := ⟨.hbm, 303, rfl⟩
abbrev main_v242 : Ref sig .tc := ⟨.hbm, 304, rfl⟩
abbrev main_v243 : Ref sig .tc := ⟨.hbm, 305, rfl⟩
abbrev main_v244 : Ref sig .tc := ⟨.hbm, 306, rfl⟩
abbrev main_v245 : Ref sig .tc := ⟨.hbm, 307, rfl⟩
abbrev main_v246 : Ref sig .tc := ⟨.hbm, 308, rfl⟩
abbrev main_c_40 : Ref sig .tc := ⟨.hbm, 309, rfl⟩
abbrev main_v247 : Ref sig .tc := ⟨.hbm, 310, rfl⟩
abbrev main_v248 : Ref sig .tc := ⟨.hbm, 311, rfl⟩
abbrev main_c_41 : Ref sig .tc := ⟨.hbm, 312, rfl⟩
abbrev main_v249 : Ref sig .tc := ⟨.hbm, 313, rfl⟩
abbrev main_v250 : Ref sig .tc := ⟨.hbm, 314, rfl⟩
abbrev main_v251 : Ref sig .tc := ⟨.hbm, 315, rfl⟩
abbrev main_v252 : Ref sig .tc := ⟨.hbm, 316, rfl⟩
abbrev main_v253 : Ref sig .tc := ⟨.hbm, 317, rfl⟩
abbrev main_cst_42 : Ref sig .tc := ⟨.hbm, 318, rfl⟩
abbrev main_v254 : Ref sig .tc := ⟨.hbm, 319, rfl⟩
abbrev main_v255 : Ref sig .tc := ⟨.hbm, 320, rfl⟩
abbrev main_v256 : Ref sig .tc := ⟨.hbm, 321, rfl⟩
abbrev main_cst_43 : Ref sig .tc := ⟨.hbm, 322, rfl⟩
abbrev main_v257 : Ref sig .tc := ⟨.hbm, 323, rfl⟩
abbrev main_cst_44 : Ref sig .tc := ⟨.hbm, 324, rfl⟩
abbrev main_v258 : Ref sig .tc := ⟨.hbm, 325, rfl⟩
abbrev main_v259 : Ref sig .tc := ⟨.hbm, 326, rfl⟩
abbrev main_v260 : Ref sig .tc := ⟨.hbm, 327, rfl⟩
abbrev main_cst_45 : Ref sig .tc := ⟨.hbm, 328, rfl⟩
abbrev main_v261 : Ref sig .tc := ⟨.hbm, 329, rfl⟩
abbrev main_v262 : Ref sig .tc := ⟨.hbm, 330, rfl⟩
abbrev main_v263 : Ref sig .tc := ⟨.hbm, 331, rfl⟩
abbrev main_v264 : Ref sig .tc := ⟨.hbm, 332, rfl⟩
abbrev main_v265 : Ref sig .tc := ⟨.hbm, 333, rfl⟩
abbrev main_v266 : Ref sig .tc := ⟨.hbm, 334, rfl⟩
abbrev main_v267 : Ref sig .tc := ⟨.hbm, 335, rfl⟩
abbrev main_v268 : Ref sig .tc := ⟨.hbm, 336, rfl⟩
abbrev main_v269 : Ref sig .tc := ⟨.hbm, 337, rfl⟩
abbrev main_c_46 : Ref sig .tc := ⟨.hbm, 338, rfl⟩
abbrev main_v270 : Ref sig .tc := ⟨.hbm, 339, rfl⟩
abbrev main_v271 : Ref sig .tc := ⟨.hbm, 340, rfl⟩
abbrev main_c_47 : Ref sig .tc := ⟨.hbm, 341, rfl⟩
abbrev main_v272 : Ref sig .tc := ⟨.hbm, 342, rfl⟩
abbrev main_v273 : Ref sig .tc := ⟨.hbm, 343, rfl⟩
abbrev main_v274 : Ref sig .tc := ⟨.hbm, 344, rfl⟩
abbrev main_v275 : Ref sig .tc := ⟨.hbm, 345, rfl⟩
abbrev main_v276 : Ref sig .tc := ⟨.hbm, 346, rfl⟩
abbrev main_cst_48 : Ref sig .tc := ⟨.hbm, 347, rfl⟩
abbrev main_v277 : Ref sig .tc := ⟨.hbm, 348, rfl⟩
abbrev main_v278 : Ref sig .tc := ⟨.hbm, 349, rfl⟩
abbrev main_v279 : Ref sig .tc := ⟨.hbm, 350, rfl⟩
abbrev main_cst_49 : Ref sig .tc := ⟨.hbm, 351, rfl⟩
abbrev main_v280 : Ref sig .tc := ⟨.hbm, 352, rfl⟩
abbrev main_cst_50 : Ref sig .tc := ⟨.hbm, 353, rfl⟩
abbrev main_v281 : Ref sig .tc := ⟨.hbm, 354, rfl⟩
abbrev main_v282 : Ref sig .tc := ⟨.hbm, 355, rfl⟩
abbrev main_v283 : Ref sig .tc := ⟨.hbm, 356, rfl⟩
abbrev main_cst_51 : Ref sig .tc := ⟨.hbm, 357, rfl⟩
abbrev main_v284 : Ref sig .tc := ⟨.hbm, 358, rfl⟩
abbrev main_v285 : Ref sig .tc := ⟨.hbm, 359, rfl⟩
abbrev main_v286 : Ref sig .tc := ⟨.hbm, 360, rfl⟩
abbrev main_v287 : Ref sig .tc := ⟨.hbm, 361, rfl⟩
abbrev main_v288 : Ref sig .tc := ⟨.hbm, 362, rfl⟩
abbrev main_v289 : Ref sig .tc := ⟨.hbm, 363, rfl⟩
abbrev main_v290 : Ref sig .tc := ⟨.hbm, 364, rfl⟩
abbrev main_v291 : Ref sig .tc := ⟨.hbm, 365, rfl⟩
abbrev main_v292 : Ref sig .tc := ⟨.hbm, 366, rfl⟩
abbrev main_c_52 : Ref sig .tc := ⟨.hbm, 367, rfl⟩
abbrev main_v293 : Ref sig .tc := ⟨.hbm, 368, rfl⟩
abbrev main_v294 : Ref sig .tc := ⟨.hbm, 369, rfl⟩
abbrev main_c_53 : Ref sig .tc := ⟨.hbm, 370, rfl⟩
abbrev main_v295 : Ref sig .tc := ⟨.hbm, 371, rfl⟩
abbrev main_v296 : Ref sig .tc := ⟨.hbm, 372, rfl⟩
abbrev main_v297 : Ref sig .tc := ⟨.hbm, 373, rfl⟩
abbrev main_v298 : Ref sig .tc := ⟨.hbm, 374, rfl⟩
abbrev main_v299 : Ref sig .tc := ⟨.hbm, 375, rfl⟩
abbrev main_cst_54 : Ref sig .tc := ⟨.hbm, 376, rfl⟩
abbrev main_v300 : Ref sig .tc := ⟨.hbm, 377, rfl⟩
abbrev main_v301 : Ref sig .tc := ⟨.hbm, 378, rfl⟩
abbrev main_v302 : Ref sig .tc := ⟨.hbm, 379, rfl⟩
abbrev main_cst_55 : Ref sig .tc := ⟨.hbm, 380, rfl⟩
abbrev main_v303 : Ref sig .tc := ⟨.hbm, 381, rfl⟩
abbrev main_cst_56 : Ref sig .tc := ⟨.hbm, 382, rfl⟩
abbrev main_v304 : Ref sig .tc := ⟨.hbm, 383, rfl⟩
abbrev main_v305 : Ref sig .tc := ⟨.hbm, 384, rfl⟩
abbrev main_v306 : Ref sig .tc := ⟨.hbm, 385, rfl⟩
abbrev main_cst_57 : Ref sig .tc := ⟨.hbm, 386, rfl⟩
abbrev main_v307 : Ref sig .tc := ⟨.hbm, 387, rfl⟩
abbrev main_v308 : Ref sig .tc := ⟨.hbm, 388, rfl⟩
abbrev main_v309 : Ref sig .tc := ⟨.hbm, 389, rfl⟩
abbrev main_v310 : Ref sig .tc := ⟨.hbm, 390, rfl⟩
abbrev main_v311 : Ref sig .tc := ⟨.hbm, 391, rfl⟩
abbrev main_v312 : Ref sig .tc := ⟨.hbm, 392, rfl⟩
abbrev main_v313 : Ref sig .tc := ⟨.hbm, 393, rfl⟩
abbrev main_v314 : Ref sig .tc := ⟨.hbm, 394, rfl⟩
abbrev main_v315 : Ref sig .tc := ⟨.hbm, 395, rfl⟩
abbrev main_c_58 : Ref sig .tc := ⟨.hbm, 396, rfl⟩
abbrev main_v316 : Ref sig .tc := ⟨.hbm, 397, rfl⟩
abbrev main_v317 : Ref sig .tc := ⟨.hbm, 398, rfl⟩
abbrev main_c_59 : Ref sig .tc := ⟨.hbm, 399, rfl⟩
abbrev main_v318 : Ref sig .tc := ⟨.hbm, 400, rfl⟩
abbrev main_v319 : Ref sig .tc := ⟨.hbm, 401, rfl⟩
abbrev main_v320 : Ref sig .tc := ⟨.hbm, 402, rfl⟩
abbrev main_v321 : Ref sig .tc := ⟨.hbm, 403, rfl⟩
abbrev main_v322 : Ref sig .tc := ⟨.hbm, 404, rfl⟩
abbrev main_cst_60 : Ref sig .tc := ⟨.hbm, 405, rfl⟩
abbrev main_v323 : Ref sig .tc := ⟨.hbm, 406, rfl⟩
abbrev main_v324 : Ref sig .tc := ⟨.hbm, 407, rfl⟩
abbrev main_v325 : Ref sig .tc := ⟨.hbm, 408, rfl⟩
abbrev main_cst_61 : Ref sig .tc := ⟨.hbm, 409, rfl⟩
abbrev main_v326 : Ref sig .tc := ⟨.hbm, 410, rfl⟩
abbrev main_cst_62 : Ref sig .tc := ⟨.hbm, 411, rfl⟩
abbrev main_v327 : Ref sig .tc := ⟨.hbm, 412, rfl⟩
abbrev main_v328 : Ref sig .tc := ⟨.hbm, 413, rfl⟩
abbrev main_v329 : Ref sig .tc := ⟨.hbm, 414, rfl⟩
abbrev main_cst_63 : Ref sig .tc := ⟨.hbm, 415, rfl⟩
abbrev main_v330 : Ref sig .tc := ⟨.hbm, 416, rfl⟩
abbrev main_v331 : Ref sig .tc := ⟨.hbm, 417, rfl⟩
abbrev main_v332 : Ref sig .tc := ⟨.hbm, 418, rfl⟩
abbrev main_v333 : Ref sig .tc := ⟨.hbm, 419, rfl⟩
abbrev main_v334 : Ref sig .tc := ⟨.hbm, 420, rfl⟩
abbrev main_v335 : Ref sig .tc := ⟨.hbm, 421, rfl⟩
abbrev main_v336 : Ref sig .tc := ⟨.hbm, 422, rfl⟩
abbrev main_v337 : Ref sig .tc := ⟨.hbm, 423, rfl⟩
abbrev main_v338 : Ref sig .tc := ⟨.hbm, 424, rfl⟩
abbrev main_c_64 : Ref sig .tc := ⟨.hbm, 425, rfl⟩
abbrev main_v339 : Ref sig .tc := ⟨.hbm, 426, rfl⟩
abbrev main_v340 : Ref sig .tc := ⟨.hbm, 427, rfl⟩
abbrev main_c_65 : Ref sig .tc := ⟨.hbm, 428, rfl⟩
abbrev main_v341 : Ref sig .tc := ⟨.hbm, 429, rfl⟩
abbrev main_v342 : Ref sig .tc := ⟨.hbm, 430, rfl⟩
abbrev main_v343 : Ref sig .tc := ⟨.hbm, 431, rfl⟩
abbrev main_v344 : Ref sig .tc := ⟨.hbm, 432, rfl⟩
abbrev main_v345 : Ref sig .tc := ⟨.hbm, 433, rfl⟩
abbrev main_cst_66 : Ref sig .tc := ⟨.hbm, 434, rfl⟩
abbrev main_v346 : Ref sig .tc := ⟨.hbm, 435, rfl⟩
abbrev main_v347 : Ref sig .tc := ⟨.hbm, 436, rfl⟩
abbrev main_v348 : Ref sig .tc := ⟨.hbm, 437, rfl⟩
abbrev main_cst_67 : Ref sig .tc := ⟨.hbm, 438, rfl⟩
abbrev main_v349 : Ref sig .tc := ⟨.hbm, 439, rfl⟩
abbrev main_cst_68 : Ref sig .tc := ⟨.hbm, 440, rfl⟩
abbrev main_v350 : Ref sig .tc := ⟨.hbm, 441, rfl⟩
abbrev main_v351 : Ref sig .tc := ⟨.hbm, 442, rfl⟩
abbrev main_v352 : Ref sig .tc := ⟨.hbm, 443, rfl⟩
abbrev main_cst_69 : Ref sig .tc := ⟨.hbm, 444, rfl⟩
abbrev main_v353 : Ref sig .tc := ⟨.hbm, 445, rfl⟩
abbrev main_v354 : Ref sig .tc := ⟨.hbm, 446, rfl⟩
abbrev main_v355 : Ref sig .tc := ⟨.hbm, 447, rfl⟩
abbrev main_v356 : Ref sig .tc := ⟨.hbm, 448, rfl⟩
abbrev main_v357 : Ref sig .tc := ⟨.hbm, 449, rfl⟩
abbrev main_v358 : Ref sig .tc := ⟨.hbm, 450, rfl⟩
abbrev main_v359 : Ref sig .tc := ⟨.hbm, 451, rfl⟩
abbrev main_v360 : Ref sig .tc := ⟨.hbm, 452, rfl⟩
abbrev main_v361 : Ref sig .tc := ⟨.hbm, 453, rfl⟩
abbrev main_v362 : Ref sig .tc := ⟨.hbm, 454, rfl⟩
abbrev main_v363 : Ref sig .tc := ⟨.hbm, 455, rfl⟩
abbrev main_v364 : Ref sig .tc := ⟨.hbm, 456, rfl⟩
abbrev main_v365 : Ref sig .tc := ⟨.hbm, 457, rfl⟩
abbrev main_v366 : Ref sig .tc := ⟨.hbm, 458, rfl⟩
abbrev main_v367 : Ref sig .tc := ⟨.hbm, 459, rfl⟩
abbrev main_v368 : Ref sig .tc := ⟨.hbm, 460, rfl⟩
abbrev main_v369 : Ref sig .tc := ⟨.hbm, 461, rfl⟩
abbrev main_v370 : Ref sig .tc := ⟨.hbm, 462, rfl⟩
abbrev main_v371 : Ref sig .tc := ⟨.hbm, 463, rfl⟩
abbrev main_v372 : Ref sig .tc := ⟨.hbm, 464, rfl⟩
abbrev main_v373 : Ref sig .tc := ⟨.hbm, 465, rfl⟩
abbrev main_v374 : Ref sig .tc := ⟨.hbm, 466, rfl⟩
abbrev main_v375 : Ref sig .tc := ⟨.hbm, 467, rfl⟩
abbrev main_v376 : Ref sig .tc := ⟨.hbm, 468, rfl⟩
abbrev main_v377 : Ref sig .tc := ⟨.hbm, 469, rfl⟩
abbrev main_v378 : Ref sig .tc := ⟨.hbm, 470, rfl⟩
abbrev main_v379 : Ref sig .tc := ⟨.hbm, 471, rfl⟩
abbrev main_v380 : Ref sig .tc := ⟨.hbm, 472, rfl⟩
abbrev main_v381 : Ref sig .tc := ⟨.hbm, 473, rfl⟩
abbrev main_v382 : Ref sig .tc := ⟨.hbm, 474, rfl⟩
abbrev main_v383 : Ref sig .tc := ⟨.hbm, 475, rfl⟩
abbrev main_v384 : Ref sig .tc := ⟨.hbm, 476, rfl⟩
abbrev main_v385 : Ref sig .tc := ⟨.hbm, 477, rfl⟩
abbrev main_v386 : Ref sig .tc := ⟨.hbm, 478, rfl⟩
abbrev main_v387 : Ref sig .tc := ⟨.hbm, 479, rfl⟩
abbrev main_v388 : Ref sig .tc := ⟨.hbm, 480, rfl⟩
abbrev main_v389 : Ref sig .tc := ⟨.hbm, 481, rfl⟩
abbrev main_v390 : Ref sig .tc := ⟨.hbm, 482, rfl⟩
abbrev main_v391 : Ref sig .tc := ⟨.hbm, 483, rfl⟩
abbrev main_v392 : Ref sig .tc := ⟨.hbm, 484, rfl⟩
abbrev main_v393 : Ref sig .tc := ⟨.hbm, 485, rfl⟩
abbrev main_v394 : Ref sig .tc := ⟨.hbm, 486, rfl⟩
abbrev main_v395 : Ref sig .tc := ⟨.hbm, 487, rfl⟩
abbrev main_v396 : Ref sig .tc := ⟨.hbm, 488, rfl⟩
abbrev main_v397 : Ref sig .tc := ⟨.hbm, 489, rfl⟩
abbrev main_v398 : Ref sig .tc := ⟨.hbm, 490, rfl⟩
abbrev main_v399 : Ref sig .tc := ⟨.hbm, 491, rfl⟩
abbrev main_v400 : Ref sig .tc := ⟨.hbm, 492, rfl⟩
abbrev main_v401 : Ref sig .tc := ⟨.hbm, 493, rfl⟩
abbrev main_v402 : Ref sig .tc := ⟨.hbm, 494, rfl⟩
abbrev main_v403 : Ref sig .tc := ⟨.hbm, 495, rfl⟩
abbrev main_v404 : Ref sig .tc := ⟨.hbm, 496, rfl⟩
abbrev main_v405 : Ref sig .tc := ⟨.hbm, 497, rfl⟩
abbrev main_v406 : Ref sig .tc := ⟨.hbm, 498, rfl⟩
abbrev main_v407 : Ref sig .tc := ⟨.hbm, 499, rfl⟩
abbrev main_v408 : Ref sig .tc := ⟨.hbm, 500, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg4_0 : Ref sig .tc := ⟨.vmem, 23, rfl⟩
abbrev cc1_stg5_0 : Ref sig .tc := ⟨.vmem, 24, rfl⟩
abbrev cc1_stg6_0 : Ref sig .tc := ⟨.vmem, 25, rfl⟩
abbrev cc1_stg7_0 : Ref sig .tc := ⟨.vmem, 26, rfl⟩
abbrev cc1_stg8_0 : Ref sig .tc := ⟨.vmem, 27, rfl⟩
abbrev cc1_stg9_0 : Ref sig .tc := ⟨.vmem, 28, rfl⟩
abbrev cc1_stg10_0 : Ref sig .tc := ⟨.vmem, 29, rfl⟩
abbrev cc1_stg11_0 : Ref sig .tc := ⟨.vmem, 30, rfl⟩
abbrev cc1_stg11_1 : Ref sig .tc := ⟨.vmem, 31, rfl⟩
abbrev cc2_stg0_0 : Ref sig .tc := ⟨.vmem, 32, rfl⟩
abbrev cc2_stg1_0 : Ref sig .tc := ⟨.vmem, 33, rfl⟩
abbrev cc2_stg2_0 : Ref sig .tc := ⟨.vmem, 34, rfl⟩
abbrev cc2_stg3_0 : Ref sig .tc := ⟨.vmem, 35, rfl⟩
abbrev cc2_stg4_0 : Ref sig .tc := ⟨.vmem, 36, rfl⟩
abbrev cc2_stg5_0 : Ref sig .tc := ⟨.vmem, 37, rfl⟩
abbrev cc2_stg6_0 : Ref sig .tc := ⟨.vmem, 38, rfl⟩
abbrev cc2_stg7_0 : Ref sig .tc := ⟨.vmem, 39, rfl⟩
abbrev cc2_stg8_0 : Ref sig .tc := ⟨.vmem, 40, rfl⟩
abbrev cc2_stg9_0 : Ref sig .tc := ⟨.vmem, 41, rfl⟩
abbrev cc2_stg10_0 : Ref sig .tc := ⟨.vmem, 42, rfl⟩
abbrev cc2_stg11_0 : Ref sig .tc := ⟨.vmem, 43, rfl⟩
abbrev cc3_stg0_0 : Ref sig .tc := ⟨.vmem, 44, rfl⟩
abbrev cc3_stg0_1 : Ref sig .tc := ⟨.vmem, 45, rfl⟩
abbrev cc3_stg1_0 : Ref sig .tc := ⟨.vmem, 46, rfl⟩
abbrev cc3_stg1_1 : Ref sig .tc := ⟨.vmem, 47, rfl⟩
abbrev cc3_stg2_0 : Ref sig .tc := ⟨.vmem, 48, rfl⟩
abbrev cc3_stg2_1 : Ref sig .tc := ⟨.vmem, 49, rfl⟩
abbrev cc3_stg3_0 : Ref sig .tc := ⟨.vmem, 50, rfl⟩
abbrev cc3_stg4_0 : Ref sig .tc := ⟨.vmem, 51, rfl⟩
abbrev cc3_stg5_0 : Ref sig .tc := ⟨.vmem, 52, rfl⟩
abbrev cc3_stg6_0 : Ref sig .tc := ⟨.vmem, 53, rfl⟩
abbrev cc3_stg7_0 : Ref sig .tc := ⟨.vmem, 54, rfl⟩
abbrev cc3_stg8_0 : Ref sig .tc := ⟨.vmem, 55, rfl⟩
abbrev cc3_stg9_0 : Ref sig .tc := ⟨.vmem, 56, rfl⟩
abbrev cc3_stg10_0 : Ref sig .tc := ⟨.vmem, 57, rfl⟩
abbrev cc3_stg11_0 : Ref sig .tc := ⟨.vmem, 58, rfl⟩
abbrev cc3_stg11_1 : Ref sig .tc := ⟨.vmem, 59, rfl⟩
abbrev cc4_stg0_0 : Ref sig .tc := ⟨.vmem, 60, rfl⟩
abbrev cc4_stg0_1 : Ref sig .tc := ⟨.vmem, 61, rfl⟩
abbrev cc4_stg1_0 : Ref sig .tc := ⟨.vmem, 62, rfl⟩
abbrev cc4_stg1_1 : Ref sig .tc := ⟨.vmem, 63, rfl⟩
abbrev cc4_stg2_0 : Ref sig .tc := ⟨.vmem, 64, rfl⟩
abbrev cc4_stg2_1 : Ref sig .tc := ⟨.vmem, 65, rfl⟩
abbrev cc4_stg3_0 : Ref sig .tc := ⟨.vmem, 66, rfl⟩
abbrev cc4_stg4_0 : Ref sig .tc := ⟨.vmem, 67, rfl⟩
abbrev cc4_stg5_0 : Ref sig .tc := ⟨.vmem, 68, rfl⟩
abbrev cc4_stg6_0 : Ref sig .tc := ⟨.vmem, 69, rfl⟩
abbrev cc4_stg7_0 : Ref sig .tc := ⟨.vmem, 70, rfl⟩
abbrev cc4_stg8_0 : Ref sig .tc := ⟨.vmem, 71, rfl⟩
abbrev cc4_stg9_0 : Ref sig .tc := ⟨.vmem, 72, rfl⟩
abbrev cc4_stg10_0 : Ref sig .tc := ⟨.vmem, 73, rfl⟩
abbrev cc4_stg11_0 : Ref sig .tc := ⟨.vmem, 74, rfl⟩
abbrev cc4_stg11_1 : Ref sig .tc := ⟨.vmem, 75, rfl⟩
abbrev cc5_stg0_0 : Ref sig .tc := ⟨.vmem, 76, rfl⟩
abbrev cc5_stg1_0 : Ref sig .tc := ⟨.vmem, 77, rfl⟩
abbrev cc5_stg2_0 : Ref sig .tc := ⟨.vmem, 78, rfl⟩
abbrev cc5_stg3_0 : Ref sig .tc := ⟨.vmem, 79, rfl⟩
abbrev cc5_stg4_0 : Ref sig .tc := ⟨.vmem, 80, rfl⟩
abbrev cc5_stg5_0 : Ref sig .tc := ⟨.vmem, 81, rfl⟩
abbrev cc5_stg6_0 : Ref sig .tc := ⟨.vmem, 82, rfl⟩
abbrev cc5_stg7_0 : Ref sig .tc := ⟨.vmem, 83, rfl⟩
abbrev cc5_stg8_0 : Ref sig .tc := ⟨.vmem, 84, rfl⟩
abbrev cc5_stg9_0 : Ref sig .tc := ⟨.vmem, 85, rfl⟩
abbrev cc5_stg10_0 : Ref sig .tc := ⟨.vmem, 86, rfl⟩
abbrev cc5_stg11_0 : Ref sig .tc := ⟨.vmem, 87, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem4_0 : DmaSem sig := 23
abbrev cc1_sem5_0 : DmaSem sig := 24
abbrev cc1_sem6_0 : DmaSem sig := 25
abbrev cc1_sem7_0 : DmaSem sig := 26
abbrev cc1_sem8_0 : DmaSem sig := 27
abbrev cc1_sem9_0 : DmaSem sig := 28
abbrev cc1_sem10_0 : DmaSem sig := 29
abbrev cc1_sem11_0 : DmaSem sig := 30
abbrev cc1_sem11_1 : DmaSem sig := 31
abbrev cc2_sem0_0 : DmaSem sig := 32
abbrev cc2_sem1_0 : DmaSem sig := 33
abbrev cc2_sem2_0 : DmaSem sig := 34
abbrev cc2_sem3_0 : DmaSem sig := 35
abbrev cc2_sem4_0 : DmaSem sig := 36
abbrev cc2_sem5_0 : DmaSem sig := 37
abbrev cc2_sem6_0 : DmaSem sig := 38
abbrev cc2_sem7_0 : DmaSem sig := 39
abbrev cc2_sem8_0 : DmaSem sig := 40
abbrev cc2_sem9_0 : DmaSem sig := 41
abbrev cc2_sem10_0 : DmaSem sig := 42
abbrev cc2_sem11_0 : DmaSem sig := 43
abbrev cc3_sem0_0 : DmaSem sig := 44
abbrev cc3_sem0_1 : DmaSem sig := 45
abbrev cc3_sem1_0 : DmaSem sig := 46
abbrev cc3_sem1_1 : DmaSem sig := 47
abbrev cc3_sem2_0 : DmaSem sig := 48
abbrev cc3_sem2_1 : DmaSem sig := 49
abbrev cc3_sem3_0 : DmaSem sig := 50
abbrev cc3_sem4_0 : DmaSem sig := 51
abbrev cc3_sem5_0 : DmaSem sig := 52
abbrev cc3_sem6_0 : DmaSem sig := 53
abbrev cc3_sem7_0 : DmaSem sig := 54
abbrev cc3_sem8_0 : DmaSem sig := 55
abbrev cc3_sem9_0 : DmaSem sig := 56
abbrev cc3_sem10_0 : DmaSem sig := 57
abbrev cc3_sem11_0 : DmaSem sig := 58
abbrev cc3_sem11_1 : DmaSem sig := 59
abbrev cc4_sem0_0 : DmaSem sig := 60
abbrev cc4_sem0_1 : DmaSem sig := 61
abbrev cc4_sem1_0 : DmaSem sig := 62
abbrev cc4_sem1_1 : DmaSem sig := 63
abbrev cc4_sem2_0 : DmaSem sig := 64
abbrev cc4_sem2_1 : DmaSem sig := 65
abbrev cc4_sem3_0 : DmaSem sig := 66
abbrev cc4_sem4_0 : DmaSem sig := 67
abbrev cc4_sem5_0 : DmaSem sig := 68
abbrev cc4_sem6_0 : DmaSem sig := 69
abbrev cc4_sem7_0 : DmaSem sig := 70
abbrev cc4_sem8_0 : DmaSem sig := 71
abbrev cc4_sem9_0 : DmaSem sig := 72
abbrev cc4_sem10_0 : DmaSem sig := 73
abbrev cc4_sem11_0 : DmaSem sig := 74
abbrev cc4_sem11_1 : DmaSem sig := 75
abbrev cc5_sem0_0 : DmaSem sig := 76
abbrev cc5_sem1_0 : DmaSem sig := 77
abbrev cc5_sem2_0 : DmaSem sig := 78
abbrev cc5_sem3_0 : DmaSem sig := 79
abbrev cc5_sem4_0 : DmaSem sig := 80
abbrev cc5_sem5_0 : DmaSem sig := 81
abbrev cc5_sem6_0 : DmaSem sig := 82
abbrev cc5_sem7_0 : DmaSem sig := 83
abbrev cc5_sem8_0 : DmaSem sig := 84
abbrev cc5_sem9_0 : DmaSem sig := 85
abbrev cc5_sem10_0 : DmaSem sig := 86
abbrev cc5_sem11_0 : DmaSem sig := 87

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S4000x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_8 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_9 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_10 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S128 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 2 → Memref sig .tc .vmem S2000x128 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_8 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_9 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_10 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_11 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 1 → Memref sig .tc .vmem S5000x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true]

abbrev stage2_1 : Fin 1 → Memref sig .tc .vmem S5000x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![true]

abbrev stage2_2 : Fin 1 → Memref sig .tc .vmem S5000x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S128 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S128 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S5000x128 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_8 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_9 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_10 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_11 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S4000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S128x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S128 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S128 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 1 → Memref sig .tc .vmem S128 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false]

abbrev stage3_11 : Fin 2 → Memref sig .tc .vmem S4000x128 .f32 := fun | 0 => Memref.whole cc3_stg11_0 | 1 => Memref.whole cc3_stg11_1 | ⟨_ + 2, h⟩ => absurd h (Nat.not_lt.2 (Nat.le_add_left _ _))
abbrev sem3_11 : Fin 2 → DmaSem sig := fun | 0 => cc3_sem11_0 | 1 => cc3_sem11_1 | ⟨_ + 2, h⟩ => absurd h (Nat.not_lt.2 (Nat.le_add_left _ _))
abbrev reads3_11 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_8 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_9 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_10 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_11 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S2000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S128x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S128x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S128x128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S128 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S128 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 1 → Memref sig .tc .vmem S128 .f32 := fun | 0 => Memref.whole cc4_stg9_0 | ⟨_ + 1, h⟩ => absurd h (Nat.not_lt.2 (Nat.le_add_left _ _))
abbrev sem4_9 : Fin 1 → DmaSem sig := fun | 0 => cc4_sem9_0 | ⟨_ + 1, h⟩ => absurd h (Nat.not_lt.2 (Nat.le_add_left _ _))
abbrev reads4_9 : Fin grid4.rank → Bool := ![false]

abbrev stage4_10 : Fin 1 → Memref sig .tc .vmem S128 .f32 := fun | 0 => Memref.whole cc4_stg10_0 | ⟨_ + 1, h⟩ => absurd h (Nat.not_lt.2 (Nat.le_add_left _ _))
abbrev sem4_10 : Fin 1 → DmaSem sig := fun | 0 => cc4_sem10_0 | ⟨_ + 1, h⟩ => absurd h (Nat.not_lt.2 (Nat.le_add_left _ _))
abbrev reads4_10 : Fin grid4.rank → Bool := ![false]

abbrev stage4_11 : Fin 2 → Memref sig .tc .vmem S2000x128 .f32 := fun | 0 => Memref.whole cc4_stg11_0 | 1 => Memref.whole cc4_stg11_1 | ⟨_ + 2, h⟩ => absurd h (Nat.not_lt.2 (Nat.le_add_left _ _))
abbrev sem4_11 : Fin 2 → DmaSem sig := fun | 0 => cc4_sem11_0 | 1 => cc4_sem11_1 | ⟨_ + 2, h⟩ => absurd h (Nat.not_lt.2 (Nat.le_add_left _ _))
abbrev reads4_11 : Fin grid4.rank → Bool := ![true]

abbrev grid5 : Pipeline.Grid := ⟨1, ![1], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_8 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_9 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_10 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_11 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 1 → Memref sig .tc .vmem S5000x128 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![true]

abbrev stage5_1 : Fin 1 → Memref sig .tc .vmem S5000x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![true]

abbrev stage5_2 : Fin 1 → Memref sig .tc .vmem S5000x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![true]

abbrev stage5_3 : Fin 1 → Memref sig .tc .vmem S128x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S128x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S128x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S128x128 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .vmem S128 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev stage5_8 : Fin 1 → Memref sig .tc .vmem S128 .f32 := fun | 0 => Memref.whole cc5_stg8_0 | ⟨_ + 1, h⟩ => absurd h (Nat.not_lt.2 (Nat.le_add_left _ _))
abbrev sem5_8 : Fin 1 → DmaSem sig := fun | 0 => cc5_sem8_0 | ⟨_ + 1, h⟩ => absurd h (Nat.not_lt.2 (Nat.le_add_left _ _))
abbrev reads5_8 : Fin grid5.rank → Bool := ![false]

abbrev stage5_9 : Fin 1 → Memref sig .tc .vmem S128 .f32 := fun | 0 => Memref.whole cc5_stg9_0 | ⟨_ + 1, h⟩ => absurd h (Nat.not_lt.2 (Nat.le_add_left _ _))
abbrev sem5_9 : Fin 1 → DmaSem sig := fun | 0 => cc5_sem9_0 | ⟨_ + 1, h⟩ => absurd h (Nat.not_lt.2 (Nat.le_add_left _ _))
abbrev reads5_9 : Fin grid5.rank → Bool := ![false]

abbrev stage5_10 : Fin 1 → Memref sig .tc .vmem S128 .f32 := fun | 0 => Memref.whole cc5_stg10_0 | ⟨_ + 1, h⟩ => absurd h (Nat.not_lt.2 (Nat.le_add_left _ _))
abbrev sem5_10 : Fin 1 → DmaSem sig := fun | 0 => cc5_sem10_0 | ⟨_ + 1, h⟩ => absurd h (Nat.not_lt.2 (Nat.le_add_left _ _))
abbrev reads5_10 : Fin grid5.rank → Bool := ![false]

abbrev stage5_11 : Fin 1 → Memref sig .tc .vmem S5000x128 .f32 := fun | 0 => Memref.whole cc5_stg11_0 | ⟨_ + 1, h⟩ => absurd h (Nat.not_lt.2 (Nat.le_add_left _ _))
abbrev sem5_11 : Fin 1 → DmaSem sig := fun | 0 => cc5_sem11_0 | ⟨_ + 1, h⟩ => absurd h (Nat.not_lt.2 (Nat.le_add_left _ _))
abbrev reads5_11 : Fin grid5.rank → Bool := ![true]

class Facts₀ : Prop where
  transposes_S128x6_S6x128_1_0 : S128x6.Transposes [1, 0] S6x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  transposes_S128x4_S4x128_1_0 : S128x4.Transposes [1, 0] S4x128
  bcast_S1x128_S50000x128_0_1 : S1x128.BroadcastsInDim S50000x128 (![0, 1] : Fin 2 → Fin S50000x128.rank)
  transposes_S128x3_S3x128_1_0 : S128x3.Transposes [1, 0] S3x128
  bcast_S1x128_S5000x128_0_1 : S1x128.BroadcastsInDim S5000x128 (![0, 1] : Fin 2 → Fin S5000x128.rank)
  slices_S2x6x128x128_S1x6x128x128_0_0_0_0 : S2x6x128x128.Slices ![0, 0, 0, 0] S1x6x128x128
  shapeCasts_S1x6x128x128_S6x128x128 : S1x6x128x128.ShapeCasts S6x128x128
  slices_S2x6x128_S1x6x128_0_0_0 : S2x6x128.Slices ![0, 0, 0] S1x6x128
  shapeCasts_S1x6x128_S6x128 : S1x6x128.ShapeCasts S6x128
  transposes_S6x128x128_S6x128x128_0_2_1 : S6x128x128.Transposes [0, 2, 1] S6x128x128
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S500000_S500000x1_0 : S500000.BroadcastsInDim S500000x1 (![0] : Fin 1 → Fin S500000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  slices_S2x300000_S1x300000_0_0 : S2x300000.Slices ![0, 0] S1x300000
  shapeCasts_S1x300000_S300000 : S1x300000.ShapeCasts S300000
  slices_S2x300000_S1x300000_1_0 : S2x300000.Slices ![1, 0] S1x300000
  bcast_S_S300000 : S_.BroadcastsInDim S300000 (![] : Fin 0 → Fin S300000.rank)
  bcast_S300000_S300000x1_0 : S300000.BroadcastsInDim S300000x1 (![0] : Fin 1 → Fin S300000x1.rank)
  bcast_S_S5000x128 : S_.BroadcastsInDim S5000x128 (![] : Fin 0 → Fin S5000x128.rank)
  bcast_S_S5000 : S_.BroadcastsInDim S5000 (![] : Fin 0 → Fin S5000.rank)
  bcast_S5000_S5000x1_0 : S5000.BroadcastsInDim S5000x1 (![0] : Fin 1 → Fin S5000x1.rank)
  bcast_S5000x1_S5000x128_0_1 : S5000x1.BroadcastsInDim S5000x128 (![0, 1] : Fin 2 → Fin S5000x128.rank)
  slices_S2x150000_S1x150000_0_0 : S2x150000.Slices ![0, 0] S1x150000
  shapeCasts_S1x150000_S150000 : S1x150000.ShapeCasts S150000
  slices_S2x150000_S1x150000_1_0 : S2x150000.Slices ![1, 0] S1x150000
  bcast_S_S150000 : S_.BroadcastsInDim S150000 (![] : Fin 0 → Fin S150000.rank)
  bcast_S150000_S150000x1_0 : S150000.BroadcastsInDim S150000x1 (![0] : Fin 1 → Fin S150000x1.rank)
  slices_S6x128x128_S1x128x128_1_0_0 : S6x128x128.Slices ![1, 0, 0] S1x128x128
  shapeCasts_S1x128x128_S128x128 : S1x128x128.ShapeCasts S128x128
  slices_S6x128x128_S1x128x128_3_0_0 : S6x128x128.Slices ![3, 0, 0] S1x128x128
  slices_S6x128_S1x128_1_0 : S6x128.Slices ![1, 0] S1x128
  shapeCasts_S1x128_S128 : S1x128.ShapeCasts S128
  slices_S6x128_S1x128_3_0 : S6x128.Slices ![3, 0] S1x128
  slices_S2x3x128_S1x1x128_0_0_0 : S2x3x128.Slices ![0, 0, 0] S1x1x128
  shapeCasts_S1x1x128_S128 : S1x1x128.ShapeCasts S128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S128 : S128.ShapeCasts S128
  shapeCasts_S128_S1x128 : S128.ShapeCasts S1x128
  broadcasts_S1x128_S4000x128 : S1x128.Broadcasts S4000x128
  reduces_S4000x128_S4000 : S4000x128.Reduces [1] S4000
  shapeCasts_S4000_S4000x1 : S4000.ShapeCasts S4000x1
  broadcasts_S4000x1_S4000x128 : S4000x1.Broadcasts S4000x128
  slices_S6x128x128_S1x128x128_0_0_0 : S6x128x128.Slices ![0, 0, 0] S1x128x128
  slices_S6x128x128_S1x128x128_5_0_0 : S6x128x128.Slices ![5, 0, 0] S1x128x128
  slices_S6x128_S1x128_0_0 : S6x128.Slices ![0, 0] S1x128
  slices_S6x128_S1x128_5_0 : S6x128.Slices ![5, 0] S1x128
  slices_S2x3x128_S1x1x128_0_1_0 : S2x3x128.Slices ![0, 1, 0] S1x1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  broadcasts_S1x128_S2000x128 : S1x128.Broadcasts S2000x128
  reduces_S2000x128_S2000 : S2000x128.Reduces [1] S2000
  shapeCasts_S2000_S2000x1 : S2000.ShapeCasts S2000x1
  broadcasts_S2000x1_S2000x128 : S2000x1.Broadcasts S2000x128
  slices_S6x128x128_S1x128x128_2_0_0 : S6x128x128.Slices ![2, 0, 0] S1x128x128
  slices_S6x128x128_S1x128x128_4_0_0 : S6x128x128.Slices ![4, 0, 0] S1x128x128
  slices_S6x128_S1x128_2_0 : S6x128.Slices ![2, 0] S1x128
  slices_S6x128_S1x128_4_0 : S6x128.Slices ![4, 0] S1x128
  slices_S2x3x128_S1x1x128_0_2_0 : S2x3x128.Slices ![0, 2, 0] S1x1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  broadcasts_S1x128_S5000x128 : S1x128.Broadcasts S5000x128
  reduces_S5000x128_S5000 : S5000x128.Reduces [1] S5000
  shapeCasts_S5000_S5000x1 : S5000.ShapeCasts S5000x1
  broadcasts_S5000x1_S5000x128 : S5000x1.Broadcasts S5000x128
  slices_S2x6x128x128_S1x6x128x128_1_0_0_0 : S2x6x128x128.Slices ![1, 0, 0, 0] S1x6x128x128
  slices_S2x6x128_S1x6x128_1_0_0 : S2x6x128.Slices ![1, 0, 0] S1x6x128
  slices_S2x3x128_S1x1x128_1_0_0 : S2x3x128.Slices ![1, 0, 0] S1x1x128
  slices_S2x3x128_S1x1x128_1_1_0 : S2x3x128.Slices ![1, 1, 0] S1x1x128
  slices_S2x3x128_S1x1x128_1_2_0 : S2x3x128.Slices ![1, 2, 0] S1x1x128
  dot_S100000x6_S6x128_S100000x128_1_0_0_1_n_n_wf : DotDims.WF S100000x6 S6x128 S100000x128 [1] [0] [0] [1] [] []
  dot_S50000x4_S4x128_S50000x128_1_0_0_1_n_n_wf : DotDims.WF S50000x4 S4x128 S50000x128 [1] [0] [0] [1] [] []
  dot_S5000x3_S3x128_S5000x128_1_0_0_1_n_n_wf : DotDims.WF S5000x3 S3x128 S5000x128 [1] [0] [0] [1] [] []
  gather_S100000x128_S500000x1_S500000x128_1_0_n_n_0_1_1128_wf : GatherDims.WF S100000x128 S500000x1 S500000x128 [1] [0] [] [0] [] 1 ![1, 128]
  scatter_S50000x128_S500000x1_S500000x128_1_0_0_1_wf : ScatterDims.WF S50000x128 S500000x1 S500000x128 [1] [0] [0] 1
  scatter_S50000_S500000x1_S500000_n_0_0_1_wf : ScatterDims.WF S50000 S500000x1 S500000 [] [0] [0] 1
  gather_S50000x128_S500000x1_S500000x128_1_0_n_n_0_1_1128_wf : GatherDims.WF S50000x128 S500000x1 S500000x128 [1] [0] [] [0] [] 1 ![1, 128]
  scatter_S100000x128_S500000x1_S500000x128_1_0_0_1_wf : ScatterDims.WF S100000x128 S500000x1 S500000x128 [1] [0] [0] 1
  scatter_S100000_S500000x1_S500000_n_0_0_1_wf : ScatterDims.WF S100000 S500000x1 S500000 [] [0] [0] 1
  gather_S100000x128_S300000x1_S300000x128_1_0_n_n_0_1_1128_wf : GatherDims.WF S100000x128 S300000x1 S300000x128 [1] [0] [] [0] [] 1 ![1, 128]
  scatter_S5000x128_S300000x1_S300000x128_1_0_0_1_wf : ScatterDims.WF S5000x128 S300000x1 S300000x128 [1] [0] [0] 1
  scatter_S5000_S300000x1_S300000_n_0_0_1_wf : ScatterDims.WF S5000 S300000x1 S300000 [] [0] [0] 1
  gather_S5000x128_S300000x1_S300000x128_1_0_n_n_0_1_1128_wf : GatherDims.WF S5000x128 S300000x1 S300000x128 [1] [0] [] [0] [] 1 ![1, 128]
  scatter_S100000x128_S300000x1_S300000x128_1_0_0_1_wf : ScatterDims.WF S100000x128 S300000x1 S300000x128 [1] [0] [0] 1
  scatter_S100000_S300000x1_S300000_n_0_0_1_wf : ScatterDims.WF S100000 S300000x1 S300000 [] [0] [0] 1
  gather_S50000x128_S150000x1_S150000x128_1_0_n_n_0_1_1128_wf : GatherDims.WF S50000x128 S150000x1 S150000x128 [1] [0] [] [0] [] 1 ![1, 128]
  scatter_S5000x128_S150000x1_S150000x128_1_0_0_1_wf : ScatterDims.WF S5000x128 S150000x1 S150000x128 [1] [0] [0] 1
  scatter_S5000_S150000x1_S150000_n_0_0_1_wf : ScatterDims.WF S5000 S150000x1 S150000 [] [0] [0] 1
  gather_S5000x128_S150000x1_S150000x128_1_0_n_n_0_1_1128_wf : GatherDims.WF S5000x128 S150000x1 S150000x128 [1] [0] [] [0] [] 1 ![1, 128]
  scatter_S50000x128_S150000x1_S150000x128_1_0_0_1_wf : ScatterDims.WF S50000x128 S150000x1 S150000x128 [1] [0] [0] 1
  scatter_S50000_S150000x1_S150000_n_0_0_1_wf : ScatterDims.WF S50000 S150000x1 S150000 [] [0] [0] 1
  dot_S4000x128_S128x128_S4000x128_1_0_0_1_n_n_wf : DotDims.WF S4000x128 S128x128 S4000x128 [1] [0] [0] [1] [] []
  dot_S2000x128_S128x128_S2000x128_1_0_0_1_n_n_wf : DotDims.WF S2000x128 S128x128 S2000x128 [1] [0] [0] [1] [] []
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S100000x128.size a
  hwx0_1 : ∀ i : grid0.Coords, EltTy.bits .f32 = 32 ∨ (Rect.block (s := S100000x128) S4000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S100000x128.size a
  hwx0_2 : ∀ i : grid0.Coords, EltTy.bits .f32 = 32 ∨ (Rect.block (s := S100000x128) S4000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128.size a ≤ S128.size a
  hwx0_7 : ∀ i : grid0.Coords, EltTy.bits .f32 = 32 ∨ (Rect.block (s := S128) S128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128.size a ≤ S128.size a
  hwx0_8 : ∀ i : grid0.Coords, EltTy.bits .f32 = 32 ∨ (Rect.block (s := S128) S128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128.size a ≤ S128.size a
  hwx0_9 : ∀ i : grid0.Coords, EltTy.bits .f32 = 32 ∨ (Rect.block (s := S128) S128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128.size a ≤ S128.size a
  hwx0_10 : ∀ i : grid0.Coords, EltTy.bits .f32 = 32 ∨ (Rect.block (s := S128) S128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S4000x128.size a ≤ S100000x128.size a
  hwx0_11 : ∀ i : grid0.Coords, EltTy.bits .f32 = 32 ∨ (Rect.block (s := S100000x128) S4000x128.size (cc0_transform_11 i) (hinb0_11 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .f32 = 32 ∨ (Rect.block (s := S50000x128) S2000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x128.size a ≤ S128x128.size a
  hwx1_6 : ∀ i : grid1.Coords, EltTy.bits .f32 = 32 ∨ (Rect.block (s := S128x128) S128x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128.size a ≤ S128.size a
  hwx1_7 : ∀ i : grid1.Coords, EltTy.bits .f32 = 32 ∨ (Rect.block (s := S128) S128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S128.size a ≤ S128.size a
  hwx1_8 : ∀ i : grid1.Coords, EltTy.bits .f32 = 32 ∨ (Rect.block (s := S128) S128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S128.size a ≤ S128.size a
  hwx1_9 : ∀ i : grid1.Coords, EltTy.bits .f32 = 32 ∨ (Rect.block (s := S128) S128.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S128.size a ≤ S128.size a
  hwx1_10 : ∀ i : grid1.Coords, EltTy.bits .f32 = 32 ∨ (Rect.block (s := S128) S128.size (cc1_transform_10 i) (hinb1_10 i)).WholeWords (EltTy.packing .f32)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S2000x128.size a ≤ S50000x128.size a
  hwx1_11 : ∀ i : grid1.Coords, EltTy.bits .f32 = 32 ∨ (Rect.block (s := S50000x128) S2000x128.size (cc1_transform_11 i) (hinb1_11 i)).WholeWords (EltTy.packing .f32)
  hrank2 : 0 < grid2.rank
  hstage2_0 : ∀ j, (stage2_0 j).IsWhole
  nbuf2_0 : grid2.bufCount reads2_0 false = 1
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S5000x128.size a
  hwx2_0 : ∀ i : grid2.Coords, EltTy.bits .f32 = 32 ∨ (Rect.block (s := S5000x128) S5000x128.size (cc2_transform_0 i) (hinb2_0 i)).WholeWords (EltTy.packing .f32)
  hstage2_1 : ∀ j, (stage2_1 j).IsWhole
  nbuf2_1 : grid2.bufCount reads2_1 false = 1
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S5000x128.size a
  hwx2_1 : ∀ i : grid2.Coords, EltTy.bits .f32 = 32 ∨ (Rect.block (s := S5000x128) S5000x128.size (cc2_transform_1 i) (hinb2_1 i)).WholeWords (EltTy.packing .f32)
  hstage2_2 : ∀ j, (stage2_2 j).IsWhole
  nbuf2_2 : grid2.bufCount reads2_2 false = 1
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S5000x128.size a
  hwx2_2 : ∀ i : grid2.Coords, EltTy.bits .f32 = 32 ∨ (Rect.block (s := S5000x128) S5000x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128x128.size a ≤ S128x128.size a
  hwx2_6 : ∀ i : grid2.Coords, EltTy.bits .f32 = 32 ∨ (Rect.block (s := S128x128) S128x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S128.size a ≤ S128.size a
  hwx2_7 : ∀ i : grid2.Coords, EltTy.bits .f32 = 32 ∨ (Rect.block (s := S128) S128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S128.size a ≤ S128.size a
  hwx2_8 : ∀ i : grid2.Coords, EltTy.bits .f32 = 32 ∨ (Rect.block (s := S128) S128.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S128.size a ≤ S128.size a
  hwx2_9 : ∀ i : grid2.Coords, EltTy.bits .f32 = 32 ∨ (Rect.block (s := S128) S128.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S128.size a ≤ S128.size a
  hwx2_10 : ∀ i : grid2.Coords, EltTy.bits .f32 = 32 ∨ (Rect.block (s := S128) S128.size (cc2_transform_10 i) (hinb2_10 i)).WholeWords (EltTy.packing .f32)
  hstage2_11 : ∀ j, (stage2_11 j).IsWhole
  nbuf2_11 : grid2.bufCount reads2_11 false = 1
  hreads2_11 : ∀ i i' : grid2.Coords, (∀ a, reads2_11 a = true → i a = i' a) → cc2_transform_11 i = cc2_transform_11 i'
  hinb2_11 : ∀ (i : grid2.Coords) a, (cc2_transform_11 i a + 1) * S5000x128.size a ≤ S5000x128.size a
  hwx2_11 : ∀ i : grid2.Coords, EltTy.bits .f32 = 32 ∨ (Rect.block (s := S5000x128) S5000x128.size (cc2_transform_11 i) (hinb2_11 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x128.size a ≤ S100000x128.size a
  hwx3_0 : ∀ i : grid3.Coords, EltTy.bits .f32 = 32 ∨ (Rect.block (s := S100000x128) S4000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4000x128.size a ≤ S100000x128.size a
  hwx3_1 : ∀ i : grid3.Coords, EltTy.bits .f32 = 32 ∨ (Rect.block (s := S100000x128) S4000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4000x128.size a ≤ S100000x128.size a
  hwx3_2 : ∀ i : grid3.Coords, EltTy.bits .f32 = 32 ∨ (Rect.block (s := S100000x128) S4000x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128x128.size a ≤ S128x128.size a
  hwx3_5 : ∀ i : grid3.Coords, EltTy.bits .f32 = 32 ∨ (Rect.block (s := S128x128) S128x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S128x128.size a ≤ S128x128.size a
  hwx3_6 : ∀ i : grid3.Coords, EltTy.bits .f32 = 32 ∨ (Rect.block (s := S128x128) S128x128.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S128.size a ≤ S128.size a
  hwx3_7 : ∀ i : grid3.Coords, EltTy.bits .f32 = 32 ∨ (Rect.block (s := S128) S128.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S128.size a ≤ S128.size a
  hwx3_8 : ∀ i : grid3.Coords, EltTy.bits .f32 = 32 ∨ (Rect.block (s := S128) S128.size (cc3_transform_8 i) (hinb3_8 i)).WholeWords (EltTy.packing .f32)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S128.size a ≤ S128.size a
  hwx3_9 : ∀ i : grid3.Coords, EltTy.bits .f32 = 32 ∨ (Rect.block (s := S128) S128.size (cc3_transform_9 i) (hinb3_9 i)).WholeWords (EltTy.packing .f32)
  hstage3_10 : ∀ j, (stage3_10 j).IsWhole
  nbuf3_10 : grid3.bufCount reads3_10 true = 1
  hreads3_10 : ∀ i i' : grid3.Coords, (∀ a, reads3_10 a = true → i a = i' a) → cc3_transform_10 i = cc3_transform_10 i'
  hinb3_10 : ∀ (i : grid3.Coords) a, (cc3_transform_10 i a + 1) * S128.size a ≤ S128.size a
  hwx3_10 : ∀ i : grid3.Coords, EltTy.bits .f32 = 32 ∨ (Rect.block (s := S128) S128.size (cc3_transform_10 i) (hinb3_10 i)).WholeWords (EltTy.packing .f32)
  hstage3_11 : ∀ j, (stage3_11 j).IsWhole
  nbuf3_11 : grid3.bufCount reads3_11 false = 2
  hreads3_11 : ∀ i i' : grid3.Coords, (∀ a, reads3_11 a = true → i a = i' a) → cc3_transform_11 i = cc3_transform_11 i'
  hinb3_11 : ∀ (i : grid3.Coords) a, (cc3_transform_11 i a + 1) * S4000x128.size a ≤ S100000x128.size a
  hwx3_11 : ∀ i : grid3.Coords, EltTy.bits .f32 = 32 ∨ (Rect.block (s := S100000x128) S4000x128.size (cc3_transform_11 i) (hinb3_11 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S50000x128.size a
  hwx4_0 : ∀ i : grid4.Coords, EltTy.bits .f32 = 32 ∨ (Rect.block (s := S50000x128) S2000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x128.size a ≤ S50000x128.size a
  hwx4_1 : ∀ i : grid4.Coords, EltTy.bits .f32 = 32 ∨ (Rect.block (s := S50000x128) S2000x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x128.size a ≤ S50000x128.size a
  hwx4_2 : ∀ i : grid4.Coords, EltTy.bits .f32 = 32 ∨ (Rect.block (s := S50000x128) S2000x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x128.size a ≤ S128x128.size a
  hwx4_3 : ∀ i : grid4.Coords, EltTy.bits .f32 = 32 ∨ (Rect.block (s := S128x128) S128x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128x128.size a ≤ S128x128.size a
  hwx4_4 : ∀ i : grid4.Coords, EltTy.bits .f32 = 32 ∨ (Rect.block (s := S128x128) S128x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S128x128.size a ≤ S128x128.size a
  hwx4_5 : ∀ i : grid4.Coords, EltTy.bits .f32 = 32 ∨ (Rect.block (s := S128x128) S128x128.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S128x128.size a ≤ S128x128.size a
  hwx4_6 : ∀ i : grid4.Coords, EltTy.bits .f32 = 32 ∨ (Rect.block (s := S128x128) S128x128.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S128.size a ≤ S128.size a
  hwx4_7 : ∀ i : grid4.Coords, EltTy.bits .f32 = 32 ∨ (Rect.block (s := S128) S128.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S128.size a ≤ S128.size a
  hwx4_8 : ∀ i : grid4.Coords, EltTy.bits .f32 = 32 ∨ (Rect.block (s := S128) S128.size (cc4_transform_8 i) (hinb4_8 i)).WholeWords (EltTy.packing .f32)
  hstage4_9 : ∀ j, (stage4_9 j).IsWhole
  nbuf4_9 : grid4.bufCount reads4_9 true = 1
  hreads4_9 : ∀ i i' : grid4.Coords, (∀ a, reads4_9 a = true → i a = i' a) → cc4_transform_9 i = cc4_transform_9 i'
  hinb4_9 : ∀ (i : grid4.Coords) a, (cc4_transform_9 i a + 1) * S128.size a ≤ S128.size a
  hwx4_9 : ∀ i : grid4.Coords, EltTy.bits .f32 = 32 ∨ (Rect.block (s := S128) S128.size (cc4_transform_9 i) (hinb4_9 i)).WholeWords (EltTy.packing .f32)
  hstage4_10 : ∀ j, (stage4_10 j).IsWhole
  nbuf4_10 : grid4.bufCount reads4_10 true = 1
  hreads4_10 : ∀ i i' : grid4.Coords, (∀ a, reads4_10 a = true → i a = i' a) → cc4_transform_10 i = cc4_transform_10 i'
  hinb4_10 : ∀ (i : grid4.Coords) a, (cc4_transform_10 i a + 1) * S128.size a ≤ S128.size a
  hwx4_10 : ∀ i : grid4.Coords, EltTy.bits .f32 = 32 ∨ (Rect.block (s := S128) S128.size (cc4_transform_10 i) (hinb4_10 i)).WholeWords (EltTy.packing .f32)
  hstage4_11 : ∀ j, (stage4_11 j).IsWhole
  nbuf4_11 : grid4.bufCount reads4_11 false = 2
  hreads4_11 : ∀ i i' : grid4.Coords, (∀ a, reads4_11 a = true → i a = i' a) → cc4_transform_11 i = cc4_transform_11 i'
  hinb4_11 : ∀ (i : grid4.Coords) a, (cc4_transform_11 i a + 1) * S2000x128.size a ≤ S50000x128.size a
  hwx4_11 : ∀ i : grid4.Coords, EltTy.bits .f32 = 32 ∨ (Rect.block (s := S50000x128) S2000x128.size (cc4_transform_11 i) (hinb4_11 i)).WholeWords (EltTy.packing .f32)
  hrank5 : 0 < grid5.rank
  hstage5_0 : ∀ j, (stage5_0 j).IsWhole
  nbuf5_0 : grid5.bufCount reads5_0 false = 1
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S5000x128.size a
  hwx5_0 : ∀ i : grid5.Coords, EltTy.bits .f32 = 32 ∨ (Rect.block (s := S5000x128) S5000x128.size (cc5_transform_0 i) (hinb5_0 i)).WholeWords (EltTy.packing .f32)
  hstage5_1 : ∀ j, (stage5_1 j).IsWhole
  nbuf5_1 : grid5.bufCount reads5_1 false = 1
  hreads5_1 : ∀ i i' : grid5.Coords, (∀ a, reads5_1 a = true → i a = i' a) → cc5_transform_1 i = cc5_transform_1 i'
  hinb5_1 : ∀ (i : grid5.Coords) a, (cc5_transform_1 i a + 1) * S5000x128.size a ≤ S5000x128.size a
  hwx5_1 : ∀ i : grid5.Coords, EltTy.bits .f32 = 32 ∨ (Rect.block (s := S5000x128) S5000x128.size (cc5_transform_1 i) (hinb5_1 i)).WholeWords (EltTy.packing .f32)
  hstage5_2 : ∀ j, (stage5_2 j).IsWhole
  nbuf5_2 : grid5.bufCount reads5_2 false = 1
  hreads5_2 : ∀ i i' : grid5.Coords, (∀ a, reads5_2 a = true → i a = i' a) → cc5_transform_2 i = cc5_transform_2 i'
  hinb5_2 : ∀ (i : grid5.Coords) a, (cc5_transform_2 i a + 1) * S5000x128.size a ≤ S5000x128.size a
  hwx5_2 : ∀ i : grid5.Coords, EltTy.bits .f32 = 32 ∨ (Rect.block (s := S5000x128) S5000x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128x128.size a ≤ S128x128.size a
  hwx5_3 : ∀ i : grid5.Coords, EltTy.bits .f32 = 32 ∨ (Rect.block (s := S128x128) S128x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S128x128.size a ≤ S128x128.size a
  hwx5_4 : ∀ i : grid5.Coords, EltTy.bits .f32 = 32 ∨ (Rect.block (s := S128x128) S128x128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S128x128.size a ≤ S128x128.size a
  hwx5_5 : ∀ i : grid5.Coords, EltTy.bits .f32 = 32 ∨ (Rect.block (s := S128x128) S128x128.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S128x128.size a ≤ S128x128.size a
  hwx5_6 : ∀ i : grid5.Coords, EltTy.bits .f32 = 32 ∨ (Rect.block (s := S128x128) S128x128.size (cc5_transform_6 i) (hinb5_6 i)).WholeWords (EltTy.packing .f32)
  hstage5_7 : ∀ j, (stage5_7 j).IsWhole
  nbuf5_7 : grid5.bufCount reads5_7 true = 1
  hreads5_7 : ∀ i i' : grid5.Coords, (∀ a, reads5_7 a = true → i a = i' a) → cc5_transform_7 i = cc5_transform_7 i'
  hinb5_7 : ∀ (i : grid5.Coords) a, (cc5_transform_7 i a + 1) * S128.size a ≤ S128.size a
  hwx5_7 : ∀ i : grid5.Coords, EltTy.bits .f32 = 32 ∨ (Rect.block (s := S128) S128.size (cc5_transform_7 i) (hinb5_7 i)).WholeWords (EltTy.packing .f32)
  hstage5_8 : ∀ j, (stage5_8 j).IsWhole
  nbuf5_8 : grid5.bufCount reads5_8 true = 1
  hreads5_8 : ∀ i i' : grid5.Coords, (∀ a, reads5_8 a = true → i a = i' a) → cc5_transform_8 i = cc5_transform_8 i'
  hinb5_8 : ∀ (i : grid5.Coords) a, (cc5_transform_8 i a + 1) * S128.size a ≤ S128.size a
  hwx5_8 : ∀ i : grid5.Coords, EltTy.bits .f32 = 32 ∨ (Rect.block (s := S128) S128.size (cc5_transform_8 i) (hinb5_8 i)).WholeWords (EltTy.packing .f32)
  hstage5_9 : ∀ j, (stage5_9 j).IsWhole
  nbuf5_9 : grid5.bufCount reads5_9 true = 1
  hreads5_9 : ∀ i i' : grid5.Coords, (∀ a, reads5_9 a = true → i a = i' a) → cc5_transform_9 i = cc5_transform_9 i'
  hinb5_9 : ∀ (i : grid5.Coords) a, (cc5_transform_9 i a + 1) * S128.size a ≤ S128.size a
  hwx5_9 : ∀ i : grid5.Coords, EltTy.bits .f32 = 32 ∨ (Rect.block (s := S128) S128.size (cc5_transform_9 i) (hinb5_9 i)).WholeWords (EltTy.packing .f32)
  hstage5_10 : ∀ j, (stage5_10 j).IsWhole
  nbuf5_10 : grid5.bufCount reads5_10 true = 1
  hreads5_10 : ∀ i i' : grid5.Coords, (∀ a, reads5_10 a = true → i a = i' a) → cc5_transform_10 i = cc5_transform_10 i'
  hinb5_10 : ∀ (i : grid5.Coords) a, (cc5_transform_10 i a + 1) * S128.size a ≤ S128.size a
  hwx5_10 : ∀ i : grid5.Coords, EltTy.bits .f32 = 32 ∨ (Rect.block (s := S128) S128.size (cc5_transform_10 i) (hinb5_10 i)).WholeWords (EltTy.packing .f32)
  hstage5_11 : ∀ j, (stage5_11 j).IsWhole
  nbuf5_11 : grid5.bufCount reads5_11 false = 1
  hreads5_11 : ∀ i i' : grid5.Coords, (∀ a, reads5_11 a = true → i a = i' a) → cc5_transform_11 i = cc5_transform_11 i'
  hinb5_11 : ∀ (i : grid5.Coords) a, (cc5_transform_11 i a + 1) * S5000x128.size a ≤ S5000x128.size a
  hwx5_11 : ∀ i : grid5.Coords, EltTy.bits .f32 = 32 ∨ (Rect.block (s := S5000x128) S5000x128.size (cc5_transform_11 i) (hinb5_11 i)).WholeWords (EltTy.packing .f32)

variable [Facts₀]

def dot_S100000x6_S6x128_S100000x128_1_0_0_1_n_n : DotDims S100000x6 S6x128 S100000x128 where
  lhsContracting := [1]
  rhsContracting := [0]
  lhsNonContracting := [0]
  rhsNonContracting := [1]
  lhsBatch := []
  rhsBatch := []
  wf := dot_S100000x6_S6x128_S100000x128_1_0_0_1_n_n_wf
def dot_S50000x4_S4x128_S50000x128_1_0_0_1_n_n : DotDims S50000x4 S4x128 S50000x128 where
  lhsContracting := [1]
  rhsContracting := [0]
  lhsNonContracting := [0]
  rhsNonContracting := [1]
  lhsBatch := []
  rhsBatch := []
  wf := dot_S50000x4_S4x128_S50000x128_1_0_0_1_n_n_wf
def dot_S5000x3_S3x128_S5000x128_1_0_0_1_n_n : DotDims S5000x3 S3x128 S5000x128 where
  lhsContracting := [1]
  rhsContracting := [0]
  lhsNonContracting := [0]
  rhsNonContracting := [1]
  lhsBatch := []
  rhsBatch := []
  wf := dot_S5000x3_S3x128_S5000x128_1_0_0_1_n_n_wf
def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def scatter_S50000x128_S500000x1_S500000x128_1_0_0_1 : ScatterDims S50000x128 S500000x1 S500000x128 where
  updateWindowDims := [1]
  insertedWindowDims := [0]
  scatterDimsToOperandDims := [0]
  indexVectorDim := 1
  wf := scatter_S50000x128_S500000x1_S500000x128_1_0_0_1_wf
def scatter_S50000_S500000x1_S500000_n_0_0_1 : ScatterDims S50000 S500000x1 S500000 where
  updateWindowDims := []
  insertedWindowDims := [0]
  scatterDimsToOperandDims := [0]
  indexVectorDim := 1
  wf := scatter_S50000_S500000x1_S500000_n_0_0_1_wf
def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def scatter_S100000x128_S500000x1_S500000x128_1_0_0_1 : ScatterDims S100000x128 S500000x1 S500000x128 where
  updateWindowDims := [1]
  insertedWindowDims := [0]
  scatterDimsToOperandDims := [0]
  indexVectorDim := 1
  wf := scatter_S100000x128_S500000x1_S500000x128_1_0_0_1_wf
def scatter_S100000_S500000x1_S500000_n_0_0_1 : ScatterDims S100000 S500000x1 S500000 where
  updateWindowDims := []
  insertedWindowDims := [0]
  scatterDimsToOperandDims := [0]
  indexVectorDim := 1
  wf := scatter_S100000_S500000x1_S500000_n_0_0_1_wf
def gather_S100000x128_S300000x1_S300000x128_1_0_n_n_0_1_1128 : GatherDims S100000x128 S300000x1 S300000x128 where
  offsetDims := [1]
  collapsedSliceDims := [0]
  operandBatchingDims := []
  startIndicesBatchingDims := []
  startIndexMap := [0]
  indexVectorDim := 1
  sliceSizes := ![1, 128]
  wf := gather_S100000x128_S300000x1_S300000x128_1_0_n_n_0_1_1128_wf
def scatter_S5000x128_S300000x1_S300000x128_1_0_0_1 : ScatterDims S5000x128 S300000x1 S300000x128 where
  updateWindowDims := [1]
  insertedWindowDims := [0]
  scatterDimsToOperandDims := [0]
  indexVectorDim := 1
  wf := scatter_S5000x128_S300000x1_S300000x128_1_0_0_1_wf
def scatter_S5000_S300000x1_S300000_n_0_0_1 : ScatterDims S5000 S300000x1 S300000 where
  updateWindowDims := []
  insertedWindowDims := [0]
  scatterDimsToOperandDims := [0]
  indexVectorDim := 1
  wf := scatter_S5000_S300000x1_S300000_n_0_0_1_wf
def gather_S5000x128_S300000x1_S300000x128_1_0_n_n_0_1_1128 : GatherDims S5000x128 S300000x1 S300000x128 where
  offsetDims := [1]
  collapsedSliceDims := [0]
  operandBatchingDims := []
  startIndicesBatchingDims := []
  startIndexMap := [0]
  indexVectorDim := 1
  sliceSizes := ![1, 128]
  wf := gather_S5000x128_S300000x1_S300000x128_1_0_n_n_0_1_1128_wf
def scatter_S100000x128_S300000x1_S300000x128_1_0_0_1 : ScatterDims S100000x128 S300000x1 S300000x128 where
  updateWindowDims := [1]
  insertedWindowDims := [0]
  scatterDimsToOperandDims := [0]
  indexVectorDim := 1
  wf := scatter_S100000x128_S300000x1_S300000x128_1_0_0_1_wf
def scatter_S100000_S300000x1_S300000_n_0_0_1 : ScatterDims S100000 S300000x1 S300000 where
  updateWindowDims := []
  insertedWindowDims := [0]
  scatterDimsToOperandDims := [0]
  indexVectorDim := 1
  wf := scatter_S100000_S300000x1_S300000_n_0_0_1_wf
def gather_S50000x128_S150000x1_S150000x128_1_0_n_n_0_1_1128 : GatherDims S50000x128 S150000x1 S150000x128 where
  offsetDims := [1]
  collapsedSliceDims := [0]
  operandBatchingDims := []
  startIndicesBatchingDims := []
  startIndexMap := [0]
  indexVectorDim := 1
  sliceSizes := ![1, 128]
  wf := gather_S50000x128_S150000x1_S150000x128_1_0_n_n_0_1_1128_wf
def scatter_S5000x128_S150000x1_S150000x128_1_0_0_1 : ScatterDims S5000x128 S150000x1 S150000x128 where
  updateWindowDims := [1]
  insertedWindowDims := [0]
  scatterDimsToOperandDims := [0]
  indexVectorDim := 1
  wf := scatter_S5000x128_S150000x1_S150000x128_1_0_0_1_wf
def scatter_S5000_S150000x1_S150000_n_0_0_1 : ScatterDims S5000 S150000x1 S150000 where
  updateWindowDims := []
  insertedWindowDims := [0]
  scatterDimsToOperandDims := [0]
  indexVectorDim := 1
  wf := scatter_S5000_S150000x1_S150000_n_0_0_1_wf
def gather_S5000x128_S150000x1_S150000x128_1_0_n_n_0_1_1128 : GatherDims S5000x128 S150000x1 S150000x128 where
  offsetDims := [1]
  collapsedSliceDims := [0]
  operandBatchingDims := []
  startIndicesBatchingDims := []
  startIndexMap := [0]
  indexVectorDim := 1
  sliceSizes := ![1, 128]
  wf := gather_S5000x128_S150000x1_S150000x128_1_0_n_n_0_1_1128_wf
def scatter_S50000x128_S150000x1_S150000x128_1_0_0_1 : ScatterDims S50000x128 S150000x1 S150000x128 where
  updateWindowDims := [1]
  insertedWindowDims := [0]
  scatterDimsToOperandDims := [0]
  indexVectorDim := 1
  wf := scatter_S50000x128_S150000x1_S150000x128_1_0_0_1_wf
def scatter_S50000_S150000x1_S150000_n_0_0_1 : ScatterDims S50000 S150000x1 S150000 where
  updateWindowDims := []
  insertedWindowDims := [0]
  scatterDimsToOperandDims := [0]
  indexVectorDim := 1
  wf := scatter_S50000_S150000x1_S150000_n_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v68) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v114) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S4000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v162) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v164) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v166) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v168) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v170) S128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v172) S128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v174) S128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v176) S128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v177) S4000x128.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev win1_0 : Pipeline.Window sig grid1 :=
  Pipeline.Window.ofSpec (Memref.whole main_v45) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v160) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v9) S2000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v179) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v181) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v183) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v185) S128x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v187) S128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v189) S128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v191) S128.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v193) S128.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v194) S2000x128.size cc1_transform_11 reads1_11 true false 2 stage1_11 sem1_11
    hrank1 hreads1_11 hinb1_11 nbuf1_11 (Memref.isWhole_whole _) hwx1_11 hstage1_11

abbrev win1 : Fin 12 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | ⟨_ + 12, h⟩ => absurd h (Nat.not_lt.2 (Nat.le_add_left _ _))
abbrev spec1 : Fin 12 → Pipeline.WinSpec sig grid1.rank := fun w => (win1 w).toWinSpec

abbrev win2_0 : Pipeline.Window sig grid2 :=
  Pipeline.Window.ofSpec (Memref.whole main_v91) S5000x128.size cc2_transform_0 reads2_0 false false 1 stage2_0 sem2_0
    hrank2 hreads2_0 hinb2_0 nbuf2_0 (Memref.isWhole_whole _) hwx2_0 hstage2_0

abbrev win2_1 : Pipeline.Window sig grid2 :=
  Pipeline.Window.ofSpec (Memref.whole main_v137) S5000x128.size cc2_transform_1 reads2_1 false false 1 stage2_1 sem2_1
    hrank2 hreads2_1 hinb2_1 nbuf2_1 (Memref.isWhole_whole _) hwx2_1 hstage2_1

abbrev win2_2 : Pipeline.Window sig grid2 :=
  Pipeline.Window.ofSpec (Memref.whole main_v14) S5000x128.size cc2_transform_2 reads2_2 false false 1 stage2_2 sem2_2
    hrank2 hreads2_2 hinb2_2 nbuf2_2 (Memref.isWhole_whole _) hwx2_2 hstage2_2

abbrev win2_3 : Pipeline.Window sig grid2 :=
  Pipeline.Window.ofSpec (Memref.whole main_v196) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v198) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v200) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v202) S128x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v204) S128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v206) S128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v208) S128.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v210) S128.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_v211) S5000x128.size cc2_transform_11 reads2_11 true false 1 stage2_11 sem2_11
    hrank2 hreads2_11 hinb2_11 nbuf2_11 (Memref.isWhole_whole _) hwx2_11 hstage2_11

abbrev win2 : Fin 12 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | ⟨_ + 12, h⟩ => absurd h (Nat.not_lt.2 (Nat.le_add_left _ _))
abbrev spec2 : Fin 12 → Pipeline.WinSpec sig grid2.rank := fun w => (win2 w).toWinSpec

abbrev win3_0 : Pipeline.Window sig grid3 :=
  Pipeline.Window.ofSpec (Memref.whole main_v265) S4000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v311) S4000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v177) S4000x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v359) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v361) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v363) S128x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v365) S128x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v367) S128.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v369) S128.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v371) S128.size cc3_transform_9 reads3_9 false true 1 stage3_9 sem3_9
    hrank3 hreads3_9 hinb3_9 nbuf3_9 (Memref.isWhole_whole _) hwx3_9 hstage3_9

abbrev win3_10 : Pipeline.Window sig grid3 :=
  Pipeline.Window.ofSpec (Memref.whole main_v373) S128.size cc3_transform_10 reads3_10 false true 1 stage3_10 sem3_10
    hrank3 hreads3_10 hinb3_10 nbuf3_10 (Memref.isWhole_whole _) hwx3_10 hstage3_10

abbrev win3_11 : Pipeline.Window sig grid3 :=
  Pipeline.Window.ofSpec (Memref.whole main_v374) S4000x128.size cc3_transform_11 reads3_11 true false 2 stage3_11 sem3_11
    hrank3 hreads3_11 hinb3_11 nbuf3_11 (Memref.isWhole_whole _) hwx3_11 hstage3_11

abbrev win3 : Fin 12 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | 11 => win3_11 | ⟨_ + 12, h⟩ => absurd h (Nat.not_lt.2 (Nat.le_add_left _ _))
abbrev spec3 : Fin 12 → Pipeline.WinSpec sig grid3.rank := fun w => (win3 w).toWinSpec

abbrev win4_0 : Pipeline.Window sig grid4 :=
  Pipeline.Window.ofSpec (Memref.whole main_v242) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v357) S2000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v194) S2000x128.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v376) S128x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v378) S128x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v380) S128x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v382) S128x128.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v384) S128.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_v386) S128.size cc4_transform_8 reads4_8 false true 1 stage4_8 sem4_8
    hrank4 hreads4_8 hinb4_8 nbuf4_8 (Memref.isWhole_whole _) hwx4_8 hstage4_8

abbrev win4_9 : Pipeline.Window sig grid4 :=
  Pipeline.Window.ofSpec (Memref.whole main_v388) S128.size cc4_transform_9 reads4_9 false true 1 stage4_9 sem4_9
    hrank4 hreads4_9 hinb4_9 nbuf4_9 (Memref.isWhole_whole _) hwx4_9 hstage4_9

abbrev win4_10 : Pipeline.Window sig grid4 :=
  Pipeline.Window.ofSpec (Memref.whole main_v390) S128.size cc4_transform_10 reads4_10 false true 1 stage4_10 sem4_10
    hrank4 hreads4_10 hinb4_10 nbuf4_10 (Memref.isWhole_whole _) hwx4_10 hstage4_10

abbrev win4_11 : Pipeline.Window sig grid4 :=
  Pipeline.Window.ofSpec (Memref.whole main_v391) S2000x128.size cc4_transform_11 reads4_11 true false 2 stage4_11 sem4_11
    hrank4 hreads4_11 hinb4_11 nbuf4_11 (Memref.isWhole_whole _) hwx4_11 hstage4_11

abbrev win4 : Fin 12 → Pipeline.Window sig grid4 := fun | 0 => win4_0 | 1 => win4_1 | 2 => win4_2 | 3 => win4_3 | 4 => win4_4 | 5 => win4_5 | 6 => win4_6 | 7 => win4_7 | 8 => win4_8 | 9 => win4_9 | 10 => win4_10 | 11 => win4_11 | ⟨_ + 12, h⟩ => absurd h (Nat.not_lt.2 (Nat.le_add_left _ _))
abbrev spec4 : Fin 12 → Pipeline.WinSpec sig grid4.rank := fun w => (win4 w).toWinSpec

abbrev win5_0 : Pipeline.Window sig grid5 :=
  Pipeline.Window.ofSpec (Memref.whole main_v288) S5000x128.size cc5_transform_0 reads5_0 false false 1 stage5_0 sem5_0
    hrank5 hreads5_0 hinb5_0 nbuf5_0 (Memref.isWhole_whole _) hwx5_0 hstage5_0

abbrev win5_1 : Pipeline.Window sig grid5 :=
  Pipeline.Window.ofSpec (Memref.whole main_v334) S5000x128.size cc5_transform_1 reads5_1 false false 1 stage5_1 sem5_1
    hrank5 hreads5_1 hinb5_1 nbuf5_1 (Memref.isWhole_whole _) hwx5_1 hstage5_1

abbrev win5_2 : Pipeline.Window sig grid5 :=
  Pipeline.Window.ofSpec (Memref.whole main_v211) S5000x128.size cc5_transform_2 reads5_2 false false 1 stage5_2 sem5_2
    hrank5 hreads5_2 hinb5_2 nbuf5_2 (Memref.isWhole_whole _) hwx5_2 hstage5_2

abbrev win5_3 : Pipeline.Window sig grid5 :=
  Pipeline.Window.ofSpec (Memref.whole main_v393) S128x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v395) S128x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v397) S128x128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v399) S128x128.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v401) S128.size cc5_transform_7 reads5_7 false true 1 stage5_7 sem5_7
    hrank5 hreads5_7 hinb5_7 nbuf5_7 (Memref.isWhole_whole _) hwx5_7 hstage5_7

abbrev win5_8 : Pipeline.Window sig grid5 :=
  Pipeline.Window.ofSpec (Memref.whole main_v403) S128.size cc5_transform_8 reads5_8 false true 1 stage5_8 sem5_8
    hrank5 hreads5_8 hinb5_8 nbuf5_8 (Memref.isWhole_whole _) hwx5_8 hstage5_8

abbrev win5_9 : Pipeline.Window sig grid5 :=
  Pipeline.Window.ofSpec (Memref.whole main_v405) S128.size cc5_transform_9 reads5_9 false true 1 stage5_9 sem5_9
    hrank5 hreads5_9 hinb5_9 nbuf5_9 (Memref.isWhole_whole _) hwx5_9 hstage5_9

abbrev win5_10 : Pipeline.Window sig grid5 :=
  Pipeline.Window.ofSpec (Memref.whole main_v407) S128.size cc5_transform_10 reads5_10 false true 1 stage5_10 sem5_10
    hrank5 hreads5_10 hinb5_10 nbuf5_10 (Memref.isWhole_whole _) hwx5_10 hstage5_10

abbrev win5_11 : Pipeline.Window sig grid5 :=
  Pipeline.Window.ofSpec (Memref.whole main_v408) S5000x128.size cc5_transform_11 reads5_11 true false 1 stage5_11 sem5_11
    hrank5 hreads5_11 hinb5_11 nbuf5_11 (Memref.isWhole_whole _) hwx5_11 hstage5_11

abbrev win5 : Fin 12 → Pipeline.Window sig grid5 := fun | 0 => win5_0 | 1 => win5_1 | 2 => win5_2 | 3 => win5_3 | 4 => win5_4 | 5 => win5_5 | 6 => win5_6 | 7 => win5_7 | 8 => win5_8 | 9 => win5_9 | 10 => win5_10 | 11 => win5_11 | ⟨_ + 12, h⟩ => absurd h (Nat.not_lt.2 (Nat.le_add_left _ _))
abbrev spec5 : Fin 12 → Pipeline.WinSpec sig grid5.rank := fun w => (win5 w).toWinSpec

class Facts : Prop extends Facts₀ where

variable [Facts]
-- ==== ReferenceIdeal.lean ====
abbrev S100000x6 : Shape := ⟨2, ![100000, 6]⟩
abbrev S50000x4 : Shape := ⟨2, ![50000, 4]⟩
abbrev S5000x3 : Shape := ⟨2, ![5000, 3]⟩
abbrev S2x500000 : Shape := ⟨2, ![2, 500000]⟩
abbrev S2x300000 : Shape := ⟨2, ![2, 300000]⟩
abbrev S2x150000 : Shape := ⟨2, ![2, 150000]⟩
abbrev S128x6 : Shape := ⟨2, ![128, 6]⟩
abbrev S128 : Shape := ⟨1, ![128]⟩
abbrev S128x4 : Shape := ⟨2, ![128, 4]⟩
abbrev S128x3 : Shape := ⟨2, ![128, 3]⟩
abbrev S2x6x128x128 : Shape := ⟨4, ![2, 6, 128, 128]⟩
abbrev S2x6x128 : Shape := ⟨3, ![2, 6, 128]⟩
abbrev S2x3x128 : Shape := ⟨3, ![2, 3, 128]⟩
abbrev S6x128 : Shape := ⟨2, ![6, 128]⟩
abbrev S100000x128 : Shape := ⟨2, ![100000, 128]⟩
abbrev S1x128 : Shape := ⟨2, ![1, 128]⟩
abbrev S4x128 : Shape := ⟨2, ![4, 128]⟩
abbrev S50000x128 : Shape := ⟨2, ![50000, 128]⟩
abbrev S3x128 : Shape := ⟨2, ![3, 128]⟩
abbrev S5000x128 : Shape := ⟨2, ![5000, 128]⟩
abbrev S1x6x128x128 : Shape := ⟨4, ![1, 6, 128, 128]⟩
abbrev S6x128x128 : Shape := ⟨3, ![6, 128, 128]⟩
abbrev S1x6x128 : Shape := ⟨3, ![1, 6, 128]⟩
abbrev S1x128x128 : Shape := ⟨3, ![1, 128, 128]⟩
abbrev S128x128 : Shape := ⟨2, ![128, 128]⟩
abbrev S1x500000 : Shape := ⟨2, ![1, 500000]⟩
abbrev S500000 : Shape := ⟨1, ![500000]⟩
abbrev S_ : Shape := ⟨0, ![]⟩
abbrev S500000x1 : Shape := ⟨2, ![500000, 1]⟩
abbrev S500000x128 : Shape := ⟨2, ![500000, 128]⟩
abbrev S50000 : Shape := ⟨1, ![50000]⟩
abbrev S50000x1 : Shape := ⟨2, ![50000, 1]⟩
abbrev S100000 : Shape := ⟨1, ![100000]⟩
abbrev S100000x1 : Shape := ⟨2, ![100000, 1]⟩
abbrev S1x300000 : Shape := ⟨2, ![1, 300000]⟩
abbrev S300000 : Shape := ⟨1, ![300000]⟩
abbrev S300000x1 : Shape := ⟨2, ![300000, 1]⟩
abbrev S300000x128 : Shape := ⟨2, ![300000, 128]⟩
abbrev S5000 : Shape := ⟨1, ![5000]⟩
abbrev S5000x1 : Shape := ⟨2, ![5000, 1]⟩
abbrev S1x150000 : Shape := ⟨2, ![1, 150000]⟩
abbrev S150000 : Shape := ⟨1, ![150000]⟩
abbrev S150000x1 : Shape := ⟨2, ![150000, 1]⟩
abbrev S150000x128 : Shape := ⟨2, ![150000, 128]⟩
abbrev S1x1x128 : Shape := ⟨3, ![1, 1, 128]⟩

abbrev nBuf : Space → Nat
  | .hbm => 803
  | .vmem => 0
  | .smem => 0
  | _ => 0

abbrev hbmTy0_0 (i : Nat) : BufTy := match i % 128 with
  | 0 => ⟨S100000x6, .f32⟩
  | 1 => ⟨S50000x4, .f32⟩
  | 2 => ⟨S5000x3, .f32⟩
  | 3 => ⟨S2x500000, .i32⟩
  | 4 => ⟨S2x500000, .i32⟩
  | 5 => ⟨S2x300000, .i32⟩
  | 6 => ⟨S2x300000, .i32⟩
  | 7 => ⟨S2x150000, .i32⟩
  | 8 => ⟨S2x150000, .i32⟩
  | 9 => ⟨S128x6, .f32⟩
  | 10 => ⟨S128, .f32⟩
  | 11 => ⟨S128x4, .f32⟩
  | 12 => ⟨S128, .f32⟩
  | 13 => ⟨S128x3, .f32⟩
  | 14 => ⟨S128, .f32⟩
  | 15 => ⟨S2x6x128x128, .f32⟩
  | 16 => ⟨S2x6x128, .f32⟩
  | 17 => ⟨S2x6x128x128, .f32⟩
  | 18 => ⟨S2x3x128, .f32⟩
  | 19 => ⟨S2x3x128, .f32⟩
  | 20 => ⟨S6x128, .f32⟩
  | 21 => ⟨S100000x128, .f32⟩
  | 22 => ⟨S1x128, .f32⟩
  | 23 => ⟨S100000x128, .f32⟩
  | 24 => ⟨S100000x128, .f32⟩
  | 25 => ⟨S4x128, .f32⟩
  | 26 => ⟨S50000x128, .f32⟩
  | 27 => ⟨S1x128, .f32⟩
  | 28 => ⟨S50000x128, .f32⟩
  | 29 => ⟨S50000x128, .f32⟩
  | 30 => ⟨S3x128, .f32⟩
  | 31 => ⟨S5000x128, .f32⟩
  | 32 => ⟨S1x128, .f32⟩
  | 33 => ⟨S5000x128, .f32⟩
  | 34 => ⟨S5000x128, .f32⟩
  | 35 => ⟨S1x6x128x128, .f32⟩
  | 36 => ⟨S6x128x128, .f32⟩
  | 37 => ⟨S1x6x128, .f32⟩
  | 38 => ⟨S6x128, .f32⟩
  | 39 => ⟨S1x6x128x128, .f32⟩
  | 40 => ⟨S6x128x128, .f32⟩
  | 41 => ⟨S1x128x128, .f32⟩
  | 42 => ⟨S128x128, .f32⟩
  | 43 => ⟨S1x128, .f32⟩
  | 44 => ⟨S128, .f32⟩
  | 45 => ⟨S1x128x128, .f32⟩
  | 46 => ⟨S128x128, .f32⟩
  | 47 => ⟨S1x500000, .i32⟩
  | 48 => ⟨S500000, .i32⟩
  | 49 => ⟨S1x500000, .i32⟩
  | 50 => ⟨S500000, .i32⟩
  | 51 => ⟨S_, .i32⟩
  | 52 => ⟨S500000, .i32⟩
  | 53 => ⟨S500000, .i1⟩
  | 54 => ⟨S_, .i32⟩
  | 55 => ⟨S500000, .i32⟩
  | 56 => ⟨S500000, .i32⟩
  | 57 => ⟨S500000, .i32⟩
  | 58 => ⟨S500000x1, .i32⟩
  | 59 => ⟨S500000x128, .f32⟩
  | 60 => ⟨S_, .f32⟩
  | 61 => ⟨S50000x128, .f32⟩
  | 62 => ⟨S500000x1, .i32⟩
  | 63 => ⟨S50000x128, .f32⟩
  | 64 => ⟨S_, .f32⟩
  | 65 => ⟨S500000, .f32⟩
  | 66 => ⟨S_, .f32⟩
  | 67 => ⟨S50000, .f32⟩
  | 68 => ⟨S500000x1, .i32⟩
  | 69 => ⟨S50000, .f32⟩
  | 70 => ⟨S_, .f32⟩
  | 71 => ⟨S50000, .f32⟩
  | 72 => ⟨S50000, .f32⟩
  | 73 => ⟨S50000x1, .f32⟩
  | 74 => ⟨S50000x128, .f32⟩
  | 75 => ⟨S50000x128, .f32⟩
  | 76 => ⟨S128x128, .f32⟩
  | 77 => ⟨S50000x128, .f32⟩
  | 78 => ⟨S1x128, .f32⟩
  | 79 => ⟨S50000x128, .f32⟩
  | 80 => ⟨S50000x128, .f32⟩
  | 81 => ⟨S128x128, .f32⟩
  | 82 => ⟨S50000x128, .f32⟩
  | 83 => ⟨S50000x128, .f32⟩
  | 84 => ⟨S1x128x128, .f32⟩
  | 85 => ⟨S128x128, .f32⟩
  | 86 => ⟨S1x128, .f32⟩
  | 87 => ⟨S128, .f32⟩
  | 88 => ⟨S1x128x128, .f32⟩
  | 89 => ⟨S128x128, .f32⟩
  | 90 => ⟨S1x500000, .i32⟩
  | 91 => ⟨S500000, .i32⟩
  | 92 => ⟨S1x500000, .i32⟩
  | 93 => ⟨S500000, .i32⟩
  | 94 => ⟨S_, .i32⟩
  | 95 => ⟨S500000, .i32⟩
  | 96 => ⟨S500000, .i1⟩
  | 97 => ⟨S_, .i32⟩
  | 98 => ⟨S500000, .i32⟩
  | 99 => ⟨S500000, .i32⟩
  | 100 => ⟨S500000, .i32⟩
  | 101 => ⟨S500000x1, .i32⟩
  | 102 => ⟨S500000x128, .f32⟩
  | 103 => ⟨S_, .f32⟩
  | 104 => ⟨S100000x128, .f32⟩
  | 105 => ⟨S500000x1, .i32⟩
  | 106 => ⟨S100000x128, .f32⟩
  | 107 => ⟨S_, .f32⟩
  | 108 => ⟨S500000, .f32⟩
  | 109 => ⟨S_, .f32⟩
  | 110 => ⟨S100000, .f32⟩
  | 111 => ⟨S500000x1, .i32⟩
  | 112 => ⟨S100000, .f32⟩
  | 113 => ⟨S_, .f32⟩
  | 114 => ⟨S100000, .f32⟩
  | 115 => ⟨S100000, .f32⟩
  | 116 => ⟨S100000x1, .f32⟩
  | 117 => ⟨S100000x128, .f32⟩
  | 118 => ⟨S100000x128, .f32⟩
  | 119 => ⟨S128x128, .f32⟩
  | 120 => ⟨S100000x128, .f32⟩
  | 121 => ⟨S1x128, .f32⟩
  | 122 => ⟨S100000x128, .f32⟩
  | 123 => ⟨S100000x128, .f32⟩
  | 124 => ⟨S128x128, .f32⟩
  | 125 => ⟨S100000x128, .f32⟩
  | 126 => ⟨S100000x128, .f32⟩
  | 127 => ⟨S1x128x128, .f32⟩
  | _ => ⟨S100000x6, .f32⟩

abbrev hbmTy0_1 (i : Nat) : BufTy := match i % 128 with
  | 0 => ⟨S128x128, .f32⟩
  | 1 => ⟨S1x128, .f32⟩
  | 2 => ⟨S128, .f32⟩
  | 3 => ⟨S1x128x128, .f32⟩
  | 4 => ⟨S128x128, .f32⟩
  | 5 => ⟨S1x300000, .i32⟩
  | 6 => ⟨S300000, .i32⟩
  | 7 => ⟨S1x300000, .i32⟩
  | 8 => ⟨S300000, .i32⟩
  | 9 => ⟨S_, .i32⟩
  | 10 => ⟨S300000, .i32⟩
  | 11 => ⟨S300000, .i1⟩
  | 12 => ⟨S_, .i32⟩
  | 13 => ⟨S300000, .i32⟩
  | 14 => ⟨S300000, .i32⟩
  | 15 => ⟨S300000, .i32⟩
  | 16 => ⟨S300000x1, .i32⟩
  | 17 => ⟨S300000x128, .f32⟩
  | 18 => ⟨S_, .f32⟩
  | 19 => ⟨S5000x128, .f32⟩
  | 20 => ⟨S300000x1, .i32⟩
  | 21 => ⟨S5000x128, .f32⟩
  | 22 => ⟨S_, .f32⟩
  | 23 => ⟨S300000, .f32⟩
  | 24 => ⟨S_, .f32⟩
  | 25 => ⟨S5000, .f32⟩
  | 26 => ⟨S300000x1, .i32⟩
  | 27 => ⟨S5000, .f32⟩
  | 28 => ⟨S_, .f32⟩
  | 29 => ⟨S5000, .f32⟩
  | 30 => ⟨S5000, .f32⟩
  | 31 => ⟨S5000x1, .f32⟩
  | 32 => ⟨S5000x128, .f32⟩
  | 33 => ⟨S5000x128, .f32⟩
  | 34 => ⟨S128x128, .f32⟩
  | 35 => ⟨S5000x128, .f32⟩
  | 36 => ⟨S1x128, .f32⟩
  | 37 => ⟨S5000x128, .f32⟩
  | 38 => ⟨S5000x128, .f32⟩
  | 39 => ⟨S128x128, .f32⟩
  | 40 => ⟨S5000x128, .f32⟩
  | 41 => ⟨S5000x128, .f32⟩
  | 42 => ⟨S1x128x128, .f32⟩
  | 43 => ⟨S128x128, .f32⟩
  | 44 => ⟨S1x128, .f32⟩
  | 45 => ⟨S128, .f32⟩
  | 46 => ⟨S1x128x128, .f32⟩
  | 47 => ⟨S128x128, .f32⟩
  | 48 => ⟨S1x300000, .i32⟩
  | 49 => ⟨S300000, .i32⟩
  | 50 => ⟨S1x300000, .i32⟩
  | 51 => ⟨S300000, .i32⟩
  | 52 => ⟨S_, .i32⟩
  | 53 => ⟨S300000, .i32⟩
  | 54 => ⟨S300000, .i1⟩
  | 55 => ⟨S_, .i32⟩
  | 56 => ⟨S300000, .i32⟩
  | 57 => ⟨S300000, .i32⟩
  | 58 => ⟨S300000, .i32⟩
  | 59 => ⟨S300000x1, .i32⟩
  | 60 => ⟨S300000x128, .f32⟩
  | 61 => ⟨S_, .f32⟩
  | 62 => ⟨S100000x128, .f32⟩
  | 63 => ⟨S300000x1, .i32⟩
  | 64 => ⟨S100000x128, .f32⟩
  | 65 => ⟨S_, .f32⟩
  | 66 => ⟨S300000, .f32⟩
  | 67 => ⟨S_, .f32⟩
  | 68 => ⟨S100000, .f32⟩
  | 69 => ⟨S300000x1, .i32⟩
  | 70 => ⟨S100000, .f32⟩
  | 71 => ⟨S_, .f32⟩
  | 72 => ⟨S100000, .f32⟩
  | 73 => ⟨S100000, .f32⟩
  | 74 => ⟨S100000x1, .f32⟩
  | 75 => ⟨S100000x128, .f32⟩
  | 76 => ⟨S100000x128, .f32⟩
  | 77 => ⟨S128x128, .f32⟩
  | 78 => ⟨S100000x128, .f32⟩
  | 79 => ⟨S1x128, .f32⟩
  | 80 => ⟨S100000x128, .f32⟩
  | 81 => ⟨S100000x128, .f32⟩
  | 82 => ⟨S128x128, .f32⟩
  | 83 => ⟨S100000x128, .f32⟩
  | 84 => ⟨S100000x128, .f32⟩
  | 85 => ⟨S1x128x128, .f32⟩
  | 86 => ⟨S128x128, .f32⟩
  | 87 => ⟨S1x128, .f32⟩
  | 88 => ⟨S128, .f32⟩
  | 89 => ⟨S1x128x128, .f32⟩
  | 90 => ⟨S128x128, .f32⟩
  | 91 => ⟨S1x150000, .i32⟩
  | 92 => ⟨S150000, .i32⟩
  | 93 => ⟨S1x150000, .i32⟩
  | 94 => ⟨S150000, .i32⟩
  | 95 => ⟨S_, .i32⟩
  | 96 => ⟨S150000, .i32⟩
  | 97 => ⟨S150000, .i1⟩
  | 98 => ⟨S_, .i32⟩
  | 99 => ⟨S150000, .i32⟩
  | 100 => ⟨S150000, .i32⟩
  | 101 => ⟨S150000, .i32⟩
  | 102 => ⟨S150000x1, .i32⟩
  | 103 => ⟨S150000x128, .f32⟩
  | 104 => ⟨S_, .f32⟩
  | 105 => ⟨S5000x128, .f32⟩
  | 106 => ⟨S150000x1, .i32⟩
  | 107 => ⟨S5000x128, .f32⟩
  | 108 => ⟨S_, .f32⟩
  | 109 => ⟨S150000, .f32⟩
  | 110 => ⟨S_, .f32⟩
  | 111 => ⟨S5000, .f32⟩
  | 112 => ⟨S150000x1, .i32⟩
  | 113 => ⟨S5000, .f32⟩
  | 114 => ⟨S_, .f32⟩
  | 115 => ⟨S5000, .f32⟩
  | 116 => ⟨S5000, .f32⟩
  | 117 => ⟨S5000x1, .f32⟩
  | 118 => ⟨S5000x128, .f32⟩
  | 119 => ⟨S5000x128, .f32⟩
  | 120 => ⟨S128x128, .f32⟩
  | 121 => ⟨S5000x128, .f32⟩
  | 122 => ⟨S1x128, .f32⟩
  | 123 => ⟨S5000x128, .f32⟩
  | 124 => ⟨S5000x128, .f32⟩
  | 125 => ⟨S128x128, .f32⟩
  | 126 => ⟨S5000x128, .f32⟩
  | 127 => ⟨S5000x128, .f32⟩
  | _ => ⟨S100000x6, .f32⟩

abbrev hbmTy0_2 (i : Nat) : BufTy := match i % 128 with
  | 0 => ⟨S1x128x128, .f32⟩
  | 1 => ⟨S128x128, .f32⟩
  | 2 => ⟨S1x128, .f32⟩
  | 3 => ⟨S128, .f32⟩
  | 4 => ⟨S1x128x128, .f32⟩
  | 5 => ⟨S128x128, .f32⟩
  | 6 => ⟨S1x150000, .i32⟩
  | 7 => ⟨S150000, .i32⟩
  | 8 => ⟨S1x150000, .i32⟩
  | 9 => ⟨S150000, .i32⟩
  | 10 => ⟨S_, .i32⟩
  | 11 => ⟨S150000, .i32⟩
  | 12 => ⟨S150000, .i1⟩
  | 13 => ⟨S_, .i32⟩
  | 14 => ⟨S150000, .i32⟩
  | 15 => ⟨S150000, .i32⟩
  | 16 => ⟨S150000, .i32⟩
  | 17 => ⟨S150000x1, .i32⟩
  | 18 => ⟨S150000x128, .f32⟩
  | 19 => ⟨S_, .f32⟩
  | 20 => ⟨S50000x128, .f32⟩
  | 21 => ⟨S150000x1, .i32⟩
  | 22 => ⟨S50000x128, .f32⟩
  | 23 => ⟨S_, .f32⟩
  | 24 => ⟨S150000, .f32⟩
  | 25 => ⟨S_, .f32⟩
  | 26 => ⟨S50000, .f32⟩
  | 27 => ⟨S150000x1, .i32⟩
  | 28 => ⟨S50000, .f32⟩
  | 29 => ⟨S_, .f32⟩
  | 30 => ⟨S50000, .f32⟩
  | 31 => ⟨S50000, .f32⟩
  | 32 => ⟨S50000x1, .f32⟩
  | 33 => ⟨S50000x128, .f32⟩
  | 34 => ⟨S50000x128, .f32⟩
  | 35 => ⟨S128x128, .f32⟩
  | 36 => ⟨S50000x128, .f32⟩
  | 37 => ⟨S1x128, .f32⟩
  | 38 => ⟨S50000x128, .f32⟩
  | 39 => ⟨S50000x128, .f32⟩
  | 40 => ⟨S128x128, .f32⟩
  | 41 => ⟨S50000x128, .f32⟩
  | 42 => ⟨S50000x128, .f32⟩
  | 43 => ⟨S100000x128, .f32⟩
  | 44 => ⟨S_, .f32⟩
  | 45 => ⟨S100000x128, .f32⟩
  | 46 => ⟨S100000x128, .f32⟩
  | 47 => ⟨S1x1x128, .f32⟩
  | 48 => ⟨S128, .f32⟩
  | 49 => ⟨S1x1x128, .f32⟩
  | 50 => ⟨S128, .f32⟩
  | 51 => ⟨S_, .f32⟩
  | 52 => ⟨S100000, .f32⟩
  | 53 => ⟨S100000x1, .f32⟩
  | 54 => ⟨S_, .f32⟩
  | 55 => ⟨S100000x1, .f32⟩
  | 56 => ⟨S100000x1, .f32⟩
  | 57 => ⟨S100000x128, .f32⟩
  | 58 => ⟨S100000x128, .f32⟩
  | 59 => ⟨S100000x128, .f32⟩
  | 60 => ⟨S_, .f32⟩
  | 61 => ⟨S100000, .f32⟩
  | 62 => ⟨S100000x1, .f32⟩
  | 63 => ⟨S_, .f32⟩
  | 64 => ⟨S100000x1, .f32⟩
  | 65 => ⟨S100000x1, .f32⟩
  | 66 => ⟨S100000x128, .f32⟩
  | 67 => ⟨S100000x128, .f32⟩
  | 68 => ⟨S_, .f32⟩
  | 69 => ⟨S100000x1, .f32⟩
  | 70 => ⟨S100000x1, .f32⟩
  | 71 => ⟨S100000x1, .f32⟩
  | 72 => ⟨S100000x128, .f32⟩
  | 73 => ⟨S100000x128, .f32⟩
  | 74 => ⟨S1x128, .f32⟩
  | 75 => ⟨S100000x128, .f32⟩
  | 76 => ⟨S100000x128, .f32⟩
  | 77 => ⟨S1x128, .f32⟩
  | 78 => ⟨S100000x128, .f32⟩
  | 79 => ⟨S100000x128, .f32⟩
  | 80 => ⟨S_, .f32⟩
  | 81 => ⟨S100000x128, .f32⟩
  | 82 => ⟨S100000x128, .f32⟩
  | 83 => ⟨S50000x128, .f32⟩
  | 84 => ⟨S_, .f32⟩
  | 85 => ⟨S50000x128, .f32⟩
  | 86 => ⟨S50000x128, .f32⟩
  | 87 => ⟨S1x1x128, .f32⟩
  | 88 => ⟨S128, .f32⟩
  | 89 => ⟨S1x1x128, .f32⟩
  | 90 => ⟨S128, .f32⟩
  | 91 => ⟨S_, .f32⟩
  | 92 => ⟨S50000, .f32⟩
  | 93 => ⟨S50000x1, .f32⟩
  | 94 => ⟨S_, .f32⟩
  | 95 => ⟨S50000x1, .f32⟩
  | 96 => ⟨S50000x1, .f32⟩
  | 97 => ⟨S50000x128, .f32⟩
  | 98 => ⟨S50000x128, .f32⟩
  | 99 => ⟨S50000x128, .f32⟩
  | 100 => ⟨S_, .f32⟩
  | 101 => ⟨S50000, .f32⟩
  | 102 => ⟨S50000x1, .f32⟩
  | 103 => ⟨S_, .f32⟩
  | 104 => ⟨S50000x1, .f32⟩
  | 105 => ⟨S50000x1, .f32⟩
  | 106 => ⟨S50000x128, .f32⟩
  | 107 => ⟨S50000x128, .f32⟩
  | 108 => ⟨S_, .f32⟩
  | 109 => ⟨S50000x1, .f32⟩
  | 110 => ⟨S50000x1, .f32⟩
  | 111 => ⟨S50000x1, .f32⟩
  | 112 => ⟨S50000x128, .f32⟩
  | 113 => ⟨S50000x128, .f32⟩
  | 114 => ⟨S1x128, .f32⟩
  | 115 => ⟨S50000x128, .f32⟩
  | 116 => ⟨S50000x128, .f32⟩
  | 117 => ⟨S1x128, .f32⟩
  | 118 => ⟨S50000x128, .f32⟩
  | 119 => ⟨S50000x128, .f32⟩
  | 120 => ⟨S_, .f32⟩
  | 121 => ⟨S50000x128, .f32⟩
  | 122 => ⟨S50000x128, .f32⟩
  | 123 => ⟨S5000x128, .f32⟩
  | 124 => ⟨S_, .f32⟩
  | 125 => ⟨S5000x128, .f32⟩
  | 126 => ⟨S5000x128, .f32⟩
  | 127 => ⟨S1x1x128, .f32⟩
  | _ => ⟨S100000x6, .f32⟩

abbrev hbmTy0_3 (i : Nat) : BufTy := match i % 128 with
  | 0 => ⟨S128, .f32⟩
  | 1 => ⟨S1x1x128, .f32⟩
  | 2 => ⟨S128, .f32⟩
  | 3 => ⟨S_, .f32⟩
  | 4 => ⟨S5000, .f32⟩
  | 5 => ⟨S5000x1, .f32⟩
  | 6 => ⟨S_, .f32⟩
  | 7 => ⟨S5000x1, .f32⟩
  | 8 => ⟨S5000x1, .f32⟩
  | 9 => ⟨S5000x128, .f32⟩
  | 10 => ⟨S5000x128, .f32⟩
  | 11 => ⟨S5000x128, .f32⟩
  | 12 => ⟨S_, .f32⟩
  | 13 => ⟨S5000, .f32⟩
  | 14 => ⟨S5000x1, .f32⟩
  | 15 => ⟨S_, .f32⟩
  | 16 => ⟨S5000x1, .f32⟩
  | 17 => ⟨S5000x1, .f32⟩
  | 18 => ⟨S5000x128, .f32⟩
  | 19 => ⟨S5000x128, .f32⟩
  | 20 => ⟨S_, .f32⟩
  | 21 => ⟨S5000x1, .f32⟩
  | 22 => ⟨S5000x1, .f32⟩
  | 23 => ⟨S5000x1, .f32⟩
  | 24 => ⟨S5000x128, .f32⟩
  | 25 => ⟨S5000x128, .f32⟩
  | 26 => ⟨S1x128, .f32⟩
  | 27 => ⟨S5000x128, .f32⟩
  | 28 => ⟨S5000x128, .f32⟩
  | 29 => ⟨S1x128, .f32⟩
  | 30 => ⟨S5000x128, .f32⟩
  | 31 => ⟨S5000x128, .f32⟩
  | 32 => ⟨S_, .f32⟩
  | 33 => ⟨S5000x128, .f32⟩
  | 34 => ⟨S5000x128, .f32⟩
  | 35 => ⟨S1x6x128x128, .f32⟩
  | 36 => ⟨S6x128x128, .f32⟩
  | 37 => ⟨S1x6x128, .f32⟩
  | 38 => ⟨S6x128, .f32⟩
  | 39 => ⟨S1x6x128x128, .f32⟩
  | 40 => ⟨S6x128x128, .f32⟩
  | 41 => ⟨S1x128x128, .f32⟩
  | 42 => ⟨S128x128, .f32⟩
  | 43 => ⟨S1x128, .f32⟩
  | 44 => ⟨S128, .f32⟩
  | 45 => ⟨S1x128x128, .f32⟩
  | 46 => ⟨S128x128, .f32⟩
  | 47 => ⟨S1x500000, .i32⟩
  | 48 => ⟨S500000, .i32⟩
  | 49 => ⟨S1x500000, .i32⟩
  | 50 => ⟨S500000, .i32⟩
  | 51 => ⟨S_, .i32⟩
  | 52 => ⟨S500000, .i32⟩
  | 53 => ⟨S500000, .i1⟩
  | 54 => ⟨S_, .i32⟩
  | 55 => ⟨S500000, .i32⟩
  | 56 => ⟨S500000, .i32⟩
  | 57 => ⟨S500000, .i32⟩
  | 58 => ⟨S500000x1, .i32⟩
  | 59 => ⟨S500000x128, .f32⟩
  | 60 => ⟨S_, .f32⟩
  | 61 => ⟨S50000x128, .f32⟩
  | 62 => ⟨S500000x1, .i32⟩
  | 63 => ⟨S50000x128, .f32⟩
  | 64 => ⟨S_, .f32⟩
  | 65 => ⟨S500000, .f32⟩
  | 66 => ⟨S_, .f32⟩
  | 67 => ⟨S50000, .f32⟩
  | 68 => ⟨S500000x1, .i32⟩
  | 69 => ⟨S50000, .f32⟩
  | 70 => ⟨S_, .f32⟩
  | 71 => ⟨S50000, .f32⟩
  | 72 => ⟨S50000, .f32⟩
  | 73 => ⟨S50000x1, .f32⟩
  | 74 => ⟨S50000x128, .f32⟩
  | 75 => ⟨S50000x128, .f32⟩
  | 76 => ⟨S128x128, .f32⟩
  | 77 => ⟨S50000x128, .f32⟩
  | 78 => ⟨S1x128, .f32⟩
  | 79 => ⟨S50000x128, .f32⟩
  | 80 => ⟨S50000x128, .f32⟩
  | 81 => ⟨S128x128, .f32⟩
  | 82 => ⟨S50000x128, .f32⟩
  | 83 => ⟨S50000x128, .f32⟩
  | 84 => ⟨S1x128x128, .f32⟩
  | 85 => ⟨S128x128, .f32⟩
  | 86 => ⟨S1x128, .f32⟩
  | 87 => ⟨S128, .f32⟩
  | 88 => ⟨S1x128x128, .f32⟩
  | 89 => ⟨S128x128, .f32⟩
  | 90 => ⟨S1x500000, .i32⟩
  | 91 => ⟨S500000, .i32⟩
  | 92 => ⟨S1x500000, .i32⟩
  | 93 => ⟨S500000, .i32⟩
  | 94 => ⟨S_, .i32⟩
  | 95 => ⟨S500000, .i32⟩
  | 96 => ⟨S500000, .i1⟩
  | 97 => ⟨S_, .i32⟩
  | 98 => ⟨S500000, .i32⟩
  | 99 => ⟨S500000, .i32⟩
  | 100 => ⟨S500000, .i32⟩
  | 101 => ⟨S500000x1, .i32⟩
  | 102 => ⟨S500000x128, .f32⟩
  | 103 => ⟨S_, .f32⟩
  | 104 => ⟨S100000x128, .f32⟩
  | 105 => ⟨S500000x1, .i32⟩
  | 106 => ⟨S100000x128, .f32⟩
  | 107 => ⟨S_, .f32⟩
  | 108 => ⟨S500000, .f32⟩
  | 109 => ⟨S_, .f32⟩
  | 110 => ⟨S100000, .f32⟩
  | 111 => ⟨S500000x1, .i32⟩
  | 112 => ⟨S100000, .f32⟩
  | 113 => ⟨S_, .f32⟩
  | 114 => ⟨S100000, .f32⟩
  | 115 => ⟨S100000, .f32⟩
  | 116 => ⟨S100000x1, .f32⟩
  | 117 => ⟨S100000x128, .f32⟩
  | 118 => ⟨S100000x128, .f32⟩
  | 119 => ⟨S128x128, .f32⟩
  | 120 => ⟨S100000x128, .f32⟩
  | 121 => ⟨S1x128, .f32⟩
  | 122 => ⟨S100000x128, .f32⟩
  | 123 => ⟨S100000x128, .f32⟩
  | 124 => ⟨S128x128, .f32⟩
  | 125 => ⟨S100000x128, .f32⟩
  | 126 => ⟨S100000x128, .f32⟩
  | 127 => ⟨S1x128x128, .f32⟩
  | _ => ⟨S100000x6, .f32⟩

abbrev hbmTy0_4 (i : Nat) : BufTy := match i % 128 with
  | 0 => ⟨S128x128, .f32⟩
  | 1 => ⟨S1x128, .f32⟩
  | 2 => ⟨S128, .f32⟩
  | 3 => ⟨S1x128x128, .f32⟩
  | 4 => ⟨S128x128, .f32⟩
  | 5 => ⟨S1x300000, .i32⟩
  | 6 => ⟨S300000, .i32⟩
  | 7 => ⟨S1x300000, .i32⟩
  | 8 => ⟨S300000, .i32⟩
  | 9 => ⟨S_, .i32⟩
  | 10 => ⟨S300000, .i32⟩
  | 11 => ⟨S300000, .i1⟩
  | 12 => ⟨S_, .i32⟩
  | 13 => ⟨S300000, .i32⟩
  | 14 => ⟨S300000, .i32⟩
  | 15 => ⟨S300000, .i32⟩
  | 16 => ⟨S300000x1, .i32⟩
  | 17 => ⟨S300000x128, .f32⟩
  | 18 => ⟨S_, .f32⟩
  | 19 => ⟨S5000x128, .f32⟩
  | 20 => ⟨S300000x1, .i32⟩
  | 21 => ⟨S5000x128, .f32⟩
  | 22 => ⟨S_, .f32⟩
  | 23 => ⟨S300000, .f32⟩
  | 24 => ⟨S_, .f32⟩
  | 25 => ⟨S5000, .f32⟩
  | 26 => ⟨S300000x1, .i32⟩
  | 27 => ⟨S5000, .f32⟩
  | 28 => ⟨S_, .f32⟩
  | 29 => ⟨S5000, .f32⟩
  | 30 => ⟨S5000, .f32⟩
  | 31 => ⟨S5000x1, .f32⟩
  | 32 => ⟨S5000x128, .f32⟩
  | 33 => ⟨S5000x128, .f32⟩
  | 34 => ⟨S128x128, .f32⟩
  | 35 => ⟨S5000x128, .f32⟩
  | 36 => ⟨S1x128, .f32⟩
  | 37 => ⟨S5000x128, .f32⟩
  | 38 => ⟨S5000x128, .f32⟩
  | 39 => ⟨S128x128, .f32⟩
  | 40 => ⟨S5000x128, .f32⟩
  | 41 => ⟨S5000x128, .f32⟩
  | 42 => ⟨S1x128x128, .f32⟩
  | 43 => ⟨S128x128, .f32⟩
  | 44 => ⟨S1x128, .f32⟩
  | 45 => ⟨S128, .f32⟩
  | 46 => ⟨S1x128x128, .f32⟩
  | 47 => ⟨S128x128, .f32⟩
  | 48 => ⟨S1x300000, .i32⟩
  | 49 => ⟨S300000, .i32⟩
  | 50 => ⟨S1x300000, .i32⟩
  | 51 => ⟨S300000, .i32⟩
  | 52 => ⟨S_, .i32⟩
  | 53 => ⟨S300000, .i32⟩
  | 54 => ⟨S300000, .i1⟩
  | 55 => ⟨S_, .i32⟩
  | 56 => ⟨S300000, .i32⟩
  | 57 => ⟨S300000, .i32⟩
  | 58 => ⟨S300000, .i32⟩
  | 59 => ⟨S300000x1, .i32⟩
  | 60 => ⟨S300000x128, .f32⟩
  | 61 => ⟨S_, .f32⟩
  | 62 => ⟨S100000x128, .f32⟩
  | 63 => ⟨S300000x1, .i32⟩
  | 64 => ⟨S100000x128, .f32⟩
  | 65 => ⟨S_, .f32⟩
  | 66 => ⟨S300000, .f32⟩
  | 67 => ⟨S_, .f32⟩
  | 68 => ⟨S100000, .f32⟩
  | 69 => ⟨S300000x1, .i32⟩
  | 70 => ⟨S100000, .f32⟩
  | 71 => ⟨S_, .f32⟩
  | 72 => ⟨S100000, .f32⟩
  | 73 => ⟨S100000, .f32⟩
  | 74 => ⟨S100000x1, .f32⟩
  | 75 => ⟨S100000x128, .f32⟩
  | 76 => ⟨S100000x128, .f32⟩
  | 77 => ⟨S128x128, .f32⟩
  | 78 => ⟨S100000x128, .f32⟩
  | 79 => ⟨S1x128, .f32⟩
  | 80 => ⟨S100000x128, .f32⟩
  | 81 => ⟨S100000x128, .f32⟩
  | 82 => ⟨S128x128, .f32⟩
  | 83 => ⟨S100000x128, .f32⟩
  | 84 => ⟨S100000x128, .f32⟩
  | 85 => ⟨S1x128x128, .f32⟩
  | 86 => ⟨S128x128, .f32⟩
  | 87 => ⟨S1x128, .f32⟩
  | 88 => ⟨S128, .f32⟩
  | 89 => ⟨S1x128x128, .f32⟩
  | 90 => ⟨S128x128, .f32⟩
  | 91 => ⟨S1x150000, .i32⟩
  | 92 => ⟨S150000, .i32⟩
  | 93 => ⟨S1x150000, .i32⟩
  | 94 => ⟨S150000, .i32⟩
  | 95 => ⟨S_, .i32⟩
  | 96 => ⟨S150000, .i32⟩
  | 97 => ⟨S150000, .i1⟩
  | 98 => ⟨S_, .i32⟩
  | 99 => ⟨S150000, .i32⟩
  | 100 => ⟨S150000, .i32⟩
  | 101 => ⟨S150000, .i32⟩
  | 102 => ⟨S150000x1, .i32⟩
  | 103 => ⟨S150000x128, .f32⟩
  | 104 => ⟨S_, .f32⟩
  | 105 => ⟨S5000x128, .f32⟩
  | 106 => ⟨S150000x1, .i32⟩
  | 107 => ⟨S5000x128, .f32⟩
  | 108 => ⟨S_, .f32⟩
  | 109 => ⟨S150000, .f32⟩
  | 110 => ⟨S_, .f32⟩
  | 111 => ⟨S5000, .f32⟩
  | 112 => ⟨S150000x1, .i32⟩
  | 113 => ⟨S5000, .f32⟩
  | 114 => ⟨S_, .f32⟩
  | 115 => ⟨S5000, .f32⟩
  | 116 => ⟨S5000, .f32⟩
  | 117 => ⟨S5000x1, .f32⟩
  | 118 => ⟨S5000x128, .f32⟩
  | 119 => ⟨S5000x128, .f32⟩
  | 120 => ⟨S128x128, .f32⟩
  | 121 => ⟨S5000x128, .f32⟩
  | 122 => ⟨S1x128, .f32⟩
  | 123 => ⟨S5000x128, .f32⟩
  | 124 => ⟨S5000x128, .f32⟩
  | 125 => ⟨S128x128, .f32⟩
  | 126 => ⟨S5000x128, .f32⟩
  | 127 => ⟨S5000x128, .f32⟩
  | _ => ⟨S100000x6, .f32⟩

abbrev hbmTy0_5 (i : Nat) : BufTy := match i % 128 with
  | 0 => ⟨S1x128x128, .f32⟩
  | 1 => ⟨S128x128, .f32⟩
  | 2 => ⟨S1x128, .f32⟩
  | 3 => ⟨S128, .f32⟩
  | 4 => ⟨S1x128x128, .f32⟩
  | 5 => ⟨S128x128, .f32⟩
  | 6 => ⟨S1x150000, .i32⟩
  | 7 => ⟨S150000, .i32⟩
  | 8 => ⟨S1x150000, .i32⟩
  | 9 => ⟨S150000, .i32⟩
  | 10 => ⟨S_, .i32⟩
  | 11 => ⟨S150000, .i32⟩
  | 12 => ⟨S150000, .i1⟩
  | 13 => ⟨S_, .i32⟩
  | 14 => ⟨S150000, .i32⟩
  | 15 => ⟨S150000, .i32⟩
  | 16 => ⟨S150000, .i32⟩
  | 17 => ⟨S150000x1, .i32⟩
  | 18 => ⟨S150000x128, .f32⟩
  | 19 => ⟨S_, .f32⟩
  | 20 => ⟨S50000x128, .f32⟩
  | 21 => ⟨S150000x1, .i32⟩
  | 22 => ⟨S50000x128, .f32⟩
  | 23 => ⟨S_, .f32⟩
  | 24 => ⟨S150000, .f32⟩
  | 25 => ⟨S_, .f32⟩
  | 26 => ⟨S50000, .f32⟩
  | 27 => ⟨S150000x1, .i32⟩
  | 28 => ⟨S50000, .f32⟩
  | 29 => ⟨S_, .f32⟩
  | 30 => ⟨S50000, .f32⟩
  | 31 => ⟨S50000, .f32⟩
  | 32 => ⟨S50000x1, .f32⟩
  | 33 => ⟨S50000x128, .f32⟩
  | 34 => ⟨S50000x128, .f32⟩
  | 35 => ⟨S128x128, .f32⟩
  | 36 => ⟨S50000x128, .f32⟩
  | 37 => ⟨S1x128, .f32⟩
  | 38 => ⟨S50000x128, .f32⟩
  | 39 => ⟨S50000x128, .f32⟩
  | 40 => ⟨S128x128, .f32⟩
  | 41 => ⟨S50000x128, .f32⟩
  | 42 => ⟨S50000x128, .f32⟩
  | 43 => ⟨S100000x128, .f32⟩
  | 44 => ⟨S_, .f32⟩
  | 45 => ⟨S100000x128, .f32⟩
  | 46 => ⟨S100000x128, .f32⟩
  | 47 => ⟨S1x1x128, .f32⟩
  | 48 => ⟨S128, .f32⟩
  | 49 => ⟨S1x1x128, .f32⟩
  | 50 => ⟨S128, .f32⟩
  | 51 => ⟨S_, .f32⟩
  | 52 => ⟨S100000, .f32⟩
  | 53 => ⟨S100000x1, .f32⟩
  | 54 => ⟨S_, .f32⟩
  | 55 => ⟨S100000x1, .f32⟩
  | 56 => ⟨S100000x1, .f32⟩
  | 57 => ⟨S100000x128, .f32⟩
  | 58 => ⟨S100000x128, .f32⟩
  | 59 => ⟨S100000x128, .f32⟩
  | 60 => ⟨S_, .f32⟩
  | 61 => ⟨S100000, .f32⟩
  | 62 => ⟨S100000x1, .f32⟩
  | 63 => ⟨S_, .f32⟩
  | 64 => ⟨S100000x1, .f32⟩
  | 65 => ⟨S100000x1, .f32⟩
  | 66 => ⟨S100000x128, .f32⟩
  | 67 => ⟨S100000x128, .f32⟩
  | 68 => ⟨S_, .f32⟩
  | 69 => ⟨S100000x1, .f32⟩
  | 70 => ⟨S100000x1, .f32⟩
  | 71 => ⟨S100000x1, .f32⟩
  | 72 => ⟨S100000x128, .f32⟩
  | 73 => ⟨S100000x128, .f32⟩
  | 74 => ⟨S1x128, .f32⟩
  | 75 => ⟨S100000x128, .f32⟩
  | 76 => ⟨S100000x128, .f32⟩
  | 77 => ⟨S1x128, .f32⟩
  | 78 => ⟨S100000x128, .f32⟩
  | 79 => ⟨S100000x128, .f32⟩
  | 80 => ⟨S_, .f32⟩
  | 81 => ⟨S100000x128, .f32⟩
  | 82 => ⟨S100000x128, .f32⟩
  | 83 => ⟨S50000x128, .f32⟩
  | 84 => ⟨S_, .f32⟩
  | 85 => ⟨S50000x128, .f32⟩
  | 86 => ⟨S50000x128, .f32⟩
  | 87 => ⟨S1x1x128, .f32⟩
  | 88 => ⟨S128, .f32⟩
  | 89 => ⟨S1x1x128, .f32⟩
  | 90 => ⟨S128, .f32⟩
  | 91 => ⟨S_, .f32⟩
  | 92 => ⟨S50000, .f32⟩
  | 93 => ⟨S50000x1, .f32⟩
  | 94 => ⟨S_, .f32⟩
  | 95 => ⟨S50000x1, .f32⟩
  | 96 => ⟨S50000x1, .f32⟩
  | 97 => ⟨S50000x128, .f32⟩
  | 98 => ⟨S50000x128, .f32⟩
  | 99 => ⟨S50000x128, .f32⟩
  | 100 => ⟨S_, .f32⟩
  | 101 => ⟨S50000, .f32⟩
  | 102 => ⟨S50000x1, .f32⟩
  | 103 => ⟨S_, .f32⟩
  | 104 => ⟨S50000x1, .f32⟩
  | 105 => ⟨S50000x1, .f32⟩
  | 106 => ⟨S50000x128, .f32⟩
  | 107 => ⟨S50000x128, .f32⟩
  | 108 => ⟨S_, .f32⟩
  | 109 => ⟨S50000x1, .f32⟩
  | 110 => ⟨S50000x1, .f32⟩
  | 111 => ⟨S50000x1, .f32⟩
  | 112 => ⟨S50000x128, .f32⟩
  | 113 => ⟨S50000x128, .f32⟩
  | 114 => ⟨S1x128, .f32⟩
  | 115 => ⟨S50000x128, .f32⟩
  | 116 => ⟨S50000x128, .f32⟩
  | 117 => ⟨S1x128, .f32⟩
  | 118 => ⟨S50000x128, .f32⟩
  | 119 => ⟨S50000x128, .f32⟩
  | 120 => ⟨S_, .f32⟩
  | 121 => ⟨S50000x128, .f32⟩
  | 122 => ⟨S50000x128, .f32⟩
  | 123 => ⟨S5000x128, .f32⟩
  | 124 => ⟨S_, .f32⟩
  | 125 => ⟨S5000x128, .f32⟩
  | 126 => ⟨S5000x128, .f32⟩
  | 127 => ⟨S1x1x128, .f32⟩
  | _ => ⟨S100000x6, .f32⟩

abbrev hbmTy0_6 (i : Nat) : BufTy := match i % 128 with
  | 0 => ⟨S128, .f32⟩
  | 1 => ⟨S1x1x128, .f32⟩
  | 2 => ⟨S128, .f32⟩
  | 3 => ⟨S_, .f32⟩
  | 4 => ⟨S5000, .f32⟩
  | 5 => ⟨S5000x1, .f32⟩
  | 6 => ⟨S_, .f32⟩
  | 7 => ⟨S5000x1, .f32⟩
  | 8 => ⟨S5000x1, .f32⟩
  | 9 => ⟨S5000x128, .f32⟩
  | 10 => ⟨S5000x128, .f32⟩
  | 11 => ⟨S5000x128, .f32⟩
  | 12 => ⟨S_, .f32⟩
  | 13 => ⟨S5000, .f32⟩
  | 14 => ⟨S5000x1, .f32⟩
  | 15 => ⟨S_, .f32⟩
  | 16 => ⟨S5000x1, .f32⟩
  | 17 => ⟨S5000x1, .f32⟩
  | 18 => ⟨S5000x128, .f32⟩
  | 19 => ⟨S5000x128, .f32⟩
  | 20 => ⟨S_, .f32⟩
  | 21 => ⟨S5000x1, .f32⟩
  | 22 => ⟨S5000x1, .f32⟩
  | 23 => ⟨S5000x1, .f32⟩
  | 24 => ⟨S5000x128, .f32⟩
  | 25 => ⟨S5000x128, .f32⟩
  | 26 => ⟨S1x128, .f32⟩
  | 27 => ⟨S5000x128, .f32⟩
  | 28 => ⟨S5000x128, .f32⟩
  | 29 => ⟨S1x128, .f32⟩
  | 30 => ⟨S5000x128, .f32⟩
  | 31 => ⟨S5000x128, .f32⟩
  | 32 => ⟨S_, .f32⟩
  | 33 => ⟨S5000x128, .f32⟩
  | 34 => ⟨S5000x128, .f32⟩
  | _ => ⟨S100000x6, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S100000x6, .f32⟩

abbrev bufTy : (tb : Table) → Fin (tcTables nBuf tb) → BufTy
  | .hbm, ⟨i, _⟩ => hbmTy i
  | _, _ => ⟨S100000x6, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c : Ref sig .tc := ⟨.hbm, 51, rfl⟩
abbrev main_v31 : Ref sig .tc := ⟨.hbm, 52, rfl⟩
abbrev main_v32 : Ref sig .tc := ⟨.hbm, 53, rfl⟩
abbrev main_c_0 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_1 : Ref sig .tc := ⟨.hbm, 64, rfl⟩
abbrev main_v41 : Ref sig .tc := ⟨.hbm, 65, rfl⟩
abbrev main_cst_2 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_cst_3 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_c_4 : Ref sig .tc := ⟨.hbm, 94, rfl⟩
abbrev main_v68 : Ref sig .tc := ⟨.hbm, 95, rfl⟩
abbrev main_v69 : Ref sig .tc := ⟨.hbm, 96, rfl⟩
abbrev main_c_5 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_cst_6 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_cst_7 : Ref sig .tc := ⟨.hbm, 107, rfl⟩
abbrev main_v78 : Ref sig .tc := ⟨.hbm, 108, rfl⟩
abbrev main_cst_8 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_cst_9 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_c_10 : Ref sig .tc := ⟨.hbm, 137, rfl⟩
abbrev main_v105 : Ref sig .tc := ⟨.hbm, 138, rfl⟩
abbrev main_v106 : Ref sig .tc := ⟨.hbm, 139, rfl⟩
abbrev main_c_11 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_cst_12 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_cst_13 : Ref sig .tc := ⟨.hbm, 150, rfl⟩
abbrev main_v115 : Ref sig .tc := ⟨.hbm, 151, rfl⟩
abbrev main_cst_14 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_cst_15 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_v131 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_v135 : Ref sig .tc := ⟨.hbm, 173, rfl⟩
abbrev main_v136 : Ref sig .tc := ⟨.hbm, 174, rfl⟩
abbrev main_v137 : Ref sig .tc := ⟨.hbm, 175, rfl⟩
abbrev main_v138 : Ref sig .tc := ⟨.hbm, 176, rfl⟩
abbrev main_v139 : Ref sig .tc := ⟨.hbm, 177, rfl⟩
abbrev main_v140 : Ref sig .tc := ⟨.hbm, 178, rfl⟩
abbrev main_v141 : Ref sig .tc := ⟨.hbm, 179, rfl⟩
abbrev main_c_16 : Ref sig .tc := ⟨.hbm, 180, rfl⟩
abbrev main_v142 : Ref sig .tc := ⟨.hbm, 181, rfl⟩
abbrev main_v143 : Ref sig .tc := ⟨.hbm, 182, rfl⟩
abbrev main_c_17 : Ref sig .tc := ⟨.hbm, 183, rfl⟩
abbrev main_v144 : Ref sig .tc := ⟨.hbm, 184, rfl⟩
abbrev main_v145 : Ref sig .tc := ⟨.hbm, 185, rfl⟩
abbrev main_v146 : Ref sig .tc := ⟨.hbm, 186, rfl⟩
abbrev main_v147 : Ref sig .tc := ⟨.hbm, 187, rfl⟩
abbrev main_v148 : Ref sig .tc := ⟨.hbm, 188, rfl⟩
abbrev main_cst_18 : Ref sig .tc := ⟨.hbm, 189, rfl⟩
abbrev main_v149 : Ref sig .tc := ⟨.hbm, 190, rfl⟩
abbrev main_v150 : Ref sig .tc := ⟨.hbm, 191, rfl⟩
abbrev main_v151 : Ref sig .tc := ⟨.hbm, 192, rfl⟩
abbrev main_cst_19 : Ref sig .tc := ⟨.hbm, 193, rfl⟩
abbrev main_v152 : Ref sig .tc := ⟨.hbm, 194, rfl⟩
abbrev main_cst_20 : Ref sig .tc := ⟨.hbm, 195, rfl⟩
abbrev main_v153 : Ref sig .tc := ⟨.hbm, 196, rfl⟩
abbrev main_v154 : Ref sig .tc := ⟨.hbm, 197, rfl⟩
abbrev main_v155 : Ref sig .tc := ⟨.hbm, 198, rfl⟩
abbrev main_cst_21 : Ref sig .tc := ⟨.hbm, 199, rfl⟩
abbrev main_v156 : Ref sig .tc := ⟨.hbm, 200, rfl⟩
abbrev main_v157 : Ref sig .tc := ⟨.hbm, 201, rfl⟩
abbrev main_v158 : Ref sig .tc := ⟨.hbm, 202, rfl⟩
abbrev main_v159 : Ref sig .tc := ⟨.hbm, 203, rfl⟩
abbrev main_v160 : Ref sig .tc := ⟨.hbm, 204, rfl⟩
abbrev main_v161 : Ref sig .tc := ⟨.hbm, 205, rfl⟩
abbrev main_v162 : Ref sig .tc := ⟨.hbm, 206, rfl⟩
abbrev main_v163 : Ref sig .tc := ⟨.hbm, 207, rfl⟩
abbrev main_v164 : Ref sig .tc := ⟨.hbm, 208, rfl⟩
abbrev main_v165 : Ref sig .tc := ⟨.hbm, 209, rfl⟩
abbrev main_v166 : Ref sig .tc := ⟨.hbm, 210, rfl⟩
abbrev main_v167 : Ref sig .tc := ⟨.hbm, 211, rfl⟩
abbrev main_v168 : Ref sig .tc := ⟨.hbm, 212, rfl⟩
abbrev main_v169 : Ref sig .tc := ⟨.hbm, 213, rfl⟩
abbrev main_v170 : Ref sig .tc := ⟨.hbm, 214, rfl⟩
abbrev main_v171 : Ref sig .tc := ⟨.hbm, 215, rfl⟩
abbrev main_v172 : Ref sig .tc := ⟨.hbm, 216, rfl⟩
abbrev main_v173 : Ref sig .tc := ⟨.hbm, 217, rfl⟩
abbrev main_v174 : Ref sig .tc := ⟨.hbm, 218, rfl⟩
abbrev main_v175 : Ref sig .tc := ⟨.hbm, 219, rfl⟩
abbrev main_v176 : Ref sig .tc := ⟨.hbm, 220, rfl⟩
abbrev main_v177 : Ref sig .tc := ⟨.hbm, 221, rfl⟩
abbrev main_v178 : Ref sig .tc := ⟨.hbm, 222, rfl⟩
abbrev main_c_22 : Ref sig .tc := ⟨.hbm, 223, rfl⟩
abbrev main_v179 : Ref sig .tc := ⟨.hbm, 224, rfl⟩
abbrev main_v180 : Ref sig .tc := ⟨.hbm, 225, rfl⟩
abbrev main_c_23 : Ref sig .tc := ⟨.hbm, 226, rfl⟩
abbrev main_v181 : Ref sig .tc := ⟨.hbm, 227, rfl⟩
abbrev main_v182 : Ref sig .tc := ⟨.hbm, 228, rfl⟩
abbrev main_v183 : Ref sig .tc := ⟨.hbm, 229, rfl⟩
abbrev main_v184 : Ref sig .tc := ⟨.hbm, 230, rfl⟩
abbrev main_v185 : Ref sig .tc := ⟨.hbm, 231, rfl⟩
abbrev main_cst_24 : Ref sig .tc := ⟨.hbm, 232, rfl⟩
abbrev main_v186 : Ref sig .tc := ⟨.hbm, 233, rfl⟩
abbrev main_v187 : Ref sig .tc := ⟨.hbm, 234, rfl⟩
abbrev main_v188 : Ref sig .tc := ⟨.hbm, 235, rfl⟩
abbrev main_cst_25 : Ref sig .tc := ⟨.hbm, 236, rfl⟩
abbrev main_v189 : Ref sig .tc := ⟨.hbm, 237, rfl⟩
abbrev main_cst_26 : Ref sig .tc := ⟨.hbm, 238, rfl⟩
abbrev main_v190 : Ref sig .tc := ⟨.hbm, 239, rfl⟩
abbrev main_v191 : Ref sig .tc := ⟨.hbm, 240, rfl⟩
abbrev main_v192 : Ref sig .tc := ⟨.hbm, 241, rfl⟩
abbrev main_cst_27 : Ref sig .tc := ⟨.hbm, 242, rfl⟩
abbrev main_v193 : Ref sig .tc := ⟨.hbm, 243, rfl⟩
abbrev main_v194 : Ref sig .tc := ⟨.hbm, 244, rfl⟩
abbrev main_v195 : Ref sig .tc := ⟨.hbm, 245, rfl⟩
abbrev main_v196 : Ref sig .tc := ⟨.hbm, 246, rfl⟩
abbrev main_v197 : Ref sig .tc := ⟨.hbm, 247, rfl⟩
abbrev main_v198 : Ref sig .tc := ⟨.hbm, 248, rfl⟩
abbrev main_v199 : Ref sig .tc := ⟨.hbm, 249, rfl⟩
abbrev main_v200 : Ref sig .tc := ⟨.hbm, 250, rfl⟩
abbrev main_v201 : Ref sig .tc := ⟨.hbm, 251, rfl⟩
abbrev main_v202 : Ref sig .tc := ⟨.hbm, 252, rfl⟩
abbrev main_v203 : Ref sig .tc := ⟨.hbm, 253, rfl⟩
abbrev main_v204 : Ref sig .tc := ⟨.hbm, 254, rfl⟩
abbrev main_v205 : Ref sig .tc := ⟨.hbm, 255, rfl⟩
abbrev main_v206 : Ref sig .tc := ⟨.hbm, 256, rfl⟩
abbrev main_v207 : Ref sig .tc := ⟨.hbm, 257, rfl⟩
abbrev main_v208 : Ref sig .tc := ⟨.hbm, 258, rfl⟩
abbrev main_v209 : Ref sig .tc := ⟨.hbm, 259, rfl⟩
abbrev main_v210 : Ref sig .tc := ⟨.hbm, 260, rfl⟩
abbrev main_v211 : Ref sig .tc := ⟨.hbm, 261, rfl⟩
abbrev main_v212 : Ref sig .tc := ⟨.hbm, 262, rfl⟩
abbrev main_v213 : Ref sig .tc := ⟨.hbm, 263, rfl⟩
abbrev main_v214 : Ref sig .tc := ⟨.hbm, 264, rfl⟩
abbrev main_v215 : Ref sig .tc := ⟨.hbm, 265, rfl⟩
abbrev main_c_28 : Ref sig .tc := ⟨.hbm, 266, rfl⟩
abbrev main_v216 : Ref sig .tc := ⟨.hbm, 267, rfl⟩
abbrev main_v217 : Ref sig .tc := ⟨.hbm, 268, rfl⟩
abbrev main_c_29 : Ref sig .tc := ⟨.hbm, 269, rfl⟩
abbrev main_v218 : Ref sig .tc := ⟨.hbm, 270, rfl⟩
abbrev main_v219 : Ref sig .tc := ⟨.hbm, 271, rfl⟩
abbrev main_v220 : Ref sig .tc := ⟨.hbm, 272, rfl⟩
abbrev main_v221 : Ref sig .tc := ⟨.hbm, 273, rfl⟩
abbrev main_v222 : Ref sig .tc := ⟨.hbm, 274, rfl⟩
abbrev main_cst_30 : Ref sig .tc := ⟨.hbm, 275, rfl⟩
abbrev main_v223 : Ref sig .tc := ⟨.hbm, 276, rfl⟩
abbrev main_v224 : Ref sig .tc := ⟨.hbm, 277, rfl⟩
abbrev main_v225 : Ref sig .tc := ⟨.hbm, 278, rfl⟩
abbrev main_cst_31 : Ref sig .tc := ⟨.hbm, 279, rfl⟩
abbrev main_v226 : Ref sig .tc := ⟨.hbm, 280, rfl⟩
abbrev main_cst_32 : Ref sig .tc := ⟨.hbm, 281, rfl⟩
abbrev main_v227 : Ref sig .tc := ⟨.hbm, 282, rfl⟩
abbrev main_v228 : Ref sig .tc := ⟨.hbm, 283, rfl⟩
abbrev main_v229 : Ref sig .tc := ⟨.hbm, 284, rfl⟩
abbrev main_cst_33 : Ref sig .tc := ⟨.hbm, 285, rfl⟩
abbrev main_v230 : Ref sig .tc := ⟨.hbm, 286, rfl⟩
abbrev main_v231 : Ref sig .tc := ⟨.hbm, 287, rfl⟩
abbrev main_v232 : Ref sig .tc := ⟨.hbm, 288, rfl⟩
abbrev main_v233 : Ref sig .tc := ⟨.hbm, 289, rfl⟩
abbrev main_v234 : Ref sig .tc := ⟨.hbm, 290, rfl⟩
abbrev main_v235 : Ref sig .tc := ⟨.hbm, 291, rfl⟩
abbrev main_v236 : Ref sig .tc := ⟨.hbm, 292, rfl⟩
abbrev main_v237 : Ref sig .tc := ⟨.hbm, 293, rfl⟩
abbrev main_v238 : Ref sig .tc := ⟨.hbm, 294, rfl⟩
abbrev main_v239 : Ref sig .tc := ⟨.hbm, 295, rfl⟩
abbrev main_v240 : Ref sig .tc := ⟨.hbm, 296, rfl⟩
abbrev main_v241 : Ref sig .tc := ⟨.hbm, 297, rfl⟩
abbrev main_v242 : Ref sig .tc := ⟨.hbm, 298, rfl⟩
abbrev main_v243 : Ref sig .tc := ⟨.hbm, 299, rfl⟩
abbrev main_cst_34 : Ref sig .tc := ⟨.hbm, 300, rfl⟩
abbrev main_v244 : Ref sig .tc := ⟨.hbm, 301, rfl⟩
abbrev main_v245 : Ref sig .tc := ⟨.hbm, 302, rfl⟩
abbrev main_v246 : Ref sig .tc := ⟨.hbm, 303, rfl⟩
abbrev main_v247 : Ref sig .tc := ⟨.hbm, 304, rfl⟩
abbrev main_v248 : Ref sig .tc := ⟨.hbm, 305, rfl⟩
abbrev main_v249 : Ref sig .tc := ⟨.hbm, 306, rfl⟩
abbrev main_cst_35 : Ref sig .tc := ⟨.hbm, 307, rfl⟩
abbrev main_v250 : Ref sig .tc := ⟨.hbm, 308, rfl⟩
abbrev main_v251 : Ref sig .tc := ⟨.hbm, 309, rfl⟩
abbrev main_cst_36 : Ref sig .tc := ⟨.hbm, 310, rfl⟩
abbrev main_v252 : Ref sig .tc := ⟨.hbm, 311, rfl⟩
abbrev main_v253 : Ref sig .tc := ⟨.hbm, 312, rfl⟩
abbrev main_v254 : Ref sig .tc := ⟨.hbm, 313, rfl⟩
abbrev main_v255 : Ref sig .tc := ⟨.hbm, 314, rfl⟩
abbrev main_v256 : Ref sig .tc := ⟨.hbm, 315, rfl⟩
abbrev main_cst_37 : Ref sig .tc := ⟨.hbm, 316, rfl⟩
abbrev main_v257 : Ref sig .tc := ⟨.hbm, 317, rfl⟩
abbrev main_v258 : Ref sig .tc := ⟨.hbm, 318, rfl⟩
abbrev main_cst_38 : Ref sig .tc := ⟨.hbm, 319, rfl⟩
abbrev main_v259 : Ref sig .tc := ⟨.hbm, 320, rfl⟩
abbrev main_v260 : Ref sig .tc := ⟨.hbm, 321, rfl⟩
abbrev main_v261 : Ref sig .tc := ⟨.hbm, 322, rfl⟩
abbrev main_v262 : Ref sig .tc := ⟨.hbm, 323, rfl⟩
abbrev main_cst_39 : Ref sig .tc := ⟨.hbm, 324, rfl⟩
abbrev main_v263 : Ref sig .tc := ⟨.hbm, 325, rfl⟩
abbrev main_v264 : Ref sig .tc := ⟨.hbm, 326, rfl⟩
abbrev main_v265 : Ref sig .tc := ⟨.hbm, 327, rfl⟩
abbrev main_v266 : Ref sig .tc := ⟨.hbm, 328, rfl⟩
abbrev main_v267 : Ref sig .tc := ⟨.hbm, 329, rfl⟩
abbrev main_v268 : Ref sig .tc := ⟨.hbm, 330, rfl⟩
abbrev main_v269 : Ref sig .tc := ⟨.hbm, 331, rfl⟩
abbrev main_v270 : Ref sig .tc := ⟨.hbm, 332, rfl⟩
abbrev main_v271 : Ref sig .tc := ⟨.hbm, 333, rfl⟩
abbrev main_v272 : Ref sig .tc := ⟨.hbm, 334, rfl⟩
abbrev main_v273 : Ref sig .tc := ⟨.hbm, 335, rfl⟩
abbrev main_call0_cst : Ref sig .tc := ⟨.hbm, 336, rfl⟩
abbrev main_call0_v0 : Ref sig .tc := ⟨.hbm, 337, rfl⟩
abbrev main_v274 : Ref sig .tc := ⟨.hbm, 338, rfl⟩
abbrev main_v275 : Ref sig .tc := ⟨.hbm, 339, rfl⟩
abbrev main_cst_40 : Ref sig .tc := ⟨.hbm, 340, rfl⟩
abbrev main_v276 : Ref sig .tc := ⟨.hbm, 341, rfl⟩
abbrev main_v277 : Ref sig .tc := ⟨.hbm, 342, rfl⟩
abbrev main_v278 : Ref sig .tc := ⟨.hbm, 343, rfl⟩
abbrev main_v279 : Ref sig .tc := ⟨.hbm, 344, rfl⟩
abbrev main_v280 : Ref sig .tc := ⟨.hbm, 345, rfl⟩
abbrev main_v281 : Ref sig .tc := ⟨.hbm, 346, rfl⟩
abbrev main_cst_41 : Ref sig .tc := ⟨.hbm, 347, rfl⟩
abbrev main_v282 : Ref sig .tc := ⟨.hbm, 348, rfl⟩
abbrev main_v283 : Ref sig .tc := ⟨.hbm, 349, rfl⟩
abbrev main_cst_42 : Ref sig .tc := ⟨.hbm, 350, rfl⟩
abbrev main_v284 : Ref sig .tc := ⟨.hbm, 351, rfl⟩
abbrev main_v285 : Ref sig .tc := ⟨.hbm, 352, rfl⟩
abbrev main_v286 : Ref sig .tc := ⟨.hbm, 353, rfl⟩
abbrev main_v287 : Ref sig .tc := ⟨.hbm, 354, rfl⟩
abbrev main_v288 : Ref sig .tc := ⟨.hbm, 355, rfl⟩
abbrev main_cst_43 : Ref sig .tc := ⟨.hbm, 356, rfl⟩
abbrev main_v289 : Ref sig .tc := ⟨.hbm, 357, rfl⟩
abbrev main_v290 : Ref sig .tc := ⟨.hbm, 358, rfl⟩
abbrev main_cst_44 : Ref sig .tc := ⟨.hbm, 359, rfl⟩
abbrev main_v291 : Ref sig .tc := ⟨.hbm, 360, rfl⟩
abbrev main_v292 : Ref sig .tc := ⟨.hbm, 361, rfl⟩
abbrev main_v293 : Ref sig .tc := ⟨.hbm, 362, rfl⟩
abbrev main_v294 : Ref sig .tc := ⟨.hbm, 363, rfl⟩
abbrev main_cst_45 : Ref sig .tc := ⟨.hbm, 364, rfl⟩
abbrev main_v295 : Ref sig .tc := ⟨.hbm, 365, rfl⟩
abbrev main_v296 : Ref sig .tc := ⟨.hbm, 366, rfl⟩
abbrev main_v297 : Ref sig .tc := ⟨.hbm, 367, rfl⟩
abbrev main_v298 : Ref sig .tc := ⟨.hbm, 368, rfl⟩
abbrev main_v299 : Ref sig .tc := ⟨.hbm, 369, rfl⟩
abbrev main_v300 : Ref sig .tc := ⟨.hbm, 370, rfl⟩
abbrev main_v301 : Ref sig .tc := ⟨.hbm, 371, rfl⟩
abbrev main_v302 : Ref sig .tc := ⟨.hbm, 372, rfl⟩
abbrev main_v303 : Ref sig .tc := ⟨.hbm, 373, rfl⟩
abbrev main_v304 : Ref sig .tc := ⟨.hbm, 374, rfl⟩
abbrev main_v305 : Ref sig .tc := ⟨.hbm, 375, rfl⟩
abbrev main_call1_cst : Ref sig .tc := ⟨.hbm, 376, rfl⟩
abbrev main_call1_v0 : Ref sig .tc := ⟨.hbm, 377, rfl⟩
abbrev main_v306 : Ref sig .tc := ⟨.hbm, 378, rfl⟩
abbrev main_v307 : Ref sig .tc := ⟨.hbm, 379, rfl⟩
abbrev main_cst_46 : Ref sig .tc := ⟨.hbm, 380, rfl⟩
abbrev main_v308 : Ref sig .tc := ⟨.hbm, 381, rfl⟩
abbrev main_v309 : Ref sig .tc := ⟨.hbm, 382, rfl⟩
abbrev main_v310 : Ref sig .tc := ⟨.hbm, 383, rfl⟩
abbrev main_v311 : Ref sig .tc := ⟨.hbm, 384, rfl⟩
abbrev main_v312 : Ref sig .tc := ⟨.hbm, 385, rfl⟩
abbrev main_v313 : Ref sig .tc := ⟨.hbm, 386, rfl⟩
abbrev main_cst_47 : Ref sig .tc := ⟨.hbm, 387, rfl⟩
abbrev main_v314 : Ref sig .tc := ⟨.hbm, 388, rfl⟩
abbrev main_v315 : Ref sig .tc := ⟨.hbm, 389, rfl⟩
abbrev main_cst_48 : Ref sig .tc := ⟨.hbm, 390, rfl⟩
abbrev main_v316 : Ref sig .tc := ⟨.hbm, 391, rfl⟩
abbrev main_v317 : Ref sig .tc := ⟨.hbm, 392, rfl⟩
abbrev main_v318 : Ref sig .tc := ⟨.hbm, 393, rfl⟩
abbrev main_v319 : Ref sig .tc := ⟨.hbm, 394, rfl⟩
abbrev main_v320 : Ref sig .tc := ⟨.hbm, 395, rfl⟩
abbrev main_cst_49 : Ref sig .tc := ⟨.hbm, 396, rfl⟩
abbrev main_v321 : Ref sig .tc := ⟨.hbm, 397, rfl⟩
abbrev main_v322 : Ref sig .tc := ⟨.hbm, 398, rfl⟩
abbrev main_cst_50 : Ref sig .tc := ⟨.hbm, 399, rfl⟩
abbrev main_v323 : Ref sig .tc := ⟨.hbm, 400, rfl⟩
abbrev main_v324 : Ref sig .tc := ⟨.hbm, 401, rfl⟩
abbrev main_v325 : Ref sig .tc := ⟨.hbm, 402, rfl⟩
abbrev main_v326 : Ref sig .tc := ⟨.hbm, 403, rfl⟩
abbrev main_cst_51 : Ref sig .tc := ⟨.hbm, 404, rfl⟩
abbrev main_v327 : Ref sig .tc := ⟨.hbm, 405, rfl⟩
abbrev main_v328 : Ref sig .tc := ⟨.hbm, 406, rfl⟩
abbrev main_v329 : Ref sig .tc := ⟨.hbm, 407, rfl⟩
abbrev main_v330 : Ref sig .tc := ⟨.hbm, 408, rfl⟩
abbrev main_v331 : Ref sig .tc := ⟨.hbm, 409, rfl⟩
abbrev main_v332 : Ref sig .tc := ⟨.hbm, 410, rfl⟩
abbrev main_v333 : Ref sig .tc := ⟨.hbm, 411, rfl⟩
abbrev main_v334 : Ref sig .tc := ⟨.hbm, 412, rfl⟩
abbrev main_v335 : Ref sig .tc := ⟨.hbm, 413, rfl⟩
abbrev main_v336 : Ref sig .tc := ⟨.hbm, 414, rfl⟩
abbrev main_v337 : Ref sig .tc := ⟨.hbm, 415, rfl⟩
abbrev main_call2_cst : Ref sig .tc := ⟨.hbm, 416, rfl⟩
abbrev main_call2_v0 : Ref sig .tc := ⟨.hbm, 417, rfl⟩
abbrev main_v338 : Ref sig .tc := ⟨.hbm, 418, rfl⟩
abbrev main_v339 : Ref sig .tc := ⟨.hbm, 419, rfl⟩
abbrev main_v340 : Ref sig .tc := ⟨.hbm, 420, rfl⟩
abbrev main_v341 : Ref sig .tc := ⟨.hbm, 421, rfl⟩
abbrev main_v342 : Ref sig .tc := ⟨.hbm, 422, rfl⟩
abbrev main_v343 : Ref sig .tc := ⟨.hbm, 423, rfl⟩
abbrev main_v344 : Ref sig .tc := ⟨.hbm, 424, rfl⟩
abbrev main_v345 : Ref sig .tc := ⟨.hbm, 425, rfl⟩
abbrev main_v346 : Ref sig .tc := ⟨.hbm, 426, rfl⟩
abbrev main_v347 : Ref sig .tc := ⟨.hbm, 427, rfl⟩
abbrev main_v348 : Ref sig .tc := ⟨.hbm, 428, rfl⟩
abbrev main_v349 : Ref sig .tc := ⟨.hbm, 429, rfl⟩
abbrev main_v350 : Ref sig .tc := ⟨.hbm, 430, rfl⟩
abbrev main_v351 : Ref sig .tc := ⟨.hbm, 431, rfl⟩
abbrev main_v352 : Ref sig .tc := ⟨.hbm, 432, rfl⟩
abbrev main_v353 : Ref sig .tc := ⟨.hbm, 433, rfl⟩
abbrev main_v354 : Ref sig .tc := ⟨.hbm, 434, rfl⟩
abbrev main_c_52 : Ref sig .tc := ⟨.hbm, 435, rfl⟩
abbrev main_v355 : Ref sig .tc := ⟨.hbm, 436, rfl⟩
abbrev main_v356 : Ref sig .tc := ⟨.hbm, 437, rfl⟩
abbrev main_c_53 : Ref sig .tc := ⟨.hbm, 438, rfl⟩
abbrev main_v357 : Ref sig .tc := ⟨.hbm, 439, rfl⟩
abbrev main_v358 : Ref sig .tc := ⟨.hbm, 440, rfl⟩
abbrev main_v359 : Ref sig .tc := ⟨.hbm, 441, rfl⟩
abbrev main_v360 : Ref sig .tc := ⟨.hbm, 442, rfl⟩
abbrev main_v361 : Ref sig .tc := ⟨.hbm, 443, rfl⟩
abbrev main_cst_54 : Ref sig .tc := ⟨.hbm, 444, rfl⟩
abbrev main_v362 : Ref sig .tc := ⟨.hbm, 445, rfl⟩
abbrev main_v363 : Ref sig .tc := ⟨.hbm, 446, rfl⟩
abbrev main_v364 : Ref sig .tc := ⟨.hbm, 447, rfl⟩
abbrev main_cst_55 : Ref sig .tc := ⟨.hbm, 448, rfl⟩
abbrev main_v365 : Ref sig .tc := ⟨.hbm, 449, rfl⟩
abbrev main_cst_56 : Ref sig .tc := ⟨.hbm, 450, rfl⟩
abbrev main_v366 : Ref sig .tc := ⟨.hbm, 451, rfl⟩
abbrev main_v367 : Ref sig .tc := ⟨.hbm, 452, rfl⟩
abbrev main_v368 : Ref sig .tc := ⟨.hbm, 453, rfl⟩
abbrev main_cst_57 : Ref sig .tc := ⟨.hbm, 454, rfl⟩
abbrev main_v369 : Ref sig .tc := ⟨.hbm, 455, rfl⟩
abbrev main_v370 : Ref sig .tc := ⟨.hbm, 456, rfl⟩
abbrev main_v371 : Ref sig .tc := ⟨.hbm, 457, rfl⟩
abbrev main_v372 : Ref sig .tc := ⟨.hbm, 458, rfl⟩
abbrev main_v373 : Ref sig .tc := ⟨.hbm, 459, rfl⟩
abbrev main_v374 : Ref sig .tc := ⟨.hbm, 460, rfl⟩
abbrev main_v375 : Ref sig .tc := ⟨.hbm, 461, rfl⟩
abbrev main_v376 : Ref sig .tc := ⟨.hbm, 462, rfl⟩
abbrev main_v377 : Ref sig .tc := ⟨.hbm, 463, rfl⟩
abbrev main_v378 : Ref sig .tc := ⟨.hbm, 464, rfl⟩
abbrev main_v379 : Ref sig .tc := ⟨.hbm, 465, rfl⟩
abbrev main_v380 : Ref sig .tc := ⟨.hbm, 466, rfl⟩
abbrev main_v381 : Ref sig .tc := ⟨.hbm, 467, rfl⟩
abbrev main_v382 : Ref sig .tc := ⟨.hbm, 468, rfl⟩
abbrev main_v383 : Ref sig .tc := ⟨.hbm, 469, rfl⟩
abbrev main_v384 : Ref sig .tc := ⟨.hbm, 470, rfl⟩
abbrev main_v385 : Ref sig .tc := ⟨.hbm, 471, rfl⟩
abbrev main_v386 : Ref sig .tc := ⟨.hbm, 472, rfl⟩
abbrev main_v387 : Ref sig .tc := ⟨.hbm, 473, rfl⟩
abbrev main_v388 : Ref sig .tc := ⟨.hbm, 474, rfl⟩
abbrev main_v389 : Ref sig .tc := ⟨.hbm, 475, rfl⟩
abbrev main_v390 : Ref sig .tc := ⟨.hbm, 476, rfl⟩
abbrev main_v391 : Ref sig .tc := ⟨.hbm, 477, rfl⟩
abbrev main_c_58 : Ref sig .tc := ⟨.hbm, 478, rfl⟩
abbrev main_v392 : Ref sig .tc := ⟨.hbm, 479, rfl⟩
abbrev main_v393 : Ref sig .tc := ⟨.hbm, 480, rfl⟩
abbrev main_c_59 : Ref sig .tc := ⟨.hbm, 481, rfl⟩
abbrev main_v394 : Ref sig .tc := ⟨.hbm, 482, rfl⟩
abbrev main_v395 : Ref sig .tc := ⟨.hbm, 483, rfl⟩
abbrev main_v396 : Ref sig .tc := ⟨.hbm, 484, rfl⟩
abbrev main_v397 : Ref sig .tc := ⟨.hbm, 485, rfl⟩
abbrev main_v398 : Ref sig .tc := ⟨.hbm, 486, rfl⟩
abbrev main_cst_60 : Ref sig .tc := ⟨.hbm, 487, rfl⟩
abbrev main_v399 : Ref sig .tc := ⟨.hbm, 488, rfl⟩
abbrev main_v400 : Ref sig .tc := ⟨.hbm, 489, rfl⟩
abbrev main_v401 : Ref sig .tc := ⟨.hbm, 490, rfl⟩
abbrev main_cst_61 : Ref sig .tc := ⟨.hbm, 491, rfl⟩
abbrev main_v402 : Ref sig .tc := ⟨.hbm, 492, rfl⟩
abbrev main_cst_62 : Ref sig .tc := ⟨.hbm, 493, rfl⟩
abbrev main_v403 : Ref sig .tc := ⟨.hbm, 494, rfl⟩
abbrev main_v404 : Ref sig .tc := ⟨.hbm, 495, rfl⟩
abbrev main_v405 : Ref sig .tc := ⟨.hbm, 496, rfl⟩
abbrev main_cst_63 : Ref sig .tc := ⟨.hbm, 497, rfl⟩
abbrev main_v406 : Ref sig .tc := ⟨.hbm, 498, rfl⟩
abbrev main_v407 : Ref sig .tc := ⟨.hbm, 499, rfl⟩
abbrev main_v408 : Ref sig .tc := ⟨.hbm, 500, rfl⟩
abbrev main_v409 : Ref sig .tc := ⟨.hbm, 501, rfl⟩
abbrev main_v410 : Ref sig .tc := ⟨.hbm, 502, rfl⟩
abbrev main_v411 : Ref sig .tc := ⟨.hbm, 503, rfl⟩
abbrev main_v412 : Ref sig .tc := ⟨.hbm, 504, rfl⟩
abbrev main_v413 : Ref sig .tc := ⟨.hbm, 505, rfl⟩
abbrev main_v414 : Ref sig .tc := ⟨.hbm, 506, rfl⟩
abbrev main_v415 : Ref sig .tc := ⟨.hbm, 507, rfl⟩
abbrev main_v416 : Ref sig .tc := ⟨.hbm, 508, rfl⟩
abbrev main_v417 : Ref sig .tc := ⟨.hbm, 509, rfl⟩
abbrev main_v418 : Ref sig .tc := ⟨.hbm, 510, rfl⟩
abbrev main_v419 : Ref sig .tc := ⟨.hbm, 511, rfl⟩
abbrev main_v420 : Ref sig .tc := ⟨.hbm, 512, rfl⟩
abbrev main_v421 : Ref sig .tc := ⟨.hbm, 513, rfl⟩
abbrev main_v422 : Ref sig .tc := ⟨.hbm, 514, rfl⟩
abbrev main_v423 : Ref sig .tc := ⟨.hbm, 515, rfl⟩
abbrev main_v424 : Ref sig .tc := ⟨.hbm, 516, rfl⟩
abbrev main_v425 : Ref sig .tc := ⟨.hbm, 517, rfl⟩
abbrev main_v426 : Ref sig .tc := ⟨.hbm, 518, rfl⟩
abbrev main_v427 : Ref sig .tc := ⟨.hbm, 519, rfl⟩
abbrev main_v428 : Ref sig .tc := ⟨.hbm, 520, rfl⟩
abbrev main_c_64 : Ref sig .tc := ⟨.hbm, 521, rfl⟩
abbrev main_v429 : Ref sig .tc := ⟨.hbm, 522, rfl⟩
abbrev main_v430 : Ref sig .tc := ⟨.hbm, 523, rfl⟩
abbrev main_c_65 : Ref sig .tc := ⟨.hbm, 524, rfl⟩
abbrev main_v431 : Ref sig .tc := ⟨.hbm, 525, rfl⟩
abbrev main_v432 : Ref sig .tc := ⟨.hbm, 526, rfl⟩
abbrev main_v433 : Ref sig .tc := ⟨.hbm, 527, rfl⟩
abbrev main_v434 : Ref sig .tc := ⟨.hbm, 528, rfl⟩
abbrev main_v435 : Ref sig .tc := ⟨.hbm, 529, rfl⟩
abbrev main_cst_66 : Ref sig .tc := ⟨.hbm, 530, rfl⟩
abbrev main_v436 : Ref sig .tc := ⟨.hbm, 531, rfl⟩
abbrev main_v437 : Ref sig .tc := ⟨.hbm, 532, rfl⟩
abbrev main_v438 : Ref sig .tc := ⟨.hbm, 533, rfl⟩
abbrev main_cst_67 : Ref sig .tc := ⟨.hbm, 534, rfl⟩
abbrev main_v439 : Ref sig .tc := ⟨.hbm, 535, rfl⟩
abbrev main_cst_68 : Ref sig .tc := ⟨.hbm, 536, rfl⟩
abbrev main_v440 : Ref sig .tc := ⟨.hbm, 537, rfl⟩
abbrev main_v441 : Ref sig .tc := ⟨.hbm, 538, rfl⟩
abbrev main_v442 : Ref sig .tc := ⟨.hbm, 539, rfl⟩
abbrev main_cst_69 : Ref sig .tc := ⟨.hbm, 540, rfl⟩
abbrev main_v443 : Ref sig .tc := ⟨.hbm, 541, rfl⟩
abbrev main_v444 : Ref sig .tc := ⟨.hbm, 542, rfl⟩
abbrev main_v445 : Ref sig .tc := ⟨.hbm, 543, rfl⟩
abbrev main_v446 : Ref sig .tc := ⟨.hbm, 544, rfl⟩
abbrev main_v447 : Ref sig .tc := ⟨.hbm, 545, rfl⟩
abbrev main_v448 : Ref sig .tc := ⟨.hbm, 546, rfl⟩
abbrev main_v449 : Ref sig .tc := ⟨.hbm, 547, rfl⟩
abbrev main_v450 : Ref sig .tc := ⟨.hbm, 548, rfl⟩
abbrev main_v451 : Ref sig .tc := ⟨.hbm, 549, rfl⟩
abbrev main_v452 : Ref sig .tc := ⟨.hbm, 550, rfl⟩
abbrev main_v453 : Ref sig .tc := ⟨.hbm, 551, rfl⟩
abbrev main_v454 : Ref sig .tc := ⟨.hbm, 552, rfl⟩
abbrev main_v455 : Ref sig .tc := ⟨.hbm, 553, rfl⟩
abbrev main_v456 : Ref sig .tc := ⟨.hbm, 554, rfl⟩
abbrev main_v457 : Ref sig .tc := ⟨.hbm, 555, rfl⟩
abbrev main_v458 : Ref sig .tc := ⟨.hbm, 556, rfl⟩
abbrev main_v459 : Ref sig .tc := ⟨.hbm, 557, rfl⟩
abbrev main_v460 : Ref sig .tc := ⟨.hbm, 558, rfl⟩
abbrev main_v461 : Ref sig .tc := ⟨.hbm, 559, rfl⟩
abbrev main_v462 : Ref sig .tc := ⟨.hbm, 560, rfl⟩
abbrev main_v463 : Ref sig .tc := ⟨.hbm, 561, rfl⟩
abbrev main_v464 : Ref sig .tc := ⟨.hbm, 562, rfl⟩
abbrev main_v465 : Ref sig .tc := ⟨.hbm, 563, rfl⟩
abbrev main_c_70 : Ref sig .tc := ⟨.hbm, 564, rfl⟩
abbrev main_v466 : Ref sig .tc := ⟨.hbm, 565, rfl⟩
abbrev main_v467 : Ref sig .tc := ⟨.hbm, 566, rfl⟩
abbrev main_c_71 : Ref sig .tc := ⟨.hbm, 567, rfl⟩
abbrev main_v468 : Ref sig .tc := ⟨.hbm, 568, rfl⟩
abbrev main_v469 : Ref sig .tc := ⟨.hbm, 569, rfl⟩
abbrev main_v470 : Ref sig .tc := ⟨.hbm, 570, rfl⟩
abbrev main_v471 : Ref sig .tc := ⟨.hbm, 571, rfl⟩
abbrev main_v472 : Ref sig .tc := ⟨.hbm, 572, rfl⟩
abbrev main_cst_72 : Ref sig .tc := ⟨.hbm, 573, rfl⟩
abbrev main_v473 : Ref sig .tc := ⟨.hbm, 574, rfl⟩
abbrev main_v474 : Ref sig .tc := ⟨.hbm, 575, rfl⟩
abbrev main_v475 : Ref sig .tc := ⟨.hbm, 576, rfl⟩
abbrev main_cst_73 : Ref sig .tc := ⟨.hbm, 577, rfl⟩
abbrev main_v476 : Ref sig .tc := ⟨.hbm, 578, rfl⟩
abbrev main_cst_74 : Ref sig .tc := ⟨.hbm, 579, rfl⟩
abbrev main_v477 : Ref sig .tc := ⟨.hbm, 580, rfl⟩
abbrev main_v478 : Ref sig .tc := ⟨.hbm, 581, rfl⟩
abbrev main_v479 : Ref sig .tc := ⟨.hbm, 582, rfl⟩
abbrev main_cst_75 : Ref sig .tc := ⟨.hbm, 583, rfl⟩
abbrev main_v480 : Ref sig .tc := ⟨.hbm, 584, rfl⟩
abbrev main_v481 : Ref sig .tc := ⟨.hbm, 585, rfl⟩
abbrev main_v482 : Ref sig .tc := ⟨.hbm, 586, rfl⟩
abbrev main_v483 : Ref sig .tc := ⟨.hbm, 587, rfl⟩
abbrev main_v484 : Ref sig .tc := ⟨.hbm, 588, rfl⟩
abbrev main_v485 : Ref sig .tc := ⟨.hbm, 589, rfl⟩
abbrev main_v486 : Ref sig .tc := ⟨.hbm, 590, rfl⟩
abbrev main_v487 : Ref sig .tc := ⟨.hbm, 591, rfl⟩
abbrev main_v488 : Ref sig .tc := ⟨.hbm, 592, rfl⟩
abbrev main_v489 : Ref sig .tc := ⟨.hbm, 593, rfl⟩
abbrev main_v490 : Ref sig .tc := ⟨.hbm, 594, rfl⟩
abbrev main_v491 : Ref sig .tc := ⟨.hbm, 595, rfl⟩
abbrev main_v492 : Ref sig .tc := ⟨.hbm, 596, rfl⟩
abbrev main_v493 : Ref sig .tc := ⟨.hbm, 597, rfl⟩
abbrev main_v494 : Ref sig .tc := ⟨.hbm, 598, rfl⟩
abbrev main_v495 : Ref sig .tc := ⟨.hbm, 599, rfl⟩
abbrev main_v496 : Ref sig .tc := ⟨.hbm, 600, rfl⟩
abbrev main_v497 : Ref sig .tc := ⟨.hbm, 601, rfl⟩
abbrev main_v498 : Ref sig .tc := ⟨.hbm, 602, rfl⟩
abbrev main_v499 : Ref sig .tc := ⟨.hbm, 603, rfl⟩
abbrev main_v500 : Ref sig .tc := ⟨.hbm, 604, rfl⟩
abbrev main_v501 : Ref sig .tc := ⟨.hbm, 605, rfl⟩
abbrev main_v502 : Ref sig .tc := ⟨.hbm, 606, rfl⟩
abbrev main_c_76 : Ref sig .tc := ⟨.hbm, 607, rfl⟩
abbrev main_v503 : Ref sig .tc := ⟨.hbm, 608, rfl⟩
abbrev main_v504 : Ref sig .tc := ⟨.hbm, 609, rfl⟩
abbrev main_c_77 : Ref sig .tc := ⟨.hbm, 610, rfl⟩
abbrev main_v505 : Ref sig .tc := ⟨.hbm, 611, rfl⟩
abbrev main_v506 : Ref sig .tc := ⟨.hbm, 612, rfl⟩
abbrev main_v507 : Ref sig .tc := ⟨.hbm, 613, rfl⟩
abbrev main_v508 : Ref sig .tc := ⟨.hbm, 614, rfl⟩
abbrev main_v509 : Ref sig .tc := ⟨.hbm, 615, rfl⟩
abbrev main_cst_78 : Ref sig .tc := ⟨.hbm, 616, rfl⟩
abbrev main_v510 : Ref sig .tc := ⟨.hbm, 617, rfl⟩
abbrev main_v511 : Ref sig .tc := ⟨.hbm, 618, rfl⟩
abbrev main_v512 : Ref sig .tc := ⟨.hbm, 619, rfl⟩
abbrev main_cst_79 : Ref sig .tc := ⟨.hbm, 620, rfl⟩
abbrev main_v513 : Ref sig .tc := ⟨.hbm, 621, rfl⟩
abbrev main_cst_80 : Ref sig .tc := ⟨.hbm, 622, rfl⟩
abbrev main_v514 : Ref sig .tc := ⟨.hbm, 623, rfl⟩
abbrev main_v515 : Ref sig .tc := ⟨.hbm, 624, rfl⟩
abbrev main_v516 : Ref sig .tc := ⟨.hbm, 625, rfl⟩
abbrev main_cst_81 : Ref sig .tc := ⟨.hbm, 626, rfl⟩
abbrev main_v517 : Ref sig .tc := ⟨.hbm, 627, rfl⟩
abbrev main_v518 : Ref sig .tc := ⟨.hbm, 628, rfl⟩
abbrev main_v519 : Ref sig .tc := ⟨.hbm, 629, rfl⟩
abbrev main_v520 : Ref sig .tc := ⟨.hbm, 630, rfl⟩
abbrev main_v521 : Ref sig .tc := ⟨.hbm, 631, rfl⟩
abbrev main_v522 : Ref sig .tc := ⟨.hbm, 632, rfl⟩
abbrev main_v523 : Ref sig .tc := ⟨.hbm, 633, rfl⟩
abbrev main_v524 : Ref sig .tc := ⟨.hbm, 634, rfl⟩
abbrev main_v525 : Ref sig .tc := ⟨.hbm, 635, rfl⟩
abbrev main_v526 : Ref sig .tc := ⟨.hbm, 636, rfl⟩
abbrev main_v527 : Ref sig .tc := ⟨.hbm, 637, rfl⟩
abbrev main_v528 : Ref sig .tc := ⟨.hbm, 638, rfl⟩
abbrev main_v529 : Ref sig .tc := ⟨.hbm, 639, rfl⟩
abbrev main_v530 : Ref sig .tc := ⟨.hbm, 640, rfl⟩
abbrev main_v531 : Ref sig .tc := ⟨.hbm, 641, rfl⟩
abbrev main_v532 : Ref sig .tc := ⟨.hbm, 642, rfl⟩
abbrev main_v533 : Ref sig .tc := ⟨.hbm, 643, rfl⟩
abbrev main_v534 : Ref sig .tc := ⟨.hbm, 644, rfl⟩
abbrev main_v535 : Ref sig .tc := ⟨.hbm, 645, rfl⟩
abbrev main_v536 : Ref sig .tc := ⟨.hbm, 646, rfl⟩
abbrev main_v537 : Ref sig .tc := ⟨.hbm, 647, rfl⟩
abbrev main_v538 : Ref sig .tc := ⟨.hbm, 648, rfl⟩
abbrev main_v539 : Ref sig .tc := ⟨.hbm, 649, rfl⟩
abbrev main_c_82 : Ref sig .tc := ⟨.hbm, 650, rfl⟩
abbrev main_v540 : Ref sig .tc := ⟨.hbm, 651, rfl⟩
abbrev main_v541 : Ref sig .tc := ⟨.hbm, 652, rfl⟩
abbrev main_c_83 : Ref sig .tc := ⟨.hbm, 653, rfl⟩
abbrev main_v542 : Ref sig .tc := ⟨.hbm, 654, rfl⟩
abbrev main_v543 : Ref sig .tc := ⟨.hbm, 655, rfl⟩
abbrev main_v544 : Ref sig .tc := ⟨.hbm, 656, rfl⟩
abbrev main_v545 : Ref sig .tc := ⟨.hbm, 657, rfl⟩
abbrev main_v546 : Ref sig .tc := ⟨.hbm, 658, rfl⟩
abbrev main_cst_84 : Ref sig .tc := ⟨.hbm, 659, rfl⟩
abbrev main_v547 : Ref sig .tc := ⟨.hbm, 660, rfl⟩
abbrev main_v548 : Ref sig .tc := ⟨.hbm, 661, rfl⟩
abbrev main_v549 : Ref sig .tc := ⟨.hbm, 662, rfl⟩
abbrev main_cst_85 : Ref sig .tc := ⟨.hbm, 663, rfl⟩
abbrev main_v550 : Ref sig .tc := ⟨.hbm, 664, rfl⟩
abbrev main_cst_86 : Ref sig .tc := ⟨.hbm, 665, rfl⟩
abbrev main_v551 : Ref sig .tc := ⟨.hbm, 666, rfl⟩
abbrev main_v552 : Ref sig .tc := ⟨.hbm, 667, rfl⟩
abbrev main_v553 : Ref sig .tc := ⟨.hbm, 668, rfl⟩
abbrev main_cst_87 : Ref sig .tc := ⟨.hbm, 669, rfl⟩
abbrev main_v554 : Ref sig .tc := ⟨.hbm, 670, rfl⟩
abbrev main_v555 : Ref sig .tc := ⟨.hbm, 671, rfl⟩
abbrev main_v556 : Ref sig .tc := ⟨.hbm, 672, rfl⟩
abbrev main_v557 : Ref sig .tc := ⟨.hbm, 673, rfl⟩
abbrev main_v558 : Ref sig .tc := ⟨.hbm, 674, rfl⟩
abbrev main_v559 : Ref sig .tc := ⟨.hbm, 675, rfl⟩
abbrev main_v560 : Ref sig .tc := ⟨.hbm, 676, rfl⟩
abbrev main_v561 : Ref sig .tc := ⟨.hbm, 677, rfl⟩
abbrev main_v562 : Ref sig .tc := ⟨.hbm, 678, rfl⟩
abbrev main_v563 : Ref sig .tc := ⟨.hbm, 679, rfl⟩
abbrev main_v564 : Ref sig .tc := ⟨.hbm, 680, rfl⟩
abbrev main_v565 : Ref sig .tc := ⟨.hbm, 681, rfl⟩
abbrev main_v566 : Ref sig .tc := ⟨.hbm, 682, rfl⟩
abbrev main_v567 : Ref sig .tc := ⟨.hbm, 683, rfl⟩
abbrev main_cst_88 : Ref sig .tc := ⟨.hbm, 684, rfl⟩
abbrev main_v568 : Ref sig .tc := ⟨.hbm, 685, rfl⟩
abbrev main_v569 : Ref sig .tc := ⟨.hbm, 686, rfl⟩
abbrev main_v570 : Ref sig .tc := ⟨.hbm, 687, rfl⟩
abbrev main_v571 : Ref sig .tc := ⟨.hbm, 688, rfl⟩
abbrev main_v572 : Ref sig .tc := ⟨.hbm, 689, rfl⟩
abbrev main_v573 : Ref sig .tc := ⟨.hbm, 690, rfl⟩
abbrev main_cst_89 : Ref sig .tc := ⟨.hbm, 691, rfl⟩
abbrev main_v574 : Ref sig .tc := ⟨.hbm, 692, rfl⟩
abbrev main_v575 : Ref sig .tc := ⟨.hbm, 693, rfl⟩
abbrev main_cst_90 : Ref sig .tc := ⟨.hbm, 694, rfl⟩
abbrev main_v576 : Ref sig .tc := ⟨.hbm, 695, rfl⟩
abbrev main_v577 : Ref sig .tc := ⟨.hbm, 696, rfl⟩
abbrev main_v578 : Ref sig .tc := ⟨.hbm, 697, rfl⟩
abbrev main_v579 : Ref sig .tc := ⟨.hbm, 698, rfl⟩
abbrev main_v580 : Ref sig .tc := ⟨.hbm, 699, rfl⟩
abbrev main_cst_91 : Ref sig .tc := ⟨.hbm, 700, rfl⟩
abbrev main_v581 : Ref sig .tc := ⟨.hbm, 701, rfl⟩
abbrev main_v582 : Ref sig .tc := ⟨.hbm, 702, rfl⟩
abbrev main_cst_92 : Ref sig .tc := ⟨.hbm, 703, rfl⟩
abbrev main_v583 : Ref sig .tc := ⟨.hbm, 704, rfl⟩
abbrev main_v584 : Ref sig .tc := ⟨.hbm, 705, rfl⟩
abbrev main_v585 : Ref sig .tc := ⟨.hbm, 706, rfl⟩
abbrev main_v586 : Ref sig .tc := ⟨.hbm, 707, rfl⟩
abbrev main_cst_93 : Ref sig .tc := ⟨.hbm, 708, rfl⟩
abbrev main_v587 : Ref sig .tc := ⟨.hbm, 709, rfl⟩
abbrev main_v588 : Ref sig .tc := ⟨.hbm, 710, rfl⟩
abbrev main_v589 : Ref sig .tc := ⟨.hbm, 711, rfl⟩
abbrev main_v590 : Ref sig .tc := ⟨.hbm, 712, rfl⟩
abbrev main_v591 : Ref sig .tc := ⟨.hbm, 713, rfl⟩
abbrev main_v592 : Ref sig .tc := ⟨.hbm, 714, rfl⟩
abbrev main_v593 : Ref sig .tc := ⟨.hbm, 715, rfl⟩
abbrev main_v594 : Ref sig .tc := ⟨.hbm, 716, rfl⟩
abbrev main_v595 : Ref sig .tc := ⟨.hbm, 717, rfl⟩
abbrev main_v596 : Ref sig .tc := ⟨.hbm, 718, rfl⟩
abbrev main_v597 : Ref sig .tc := ⟨.hbm, 719, rfl⟩
abbrev main_call3_cst : Ref sig .tc := ⟨.hbm, 720, rfl⟩
abbrev main_call3_v0 : Ref sig .tc := ⟨.hbm, 721, rfl⟩
abbrev main_v598 : Ref sig .tc := ⟨.hbm, 722, rfl⟩
abbrev main_v599 : Ref sig .tc := ⟨.hbm, 723, rfl⟩
abbrev main_cst_94 : Ref sig .tc := ⟨.hbm, 724, rfl⟩
abbrev main_v600 : Ref sig .tc := ⟨.hbm, 725, rfl⟩
abbrev main_v601 : Ref sig .tc := ⟨.hbm, 726, rfl⟩
abbrev main_v602 : Ref sig .tc := ⟨.hbm, 727, rfl⟩
abbrev main_v603 : Ref sig .tc := ⟨.hbm, 728, rfl⟩
abbrev main_v604 : Ref sig .tc := ⟨.hbm, 729, rfl⟩
abbrev main_v605 : Ref sig .tc := ⟨.hbm, 730, rfl⟩
abbrev main_cst_95 : Ref sig .tc := ⟨.hbm, 731, rfl⟩
abbrev main_v606 : Ref sig .tc := ⟨.hbm, 732, rfl⟩
abbrev main_v607 : Ref sig .tc := ⟨.hbm, 733, rfl⟩
abbrev main_cst_96 : Ref sig .tc := ⟨.hbm, 734, rfl⟩
abbrev main_v608 : Ref sig .tc := ⟨.hbm, 735, rfl⟩
abbrev main_v609 : Ref sig .tc := ⟨.hbm, 736, rfl⟩
abbrev main_v610 : Ref sig .tc := ⟨.hbm, 737, rfl⟩
abbrev main_v611 : Ref sig .tc := ⟨.hbm, 738, rfl⟩
abbrev main_v612 : Ref sig .tc := ⟨.hbm, 739, rfl⟩
abbrev main_cst_97 : Ref sig .tc := ⟨.hbm, 740, rfl⟩
abbrev main_v613 : Ref sig .tc := ⟨.hbm, 741, rfl⟩
abbrev main_v614 : Ref sig .tc := ⟨.hbm, 742, rfl⟩
abbrev main_cst_98 : Ref sig .tc := ⟨.hbm, 743, rfl⟩
abbrev main_v615 : Ref sig .tc := ⟨.hbm, 744, rfl⟩
abbrev main_v616 : Ref sig .tc := ⟨.hbm, 745, rfl⟩
abbrev main_v617 : Ref sig .tc := ⟨.hbm, 746, rfl⟩
abbrev main_v618 : Ref sig .tc := ⟨.hbm, 747, rfl⟩
abbrev main_cst_99 : Ref sig .tc := ⟨.hbm, 748, rfl⟩
abbrev main_v619 : Ref sig .tc := ⟨.hbm, 749, rfl⟩
abbrev main_v620 : Ref sig .tc := ⟨.hbm, 750, rfl⟩
abbrev main_v621 : Ref sig .tc := ⟨.hbm, 751, rfl⟩
abbrev main_v622 : Ref sig .tc := ⟨.hbm, 752, rfl⟩
abbrev main_v623 : Ref sig .tc := ⟨.hbm, 753, rfl⟩
abbrev main_v624 : Ref sig .tc := ⟨.hbm, 754, rfl⟩
abbrev main_v625 : Ref sig .tc := ⟨.hbm, 755, rfl⟩
abbrev main_v626 : Ref sig .tc := ⟨.hbm, 756, rfl⟩
abbrev main_v627 : Ref sig .tc := ⟨.hbm, 757, rfl⟩
abbrev main_v628 : Ref sig .tc := ⟨.hbm, 758, rfl⟩
abbrev main_v629 : Ref sig .tc := ⟨.hbm, 759, rfl⟩
abbrev main_call4_cst : Ref sig .tc := ⟨.hbm, 760, rfl⟩
abbrev main_call4_v0 : Ref sig .tc := ⟨.hbm, 761, rfl⟩
abbrev main_v630 : Ref sig .tc := ⟨.hbm, 762, rfl⟩
abbrev main_v631 : Ref sig .tc := ⟨.hbm, 763, rfl⟩
abbrev main_cst_100 : Ref sig .tc := ⟨.hbm, 764, rfl⟩
abbrev main_v632 : Ref sig .tc := ⟨.hbm, 765, rfl⟩
abbrev main_v633 : Ref sig .tc := ⟨.hbm, 766, rfl⟩
abbrev main_v634 : Ref sig .tc := ⟨.hbm, 767, rfl⟩
abbrev main_v635 : Ref sig .tc := ⟨.hbm, 768, rfl⟩
abbrev main_v636 : Ref sig .tc := ⟨.hbm, 769, rfl⟩
abbrev main_v637 : Ref sig .tc := ⟨.hbm, 770, rfl⟩
abbrev main_cst_101 : Ref sig .tc := ⟨.hbm, 771, rfl⟩
abbrev main_v638 : Ref sig .tc := ⟨.hbm, 772, rfl⟩
abbrev main_v639 : Ref sig .tc := ⟨.hbm, 773, rfl⟩
abbrev main_cst_102 : Ref sig .tc := ⟨.hbm, 774, rfl⟩
abbrev main_v640 : Ref sig .tc := ⟨.hbm, 775, rfl⟩
abbrev main_v641 : Ref sig .tc := ⟨.hbm, 776, rfl⟩
abbrev main_v642 : Ref sig .tc := ⟨.hbm, 777, rfl⟩
abbrev main_v643 : Ref sig .tc := ⟨.hbm, 778, rfl⟩
abbrev main_v644 : Ref sig .tc := ⟨.hbm, 779, rfl⟩
abbrev main_cst_103 : Ref sig .tc := ⟨.hbm, 780, rfl⟩
abbrev main_v645 : Ref sig .tc := ⟨.hbm, 781, rfl⟩
abbrev main_v646 : Ref sig .tc := ⟨.hbm, 782, rfl⟩
abbrev main_cst_104 : Ref sig .tc := ⟨.hbm, 783, rfl⟩
abbrev main_v647 : Ref sig .tc := ⟨.hbm, 784, rfl⟩
abbrev main_v648 : Ref sig .tc := ⟨.hbm, 785, rfl⟩
abbrev main_v649 : Ref sig .tc := ⟨.hbm, 786, rfl⟩
abbrev main_v650 : Ref sig .tc := ⟨.hbm, 787, rfl⟩
abbrev main_cst_105 : Ref sig .tc := ⟨.hbm, 788, rfl⟩
abbrev main_v651 : Ref sig .tc := ⟨.hbm, 789, rfl⟩
abbrev main_v652 : Ref sig .tc := ⟨.hbm, 790, rfl⟩
abbrev main_v653 : Ref sig .tc := ⟨.hbm, 791, rfl⟩
abbrev main_v654 : Ref sig .tc := ⟨.hbm, 792, rfl⟩
abbrev main_v655 : Ref sig .tc := ⟨.hbm, 793, rfl⟩
abbrev main_v656 : Ref sig .tc := ⟨.hbm, 794, rfl⟩
abbrev main_v657 : Ref sig .tc := ⟨.hbm, 795, rfl⟩
abbrev main_v658 : Ref sig .tc := ⟨.hbm, 796, rfl⟩
abbrev main_v659 : Ref sig .tc := ⟨.hbm, 797, rfl⟩
abbrev main_v660 : Ref sig .tc := ⟨.hbm, 798, rfl⟩
abbrev main_v661 : Ref sig .tc := ⟨.hbm, 799, rfl⟩
abbrev main_call5_cst : Ref sig .tc := ⟨.hbm, 800, rfl⟩
abbrev main_call5_v0 : Ref sig .tc := ⟨.hbm, 801, rfl⟩
abbrev main_v662 : Ref sig .tc := ⟨.hbm, 802, rfl⟩

abbrev nD : Nat := 1
abbrev τ : Topo := Topo.v7x

variable {F : FTy → Type} [FloatOps F]

class Facts₀ : Prop where
  transposes_S128x6_S6x128_1_0 : S128x6.Transposes [1, 0] S6x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  transposes_S128x4_S4x128_1_0 : S128x4.Transposes [1, 0] S4x128
  bcast_S1x128_S50000x128_0_1 : S1x128.BroadcastsInDim S50000x128 (![0, 1] : Fin 2 → Fin S50000x128.rank)
  transposes_S128x3_S3x128_1_0 : S128x3.Transposes [1, 0] S3x128
  bcast_S1x128_S5000x128_0_1 : S1x128.BroadcastsInDim S5000x128 (![0, 1] : Fin 2 → Fin S5000x128.rank)
  slices_S2x6x128x128_S1x6x128x128_0_0_0_0 : S2x6x128x128.Slices ![0, 0, 0, 0] S1x6x128x128
  shapeCasts_S1x6x128x128_S6x128x128 : S1x6x128x128.ShapeCasts S6x128x128
  slices_S2x6x128_S1x6x128_0_0_0 : S2x6x128.Slices ![0, 0, 0] S1x6x128
  shapeCasts_S1x6x128_S6x128 : S1x6x128.ShapeCasts S6x128
  slices_S6x128x128_S1x128x128_0_0_0 : S6x128x128.Slices ![0, 0, 0] S1x128x128
  shapeCasts_S1x128x128_S128x128 : S1x128x128.ShapeCasts S128x128
  slices_S6x128_S1x128_0_0 : S6x128.Slices ![0, 0] S1x128
  shapeCasts_S1x128_S128 : S1x128.ShapeCasts S128
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S500000_S500000x1_0 : S500000.BroadcastsInDim S500000x1 (![0] : Fin 1 → Fin S500000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S128x128_S128x128_1_0 : S128x128.Transposes [1, 0] S128x128
  slices_S6x128x128_S1x128x128_1_0_0 : S6x128x128.Slices ![1, 0, 0] S1x128x128
  slices_S6x128_S1x128_1_0 : S6x128.Slices ![1, 0] S1x128
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  slices_S6x128x128_S1x128x128_2_0_0 : S6x128x128.Slices ![2, 0, 0] S1x128x128
  slices_S6x128_S1x128_2_0 : S6x128.Slices ![2, 0] S1x128
  slices_S2x300000_S1x300000_0_0 : S2x300000.Slices ![0, 0] S1x300000
  shapeCasts_S1x300000_S300000 : S1x300000.ShapeCasts S300000
  slices_S2x300000_S1x300000_1_0 : S2x300000.Slices ![1, 0] S1x300000
  bcast_S_S300000 : S_.BroadcastsInDim S300000 (![] : Fin 0 → Fin S300000.rank)
  bcast_S300000_S300000x1_0 : S300000.BroadcastsInDim S300000x1 (![0] : Fin 1 → Fin S300000x1.rank)
  bcast_S_S5000x128 : S_.BroadcastsInDim S5000x128 (![] : Fin 0 → Fin S5000x128.rank)
  bcast_S_S5000 : S_.BroadcastsInDim S5000 (![] : Fin 0 → Fin S5000.rank)
  bcast_S5000_S5000x1_0 : S5000.BroadcastsInDim S5000x1 (![0] : Fin 1 → Fin S5000x1.rank)
  bcast_S5000x1_S5000x128_0_1 : S5000x1.BroadcastsInDim S5000x128 (![0, 1] : Fin 2 → Fin S5000x128.rank)
  slices_S6x128x128_S1x128x128_3_0_0 : S6x128x128.Slices ![3, 0, 0] S1x128x128
  slices_S6x128_S1x128_3_0 : S6x128.Slices ![3, 0] S1x128
  slices_S6x128x128_S1x128x128_4_0_0 : S6x128x128.Slices ![4, 0, 0] S1x128x128
  slices_S6x128_S1x128_4_0 : S6x128.Slices ![4, 0] S1x128
  slices_S2x150000_S1x150000_0_0 : S2x150000.Slices ![0, 0] S1x150000
  shapeCasts_S1x150000_S150000 : S1x150000.ShapeCasts S150000
  slices_S2x150000_S1x150000_1_0 : S2x150000.Slices ![1, 0] S1x150000
  bcast_S_S150000 : S_.BroadcastsInDim S150000 (![] : Fin 0 → Fin S150000.rank)
  bcast_S150000_S150000x1_0 : S150000.BroadcastsInDim S150000x1 (![0] : Fin 1 → Fin S150000x1.rank)
  slices_S6x128x128_S1x128x128_5_0_0 : S6x128x128.Slices ![5, 0, 0] S1x128x128
  slices_S6x128_S1x128_5_0 : S6x128.Slices ![5, 0] S1x128
  slices_S2x3x128_S1x1x128_0_0_0 : S2x3x128.Slices ![0, 0, 0] S1x1x128
  shapeCasts_S1x1x128_S128 : S1x1x128.ShapeCasts S128
  reducesTo_S100000x128_S100000_d1 : S100000x128.ReducesTo [1] S100000
  h_S_ : 0 < S_.numel
  bcast_S_S100000x1 : S_.BroadcastsInDim S100000x1 (![] : Fin 0 → Fin S100000x1.rank)
  slices_S2x3x128_S1x1x128_0_1_0 : S2x3x128.Slices ![0, 1, 0] S1x1x128
  reducesTo_S50000x128_S50000_d1 : S50000x128.ReducesTo [1] S50000
  bcast_S_S50000x1 : S_.BroadcastsInDim S50000x1 (![] : Fin 0 → Fin S50000x1.rank)
  slices_S2x3x128_S1x1x128_0_2_0 : S2x3x128.Slices ![0, 2, 0] S1x1x128
  reducesTo_S5000x128_S5000_d1 : S5000x128.ReducesTo [1] S5000
  bcast_S_S5000x1 : S_.BroadcastsInDim S5000x1 (![] : Fin 0 → Fin S5000x1.rank)
  slices_S2x6x128x128_S1x6x128x128_1_0_0_0 : S2x6x128x128.Slices ![1, 0, 0, 0] S1x6x128x128
  slices_S2x6x128_S1x6x128_1_0_0 : S2x6x128.Slices ![1, 0, 0] S1x6x128
  slices_S2x3x128_S1x1x128_1_0_0 : S2x3x128.Slices ![1, 0, 0] S1x1x128
  slices_S2x3x128_S1x1x128_1_1_0 : S2x3x128.Slices ![1, 1, 0] S1x1x128
  slices_S2x3x128_S1x1x128_1_2_0 : S2x3x128.Slices ![1, 2, 0] S1x1x128
  dot_S100000x6_S6x128_S100000x128_1_0_0_1_n_n_wf : DotDims.WF S100000x6 S6x128 S100000x128 [1] [0] [0] [1] [] []
  dot_S50000x4_S4x128_S50000x128_1_0_0_1_n_n_wf : DotDims.WF S50000x4 S4x128 S50000x128 [1] [0] [0] [1] [] []
  dot_S5000x3_S3x128_S5000x128_1_0_0_1_n_n_wf : DotDims.WF S5000x3 S3x128 S5000x128 [1] [0] [0] [1] [] []
  gather_S100000x128_S500000x1_S500000x128_1_0_n_n_0_1_1128_wf : GatherDims.WF S100000x128 S500000x1 S500000x128 [1] [0] [] [0] [] 1 ![1, 128]
  scatter_S50000x128_S500000x1_S500000x128_1_0_0_1_wf : ScatterDims.WF S50000x128 S500000x1 S500000x128 [1] [0] [0] 1
  scatter_S50000_S500000x1_S500000_n_0_0_1_wf : ScatterDims.WF S50000 S500000x1 S500000 [] [0] [0] 1
  dot_S50000x128_S128x128_S50000x128_1_0_0_1_n_n_wf : DotDims.WF S50000x128 S128x128 S50000x128 [1] [0] [0] [1] [] []
  gather_S50000x128_S500000x1_S500000x128_1_0_n_n_0_1_1128_wf : GatherDims.WF S50000x128 S500000x1 S500000x128 [1] [0] [] [0] [] 1 ![1, 128]
  scatter_S100000x128_S500000x1_S500000x128_1_0_0_1_wf : ScatterDims.WF S100000x128 S500000x1 S500000x128 [1] [0] [0] 1
  scatter_S100000_S500000x1_S500000_n_0_0_1_wf : ScatterDims.WF S100000 S500000x1 S500000 [] [0] [0] 1
  dot_S100000x128_S128x128_S100000x128_1_0_0_1_n_n_wf : DotDims.WF S100000x128 S128x128 S100000x128 [1] [0] [0] [1] [] []
  gather_S100000x128_S300000x1_S300000x128_1_0_n_n_0_1_1128_wf : GatherDims.WF S100000x128 S300000x1 S300000x128 [1] [0] [] [0] [] 1 ![1, 128]
  scatter_S5000x128_S300000x1_S300000x128_1_0_0_1_wf : ScatterDims.WF S5000x128 S300000x1 S300000x128 [1] [0] [0] 1
  scatter_S5000_S300000x1_S300000_n_0_0_1_wf : ScatterDims.WF S5000 S300000x1 S300000 [] [0] [0] 1
  dot_S5000x128_S128x128_S5000x128_1_0_0_1_n_n_wf : DotDims.WF S5000x128 S128x128 S5000x128 [1] [0] [0] [1] [] []
  gather_S5000x128_S300000x1_S300000x128_1_0_n_n_0_1_1128_wf : GatherDims.WF S5000x128 S300000x1 S300000x128 [1] [0] [] [0] [] 1 ![1, 128]
  scatter_S100000x128_S300000x1_S300000x128_1_0_0_1_wf : ScatterDims.WF S100000x128 S300000x1 S300000x128 [1] [0] [0] 1
  scatter_S100000_S300000x1_S300000_n_0_0_1_wf : ScatterDims.WF S100000 S300000x1 S300000 [] [0] [0] 1
  gather_S50000x128_S150000x1_S150000x128_1_0_n_n_0_1_1128_wf : GatherDims.WF S50000x128 S150000x1 S150000x128 [1] [0] [] [0] [] 1 ![1, 128]
  scatter_S5000x128_S150000x1_S150000x128_1_0_0_1_wf : ScatterDims.WF S5000x128 S150000x1 S150000x128 [1] [0] [0] 1
  scatter_S5000_S150000x1_S150000_n_0_0_1_wf : ScatterDims.WF S5000 S150000x1 S150000 [] [0] [0] 1
  gather_S5000x128_S150000x1_S150000x128_1_0_n_n_0_1_1128_wf : GatherDims.WF S5000x128 S150000x1 S150000x128 [1] [0] [] [0] [] 1 ![1, 128]
  scatter_S50000x128_S150000x1_S150000x128_1_0_0_1_wf : ScatterDims.WF S50000x128 S150000x1 S150000x128 [1] [0] [0] 1
  scatter_S50000_S150000x1_S150000_n_0_0_1_wf : ScatterDims.WF S50000 S150000x1 S150000 [] [0] [0] 1

variable [Facts₀]

def dot_S100000x6_S6x128_S100000x128_1_0_0_1_n_n : DotDims S100000x6 S6x128 S100000x128 where
  lhsContracting := [1]
  rhsContracting := [0]
  lhsNonContracting := [0]
  rhsNonContracting := [1]
  lhsBatch := []
  rhsBatch := []
  wf := dot_S100000x6_S6x128_S100000x128_1_0_0_1_n_n_wf
def dot_S50000x4_S4x128_S50000x128_1_0_0_1_n_n : DotDims S50000x4 S4x128 S50000x128 where
  lhsContracting := [1]
  rhsContracting := [0]
  lhsNonContracting := [0]
  rhsNonContracting := [1]
  lhsBatch := []
  rhsBatch := []
  wf := dot_S50000x4_S4x128_S50000x128_1_0_0_1_n_n_wf
def dot_S5000x3_S3x128_S5000x128_1_0_0_1_n_n : DotDims S5000x3 S3x128 S5000x128 where
  lhsContracting := [1]
  rhsContracting := [0]
  lhsNonContracting := [0]
  rhsNonContracting := [1]
  lhsBatch := []
  rhsBatch := []
  wf := dot_S5000x3_S3x128_S5000x128_1_0_0_1_n_n_wf
def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def scatter_S50000x128_S500000x1_S500000x128_1_0_0_1 : ScatterDims S50000x128 S500000x1 S500000x128 where
  updateWindowDims := [1]
  insertedWindowDims := [0]
  scatterDimsToOperandDims := [0]
  indexVectorDim := 1
  wf := scatter_S50000x128_S500000x1_S500000x128_1_0_0_1_wf
def scatter_S50000_S500000x1_S500000_n_0_0_1 : ScatterDims S50000 S500000x1 S500000 where
  updateWindowDims := []
  insertedWindowDims := [0]
  scatterDimsToOperandDims := [0]
  indexVectorDim := 1
  wf := scatter_S50000_S500000x1_S500000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def scatter_S100000x128_S500000x1_S500000x128_1_0_0_1 : ScatterDims S100000x128 S500000x1 S500000x128 where
  updateWindowDims := [1]
  insertedWindowDims := [0]
  scatterDimsToOperandDims := [0]
  indexVectorDim := 1
  wf := scatter_S100000x128_S500000x1_S500000x128_1_0_0_1_wf
def scatter_S100000_S500000x1_S500000_n_0_0_1 : ScatterDims S100000 S500000x1 S500000 where
  updateWindowDims := []
  insertedWindowDims := [0]
  scatterDimsToOperandDims := [0]
  indexVectorDim := 1
  wf := scatter_S100000_S500000x1_S500000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S300000x1_S300000x128_1_0_n_n_0_1_1128 : GatherDims S100000x128 S300000x1 S300000x128 where
  offsetDims := [1]
  collapsedSliceDims := [0]
  operandBatchingDims := []
  startIndicesBatchingDims := []
  startIndexMap := [0]
  indexVectorDim := 1
  sliceSizes := ![1, 128]
  wf := gather_S100000x128_S300000x1_S300000x128_1_0_n_n_0_1_1128_wf
def scatter_S5000x128_S300000x1_S300000x128_1_0_0_1 : ScatterDims S5000x128 S300000x1 S300000x128 where
  updateWindowDims := [1]
  insertedWindowDims := [0]
  scatterDimsToOperandDims := [0]
  indexVectorDim := 1
  wf := scatter_S5000x128_S300000x1_S300000x128_1_0_0_1_wf
def scatter_S5000_S300000x1_S300000_n_0_0_1 : ScatterDims S5000 S300000x1 S300000 where
  updateWindowDims := []
  insertedWindowDims := [0]
  scatterDimsToOperandDims := [0]
  indexVectorDim := 1
  wf := scatter_S5000_S300000x1_S300000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S5000x128_S300000x1_S300000x128_1_0_n_n_0_1_1128 : GatherDims S5000x128 S300000x1 S300000x128 where
  offsetDims := [1]
  collapsedSliceDims := [0]
  operandBatchingDims := []
  startIndicesBatchingDims := []
  startIndexMap := [0]
  indexVectorDim := 1
  sliceSizes := ![1, 128]
  wf := gather_S5000x128_S300000x1_S300000x128_1_0_n_n_0_1_1128_wf
def scatter_S100000x128_S300000x1_S300000x128_1_0_0_1 : ScatterDims S100000x128 S300000x1 S300000x128 where
  updateWindowDims := [1]
  insertedWindowDims := [0]
  scatterDimsToOperandDims := [0]
  indexVectorDim := 1
  wf := scatter_S100000x128_S300000x1_S300000x128_1_0_0_1_wf
def scatter_S100000_S300000x1_S300000_n_0_0_1 : ScatterDims S100000 S300000x1 S300000 where
  updateWindowDims := []
  insertedWindowDims := [0]
  scatterDimsToOperandDims := [0]
  indexVectorDim := 1
  wf := scatter_S100000_S300000x1_S300000_n_0_0_1_wf
def gather_S50000x128_S150000x1_S150000x128_1_0_n_n_0_1_1128 : GatherDims S50000x128 S150000x1 S150000x128 where
  offsetDims := [1]
  collapsedSliceDims := [0]
  operandBatchingDims := []
  startIndicesBatchingDims := []
  startIndexMap := [0]
  indexVectorDim := 1
  sliceSizes := ![1, 128]
  wf := gather_S50000x128_S150000x1_S150000x128_1_0_n_n_0_1_1128_wf
def scatter_S5000x128_S150000x1_S150000x128_1_0_0_1 : ScatterDims S5000x128 S150000x1 S150000x128 where
  updateWindowDims := [1]
  insertedWindowDims := [0]
  scatterDimsToOperandDims := [0]
  indexVectorDim := 1
  wf := scatter_S5000x128_S150000x1_S150000x128_1_0_0_1_wf
def scatter_S5000_S150000x1_S150000_n_0_0_1 : ScatterDims S5000 S150000x1 S150000 where
  updateWindowDims := []
  insertedWindowDims := [0]
  scatterDimsToOperandDims := [0]
  indexVectorDim := 1
  wf := scatter_S5000_S150000x1_S150000_n_0_0_1_wf
def gather_S5000x128_S150000x1_S150000x128_1_0_n_n_0_1_1128 : GatherDims S5000x128 S150000x1 S150000x128 where
  offsetDims := [1]
  collapsedSliceDims := [0]
  operandBatchingDims := []
  startIndicesBatchingDims := []
  startIndexMap := [0]
  indexVectorDim := 1
  sliceSizes := ![1, 128]
  wf := gather_S5000x128_S150000x1_S150000x128_1_0_n_n_0_1_1128_wf
def scatter_S50000x128_S150000x1_S150000x128_1_0_0_1 : ScatterDims S50000x128 S150000x1 S150000x128 where
  updateWindowDims := [1]
  insertedWindowDims := [0]
  scatterDimsToOperandDims := [0]
  indexVectorDim := 1
  wf := scatter_S50000x128_S150000x1_S150000x128_1_0_0_1_wf
def scatter_S50000_S150000x1_S150000_n_0_0_1 : ScatterDims S50000 S150000x1 S150000 where
  updateWindowDims := []
  insertedWindowDims := [0]
  scatterDimsToOperandDims := [0]
  indexVectorDim := 1
  wf := scatter_S50000_S150000x1_S150000_n_0_0_1_wf

class Facts : Prop extends Facts₀ where

variable [Facts]
-- ==== Proof.Spec.lean ====
/-
  The mathematics both programs compute, for one node (one row of 128 features), over the extended reals.

  A SAGE relation sends a node's aggregated neighbour features `msg` and its own features `x` to
  `msg · wl + bl + x · wr` (weights indexed by input feature, then output feature). A node type receives two
  relations; their sum is halved, normalised along the 128 features (mean and variance as sums divided by 128, the
  variance shifted by a small constant before the reciprocal square root), scaled and shifted per feature, and
  clipped below at zero.
-/
import Idealize.ShloMosaic.PureOps.Ideal.Laws

noncomputable section

namespace Cert.Spec

open Idealize.ShloMosaic

/-- One relation's output at feature `j`. -/
def sage (msg x : Fin 128 → EReal) (wl wr : Fin 128 → Fin 128 → EReal) (bl : Fin 128 → EReal) (j : Fin 128) : EReal :=
  ((∑ k : Fin 128, msg k * wl k j) + bl j) + ∑ k : Fin 128, x k * wr k j

/-- The factor one half, the divisor 128, the variance shift, and zero, as the programs spell them. -/
def half : EReal := Ideal.ofBits .f32 0x3F000000#32
def c128 : EReal := Ideal.ofBits .f32 0x43000000#32
def eps : EReal := Ideal.ofBits .f32 0x3727C5AC#32
def zero : EReal := Ideal.ofBits .f32 0x00000000#32

/-- The mean of the halved row. -/
def mean (o : Fin 128 → EReal) : EReal := Ideal.div (∑ j : Fin 128, half * o j) c128

/-- The variance of the halved row about its mean. -/
def var (o : Fin 128 → EReal) : EReal :=
  Ideal.div (∑ j : Fin 128, (half * o j - mean o) * (half * o j - mean o)) c128

/-- The halved row, normalised, scaled by `g`, shifted by `b`, clipped below at zero. -/
def lnrelu (o g b : Fin 128 → EReal) (j : Fin 128) : EReal :=
  max (((half * o j - mean o) * Ideal.rsqrt (var o + eps)) * g j + b j) zero

/-- A node's new features from its two relations. -/
def row (m1 m2 x : Fin 128 → EReal) (wl1 wl2 wr1 wr2 : Fin 128 → Fin 128 → EReal) (bl1 bl2 g b : Fin 128 → EReal)
    (j : Fin 128) : EReal :=
  lnrelu (fun j => sage m1 x wl1 wr1 bl1 j + sage m2 x wl2 wr2 bl2 j) g b j

end Cert.Spec

end
-- ==== Proof.KReg3.lean ====
/-
  Region 3 of the kernel program, read as a value. The region's 25 grid points each take a block of 4000 rows of the
  three row arrays (and the whole weight matrices and vectors) to the same block of rows of the output array, every
  row by the row formula. The 25 blocks tile the 100000 rows, so after the region the output array holds at every
  row the row formula of that row, the body's payload at an index being the row formula (a hypothesis here).
-/
import proofs.«159317_j31121333027532_1_alg».proof.Proof.KIFrameReg3
import proofs.«159317_j31121333027532_1_alg».proof.Proof.Spec
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.GenP Idealize.ShloMosaic Idealize.ShloMosaic.TcCoe Idealize.ShloMosaic.ValueIdx
open Idealize.ShloMosaic.Pipeline (Dat)

/-- The body's payload at an index is the row formula (proved elsewhere). -/
def Body3 : Prop := ∀ (x0 x1 x2 : Vec Ideal S4000x128 .f32) (x3 x4 x5 x6 : Vec Ideal S128x128 .f32) (x7 x8 x9 x10 : Vec Ideal S128 .f32) (p : Fin 4000) (q : Fin 128),
    k3_pay1 (F := Ideal) (k3_pay2 (F := Ideal) x0 x1 x2 x3 x4 x5 x6 x7 x8) (Scalar.ofBits .f32 0x3F000000#32) x9 x10 (ix2 p q)
      = Cert.Spec.row (fun k => x0 (ix2 p k)) (fun k => x1 (ix2 p k)) (fun k => x2 (ix2 p k))
          (fun k j => x3 (ix2 k j)) (fun k j => x4 (ix2 k j)) (fun k j => x5 (ix2 k j)) (fun k j => x6 (ix2 k j))
          (fun j => x7 (ix1 j)) (fun j => x8 (ix1 j)) (fun j => x9 (ix1 j)) (fun j => x10 (ix1 j)) q

namespace Reg3

/-- Row r, feature q of the region's result, from the three row arrays, the four weight matrices and the four vectors. -/
def rowAt (a0 a1 a2 : Vec Ideal S100000x128 .f32) (a3 a4 a5 a6 : Vec Ideal S128x128 .f32) (a7 a8 a9 a10 : Vec Ideal S128 .f32)
    (r : Fin 100000) (q : Fin 128) : EReal :=
  Cert.Spec.row (fun k => a0 (ix2 r k)) (fun k => a1 (ix2 r k)) (fun k => a2 (ix2 r k))
    (fun k j => a3 (ix2 k j)) (fun k j => a4 (ix2 k j)) (fun k j => a5 (ix2 k j)) (fun k j => a6 (ix2 k j))
    (fun j => a7 (ix1 j)) (fun j => a8 (ix1 j)) (fun j => a9 (ix1 j)) (fun j => a10 (ix1 j)) q

/-- The region's result array: every row is the row formula of the same row of the row arrays. -/
def result (a0 a1 a2 : Vec Ideal S100000x128 .f32) (a3 a4 a5 a6 : Vec Ideal S128x128 .f32) (a7 a8 a9 a10 : Vec Ideal S128 .f32) :
    Vec Ideal S100000x128 .f32 :=
  fun i => rowAt a0 a1 a2 a3 a4 a5 a6 a7 a8 a9 a10 (i 0) (i 1)

/-- The result array at row r, feature q. -/
theorem result_apply (a0 a1 a2 : Vec Ideal S100000x128 .f32) (a3 a4 a5 a6 : Vec Ideal S128x128 .f32) (a7 a8 a9 a10 : Vec Ideal S128 .f32)
    (r : Fin 100000) (q : Fin 128) :
    result a0 a1 a2 a3 a4 a5 a6 a7 a8 a9 a10 (ix2 r q)
      = Cert.Spec.row (fun k => a0 (ix2 r k)) (fun k => a1 (ix2 r k)) (fun k => a2 (ix2 r k))
          (fun k j => a3 (ix2 k j)) (fun k j => a4 (ix2 k j)) (fun k j => a5 (ix2 k j)) (fun k j => a6 (ix2 k j))
          (fun j => a7 (ix1 j)) (fun j => a8 (ix1 j)) (fun j => a9 (ix1 j)) (fun j => a10 (ix1 j)) q := rfl

/-- The row formula respects equality of each of its eleven arguments. -/
theorem row_congr {m1 m1' m2 m2' x x' : Fin 128 → EReal} {wl1 wl1' wl2 wl2' wr1 wr1' wr2 wr2' : Fin 128 → Fin 128 → EReal}
    {bl1 bl1' bl2 bl2' g g' b b' : Fin 128 → EReal}
    (ha : m1 = m1') (hb : m2 = m2') (hc : x = x') (hd : wl1 = wl1') (he : wl2 = wl2') (hf : wr1 = wr1') (hg : wr2 = wr2')
    (hh : bl1 = bl1') (hi : bl2 = bl2') (hj : g = g') (hk : b = b') (q : Fin 128) :
    Cert.Spec.row m1 m2 x wl1 wl2 wr1 wr2 bl1 bl2 g b q = Cert.Spec.row m1' m2' x' wl1' wl2' wr1' wr2' bl1' bl2' g' b' q := by
  subst ha hb hc hd he hf hg hh hi hj hk; rfl

theorem zeros_two : (![0, 0] : Fin 2 → Nat) = fun _ => 0 := funext fun a => by fin_cases a <;> rfl
theorem zeros_one : (![0] : Fin 1 → Nat) = fun _ => 0 := funext fun a => by fin_cases a <;> rfl

/-- Window 0's block index at point t: row block t, lane block 0. -/
theorem idx_rowsA : ∀ t : Fin cfg3.N, win3_0.index t (0 : Fin 2) = t.val ∧ win3_0.index t (1 : Fin 2) = 0 :=
  (by decide +kernel : ∀ t : Fin grid3.N, win3_0.index t (0 : Fin 2) = t.val ∧ win3_0.index t (1 : Fin 2) = 0)
/-- Window 1's block index at point t: row block t, lane block 0. -/
theorem idx_rowsB : ∀ t : Fin cfg3.N, win3_1.index t (0 : Fin 2) = t.val ∧ win3_1.index t (1 : Fin 2) = 0 :=
  (by decide +kernel : ∀ t : Fin grid3.N, win3_1.index t (0 : Fin 2) = t.val ∧ win3_1.index t (1 : Fin 2) = 0)
/-- Window 2's block index at point t: row block t, lane block 0. -/
theorem idx_rowsC : ∀ t : Fin cfg3.N, win3_2.index t (0 : Fin 2) = t.val ∧ win3_2.index t (1 : Fin 2) = 0 :=
  (by decide +kernel : ∀ t : Fin grid3.N, win3_2.index t (0 : Fin 2) = t.val ∧ win3_2.index t (1 : Fin 2) = 0)
/-- Window 11's block index at point t: row block t, lane block 0. -/
theorem idx_out : ∀ t : Fin cfg3.N, win3_11.index t (0 : Fin 2) = t.val ∧ win3_11.index t (1 : Fin 2) = 0 :=
  (by decide +kernel : ∀ t : Fin grid3.N, win3_11.index t (0 : Fin 2) = t.val ∧ win3_11.index t (1 : Fin 2) = 0)
/-- Window 3's block index is zero on both axes at every point: the whole matrix. -/
theorem idx_matA : ∀ t : Fin cfg3.N, win3_3.index t (0 : Fin 2) = 0 ∧ win3_3.index t (1 : Fin 2) = 0 :=
  (by decide +kernel : ∀ t : Fin grid3.N, win3_3.index t (0 : Fin 2) = 0 ∧ win3_3.index t (1 : Fin 2) = 0)
/-- Window 4's block index is zero on both axes at every point: the whole matrix. -/
theorem idx_matB : ∀ t : Fin cfg3.N, win3_4.index t (0 : Fin 2) = 0 ∧ win3_4.index t (1 : Fin 2) = 0 :=
  (by decide +kernel : ∀ t : Fin grid3.N, win3_4.index t (0 : Fin 2) = 0 ∧ win3_4.index t (1 : Fin 2) = 0)
/-- Window 5's block index is zero on both axes at every point: the whole matrix. -/
theorem idx_matC : ∀ t : Fin cfg3.N, win3_5.index t (0 : Fin 2) = 0 ∧ win3_5.index t (1 : Fin 2) = 0 :=
  (by decide +kernel : ∀ t : Fin grid3.N, win3_5.index t (0 : Fin 2) = 0 ∧ win3_5.index t (1 : Fin 2) = 0)
/-- Window 6's block index is zero on both axes at every point: the whole matrix. -/
theorem idx_matD : ∀ t : Fin cfg3.N, win3_6.index t (0 : Fin 2) = 0 ∧ win3_6.index t (1 : Fin 2) = 0 :=
  (by decide +kernel : ∀ t : Fin grid3.N, win3_6.index t (0 : Fin 2) = 0 ∧ win3_6.index t (1 : Fin 2) = 0)
/-- Window 7's block index is zero at every point: the whole vector. -/
theorem idx_vecA : ∀ t : Fin cfg3.N, win3_7.index t (0 : Fin 1) = 0 :=
  (by decide +kernel : ∀ t : Fin grid3.N, win3_7.index t (0 : Fin 1) = 0)
/-- Window 8's block index is zero at every point: the whole vector. -/
theorem idx_vecB : ∀ t : Fin cfg3.N, win3_8.index t (0 : Fin 1) = 0 :=
  (by decide +kernel : ∀ t : Fin grid3.N, win3_8.index t (0 : Fin 1) = 0)
/-- Window 9's block index is zero at every point: the whole vector. -/
theorem idx_vecC : ∀ t : Fin cfg3.N, win3_9.index t (0 : Fin 1) = 0 :=
  (by decide +kernel : ∀ t : Fin grid3.N, win3_9.index t (0 : Fin 1) = 0)
/-- Window 10's block index is zero at every point: the whole vector. -/
theorem idx_vecD : ∀ t : Fin cfg3.N, win3_10.index t (0 : Fin 1) = 0 :=
  (by decide +kernel : ∀ t : Fin grid3.N, win3_10.index t (0 : Fin 1) = 0)

/-- The row blocks fill the rows exactly. -/
theorem rows_eq : cfg3.N * 4000 = 100000 := (by decide +kernel : grid3.N * 4000 = 100000)

/-- The array row of row p of the block at point t. -/
def rowOf (t : Fin cfg3.N) (p : Fin 4000) : Fin 100000 :=
  ⟨t.val * 4000 + p.val, by have h := rows_eq; have ht := t.isLt; have hp := p.isLt; omega⟩

variable (V : (c : Dev nD) → (b : Ref sig .tc) → Buf (Elt Ideal) ((c : Thread nD τ).loc b))

/-- Row p of window 0's block at point t is row t * 4000 + p of its array. -/
theorem rowsA_apply (c : Dev nD) (t : Fin cfg3.N) (p : Fin 4000) (k : Fin 128) :
    (iblk3 V c 0 t : Vec Ideal S4000x128 .f32) (ix2 p k) = (V c main_v265 : Vec Ideal S100000x128 .f32) (ix2 (rowOf t p) k) := by
  obtain ⟨ea, eb⟩ := idx_rowsA t
  unfold iblk3
  rw [View.read_apply]
  show (V c main_v265 : Vec Ideal S100000x128 .f32) (((cfg3.win 0).blk t).view.emb (ix2 p k)) = _
  refine congrArg (V c main_v265 : Vec Ideal S100000x128 .f32) ?_
  funext a
  apply Fin.ext
  match a with
  | ⟨0, _⟩ => show win3_0.index t (0 : Fin 2) * 4000 + 1 * p.val = t.val * 4000 + p.val; omega
  | ⟨1, _⟩ => show win3_0.index t (1 : Fin 2) * 128 + 1 * k.val = k.val; omega
/-- Row p of window 1's block at point t is row t * 4000 + p of its array. -/
theorem rowsB_apply (c : Dev nD) (t : Fin cfg3.N) (p : Fin 4000) (k : Fin 128) :
    (iblk3 V c 1 t : Vec Ideal S4000x128 .f32) (ix2 p k) = (V c main_v311 : Vec Ideal S100000x128 .f32) (ix2 (rowOf t p) k) := by
  obtain ⟨ea, eb⟩ := idx_rowsB t
  unfold iblk3
  rw [View.read_apply]
  show (V c main_v311 : Vec Ideal S100000x128 .f32) (((cfg3.win 1).blk t).view.emb (ix2 p k)) = _
  refine congrArg (V c main_v311 : Vec Ideal S100000x128 .f32) ?_
  funext a
  apply Fin.ext
  match a with
  | ⟨0, _⟩ => show win3_1.index t (0 : Fin 2) * 4000 + 1 * p.val = t.val * 4000 + p.val; omega
  | ⟨1, _⟩ => show win3_1.index t (1 : Fin 2) * 128 + 1 * k.val = k.val; omega
/-- Row p of window 2's block at point t is row t * 4000 + p of its array. -/
theorem rowsC_apply (c : Dev nD) (t : Fin cfg3.N) (p : Fin 4000) (k : Fin 128) :
    (iblk3 V c 2 t : Vec Ideal S4000x128 .f32) (ix2 p k) = (V c main_v177 : Vec Ideal S100000x128 .f32) (ix2 (rowOf t p) k) := by
  obtain ⟨ea, eb⟩ := idx_rowsC t
  unfold iblk3
  rw [View.read_apply]
  show (V c main_v177 : Vec Ideal S100000x128 .f32) (((cfg3.win 2).blk t).view.emb (ix2 p k)) = _
  refine congrArg (V c main_v177 : Vec Ideal S100000x128 .f32) ?_
  funext a
  apply Fin.ext
  match a with
  | ⟨0, _⟩ => show win3_2.index t (0 : Fin 2) * 4000 + 1 * p.val = t.val * 4000 + p.val; omega
  | ⟨1, _⟩ => show win3_2.index t (1 : Fin 2) * 128 + 1 * k.val = k.val; omega
/-- Window 3's block at any point is its whole matrix. -/
theorem matA_apply (c : Dev nD) (t : Fin cfg3.N) (k j : Fin 128) :
    (iblk3 V c 3 t : Vec Ideal S128x128 .f32) (ix2 k j) = (V c main_v359 : Vec Ideal S128x128 .f32) (ix2 k j) := by
  obtain ⟨ea, eb⟩ := idx_matA t
  unfold iblk3
  rw [View.read_apply]
  show (V c main_v359 : Vec Ideal S128x128 .f32) (((cfg3.win 3).blk t).view.emb (ix2 k j)) = _
  refine congrArg (V c main_v359 : Vec Ideal S128x128 .f32) ?_
  funext a
  apply Fin.ext
  match a with
  | ⟨0, _⟩ => show win3_3.index t (0 : Fin 2) * 128 + 1 * k.val = k.val; omega
  | ⟨1, _⟩ => show win3_3.index t (1 : Fin 2) * 128 + 1 * j.val = j.val; omega
/-- Window 4's block at any point is its whole matrix. -/
theorem matB_apply (c : Dev nD) (t : Fin cfg3.N) (k j : Fin 128) :
    (iblk3 V c 4 t : Vec Ideal S128x128 .f32) (ix2 k j) = (V c main_v361 : Vec Ideal S128x128 .f32) (ix2 k j) := by
  obtain ⟨ea, eb⟩ := idx_matB t
  unfold iblk3
  rw [View.read_apply]
  show (V c main_v361 : Vec Ideal S128x128 .f32) (((cfg3.win 4).blk t).view.emb (ix2 k j)) = _
  refine congrArg (V c main_v361 : Vec Ideal S128x128 .f32) ?_
  funext a
  apply Fin.ext
  match a with
  | ⟨0, _⟩ => show win3_4.index t (0 : Fin 2) * 128 + 1 * k.val = k.val; omega
  | ⟨1, _⟩ => show win3_4.index t (1 : Fin 2) * 128 + 1 * j.val = j.val; omega
/-- Window 5's block at any point is its whole matrix. -/
theorem matC_apply (c : Dev nD) (t : Fin cfg3.N) (k j : Fin 128) :
    (iblk3 V c 5 t : Vec Ideal S128x128 .f32) (ix2 k j) = (V c main_v363 : Vec Ideal S128x128 .f32) (ix2 k j) := by
  obtain ⟨ea, eb⟩ := idx_matC t
  unfold iblk3
  rw [View.read_apply]
  show (V c main_v363 : Vec Ideal S128x128 .f32) (((cfg3.win 5).blk t).view.emb (ix2 k j)) = _
  refine congrArg (V c main_v363 : Vec Ideal S128x128 .f32) ?_
  funext a
  apply Fin.ext
  match a with
  | ⟨0, _⟩ => show win3_5.index t (0 : Fin 2) * 128 + 1 * k.val = k.val; omega
  | ⟨1, _⟩ => show win3_5.index t (1 : Fin 2) * 128 + 1 * j.val = j.val; omega
/-- Window 6's block at any point is its whole matrix. -/
theorem matD_apply (c : Dev nD) (t : Fin cfg3.N) (k j : Fin 128) :
    (iblk3 V c 6 t : Vec Ideal S128x128 .f32) (ix2 k j) = (V c main_v365 : Vec Ideal S128x128 .f32) (ix2 k j) := by
  obtain ⟨ea, eb⟩ := idx_matD t
  unfold iblk3
  rw [View.read_apply]
  show (V c main_v365 : Vec Ideal S128x128 .f32) (((cfg3.win 6).blk t).view.emb (ix2 k j)) = _
  refine congrArg (V c main_v365 : Vec Ideal S128x128 .f32) ?_
  funext a
  apply Fin.ext
  match a with
  | ⟨0, _⟩ => show win3_6.index t (0 : Fin 2) * 128 + 1 * k.val = k.val; omega
  | ⟨1, _⟩ => show win3_6.index t (1 : Fin 2) * 128 + 1 * j.val = j.val; omega
/-- Window 7's block at any point is its whole vector. -/
theorem vecA_apply (c : Dev nD) (t : Fin cfg3.N) (j : Fin 128) :
    (iblk3 V c 7 t : Vec Ideal S128 .f32) (ix1 j) = (V c main_v367 : Vec Ideal S128 .f32) (ix1 j) := by
  have ea := idx_vecA t
  unfold iblk3
  rw [View.read_apply]
  show (V c main_v367 : Vec Ideal S128 .f32) (((cfg3.win 7).blk t).view.emb (ix1 j)) = _
  refine congrArg (V c main_v367 : Vec Ideal S128 .f32) ?_
  funext a
  apply Fin.ext
  match a with
  | ⟨0, _⟩ => show win3_7.index t (0 : Fin 1) * 128 + 1 * j.val = j.val; omega
/-- Window 8's block at any point is its whole vector. -/
theorem vecB_apply (c : Dev nD) (t : Fin cfg3.N) (j : Fin 128) :
    (iblk3 V c 8 t : Vec Ideal S128 .f32) (ix1 j) = (V c main_v369 : Vec Ideal S128 .f32) (ix1 j) := by
  have ea := idx_vecB t
  unfold iblk3
  rw [View.read_apply]
  show (V c main_v369 : Vec Ideal S128 .f32) (((cfg3.win 8).blk t).view.emb (ix1 j)) = _
  refine congrArg (V c main_v369 : Vec Ideal S128 .f32) ?_
  funext a
  apply Fin.ext
  match a with
  | ⟨0, _⟩ => show win3_8.index t (0 : Fin 1) * 128 + 1 * j.val = j.val; omega
/-- Window 9's block at any point is its whole vector. -/
theorem vecC_apply (c : Dev nD) (t : Fin cfg3.N) (j : Fin 128) :
    (iblk3 V c 9 t : Vec Ideal S128 .f32) (ix1 j) = (V c main_v371 : Vec Ideal S128 .f32) (ix1 j) := by
  have ea := idx_vecC t
  unfold iblk3
  rw [View.read_apply]
  show (V c main_v371 : Vec Ideal S128 .f32) (((cfg3.win 9).blk t).view.emb (ix1 j)) = _
  refine congrArg (V c main_v371 : Vec Ideal S128 .f32) ?_
  funext a
  apply Fin.ext
  match a with
  | ⟨0, _⟩ => show win3_9.index t (0 : Fin 1) * 128 + 1 * j.val = j.val; omega
/-- Window 10's block at any point is its whole vector. -/
theorem vecD_apply (c : Dev nD) (t : Fin cfg3.N) (j : Fin 128) :
    (iblk3 V c 10 t : Vec Ideal S128 .f32) (ix1 j) = (V c main_v373 : Vec Ideal S128 .f32) (ix1 j) := by
  have ea := idx_vecD t
  unfold iblk3
  rw [View.read_apply]
  show (V c main_v373 : Vec Ideal S128 .f32) (((cfg3.win 10).blk t).view.emb (ix1 j)) = _
  refine congrArg (V c main_v373 : Vec Ideal S128 .f32) ?_
  funext a
  apply Fin.ext
  match a with
  | ⟨0, _⟩ => show win3_10.index t (0 : Fin 1) * 128 + 1 * j.val = j.val; omega

/-- Element (p, q) of the output's block at point t sits at row t * 4000 + p, lane q of the array. -/
theorem out_emb (t : Fin cfg3.N) (p : Fin 4000) (q : Fin 128) :
    (((cfg3.win 11).blk t).view.emb (ix2 p q) : S100000x128.Idx) = ix2 (rowOf t p) q := by
  obtain ⟨ea, eb⟩ := idx_out t
  funext a
  apply Fin.ext
  match a with
  | ⟨0, _⟩ => show win3_11.index t (0 : Fin 2) * 4000 + 1 * p.val = t.val * 4000 + p.val; omega
  | ⟨1, _⟩ => show win3_11.index t (1 : Fin 2) * 128 + 1 * q.val = q.val; omega

/-- An array read through the output's block at point t, at element (p, q), is the array at row t * 4000 + p, lane q. -/
theorem out_read (G : Vec Ideal S100000x128 .f32) (t : Fin cfg3.N) (p : Fin 4000) (q : Fin 128) :
    ((cfg3.win 11).blk t).view.read (Elt Ideal) G (ix2 p q) = G (ix2 (rowOf t p) q) := by
  rw [View.read_apply]
  show G (((cfg3.win 11).blk t).view.emb (ix2 p q)) = _
  exact congrArg G (out_emb t p q)

/-- What point t writes back is block t of the result array. -/
theorem flushed_eq (hbody : Body3) (c : Dev nD) (t : Fin cfg3.N) :
    (dat3 (F := Ideal) V c).flushed 11 t
      = ((cfg3.win 11).blk t).view.read (Elt Ideal) (result (V c main_v265) (V c main_v311) (V c main_v177) (V c main_v359) (V c main_v361) (V c main_v363) (V c main_v365) (V c main_v367) (V c main_v369) (V c main_v371) (V c main_v373)) := by
  show (cfg3.win 11).cut (grid3.coords t) ((dat3 V c).after 11 t) = _
  rw [after3_11]
  unfold out3_11
  rw [View.canon_unit_zero zeros_two]
  simp only [View.ld_unit_zero (S := S4000x128) zeros_two, View.ld_unit_zero (S := S128x128) zeros_two, View.ld_unit_zero (S := S128) zeros_one]
  funext y
  obtain ⟨p, q, rfl⟩ : ∃ (p : Fin 4000) (q : Fin 128), y = ix2 p q := ⟨y 0, y 1, eq_ix2 y⟩
  refine (hbody (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) p q).trans ?_
  refine Eq.trans ?_ (out_read (result (V c main_v265) (V c main_v311) (V c main_v177) (V c main_v359) (V c main_v361) (V c main_v363) (V c main_v365) (V c main_v367) (V c main_v369) (V c main_v371) (V c main_v373)) t p q).symm
  refine Eq.trans ?_ (result_apply (V c main_v265) (V c main_v311) (V c main_v177) (V c main_v359) (V c main_v361) (V c main_v363) (V c main_v365) (V c main_v367) (V c main_v369) (V c main_v371) (V c main_v373) (rowOf t p) q).symm
  exact row_congr (funext fun k => rowsA_apply V c t p k) (funext fun k => rowsB_apply V c t p k) (funext fun k => rowsC_apply V c t p k)
    (funext fun k => funext fun j => matA_apply V c t k j) (funext fun k => funext fun j => matB_apply V c t k j)
    (funext fun k => funext fun j => matC_apply V c t k j) (funext fun k => funext fun j => matD_apply V c t k j)
    (funext fun j => vecA_apply V c t j) (funext fun j => vecB_apply V c t j) (funext fun j => vecC_apply V c t j)
    (funext fun j => vecD_apply V c t j) q

/-- An index of the array is in point t's block iff each coordinate is in the block's range on its axis. -/
theorem mem_blk (t : Fin cfg3.N) (i : S100000x128.Idx) :
    i ∈ ((cfg3.win 11).blk t).view.set ↔ ∀ a : Fin 2, win3_11.index t a * S4000x128.size a ≤ (i a).val ∧ (i a).val < win3_11.index t a * S4000x128.size a + S4000x128.size a := by
  show i ∈ ((View.whole (Pipeline.arrRef spec3 11)).slice (win3_11.rect t)).set ↔ _
  rw [View.set_slice_whole, Rect.mem_set_unit]
  exact Iff.rfl

/-- Every index of the array is in the block of the point its row falls in. -/
theorem cover (i : S100000x128.Idx) : ∃ t : Fin cfg3.N, (cfg3.win 11).flush t = true ∧ i ∈ ((cfg3.win 11).blk t).view.set := by
  have hi0 : (i 0).val < 100000 := (i 0).isLt
  have hi1 : (i 1).val < 128 := (i 1).isLt
  have hN := rows_eq
  obtain ⟨t, ht⟩ : ∃ t : Fin cfg3.N, t.val = (i 0).val / 4000 := ⟨⟨(i 0).val / 4000, by omega⟩, rfl⟩
  obtain ⟨ea, eb⟩ := idx_out t
  refine ⟨t, flush3_11 t, ?_⟩
  rw [mem_blk]
  intro a
  match a with
  | ⟨0, _⟩ => show win3_11.index t (0 : Fin 2) * 4000 ≤ (i 0).val ∧ (i 0).val < win3_11.index t (0 : Fin 2) * 4000 + 4000; omega
  | ⟨1, _⟩ => show win3_11.index t (1 : Fin 2) * 128 ≤ (i 1).val ∧ (i 1).val < win3_11.index t (1 : Fin 2) * 128 + 128; omega

/-- After the region the output array is the result array. -/
theorem final (hbody : Body3) (c : Dev nD) :
    (dat3 (F := Ideal) V c).arrAt 11 cfg3.N = result (V c main_v265) (V c main_v311) (V c main_v177) (V c main_v359) (V c main_v361) (V c main_v363) (V c main_v365) (V c main_v367) (V c main_v369) (V c main_v371) (V c main_v373) :=
  (dat3 (F := Ideal) V c).arrAt_eq_of_cover 11 (result (V c main_v265) (V c main_v311) (V c main_v177) (V c main_v359) (V c main_v361) (V c main_v363) (V c main_v365) (V c main_v367) (V c main_v369) (V c main_v371) (V c main_v373))
    (fun t _ => flushed_eq V hbody c t) cover

end Reg3

/-- After region 3 its output array holds, at every row, the row formula of that row of the three row arrays. -/
theorem region3_apply (hbody : Body3)
    (V : (c : Dev nD) → (b : Ref sig .tc) → Buf (Elt Ideal) ((c : Thread nD τ).loc b)) (c : Dev nD) (i : Fin 100000) (j : Fin 128) :
    ((dat3 (F := Ideal) V c).arrAt 11 cfg3.N : Vec Ideal S100000x128 .f32) (ix2 i j)
      = Cert.Spec.row (fun k => (V c main_v265 : Vec Ideal S100000x128 .f32) (ix2 i k)) (fun k => (V c main_v311 : Vec Ideal S100000x128 .f32) (ix2 i k))
          (fun k => (V c main_v177 : Vec Ideal S100000x128 .f32) (ix2 i k))
          (fun k j => (V c main_v359 : Vec Ideal S128x128 .f32) (ix2 k j)) (fun k j => (V c main_v361 : Vec Ideal S128x128 .f32) (ix2 k j))
          (fun k j => (V c main_v363 : Vec Ideal S128x128 .f32) (ix2 k j)) (fun k j => (V c main_v365 : Vec Ideal S128x128 .f32) (ix2 k j))
          (fun j => (V c main_v367 : Vec Ideal S128 .f32) (ix1 j)) (fun j => (V c main_v369 : Vec Ideal S128 .f32) (ix1 j))
          (fun j => (V c main_v371 : Vec Ideal S128 .f32) (ix1 j)) (fun j => (V c main_v373 : Vec Ideal S128 .f32) (ix1 j)) j :=
  (congrFun (Reg3.final V hbody c) (ix2 i j)).trans
    (Reg3.result_apply (V c main_v265) (V c main_v311) (V c main_v177) (V c main_v359) (V c main_v361) (V c main_v363) (V c main_v365) (V c main_v367) (V c main_v369) (V c main_v371) (V c main_v373) i j)

end Cert.KernelIdeal.Val

end
-- ==== Proof.LibKeepdims.lean ====
/-
  Keepdims forms read at an index, and a lane sum as a plain sum.

  A row-wise reduction with `keepdims=True` leaves a vector [a] that is cast to a column [a, 1] and then broadcast
  across the columns to [a, b]; or, for the other operand of an outer sum, cast to a column [b, 1], transposed to a
  row [1, b] and broadcast down the rows to [a, b]. Read at (p, q) the first is the vector at p and the second the
  vector at q. A `[1, b]` block cast to itself and broadcast down the rows reads its one row at q. And at the
  ideal values a sum along the lanes of an [a, b] array, read at row p, is the plain sum over the row.
  All for any extents.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LibKeepdims

open Idealize.ShloMosaic Idealize.ShloMosaic.ValueIdx

variable {α : Type}

/-- A vector [a] as a column [a, 1] broadcast across the columns of [a, b]: at (p, q), the vector at p. -/
theorem column_broadcast_apply {a b : ℕ} (v : (⟨1, ![a]⟩ : Shape).Idx → α)
    (h₁ : (⟨1, ![a]⟩ : Shape).ShapeCasts ⟨2, ![a, 1]⟩) (h₂ : (⟨2, ![a, 1]⟩ : Shape).Broadcasts ⟨2, ![a, b]⟩)
    (p : Fin a) (q : Fin b) :
    broadcastTo ⟨2, ![a, b]⟩ (shapeCast ⟨2, ![a, 1]⟩ v h₁) h₂ (ix2 p q) = v (ix1 p) := by
  refine (broadcastTo_apply _ h₂ (ix2 p q) (ix2 p (0 : Fin 1)) fun ax => ?_).trans
    (shapeCast_apply v h₁ _ _ ?_)
  · match ax with
    | ⟨0, _⟩ =>
      show p.val = if a = 1 then 0 else p.val
      split
      · have := p.isLt; omega
      · rfl
    | ⟨1, _⟩ => rfl
  · rw [Shape.rowMajor_val_one, Shape.rowMajor_val_two]
    show p.val = p.val * 1 + 0
    omega

/-- A vector [b] as a column [b, 1], transposed to a row [1, b] and broadcast down the rows of [a, b]: at (p, q),
    the vector at q. -/
theorem row_of_column_broadcast_apply {a b : ℕ} (v : (⟨1, ![b]⟩ : Shape).Idx → α)
    (h₁ : (⟨1, ![b]⟩ : Shape).ShapeCasts ⟨2, ![b, 1]⟩) (h₃ : (⟨2, ![b, 1]⟩ : Shape).Transposes [1, 0] ⟨2, ![1, b]⟩)
    (h₂ : (⟨2, ![1, b]⟩ : Shape).Broadcasts ⟨2, ![a, b]⟩) (p : Fin a) (q : Fin b) :
    broadcastTo ⟨2, ![a, b]⟩ (transpose ⟨2, ![1, b]⟩ [1, 0] (shapeCast ⟨2, ![b, 1]⟩ v h₁) h₃) h₂ (ix2 p q) = v (ix1 q) := by
  refine (broadcastTo_1b_ab_apply _ h₂ p q).trans ((transpose_ix2_apply _ h₃ (0 : Fin 1) q).trans
    (shapeCast_apply v h₁ _ _ ?_))
  rw [Shape.rowMajor_val_one, Shape.rowMajor_val_two]
  show q.val = q.val * 1 + 0
  omega

/-- A [1, b] block cast to its own shape and broadcast down the rows of [a, b]: at (p, q), its one row at q. -/
theorem row_broadcast_apply {a b : ℕ} (v : (⟨2, ![1, b]⟩ : Shape).Idx → α)
    (h₁ : (⟨2, ![1, b]⟩ : Shape).ShapeCasts ⟨2, ![1, b]⟩) (h₂ : (⟨2, ![1, b]⟩ : Shape).Broadcasts ⟨2, ![a, b]⟩)
    (p : Fin a) (q : Fin b) :
    broadcastTo ⟨2, ![a, b]⟩ (shapeCast ⟨2, ![1, b]⟩ v h₁) h₂ (ix2 p q) = v (ix2 (0 : Fin 1) q) :=
  (broadcastTo_1b_ab_apply _ h₂ p q).trans (congrFun (shapeCast_self v h₁) _)

/-- At the ideal values the sum along the lanes of an [a, b] array from the zero pattern, read at row p, is the
    sum of the row. -/
theorem lane_sum_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec (FTy.bits .f32)) = FKind.add.neutral .f32 hφ) (p : Fin a) :
    multiReduction (F := Ideal) .add [1] ⟨1, ![a]⟩ src 0x00000000#32 h hφ hacc (ix1 p) = ∑ k : Fin b, src (ix2 p k) :=
  (Ideal.multiReduction_add_single src _ h hφ hacc (ix1 p)).trans
    (Finset.sum_congr rfl fun k _ => congrArg src
      (funext fun ax => Fin.ext (by match ax with | ⟨0, _⟩ => rfl | ⟨1, _⟩ => rfl)))

end Cert.LibKeepdims

end
-- ==== Proof.KBody3.lean ====
/-
  The kernel body's value at an index, for blocks of 4000 rows.

  For a block of 4000 rows of 128 features the body forms the two relations' outputs (four products of the block's
  rows with 128 × 128 weight matrices into zero accumulators, two bias rows, all summed), halves the sum, normalises
  each row along its 128 lanes (mean and variance as lane sums divided by 128, the variance shifted by a small
  constant before the reciprocal square root), scales and shifts per feature, and clips below at zero. Read at row p
  and feature q, that is the row formula `Cert.Spec.row` of the three input rows at p.
-/
import proofs.«159317_j31121333027532_1_alg».proof.Proof.Gen.KernelIdeal.Skeleton
import proofs.«159317_j31121333027532_1_alg».proof.Proof.Spec
import proofs.«159317_j31121333027532_1_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Val

open Cert.KernelIdeal Cert.KernelIdeal.Gen Idealize.ShloMosaic Idealize.ShloMosaic.ValueIdx

/-! ## A product of a block of rows with a square matrix, read at an index -/

/-- The left operand's index at output row `i 0`: its row coordinate. -/
theorem k3_lhs_0 (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
/-- Its column coordinate is the contraction index. -/
theorem k3_lhs_1 (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q
/-- The right operand's row coordinate is the contraction index. -/
theorem k3_rhs_0 (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q
/-- Its column coordinate is the output's. -/
theorem k3_rhs_1 (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- Into the zero accumulator the product at (p, q) is the sum over k of the left operand at (p, k) times the right
    at (k, q). -/
theorem k3_matmul_apply (a : FVec Ideal S4000x128 .bf16) (w : FVec Ideal S128x128 .bf16) (p : Fin 4000) (q : Fin 128) :
    matmul dot_S4000x128_S128x128_S4000x128_1_0_0_1_n_n none a w (constant (F := Ideal) S4000x128 .f32 0x00000000#32) (ix2 p q)
      = ∑ k : Fin 128, a (ix2 p k) * w (ix2 k q) := by
  refine (Ideal.matmul_constant_zero_apply dot_S4000x128_S128x128_S4000x128_1_0_0_1_n_n none a w (ix2 p q)).trans ?_
  rw [← Equiv.sum_comp (contrEquiv1 dot_S4000x128_S128x128_S4000x128_1_0_0_1_n_n 128 rfl rfl).symm]
  refine Finset.sum_congr rfl fun k _ => ?_
  have hk := contrEquiv1_symm_val dot_S4000x128_S128x128_S4000x128_1_0_0_1_n_n 128 rfl rfl k
  have el : dot_S4000x128_S128x128_S4000x128_1_0_0_1_n_n.lhsIdx (ix2 p q) ((contrEquiv1 dot_S4000x128_S128x128_S4000x128_1_0_0_1_n_n 128 rfl rfl).symm k) = ix2 p k := funext fun a => Fin.ext (by
    match a with
    | ⟨0, _⟩ => exact k3_lhs_0 _ _
    | ⟨1, _⟩ => exact (k3_lhs_1 _ _).trans hk)
  have er : dot_S4000x128_S128x128_S4000x128_1_0_0_1_n_n.rhsIdx (ix2 p q) ((contrEquiv1 dot_S4000x128_S128x128_S4000x128_1_0_0_1_n_n 128 rfl rfl).symm k) = ix2 k q := funext fun a => Fin.ext (by
    match a with
    | ⟨0, _⟩ => exact (k3_rhs_0 _ _).trans hk
    | ⟨1, _⟩ => exact k3_rhs_1 _ _)
  rw [el, er]

/-! ## The layout operations of the payloads, read at an index -/

/-- A block of rows cast to its own shape reads the block. -/
theorem k3_cast_rows_apply (v : FVec Ideal S4000x128 .f32) (i : S4000x128.Idx) :
    shapeCast S4000x128 v shapeCasts_S4000x128_S4000x128 i = v i :=
  congrFun (shapeCast_self v shapeCasts_S4000x128_S4000x128) i

/-- A square matrix cast to its own shape reads the matrix. -/
theorem k3_cast_sq_apply (v : FVec Ideal S128x128 .f32) (i : S128x128.Idx) :
    shapeCast S128x128 v shapeCasts_S128x128_S128x128 i = v i :=
  congrFun (shapeCast_self v shapeCasts_S128x128_S128x128) i

/-- A feature vector cast to itself, then to a row [1, 128], and broadcast down the rows: at (p, q), the vector at q. -/
theorem k3_row_apply (v : FVec Ideal S128 .f32) (p : Fin 4000) (q : Fin 128) :
    broadcastTo S4000x128 (shapeCast S1x128 (shapeCast S128 v shapeCasts_S128_S128) shapeCasts_S128_S1x128)
      broadcasts_S1x128_S4000x128 (ix2 p q) = v (ix1 q) := by
  refine (broadcastTo_1b_ab_apply _ broadcasts_S1x128_S4000x128 p q).trans ?_
  refine (shapeCast_a_1a_apply _ shapeCasts_S128_S1x128 (0 : Fin 1) q).trans ?_
  exact congrFun (shapeCast_self v shapeCasts_S128_S128) _

/-- A column [4000, 1] broadcast across the lanes: at (p, q), the column at p. -/
theorem k3_col_apply (w : FVec Ideal S4000x1 .f32) (p : Fin 4000) (q : Fin 128) :
    broadcastTo S4000x128 w broadcasts_S4000x1_S4000x128 (ix2 p q) = w (ix2 p (0 : Fin 1)) := by
  refine broadcastTo_apply w broadcasts_S4000x1_S4000x128 (ix2 p q) (ix2 p (0 : Fin 1)) fun ax => ?_
  match ax with
  | ⟨0, _⟩ =>
    show p.val = if (4000 : ℕ) = 1 then 0 else p.val
    exact (if_neg (by decide)).symm
  | ⟨1, _⟩ => rfl

/-- A vector [4000] cast to a column [4000, 1]: at (p, 0), the vector at p. -/
theorem k3_colcast_apply (v : FVec Ideal S4000 .f32) (p : Fin 4000) :
    shapeCast S4000x1 v shapeCasts_S4000_S4000x1 (ix2 p (0 : Fin 1)) = v (ix1 p) := by
  refine shapeCast_apply v shapeCasts_S4000_S4000x1 _ _ ?_
  rw [Shape.rowMajor_val_one, Shape.rowMajor_val_two]
  show p.val = p.val * 1 + 0
  omega

/-- The sum along the lanes from the zero pattern, read at row p, is the sum of the row. -/
theorem k3_lane_sum_apply (src : FVec Ideal S4000x128 .f32) (hφ : FKind.Formats .f32)
    (hacc : @Eq (BitVec (FTy.bits .f32)) 0x00000000#32 0x00000000#32) (p : Fin 4000) :
    multiReduction (F := Ideal) .add ([1] : List (Fin 2)) S4000 src 0x00000000#32 reduces_S4000x128_S4000 hφ hacc (ix1 p)
      = ∑ k : Fin 128, src (ix2 p k) :=
  Cert.LibKeepdims.lane_sum_apply src reduces_S4000x128_S4000 hφ hacc p

/-- A reciprocal square root at an index is that of the element. -/
theorem k3_rsqrt_apply {s : Shape} (a : FVec Ideal s .f32) (i : s.Idx) : rsqrt a i = Ideal.rsqrt (a i) := rfl

/-! ## The two payloads at an index -/

/-- The sum of the two relations' outputs at (p, q). -/
theorem k3_pay2_apply (x0 x1 x2 : Vec Ideal S4000x128 .f32) (x3 x4 x5 x6 : Vec Ideal S128x128 .f32) (x7 x8 : Vec Ideal S128 .f32)
    (p : Fin 4000) (q : Fin 128) :
    k3_pay2 (F := Ideal) x0 x1 x2 x3 x4 x5 x6 x7 x8 (ix2 p q)
      = Cert.Spec.sage (fun k => x0 (ix2 p k)) (fun k => x2 (ix2 p k)) (fun k j => x3 (ix2 k j)) (fun k j => x5 (ix2 k j))
          (fun j => x7 (ix1 j)) q
        + Cert.Spec.sage (fun k => x1 (ix2 p k)) (fun k => x2 (ix2 p k)) (fun k j => x4 (ix2 k j)) (fun k j => x6 (ix2 k j))
          (fun j => x8 (ix1 j)) q := by
  unfold k3_pay2
  simp only [addf_apply, k3_matmul_apply, k3_row_apply, truncf_apply, k3_cast_rows_apply, k3_cast_sq_apply]
  rfl

/-- The halved, normalised, scaled, shifted and clipped row at (p, q). -/
theorem k3_pay1_apply (o : FVec Ideal S4000x128 .f32) (g b : Vec Ideal S128 .f32) (p : Fin 4000) (q : Fin 128) :
    k3_pay1 (F := Ideal) o (Scalar.ofBits .f32 0x3F000000#32) g b (ix2 p q)
      = Cert.Spec.lnrelu (fun j => o (ix2 p j)) (fun j => g (ix1 j)) (fun j => b (ix1 j)) q := by
  unfold k3_pay1
  simp only [maximumf_apply, addf_apply, mulf_apply, subf_apply, divf_apply, broadcast_apply, k3_rsqrt_apply, k3_row_apply,
    k3_col_apply, k3_colcast_apply, k3_lane_sum_apply]
  rfl

/-- The kernel body's value at (p, q) is the row formula of the three rows at p. -/
theorem body3_apply (x0 x1 x2 : Vec Ideal S4000x128 .f32) (x3 x4 x5 x6 : Vec Ideal S128x128 .f32) (x7 x8 x9 x10 : Vec Ideal S128 .f32)
    (p : Fin 4000) (q : Fin 128) :
    k3_pay1 (F := Ideal) (k3_pay2 (F := Ideal) x0 x1 x2 x3 x4 x5 x6 x7 x8) (Scalar.ofBits .f32 0x3F000000#32) x9 x10 (ix2 p q)
      = Cert.Spec.row (fun k => x0 (ix2 p k)) (fun k => x1 (ix2 p k)) (fun k => x2 (ix2 p k))
          (fun k j => x3 (ix2 k j)) (fun k j => x4 (ix2 k j)) (fun k j => x5 (ix2 k j)) (fun k j => x6 (ix2 k j))
          (fun j => x7 (ix1 j)) (fun j => x8 (ix1 j)) (fun j => x9 (ix1 j)) (fun j => x10 (ix1 j)) q := by
  refine (k3_pay1_apply _ x9 x10 p q).trans ?_
  unfold Cert.Spec.row
  exact congrArg (fun o => Cert.Spec.lnrelu o (fun j => x9 (ix1 j)) (fun j => x10 (ix1 j)) q)
    (funext fun j => k3_pay2_apply x0 x1 x2 x3 x4 x5 x6 x7 x8 p j)

end Cert.KernelIdeal.Val

end
-- ==== Proof.KKeeps.lean ====
import proofs.«159317_j31121333027532_1_alg».proof.Proof.Gen.KernelIdeal.Launch
import Idealize.ShloMosaic.Lib.StableHlo.Run

set_option maxRecDepth 16384

noncomputable section

namespace Cert.KernelIdeal.Keeps

open Cert.KernelIdeal Cert.KernelIdeal.Gen Idealize.ShloMosaic Idealize.ShloMosaic.TcCoe Idealize.SL.Sem

variable {F : FTy → Type} [FloatOps F]

/-- The buffers the host stretch 0 writes. -/
abbrev hostOps0_W : List (Ref sig .tc) := [main_v0, main_v1, main_v2, main_v3, main_v4, main_v5, main_v6, main_v7, main_v8, main_v9, main_v10, main_v11, main_v12, main_v13, main_v14, main_v15, main_v16, main_v17, main_v18, main_v19, main_v20, main_v21, main_v22, main_v23, main_v24, main_v25, main_v26, main_c, main_v27, main_v28, main_c_0, main_v29, main_v30, main_v31, main_v32, main_v33, main_cst, main_v34, main_v35, main_v36, main_cst_1, main_v37, main_cst_2, main_v38, main_v39, main_v40, main_cst_3, main_v41, main_v42, main_v43, main_v44, main_v45, main_v46, main_v47, main_v48, main_v49, main_c_4, main_v50, main_v51, main_c_5, main_v52, main_v53, main_v54, main_v55, main_v56, main_cst_6, main_v57, main_v58, main_v59, main_cst_7, main_v60, main_cst_8, main_v61, main_v62, main_v63, main_cst_9, main_v64, main_v65, main_v66, main_v67, main_v68, main_v69, main_v70, main_v71, main_v72, main_c_10, main_v73, main_v74, main_c_11, main_v75, main_v76, main_v77, main_v78, main_v79, main_cst_12, main_v80, main_v81, main_v82, main_cst_13, main_v83, main_cst_14, main_v84, main_v85, main_v86, main_cst_15, main_v87, main_v88, main_v89, main_v90, main_v91, main_v92, main_v93, main_v94, main_v95, main_c_16, main_v96, main_v97, main_c_17, main_v98, main_v99, main_v100, main_v101, main_v102, main_cst_18, main_v103, main_v104, main_v105, main_cst_19, main_v106, main_cst_20, main_v107, main_v108, main_v109, main_cst_21, main_v110, main_v111, main_v112, main_v113, main_v114, main_v115, main_v116, main_v117, main_v118, main_c_22, main_v119, main_v120, main_c_23, main_v121, main_v122, main_v123, main_v124, main_v125, main_cst_24, main_v126, main_v127, main_v128, main_cst_25, main_v129, main_cst_26, main_v130, main_v131, main_v132, main_cst_27, main_v133, main_v134, main_v135, main_v136, main_v137, main_v138, main_v139, main_v140, main_v141, main_c_28, main_v142, main_v143, main_c_29, main_v144, main_v145, main_v146, main_v147, main_v148, main_cst_30, main_v149, main_v150, main_v151, main_cst_31, main_v152, main_cst_32, main_v153, main_v154, main_v155, main_cst_33, main_v156, main_v157, main_v158, main_v159, main_v160, main_v161, main_v162, main_v163, main_v164, main_v165, main_v166, main_v167, main_v168, main_v169, main_v170, main_v171, main_v172, main_v173, main_v174, main_v175, main_v176]
set_option maxHeartbeats 4000000 in
theorem hostOps0_writes : (hostOps0 : List (HloOp τ sig (Elt F))).Forall fun op => op.writes ⊆ (hostOps0_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide)⟩
/-- A buffer the stretch does not write keeps its contents, from any contents. -/
theorem hostOps0_keep (V : Valuation τ sig (Elt F)) (r : Ref sig .tc) (h : r ∉ (hostOps0_W : List (Ref sig .tc))) :
    StableHlo.after hostOps0 V (Proc.devRef .tc r) = V (Proc.devRef .tc r) :=
  StableHlo.after_of_writes_sub hostOps0 _ hostOps0_writes h

/-- The buffers the host stretch 1 writes. -/
abbrev hostOps1_W : List (Ref sig .tc) := [main_v178, main_v179, main_v180, main_v181, main_v182, main_v183, main_v184, main_v185, main_v186, main_v187, main_v188, main_v189, main_v190, main_v191, main_v192, main_v193]
set_option maxHeartbeats 4000000 in
theorem hostOps1_writes : (hostOps1 : List (HloOp τ sig (Elt F))).Forall fun op => op.writes ⊆ (hostOps1_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide)⟩
/-- A buffer the stretch does not write keeps its contents, from any contents. -/
theorem hostOps1_keep (V : Valuation τ sig (Elt F)) (r : Ref sig .tc) (h : r ∉ (hostOps1_W : List (Ref sig .tc))) :
    StableHlo.after hostOps1 V (Proc.devRef .tc r) = V (Proc.devRef .tc r) :=
  StableHlo.after_of_writes_sub hostOps1 _ hostOps1_writes h

/-- The buffers the host stretch 2 writes. -/
abbrev hostOps2_W : List (Ref sig .tc) := [main_v195, main_v196, main_v197, main_v198, main_v199, main_v200, main_v201, main_v202, main_v203, main_v204, main_v205, main_v206, main_v207, main_v208, main_v209, main_v210]
set_option maxHeartbeats 4000000 in
theorem hostOps2_writes : (hostOps2 : List (HloOp τ sig (Elt F))).Forall fun op => op.writes ⊆ (hostOps2_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide)⟩
/-- A buffer the stretch does not write keeps its contents, from any contents. -/
theorem hostOps2_keep (V : Valuation τ sig (Elt F)) (r : Ref sig .tc) (h : r ∉ (hostOps2_W : List (Ref sig .tc))) :
    StableHlo.after hostOps2 V (Proc.devRef .tc r) = V (Proc.devRef .tc r) :=
  StableHlo.after_of_writes_sub hostOps2 _ hostOps2_writes h

/-- The buffers the host stretch 3 writes. -/
abbrev hostOps3_W : List (Ref sig .tc) := [main_v212, main_v213, main_v214, main_v215, main_v216, main_v217, main_v218, main_v219, main_v220, main_v221, main_v222, main_v223, main_c_34, main_v224, main_v225, main_c_35, main_v226, main_v227, main_v228, main_v229, main_v230, main_cst_36, main_v231, main_v232, main_v233, main_cst_37, main_v234, main_cst_38, main_v235, main_v236, main_v237, main_cst_39, main_v238, main_v239, main_v240, main_v241, main_v242, main_v243, main_v244, main_v245, main_v246, main_c_40, main_v247, main_v248, main_c_41, main_v249, main_v250, main_v251, main_v252, main_v253, main_cst_42, main_v254, main_v255, main_v256, main_cst_43, main_v257, main_cst_44, main_v258, main_v259, main_v260, main_cst_45, main_v261, main_v262, main_v263, main_v264, main_v265, main_v266, main_v267, main_v268, main_v269, main_c_46, main_v270, main_v271, main_c_47, main_v272, main_v273, main_v274, main_v275, main_v276, main_cst_48, main_v277, main_v278, main_v279, main_cst_49, main_v280, main_cst_50, main_v281, main_v282, main_v283, main_cst_51, main_v284, main_v285, main_v286, main_v287, main_v288, main_v289, main_v290, main_v291, main_v292, main_c_52, main_v293, main_v294, main_c_53, main_v295, main_v296, main_v297, main_v298, main_v299, main_cst_54, main_v300, main_v301, main_v302, main_cst_55, main_v303, main_cst_56, main_v304, main_v305, main_v306, main_cst_57, main_v307, main_v308, main_v309, main_v310, main_v311, main_v312, main_v313, main_v314, main_v315, main_c_58, main_v316, main_v317, main_c_59, main_v318, main_v319, main_v320, main_v321, main_v322, main_cst_60, main_v323, main_v324, main_v325, main_cst_61, main_v326, main_cst_62, main_v327, main_v328, main_v329, main_cst_63, main_v330, main_v331, main_v332, main_v333, main_v334, main_v335, main_v336, main_v337, main_v338, main_c_64, main_v339, main_v340, main_c_65, main_v341, main_v342, main_v343, main_v344, main_v345, main_cst_66, main_v346, main_v347, main_v348, main_cst_67, main_v349, main_cst_68, main_v350, main_v351, main_v352, main_cst_69, main_v353, main_v354, main_v355, main_v356, main_v357, main_v358, main_v359, main_v360, main_v361, main_v362, main_v363, main_v364, main_v365, main_v366, main_v367, main_v368, main_v369, main_v370, main_v371, main_v372, main_v373]
set_option maxHeartbeats 4000000 in
theorem hostOps3_writes : (hostOps3 : List (HloOp τ sig (Elt F))).Forall fun op => op.writes ⊆ (hostOps3_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide)⟩
/-- A buffer the stretch does not write keeps its contents, from any contents. -/
theorem hostOps3_keep (V : Valuation τ sig (Elt F)) (r : Ref sig .tc) (h : r ∉ (hostOps3_W : List (Ref sig .tc))) :
    StableHlo.after hostOps3 V (Proc.devRef .tc r) = V (Proc.devRef .tc r) :=
  StableHlo.after_of_writes_sub hostOps3 _ hostOps3_writes h

/-- The buffers the host stretch 4 writes. -/
abbrev hostOps4_W : List (Ref sig .tc) := [main_v375, main_v376, main_v377, main_v378, main_v379, main_v380, main_v381, main_v382, main_v383, main_v384, main_v385, main_v386, main_v387, main_v388, main_v389, main_v390]
set_option maxHeartbeats 4000000 in
theorem hostOps4_writes : (hostOps4 : List (HloOp τ sig (Elt F))).Forall fun op => op.writes ⊆ (hostOps4_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide)⟩
/-- A buffer the stretch does not write keeps its contents, from any contents. -/
theorem hostOps4_keep (V : Valuation τ sig (Elt F)) (r : Ref sig .tc) (h : r ∉ (hostOps4_W : List (Ref sig .tc))) :
    StableHlo.after hostOps4 V (Proc.devRef .tc r) = V (Proc.devRef .tc r) :=
  StableHlo.after_of_writes_sub hostOps4 _ hostOps4_writes h

/-- The buffers the host stretch 5 writes. -/
abbrev hostOps5_W : List (Ref sig .tc) := [main_v392, main_v393, main_v394, main_v395, main_v396, main_v397, main_v398, main_v399, main_v400, main_v401, main_v402, main_v403, main_v404, main_v405, main_v406, main_v407]
set_option maxHeartbeats 4000000 in
theorem hostOps5_writes : (hostOps5 : List (HloOp τ sig (Elt F))).Forall fun op => op.writes ⊆ (hostOps5_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide)⟩
/-- A buffer the stretch does not write keeps its contents, from any contents. -/
theorem hostOps5_keep (V : Valuation τ sig (Elt F)) (r : Ref sig .tc) (h : r ∉ (hostOps5_W : List (Ref sig .tc))) :
    StableHlo.after hostOps5 V (Proc.devRef .tc r) = V (Proc.devRef .tc r) :=
  StableHlo.after_of_writes_sub hostOps5 _ hostOps5_writes h

end Cert.KernelIdeal.Keeps

end
-- ==== Proof.KCarry.lean ====
import proofs.«159317_j31121333027532_1_alg».proof.Proof.KKeeps
import proofs.«159317_j31121333027532_1_alg».proof.Proof.KIFrameRun

set_option maxRecDepth 16384

noncomputable section

namespace Cert.KernelIdeal.Carry

open Cert.KernelIdeal Cert.KernelIdeal.Gen Cert.KernelIdeal.GenP Idealize.ShloMosaic Idealize.ShloMosaic.TcCoe Idealize.SL.Sem

variable {F : FTy → Type} [FloatOps F]
variable (m : (ℓ : Loc nD τ sig) → Buf (Elt F) ℓ) (ρ : Dev nD → PrngReg) (c : Dev nD)

theorem carry_v9_1_3 : W3 m ρ c (Proc.devRef .tc main_v9) = W1 m ρ c (Proc.devRef .tc main_v9) :=
  (Cert.KernelIdeal.Keeps.hostOps1_keep (W2 m ρ c) main_v9 (by decide)).trans ((W2_of_ne m ρ c main_v9 (by decide)))
theorem carry_v14_1_5 : W5 m ρ c (Proc.devRef .tc main_v14) = W1 m ρ c (Proc.devRef .tc main_v14) :=
  (Cert.KernelIdeal.Keeps.hostOps2_keep (W4 m ρ c) main_v14 (by decide)).trans ((W4_of_ne m ρ c main_v14 (by decide)).trans ((Cert.KernelIdeal.Keeps.hostOps1_keep (W2 m ρ c) main_v14 (by decide)).trans ((W2_of_ne m ρ c main_v14 (by decide)))))
theorem carry_v45_1_3 : W3 m ρ c (Proc.devRef .tc main_v45) = W1 m ρ c (Proc.devRef .tc main_v45) :=
  (Cert.KernelIdeal.Keeps.hostOps1_keep (W2 m ρ c) main_v45 (by decide)).trans ((W2_of_ne m ρ c main_v45 (by decide)))
theorem carry_v160_1_3 : W3 m ρ c (Proc.devRef .tc main_v160) = W1 m ρ c (Proc.devRef .tc main_v160) :=
  (Cert.KernelIdeal.Keeps.hostOps1_keep (W2 m ρ c) main_v160 (by decide)).trans ((W2_of_ne m ρ c main_v160 (by decide)))
theorem carry_v91_1_5 : W5 m ρ c (Proc.devRef .tc main_v91) = W1 m ρ c (Proc.devRef .tc main_v91) :=
  (Cert.KernelIdeal.Keeps.hostOps2_keep (W4 m ρ c) main_v91 (by decide)).trans ((W4_of_ne m ρ c main_v91 (by decide)).trans ((Cert.KernelIdeal.Keeps.hostOps1_keep (W2 m ρ c) main_v91 (by decide)).trans ((W2_of_ne m ρ c main_v91 (by decide)))))
theorem carry_v137_1_5 : W5 m ρ c (Proc.devRef .tc main_v137) = W1 m ρ c (Proc.devRef .tc main_v137) :=
  (Cert.KernelIdeal.Keeps.hostOps2_keep (W4 m ρ c) main_v137 (by decide)).trans ((W4_of_ne m ρ c main_v137 (by decide)).trans ((Cert.KernelIdeal.Keeps.hostOps1_keep (W2 m ρ c) main_v137 (by decide)).trans ((W2_of_ne m ρ c main_v137 (by decide)))))
theorem carry_v21_1_2 : W2 m ρ c (Proc.devRef .tc main_v21) = W1 m ρ c (Proc.devRef .tc main_v21) :=
  (W2_of_ne m ρ c main_v21 (by decide))
theorem carry_v21_1_4 : W4 m ρ c (Proc.devRef .tc main_v21) = W1 m ρ c (Proc.devRef .tc main_v21) :=
  (W4_of_ne m ρ c main_v21 (by decide)).trans ((Cert.KernelIdeal.Keeps.hostOps1_keep (W2 m ρ c) main_v21 (by decide)).trans ((W2_of_ne m ρ c main_v21 (by decide))))
theorem carry_v22_1_2 : W2 m ρ c (Proc.devRef .tc main_v22) = W1 m ρ c (Proc.devRef .tc main_v22) :=
  (W2_of_ne m ρ c main_v22 (by decide))
theorem carry_v22_1_4 : W4 m ρ c (Proc.devRef .tc main_v22) = W1 m ρ c (Proc.devRef .tc main_v22) :=
  (W4_of_ne m ρ c main_v22 (by decide)).trans ((Cert.KernelIdeal.Keeps.hostOps1_keep (W2 m ρ c) main_v22 (by decide)).trans ((W2_of_ne m ρ c main_v22 (by decide))))
theorem carry_v18_1_2 : W2 m ρ c (Proc.devRef .tc main_v18) = W1 m ρ c (Proc.devRef .tc main_v18) :=
  (W2_of_ne m ρ c main_v18 (by decide))
theorem carry_v18_1_4 : W4 m ρ c (Proc.devRef .tc main_v18) = W1 m ρ c (Proc.devRef .tc main_v18) :=
  (W4_of_ne m ρ c main_v18 (by decide)).trans ((Cert.KernelIdeal.Keeps.hostOps1_keep (W2 m ρ c) main_v18 (by decide)).trans ((W2_of_ne m ρ c main_v18 (by decide))))
theorem carry_v177_2_6 : W6 m ρ c (Proc.devRef .tc main_v177) = W2 m ρ c (Proc.devRef .tc main_v177) :=
  (W6_of_ne m ρ c main_v177 (by decide)).trans ((Cert.KernelIdeal.Keeps.hostOps2_keep (W4 m ρ c) main_v177 (by decide)).trans ((W4_of_ne m ρ c main_v177 (by decide)).trans ((Cert.KernelIdeal.Keeps.hostOps1_keep (W2 m ρ c) main_v177 (by decide)))))
theorem carry_v177_2_7 : W7 m ρ c (Proc.devRef .tc main_v177) = W2 m ρ c (Proc.devRef .tc main_v177) :=
  (Cert.KernelIdeal.Keeps.hostOps3_keep (W6 m ρ c) main_v177 (by decide)).trans ((W6_of_ne m ρ c main_v177 (by decide)).trans ((Cert.KernelIdeal.Keeps.hostOps2_keep (W4 m ρ c) main_v177 (by decide)).trans ((W4_of_ne m ρ c main_v177 (by decide)).trans ((Cert.KernelIdeal.Keeps.hostOps1_keep (W2 m ρ c) main_v177 (by decide))))))
theorem carry_v194_4_6 : W6 m ρ c (Proc.devRef .tc main_v194) = W4 m ρ c (Proc.devRef .tc main_v194) :=
  (W6_of_ne m ρ c main_v194 (by decide)).trans ((Cert.KernelIdeal.Keeps.hostOps2_keep (W4 m ρ c) main_v194 (by decide)))
theorem carry_v194_4_9 : W9 m ρ c (Proc.devRef .tc main_v194) = W4 m ρ c (Proc.devRef .tc main_v194) :=
  (Cert.KernelIdeal.Keeps.hostOps4_keep (W8 m ρ c) main_v194 (by decide)).trans ((W8_of_ne m ρ c main_v194 (by decide)).trans ((Cert.KernelIdeal.Keeps.hostOps3_keep (W6 m ρ c) main_v194 (by decide)).trans ((W6_of_ne m ρ c main_v194 (by decide)).trans ((Cert.KernelIdeal.Keeps.hostOps2_keep (W4 m ρ c) main_v194 (by decide))))))
theorem carry_v211_6_11 : W11 m ρ c (Proc.devRef .tc main_v211) = W6 m ρ c (Proc.devRef .tc main_v211) :=
  (Cert.KernelIdeal.Keeps.hostOps5_keep (W10 m ρ c) main_v211 (by decide)).trans ((W10_of_ne m ρ c main_v211 (by decide)).trans ((Cert.KernelIdeal.Keeps.hostOps4_keep (W8 m ρ c) main_v211 (by decide)).trans ((W8_of_ne m ρ c main_v211 (by decide)).trans ((Cert.KernelIdeal.Keeps.hostOps3_keep (W6 m ρ c) main_v211 (by decide))))))
theorem carry_v242_7_9 : W9 m ρ c (Proc.devRef .tc main_v242) = W7 m ρ c (Proc.devRef .tc main_v242) :=
  (Cert.KernelIdeal.Keeps.hostOps4_keep (W8 m ρ c) main_v242 (by decide)).trans ((W8_of_ne m ρ c main_v242 (by decide)))
theorem carry_v357_7_9 : W9 m ρ c (Proc.devRef .tc main_v357) = W7 m ρ c (Proc.devRef .tc main_v357) :=
  (Cert.KernelIdeal.Keeps.hostOps4_keep (W8 m ρ c) main_v357 (by decide)).trans ((W8_of_ne m ρ c main_v357 (by decide)))
theorem carry_v288_7_11 : W11 m ρ c (Proc.devRef .tc main_v288) = W7 m ρ c (Proc.devRef .tc main_v288) :=
  (Cert.KernelIdeal.Keeps.hostOps5_keep (W10 m ρ c) main_v288 (by decide)).trans ((W10_of_ne m ρ c main_v288 (by decide)).trans ((Cert.KernelIdeal.Keeps.hostOps4_keep (W8 m ρ c) main_v288 (by decide)).trans ((W8_of_ne m ρ c main_v288 (by decide)))))
theorem carry_v334_7_11 : W11 m ρ c (Proc.devRef .tc main_v334) = W7 m ρ c (Proc.devRef .tc main_v334) :=
  (Cert.KernelIdeal.Keeps.hostOps5_keep (W10 m ρ c) main_v334 (by decide)).trans ((W10_of_ne m ρ c main_v334 (by decide)).trans ((Cert.KernelIdeal.Keeps.hostOps4_keep (W8 m ρ c) main_v334 (by decide)).trans ((W8_of_ne m ρ c main_v334 (by decide)))))
theorem carry_v218_7_8 : W8 m ρ c (Proc.devRef .tc main_v218) = W7 m ρ c (Proc.devRef .tc main_v218) :=
  (W8_of_ne m ρ c main_v218 (by decide))
theorem carry_v218_7_10 : W10 m ρ c (Proc.devRef .tc main_v218) = W7 m ρ c (Proc.devRef .tc main_v218) :=
  (W10_of_ne m ρ c main_v218 (by decide)).trans ((Cert.KernelIdeal.Keeps.hostOps4_keep (W8 m ρ c) main_v218 (by decide)).trans ((W8_of_ne m ρ c main_v218 (by decide))))
theorem carry_v219_7_8 : W8 m ρ c (Proc.devRef .tc main_v219) = W7 m ρ c (Proc.devRef .tc main_v219) :=
  (W8_of_ne m ρ c main_v219 (by decide))
theorem carry_v219_7_10 : W10 m ρ c (Proc.devRef .tc main_v219) = W7 m ρ c (Proc.devRef .tc main_v219) :=
  (W10_of_ne m ρ c main_v219 (by decide)).trans ((Cert.KernelIdeal.Keeps.hostOps4_keep (W8 m ρ c) main_v219 (by decide)).trans ((W8_of_ne m ρ c main_v219 (by decide))))
theorem carry_v215_7_8 : W8 m ρ c (Proc.devRef .tc main_v215) = W7 m ρ c (Proc.devRef .tc main_v215) :=
  (W8_of_ne m ρ c main_v215 (by decide))
theorem carry_v215_7_10 : W10 m ρ c (Proc.devRef .tc main_v215) = W7 m ρ c (Proc.devRef .tc main_v215) :=
  (W10_of_ne m ρ c main_v215 (by decide)).trans ((Cert.KernelIdeal.Keeps.hostOps4_keep (W8 m ρ c) main_v215 (by decide)).trans ((W8_of_ne m ρ c main_v215 (by decide))))
theorem carry_v374_8_12 : W12 m ρ c (Proc.devRef .tc main_v374) = W8 m ρ c (Proc.devRef .tc main_v374) :=
  (W12_of_ne m ρ c main_v374 (by decide)).trans ((Cert.KernelIdeal.Keeps.hostOps5_keep (W10 m ρ c) main_v374 (by decide)).trans ((W10_of_ne m ρ c main_v374 (by decide)).trans ((Cert.KernelIdeal.Keeps.hostOps4_keep (W8 m ρ c) main_v374 (by decide)))))
theorem carry_v391_10_12 : W12 m ρ c (Proc.devRef .tc main_v391) = W10 m ρ c (Proc.devRef .tc main_v391) :=
  (W12_of_ne m ρ c main_v391 (by decide)).trans ((Cert.KernelIdeal.Keeps.hostOps5_keep (W10 m ρ c) main_v391 (by decide)))

theorem W0_arg0 : W0 m ρ c (Proc.devRef .tc main_arg0) = m ((c : Thread nD τ).loc main_arg0) := rfl
theorem W1_arg0 : W1 m ρ c (Proc.devRef .tc main_arg0) = m ((c : Thread nD τ).loc main_arg0) :=
  (Cert.KernelIdeal.Keeps.hostOps0_keep (W0 m ρ c) main_arg0 (by decide)).trans (W0_arg0 m ρ c)
theorem W2_arg0 : W2 m ρ c (Proc.devRef .tc main_arg0) = m ((c : Thread nD τ).loc main_arg0) :=
  (W2_of_ne m ρ c main_arg0 (by decide)).trans (W1_arg0 m ρ c)
theorem W3_arg0 : W3 m ρ c (Proc.devRef .tc main_arg0) = m ((c : Thread nD τ).loc main_arg0) :=
  (Cert.KernelIdeal.Keeps.hostOps1_keep (W2 m ρ c) main_arg0 (by decide)).trans (W2_arg0 m ρ c)
theorem W4_arg0 : W4 m ρ c (Proc.devRef .tc main_arg0) = m ((c : Thread nD τ).loc main_arg0) :=
  (W4_of_ne m ρ c main_arg0 (by decide)).trans (W3_arg0 m ρ c)
theorem W5_arg0 : W5 m ρ c (Proc.devRef .tc main_arg0) = m ((c : Thread nD τ).loc main_arg0) :=
  (Cert.KernelIdeal.Keeps.hostOps2_keep (W4 m ρ c) main_arg0 (by decide)).trans (W4_arg0 m ρ c)
theorem W6_arg0 : W6 m ρ c (Proc.devRef .tc main_arg0) = m ((c : Thread nD τ).loc main_arg0) :=
  (W6_of_ne m ρ c main_arg0 (by decide)).trans (W5_arg0 m ρ c)
theorem W7_arg0 : W7 m ρ c (Proc.devRef .tc main_arg0) = m ((c : Thread nD τ).loc main_arg0) :=
  (Cert.KernelIdeal.Keeps.hostOps3_keep (W6 m ρ c) main_arg0 (by decide)).trans (W6_arg0 m ρ c)
theorem W8_arg0 : W8 m ρ c (Proc.devRef .tc main_arg0) = m ((c : Thread nD τ).loc main_arg0) :=
  (W8_of_ne m ρ c main_arg0 (by decide)).trans (W7_arg0 m ρ c)
theorem W9_arg0 : W9 m ρ c (Proc.devRef .tc main_arg0) = m ((c : Thread nD τ).loc main_arg0) :=
  (Cert.KernelIdeal.Keeps.hostOps4_keep (W8 m ρ c) main_arg0 (by decide)).trans (W8_arg0 m ρ c)
theorem W10_arg0 : W10 m ρ c (Proc.devRef .tc main_arg0) = m ((c : Thread nD τ).loc main_arg0) :=
  (W10_of_ne m ρ c main_arg0 (by decide)).trans (W9_arg0 m ρ c)
theorem W11_arg0 : W11 m ρ c (Proc.devRef .tc main_arg0) = m ((c : Thread nD τ).loc main_arg0) :=
  (Cert.KernelIdeal.Keeps.hostOps5_keep (W10 m ρ c) main_arg0 (by decide)).trans (W10_arg0 m ρ c)
theorem W12_arg0 : W12 m ρ c (Proc.devRef .tc main_arg0) = m ((c : Thread nD τ).loc main_arg0) :=
  (W12_of_ne m ρ c main_arg0 (by decide)).trans (W11_arg0 m ρ c)
theorem W0_arg1 : W0 m ρ c (Proc.devRef .tc main_arg1) = m ((c : Thread nD τ).loc main_arg1) := rfl
theorem W1_arg1 : W1 m ρ c (Proc.devRef .tc main_arg1) = m ((c : Thread nD τ).loc main_arg1) :=
  (Cert.KernelIdeal.Keeps.hostOps0_keep (W0 m ρ c) main_arg1 (by decide)).trans (W0_arg1 m ρ c)
theorem W2_arg1 : W2 m ρ c (Proc.devRef .tc main_arg1) = m ((c : Thread nD τ).loc main_arg1) :=
  (W2_of_ne m ρ c main_arg1 (by decide)).trans (W1_arg1 m ρ c)
theorem W3_arg1 : W3 m ρ c (Proc.devRef .tc main_arg1) = m ((c : Thread nD τ).loc main_arg1) :=
  (Cert.KernelIdeal.Keeps.hostOps1_keep (W2 m ρ c) main_arg1 (by decide)).trans (W2_arg1 m ρ c)
theorem W4_arg1 : W4 m ρ c (Proc.devRef .tc main_arg1) = m ((c : Thread nD τ).loc main_arg1) :=
  (W4_of_ne m ρ c main_arg1 (by decide)).trans (W3_arg1 m ρ c)
theorem W5_arg1 : W5 m ρ c (Proc.devRef .tc main_arg1) = m ((c : Thread nD τ).loc main_arg1) :=
  (Cert.KernelIdeal.Keeps.hostOps2_keep (W4 m ρ c) main_arg1 (by decide)).trans (W4_arg1 m ρ c)
theorem W6_arg1 : W6 m ρ c (Proc.devRef .tc main_arg1) = m ((c : Thread nD τ).loc main_arg1) :=
  (W6_of_ne m ρ c main_arg1 (by decide)).trans (W5_arg1 m ρ c)
theorem W7_arg1 : W7 m ρ c (Proc.devRef .tc main_arg1) = m ((c : Thread nD τ).loc main_arg1) :=
  (Cert.KernelIdeal.Keeps.hostOps3_keep (W6 m ρ c) main_arg1 (by decide)).trans (W6_arg1 m ρ c)
theorem W8_arg1 : W8 m ρ c (Proc.devRef .tc main_arg1) = m ((c : Thread nD τ).loc main_arg1) :=
  (W8_of_ne m ρ c main_arg1 (by decide)).trans (W7_arg1 m ρ c)
theorem W9_arg1 : W9 m ρ c (Proc.devRef .tc main_arg1) = m ((c : Thread nD τ).loc main_arg1) :=
  (Cert.KernelIdeal.Keeps.hostOps4_keep (W8 m ρ c) main_arg1 (by decide)).trans (W8_arg1 m ρ c)
theorem W10_arg1 : W10 m ρ c (Proc.devRef .tc main_arg1) = m ((c : Thread nD τ).loc main_arg1) :=
  (W10_of_ne m ρ c main_arg1 (by decide)).trans (W9_arg1 m ρ c)
theorem W11_arg1 : W11 m ρ c (Proc.devRef .tc main_arg1) = m ((c : Thread nD τ).loc main_arg1) :=
  (Cert.KernelIdeal.Keeps.hostOps5_keep (W10 m ρ c) main_arg1 (by decide)).trans (W10_arg1 m ρ c)
theorem W12_arg1 : W12 m ρ c (Proc.devRef .tc main_arg1) = m ((c : Thread nD τ).loc main_arg1) :=
  (W12_of_ne m ρ c main_arg1 (by decide)).trans (W11_arg1 m ρ c)
theorem W0_arg2 : W0 m ρ c (Proc.devRef .tc main_arg2) = m ((c : Thread nD τ).loc main_arg2) := rfl
theorem W1_arg2 : W1 m ρ c (Proc.devRef .tc main_arg2) = m ((c : Thread nD τ).loc main_arg2) :=
  (Cert.KernelIdeal.Keeps.hostOps0_keep (W0 m ρ c) main_arg2 (by decide)).trans (W0_arg2 m ρ c)
theorem W2_arg2 : W2 m ρ c (Proc.devRef .tc main_arg2) = m ((c : Thread nD τ).loc main_arg2) :=
  (W2_of_ne m ρ c main_arg2 (by decide)).trans (W1_arg2 m ρ c)
theorem W3_arg2 : W3 m ρ c (Proc.devRef .tc main_arg2) = m ((c : Thread nD τ).loc main_arg2) :=
  (Cert.KernelIdeal.Keeps.hostOps1_keep (W2 m ρ c) main_arg2 (by decide)).trans (W2_arg2 m ρ c)
theorem W4_arg2 : W4 m ρ c (Proc.devRef .tc main_arg2) = m ((c : Thread nD τ).loc main_arg2) :=
  (W4_of_ne m ρ c main_arg2 (by decide)).trans (W3_arg2 m ρ c)
theorem W5_arg2 : W5 m ρ c (Proc.devRef .tc main_arg2) = m ((c : Thread nD τ).loc main_arg2) :=
  (Cert.KernelIdeal.Keeps.hostOps2_keep (W4 m ρ c) main_arg2 (by decide)).trans (W4_arg2 m ρ c)
theorem W6_arg2 : W6 m ρ c (Proc.devRef .tc main_arg2) = m ((c : Thread nD τ).loc main_arg2) :=
  (W6_of_ne m ρ c main_arg2 (by decide)).trans (W5_arg2 m ρ c)
theorem W7_arg2 : W7 m ρ c (Proc.devRef .tc main_arg2) = m ((c : Thread nD τ).loc main_arg2) :=
  (Cert.KernelIdeal.Keeps.hostOps3_keep (W6 m ρ c) main_arg2 (by decide)).trans (W6_arg2 m ρ c)
theorem W8_arg2 : W8 m ρ c (Proc.devRef .tc main_arg2) = m ((c : Thread nD τ).loc main_arg2) :=
  (W8_of_ne m ρ c main_arg2 (by decide)).trans (W7_arg2 m ρ c)
theorem W9_arg2 : W9 m ρ c (Proc.devRef .tc main_arg2) = m ((c : Thread nD τ).loc main_arg2) :=
  (Cert.KernelIdeal.Keeps.hostOps4_keep (W8 m ρ c) main_arg2 (by decide)).trans (W8_arg2 m ρ c)
theorem W10_arg2 : W10 m ρ c (Proc.devRef .tc main_arg2) = m ((c : Thread nD τ).loc main_arg2) :=
  (W10_of_ne m ρ c main_arg2 (by decide)).trans (W9_arg2 m ρ c)
theorem W11_arg2 : W11 m ρ c (Proc.devRef .tc main_arg2) = m ((c : Thread nD τ).loc main_arg2) :=
  (Cert.KernelIdeal.Keeps.hostOps5_keep (W10 m ρ c) main_arg2 (by decide)).trans (W10_arg2 m ρ c)
theorem W12_arg2 : W12 m ρ c (Proc.devRef .tc main_arg2) = m ((c : Thread nD τ).loc main_arg2) :=
  (W12_of_ne m ρ c main_arg2 (by decide)).trans (W11_arg2 m ρ c)
theorem W0_arg3 : W0 m ρ c (Proc.devRef .tc main_arg3) = m ((c : Thread nD τ).loc main_arg3) := rfl
theorem W1_arg3 : W1 m ρ c (Proc.devRef .tc main_arg3) = m ((c : Thread nD τ).loc main_arg3) :=
  (Cert.KernelIdeal.Keeps.hostOps0_keep (W0 m ρ c) main_arg3 (by decide)).trans (W0_arg3 m ρ c)
theorem W2_arg3 : W2 m ρ c (Proc.devRef .tc main_arg3) = m ((c : Thread nD τ).loc main_arg3) :=
  (W2_of_ne m ρ c main_arg3 (by decide)).trans (W1_arg3 m ρ c)
theorem W3_arg3 : W3 m ρ c (Proc.devRef .tc main_arg3) = m ((c : Thread nD τ).loc main_arg3) :=
  (Cert.KernelIdeal.Keeps.hostOps1_keep (W2 m ρ c) main_arg3 (by decide)).trans (W2_arg3 m ρ c)
theorem W4_arg3 : W4 m ρ c (Proc.devRef .tc main_arg3) = m ((c : Thread nD τ).loc main_arg3) :=
  (W4_of_ne m ρ c main_arg3 (by decide)).trans (W3_arg3 m ρ c)
theorem W5_arg3 : W5 m ρ c (Proc.devRef .tc main_arg3) = m ((c : Thread nD τ).loc main_arg3) :=
  (Cert.KernelIdeal.Keeps.hostOps2_keep (W4 m ρ c) main_arg3 (by decide)).trans (W4_arg3 m ρ c)
theorem W6_arg3 : W6 m ρ c (Proc.devRef .tc main_arg3) = m ((c : Thread nD τ).loc main_arg3) :=
  (W6_of_ne m ρ c main_arg3 (by decide)).trans (W5_arg3 m ρ c)
theorem W7_arg3 : W7 m ρ c (Proc.devRef .tc main_arg3) = m ((c : Thread nD τ).loc main_arg3) :=
  (Cert.KernelIdeal.Keeps.hostOps3_keep (W6 m ρ c) main_arg3 (by decide)).trans (W6_arg3 m ρ c)
theorem W8_arg3 : W8 m ρ c (Proc.devRef .tc main_arg3) = m ((c : Thread nD τ).loc main_arg3) :=
  (W8_of_ne m ρ c main_arg3 (by decide)).trans (W7_arg3 m ρ c)
theorem W9_arg3 : W9 m ρ c (Proc.devRef .tc main_arg3) = m ((c : Thread nD τ).loc main_arg3) :=
  (Cert.KernelIdeal.Keeps.hostOps4_keep (W8 m ρ c) main_arg3 (by decide)).trans (W8_arg3 m ρ c)
theorem W10_arg3 : W10 m ρ c (Proc.devRef .tc main_arg3) = m ((c : Thread nD τ).loc main_arg3) :=
  (W10_of_ne m ρ c main_arg3 (by decide)).trans (W9_arg3 m ρ c)
theorem W11_arg3 : W11 m ρ c (Proc.devRef .tc main_arg3) = m ((c : Thread nD τ).loc main_arg3) :=
  (Cert.KernelIdeal.Keeps.hostOps5_keep (W10 m ρ c) main_arg3 (by decide)).trans (W10_arg3 m ρ c)
theorem W12_arg3 : W12 m ρ c (Proc.devRef .tc main_arg3) = m ((c : Thread nD τ).loc main_arg3) :=
  (W12_of_ne m ρ c main_arg3 (by decide)).trans (W11_arg3 m ρ c)
theorem W0_arg4 : W0 m ρ c (Proc.devRef .tc main_arg4) = m ((c : Thread nD τ).loc main_arg4) := rfl
theorem W1_arg4 : W1 m ρ c (Proc.devRef .tc main_arg4) = m ((c : Thread nD τ).loc main_arg4) :=
  (Cert.KernelIdeal.Keeps.hostOps0_keep (W0 m ρ c) main_arg4 (by decide)).trans (W0_arg4 m ρ c)
theorem W2_arg4 : W2 m ρ c (Proc.devRef .tc main_arg4) = m ((c : Thread nD τ).loc main_arg4) :=
  (W2_of_ne m ρ c main_arg4 (by decide)).trans (W1_arg4 m ρ c)
theorem W3_arg4 : W3 m ρ c (Proc.devRef .tc main_arg4) = m ((c : Thread nD τ).loc main_arg4) :=
  (Cert.KernelIdeal.Keeps.hostOps1_keep (W2 m ρ c) main_arg4 (by decide)).trans (W2_arg4 m ρ c)
theorem W4_arg4 : W4 m ρ c (Proc.devRef .tc main_arg4) = m ((c : Thread nD τ).loc main_arg4) :=
  (W4_of_ne m ρ c main_arg4 (by decide)).trans (W3_arg4 m ρ c)
theorem W5_arg4 : W5 m ρ c (Proc.devRef .tc main_arg4) = m ((c : Thread nD τ).loc main_arg4) :=
  (Cert.KernelIdeal.Keeps.hostOps2_keep (W4 m ρ c) main_arg4 (by decide)).trans (W4_arg4 m ρ c)
theorem W6_arg4 : W6 m ρ c (Proc.devRef .tc main_arg4) = m ((c : Thread nD τ).loc main_arg4) :=
  (W6_of_ne m ρ c main_arg4 (by decide)).trans (W5_arg4 m ρ c)
theorem W7_arg4 : W7 m ρ c (Proc.devRef .tc main_arg4) = m ((c : Thread nD τ).loc main_arg4) :=
  (Cert.KernelIdeal.Keeps.hostOps3_keep (W6 m ρ c) main_arg4 (by decide)).trans (W6_arg4 m ρ c)
theorem W8_arg4 : W8 m ρ c (Proc.devRef .tc main_arg4) = m ((c : Thread nD τ).loc main_arg4) :=
  (W8_of_ne m ρ c main_arg4 (by decide)).trans (W7_arg4 m ρ c)
theorem W9_arg4 : W9 m ρ c (Proc.devRef .tc main_arg4) = m ((c : Thread nD τ).loc main_arg4) :=
  (Cert.KernelIdeal.Keeps.hostOps4_keep (W8 m ρ c) main_arg4 (by decide)).trans (W8_arg4 m ρ c)
theorem W10_arg4 : W10 m ρ c (Proc.devRef .tc main_arg4) = m ((c : Thread nD τ).loc main_arg4) :=
  (W10_of_ne m ρ c main_arg4 (by decide)).trans (W9_arg4 m ρ c)
theorem W11_arg4 : W11 m ρ c (Proc.devRef .tc main_arg4) = m ((c : Thread nD τ).loc main_arg4) :=
  (Cert.KernelIdeal.Keeps.hostOps5_keep (W10 m ρ c) main_arg4 (by decide)).trans (W10_arg4 m ρ c)
theorem W12_arg4 : W12 m ρ c (Proc.devRef .tc main_arg4) = m ((c : Thread nD τ).loc main_arg4) :=
  (W12_of_ne m ρ c main_arg4 (by decide)).trans (W11_arg4 m ρ c)
theorem W0_arg5 : W0 m ρ c (Proc.devRef .tc main_arg5) = m ((c : Thread nD τ).loc main_arg5) := rfl
theorem W1_arg5 : W1 m ρ c (Proc.devRef .tc main_arg5) = m ((c : Thread nD τ).loc main_arg5) :=
  (Cert.KernelIdeal.Keeps.hostOps0_keep (W0 m ρ c) main_arg5 (by decide)).trans (W0_arg5 m ρ c)
theorem W2_arg5 : W2 m ρ c (Proc.devRef .tc main_arg5) = m ((c : Thread nD τ).loc main_arg5) :=
  (W2_of_ne m ρ c main_arg5 (by decide)).trans (W1_arg5 m ρ c)
theorem W3_arg5 : W3 m ρ c (Proc.devRef .tc main_arg5) = m ((c : Thread nD τ).loc main_arg5) :=
  (Cert.KernelIdeal.Keeps.hostOps1_keep (W2 m ρ c) main_arg5 (by decide)).trans (W2_arg5 m ρ c)
theorem W4_arg5 : W4 m ρ c (Proc.devRef .tc main_arg5) = m ((c : Thread nD τ).loc main_arg5) :=
  (W4_of_ne m ρ c main_arg5 (by decide)).trans (W3_arg5 m ρ c)
theorem W5_arg5 : W5 m ρ c (Proc.devRef .tc main_arg5) = m ((c : Thread nD τ).loc main_arg5) :=
  (Cert.KernelIdeal.Keeps.hostOps2_keep (W4 m ρ c) main_arg5 (by decide)).trans (W4_arg5 m ρ c)
theorem W6_arg5 : W6 m ρ c (Proc.devRef .tc main_arg5) = m ((c : Thread nD τ).loc main_arg5) :=
  (W6_of_ne m ρ c main_arg5 (by decide)).trans (W5_arg5 m ρ c)
theorem W7_arg5 : W7 m ρ c (Proc.devRef .tc main_arg5) = m ((c : Thread nD τ).loc main_arg5) :=
  (Cert.KernelIdeal.Keeps.hostOps3_keep (W6 m ρ c) main_arg5 (by decide)).trans (W6_arg5 m ρ c)
theorem W8_arg5 : W8 m ρ c (Proc.devRef .tc main_arg5) = m ((c : Thread nD τ).loc main_arg5) :=
  (W8_of_ne m ρ c main_arg5 (by decide)).trans (W7_arg5 m ρ c)
theorem W9_arg5 : W9 m ρ c (Proc.devRef .tc main_arg5) = m ((c : Thread nD τ).loc main_arg5) :=
  (Cert.KernelIdeal.Keeps.hostOps4_keep (W8 m ρ c) main_arg5 (by decide)).trans (W8_arg5 m ρ c)
theorem W10_arg5 : W10 m ρ c (Proc.devRef .tc main_arg5) = m ((c : Thread nD τ).loc main_arg5) :=
  (W10_of_ne m ρ c main_arg5 (by decide)).trans (W9_arg5 m ρ c)
theorem W11_arg5 : W11 m ρ c (Proc.devRef .tc main_arg5) = m ((c : Thread nD τ).loc main_arg5) :=
  (Cert.KernelIdeal.Keeps.hostOps5_keep (W10 m ρ c) main_arg5 (by decide)).trans (W10_arg5 m ρ c)
theorem W12_arg5 : W12 m ρ c (Proc.devRef .tc main_arg5) = m ((c : Thread nD τ).loc main_arg5) :=
  (W12_of_ne m ρ c main_arg5 (by decide)).trans (W11_arg5 m ρ c)
theorem W0_arg6 : W0 m ρ c (Proc.devRef .tc main_arg6) = m ((c : Thread nD τ).loc main_arg6) := rfl
theorem W1_arg6 : W1 m ρ c (Proc.devRef .tc main_arg6) = m ((c : Thread nD τ).loc main_arg6) :=
  (Cert.KernelIdeal.Keeps.hostOps0_keep (W0 m ρ c) main_arg6 (by decide)).trans (W0_arg6 m ρ c)
theorem W2_arg6 : W2 m ρ c (Proc.devRef .tc main_arg6) = m ((c : Thread nD τ).loc main_arg6) :=
  (W2_of_ne m ρ c main_arg6 (by decide)).trans (W1_arg6 m ρ c)
theorem W3_arg6 : W3 m ρ c (Proc.devRef .tc main_arg6) = m ((c : Thread nD τ).loc main_arg6) :=
  (Cert.KernelIdeal.Keeps.hostOps1_keep (W2 m ρ c) main_arg6 (by decide)).trans (W2_arg6 m ρ c)
theorem W4_arg6 : W4 m ρ c (Proc.devRef .tc main_arg6) = m ((c : Thread nD τ).loc main_arg6) :=
  (W4_of_ne m ρ c main_arg6 (by decide)).trans (W3_arg6 m ρ c)
theorem W5_arg6 : W5 m ρ c (Proc.devRef .tc main_arg6) = m ((c : Thread nD τ).loc main_arg6) :=
  (Cert.KernelIdeal.Keeps.hostOps2_keep (W4 m ρ c) main_arg6 (by decide)).trans (W4_arg6 m ρ c)
theorem W6_arg6 : W6 m ρ c (Proc.devRef .tc main_arg6) = m ((c : Thread nD τ).loc main_arg6) :=
  (W6_of_ne m ρ c main_arg6 (by decide)).trans (W5_arg6 m ρ c)
theorem W7_arg6 : W7 m ρ c (Proc.devRef .tc main_arg6) = m ((c : Thread nD τ).loc main_arg6) :=
  (Cert.KernelIdeal.Keeps.hostOps3_keep (W6 m ρ c) main_arg6 (by decide)).trans (W6_arg6 m ρ c)
theorem W8_arg6 : W8 m ρ c (Proc.devRef .tc main_arg6) = m ((c : Thread nD τ).loc main_arg6) :=
  (W8_of_ne m ρ c main_arg6 (by decide)).trans (W7_arg6 m ρ c)
theorem W9_arg6 : W9 m ρ c (Proc.devRef .tc main_arg6) = m ((c : Thread nD τ).loc main_arg6) :=
  (Cert.KernelIdeal.Keeps.hostOps4_keep (W8 m ρ c) main_arg6 (by decide)).trans (W8_arg6 m ρ c)
theorem W10_arg6 : W10 m ρ c (Proc.devRef .tc main_arg6) = m ((c : Thread nD τ).loc main_arg6) :=
  (W10_of_ne m ρ c main_arg6 (by decide)).trans (W9_arg6 m ρ c)
theorem W11_arg6 : W11 m ρ c (Proc.devRef .tc main_arg6) = m ((c : Thread nD τ).loc main_arg6) :=
  (Cert.KernelIdeal.Keeps.hostOps5_keep (W10 m ρ c) main_arg6 (by decide)).trans (W10_arg6 m ρ c)
theorem W12_arg6 : W12 m ρ c (Proc.devRef .tc main_arg6) = m ((c : Thread nD τ).loc main_arg6) :=
  (W12_of_ne m ρ c main_arg6 (by decide)).trans (W11_arg6 m ρ c)
theorem W0_arg7 : W0 m ρ c (Proc.devRef .tc main_arg7) = m ((c : Thread nD τ).loc main_arg7) := rfl
theorem W1_arg7 : W1 m ρ c (Proc.devRef .tc main_arg7) = m ((c : Thread nD τ).loc main_arg7) :=
  (Cert.KernelIdeal.Keeps.hostOps0_keep (W0 m ρ c) main_arg7 (by decide)).trans (W0_arg7 m ρ c)
theorem W2_arg7 : W2 m ρ c (Proc.devRef .tc main_arg7) = m ((c : Thread nD τ).loc main_arg7) :=
  (W2_of_ne m ρ c main_arg7 (by decide)).trans (W1_arg7 m ρ c)
theorem W3_arg7 : W3 m ρ c (Proc.devRef .tc main_arg7) = m ((c : Thread nD τ).loc main_arg7) :=
  (Cert.KernelIdeal.Keeps.hostOps1_keep (W2 m ρ c) main_arg7 (by decide)).trans (W2_arg7 m ρ c)
theorem W4_arg7 : W4 m ρ c (Proc.devRef .tc main_arg7) = m ((c : Thread nD τ).loc main_arg7) :=
  (W4_of_ne m ρ c main_arg7 (by decide)).trans (W3_arg7 m ρ c)
theorem W5_arg7 : W5 m ρ c (Proc.devRef .tc main_arg7) = m ((c : Thread nD τ).loc main_arg7) :=
  (Cert.KernelIdeal.Keeps.hostOps2_keep (W4 m ρ c) main_arg7 (by decide)).trans (W4_arg7 m ρ c)
theorem W6_arg7 : W6 m ρ c (Proc.devRef .tc main_arg7) = m ((c : Thread nD τ).loc main_arg7) :=
  (W6_of_ne m ρ c main_arg7 (by decide)).trans (W5_arg7 m ρ c)
theorem W7_arg7 : W7 m ρ c (Proc.devRef .tc main_arg7) = m ((c : Thread nD τ).loc main_arg7) :=
  (Cert.KernelIdeal.Keeps.hostOps3_keep (W6 m ρ c) main_arg7 (by decide)).trans (W6_arg7 m ρ c)
theorem W8_arg7 : W8 m ρ c (Proc.devRef .tc main_arg7) = m ((c : Thread nD τ).loc main_arg7) :=
  (W8_of_ne m ρ c main_arg7 (by decide)).trans (W7_arg7 m ρ c)
theorem W9_arg7 : W9 m ρ c (Proc.devRef .tc main_arg7) = m ((c : Thread nD τ).loc main_arg7) :=
  (Cert.KernelIdeal.Keeps.hostOps4_keep (W8 m ρ c) main_arg7 (by decide)).trans (W8_arg7 m ρ c)
theorem W10_arg7 : W10 m ρ c (Proc.devRef .tc main_arg7) = m ((c : Thread nD τ).loc main_arg7) :=
  (W10_of_ne m ρ c main_arg7 (by decide)).trans (W9_arg7 m ρ c)
theorem W11_arg7 : W11 m ρ c (Proc.devRef .tc main_arg7) = m ((c : Thread nD τ).loc main_arg7) :=
  (Cert.KernelIdeal.Keeps.hostOps5_keep (W10 m ρ c) main_arg7 (by decide)).trans (W10_arg7 m ρ c)
theorem W12_arg7 : W12 m ρ c (Proc.devRef .tc main_arg7) = m ((c : Thread nD τ).loc main_arg7) :=
  (W12_of_ne m ρ c main_arg7 (by decide)).trans (W11_arg7 m ρ c)
theorem W0_arg8 : W0 m ρ c (Proc.devRef .tc main_arg8) = m ((c : Thread nD τ).loc main_arg8) := rfl
theorem W1_arg8 : W1 m ρ c (Proc.devRef .tc main_arg8) = m ((c : Thread nD τ).loc main_arg8) :=
  (Cert.KernelIdeal.Keeps.hostOps0_keep (W0 m ρ c) main_arg8 (by decide)).trans (W0_arg8 m ρ c)
theorem W2_arg8 : W2 m ρ c (Proc.devRef .tc main_arg8) = m ((c : Thread nD τ).loc main_arg8) :=
  (W2_of_ne m ρ c main_arg8 (by decide)).trans (W1_arg8 m ρ c)
theorem W3_arg8 : W3 m ρ c (Proc.devRef .tc main_arg8) = m ((c : Thread nD τ).loc main_arg8) :=
  (Cert.KernelIdeal.Keeps.hostOps1_keep (W2 m ρ c) main_arg8 (by decide)).trans (W2_arg8 m ρ c)
theorem W4_arg8 : W4 m ρ c (Proc.devRef .tc main_arg8) = m ((c : Thread nD τ).loc main_arg8) :=
  (W4_of_ne m ρ c main_arg8 (by decide)).trans (W3_arg8 m ρ c)
theorem W5_arg8 : W5 m ρ c (Proc.devRef .tc main_arg8) = m ((c : Thread nD τ).loc main_arg8) :=
  (Cert.KernelIdeal.Keeps.hostOps2_keep (W4 m ρ c) main_arg8 (by decide)).trans (W4_arg8 m ρ c)
theorem W6_arg8 : W6 m ρ c (Proc.devRef .tc main_arg8) = m ((c : Thread nD τ).loc main_arg8) :=
  (W6_of_ne m ρ c main_arg8 (by decide)).trans (W5_arg8 m ρ c)
theorem W7_arg8 : W7 m ρ c (Proc.devRef .tc main_arg8) = m ((c : Thread nD τ).loc main_arg8) :=
  (Cert.KernelIdeal.Keeps.hostOps3_keep (W6 m ρ c) main_arg8 (by decide)).trans (W6_arg8 m ρ c)
theorem W8_arg8 : W8 m ρ c (Proc.devRef .tc main_arg8) = m ((c : Thread nD τ).loc main_arg8) :=
  (W8_of_ne m ρ c main_arg8 (by decide)).trans (W7_arg8 m ρ c)
theorem W9_arg8 : W9 m ρ c (Proc.devRef .tc main_arg8) = m ((c : Thread nD τ).loc main_arg8) :=
  (Cert.KernelIdeal.Keeps.hostOps4_keep (W8 m ρ c) main_arg8 (by decide)).trans (W8_arg8 m ρ c)
theorem W10_arg8 : W10 m ρ c (Proc.devRef .tc main_arg8) = m ((c : Thread nD τ).loc main_arg8) :=
  (W10_of_ne m ρ c main_arg8 (by decide)).trans (W9_arg8 m ρ c)
theorem W11_arg8 : W11 m ρ c (Proc.devRef .tc main_arg8) = m ((c : Thread nD τ).loc main_arg8) :=
  (Cert.KernelIdeal.Keeps.hostOps5_keep (W10 m ρ c) main_arg8 (by decide)).trans (W10_arg8 m ρ c)
theorem W12_arg8 : W12 m ρ c (Proc.devRef .tc main_arg8) = m ((c : Thread nD τ).loc main_arg8) :=
  (W12_of_ne m ρ c main_arg8 (by decide)).trans (W11_arg8 m ρ c)
theorem W0_arg9 : W0 m ρ c (Proc.devRef .tc main_arg9) = m ((c : Thread nD τ).loc main_arg9) := rfl
theorem W1_arg9 : W1 m ρ c (Proc.devRef .tc main_arg9) = m ((c : Thread nD τ).loc main_arg9) :=
  (Cert.KernelIdeal.Keeps.hostOps0_keep (W0 m ρ c) main_arg9 (by decide)).trans (W0_arg9 m ρ c)
theorem W2_arg9 : W2 m ρ c (Proc.devRef .tc main_arg9) = m ((c : Thread nD τ).loc main_arg9) :=
  (W2_of_ne m ρ c main_arg9 (by decide)).trans (W1_arg9 m ρ c)
theorem W3_arg9 : W3 m ρ c (Proc.devRef .tc main_arg9) = m ((c : Thread nD τ).loc main_arg9) :=
  (Cert.KernelIdeal.Keeps.hostOps1_keep (W2 m ρ c) main_arg9 (by decide)).trans (W2_arg9 m ρ c)
theorem W4_arg9 : W4 m ρ c (Proc.devRef .tc main_arg9) = m ((c : Thread nD τ).loc main_arg9) :=
  (W4_of_ne m ρ c main_arg9 (by decide)).trans (W3_arg9 m ρ c)
theorem W5_arg9 : W5 m ρ c (Proc.devRef .tc main_arg9) = m ((c : Thread nD τ).loc main_arg9) :=
  (Cert.KernelIdeal.Keeps.hostOps2_keep (W4 m ρ c) main_arg9 (by decide)).trans (W4_arg9 m ρ c)
theorem W6_arg9 : W6 m ρ c (Proc.devRef .tc main_arg9) = m ((c : Thread nD τ).loc main_arg9) :=
  (W6_of_ne m ρ c main_arg9 (by decide)).trans (W5_arg9 m ρ c)
theorem W7_arg9 : W7 m ρ c (Proc.devRef .tc main_arg9) = m ((c : Thread nD τ).loc main_arg9) :=
  (Cert.KernelIdeal.Keeps.hostOps3_keep (W6 m ρ c) main_arg9 (by decide)).trans (W6_arg9 m ρ c)
theorem W8_arg9 : W8 m ρ c (Proc.devRef .tc main_arg9) = m ((c : Thread nD τ).loc main_arg9) :=
  (W8_of_ne m ρ c main_arg9 (by decide)).trans (W7_arg9 m ρ c)
theorem W9_arg9 : W9 m ρ c (Proc.devRef .tc main_arg9) = m ((c : Thread nD τ).loc main_arg9) :=
  (Cert.KernelIdeal.Keeps.hostOps4_keep (W8 m ρ c) main_arg9 (by decide)).trans (W8_arg9 m ρ c)
theorem W10_arg9 : W10 m ρ c (Proc.devRef .tc main_arg9) = m ((c : Thread nD τ).loc main_arg9) :=
  (W10_of_ne m ρ c main_arg9 (by decide)).trans (W9_arg9 m ρ c)
theorem W11_arg9 : W11 m ρ c (Proc.devRef .tc main_arg9) = m ((c : Thread nD τ).loc main_arg9) :=
  (Cert.KernelIdeal.Keeps.hostOps5_keep (W10 m ρ c) main_arg9 (by decide)).trans (W10_arg9 m ρ c)
theorem W12_arg9 : W12 m ρ c (Proc.devRef .tc main_arg9) = m ((c : Thread nD τ).loc main_arg9) :=
  (W12_of_ne m ρ c main_arg9 (by decide)).trans (W11_arg9 m ρ c)
theorem W0_arg10 : W0 m ρ c (Proc.devRef .tc main_arg10) = m ((c : Thread nD τ).loc main_arg10) := rfl
theorem W1_arg10 : W1 m ρ c (Proc.devRef .tc main_arg10) = m ((c : Thread nD τ).loc main_arg10) :=
  (Cert.KernelIdeal.Keeps.hostOps0_keep (W0 m ρ c) main_arg10 (by decide)).trans (W0_arg10 m ρ c)
theorem W2_arg10 : W2 m ρ c (Proc.devRef .tc main_arg10) = m ((c : Thread nD τ).loc main_arg10) :=
  (W2_of_ne m ρ c main_arg10 (by decide)).trans (W1_arg10 m ρ c)
theorem W3_arg10 : W3 m ρ c (Proc.devRef .tc main_arg10) = m ((c : Thread nD τ).loc main_arg10) :=
  (Cert.KernelIdeal.Keeps.hostOps1_keep (W2 m ρ c) main_arg10 (by decide)).trans (W2_arg10 m ρ c)
theorem W4_arg10 : W4 m ρ c (Proc.devRef .tc main_arg10) = m ((c : Thread nD τ).loc main_arg10) :=
  (W4_of_ne m ρ c main_arg10 (by decide)).trans (W3_arg10 m ρ c)
theorem W5_arg10 : W5 m ρ c (Proc.devRef .tc main_arg10) = m ((c : Thread nD τ).loc main_arg10) :=
  (Cert.KernelIdeal.Keeps.hostOps2_keep (W4 m ρ c) main_arg10 (by decide)).trans (W4_arg10 m ρ c)
theorem W6_arg10 : W6 m ρ c (Proc.devRef .tc main_arg10) = m ((c : Thread nD τ).loc main_arg10) :=
  (W6_of_ne m ρ c main_arg10 (by decide)).trans (W5_arg10 m ρ c)
theorem W7_arg10 : W7 m ρ c (Proc.devRef .tc main_arg10) = m ((c : Thread nD τ).loc main_arg10) :=
  (Cert.KernelIdeal.Keeps.hostOps3_keep (W6 m ρ c) main_arg10 (by decide)).trans (W6_arg10 m ρ c)
theorem W8_arg10 : W8 m ρ c (Proc.devRef .tc main_arg10) = m ((c : Thread nD τ).loc main_arg10) :=
  (W8_of_ne m ρ c main_arg10 (by decide)).trans (W7_arg10 m ρ c)
theorem W9_arg10 : W9 m ρ c (Proc.devRef .tc main_arg10) = m ((c : Thread nD τ).loc main_arg10) :=
  (Cert.KernelIdeal.Keeps.hostOps4_keep (W8 m ρ c) main_arg10 (by decide)).trans (W8_arg10 m ρ c)
theorem W10_arg10 : W10 m ρ c (Proc.devRef .tc main_arg10) = m ((c : Thread nD τ).loc main_arg10) :=
  (W10_of_ne m ρ c main_arg10 (by decide)).trans (W9_arg10 m ρ c)
theorem W11_arg10 : W11 m ρ c (Proc.devRef .tc main_arg10) = m ((c : Thread nD τ).loc main_arg10) :=
  (Cert.KernelIdeal.Keeps.hostOps5_keep (W10 m ρ c) main_arg10 (by decide)).trans (W10_arg10 m ρ c)
theorem W12_arg10 : W12 m ρ c (Proc.devRef .tc main_arg10) = m ((c : Thread nD τ).loc main_arg10) :=
  (W12_of_ne m ρ c main_arg10 (by decide)).trans (W11_arg10 m ρ c)
theorem W0_arg11 : W0 m ρ c (Proc.devRef .tc main_arg11) = m ((c : Thread nD τ).loc main_arg11) := rfl
theorem W1_arg11 : W1 m ρ c (Proc.devRef .tc main_arg11) = m ((c : Thread nD τ).loc main_arg11) :=
  (Cert.KernelIdeal.Keeps.hostOps0_keep (W0 m ρ c) main_arg11 (by decide)).trans (W0_arg11 m ρ c)
theorem W2_arg11 : W2 m ρ c (Proc.devRef .tc main_arg11) = m ((c : Thread nD τ).loc main_arg11) :=
  (W2_of_ne m ρ c main_arg11 (by decide)).trans (W1_arg11 m ρ c)
theorem W3_arg11 : W3 m ρ c (Proc.devRef .tc main_arg11) = m ((c : Thread nD τ).loc main_arg11) :=
  (Cert.KernelIdeal.Keeps.hostOps1_keep (W2 m ρ c) main_arg11 (by decide)).trans (W2_arg11 m ρ c)
theorem W4_arg11 : W4 m ρ c (Proc.devRef .tc main_arg11) = m ((c : Thread nD τ).loc main_arg11) :=
  (W4_of_ne m ρ c main_arg11 (by decide)).trans (W3_arg11 m ρ c)
theorem W5_arg11 : W5 m ρ c (Proc.devRef .tc main_arg11) = m ((c : Thread nD τ).loc main_arg11) :=
  (Cert.KernelIdeal.Keeps.hostOps2_keep (W4 m ρ c) main_arg11 (by decide)).trans (W4_arg11 m ρ c)
theorem W6_arg11 : W6 m ρ c (Proc.devRef .tc main_arg11) = m ((c : Thread nD τ).loc main_arg11) :=
  (W6_of_ne m ρ c main_arg11 (by decide)).trans (W5_arg11 m ρ c)
theorem W7_arg11 : W7 m ρ c (Proc.devRef .tc main_arg11) = m ((c : Thread nD τ).loc main_arg11) :=
  (Cert.KernelIdeal.Keeps.hostOps3_keep (W6 m ρ c) main_arg11 (by decide)).trans (W6_arg11 m ρ c)
theorem W8_arg11 : W8 m ρ c (Proc.devRef .tc main_arg11) = m ((c : Thread nD τ).loc main_arg11) :=
  (W8_of_ne m ρ c main_arg11 (by decide)).trans (W7_arg11 m ρ c)
theorem W9_arg11 : W9 m ρ c (Proc.devRef .tc main_arg11) = m ((c : Thread nD τ).loc main_arg11) :=
  (Cert.KernelIdeal.Keeps.hostOps4_keep (W8 m ρ c) main_arg11 (by decide)).trans (W8_arg11 m ρ c)
theorem W10_arg11 : W10 m ρ c (Proc.devRef .tc main_arg11) = m ((c : Thread nD τ).loc main_arg11) :=
  (W10_of_ne m ρ c main_arg11 (by decide)).trans (W9_arg11 m ρ c)
theorem W11_arg11 : W11 m ρ c (Proc.devRef .tc main_arg11) = m ((c : Thread nD τ).loc main_arg11) :=
  (Cert.KernelIdeal.Keeps.hostOps5_keep (W10 m ρ c) main_arg11 (by decide)).trans (W10_arg11 m ρ c)
theorem W12_arg11 : W12 m ρ c (Proc.devRef .tc main_arg11) = m ((c : Thread nD τ).loc main_arg11) :=
  (W12_of_ne m ρ c main_arg11 (by decide)).trans (W11_arg11 m ρ c)
theorem W0_arg12 : W0 m ρ c (Proc.devRef .tc main_arg12) = m ((c : Thread nD τ).loc main_arg12) := rfl
theorem W1_arg12 : W1 m ρ c (Proc.devRef .tc main_arg12) = m ((c : Thread nD τ).loc main_arg12) :=
  (Cert.KernelIdeal.Keeps.hostOps0_keep (W0 m ρ c) main_arg12 (by decide)).trans (W0_arg12 m ρ c)
theorem W2_arg12 : W2 m ρ c (Proc.devRef .tc main_arg12) = m ((c : Thread nD τ).loc main_arg12) :=
  (W2_of_ne m ρ c main_arg12 (by decide)).trans (W1_arg12 m ρ c)
theorem W3_arg12 : W3 m ρ c (Proc.devRef .tc main_arg12) = m ((c : Thread nD τ).loc main_arg12) :=
  (Cert.KernelIdeal.Keeps.hostOps1_keep (W2 m ρ c) main_arg12 (by decide)).trans (W2_arg12 m ρ c)
theorem W4_arg12 : W4 m ρ c (Proc.devRef .tc main_arg12) = m ((c : Thread nD τ).loc main_arg12) :=
  (W4_of_ne m ρ c main_arg12 (by decide)).trans (W3_arg12 m ρ c)
theorem W5_arg12 : W5 m ρ c (Proc.devRef .tc main_arg12) = m ((c : Thread nD τ).loc main_arg12) :=
  (Cert.KernelIdeal.Keeps.hostOps2_keep (W4 m ρ c) main_arg12 (by decide)).trans (W4_arg12 m ρ c)
theorem W6_arg12 : W6 m ρ c (Proc.devRef .tc main_arg12) = m ((c : Thread nD τ).loc main_arg12) :=
  (W6_of_ne m ρ c main_arg12 (by decide)).trans (W5_arg12 m ρ c)
theorem W7_arg12 : W7 m ρ c (Proc.devRef .tc main_arg12) = m ((c : Thread nD τ).loc main_arg12) :=
  (Cert.KernelIdeal.Keeps.hostOps3_keep (W6 m ρ c) main_arg12 (by decide)).trans (W6_arg12 m ρ c)
theorem W8_arg12 : W8 m ρ c (Proc.devRef .tc main_arg12) = m ((c : Thread nD τ).loc main_arg12) :=
  (W8_of_ne m ρ c main_arg12 (by decide)).trans (W7_arg12 m ρ c)
theorem W9_arg12 : W9 m ρ c (Proc.devRef .tc main_arg12) = m ((c : Thread nD τ).loc main_arg12) :=
  (Cert.KernelIdeal.Keeps.hostOps4_keep (W8 m ρ c) main_arg12 (by decide)).trans (W8_arg12 m ρ c)
theorem W10_arg12 : W10 m ρ c (Proc.devRef .tc main_arg12) = m ((c : Thread nD τ).loc main_arg12) :=
  (W10_of_ne m ρ c main_arg12 (by decide)).trans (W9_arg12 m ρ c)
theorem W11_arg12 : W11 m ρ c (Proc.devRef .tc main_arg12) = m ((c : Thread nD τ).loc main_arg12) :=
  (Cert.KernelIdeal.Keeps.hostOps5_keep (W10 m ρ c) main_arg12 (by decide)).trans (W10_arg12 m ρ c)
theorem W12_arg12 : W12 m ρ c (Proc.devRef .tc main_arg12) = m ((c : Thread nD τ).loc main_arg12) :=
  (W12_of_ne m ρ c main_arg12 (by decide)).trans (W11_arg12 m ρ c)
theorem W0_arg13 : W0 m ρ c (Proc.devRef .tc main_arg13) = m ((c : Thread nD τ).loc main_arg13) := rfl
theorem W1_arg13 : W1 m ρ c (Proc.devRef .tc main_arg13) = m ((c : Thread nD τ).loc main_arg13) :=
  (Cert.KernelIdeal.Keeps.hostOps0_keep (W0 m ρ c) main_arg13 (by decide)).trans (W0_arg13 m ρ c)
theorem W2_arg13 : W2 m ρ c (Proc.devRef .tc main_arg13) = m ((c : Thread nD τ).loc main_arg13) :=
  (W2_of_ne m ρ c main_arg13 (by decide)).trans (W1_arg13 m ρ c)
theorem W3_arg13 : W3 m ρ c (Proc.devRef .tc main_arg13) = m ((c : Thread nD τ).loc main_arg13) :=
  (Cert.KernelIdeal.Keeps.hostOps1_keep (W2 m ρ c) main_arg13 (by decide)).trans (W2_arg13 m ρ c)
theorem W4_arg13 : W4 m ρ c (Proc.devRef .tc main_arg13) = m ((c : Thread nD τ).loc main_arg13) :=
  (W4_of_ne m ρ c main_arg13 (by decide)).trans (W3_arg13 m ρ c)
theorem W5_arg13 : W5 m ρ c (Proc.devRef .tc main_arg13) = m ((c : Thread nD τ).loc main_arg13) :=
  (Cert.KernelIdeal.Keeps.hostOps2_keep (W4 m ρ c) main_arg13 (by decide)).trans (W4_arg13 m ρ c)
theorem W6_arg13 : W6 m ρ c (Proc.devRef .tc main_arg13) = m ((c : Thread nD τ).loc main_arg13) :=
  (W6_of_ne m ρ c main_arg13 (by decide)).trans (W5_arg13 m ρ c)
theorem W7_arg13 : W7 m ρ c (Proc.devRef .tc main_arg13) = m ((c : Thread nD τ).loc main_arg13) :=
  (Cert.KernelIdeal.Keeps.hostOps3_keep (W6 m ρ c) main_arg13 (by decide)).trans (W6_arg13 m ρ c)
theorem W8_arg13 : W8 m ρ c (Proc.devRef .tc main_arg13) = m ((c : Thread nD τ).loc main_arg13) :=
  (W8_of_ne m ρ c main_arg13 (by decide)).trans (W7_arg13 m ρ c)
theorem W9_arg13 : W9 m ρ c (Proc.devRef .tc main_arg13) = m ((c : Thread nD τ).loc main_arg13) :=
  (Cert.KernelIdeal.Keeps.hostOps4_keep (W8 m ρ c) main_arg13 (by decide)).trans (W8_arg13 m ρ c)
theorem W10_arg13 : W10 m ρ c (Proc.devRef .tc main_arg13) = m ((c : Thread nD τ).loc main_arg13) :=
  (W10_of_ne m ρ c main_arg13 (by decide)).trans (W9_arg13 m ρ c)
theorem W11_arg13 : W11 m ρ c (Proc.devRef .tc main_arg13) = m ((c : Thread nD τ).loc main_arg13) :=
  (Cert.KernelIdeal.Keeps.hostOps5_keep (W10 m ρ c) main_arg13 (by decide)).trans (W10_arg13 m ρ c)
theorem W12_arg13 : W12 m ρ c (Proc.devRef .tc main_arg13) = m ((c : Thread nD τ).loc main_arg13) :=
  (W12_of_ne m ρ c main_arg13 (by decide)).trans (W11_arg13 m ρ c)
theorem W0_arg14 : W0 m ρ c (Proc.devRef .tc main_arg14) = m ((c : Thread nD τ).loc main_arg14) := rfl
theorem W1_arg14 : W1 m ρ c (Proc.devRef .tc main_arg14) = m ((c : Thread nD τ).loc main_arg14) :=
  (Cert.KernelIdeal.Keeps.hostOps0_keep (W0 m ρ c) main_arg14 (by decide)).trans (W0_arg14 m ρ c)
theorem W2_arg14 : W2 m ρ c (Proc.devRef .tc main_arg14) = m ((c : Thread nD τ).loc main_arg14) :=
  (W2_of_ne m ρ c main_arg14 (by decide)).trans (W1_arg14 m ρ c)
theorem W3_arg14 : W3 m ρ c (Proc.devRef .tc main_arg14) = m ((c : Thread nD τ).loc main_arg14) :=
  (Cert.KernelIdeal.Keeps.hostOps1_keep (W2 m ρ c) main_arg14 (by decide)).trans (W2_arg14 m ρ c)
theorem W4_arg14 : W4 m ρ c (Proc.devRef .tc main_arg14) = m ((c : Thread nD τ).loc main_arg14) :=
  (W4_of_ne m ρ c main_arg14 (by decide)).trans (W3_arg14 m ρ c)
theorem W5_arg14 : W5 m ρ c (Proc.devRef .tc main_arg14) = m ((c : Thread nD τ).loc main_arg14) :=
  (Cert.KernelIdeal.Keeps.hostOps2_keep (W4 m ρ c) main_arg14 (by decide)).trans (W4_arg14 m ρ c)
theorem W6_arg14 : W6 m ρ c (Proc.devRef .tc main_arg14) = m ((c : Thread nD τ).loc main_arg14) :=
  (W6_of_ne m ρ c main_arg14 (by decide)).trans (W5_arg14 m ρ c)
theorem W7_arg14 : W7 m ρ c (Proc.devRef .tc main_arg14) = m ((c : Thread nD τ).loc main_arg14) :=
  (Cert.KernelIdeal.Keeps.hostOps3_keep (W6 m ρ c) main_arg14 (by decide)).trans (W6_arg14 m ρ c)
theorem W8_arg14 : W8 m ρ c (Proc.devRef .tc main_arg14) = m ((c : Thread nD τ).loc main_arg14) :=
  (W8_of_ne m ρ c main_arg14 (by decide)).trans (W7_arg14 m ρ c)
theorem W9_arg14 : W9 m ρ c (Proc.devRef .tc main_arg14) = m ((c : Thread nD τ).loc main_arg14) :=
  (Cert.KernelIdeal.Keeps.hostOps4_keep (W8 m ρ c) main_arg14 (by decide)).trans (W8_arg14 m ρ c)
theorem W10_arg14 : W10 m ρ c (Proc.devRef .tc main_arg14) = m ((c : Thread nD τ).loc main_arg14) :=
  (W10_of_ne m ρ c main_arg14 (by decide)).trans (W9_arg14 m ρ c)
theorem W11_arg14 : W11 m ρ c (Proc.devRef .tc main_arg14) = m ((c : Thread nD τ).loc main_arg14) :=
  (Cert.KernelIdeal.Keeps.hostOps5_keep (W10 m ρ c) main_arg14 (by decide)).trans (W10_arg14 m ρ c)
theorem W12_arg14 : W12 m ρ c (Proc.devRef .tc main_arg14) = m ((c : Thread nD τ).loc main_arg14) :=
  (W12_of_ne m ρ c main_arg14 (by decide)).trans (W11_arg14 m ρ c)
theorem W0_arg15 : W0 m ρ c (Proc.devRef .tc main_arg15) = m ((c : Thread nD τ).loc main_arg15) := rfl
theorem W1_arg15 : W1 m ρ c (Proc.devRef .tc main_arg15) = m ((c : Thread nD τ).loc main_arg15) :=
  (Cert.KernelIdeal.Keeps.hostOps0_keep (W0 m ρ c) main_arg15 (by decide)).trans (W0_arg15 m ρ c)
theorem W2_arg15 : W2 m ρ c (Proc.devRef .tc main_arg15) = m ((c : Thread nD τ).loc main_arg15) :=
  (W2_of_ne m ρ c main_arg15 (by decide)).trans (W1_arg15 m ρ c)
theorem W3_arg15 : W3 m ρ c (Proc.devRef .tc main_arg15) = m ((c : Thread nD τ).loc main_arg15) :=
  (Cert.KernelIdeal.Keeps.hostOps1_keep (W2 m ρ c) main_arg15 (by decide)).trans (W2_arg15 m ρ c)
theorem W4_arg15 : W4 m ρ c (Proc.devRef .tc main_arg15) = m ((c : Thread nD τ).loc main_arg15) :=
  (W4_of_ne m ρ c main_arg15 (by decide)).trans (W3_arg15 m ρ c)
theorem W5_arg15 : W5 m ρ c (Proc.devRef .tc main_arg15) = m ((c : Thread nD τ).loc main_arg15) :=
  (Cert.KernelIdeal.Keeps.hostOps2_keep (W4 m ρ c) main_arg15 (by decide)).trans (W4_arg15 m ρ c)
theorem W6_arg15 : W6 m ρ c (Proc.devRef .tc main_arg15) = m ((c : Thread nD τ).loc main_arg15) :=
  (W6_of_ne m ρ c main_arg15 (by decide)).trans (W5_arg15 m ρ c)
theorem W7_arg15 : W7 m ρ c (Proc.devRef .tc main_arg15) = m ((c : Thread nD τ).loc main_arg15) :=
  (Cert.KernelIdeal.Keeps.hostOps3_keep (W6 m ρ c) main_arg15 (by decide)).trans (W6_arg15 m ρ c)
theorem W8_arg15 : W8 m ρ c (Proc.devRef .tc main_arg15) = m ((c : Thread nD τ).loc main_arg15) :=
  (W8_of_ne m ρ c main_arg15 (by decide)).trans (W7_arg15 m ρ c)
theorem W9_arg15 : W9 m ρ c (Proc.devRef .tc main_arg15) = m ((c : Thread nD τ).loc main_arg15) :=
  (Cert.KernelIdeal.Keeps.hostOps4_keep (W8 m ρ c) main_arg15 (by decide)).trans (W8_arg15 m ρ c)
theorem W10_arg15 : W10 m ρ c (Proc.devRef .tc main_arg15) = m ((c : Thread nD τ).loc main_arg15) :=
  (W10_of_ne m ρ c main_arg15 (by decide)).trans (W9_arg15 m ρ c)
theorem W11_arg15 : W11 m ρ c (Proc.devRef .tc main_arg15) = m ((c : Thread nD τ).loc main_arg15) :=
  (Cert.KernelIdeal.Keeps.hostOps5_keep (W10 m ρ c) main_arg15 (by decide)).trans (W10_arg15 m ρ c)
theorem W12_arg15 : W12 m ρ c (Proc.devRef .tc main_arg15) = m ((c : Thread nD τ).loc main_arg15) :=
  (W12_of_ne m ρ c main_arg15 (by decide)).trans (W11_arg15 m ρ c)
theorem W0_arg16 : W0 m ρ c (Proc.devRef .tc main_arg16) = m ((c : Thread nD τ).loc main_arg16) := rfl
theorem W1_arg16 : W1 m ρ c (Proc.devRef .tc main_arg16) = m ((c : Thread nD τ).loc main_arg16) :=
  (Cert.KernelIdeal.Keeps.hostOps0_keep (W0 m ρ c) main_arg16 (by decide)).trans (W0_arg16 m ρ c)
theorem W2_arg16 : W2 m ρ c (Proc.devRef .tc main_arg16) = m ((c : Thread nD τ).loc main_arg16) :=
  (W2_of_ne m ρ c main_arg16 (by decide)).trans (W1_arg16 m ρ c)
theorem W3_arg16 : W3 m ρ c (Proc.devRef .tc main_arg16) = m ((c : Thread nD τ).loc main_arg16) :=
  (Cert.KernelIdeal.Keeps.hostOps1_keep (W2 m ρ c) main_arg16 (by decide)).trans (W2_arg16 m ρ c)
theorem W4_arg16 : W4 m ρ c (Proc.devRef .tc main_arg16) = m ((c : Thread nD τ).loc main_arg16) :=
  (W4_of_ne m ρ c main_arg16 (by decide)).trans (W3_arg16 m ρ c)
theorem W5_arg16 : W5 m ρ c (Proc.devRef .tc main_arg16) = m ((c : Thread nD τ).loc main_arg16) :=
  (Cert.KernelIdeal.Keeps.hostOps2_keep (W4 m ρ c) main_arg16 (by decide)).trans (W4_arg16 m ρ c)
theorem W6_arg16 : W6 m ρ c (Proc.devRef .tc main_arg16) = m ((c : Thread nD τ).loc main_arg16) :=
  (W6_of_ne m ρ c main_arg16 (by decide)).trans (W5_arg16 m ρ c)
theorem W7_arg16 : W7 m ρ c (Proc.devRef .tc main_arg16) = m ((c : Thread nD τ).loc main_arg16) :=
  (Cert.KernelIdeal.Keeps.hostOps3_keep (W6 m ρ c) main_arg16 (by decide)).trans (W6_arg16 m ρ c)
theorem W8_arg16 : W8 m ρ c (Proc.devRef .tc main_arg16) = m ((c : Thread nD τ).loc main_arg16) :=
  (W8_of_ne m ρ c main_arg16 (by decide)).trans (W7_arg16 m ρ c)
theorem W9_arg16 : W9 m ρ c (Proc.devRef .tc main_arg16) = m ((c : Thread nD τ).loc main_arg16) :=
  (Cert.KernelIdeal.Keeps.hostOps4_keep (W8 m ρ c) main_arg16 (by decide)).trans (W8_arg16 m ρ c)
theorem W10_arg16 : W10 m ρ c (Proc.devRef .tc main_arg16) = m ((c : Thread nD τ).loc main_arg16) :=
  (W10_of_ne m ρ c main_arg16 (by decide)).trans (W9_arg16 m ρ c)
theorem W11_arg16 : W11 m ρ c (Proc.devRef .tc main_arg16) = m ((c : Thread nD τ).loc main_arg16) :=
  (Cert.KernelIdeal.Keeps.hostOps5_keep (W10 m ρ c) main_arg16 (by decide)).trans (W10_arg16 m ρ c)
theorem W12_arg16 : W12 m ρ c (Proc.devRef .tc main_arg16) = m ((c : Thread nD τ).loc main_arg16) :=
  (W12_of_ne m ρ c main_arg16 (by decide)).trans (W11_arg16 m ρ c)
theorem W0_arg17 : W0 m ρ c (Proc.devRef .tc main_arg17) = m ((c : Thread nD τ).loc main_arg17) := rfl
theorem W1_arg17 : W1 m ρ c (Proc.devRef .tc main_arg17) = m ((c : Thread nD τ).loc main_arg17) :=
  (Cert.KernelIdeal.Keeps.hostOps0_keep (W0 m ρ c) main_arg17 (by decide)).trans (W0_arg17 m ρ c)
theorem W2_arg17 : W2 m ρ c (Proc.devRef .tc main_arg17) = m ((c : Thread nD τ).loc main_arg17) :=
  (W2_of_ne m ρ c main_arg17 (by decide)).trans (W1_arg17 m ρ c)
theorem W3_arg17 : W3 m ρ c (Proc.devRef .tc main_arg17) = m ((c : Thread nD τ).loc main_arg17) :=
  (Cert.KernelIdeal.Keeps.hostOps1_keep (W2 m ρ c) main_arg17 (by decide)).trans (W2_arg17 m ρ c)
theorem W4_arg17 : W4 m ρ c (Proc.devRef .tc main_arg17) = m ((c : Thread nD τ).loc main_arg17) :=
  (W4_of_ne m ρ c main_arg17 (by decide)).trans (W3_arg17 m ρ c)
theorem W5_arg17 : W5 m ρ c (Proc.devRef .tc main_arg17) = m ((c : Thread nD τ).loc main_arg17) :=
  (Cert.KernelIdeal.Keeps.hostOps2_keep (W4 m ρ c) main_arg17 (by decide)).trans (W4_arg17 m ρ c)
theorem W6_arg17 : W6 m ρ c (Proc.devRef .tc main_arg17) = m ((c : Thread nD τ).loc main_arg17) :=
  (W6_of_ne m ρ c main_arg17 (by decide)).trans (W5_arg17 m ρ c)
theorem W7_arg17 : W7 m ρ c (Proc.devRef .tc main_arg17) = m ((c : Thread nD τ).loc main_arg17) :=
  (Cert.KernelIdeal.Keeps.hostOps3_keep (W6 m ρ c) main_arg17 (by decide)).trans (W6_arg17 m ρ c)
theorem W8_arg17 : W8 m ρ c (Proc.devRef .tc main_arg17) = m ((c : Thread nD τ).loc main_arg17) :=
  (W8_of_ne m ρ c main_arg17 (by decide)).trans (W7_arg17 m ρ c)
theorem W9_arg17 : W9 m ρ c (Proc.devRef .tc main_arg17) = m ((c : Thread nD τ).loc main_arg17) :=
  (Cert.KernelIdeal.Keeps.hostOps4_keep (W8 m ρ c) main_arg17 (by decide)).trans (W8_arg17 m ρ c)
theorem W10_arg17 : W10 m ρ c (Proc.devRef .tc main_arg17) = m ((c : Thread nD τ).loc main_arg17) :=
  (W10_of_ne m ρ c main_arg17 (by decide)).trans (W9_arg17 m ρ c)
theorem W11_arg17 : W11 m ρ c (Proc.devRef .tc main_arg17) = m ((c : Thread nD τ).loc main_arg17) :=
  (Cert.KernelIdeal.Keeps.hostOps5_keep (W10 m ρ c) main_arg17 (by decide)).trans (W10_arg17 m ρ c)
theorem W12_arg17 : W12 m ρ c (Proc.devRef .tc main_arg17) = m ((c : Thread nD τ).loc main_arg17) :=
  (W12_of_ne m ρ c main_arg17 (by decide)).trans (W11_arg17 m ρ c)
theorem W0_arg18 : W0 m ρ c (Proc.devRef .tc main_arg18) = m ((c : Thread nD τ).loc main_arg18) := rfl
theorem W1_arg18 : W1 m ρ c (Proc.devRef .tc main_arg18) = m ((c : Thread nD τ).loc main_arg18) :=
  (Cert.KernelIdeal.Keeps.hostOps0_keep (W0 m ρ c) main_arg18 (by decide)).trans (W0_arg18 m ρ c)
theorem W2_arg18 : W2 m ρ c (Proc.devRef .tc main_arg18) = m ((c : Thread nD τ).loc main_arg18) :=
  (W2_of_ne m ρ c main_arg18 (by decide)).trans (W1_arg18 m ρ c)
theorem W3_arg18 : W3 m ρ c (Proc.devRef .tc main_arg18) = m ((c : Thread nD τ).loc main_arg18) :=
  (Cert.KernelIdeal.Keeps.hostOps1_keep (W2 m ρ c) main_arg18 (by decide)).trans (W2_arg18 m ρ c)
theorem W4_arg18 : W4 m ρ c (Proc.devRef .tc main_arg18) = m ((c : Thread nD τ).loc main_arg18) :=
  (W4_of_ne m ρ c main_arg18 (by decide)).trans (W3_arg18 m ρ c)
theorem W5_arg18 : W5 m ρ c (Proc.devRef .tc main_arg18) = m ((c : Thread nD τ).loc main_arg18) :=
  (Cert.KernelIdeal.Keeps.hostOps2_keep (W4 m ρ c) main_arg18 (by decide)).trans (W4_arg18 m ρ c)
theorem W6_arg18 : W6 m ρ c (Proc.devRef .tc main_arg18) = m ((c : Thread nD τ).loc main_arg18) :=
  (W6_of_ne m ρ c main_arg18 (by decide)).trans (W5_arg18 m ρ c)
theorem W7_arg18 : W7 m ρ c (Proc.devRef .tc main_arg18) = m ((c : Thread nD τ).loc main_arg18) :=
  (Cert.KernelIdeal.Keeps.hostOps3_keep (W6 m ρ c) main_arg18 (by decide)).trans (W6_arg18 m ρ c)
theorem W8_arg18 : W8 m ρ c (Proc.devRef .tc main_arg18) = m ((c : Thread nD τ).loc main_arg18) :=
  (W8_of_ne m ρ c main_arg18 (by decide)).trans (W7_arg18 m ρ c)
theorem W9_arg18 : W9 m ρ c (Proc.devRef .tc main_arg18) = m ((c : Thread nD τ).loc main_arg18) :=
  (Cert.KernelIdeal.Keeps.hostOps4_keep (W8 m ρ c) main_arg18 (by decide)).trans (W8_arg18 m ρ c)
theorem W10_arg18 : W10 m ρ c (Proc.devRef .tc main_arg18) = m ((c : Thread nD τ).loc main_arg18) :=
  (W10_of_ne m ρ c main_arg18 (by decide)).trans (W9_arg18 m ρ c)
theorem W11_arg18 : W11 m ρ c (Proc.devRef .tc main_arg18) = m ((c : Thread nD τ).loc main_arg18) :=
  (Cert.KernelIdeal.Keeps.hostOps5_keep (W10 m ρ c) main_arg18 (by decide)).trans (W10_arg18 m ρ c)
theorem W12_arg18 : W12 m ρ c (Proc.devRef .tc main_arg18) = m ((c : Thread nD τ).loc main_arg18) :=
  (W12_of_ne m ρ c main_arg18 (by decide)).trans (W11_arg18 m ρ c)
theorem W0_arg19 : W0 m ρ c (Proc.devRef .tc main_arg19) = m ((c : Thread nD τ).loc main_arg19) := rfl
theorem W1_arg19 : W1 m ρ c (Proc.devRef .tc main_arg19) = m ((c : Thread nD τ).loc main_arg19) :=
  (Cert.KernelIdeal.Keeps.hostOps0_keep (W0 m ρ c) main_arg19 (by decide)).trans (W0_arg19 m ρ c)
theorem W2_arg19 : W2 m ρ c (Proc.devRef .tc main_arg19) = m ((c : Thread nD τ).loc main_arg19) :=
  (W2_of_ne m ρ c main_arg19 (by decide)).trans (W1_arg19 m ρ c)
theorem W3_arg19 : W3 m ρ c (Proc.devRef .tc main_arg19) = m ((c : Thread nD τ).loc main_arg19) :=
  (Cert.KernelIdeal.Keeps.hostOps1_keep (W2 m ρ c) main_arg19 (by decide)).trans (W2_arg19 m ρ c)
theorem W4_arg19 : W4 m ρ c (Proc.devRef .tc main_arg19) = m ((c : Thread nD τ).loc main_arg19) :=
  (W4_of_ne m ρ c main_arg19 (by decide)).trans (W3_arg19 m ρ c)
theorem W5_arg19 : W5 m ρ c (Proc.devRef .tc main_arg19) = m ((c : Thread nD τ).loc main_arg19) :=
  (Cert.KernelIdeal.Keeps.hostOps2_keep (W4 m ρ c) main_arg19 (by decide)).trans (W4_arg19 m ρ c)
theorem W6_arg19 : W6 m ρ c (Proc.devRef .tc main_arg19) = m ((c : Thread nD τ).loc main_arg19) :=
  (W6_of_ne m ρ c main_arg19 (by decide)).trans (W5_arg19 m ρ c)
theorem W7_arg19 : W7 m ρ c (Proc.devRef .tc main_arg19) = m ((c : Thread nD τ).loc main_arg19) :=
  (Cert.KernelIdeal.Keeps.hostOps3_keep (W6 m ρ c) main_arg19 (by decide)).trans (W6_arg19 m ρ c)
theorem W8_arg19 : W8 m ρ c (Proc.devRef .tc main_arg19) = m ((c : Thread nD τ).loc main_arg19) :=
  (W8_of_ne m ρ c main_arg19 (by decide)).trans (W7_arg19 m ρ c)
theorem W9_arg19 : W9 m ρ c (Proc.devRef .tc main_arg19) = m ((c : Thread nD τ).loc main_arg19) :=
  (Cert.KernelIdeal.Keeps.hostOps4_keep (W8 m ρ c) main_arg19 (by decide)).trans (W8_arg19 m ρ c)
theorem W10_arg19 : W10 m ρ c (Proc.devRef .tc main_arg19) = m ((c : Thread nD τ).loc main_arg19) :=
  (W10_of_ne m ρ c main_arg19 (by decide)).trans (W9_arg19 m ρ c)
theorem W11_arg19 : W11 m ρ c (Proc.devRef .tc main_arg19) = m ((c : Thread nD τ).loc main_arg19) :=
  (Cert.KernelIdeal.Keeps.hostOps5_keep (W10 m ρ c) main_arg19 (by decide)).trans (W10_arg19 m ρ c)
theorem W12_arg19 : W12 m ρ c (Proc.devRef .tc main_arg19) = m ((c : Thread nD τ).loc main_arg19) :=
  (W12_of_ne m ρ c main_arg19 (by decide)).trans (W11_arg19 m ρ c)

end Cert.KernelIdeal.Carry

end
-- ==== Proof.LibSliceIdx.lean ====
/-
  Layout operations read at an index given by coordinates, at the shapes met when a stack of weight arrays
  [layer, relation, …] is cut into one layer's and then one relation's array: a slice of width one on the leading
  axis (or on the two leading axes), the reshape that drops the unit axes, and the two composed.
-/
import Idealize.ShloMosaic.Lib.ValueLayout

namespace Cert.SliceIdx

open Idealize.ShloMosaic Idealize.ShloMosaic.ValueIdx

variable {α : Type}

/-! ## A slice along the leading axis -/

/-- A rank-3 array cut along axis 0 from `o` reads, at `(j, c, e)`, the source at `(k, c, e)` with `k = o + j`. -/
theorem slice3_axis0_apply {n0 n1 n2 m : Nat} (o : Nat) (X : (⟨3, ![n0, n1, n2]⟩ : Shape).Idx → α)
    (h : (⟨3, ![n0, n1, n2]⟩ : Shape).Slices ![o, 0, 0] ⟨3, ![m, n1, n2]⟩)
    (j : Fin m) (c : Fin n1) (e : Fin n2) (k : Fin n0) (hk : k.val = o + j.val) :
    extractStridedSlice ⟨3, ![m, n1, n2]⟩ ![o, 0, 0] X h (ix3 j c e) = X (ix3 k c e) :=
  extractStridedSlice_apply _ _ _ _ _ (fun ax => by
    match ax with
    | ⟨0, _⟩ => exact hk
    | ⟨1, _⟩ => exact (Nat.zero_add _).symm
    | ⟨2, _⟩ => exact (Nat.zero_add _).symm)

/-- A rank-4 array cut along axis 0 from `o` reads, at `(j, b, c, e)`, the source at `(k, b, c, e)` with `k = o + j`. -/
theorem slice4_axis0_apply {n0 n1 n2 n3 m : Nat} (o : Nat) (X : (⟨4, ![n0, n1, n2, n3]⟩ : Shape).Idx → α)
    (h : (⟨4, ![n0, n1, n2, n3]⟩ : Shape).Slices ![o, 0, 0, 0] ⟨4, ![m, n1, n2, n3]⟩)
    (j : Fin m) (b : Fin n1) (c : Fin n2) (e : Fin n3) (k : Fin n0) (hk : k.val = o + j.val) :
    extractStridedSlice ⟨4, ![m, n1, n2, n3]⟩ ![o, 0, 0, 0] X h (ix4 j b c e) = X (ix4 k b c e) :=
  extractStridedSlice_apply _ _ _ _ _ (fun ax => by
    match ax with
    | ⟨0, _⟩ => exact hk
    | ⟨1, _⟩ => exact (Nat.zero_add _).symm
    | ⟨2, _⟩ => exact (Nat.zero_add _).symm
    | ⟨3, _⟩ => exact (Nat.zero_add _).symm)

/-- A rank-3 array cut along axes 0 and 1 from `o0` and `o1` reads, at `(i, j, e)`, the source at `(k0, k1, e)` with
`k0 = o0 + i` and `k1 = o1 + j`. -/
theorem slice3_axis01_apply {n0 n1 n2 m0 m1 : Nat} (o0 o1 : Nat) (X : (⟨3, ![n0, n1, n2]⟩ : Shape).Idx → α)
    (h : (⟨3, ![n0, n1, n2]⟩ : Shape).Slices ![o0, o1, 0] ⟨3, ![m0, m1, n2]⟩)
    (i : Fin m0) (j : Fin m1) (e : Fin n2) (k0 : Fin n0) (k1 : Fin n1)
    (hk0 : k0.val = o0 + i.val) (hk1 : k1.val = o1 + j.val) :
    extractStridedSlice ⟨3, ![m0, m1, n2]⟩ ![o0, o1, 0] X h (ix3 i j e) = X (ix3 k0 k1 e) :=
  extractStridedSlice_apply _ _ _ _ _ (fun ax => by
    match ax with
    | ⟨0, _⟩ => exact hk0
    | ⟨1, _⟩ => exact hk1
    | ⟨2, _⟩ => exact (Nat.zero_add _).symm)

/-! ## Two leading unit axes dropped by a shape cast -/

/-- A `[1, 1, a]` array cast to `[a]` reads, at `i`, the operand at `(0, 0, i)`. -/
theorem shapeCast_11a_a_apply {a : ℕ} (x : (⟨3, ![1, 1, a]⟩ : Shape).Idx → α)
    (h : (⟨3, ![1, 1, a]⟩ : Shape).ShapeCasts ⟨1, ![a]⟩) (i : Fin a) :
    shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    simp only [Nat.zero_mul, Nat.zero_add])

/-! ## Member `o` of a stack: the width-one slice on the leading axis, the unit axis dropped -/

/-- Member `o` of a `[n0, n1, n2, n3]` stack reads, at `(b, c, e)`, the stack at `(k, b, c, e)` with `k = o`. -/
theorem member4_apply {n0 n1 n2 n3 : Nat} (o : Nat) (X : (⟨4, ![n0, n1, n2, n3]⟩ : Shape).Idx → α)
    (h : (⟨4, ![n0, n1, n2, n3]⟩ : Shape).Slices ![o, 0, 0, 0] ⟨4, ![1, n1, n2, n3]⟩)
    (h' : (⟨4, ![1, n1, n2, n3]⟩ : Shape).ShapeCasts ⟨3, ![n1, n2, n3]⟩)
    (b : Fin n1) (c : Fin n2) (e : Fin n3) (k : Fin n0) (hk : k.val = o) :
    shapeCast ⟨3, ![n1, n2, n3]⟩ (extractStridedSlice ⟨4, ![1, n1, n2, n3]⟩ ![o, 0, 0, 0] X h) h' (ix3 b c e)
      = X (ix4 k b c e) :=
  (shapeCast_1abc_abc_apply _ h' b c e).trans (slice4_axis0_apply o X h (0 : Fin 1) b c e k hk)

/-- Member `o` of a `[n0, n1, n2]` stack reads, at `(c, e)`, the stack at `(k, c, e)` with `k = o`. -/
theorem member3_apply {n0 n1 n2 : Nat} (o : Nat) (X : (⟨3, ![n0, n1, n2]⟩ : Shape).Idx → α)
    (h : (⟨3, ![n0, n1, n2]⟩ : Shape).Slices ![o, 0, 0] ⟨3, ![1, n1, n2]⟩)
    (h' : (⟨3, ![1, n1, n2]⟩ : Shape).ShapeCasts ⟨2, ![n1, n2]⟩)
    (c : Fin n1) (e : Fin n2) (k : Fin n0) (hk : k.val = o) :
    shapeCast ⟨2, ![n1, n2]⟩ (extractStridedSlice ⟨3, ![1, n1, n2]⟩ ![o, 0, 0] X h) h' (ix2 c e) = X (ix3 k c e) :=
  (shapeCast_1ab_ab_apply _ h' c e).trans (slice3_axis0_apply o X h (0 : Fin 1) c e k hk)

/-- Row `o` of a `[n0, n1]` matrix reads, at `e`, the matrix at `(k, e)` with `k = o`. -/
theorem member2_apply {n0 n1 : Nat} (o : Nat) (X : (⟨2, ![n0, n1]⟩ : Shape).Idx → α)
    (h : (⟨2, ![n0, n1]⟩ : Shape).Slices ![o, 0] ⟨2, ![1, n1]⟩)
    (h' : (⟨2, ![1, n1]⟩ : Shape).ShapeCasts ⟨1, ![n1]⟩)
    (e : Fin n1) (k : Fin n0) (hk : k.val = o) :
    shapeCast ⟨1, ![n1]⟩ (extractStridedSlice ⟨2, ![1, n1]⟩ ![o, 0] X h) h' (ix1 e) = X (ix2 k e) :=
  (shapeCast_1a_a_apply _ h' e).trans (slice2_axis0_apply o X h (0 : Fin 1) e k hk)

/-- Row `(o0, o1)` of a `[n0, n1, n2]` array — the width-one slice on both leading axes, the two unit axes dropped —
reads, at `e`, the array at `(k0, k1, e)` with `k0 = o0` and `k1 = o1`. -/
theorem member3x2_apply {n0 n1 n2 : Nat} (o0 o1 : Nat) (X : (⟨3, ![n0, n1, n2]⟩ : Shape).Idx → α)
    (h : (⟨3, ![n0, n1, n2]⟩ : Shape).Slices ![o0, o1, 0] ⟨3, ![1, 1, n2]⟩)
    (h' : (⟨3, ![1, 1, n2]⟩ : Shape).ShapeCasts ⟨1, ![n2]⟩)
    (e : Fin n2) (k0 : Fin n0) (k1 : Fin n1) (hk0 : k0.val = o0) (hk1 : k1.val = o1) :
    shapeCast ⟨1, ![n2]⟩ (extractStridedSlice ⟨3, ![1, 1, n2]⟩ ![o0, o1, 0] X h) h' (ix1 e) = X (ix3 k0 k1 e) :=
  (shapeCast_11a_a_apply _ h' e).trans
    (slice3_axis01_apply o0 o1 X h (0 : Fin 1) (0 : Fin 1) e k0 k1 hk0 hk1)

end Cert.SliceIdx
-- ==== Proof.KWeights.lean ====
/-
  The kernel program's weight windows read at an index.

  Before each of its six kernel calls the host program cuts the per-layer weight arrays: Wl, Wr
  (2 x 6 x 128 x 128: layer, relation, out feature, in feature), bl (2 x 6 x 128), gamma, beta (2 x 3 x 128: layer,
  node type, feature). For a layer it takes member `l` of Wl, bl, Wr and transposes the last two axes of the two
  weight stacks; for a call it takes, of those, the members of two relations (a 128 x 128 matrix of each weight stack,
  a 128-vector of the bias), and row (layer, node type) of gamma and of beta. Each such array is, at an index, one
  entry of the array it was cut from: a member's entry (b, c, e) is the stack's entry (member, b, c, e), and a
  transposed matrix's entry (k, j) is the matrix's entry (j, k).
-/
import proofs.«159317_j31121333027532_1_alg».proof.Proof.Gen.KernelIdeal.Launch
import proofs.«159317_j31121333027532_1_alg».proof.Proof.LibSliceIdx

set_option maxRecDepth 16384

noncomputable section

namespace Cert.KernelIdeal.Val

open Cert.KernelIdeal Cert.KernelIdeal.Gen Idealize.ShloMosaic Idealize.ShloMosaic.StableHlo Idealize.ShloMosaic.ValueIdx
open Cert.SliceIdx

/-! ## The layer's arrays: member `l` of each stack, the weight stacks transposed -/

/-- First layer: the transposed left weights at (e, k, j) are Wl at (0, e, j, k). -/
theorem wlT0 (WK : Valuation τ sig (Elt Ideal)) (e : Fin 6) (k j : Fin 128) :
    (after hostOps0 WK (Proc.devRef .tc main_v21) : Vec Ideal S6x128x128 .f32) (ix3 e k j)
      = (WK (Proc.devRef .tc main_arg15) : Vec Ideal S2x6x128x128 .f32) (ix4 (0 : Fin 2) e j k) := by
  after_results_simp
  refine (transpose_ix3_021_apply _ _ e k j).trans ?_
  exact member4_apply 0 _ _ _ e j k (0 : Fin 2) rfl

/-- First layer: the transposed right weights at (e, k, j) are Wr at (0, e, j, k). -/
theorem wrT0 (WK : Valuation τ sig (Elt Ideal)) (e : Fin 6) (k j : Fin 128) :
    (after hostOps0 WK (Proc.devRef .tc main_v22) : Vec Ideal S6x128x128 .f32) (ix3 e k j)
      = (WK (Proc.devRef .tc main_arg17) : Vec Ideal S2x6x128x128 .f32) (ix4 (0 : Fin 2) e j k) := by
  after_results_simp
  refine (transpose_ix3_021_apply _ _ e k j).trans ?_
  exact member4_apply 0 _ _ _ e j k (0 : Fin 2) rfl

/-- First layer: the bias at (e, j) is bl at (0, e, j). -/
theorem bl0 (WK : Valuation τ sig (Elt Ideal)) (e : Fin 6) (j : Fin 128) :
    (after hostOps0 WK (Proc.devRef .tc main_v18) : Vec Ideal S6x128 .f32) (ix2 e j)
      = (WK (Proc.devRef .tc main_arg16) : Vec Ideal S2x6x128 .f32) (ix3 (0 : Fin 2) e j) := by
  after_results_simp
  exact member3_apply 0 _ _ _ e j (0 : Fin 2) rfl

/-- Second layer: the transposed left weights at (e, k, j) are Wl at (1, e, j, k). -/
theorem wlT1 (WK : Valuation τ sig (Elt Ideal)) (e : Fin 6) (k j : Fin 128) :
    (after hostOps3 WK (Proc.devRef .tc main_v218) : Vec Ideal S6x128x128 .f32) (ix3 e k j)
      = (WK (Proc.devRef .tc main_arg15) : Vec Ideal S2x6x128x128 .f32) (ix4 (1 : Fin 2) e j k) := by
  after_results_simp
  refine (transpose_ix3_021_apply _ _ e k j).trans ?_
  exact member4_apply 1 _ _ _ e j k (1 : Fin 2) rfl

/-- Second layer: the transposed right weights at (e, k, j) are Wr at (1, e, j, k). -/
theorem wrT1 (WK : Valuation τ sig (Elt Ideal)) (e : Fin 6) (k j : Fin 128) :
    (after hostOps3 WK (Proc.devRef .tc main_v219) : Vec Ideal S6x128x128 .f32) (ix3 e k j)
      = (WK (Proc.devRef .tc main_arg17) : Vec Ideal S2x6x128x128 .f32) (ix4 (1 : Fin 2) e j k) := by
  after_results_simp
  refine (transpose_ix3_021_apply _ _ e k j).trans ?_
  exact member4_apply 1 _ _ _ e j k (1 : Fin 2) rfl

/-- Second layer: the bias at (e, j) is bl at (1, e, j). -/
theorem bl1 (WK : Valuation τ sig (Elt Ideal)) (e : Fin 6) (j : Fin 128) :
    (after hostOps3 WK (Proc.devRef .tc main_v215) : Vec Ideal S6x128 .f32) (ix2 e j)
      = (WK (Proc.devRef .tc main_arg16) : Vec Ideal S2x6x128 .f32) (ix3 (1 : Fin 2) e j) := by
  after_results_simp
  exact member3_apply 1 _ _ _ e j (1 : Fin 2) rfl

/-! ## Call 0: relations 1 and 3, node type 0, first layer; cut in the same stretch, so read from the arguments -/

theorem win0_wl1 (WK : Valuation τ sig (Elt Ideal)) (k j : Fin 128) :
    (after hostOps0 WK (Proc.devRef .tc main_v162) : Vec Ideal S128x128 .f32) (ix2 k j)
      = (WK (Proc.devRef .tc main_arg15) : Vec Ideal S2x6x128x128 .f32) (ix4 (0 : Fin 2) (1 : Fin 6) j k) := by
  after_results_simp
  refine (member3_apply 1 _ _ _ k j (1 : Fin 6) rfl).trans ?_
  refine (transpose_ix3_021_apply _ _ (1 : Fin 6) k j).trans ?_
  exact member4_apply 0 _ _ _ (1 : Fin 6) j k (0 : Fin 2) rfl

theorem win0_wl2 (WK : Valuation τ sig (Elt Ideal)) (k j : Fin 128) :
    (after hostOps0 WK (Proc.devRef .tc main_v164) : Vec Ideal S128x128 .f32) (ix2 k j)
      = (WK (Proc.devRef .tc main_arg15) : Vec Ideal S2x6x128x128 .f32) (ix4 (0 : Fin 2) (3 : Fin 6) j k) := by
  after_results_simp
  refine (member3_apply 3 _ _ _ k j (3 : Fin 6) rfl).trans ?_
  refine (transpose_ix3_021_apply _ _ (3 : Fin 6) k j).trans ?_
  exact member4_apply 0 _ _ _ (3 : Fin 6) j k (0 : Fin 2) rfl

theorem win0_wr1 (WK : Valuation τ sig (Elt Ideal)) (k j : Fin 128) :
    (after hostOps0 WK (Proc.devRef .tc main_v166) : Vec Ideal S128x128 .f32) (ix2 k j)
      = (WK (Proc.devRef .tc main_arg17) : Vec Ideal S2x6x128x128 .f32) (ix4 (0 : Fin 2) (1 : Fin 6) j k) := by
  after_results_simp
  refine (member3_apply 1 _ _ _ k j (1 : Fin 6) rfl).trans ?_
  refine (transpose_ix3_021_apply _ _ (1 : Fin 6) k j).trans ?_
  exact member4_apply 0 _ _ _ (1 : Fin 6) j k (0 : Fin 2) rfl

theorem win0_wr2 (WK : Valuation τ sig (Elt Ideal)) (k j : Fin 128) :
    (after hostOps0 WK (Proc.devRef .tc main_v168) : Vec Ideal S128x128 .f32) (ix2 k j)
      = (WK (Proc.devRef .tc main_arg17) : Vec Ideal S2x6x128x128 .f32) (ix4 (0 : Fin 2) (3 : Fin 6) j k) := by
  after_results_simp
  refine (member3_apply 3 _ _ _ k j (3 : Fin 6) rfl).trans ?_
  refine (transpose_ix3_021_apply _ _ (3 : Fin 6) k j).trans ?_
  exact member4_apply 0 _ _ _ (3 : Fin 6) j k (0 : Fin 2) rfl

theorem win0_bl1 (WK : Valuation τ sig (Elt Ideal)) (j : Fin 128) :
    (after hostOps0 WK (Proc.devRef .tc main_v170) : Vec Ideal S128 .f32) (ix1 j)
      = (WK (Proc.devRef .tc main_arg16) : Vec Ideal S2x6x128 .f32) (ix3 (0 : Fin 2) (1 : Fin 6) j) := by
  after_results_simp
  refine (member2_apply 1 _ _ _ j (1 : Fin 6) rfl).trans ?_
  exact member3_apply 0 _ _ _ (1 : Fin 6) j (0 : Fin 2) rfl

theorem win0_bl2 (WK : Valuation τ sig (Elt Ideal)) (j : Fin 128) :
    (after hostOps0 WK (Proc.devRef .tc main_v172) : Vec Ideal S128 .f32) (ix1 j)
      = (WK (Proc.devRef .tc main_arg16) : Vec Ideal S2x6x128 .f32) (ix3 (0 : Fin 2) (3 : Fin 6) j) := by
  after_results_simp
  refine (member2_apply 3 _ _ _ j (3 : Fin 6) rfl).trans ?_
  exact member3_apply 0 _ _ _ (3 : Fin 6) j (0 : Fin 2) rfl

theorem win0_g (WK : Valuation τ sig (Elt Ideal)) (j : Fin 128) :
    (after hostOps0 WK (Proc.devRef .tc main_v174) : Vec Ideal S128 .f32) (ix1 j)
      = (WK (Proc.devRef .tc main_arg18) : Vec Ideal S2x3x128 .f32) (ix3 (0 : Fin 2) (0 : Fin 3) j) := by
  after_results_simp
  exact member3x2_apply 0 0 _ _ _ j (0 : Fin 2) (0 : Fin 3) rfl rfl

theorem win0_b (WK : Valuation τ sig (Elt Ideal)) (j : Fin 128) :
    (after hostOps0 WK (Proc.devRef .tc main_v176) : Vec Ideal S128 .f32) (ix1 j)
      = (WK (Proc.devRef .tc main_arg19) : Vec Ideal S2x3x128 .f32) (ix3 (0 : Fin 2) (0 : Fin 3) j) := by
  after_results_simp
  exact member3x2_apply 0 0 _ _ _ j (0 : Fin 2) (0 : Fin 3) rfl rfl

/-! ## Call 1: relations 0 and 5, node type 1, first layer; read from the layer's arrays at the stretch's start -/

theorem win1_wl1 (WK : Valuation τ sig (Elt Ideal)) (k j : Fin 128) :
    (after hostOps1 WK (Proc.devRef .tc main_v179) : Vec Ideal S128x128 .f32) (ix2 k j)
      = (WK (Proc.devRef .tc main_v21) : Vec Ideal S6x128x128 .f32) (ix3 (0 : Fin 6) k j) := by
  after_results_simp
  exact member3_apply 0 _ _ _ k j (0 : Fin 6) rfl

theorem win1_wl2 (WK : Valuation τ sig (Elt Ideal)) (k j : Fin 128) :
    (after hostOps1 WK (Proc.devRef .tc main_v181) : Vec Ideal S128x128 .f32) (ix2 k j)
      = (WK (Proc.devRef .tc main_v21) : Vec Ideal S6x128x128 .f32) (ix3 (5 : Fin 6) k j) := by
  after_results_simp
  exact member3_apply 5 _ _ _ k j (5 : Fin 6) rfl

theorem win1_wr1 (WK : Valuation τ sig (Elt Ideal)) (k j : Fin 128) :
    (after hostOps1 WK (Proc.devRef .tc main_v183) : Vec Ideal S128x128 .f32) (ix2 k j)
      = (WK (Proc.devRef .tc main_v22) : Vec Ideal S6x128x128 .f32) (ix3 (0 : Fin 6) k j) := by
  after_results_simp
  exact member3_apply 0 _ _ _ k j (0 : Fin 6) rfl

theorem win1_wr2 (WK : Valuation τ sig (Elt Ideal)) (k j : Fin 128) :
    (after hostOps1 WK (Proc.devRef .tc main_v185) : Vec Ideal S128x128 .f32) (ix2 k j)
      = (WK (Proc.devRef .tc main_v22) : Vec Ideal S6x128x128 .f32) (ix3 (5 : Fin 6) k j) := by
  after_results_simp
  exact member3_apply 5 _ _ _ k j (5 : Fin 6) rfl

theorem win1_bl1 (WK : Valuation τ sig (Elt Ideal)) (j : Fin 128) :
    (after hostOps1 WK (Proc.devRef .tc main_v187) : Vec Ideal S128 .f32) (ix1 j)
      = (WK (Proc.devRef .tc main_v18) : Vec Ideal S6x128 .f32) (ix2 (0 : Fin 6) j) := by
  after_results_simp
  exact member2_apply 0 _ _ _ j (0 : Fin 6) rfl

theorem win1_bl2 (WK : Valuation τ sig (Elt Ideal)) (j : Fin 128) :
    (after hostOps1 WK (Proc.devRef .tc main_v189) : Vec Ideal S128 .f32) (ix1 j)
      = (WK (Proc.devRef .tc main_v18) : Vec Ideal S6x128 .f32) (ix2 (5 : Fin 6) j) := by
  after_results_simp
  exact member2_apply 5 _ _ _ j (5 : Fin 6) rfl

theorem win1_g (WK : Valuation τ sig (Elt Ideal)) (j : Fin 128) :
    (after hostOps1 WK (Proc.devRef .tc main_v191) : Vec Ideal S128 .f32) (ix1 j)
      = (WK (Proc.devRef .tc main_arg18) : Vec Ideal S2x3x128 .f32) (ix3 (0 : Fin 2) (1 : Fin 3) j) := by
  after_results_simp
  exact member3x2_apply 0 1 _ _ _ j (0 : Fin 2) (1 : Fin 3) rfl rfl

theorem win1_b (WK : Valuation τ sig (Elt Ideal)) (j : Fin 128) :
    (after hostOps1 WK (Proc.devRef .tc main_v193) : Vec Ideal S128 .f32) (ix1 j)
      = (WK (Proc.devRef .tc main_arg19) : Vec Ideal S2x3x128 .f32) (ix3 (0 : Fin 2) (1 : Fin 3) j) := by
  after_results_simp
  exact member3x2_apply 0 1 _ _ _ j (0 : Fin 2) (1 : Fin 3) rfl rfl

/-! ## Call 2: relations 2 and 4, node type 2, first layer -/

theorem win2_wl1 (WK : Valuation τ sig (Elt Ideal)) (k j : Fin 128) :
    (after hostOps2 WK (Proc.devRef .tc main_v196) : Vec Ideal S128x128 .f32) (ix2 k j)
      = (WK (Proc.devRef .tc main_v21) : Vec Ideal S6x128x128 .f32) (ix3 (2 : Fin 6) k j) := by
  after_results_simp
  exact member3_apply 2 _ _ _ k j (2 : Fin 6) rfl

theorem win2_wl2 (WK : Valuation τ sig (Elt Ideal)) (k j : Fin 128) :
    (after hostOps2 WK (Proc.devRef .tc main_v198) : Vec Ideal S128x128 .f32) (ix2 k j)
      = (WK (Proc.devRef .tc main_v21) : Vec Ideal S6x128x128 .f32) (ix3 (4 : Fin 6) k j) := by
  after_results_simp
  exact member3_apply 4 _ _ _ k j (4 : Fin 6) rfl

theorem win2_wr1 (WK : Valuation τ sig (Elt Ideal)) (k j : Fin 128) :
    (after hostOps2 WK (Proc.devRef .tc main_v200) : Vec Ideal S128x128 .f32) (ix2 k j)
      = (WK (Proc.devRef .tc main_v22) : Vec Ideal S6x128x128 .f32) (ix3 (2 : Fin 6) k j) := by
  after_results_simp
  exact member3_apply 2 _ _ _ k j (2 : Fin 6) rfl

theorem win2_wr2 (WK : Valuation τ sig (Elt Ideal)) (k j : Fin 128) :
    (after hostOps2 WK (Proc.devRef .tc main_v202) : Vec Ideal S128x128 .f32) (ix2 k j)
      = (WK (Proc.devRef .tc main_v22) : Vec Ideal S6x128x128 .f32) (ix3 (4 : Fin 6) k j) := by
  after_results_simp
  exact member3_apply 4 _ _ _ k j (4 : Fin 6) rfl

theorem win2_bl1 (WK : Valuation τ sig (Elt Ideal)) (j : Fin 128) :
    (after hostOps2 WK (Proc.devRef .tc main_v204) : Vec Ideal S128 .f32) (ix1 j)
      = (WK (Proc.devRef .tc main_v18) : Vec Ideal S6x128 .f32) (ix2 (2 : Fin 6) j) := by
  after_results_simp
  exact member2_apply 2 _ _ _ j (2 : Fin 6) rfl

theorem win2_bl2 (WK : Valuation τ sig (Elt Ideal)) (j : Fin 128) :
    (after hostOps2 WK (Proc.devRef .tc main_v206) : Vec Ideal S128 .f32) (ix1 j)
      = (WK (Proc.devRef .tc main_v18) : Vec Ideal S6x128 .f32) (ix2 (4 : Fin 6) j) := by
  after_results_simp
  exact member2_apply 4 _ _ _ j (4 : Fin 6) rfl

theorem win2_g (WK : Valuation τ sig (Elt Ideal)) (j : Fin 128) :
    (after hostOps2 WK (Proc.devRef .tc main_v208) : Vec Ideal S128 .f32) (ix1 j)
      = (WK (Proc.devRef .tc main_arg18) : Vec Ideal S2x3x128 .f32) (ix3 (0 : Fin 2) (2 : Fin 3) j) := by
  after_results_simp
  exact member3x2_apply 0 2 _ _ _ j (0 : Fin 2) (2 : Fin 3) rfl rfl

theorem win2_b (WK : Valuation τ sig (Elt Ideal)) (j : Fin 128) :
    (after hostOps2 WK (Proc.devRef .tc main_v210) : Vec Ideal S128 .f32) (ix1 j)
      = (WK (Proc.devRef .tc main_arg19) : Vec Ideal S2x3x128 .f32) (ix3 (0 : Fin 2) (2 : Fin 3) j) := by
  after_results_simp
  exact member3x2_apply 0 2 _ _ _ j (0 : Fin 2) (2 : Fin 3) rfl rfl

/-! ## Call 3: relations 1 and 3, node type 0, second layer; cut in the same stretch, so read from the arguments -/

theorem win3_wl1 (WK : Valuation τ sig (Elt Ideal)) (k j : Fin 128) :
    (after hostOps3 WK (Proc.devRef .tc main_v359) : Vec Ideal S128x128 .f32) (ix2 k j)
      = (WK (Proc.devRef .tc main_arg15) : Vec Ideal S2x6x128x128 .f32) (ix4 (1 : Fin 2) (1 : Fin 6) j k) := by
  after_results_simp
  refine (member3_apply 1 _ _ _ k j (1 : Fin 6) rfl).trans ?_
  refine (transpose_ix3_021_apply _ _ (1 : Fin 6) k j).trans ?_
  exact member4_apply 1 _ _ _ (1 : Fin 6) j k (1 : Fin 2) rfl

theorem win3_wl2 (WK : Valuation τ sig (Elt Ideal)) (k j : Fin 128) :
    (after hostOps3 WK (Proc.devRef .tc main_v361) : Vec Ideal S128x128 .f32) (ix2 k j)
      = (WK (Proc.devRef .tc main_arg15) : Vec Ideal S2x6x128x128 .f32) (ix4 (1 : Fin 2) (3 : Fin 6) j k) := by
  after_results_simp
  refine (member3_apply 3 _ _ _ k j (3 : Fin 6) rfl).trans ?_
  refine (transpose_ix3_021_apply _ _ (3 : Fin 6) k j).trans ?_
  exact member4_apply 1 _ _ _ (3 : Fin 6) j k (1 : Fin 2) rfl

theorem win3_wr1 (WK : Valuation τ sig (Elt Ideal)) (k j : Fin 128) :
    (after hostOps3 WK (Proc.devRef .tc main_v363) : Vec Ideal S128x128 .f32) (ix2 k j)
      = (WK (Proc.devRef .tc main_arg17) : Vec Ideal S2x6x128x128 .f32) (ix4 (1 : Fin 2) (1 : Fin 6) j k) := by
  after_results_simp
  refine (member3_apply 1 _ _ _ k j (1 : Fin 6) rfl).trans ?_
  refine (transpose_ix3_021_apply _ _ (1 : Fin 6) k j).trans ?_
  exact member4_apply 1 _ _ _ (1 : Fin 6) j k (1 : Fin 2) rfl

theorem win3_wr2 (WK : Valuation τ sig (Elt Ideal)) (k j : Fin 128) :
    (after hostOps3 WK (Proc.devRef .tc main_v365) : Vec Ideal S128x128 .f32) (ix2 k j)
      = (WK (Proc.devRef .tc main_arg17) : Vec Ideal S2x6x128x128 .f32) (ix4 (1 : Fin 2) (3 : Fin 6) j k) := by
  after_results_simp
  refine (member3_apply 3 _ _ _ k j (3 : Fin 6) rfl).trans ?_
  refine (transpose_ix3_021_apply _ _ (3 : Fin 6) k j).trans ?_
  exact member4_apply 1 _ _ _ (3 : Fin 6) j k (1 : Fin 2) rfl

theorem win3_bl1 (WK : Valuation τ sig (Elt Ideal)) (j : Fin 128) :
    (after hostOps3 WK (Proc.devRef .tc main_v367) : Vec Ideal S128 .f32) (ix1 j)
      = (WK (Proc.devRef .tc main_arg16) : Vec Ideal S2x6x128 .f32) (ix3 (1 : Fin 2) (1 : Fin 6) j) := by
  after_results_simp
  refine (member2_apply 1 _ _ _ j (1 : Fin 6) rfl).trans ?_
  exact member3_apply 1 _ _ _ (1 : Fin 6) j (1 : Fin 2) rfl

theorem win3_bl2 (WK : Valuation τ sig (Elt Ideal)) (j : Fin 128) :
    (after hostOps3 WK (Proc.devRef .tc main_v369) : Vec Ideal S128 .f32) (ix1 j)
      = (WK (Proc.devRef .tc main_arg16) : Vec Ideal S2x6x128 .f32) (ix3 (1 : Fin 2) (3 : Fin 6) j) := by
  after_results_simp
  refine (member2_apply 3 _ _ _ j (3 : Fin 6) rfl).trans ?_
  exact member3_apply 1 _ _ _ (3 : Fin 6) j (1 : Fin 2) rfl

theorem win3_g (WK : Valuation τ sig (Elt Ideal)) (j : Fin 128) :
    (after hostOps3 WK (Proc.devRef .tc main_v371) : Vec Ideal S128 .f32) (ix1 j)
      = (WK (Proc.devRef .tc main_arg18) : Vec Ideal S2x3x128 .f32) (ix3 (1 : Fin 2) (0 : Fin 3) j) := by
  after_results_simp
  exact member3x2_apply 1 0 _ _ _ j (1 : Fin 2) (0 : Fin 3) rfl rfl

theorem win3_b (WK : Valuation τ sig (Elt Ideal)) (j : Fin 128) :
    (after hostOps3 WK (Proc.devRef .tc main_v373) : Vec Ideal S128 .f32) (ix1 j)
      = (WK (Proc.devRef .tc main_arg19) : Vec Ideal S2x3x128 .f32) (ix3 (1 : Fin 2) (0 : Fin 3) j) := by
  after_results_simp
  exact member3x2_apply 1 0 _ _ _ j (1 : Fin 2) (0 : Fin 3) rfl rfl

/-! ## Call 4: relations 0 and 5, node type 1, second layer; read from the layer's arrays at the stretch's start -/

theorem win4_wl1 (WK : Valuation τ sig (Elt Ideal)) (k j : Fin 128) :
    (after hostOps4 WK (Proc.devRef .tc main_v376) : Vec Ideal S128x128 .f32) (ix2 k j)
      = (WK (Proc.devRef .tc main_v218) : Vec Ideal S6x128x128 .f32) (ix3 (0 : Fin 6) k j) := by
  after_results_simp
  exact member3_apply 0 _ _ _ k j (0 : Fin 6) rfl

theorem win4_wl2 (WK : Valuation τ sig (Elt Ideal)) (k j : Fin 128) :
    (after hostOps4 WK (Proc.devRef .tc main_v378) : Vec Ideal S128x128 .f32) (ix2 k j)
      = (WK (Proc.devRef .tc main_v218) : Vec Ideal S6x128x128 .f32) (ix3 (5 : Fin 6) k j) := by
  after_results_simp
  exact member3_apply 5 _ _ _ k j (5 : Fin 6) rfl

theorem win4_wr1 (WK : Valuation τ sig (Elt Ideal)) (k j : Fin 128) :
    (after hostOps4 WK (Proc.devRef .tc main_v380) : Vec Ideal S128x128 .f32) (ix2 k j)
      = (WK (Proc.devRef .tc main_v219) : Vec Ideal S6x128x128 .f32) (ix3 (0 : Fin 6) k j) := by
  after_results_simp
  exact member3_apply 0 _ _ _ k j (0 : Fin 6) rfl

theorem win4_wr2 (WK : Valuation τ sig (Elt Ideal)) (k j : Fin 128) :
    (after hostOps4 WK (Proc.devRef .tc main_v382) : Vec Ideal S128x128 .f32) (ix2 k j)
      = (WK (Proc.devRef .tc main_v219) : Vec Ideal S6x128x128 .f32) (ix3 (5 : Fin 6) k j) := by
  after_results_simp
  exact member3_apply 5 _ _ _ k j (5 : Fin 6) rfl

theorem win4_bl1 (WK : Valuation τ sig (Elt Ideal)) (j : Fin 128) :
    (after hostOps4 WK (Proc.devRef .tc main_v384) : Vec Ideal S128 .f32) (ix1 j)
      = (WK (Proc.devRef .tc main_v215) : Vec Ideal S6x128 .f32) (ix2 (0 : Fin 6) j) := by
  after_results_simp
  exact member2_apply 0 _ _ _ j (0 : Fin 6) rfl

theorem win4_bl2 (WK : Valuation τ sig (Elt Ideal)) (j : Fin 128) :
    (after hostOps4 WK (Proc.devRef .tc main_v386) : Vec Ideal S128 .f32) (ix1 j)
      = (WK (Proc.devRef .tc main_v215) : Vec Ideal S6x128 .f32) (ix2 (5 : Fin 6) j) := by
  after_results_simp
  exact member2_apply 5 _ _ _ j (5 : Fin 6) rfl

theorem win4_g (WK : Valuation τ sig (Elt Ideal)) (j : Fin 128) :
    (after hostOps4 WK (Proc.devRef .tc main_v388) : Vec Ideal S128 .f32) (ix1 j)
      = (WK (Proc.devRef .tc main_arg18) : Vec Ideal S2x3x128 .f32) (ix3 (1 : Fin 2) (1 : Fin 3) j) := by
  after_results_simp
  exact member3x2_apply 1 1 _ _ _ j (1 : Fin 2) (1 : Fin 3) rfl rfl

theorem win4_b (WK : Valuation τ sig (Elt Ideal)) (j : Fin 128) :
    (after hostOps4 WK (Proc.devRef .tc main_v390) : Vec Ideal S128 .f32) (ix1 j)
      = (WK (Proc.devRef .tc main_arg19) : Vec Ideal S2x3x128 .f32) (ix3 (1 : Fin 2) (1 : Fin 3) j) := by
  after_results_simp
  exact member3x2_apply 1 1 _ _ _ j (1 : Fin 2) (1 : Fin 3) rfl rfl

/-! ## Call 5: relations 2 and 4, node type 2, second layer -/

theorem win5_wl1 (WK : Valuation τ sig (Elt Ideal)) (k j : Fin 128) :
    (after hostOps5 WK (Proc.devRef .tc main_v393) : Vec Ideal S128x128 .f32) (ix2 k j)
      = (WK (Proc.devRef .tc main_v218) : Vec Ideal S6x128x128 .f32) (ix3 (2 : Fin 6) k j) := by
  after_results_simp
  exact member3_apply 2 _ _ _ k j (2 : Fin 6) rfl

theorem win5_wl2 (WK : Valuation τ sig (Elt Ideal)) (k j : Fin 128) :
    (after hostOps5 WK (Proc.devRef .tc main_v395) : Vec Ideal S128x128 .f32) (ix2 k j)
      = (WK (Proc.devRef .tc main_v218) : Vec Ideal S6x128x128 .f32) (ix3 (4 : Fin 6) k j) := by
  after_results_simp
  exact member3_apply 4 _ _ _ k j (4 : Fin 6) rfl

theorem win5_wr1 (WK : Valuation τ sig (Elt Ideal)) (k j : Fin 128) :
    (after hostOps5 WK (Proc.devRef .tc main_v397) : Vec Ideal S128x128 .f32) (ix2 k j)
      = (WK (Proc.devRef .tc main_v219) : Vec Ideal S6x128x128 .f32) (ix3 (2 : Fin 6) k j) := by
  after_results_simp
  exact member3_apply 2 _ _ _ k j (2 : Fin 6) rfl

theorem win5_wr2 (WK : Valuation τ sig (Elt Ideal)) (k j : Fin 128) :
    (after hostOps5 WK (Proc.devRef .tc main_v399) : Vec Ideal S128x128 .f32) (ix2 k j)
      = (WK (Proc.devRef .tc main_v219) : Vec Ideal S6x128x128 .f32) (ix3 (4 : Fin 6) k j) := by
  after_results_simp
  exact member3_apply 4 _ _ _ k j (4 : Fin 6) rfl

theorem win5_bl1 (WK : Valuation τ sig (Elt Ideal)) (j : Fin 128) :
    (after hostOps5 WK (Proc.devRef .tc main_v401) : Vec Ideal S128 .f32) (ix1 j)
      = (WK (Proc.devRef .tc main_v215) : Vec Ideal S6x128 .f32) (ix2 (2 : Fin 6) j) := by
  after_results_simp
  exact member2_apply 2 _ _ _ j (2 : Fin 6) rfl

theorem win5_bl2 (WK : Valuation τ sig (Elt Ideal)) (j : Fin 128) :
    (after hostOps5 WK (Proc.devRef .tc main_v403) : Vec Ideal S128 .f32) (ix1 j)
      = (WK (Proc.devRef .tc main_v215) : Vec Ideal S6x128 .f32) (ix2 (4 : Fin 6) j) := by
  after_results_simp
  exact member2_apply 4 _ _ _ j (4 : Fin 6) rfl

theorem win5_g (WK : Valuation τ sig (Elt Ideal)) (j : Fin 128) :
    (after hostOps5 WK (Proc.devRef .tc main_v405) : Vec Ideal S128 .f32) (ix1 j)
      = (WK (Proc.devRef .tc main_arg18) : Vec Ideal S2x3x128 .f32) (ix3 (1 : Fin 2) (2 : Fin 3) j) := by
  after_results_simp
  exact member3x2_apply 1 2 _ _ _ j (1 : Fin 2) (2 : Fin 3) rfl rfl

theorem win5_b (WK : Valuation τ sig (Elt Ideal)) (j : Fin 128) :
    (after hostOps5 WK (Proc.devRef .tc main_v407) : Vec Ideal S128 .f32) (ix1 j)
      = (WK (Proc.devRef .tc main_arg19) : Vec Ideal S2x3x128 .f32) (ix3 (1 : Fin 2) (2 : Fin 3) j) := by
  after_results_simp
  exact member3x2_apply 1 2 _ _ _ j (1 : Fin 2) (2 : Fin 3) rfl rfl

end Cert.KernelIdeal.Val
-- ==== Proof.KWin.lean ====
/-
  The kernel program's weight windows in terms of its arguments.

  Each of the six kernel calls reads four weight matrices, two bias vectors, a scale vector and a shift vector. The
  host program cuts them from the argument arrays Wl, Wr (2 x 6 x 128 x 128: layer, relation, out feature, in feature),
  bl (2 x 6 x 128) and gamma, beta (2 x 3 x 128: layer, node type, feature): a call of layer l, node type t and
  relations e1, e2 reads Wl and Wr transposed at (l, e1) and (l, e2), bl at (l, e1) and (l, e2), gamma and beta at (l, t).
  The layer's arrays are cut once, before the layer's first call, and are not written again before the layer's later
  calls read them; the arguments are never written.
-/
import proofs.«159317_j31121333027532_1_alg».proof.Proof.KCarry
import proofs.«159317_j31121333027532_1_alg».proof.Proof.KWeights

set_option maxRecDepth 16384

noncomputable section

namespace Cert.KernelIdeal.Val

open Cert.KernelIdeal Cert.KernelIdeal.Gen Cert.KernelIdeal.GenP Cert.KernelIdeal.Carry
open Idealize.ShloMosaic Idealize.ShloMosaic.TcCoe Idealize.ShloMosaic.StableHlo Idealize.ShloMosaic.ValueIdx

variable (m : (ℓ : Loc nD τ sig) → Buf (Elt Ideal) ℓ) (ρ : Dev nD → PrngReg) (c : Dev nD)

/-! ## Kernel call 0: layer 0, node type 0, relations 1 and 3 -/

/-- Call 0's left weight window of relation 1 at (k, j) is the left weight argument at (0, 1, j, k). -/
theorem kwin0_wl1 (k j : Fin 128) :
    (W1 m ρ c (Proc.devRef .tc main_v162) : Vec Ideal S128x128 .f32) (ix2 k j)
      = (m ((c : Thread nD τ).loc main_arg15) : Vec Ideal S2x6x128x128 .f32) (ix4 (0 : Fin 2) (1 : Fin 6) j k) :=
  (win0_wl1 (W0 m ρ c) k j).trans (congrFun (W0_arg15 m ρ c) _)
/-- Call 0's left weight window of relation 3 at (k, j) is the left weight argument at (0, 3, j, k). -/
theorem kwin0_wl2 (k j : Fin 128) :
    (W1 m ρ c (Proc.devRef .tc main_v164) : Vec Ideal S128x128 .f32) (ix2 k j)
      = (m ((c : Thread nD τ).loc main_arg15) : Vec Ideal S2x6x128x128 .f32) (ix4 (0 : Fin 2) (3 : Fin 6) j k) :=
  (win0_wl2 (W0 m ρ c) k j).trans (congrFun (W0_arg15 m ρ c) _)
/-- Call 0's right weight window of relation 1 at (k, j) is the right weight argument at (0, 1, j, k). -/
theorem kwin0_wr1 (k j : Fin 128) :
    (W1 m ρ c (Proc.devRef .tc main_v166) : Vec Ideal S128x128 .f32) (ix2 k j)
      = (m ((c : Thread nD τ).loc main_arg17) : Vec Ideal S2x6x128x128 .f32) (ix4 (0 : Fin 2) (1 : Fin 6) j k) :=
  (win0_wr1 (W0 m ρ c) k j).trans (congrFun (W0_arg17 m ρ c) _)
/-- Call 0's right weight window of relation 3 at (k, j) is the right weight argument at (0, 3, j, k). -/
theorem kwin0_wr2 (k j : Fin 128) :
    (W1 m ρ c (Proc.devRef .tc main_v168) : Vec Ideal S128x128 .f32) (ix2 k j)
      = (m ((c : Thread nD τ).loc main_arg17) : Vec Ideal S2x6x128x128 .f32) (ix4 (0 : Fin 2) (3 : Fin 6) j k) :=
  (win0_wr2 (W0 m ρ c) k j).trans (congrFun (W0_arg17 m ρ c) _)
/-- Call 0's bias window of relation 1 at j is the bias argument at (0, 1, j). -/
theorem kwin0_bl1 (j : Fin 128) :
    (W1 m ρ c (Proc.devRef .tc main_v170) : Vec Ideal S128 .f32) (ix1 j)
      = (m ((c : Thread nD τ).loc main_arg16) : Vec Ideal S2x6x128 .f32) (ix3 (0 : Fin 2) (1 : Fin 6) j) :=
  (win0_bl1 (W0 m ρ c) j).trans (congrFun (W0_arg16 m ρ c) _)
/-- Call 0's bias window of relation 3 at j is the bias argument at (0, 3, j). -/
theorem kwin0_bl2 (j : Fin 128) :
    (W1 m ρ c (Proc.devRef .tc main_v172) : Vec Ideal S128 .f32) (ix1 j)
      = (m ((c : Thread nD τ).loc main_arg16) : Vec Ideal S2x6x128 .f32) (ix3 (0 : Fin 2) (3 : Fin 6) j) :=
  (win0_bl2 (W0 m ρ c) j).trans (congrFun (W0_arg16 m ρ c) _)
/-- Call 0's scale window at j is the scale argument at (0, 0, j). -/
theorem kwin0_g (j : Fin 128) :
    (W1 m ρ c (Proc.devRef .tc main_v174) : Vec Ideal S128 .f32) (ix1 j)
      = (m ((c : Thread nD τ).loc main_arg18) : Vec Ideal S2x3x128 .f32) (ix3 (0 : Fin 2) (0 : Fin 3) j) :=
  (win0_g (W0 m ρ c) j).trans (congrFun (W0_arg18 m ρ c) _)
/-- Call 0's shift window at j is the shift argument at (0, 0, j). -/
theorem kwin0_b (j : Fin 128) :
    (W1 m ρ c (Proc.devRef .tc main_v176) : Vec Ideal S128 .f32) (ix1 j)
      = (m ((c : Thread nD τ).loc main_arg19) : Vec Ideal S2x3x128 .f32) (ix3 (0 : Fin 2) (0 : Fin 3) j) :=
  (win0_b (W0 m ρ c) j).trans (congrFun (W0_arg19 m ρ c) _)

/-! ## Kernel call 1: layer 0, node type 1, relations 0 and 5 -/

/-- Call 1's left weight window of relation 0 at (k, j) is the left weight argument at (0, 0, j, k). -/
theorem kwin1_wl1 (k j : Fin 128) :
    (W3 m ρ c (Proc.devRef .tc main_v179) : Vec Ideal S128x128 .f32) (ix2 k j)
      = (m ((c : Thread nD τ).loc main_arg15) : Vec Ideal S2x6x128x128 .f32) (ix4 (0 : Fin 2) (0 : Fin 6) j k) :=
  ((win1_wl1 (W2 m ρ c) k j).trans (congrFun (carry_v21_1_2 m ρ c) _)).trans
    ((wlT0 (W0 m ρ c) (0 : Fin 6) k j).trans (congrFun (W0_arg15 m ρ c) _))
/-- Call 1's left weight window of relation 5 at (k, j) is the left weight argument at (0, 5, j, k). -/
theorem kwin1_wl2 (k j : Fin 128) :
    (W3 m ρ c (Proc.devRef .tc main_v181) : Vec Ideal S128x128 .f32) (ix2 k j)
      = (m ((c : Thread nD τ).loc main_arg15) : Vec Ideal S2x6x128x128 .f32) (ix4 (0 : Fin 2) (5 : Fin 6) j k) :=
  ((win1_wl2 (W2 m ρ c) k j).trans (congrFun (carry_v21_1_2 m ρ c) _)).trans
    ((wlT0 (W0 m ρ c) (5 : Fin 6) k j).trans (congrFun (W0_arg15 m ρ c) _))
/-- Call 1's right weight window of relation 0 at (k, j) is the right weight argument at (0, 0, j, k). -/
theorem kwin1_wr1 (k j : Fin 128) :
    (W3 m ρ c (Proc.devRef .tc main_v183) : Vec Ideal S128x128 .f32) (ix2 k j)
      = (m ((c : Thread nD τ).loc main_arg17) : Vec Ideal S2x6x128x128 .f32) (ix4 (0 : Fin 2) (0 : Fin 6) j k) :=
  ((win1_wr1 (W2 m ρ c) k j).trans (congrFun (carry_v22_1_2 m ρ c) _)).trans
    ((wrT0 (W0 m ρ c) (0 : Fin 6) k j).trans (congrFun (W0_arg17 m ρ c) _))
/-- Call 1's right weight window of relation 5 at (k, j) is the right weight argument at (0, 5, j, k). -/
theorem kwin1_wr2 (k j : Fin 128) :
    (W3 m ρ c (Proc.devRef .tc main_v185) : Vec Ideal S128x128 .f32) (ix2 k j)
      = (m ((c : Thread nD τ).loc main_arg17) : Vec Ideal S2x6x128x128 .f32) (ix4 (0 : Fin 2) (5 : Fin 6) j k) :=
  ((win1_wr2 (W2 m ρ c) k j).trans (congrFun (carry_v22_1_2 m ρ c) _)).trans
    ((wrT0 (W0 m ρ c) (5 : Fin 6) k j).trans (congrFun (W0_arg17 m ρ c) _))
/-- Call 1's bias window of relation 0 at j is the bias argument at (0, 0, j). -/
theorem kwin1_bl1 (j : Fin 128) :
    (W3 m ρ c (Proc.devRef .tc main_v187) : Vec Ideal S128 .f32) (ix1 j)
      = (m ((c : Thread nD τ).loc main_arg16) : Vec Ideal S2x6x128 .f32) (ix3 (0 : Fin 2) (0 : Fin 6) j) :=
  ((win1_bl1 (W2 m ρ c) j).trans (congrFun (carry_v18_1_2 m ρ c) _)).trans
    ((bl0 (W0 m ρ c) (0 : Fin 6) j).trans (congrFun (W0_arg16 m ρ c) _))
/-- Call 1's bias window of relation 5 at j is the bias argument at (0, 5, j). -/
theorem kwin1_bl2 (j : Fin 128) :
    (W3 m ρ c (Proc.devRef .tc main_v189) : Vec Ideal S128 .f32) (ix1 j)
      = (m ((c : Thread nD τ).loc main_arg16) : Vec Ideal S2x6x128 .f32) (ix3 (0 : Fin 2) (5 : Fin 6) j) :=
  ((win1_bl2 (W2 m ρ c) j).trans (congrFun (carry_v18_1_2 m ρ c) _)).trans
    ((bl0 (W0 m ρ c) (5 : Fin 6) j).trans (congrFun (W0_arg16 m ρ c) _))
/-- Call 1's scale window at j is the scale argument at (0, 1, j). -/
theorem kwin1_g (j : Fin 128) :
    (W3 m ρ c (Proc.devRef .tc main_v191) : Vec Ideal S128 .f32) (ix1 j)
      = (m ((c : Thread nD τ).loc main_arg18) : Vec Ideal S2x3x128 .f32) (ix3 (0 : Fin 2) (1 : Fin 3) j) :=
  (win1_g (W2 m ρ c) j).trans (congrFun (W2_arg18 m ρ c) _)
/-- Call 1's shift window at j is the shift argument at (0, 1, j). -/
theorem kwin1_b (j : Fin 128) :
    (W3 m ρ c (Proc.devRef .tc main_v193) : Vec Ideal S128 .f32) (ix1 j)
      = (m ((c : Thread nD τ).loc main_arg19) : Vec Ideal S2x3x128 .f32) (ix3 (0 : Fin 2) (1 : Fin 3) j) :=
  (win1_b (W2 m ρ c) j).trans (congrFun (W2_arg19 m ρ c) _)

/-! ## Kernel call 2: layer 0, node type 2, relations 2 and 4 -/

/-- Call 2's left weight window of relation 2 at (k, j) is the left weight argument at (0, 2, j, k). -/
theorem kwin2_wl1 (k j : Fin 128) :
    (W5 m ρ c (Proc.devRef .tc main_v196) : Vec Ideal S128x128 .f32) (ix2 k j)
      = (m ((c : Thread nD τ).loc main_arg15) : Vec Ideal S2x6x128x128 .f32) (ix4 (0 : Fin 2) (2 : Fin 6) j k) :=
  ((win2_wl1 (W4 m ρ c) k j).trans (congrFun (carry_v21_1_4 m ρ c) _)).trans
    ((wlT0 (W0 m ρ c) (2 : Fin 6) k j).trans (congrFun (W0_arg15 m ρ c) _))
/-- Call 2's left weight window of relation 4 at (k, j) is the left weight argument at (0, 4, j, k). -/
theorem kwin2_wl2 (k j : Fin 128) :
    (W5 m ρ c (Proc.devRef .tc main_v198) : Vec Ideal S128x128 .f32) (ix2 k j)
      = (m ((c : Thread nD τ).loc main_arg15) : Vec Ideal S2x6x128x128 .f32) (ix4 (0 : Fin 2) (4 : Fin 6) j k) :=
  ((win2_wl2 (W4 m ρ c) k j).trans (congrFun (carry_v21_1_4 m ρ c) _)).trans
    ((wlT0 (W0 m ρ c) (4 : Fin 6) k j).trans (congrFun (W0_arg15 m ρ c) _))
/-- Call 2's right weight window of relation 2 at (k, j) is the right weight argument at (0, 2, j, k). -/
theorem kwin2_wr1 (k j : Fin 128) :
    (W5 m ρ c (Proc.devRef .tc main_v200) : Vec Ideal S128x128 .f32) (ix2 k j)
      = (m ((c : Thread nD τ).loc main_arg17) : Vec Ideal S2x6x128x128 .f32) (ix4 (0 : Fin 2) (2 : Fin 6) j k) :=
  ((win2_wr1 (W4 m ρ c) k j).trans (congrFun (carry_v22_1_4 m ρ c) _)).trans
    ((wrT0 (W0 m ρ c) (2 : Fin 6) k j).trans (congrFun (W0_arg17 m ρ c) _))
/-- Call 2's right weight window of relation 4 at (k, j) is the right weight argument at (0, 4, j, k). -/
theorem kwin2_wr2 (k j : Fin 128) :
    (W5 m ρ c (Proc.devRef .tc main_v202) : Vec Ideal S128x128 .f32) (ix2 k j)
      = (m ((c : Thread nD τ).loc main_arg17) : Vec Ideal S2x6x128x128 .f32) (ix4 (0 : Fin 2) (4 : Fin 6) j k) :=
  ((win2_wr2 (W4 m ρ c) k j).trans (congrFun (carry_v22_1_4 m ρ c) _)).trans
    ((wrT0 (W0 m ρ c) (4 : Fin 6) k j).trans (congrFun (W0_arg17 m ρ c) _))
/-- Call 2's bias window of relation 2 at j is the bias argument at (0, 2, j). -/
theorem kwin2_bl1 (j : Fin 128) :
    (W5 m ρ c (Proc.devRef .tc main_v204) : Vec Ideal S128 .f32) (ix1 j)
      = (m ((c : Thread nD τ).loc main_arg16) : Vec Ideal S2x6x128 .f32) (ix3 (0 : Fin 2) (2 : Fin 6) j) :=
  ((win2_bl1 (W4 m ρ c) j).trans (congrFun (carry_v18_1_4 m ρ c) _)).trans
    ((bl0 (W0 m ρ c) (2 : Fin 6) j).trans (congrFun (W0_arg16 m ρ c) _))
/-- Call 2's bias window of relation 4 at j is the bias argument at (0, 4, j). -/
theorem kwin2_bl2 (j : Fin 128) :
    (W5 m ρ c (Proc.devRef .tc main_v206) : Vec Ideal S128 .f32) (ix1 j)
      = (m ((c : Thread nD τ).loc main_arg16) : Vec Ideal S2x6x128 .f32) (ix3 (0 : Fin 2) (4 : Fin 6) j) :=
  ((win2_bl2 (W4 m ρ c) j).trans (congrFun (carry_v18_1_4 m ρ c) _)).trans
    ((bl0 (W0 m ρ c) (4 : Fin 6) j).trans (congrFun (W0_arg16 m ρ c) _))
/-- Call 2's scale window at j is the scale argument at (0, 2, j). -/
theorem kwin2_g (j : Fin 128) :
    (W5 m ρ c (Proc.devRef .tc main_v208) : Vec Ideal S128 .f32) (ix1 j)
      = (m ((c : Thread nD τ).loc main_arg18) : Vec Ideal S2x3x128 .f32) (ix3 (0 : Fin 2) (2 : Fin 3) j) :=
  (win2_g (W4 m ρ c) j).trans (congrFun (W4_arg18 m ρ c) _)
/-- Call 2's shift window at j is the shift argument at (0, 2, j). -/
theorem kwin2_b (j : Fin 128) :
    (W5 m ρ c (Proc.devRef .tc main_v210) : Vec Ideal S128 .f32) (ix1 j)
      = (m ((c : Thread nD τ).loc main_arg19) : Vec Ideal S2x3x128 .f32) (ix3 (0 : Fin 2) (2 : Fin 3) j) :=
  (win2_b (W4 m ρ c) j).trans (congrFun (W4_arg19 m ρ c) _)

/-! ## Kernel call 3: layer 1, node type 0, relations 1 and 3 -/

/-- Call 3's left weight window of relation 1 at (k, j) is the left weight argument at (1, 1, j, k). -/
theorem kwin3_wl1 (k j : Fin 128) :
    (W7 m ρ c (Proc.devRef .tc main_v359) : Vec Ideal S128x128 .f32) (ix2 k j)
      = (m ((c : Thread nD τ).loc main_arg15) : Vec Ideal S2x6x128x128 .f32) (ix4 (1 : Fin 2) (1 : Fin 6) j k) :=
  (win3_wl1 (W6 m ρ c) k j).trans (congrFun (W6_arg15 m ρ c) _)
/-- Call 3's left weight window of relation 3 at (k, j) is the left weight argument at (1, 3, j, k). -/
theorem kwin3_wl2 (k j : Fin 128) :
    (W7 m ρ c (Proc.devRef .tc main_v361) : Vec Ideal S128x128 .f32) (ix2 k j)
      = (m ((c : Thread nD τ).loc main_arg15) : Vec Ideal S2x6x128x128 .f32) (ix4 (1 : Fin 2) (3 : Fin 6) j k) :=
  (win3_wl2 (W6 m ρ c) k j).trans (congrFun (W6_arg15 m ρ c) _)
/-- Call 3's right weight window of relation 1 at (k, j) is the right weight argument at (1, 1, j, k). -/
theorem kwin3_wr1 (k j : Fin 128) :
    (W7 m ρ c (Proc.devRef .tc main_v363) : Vec Ideal S128x128 .f32) (ix2 k j)
      = (m ((c : Thread nD τ).loc main_arg17) : Vec Ideal S2x6x128x128 .f32) (ix4 (1 : Fin 2) (1 : Fin 6) j k) :=
  (win3_wr1 (W6 m ρ c) k j).trans (congrFun (W6_arg17 m ρ c) _)
/-- Call 3's right weight window of relation 3 at (k, j) is the right weight argument at (1, 3, j, k). -/
theorem kwin3_wr2 (k j : Fin 128) :
    (W7 m ρ c (Proc.devRef .tc main_v365) : Vec Ideal S128x128 .f32) (ix2 k j)
      = (m ((c : Thread nD τ).loc main_arg17) : Vec Ideal S2x6x128x128 .f32) (ix4 (1 : Fin 2) (3 : Fin 6) j k) :=
  (win3_wr2 (W6 m ρ c) k j).trans (congrFun (W6_arg17 m ρ c) _)
/-- Call 3's bias window of relation 1 at j is the bias argument at (1, 1, j). -/
theorem kwin3_bl1 (j : Fin 128) :
    (W7 m ρ c (Proc.devRef .tc main_v367) : Vec Ideal S128 .f32) (ix1 j)
      = (m ((c : Thread nD τ).loc main_arg16) : Vec Ideal S2x6x128 .f32) (ix3 (1 : Fin 2) (1 : Fin 6) j) :=
  (win3_bl1 (W6 m ρ c) j).trans (congrFun (W6_arg16 m ρ c) _)
/-- Call 3's bias window of relation 3 at j is the bias argument at (1, 3, j). -/
theorem kwin3_bl2 (j : Fin 128) :
    (W7 m ρ c (Proc.devRef .tc main_v369) : Vec Ideal S128 .f32) (ix1 j)
      = (m ((c : Thread nD τ).loc main_arg16) : Vec Ideal S2x6x128 .f32) (ix3 (1 : Fin 2) (3 : Fin 6) j) :=
  (win3_bl2 (W6 m ρ c) j).trans (congrFun (W6_arg16 m ρ c) _)
/-- Call 3's scale window at j is the scale argument at (1, 0, j). -/
theorem kwin3_g (j : Fin 128) :
    (W7 m ρ c (Proc.devRef .tc main_v371) : Vec Ideal S128 .f32) (ix1 j)
      = (m ((c : Thread nD τ).loc main_arg18) : Vec Ideal S2x3x128 .f32) (ix3 (1 : Fin 2) (0 : Fin 3) j) :=
  (win3_g (W6 m ρ c) j).trans (congrFun (W6_arg18 m ρ c) _)
/-- Call 3's shift window at j is the shift argument at (1, 0, j). -/
theorem kwin3_b (j : Fin 128) :
    (W7 m ρ c (Proc.devRef .tc main_v373) : Vec Ideal S128 .f32) (ix1 j)
      = (m ((c : Thread nD τ).loc main_arg19) : Vec Ideal S2x3x128 .f32) (ix3 (1 : Fin 2) (0 : Fin 3) j) :=
  (win3_b (W6 m ρ c) j).trans (congrFun (W6_arg19 m ρ c) _)

/-! ## Kernel call 4: layer 1, node type 1, relations 0 and 5 -/

/-- Call 4's left weight window of relation 0 at (k, j) is the left weight argument at (1, 0, j, k). -/
theorem kwin4_wl1 (k j : Fin 128) :
    (W9 m ρ c (Proc.devRef .tc main_v376) : Vec Ideal S128x128 .f32) (ix2 k j)
      = (m ((c : Thread nD τ).loc main_arg15) : Vec Ideal S2x6x128x128 .f32) (ix4 (1 : Fin 2) (0 : Fin 6) j k) :=
  ((win4_wl1 (W8 m ρ c) k j).trans (congrFun (carry_v218_7_8 m ρ c) _)).trans
    ((wlT1 (W6 m ρ c) (0 : Fin 6) k j).trans (congrFun (W6_arg15 m ρ c) _))
/-- Call 4's left weight window of relation 5 at (k, j) is the left weight argument at (1, 5, j, k). -/
theorem kwin4_wl2 (k j : Fin 128) :
    (W9 m ρ c (Proc.devRef .tc main_v378) : Vec Ideal S128x128 .f32) (ix2 k j)
      = (m ((c : Thread nD τ).loc main_arg15) : Vec Ideal S2x6x128x128 .f32) (ix4 (1 : Fin 2) (5 : Fin 6) j k) :=
  ((win4_wl2 (W8 m ρ c) k j).trans (congrFun (carry_v218_7_8 m ρ c) _)).trans
    ((wlT1 (W6 m ρ c) (5 : Fin 6) k j).trans (congrFun (W6_arg15 m ρ c) _))
/-- Call 4's right weight window of relation 0 at (k, j) is the right weight argument at (1, 0, j, k). -/
theorem kwin4_wr1 (k j : Fin 128) :
    (W9 m ρ c (Proc.devRef .tc main_v380) : Vec Ideal S128x128 .f32) (ix2 k j)
      = (m ((c : Thread nD τ).loc main_arg17) : Vec Ideal S2x6x128x128 .f32) (ix4 (1 : Fin 2) (0 : Fin 6) j k) :=
  ((win4_wr1 (W8 m ρ c) k j).trans (congrFun (carry_v219_7_8 m ρ c) _)).trans
    ((wrT1 (W6 m ρ c) (0 : Fin 6) k j).trans (congrFun (W6_arg17 m ρ c) _))
/-- Call 4's right weight window of relation 5 at (k, j) is the right weight argument at (1, 5, j, k). -/
theorem kwin4_wr2 (k j : Fin 128) :
    (W9 m ρ c (Proc.devRef .tc main_v382) : Vec Ideal S128x128 .f32) (ix2 k j)
      = (m ((c : Thread nD τ).loc main_arg17) : Vec Ideal S2x6x128x128 .f32) (ix4 (1 : Fin 2) (5 : Fin 6) j k) :=
  ((win4_wr2 (W8 m ρ c) k j).trans (congrFun (carry_v219_7_8 m ρ c) _)).trans
    ((wrT1 (W6 m ρ c) (5 : Fin 6) k j).trans (congrFun (W6_arg17 m ρ c) _))
/-- Call 4's bias window of relation 0 at j is the bias argument at (1, 0, j). -/
theorem kwin4_bl1 (j : Fin 128) :
    (W9 m ρ c (Proc.devRef .tc main_v384) : Vec Ideal S128 .f32) (ix1 j)
      = (m ((c : Thread nD τ).loc main_arg16) : Vec Ideal S2x6x128 .f32) (ix3 (1 : Fin 2) (0 : Fin 6) j) :=
  ((win4_bl1 (W8 m ρ c) j).trans (congrFun (carry_v215_7_8 m ρ c) _)).trans
    ((bl1 (W6 m ρ c) (0 : Fin 6) j).trans (congrFun (W6_arg16 m ρ c) _))
/-- Call 4's bias window of relation 5 at j is the bias argument at (1, 5, j). -/
theorem kwin4_bl2 (j : Fin 128) :
    (W9 m ρ c (Proc.devRef .tc main_v386) : Vec Ideal S128 .f32) (ix1 j)
      = (m ((c : Thread nD τ).loc main_arg16) : Vec Ideal S2x6x128 .f32) (ix3 (1 : Fin 2) (5 : Fin 6) j) :=
  ((win4_bl2 (W8 m ρ c) j).trans (congrFun (carry_v215_7_8 m ρ c) _)).trans
    ((bl1 (W6 m ρ c) (5 : Fin 6) j).trans (congrFun (W6_arg16 m ρ c) _))
/-- Call 4's scale window at j is the scale argument at (1, 1, j). -/
theorem kwin4_g (j : Fin 128) :
    (W9 m ρ c (Proc.devRef .tc main_v388) : Vec Ideal S128 .f32) (ix1 j)
      = (m ((c : Thread nD τ).loc main_arg18) : Vec Ideal S2x3x128 .f32) (ix3 (1 : Fin 2) (1 : Fin 3) j) :=
  (win4_g (W8 m ρ c) j).trans (congrFun (W8_arg18 m ρ c) _)
/-- Call 4's shift window at j is the shift argument at (1, 1, j). -/
theorem kwin4_b (j : Fin 128) :
    (W9 m ρ c (Proc.devRef .tc main_v390) : Vec Ideal S128 .f32) (ix1 j)
      = (m ((c : Thread nD τ).loc main_arg19) : Vec Ideal S2x3x128 .f32) (ix3 (1 : Fin 2) (1 : Fin 3) j) :=
  (win4_b (W8 m ρ c) j).trans (congrFun (W8_arg19 m ρ c) _)

/-! ## Kernel call 5: layer 1, node type 2, relations 2 and 4 -/

/-- Call 5's left weight window of relation 2 at (k, j) is the left weight argument at (1, 2, j, k). -/
theorem kwin5_wl1 (k j : Fin 128) :
    (W11 m ρ c (Proc.devRef .tc main_v393) : Vec Ideal S128x128 .f32) (ix2 k j)
      = (m ((c : Thread nD τ).loc main_arg15) : Vec Ideal S2x6x128x128 .f32) (ix4 (1 : Fin 2) (2 : Fin 6) j k) :=
  ((win5_wl1 (W10 m ρ c) k j).trans (congrFun (carry_v218_7_10 m ρ c) _)).trans
    ((wlT1 (W6 m ρ c) (2 : Fin 6) k j).trans (congrFun (W6_arg15 m ρ c) _))
/-- Call 5's left weight window of relation 4 at (k, j) is the left weight argument at (1, 4, j, k). -/
theorem kwin5_wl2 (k j : Fin 128) :
    (W11 m ρ c (Proc.devRef .tc main_v395) : Vec Ideal S128x128 .f32) (ix2 k j)
      = (m ((c : Thread nD τ).loc main_arg15) : Vec Ideal S2x6x128x128 .f32) (ix4 (1 : Fin 2) (4 : Fin 6) j k) :=
  ((win5_wl2 (W10 m ρ c) k j).trans (congrFun (carry_v218_7_10 m ρ c) _)).trans
    ((wlT1 (W6 m ρ c) (4 : Fin 6) k j).trans (congrFun (W6_arg15 m ρ c) _))
/-- Call 5's right weight window of relation 2 at (k, j) is the right weight argument at (1, 2, j, k). -/
theorem kwin5_wr1 (k j : Fin 128) :
    (W11 m ρ c (Proc.devRef .tc main_v397) : Vec Ideal S128x128 .f32) (ix2 k j)
      = (m ((c : Thread nD τ).loc main_arg17) : Vec Ideal S2x6x128x128 .f32) (ix4 (1 : Fin 2) (2 : Fin 6) j k) :=
  ((win5_wr1 (W10 m ρ c) k j).trans (congrFun (carry_v219_7_10 m ρ c) _)).trans
    ((wrT1 (W6 m ρ c) (2 : Fin 6) k j).trans (congrFun (W6_arg17 m ρ c) _))
/-- Call 5's right weight window of relation 4 at (k, j) is the right weight argument at (1, 4, j, k). -/
theorem kwin5_wr2 (k j : Fin 128) :
    (W11 m ρ c (Proc.devRef .tc main_v399) : Vec Ideal S128x128 .f32) (ix2 k j)
      = (m ((c : Thread nD τ).loc main_arg17) : Vec Ideal S2x6x128x128 .f32) (ix4 (1 : Fin 2) (4 : Fin 6) j k) :=
  ((win5_wr2 (W10 m ρ c) k j).trans (congrFun (carry_v219_7_10 m ρ c) _)).trans
    ((wrT1 (W6 m ρ c) (4 : Fin 6) k j).trans (congrFun (W6_arg17 m ρ c) _))
/-- Call 5's bias window of relation 2 at j is the bias argument at (1, 2, j). -/
theorem kwin5_bl1 (j : Fin 128) :
    (W11 m ρ c (Proc.devRef .tc main_v401) : Vec Ideal S128 .f32) (ix1 j)
      = (m ((c : Thread nD τ).loc main_arg16) : Vec Ideal S2x6x128 .f32) (ix3 (1 : Fin 2) (2 : Fin 6) j) :=
  ((win5_bl1 (W10 m ρ c) j).trans (congrFun (carry_v215_7_10 m ρ c) _)).trans
    ((bl1 (W6 m ρ c) (2 : Fin 6) j).trans (congrFun (W6_arg16 m ρ c) _))
/-- Call 5's bias window of relation 4 at j is the bias argument at (1, 4, j). -/
theorem kwin5_bl2 (j : Fin 128) :
    (W11 m ρ c (Proc.devRef .tc main_v403) : Vec Ideal S128 .f32) (ix1 j)
      = (m ((c : Thread nD τ).loc main_arg16) : Vec Ideal S2x6x128 .f32) (ix3 (1 : Fin 2) (4 : Fin 6) j) :=
  ((win5_bl2 (W10 m ρ c) j).trans (congrFun (carry_v215_7_10 m ρ c) _)).trans
    ((bl1 (W6 m ρ c) (4 : Fin 6) j).trans (congrFun (W6_arg16 m ρ c) _))
/-- Call 5's scale window at j is the scale argument at (1, 2, j). -/
theorem kwin5_g (j : Fin 128) :
    (W11 m ρ c (Proc.devRef .tc main_v405) : Vec Ideal S128 .f32) (ix1 j)
      = (m ((c : Thread nD τ).loc main_arg18) : Vec Ideal S2x3x128 .f32) (ix3 (1 : Fin 2) (2 : Fin 3) j) :=
  (win5_g (W10 m ρ c) j).trans (congrFun (W10_arg18 m ρ c) _)
/-- Call 5's shift window at j is the shift argument at (1, 2, j). -/
theorem kwin5_b (j : Fin 128) :
    (W11 m ρ c (Proc.devRef .tc main_v407) : Vec Ideal S128 .f32) (ix1 j)
      = (m ((c : Thread nD τ).loc main_arg19) : Vec Ideal S2x3x128 .f32) (ix3 (1 : Fin 2) (2 : Fin 3) j) :=
  (win5_b (W10 m ρ c) j).trans (congrFun (W10_arg19 m ρ c) _)

end Cert.KernelIdeal.Val

end
-- ==== Proof.RefChunks.lean ====
import proofs.«159317_j31121333027532_1_alg».proof.Proof.RefRun
import Idealize.ShloMosaic.Lib.Pipeline.Frame

noncomputable section

namespace Cert.ReferenceIdeal.Chunks

open Cert.ReferenceIdeal Cert.ReferenceIdeal.Gen Cert.ReferenceIdeal.RefRun Idealize.ShloMosaic Idealize.ShloMosaic.TcCoe Idealize.SL.Sem Idealize.ShloMosaic.StableHlo

variable {F : FTy → Type} [FloatOps F]

/-- Operations 0 to 14 of @main. -/
abbrev cP : List (HloOp τ sig (Elt F)) :=
  [ unary main_arg9 main_v0 ((transpose S6x128 [1, 0] · transposes_S128x6_S6x128_1_0) : (⟨S128x6, .f32⟩ : BufTy).Contents (Elt F) → (⟨S6x128, .f32⟩ : BufTy).Contents (Elt F)),
    binary main_arg0 main_v0 main_v1 ((fun l r => Host.dotGeneral dot_S100000x6_S6x128_S100000x128_1_0_0_1_n_n none l r) : (⟨S100000x6, .f32⟩ : BufTy).Contents (Elt F) → (⟨S6x128, .f32⟩ : BufTy).Contents (Elt F) → (⟨S100000x128, .f32⟩ : BufTy).Contents (Elt F)),
    unary main_arg10 main_v2 (broadcastInDim S1x128 ![1] bcast_S128_S1x128_1 : (⟨S128, .f32⟩ : BufTy).Contents (Elt F) → (⟨S1x128, .f32⟩ : BufTy).Contents (Elt F)),
    unary main_v2 main_v3 (broadcastInDim S100000x128 ![0, 1] bcast_S1x128_S100000x128_0_1 : (⟨S1x128, .f32⟩ : BufTy).Contents (Elt F) → (⟨S100000x128, .f32⟩ : BufTy).Contents (Elt F)),
    binary main_v1 main_v3 main_v4 (addf : (⟨S100000x128, .f32⟩ : BufTy).Contents (Elt F) → (⟨S100000x128, .f32⟩ : BufTy).Contents (Elt F) → (⟨S100000x128, .f32⟩ : BufTy).Contents (Elt F)),
    unary main_arg11 main_v5 ((transpose S4x128 [1, 0] · transposes_S128x4_S4x128_1_0) : (⟨S128x4, .f32⟩ : BufTy).Contents (Elt F) → (⟨S4x128, .f32⟩ : BufTy).Contents (Elt F)),
    binary main_arg1 main_v5 main_v6 ((fun l r => Host.dotGeneral dot_S50000x4_S4x128_S50000x128_1_0_0_1_n_n none l r) : (⟨S50000x4, .f32⟩ : BufTy).Contents (Elt F) → (⟨S4x128, .f32⟩ : BufTy).Contents (Elt F) → (⟨S50000x128, .f32⟩ : BufTy).Contents (Elt F)),
    unary main_arg12 main_v7 (broadcastInDim S1x128 ![1] bcast_S128_S1x128_1 : (⟨S128, .f32⟩ : BufTy).Contents (Elt F) → (⟨S1x128, .f32⟩ : BufTy).Contents (Elt F)),
    unary main_v7 main_v8 (broadcastInDim S50000x128 ![0, 1] bcast_S1x128_S50000x128_0_1 : (⟨S1x128, .f32⟩ : BufTy).Contents (Elt F) → (⟨S50000x128, .f32⟩ : BufTy).Contents (Elt F)),
    binary main_v6 main_v8 main_v9 (addf : (⟨S50000x128, .f32⟩ : BufTy).Contents (Elt F) → (⟨S50000x128, .f32⟩ : BufTy).Contents (Elt F) → (⟨S50000x128, .f32⟩ : BufTy).Contents (Elt F)),
    unary main_arg13 main_v10 ((transpose S3x128 [1, 0] · transposes_S128x3_S3x128_1_0) : (⟨S128x3, .f32⟩ : BufTy).Contents (Elt F) → (⟨S3x128, .f32⟩ : BufTy).Contents (Elt F)),
    binary main_arg2 main_v10 main_v11 ((fun l r => Host.dotGeneral dot_S5000x3_S3x128_S5000x128_1_0_0_1_n_n none l r) : (⟨S5000x3, .f32⟩ : BufTy).Contents (Elt F) → (⟨S3x128, .f32⟩ : BufTy).Contents (Elt F) → (⟨S5000x128, .f32⟩ : BufTy).Contents (Elt F)),
    unary main_arg14 main_v12 (broadcastInDim S1x128 ![1] bcast_S128_S1x128_1 : (⟨S128, .f32⟩ : BufTy).Contents (Elt F) → (⟨S1x128, .f32⟩ : BufTy).Contents (Elt F)),
    unary main_v12 main_v13 (broadcastInDim S5000x128 ![0, 1] bcast_S1x128_S5000x128_0_1 : (⟨S1x128, .f32⟩ : BufTy).Contents (Elt F) → (⟨S5000x128, .f32⟩ : BufTy).Contents (Elt F)),
    binary main_v11 main_v13 main_v14 (addf : (⟨S5000x128, .f32⟩ : BufTy).Contents (Elt F) → (⟨S5000x128, .f32⟩ : BufTy).Contents (Elt F) → (⟨S5000x128, .f32⟩ : BufTy).Contents (Elt F)) ]
/-- The buffers this stretch writes. -/
abbrev cP_W : List (Ref sig .tc) := [main_v0, main_v1, main_v2, main_v3, main_v4, main_v5, main_v6, main_v7, main_v8, main_v9, main_v10, main_v11, main_v12, main_v13, main_v14]
theorem cP_writes : (cP : List (HloOp τ sig (Elt F))).Forall fun op => op.writes ⊆ (cP_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩

/-- Operations 15 to 20 of @main. -/
abbrev cL0 : List (HloOp τ sig (Elt F)) :=
  [ unary main_arg15 main_v15 ((extractStridedSlice S1x6x128x128 ![0, 0, 0, 0] · slices_S2x6x128x128_S1x6x128x128_0_0_0_0) : (⟨S2x6x128x128, .f32⟩ : BufTy).Contents (Elt F) → (⟨S1x6x128x128, .f32⟩ : BufTy).Contents (Elt F)),
    reshape main_v15 main_v16 rfl shapeCasts_S1x6x128x128_S6x128x128,
    unary main_arg16 main_v17 ((extractStridedSlice S1x6x128 ![0, 0, 0] · slices_S2x6x128_S1x6x128_0_0_0) : (⟨S2x6x128, .f32⟩ : BufTy).Contents (Elt F) → (⟨S1x6x128, .f32⟩ : BufTy).Contents (Elt F)),
    reshape main_v17 main_v18 rfl shapeCasts_S1x6x128_S6x128,
    unary main_arg17 main_v19 ((extractStridedSlice S1x6x128x128 ![0, 0, 0, 0] · slices_S2x6x128x128_S1x6x128x128_0_0_0_0) : (⟨S2x6x128x128, .f32⟩ : BufTy).Contents (Elt F) → (⟨S1x6x128x128, .f32⟩ : BufTy).Contents (Elt F)),
    reshape main_v19 main_v20 rfl shapeCasts_S1x6x128x128_S6x128x128 ]
/-- The buffers this stretch writes. -/
abbrev cL0_W : List (Ref sig .tc) := [main_v15, main_v16, main_v17, main_v18, main_v19, main_v20]
theorem cL0_writes : (cL0 : List (HloOp τ sig (Elt F))).Forall fun op => op.writes ⊆ (cL0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩

/-- Operations 21 to 63 of @main. -/
abbrev cE0_0 : List (HloOp τ sig (Elt F)) :=
  [ unary main_v16 main_v21 ((extractStridedSlice S1x128x128 ![0, 0, 0] · slices_S6x128x128_S1x128x128_0_0_0) : (⟨S6x128x128, .f32⟩ : BufTy).Contents (Elt F) → (⟨S1x128x128, .f32⟩ : BufTy).Contents (Elt F)),
    reshape main_v21 main_v22 rfl shapeCasts_S1x128x128_S128x128,
    unary main_v18 main_v23 ((extractStridedSlice S1x128 ![0, 0] · slices_S6x128_S1x128_0_0) : (⟨S6x128, .f32⟩ : BufTy).Contents (Elt F) → (⟨S1x128, .f32⟩ : BufTy).Contents (Elt F)),
    reshape main_v23 main_v24 rfl shapeCasts_S1x128_S128,
    unary main_v20 main_v25 ((extractStridedSlice S1x128x128 ![0, 0, 0] · slices_S6x128x128_S1x128x128_0_0_0) : (⟨S6x128x128, .f32⟩ : BufTy).Contents (Elt F) → (⟨S1x128x128, .f32⟩ : BufTy).Contents (Elt F)),
    reshape main_v25 main_v26 rfl shapeCasts_S1x128x128_S128x128,
    unary main_arg3 main_v27 ((extractStridedSlice S1x500000 ![0, 0] · slices_S2x500000_S1x500000_0_0) : (⟨S2x500000, .i32⟩ : BufTy).Contents (Elt F) → (⟨S1x500000, .i32⟩ : BufTy).Contents (Elt F)),
    reshape main_v27 main_v28 rfl shapeCasts_S1x500000_S500000,
    unary main_arg3 main_v29 ((extractStridedSlice S1x500000 ![1, 0] · slices_S2x500000_S1x500000_1_0) : (⟨S2x500000, .i32⟩ : BufTy).Contents (Elt F) → (⟨S1x500000, .i32⟩ : BufTy).Contents (Elt F)),
    reshape main_v29 main_v30 rfl shapeCasts_S1x500000_S500000,
    nullary main_c (constantI S_ 32 0#32),
    unary main_c main_v31 (broadcastInDim S500000 ![] bcast_S_S500000 : (⟨S_, .i32⟩ : BufTy).Contents (Elt F) → (⟨S500000, .i32⟩ : BufTy).Contents (Elt F)),
    binary main_v28 main_v31 main_v32 (cmpi .slt : (⟨S500000, .i32⟩ : BufTy).Contents (Elt F) → (⟨S500000, .i32⟩ : BufTy).Contents (Elt F) → (⟨S500000, .i1⟩ : BufTy).Contents (Elt F)),
    nullary main_c_0 (constantI S_ 32 100000#32),
    unary main_c_0 main_v33 (broadcastInDim S500000 ![] bcast_S_S500000 : (⟨S_, .i32⟩ : BufTy).Contents (Elt F) → (⟨S500000, .i32⟩ : BufTy).Contents (Elt F)),
    binary main_v28 main_v33 main_v34 (addi : (⟨S500000, .i32⟩ : BufTy).Contents (Elt F) → (⟨S500000, .i32⟩ : BufTy).Contents (Elt F) → (⟨S500000, .i32⟩ : BufTy).Contents (Elt F)),
    ternary main_v32 main_v34 main_v28 main_v35 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v35 main_v36 (broadcastInDim S500000x1 ![0] bcast_S500000_S500000x1_0 : (⟨S500000, .i32⟩ : BufTy).Contents (Elt F) → (⟨S500000x1, .i32⟩ : BufTy).Contents (Elt F)),
    binary main_v4 main_v36 main_v37 ((fun x i => Host.gather gather_S100000x128_S500000x1_S500000x128_1_0_n_n_0_1_1128 x i) : (⟨S100000x128, .f32⟩ : BufTy).Contents (Elt F) → (⟨S500000x1, .i32⟩ : BufTy).Contents (Elt F) → (⟨S500000x128, .f32⟩ : BufTy).Contents (Elt F)),
    nullary main_cst (constant S_ .f32 0x00000000#32),
    unary main_cst main_v38 (broadcastInDim S50000x128 ![] bcast_S_S50000x128 : (⟨S_, .f32⟩ : BufTy).Contents (Elt F) → (⟨S50000x128, .f32⟩ : BufTy).Contents (Elt F)),
    unary main_v30 main_v39 (broadcastInDim S500000x1 ![0] bcast_S500000_S500000x1_0 : (⟨S500000, .i32⟩ : BufTy).Contents (Elt F) → (⟨S500000x1, .i32⟩ : BufTy).Contents (Elt F)),
    ternary main_v38 main_v39 main_v37 main_v40 ((fun x i u => Host.scatterAdd scatter_S50000x128_S500000x1_S500000x128_1_0_0_1 x i u) : (⟨S50000x128, .f32⟩ : BufTy).Contents (Elt F) → (⟨S500000x1, .i32⟩ : BufTy).Contents (Elt F) → (⟨S500000x128, .f32⟩ : BufTy).Contents (Elt F) → (⟨S50000x128, .f32⟩ : BufTy).Contents (Elt F)),
    nullary main_cst_1 (constant S_ .f32 0x3F800000#32),
    unary main_cst_1 main_v41 (broadcastInDim S500000 ![] bcast_S_S500000 : (⟨S_, .f32⟩ : BufTy).Contents (Elt F) → (⟨S500000, .f32⟩ : BufTy).Contents (Elt F)),
    nullary main_cst_2 (constant S_ .f32 0x00000000#32),
    unary main_cst_2 main_v42 (broadcastInDim S50000 ![] bcast_S_S50000 : (⟨S_, .f32⟩ : BufTy).Contents (Elt F) → (⟨S50000, .f32⟩ : BufTy).Contents (Elt F)),
    unary main_v30 main_v43 (broadcastInDim S500000x1 ![0] bcast_S500000_S500000x1_0 : (⟨S500000, .i32⟩ : BufTy).Contents (Elt F) → (⟨S500000x1, .i32⟩ : BufTy).Contents (Elt F)),
    ternary main_v42 main_v43 main_v41 main_v44 ((fun x i u => Host.scatterAdd scatter_S50000_S500000x1_S500000_n_0_0_1 x i u) : (⟨S50000, .f32⟩ : BufTy).Contents (Elt F) → (⟨S500000x1, .i32⟩ : BufTy).Contents (Elt F) → (⟨S500000, .f32⟩ : BufTy).Contents (Elt F) → (⟨S50000, .f32⟩ : BufTy).Contents (Elt F)),
    nullary main_cst_3 (constant S_ .f32 0x3F800000#32),
    unary main_cst_3 main_v45 (broadcastInDim S50000 ![] bcast_S_S50000 : (⟨S_, .f32⟩ : BufTy).Contents (Elt F) → (⟨S50000, .f32⟩ : BufTy).Contents (Elt F)),
    binary main_v44 main_v45 main_v46 (maximumf : (⟨S50000, .f32⟩ : BufTy).Contents (Elt F) → (⟨S50000, .f32⟩ : BufTy).Contents (Elt F) → (⟨S50000, .f32⟩ : BufTy).Contents (Elt F)),
    unary main_v46 main_v47 (broadcastInDim S50000x1 ![0] bcast_S50000_S50000x1_0 : (⟨S50000, .f32⟩ : BufTy).Contents (Elt F) → (⟨S50000x1, .f32⟩ : BufTy).Contents (Elt F)),
    unary main_v47 main_v48 (broadcastInDim S50000x128 ![0, 1] bcast_S50000x1_S50000x128_0_1 : (⟨S50000x1, .f32⟩ : BufTy).Contents (Elt F) → (⟨S50000x128, .f32⟩ : BufTy).Contents (Elt F)),
    binary main_v40 main_v48 main_v49 (Host.divf : (⟨S50000x128, .f32⟩ : BufTy).Contents (Elt F) → (⟨S50000x128, .f32⟩ : BufTy).Contents (Elt F) → (⟨S50000x128, .f32⟩ : BufTy).Contents (Elt F)),
    unary main_v22 main_v50 ((transpose S128x128 [1, 0] · transposes_S128x128_S128x128_1_0) : (⟨S128x128, .f32⟩ : BufTy).Contents (Elt F) → (⟨S128x128, .f32⟩ : BufTy).Contents (Elt F)),
    binary main_v49 main_v50 main_v51 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_v24 main_v52 (broadcastInDim S1x128 ![1] bcast_S128_S1x128_1 : (⟨S128, .f32⟩ : BufTy).Contents (Elt F) → (⟨S1x128, .f32⟩ : BufTy).Contents (Elt F)),
    unary main_v52 main_v53 (broadcastInDim S50000x128 ![0, 1] bcast_S1x128_S50000x128_0_1 : (⟨S1x128, .f32⟩ : BufTy).Contents (Elt F) → (⟨S50000x128, .f32⟩ : BufTy).Contents (Elt F)),
    binary main_v51 main_v53 main_v54 (addf : (⟨S50000x128, .f32⟩ : BufTy).Contents (Elt F) → (⟨S50000x128, .f32⟩ : BufTy).Contents (Elt F) → (⟨S50000x128, .f32⟩ : BufTy).Contents (Elt F)),
    unary main_v26 main_v55 ((transpose S128x128 [1, 0] · transposes_S128x128_S128x128_1_0) : (⟨S128x128, .f32⟩ : BufTy).Contents (Elt F) → (⟨S128x128, .f32⟩ : BufTy).Contents (Elt F)),
    binary main_v9 main_v55 main_v56 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v54 main_v56 main_v57 (addf : (⟨S50000x128, .f32⟩ : BufTy).Contents (Elt F) → (⟨S50000x128, .f32⟩ : BufTy).Contents (Elt F) → (⟨S50000x128, .f32⟩ : BufTy).Contents (Elt F)) ]
/-- The buffers this stretch writes. -/
abbrev cE0_0_W : List (Ref sig .tc) := [main_v21, main_v22, main_v23, main_v24, main_v25, main_v26, main_v27, main_v28, main_v29, main_v30, main_c, main_v31, main_v32, main_c_0, main_v33, main_v34, main_v35, main_v36, main_v37, main_cst, main_v38, main_v39, main_v40, main_cst_1, main_v41, main_cst_2, main_v42, main_v43, main_v44, main_cst_3, main_v45, main_v46, main_v47, main_v48, main_v49, main_v50, main_v51, main_v52, main_v53, main_v54, main_v55, main_v56, main_v57]
theorem cE0_0_writes : (cE0_0 : List (HloOp τ sig (Elt F))).Forall fun op => op.writes ⊆ (cE0_0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩

/-- Operations 64 to 106 of @main. -/
abbrev cE0_1 : List (HloOp τ sig (Elt F)) :=
  [ unary main_v16 main_v58 ((extractStridedSlice S1x128x128 ![1, 0, 0] · slices_S6x128x128_S1x128x128_1_0_0) : (⟨S6x128x128, .f32⟩ : BufTy).Contents (Elt F) → (⟨S1x128x128, .f32⟩ : BufTy).Contents (Elt F)),
    reshape main_v58 main_v59 rfl shapeCasts_S1x128x128_S128x128,
    unary main_v18 main_v60 ((extractStridedSlice S1x128 ![1, 0] · slices_S6x128_S1x128_1_0) : (⟨S6x128, .f32⟩ : BufTy).Contents (Elt F) → (⟨S1x128, .f32⟩ : BufTy).Contents (Elt F)),
    reshape main_v60 main_v61 rfl shapeCasts_S1x128_S128,
    unary main_v20 main_v62 ((extractStridedSlice S1x128x128 ![1, 0, 0] · slices_S6x128x128_S1x128x128_1_0_0) : (⟨S6x128x128, .f32⟩ : BufTy).Contents (Elt F) → (⟨S1x128x128, .f32⟩ : BufTy).Contents (Elt F)),
    reshape main_v62 main_v63 rfl shapeCasts_S1x128x128_S128x128,
    unary main_arg4 main_v64 ((extractStridedSlice S1x500000 ![0, 0] · slices_S2x500000_S1x500000_0_0) : (⟨S2x500000, .i32⟩ : BufTy).Contents (Elt F) → (⟨S1x500000, .i32⟩ : BufTy).Contents (Elt F)),
    reshape main_v64 main_v65 rfl shapeCasts_S1x500000_S500000,
    unary main_arg4 main_v66 ((extractStridedSlice S1x500000 ![1, 0] · slices_S2x500000_S1x500000_1_0) : (⟨S2x500000, .i32⟩ : BufTy).Contents (Elt F) → (⟨S1x500000, .i32⟩ : BufTy).Contents (Elt F)),
    reshape main_v66 main_v67 rfl shapeCasts_S1x500000_S500000,
    nullary main_c_4 (constantI S_ 32 0#32),
    unary main_c_4 main_v68 (broadcastInDim S500000 ![] bcast_S_S500000 : (⟨S_, .i32⟩ : BufTy).Contents (Elt F) → (⟨S500000, .i32⟩ : BufTy).Contents (Elt F)),
    binary main_v65 main_v68 main_v69 (cmpi .slt : (⟨S500000, .i32⟩ : BufTy).Contents (Elt F) → (⟨S500000, .i32⟩ : BufTy).Contents (Elt F) → (⟨S500000, .i1⟩ : BufTy).Contents (Elt F)),
    nullary main_c_5 (constantI S_ 32 50000#32),
    unary main_c_5 main_v70 (broadcastInDim S500000 ![] bcast_S_S500000 : (⟨S_, .i32⟩ : BufTy).Contents (Elt F) → (⟨S500000, .i32⟩ : BufTy).Contents (Elt F)),
    binary main_v65 main_v70 main_v71 (addi : (⟨S500000, .i32⟩ : BufTy).Contents (Elt F) → (⟨S500000, .i32⟩ : BufTy).Contents (Elt F) → (⟨S500000, .i32⟩ : BufTy).Contents (Elt F)),
    ternary main_v69 main_v71 main_v65 main_v72 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v72 main_v73 (broadcastInDim S500000x1 ![0] bcast_S500000_S500000x1_0 : (⟨S500000, .i32⟩ : BufTy).Contents (Elt F) → (⟨S500000x1, .i32⟩ : BufTy).Contents (Elt F)),
    binary main_v9 main_v73 main_v74 ((fun x i => Host.gather gather_S50000x128_S500000x1_S500000x128_1_0_n_n_0_1_1128 x i) : (⟨S50000x128, .f32⟩ : BufTy).Contents (Elt F) → (⟨S500000x1, .i32⟩ : BufTy).Contents (Elt F) → (⟨S500000x128, .f32⟩ : BufTy).Contents (Elt F)),
    nullary main_cst_6 (constant S_ .f32 0x00000000#32),
    unary main_cst_6 main_v75 (broadcastInDim S100000x128 ![] bcast_S_S100000x128 : (⟨S_, .f32⟩ : BufTy).Contents (Elt F) → (⟨S100000x128, .f32⟩ : BufTy).Contents (Elt F)),
    unary main_v67 main_v76 (broadcastInDim S500000x1 ![0] bcast_S500000_S500000x1_0 : (⟨S500000, .i32⟩ : BufTy).Contents (Elt F) → (⟨S500000x1, .i32⟩ : BufTy).Contents (Elt F)),
    ternary main_v75 main_v76 main_v74 main_v77 ((fun x i u => Host.scatterAdd scatter_S100000x128_S500000x1_S500000x128_1_0_0_1 x i u) : (⟨S100000x128, .f32⟩ : BufTy).Contents (Elt F) → (⟨S500000x1, .i32⟩ : BufTy).Contents (Elt F) → (⟨S500000x128, .f32⟩ : BufTy).Contents (Elt F) → (⟨S100000x128, .f32⟩ : BufTy).Contents (Elt F)),
    nullary main_cst_7 (constant S_ .f32 0x3F800000#32),
    unary main_cst_7 main_v78 (broadcastInDim S500000 ![] bcast_S_S500000 : (⟨S_, .f32⟩ : BufTy).Contents (Elt F) → (⟨S500000, .f32⟩ : BufTy).Contents (Elt F)),
    nullary main_cst_8 (constant S_ .f32 0x00000000#32),
    unary main_cst_8 main_v79 (broadcastInDim S100000 ![] bcast_S_S100000 : (⟨S_, .f32⟩ : BufTy).Contents (Elt F) → (⟨S100000, .f32⟩ : BufTy).Contents (Elt F)),
    unary main_v67 main_v80 (broadcastInDim S500000x1 ![0] bcast_S500000_S500000x1_0 : (⟨S500000, .i32⟩ : BufTy).Contents (Elt F) → (⟨S500000x1, .i32⟩ : BufTy).Contents (Elt F)),
    ternary main_v79 main_v80 main_v78 main_v81 ((fun x i u => Host.scatterAdd scatter_S100000_S500000x1_S500000_n_0_0_1 x i u) : (⟨S100000, .f32⟩ : BufTy).Contents (Elt F) → (⟨S500000x1, .i32⟩ : BufTy).Contents (Elt F) → (⟨S500000, .f32⟩ : BufTy).Contents (Elt F) → (⟨S100000, .f32⟩ : BufTy).Contents (Elt F)),
    nullary main_cst_9 (constant S_ .f32 0x3F800000#32),
    unary main_cst_9 main_v82 (broadcastInDim S100000 ![] bcast_S_S100000 : (⟨S_, .f32⟩ : BufTy).Contents (Elt F) → (⟨S100000, .f32⟩ : BufTy).Contents (Elt F)),
    binary main_v81 main_v82 main_v83 (maximumf : (⟨S100000, .f32⟩ : BufTy).Contents (Elt F) → (⟨S100000, .f32⟩ : BufTy).Contents (Elt F) → (⟨S100000, .f32⟩ : BufTy).Contents (Elt F)),
    unary main_v83 main_v84 (broadcastInDim S100000x1 ![0] bcast_S100000_S100000x1_0 : (⟨S100000, .f32⟩ : BufTy).Contents (Elt F) → (⟨S100000x1, .f32⟩ : BufTy).Contents (Elt F)),
    unary main_v84 main_v85 (broadcastInDim S100000x128 ![0, 1] bcast_S100000x1_S100000x128_0_1 : (⟨S100000x1, .f32⟩ : BufTy).Contents (Elt F) → (⟨S100000x128, .f32⟩ : BufTy).Contents (Elt F)),
    binary main_v77 main_v85 main_v86 (Host.divf : (⟨S100000x128, .f32⟩ : BufTy).Contents (Elt F) → (⟨S100000x128, .f32⟩ : BufTy).Contents (Elt F) → (⟨S100000x128, .f32⟩ : BufTy).Contents (Elt F)),
    unary main_v59 main_v87 ((transpose S128x128 [1, 0] · transposes_S128x128_S128x128_1_0) : (⟨S128x128, .f32⟩ : BufTy).Contents (Elt F) → (⟨S128x128, .f32⟩ : BufTy).Contents (Elt F)),
    binary main_v86 main_v87 main_v88 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_v61 main_v89 (broadcastInDim S1x128 ![1] bcast_S128_S1x128_1 : (⟨S128, .f32⟩ : BufTy).Contents (Elt F) → (⟨S1x128, .f32⟩ : BufTy).Contents (Elt F)),
    unary main_v89 main_v90 (broadcastInDim S100000x128 ![0, 1] bcast_S1x128_S100000x128_0_1 : (⟨S1x128, .f32⟩ : BufTy).Contents (Elt F) → (⟨S100000x128, .f32⟩ : BufTy).Contents (Elt F)),
    binary main_v88 main_v90 main_v91 (addf : (⟨S100000x128, .f32⟩ : BufTy).Contents (Elt F) → (⟨S100000x128, .f32⟩ : BufTy).Contents (Elt F) → (⟨S100000x128, .f32⟩ : BufTy).Contents (Elt F)),
    unary main_v63 main_v92 ((transpose S128x128 [1, 0] · transposes_S128x128_S128x128_1_0) : (⟨S128x128, .f32⟩ : BufTy).Contents (Elt F) → (⟨S128x128, .f32⟩ : BufTy).Contents (Elt F)),
    binary main_v4 main_v92 main_v93 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v91 main_v93 main_v94 (addf : (⟨S100000x128, .f32⟩ : BufTy).Contents (Elt F) → (⟨S100000x128, .f32⟩ : BufTy).Contents (Elt F) → (⟨S100000x128, .f32⟩ : BufTy).Contents (Elt F)) ]
/-- The buffers this stretch writes. -/
abbrev cE0_1_W : List (Ref sig .tc) := [main_v58, main_v59, main_v60, main_v61, main_v62, main_v63, main_v64, main_v65, main_v66, main_v67, main_c_4, main_v68, main_v69, main_c_5, main_v70, main_v71, main_v72, main_v73, main_v74, main_cst_6, main_v75, main_v76, main_v77, main_cst_7, main_v78, main_cst_8, main_v79, main_v80, main_v81, main_cst_9, main_v82, main_v83, main_v84, main_v85, main_v86, main_v87, main_v88, main_v89, main_v90, main_v91, main_v92, main_v93, main_v94]
theorem cE0_1_writes : (cE0_1 : List (HloOp τ sig (Elt F))).Forall fun op => op.writes ⊆ (cE0_1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩

/-- Operations 107 to 149 of @main. -/
abbrev cE0_2 : List (HloOp τ sig (Elt F)) :=
  [ unary main_v16 main_v95 ((extractStridedSlice S1x128x128 ![2, 0, 0] · slices_S6x128x128_S1x128x128_2_0_0) : (⟨S6x128x128, .f32⟩ : BufTy).Contents (Elt F) → (⟨S1x128x128, .f32⟩ : BufTy).Contents (Elt F)),
    reshape main_v95 main_v96 rfl shapeCasts_S1x128x128_S128x128,
    unary main_v18 main_v97 ((extractStridedSlice S1x128 ![2, 0] · slices_S6x128_S1x128_2_0) : (⟨S6x128, .f32⟩ : BufTy).Contents (Elt F) → (⟨S1x128, .f32⟩ : BufTy).Contents (Elt F)),
    reshape main_v97 main_v98 rfl shapeCasts_S1x128_S128,
    unary main_v20 main_v99 ((extractStridedSlice S1x128x128 ![2, 0, 0] · slices_S6x128x128_S1x128x128_2_0_0) : (⟨S6x128x128, .f32⟩ : BufTy).Contents (Elt F) → (⟨S1x128x128, .f32⟩ : BufTy).Contents (Elt F)),
    reshape main_v99 main_v100 rfl shapeCasts_S1x128x128_S128x128,
    unary main_arg5 main_v101 ((extractStridedSlice S1x300000 ![0, 0] · slices_S2x300000_S1x300000_0_0) : (⟨S2x300000, .i32⟩ : BufTy).Contents (Elt F) → (⟨S1x300000, .i32⟩ : BufTy).Contents (Elt F)),
    reshape main_v101 main_v102 rfl shapeCasts_S1x300000_S300000,
    unary main_arg5 main_v103 ((extractStridedSlice S1x300000 ![1, 0] · slices_S2x300000_S1x300000_1_0) : (⟨S2x300000, .i32⟩ : BufTy).Contents (Elt F) → (⟨S1x300000, .i32⟩ : BufTy).Contents (Elt F)),
    reshape main_v103 main_v104 rfl shapeCasts_S1x300000_S300000,
    nullary main_c_10 (constantI S_ 32 0#32),
    unary main_c_10 main_v105 (broadcastInDim S300000 ![] bcast_S_S300000 : (⟨S_, .i32⟩ : BufTy).Contents (Elt F) → (⟨S300000, .i32⟩ : BufTy).Contents (Elt F)),
    binary main_v102 main_v105 main_v106 (cmpi .slt : (⟨S300000, .i32⟩ : BufTy).Contents (Elt F) → (⟨S300000, .i32⟩ : BufTy).Contents (Elt F) → (⟨S300000, .i1⟩ : BufTy).Contents (Elt F)),
    nullary main_c_11 (constantI S_ 32 100000#32),
    unary main_c_11 main_v107 (broadcastInDim S300000 ![] bcast_S_S300000 : (⟨S_, .i32⟩ : BufTy).Contents (Elt F) → (⟨S300000, .i32⟩ : BufTy).Contents (Elt F)),
    binary main_v102 main_v107 main_v108 (addi : (⟨S300000, .i32⟩ : BufTy).Contents (Elt F) → (⟨S300000, .i32⟩ : BufTy).Contents (Elt F) → (⟨S300000, .i32⟩ : BufTy).Contents (Elt F)),
    ternary main_v106 main_v108 main_v102 main_v109 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    unary main_v109 main_v110 (broadcastInDim S300000x1 ![0] bcast_S300000_S300000x1_0 : (⟨S300000, .i32⟩ : BufTy).Contents (Elt F) → (⟨S300000x1, .i32⟩ : BufTy).Contents (Elt F)),
    binary main_v4 main_v110 main_v111 ((fun x i => Host.gather gather_S100000x128_S300000x1_S300000x128_1_0_n_n_0_1_1128 x i) : (⟨S100000x128, .f32⟩ : BufTy).Contents (Elt F) → (⟨S300000x1, .i32⟩ : BufTy).Contents (Elt F) → (⟨S300000x128, .f32⟩ : BufTy).Contents (Elt F)),
    nullary main_cst_12 (constant S_ .f32 0x00000000#32),
    unary main_cst_12 main_v112 (broadcastInDim S5000x128 ![] bcast_S_S5000x128 : (⟨S_, .f32⟩ : BufTy).Contents (Elt F) → (⟨S5000x128, .f32⟩ : BufTy).Contents (Elt F)),
    unary main_v104 main_v113 (broadcastInDim S300000x1 ![0] bcast_S300000_S300000x1_0 : (⟨S300000, .i32⟩ : BufTy).Contents (Elt F) → (⟨S300000x1, .i32⟩ : BufTy).Contents (Elt F)),
    ternary main_v112 main_v113 main_v111 main_v114 ((fun x i u => Host.scatterAdd scatter_S5000x128_S300000x1_S300000x128_1_0_0_1 x i u) : (⟨S5000x128, .f32⟩ : BufTy).Contents (Elt F) → (⟨S300000x1, .i32⟩ : BufTy).Contents (Elt F) → (⟨S300000x128, .f32⟩ : BufTy).Contents (Elt F) → (⟨S5000x128, .f32⟩ : BufTy).Contents (Elt F)),
    nullary main_cst_13 (constant S_ .f32 0x3F800000#32),
    unary main_cst_13 main_v115 (broadcastInDim S300000 ![] bcast_S_S300000 : (⟨S_, .f32⟩ : BufTy).Contents (Elt F) → (⟨S300000, .f32⟩ : BufTy).Contents (Elt F)),
    nullary main_cst_14 (constant S_ .f32 0x00000000#32),
    unary main_cst_14 main_v116 (broadcastInDim S5000 ![] bcast_S_S5000 : (⟨S_, .f32⟩ : BufTy).Contents (Elt F) → (⟨S5000, .f32⟩ : BufTy).Contents (Elt F)),
    unary main_v104 main_v117 (broadcastInDim S300000x1 ![0] bcast_S300000_S300000x1_0 : (⟨S300000, .i32⟩ : BufTy).Contents (Elt F) → (⟨S300000x1, .i32⟩ : BufTy).Contents (Elt F)),
    ternary main_v116 main_v117 main_v115 main_v118 ((fun x i u => Host.scatterAdd scatter_S5000_S300000x1_S300000_n_0_0_1 x i u) : (⟨S5000, .f32⟩ : BufTy).Contents (Elt F) → (⟨S300000x1, .i32⟩ : BufTy).Contents (Elt F) → (⟨S300000, .f32⟩ : BufTy).Contents (Elt F) → (⟨S5000, .f32⟩ : BufTy).Contents (Elt F)),
    nullary main_cst_15 (constant S_ .f32 0x3F800000#32),
    unary main_cst_15 main_v119 (broadcastInDim S5000 ![] bcast_S_S5000 : (⟨S_, .f32⟩ : BufTy).Contents (Elt F) → (⟨S5000, .f32⟩ : BufTy).Contents (Elt F)),
    binary main_v118 main_v119 main_v120 (maximumf : (⟨S5000, .f32⟩ : BufTy).Contents (Elt F) → (⟨S5000, .f32⟩ : BufTy).Contents (Elt F) → (⟨S5000, .f32⟩ : BufTy).Contents (Elt F)),
    unary main_v120 main_v121 (broadcastInDim S5000x1 ![0] bcast_S5000_S5000x1_0 : (⟨S5000, .f32⟩ : BufTy).Contents (Elt F) → (⟨S5000x1, .f32⟩ : BufTy).Contents (Elt F)),
    unary main_v121 main_v122 (broadcastInDim S5000x128 ![0, 1] bcast_S5000x1_S5000x128_0_1 : (⟨S5000x1, .f32⟩ : BufTy).Contents (Elt F) → (⟨S5000x128, .f32⟩ : BufTy).Contents (Elt F)),
    binary main_v114 main_v122 main_v123 (Host.divf : (⟨S5000x128, .f32⟩ : BufTy).Contents (Elt F) → (⟨S5000x128, .f32⟩ : BufTy).Contents (Elt F) → (⟨S5000x128, .f32⟩ : BufTy).Contents (Elt F)),
    unary main_v96 main_v124 ((transpose S128x128 [1, 0] · transposes_S128x128_S128x128_1_0) : (⟨S128x128, .f32⟩ : BufTy).Contents (Elt F) → (⟨S128x128, .f32⟩ : BufTy).Contents (Elt F)),
    binary main_v123 main_v124 main_v125 ((fun l r => Host.dotGeneral dot_S5000x128_S128x128_S5000x128_1_0_0_1_n_n none l r) : (⟨S5000x128, .f32⟩ : BufTy).Contents (Elt F) → (⟨S128x128, .f32⟩ : BufTy).Contents (Elt F) → (⟨S5000x128, .f32⟩ : BufTy).Contents (Elt F)),
    unary main_v98 main_v126 (broadcastInDim S1x128 ![1] bcast_S128_S1x128_1 : (⟨S128, .f32⟩ : BufTy).Contents (Elt F) → (⟨S1x128, .f32⟩ : BufTy).Contents (Elt F)),
    unary main_v126 main_v127 (broadcastInDim S5000x128 ![0, 1] bcast_S1x128_S5000x128_0_1 : (⟨S1x128, .f32⟩ : BufTy).Contents (Elt F) → (⟨S5000x128, .f32⟩ : BufTy).Contents (Elt F)),
    binary main_v125 main_v127 main_v128 (addf : (⟨S5000x128, .f32⟩ : BufTy).Contents (Elt F) → (⟨S5000x128, .f32⟩ : BufTy).Contents (Elt F) → (⟨S5000x128, .f32⟩ : BufTy).Contents (Elt F)),
    unary main_v100 main_v129 ((transpose S128x128 [1, 0] · transposes_S128x128_S128x128_1_0) : (⟨S128x128, .f32⟩ : BufTy).Contents (Elt F) → (⟨S128x128, .f32⟩ : BufTy).Contents (Elt F)),
    binary main_v14 main_v129 main_v130 ((fun l r => Host.dotGeneral dot_S5000x128_S128x128_S5000x128_1_0_0_1_n_n none l r) : (⟨S5000x128, .f32⟩ : BufTy).Contents (Elt F) → (⟨S128x128, .f32⟩ : BufTy).Contents (Elt F) → (⟨S5000x128, .f32⟩ : BufTy).Contents (Elt F)),
    binary main_v128 main_v130 main_v131 (addf : (⟨S5000x128, .f32⟩ : BufTy).Contents (Elt F) → (⟨S5000x128, .f32⟩ : BufTy).Contents (Elt F) → (⟨S5000x128, .f32⟩ : BufTy).Contents (Elt F)) ]
/-- The buffers this stretch writes. -/
abbrev cE0_2_W : List (Ref sig .tc) := [main_v95, main_v96, main_v97, main_v98, main_v99, main_v100, main_v101, main_v102, main_v103, main_v104, main_c_10, main_v105, main_v106, main_c_11, main_v107, main_v108, main_v109, main_v110, main_v111, main_cst_12, main_v112, main_v113, main_v114, main_cst_13, main_v115, main_cst_14, main_v116, main_v117, main_v118, main_cst_15, main_v119, main_v120, main_v121, main_v122, main_v123, main_v124, main_v125, main_v126, main_v127, main_v128, main_v129, main_v130, main_v131]
theorem cE0_2_writes : (cE0_2 : List (HloOp τ sig (Elt F))).Forall fun op => op.writes ⊆ (cE0_2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩

/-- Operations 150 to 192 of @main. -/
abbrev cE0_3 : List (HloOp τ sig (Elt F)) :=
  [ unary main_v16 main_v132 ((extractStridedSlice S1x128x128 ![3, 0, 0] · slices_S6x128x128_S1x128x128_3_0_0) : (⟨S6x128x128, .f32⟩ : BufTy).Contents (Elt F) → (⟨S1x128x128, .f32⟩ : BufTy).Contents (Elt F)),
    reshape main_v132 main_v133 rfl shapeCasts_S1x128x128_S128x128,
    unary main_v18 main_v134 ((extractStridedSlice S1x128 ![3, 0] · slices_S6x128_S1x128_3_0) : (⟨S6x128, .f32⟩ : BufTy).Contents (Elt F) → (⟨S1x128, .f32⟩ : BufTy).Contents (Elt F)),
    reshape main_v134 main_v135 rfl shapeCasts_S1x128_S128,
    unary main_v20 main_v136 ((extractStridedSlice S1x128x128 ![3, 0, 0] · slices_S6x128x128_S1x128x128_3_0_0) : (⟨S6x128x128, .f32⟩ : BufTy).Contents (Elt F) → (⟨S1x128x128, .f32⟩ : BufTy).Contents (Elt F)),
    reshape main_v136 main_v137 rfl shapeCasts_S1x128x128_S128x128,
    unary main_arg6 main_v138 ((extractStridedSlice S1x300000 ![0, 0] · slices_S2x300000_S1x300000_0_0) : (⟨S2x300000, .i32⟩ : BufTy).Contents (Elt F) → (⟨S1x300000, .i32⟩ : BufTy).Contents (Elt F)),
    reshape main_v138 main_v139 rfl shapeCasts_S1x300000_S300000,
    unary main_arg6 main_v140 ((extractStridedSlice S1x300000 ![1, 0] · slices_S2x300000_S1x300000_1_0) : (⟨S2x300000, .i32⟩ : BufTy).Contents (Elt F) → (⟨S1x300000, .i32⟩ : BufTy).Contents (Elt F)),
    reshape main_v140 main_v141 rfl shapeCasts_S1x300000_S300000,
    nullary main_c_16 (constantI S_ 32 0#32),
    unary main_c_16 main_v142 (broadcastInDim S300000 ![] bcast_S_S300000 : (⟨S_, .i32⟩ : BufTy).Contents (Elt F) → (⟨S300000, .i32⟩ : BufTy).Contents (Elt F)),
    binary main_v139 main_v142 main_v143 (cmpi .slt : (⟨S300000, .i32⟩ : BufTy).Contents (Elt F) → (⟨S300000, .i32⟩ : BufTy).Contents (Elt F) → (⟨S300000, .i1⟩ : BufTy).Contents (Elt F)),
    nullary main_c_17 (constantI S_ 32 5000#32),
    unary main_c_17 main_v144 (broadcastInDim S300000 ![] bcast_S_S300000 : (⟨S_, .i32⟩ : BufTy).Contents (Elt F) → (⟨S300000, .i32⟩ : BufTy).Contents (Elt F)),
    binary main_v139 main_v144 main_v145 (addi : (⟨S300000, .i32⟩ : BufTy).Contents (Elt F) → (⟨S300000, .i32⟩ : BufTy).Contents (Elt F) → (⟨S300000, .i32⟩ : BufTy).Contents (Elt F)),
    ternary main_v143 main_v145 main_v139 main_v146 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    unary main_v146 main_v147 (broadcastInDim S300000x1 ![0] bcast_S300000_S300000x1_0 : (⟨S300000, .i32⟩ : BufTy).Contents (Elt F) → (⟨S300000x1, .i32⟩ : BufTy).Contents (Elt F)),
    binary main_v14 main_v147 main_v148 ((fun x i => Host.gather gather_S5000x128_S300000x1_S300000x128_1_0_n_n_0_1_1128 x i) : (⟨S5000x128, .f32⟩ : BufTy).Contents (Elt F) → (⟨S300000x1, .i32⟩ : BufTy).Contents (Elt F) → (⟨S300000x128, .f32⟩ : BufTy).Contents (Elt F)),
    nullary main_cst_18 (constant S_ .f32 0x00000000#32),
    unary main_cst_18 main_v149 (broadcastInDim S100000x128 ![] bcast_S_S100000x128 : (⟨S_, .f32⟩ : BufTy).Contents (Elt F) → (⟨S100000x128, .f32⟩ : BufTy).Contents (Elt F)),
    unary main_v141 main_v150 (broadcastInDim S300000x1 ![0] bcast_S300000_S300000x1_0 : (⟨S300000, .i32⟩ : BufTy).Contents (Elt F) → (⟨S300000x1, .i32⟩ : BufTy).Contents (Elt F)),
    ternary main_v149 main_v150 main_v148 main_v151 ((fun x i u => Host.scatterAdd scatter_S100000x128_S300000x1_S300000x128_1_0_0_1 x i u) : (⟨S100000x128, .f32⟩ : BufTy).Contents (Elt F) → (⟨S300000x1, .i32⟩ : BufTy).Contents (Elt F) → (⟨S300000x128, .f32⟩ : BufTy).Contents (Elt F) → (⟨S100000x128, .f32⟩ : BufTy).Contents (Elt F)),
    nullary main_cst_19 (constant S_ .f32 0x3F800000#32),
    unary main_cst_19 main_v152 (broadcastInDim S300000 ![] bcast_S_S300000 : (⟨S_, .f32⟩ : BufTy).Contents (Elt F) → (⟨S300000, .f32⟩ : BufTy).Contents (Elt F)),
    nullary main_cst_20 (constant S_ .f32 0x00000000#32),
    unary main_cst_20 main_v153 (broadcastInDim S100000 ![] bcast_S_S100000 : (⟨S_, .f32⟩ : BufTy).Contents (Elt F) → (⟨S100000, .f32⟩ : BufTy).Contents (Elt F)),
    unary main_v141 main_v154 (broadcastInDim S300000x1 ![0] bcast_S300000_S300000x1_0 : (⟨S300000, .i32⟩ : BufTy).Contents (Elt F) → (⟨S300000x1, .i32⟩ : BufTy).Contents (Elt F)),
    ternary main_v153 main_v154 main_v152 main_v155 ((fun x i u => Host.scatterAdd scatter_S100000_S300000x1_S300000_n_0_0_1 x i u) : (⟨S100000, .f32⟩ : BufTy).Contents (Elt F) → (⟨S300000x1, .i32⟩ : BufTy).Contents (Elt F) → (⟨S300000, .f32⟩ : BufTy).Contents (Elt F) → (⟨S100000, .f32⟩ : BufTy).Contents (Elt F)),
    nullary main_cst_21 (constant S_ .f32 0x3F800000#32),
    unary main_cst_21 main_v156 (broadcastInDim S100000 ![] bcast_S_S100000 : (⟨S_, .f32⟩ : BufTy).Contents (Elt F) → (⟨S100000, .f32⟩ : BufTy).Contents (Elt F)),
    binary main_v155 main_v156 main_v157 (maximumf : (⟨S100000, .f32⟩ : BufTy).Contents (Elt F) → (⟨S100000, .f32⟩ : BufTy).Contents (Elt F) → (⟨S100000, .f32⟩ : BufTy).Contents (Elt F)),
    unary main_v157 main_v158 (broadcastInDim S100000x1 ![0] bcast_S100000_S100000x1_0 : (⟨S100000, .f32⟩ : BufTy).Contents (Elt F) → (⟨S100000x1, .f32⟩ : BufTy).Contents (Elt F)),
    unary main_v158 main_v159 (broadcastInDim S100000x128 ![0, 1] bcast_S100000x1_S100000x128_0_1 : (⟨S100000x1, .f32⟩ : BufTy).Contents (Elt F) → (⟨S100000x128, .f32⟩ : BufTy).Contents (Elt F)),
    binary main_v151 main_v159 main_v160 (Host.divf : (⟨S100000x128, .f32⟩ : BufTy).Contents (Elt F) → (⟨S100000x128, .f32⟩ : BufTy).Contents (Elt F) → (⟨S100000x128, .f32⟩ : BufTy).Contents (Elt F)),
    unary main_v133 main_v161 ((transpose S128x128 [1, 0] · transposes_S128x128_S128x128_1_0) : (⟨S128x128, .f32⟩ : BufTy).Contents (Elt F) → (⟨S128x128, .f32⟩ : BufTy).Contents (Elt F)),
    binary main_v160 main_v161 main_v162 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_v135 main_v163 (broadcastInDim S1x128 ![1] bcast_S128_S1x128_1 : (⟨S128, .f32⟩ : BufTy).Contents (Elt F) → (⟨S1x128, .f32⟩ : BufTy).Contents (Elt F)),
    unary main_v163 main_v164 (broadcastInDim S100000x128 ![0, 1] bcast_S1x128_S100000x128_0_1 : (⟨S1x128, .f32⟩ : BufTy).Contents (Elt F) → (⟨S100000x128, .f32⟩ : BufTy).Contents (Elt F)),
    binary main_v162 main_v164 main_v165 (addf : (⟨S100000x128, .f32⟩ : BufTy).Contents (Elt F) → (⟨S100000x128, .f32⟩ : BufTy).Contents (Elt F) → (⟨S100000x128, .f32⟩ : BufTy).Contents (Elt F)),
    unary main_v137 main_v166 ((transpose S128x128 [1, 0] · transposes_S128x128_S128x128_1_0) : (⟨S128x128, .f32⟩ : BufTy).Contents (Elt F) → (⟨S128x128, .f32⟩ : BufTy).Contents (Elt F)),
    binary main_v4 main_v166 main_v167 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v165 main_v167 main_v168 (addf : (⟨S100000x128, .f32⟩ : BufTy).Contents (Elt F) → (⟨S100000x128, .f32⟩ : BufTy).Contents (Elt F) → (⟨S100000x128, .f32⟩ : BufTy).Contents (Elt F)) ]
/-- The buffers this stretch writes. -/
abbrev cE0_3_W : List (Ref sig .tc) := [main_v132, main_v133, main_v134, main_v135, main_v136, main_v137, main_v138, main_v139, main_v140, main_v141, main_c_16, main_v142, main_v143, main_c_17, main_v144, main_v145, main_v146, main_v147, main_v148, main_cst_18, main_v149, main_v150, main_v151, main_cst_19, main_v152, main_cst_20, main_v153, main_v154, main_v155, main_cst_21, main_v156, main_v157, main_v158, main_v159, main_v160, main_v161, main_v162, main_v163, main_v164, main_v165, main_v166, main_v167, main_v168]
theorem cE0_3_writes : (cE0_3 : List (HloOp τ sig (Elt F))).Forall fun op => op.writes ⊆ (cE0_3_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩

/-- Operations 193 to 235 of @main. -/
abbrev cE0_4 : List (HloOp τ sig (Elt F)) :=
  [ unary main_v16 main_v169 ((extractStridedSlice S1x128x128 ![4, 0, 0] · slices_S6x128x128_S1x128x128_4_0_0) : (⟨S6x128x128, .f32⟩ : BufTy).Contents (Elt F) → (⟨S1x128x128, .f32⟩ : BufTy).Contents (Elt F)),
    reshape main_v169 main_v170 rfl shapeCasts_S1x128x128_S128x128,
    unary main_v18 main_v171 ((extractStridedSlice S1x128 ![4, 0] · slices_S6x128_S1x128_4_0) : (⟨S6x128, .f32⟩ : BufTy).Contents (Elt F) → (⟨S1x128, .f32⟩ : BufTy).Contents (Elt F)),
    reshape main_v171 main_v172 rfl shapeCasts_S1x128_S128,
    unary main_v20 main_v173 ((extractStridedSlice S1x128x128 ![4, 0, 0] · slices_S6x128x128_S1x128x128_4_0_0) : (⟨S6x128x128, .f32⟩ : BufTy).Contents (Elt F) → (⟨S1x128x128, .f32⟩ : BufTy).Contents (Elt F)),
    reshape main_v173 main_v174 rfl shapeCasts_S1x128x128_S128x128,
    unary main_arg7 main_v175 ((extractStridedSlice S1x150000 ![0, 0] · slices_S2x150000_S1x150000_0_0) : (⟨S2x150000, .i32⟩ : BufTy).Contents (Elt F) → (⟨S1x150000, .i32⟩ : BufTy).Contents (Elt F)),
    reshape main_v175 main_v176 rfl shapeCasts_S1x150000_S150000,
    unary main_arg7 main_v177 ((extractStridedSlice S1x150000 ![1, 0] · slices_S2x150000_S1x150000_1_0) : (⟨S2x150000, .i32⟩ : BufTy).Contents (Elt F) → (⟨S1x150000, .i32⟩ : BufTy).Contents (Elt F)),
    reshape main_v177 main_v178 rfl shapeCasts_S1x150000_S150000,
    nullary main_c_22 (constantI S_ 32 0#32),
    unary main_c_22 main_v179 (broadcastInDim S150000 ![] bcast_S_S150000 : (⟨S_, .i32⟩ : BufTy).Contents (Elt F) → (⟨S150000, .i32⟩ : BufTy).Contents (Elt F)),
    binary main_v176 main_v179 main_v180 (cmpi .slt : (⟨S150000, .i32⟩ : BufTy).Contents (Elt F) → (⟨S150000, .i32⟩ : BufTy).Contents (Elt F) → (⟨S150000, .i1⟩ : BufTy).Contents (Elt F)),
    nullary main_c_23 (constantI S_ 32 50000#32),
    unary main_c_23 main_v181 (broadcastInDim S150000 ![] bcast_S_S150000 : (⟨S_, .i32⟩ : BufTy).Contents (Elt F) → (⟨S150000, .i32⟩ : BufTy).Contents (Elt F)),
    binary main_v176 main_v181 main_v182 (addi : (⟨S150000, .i32⟩ : BufTy).Contents (Elt F) → (⟨S150000, .i32⟩ : BufTy).Contents (Elt F) → (⟨S150000, .i32⟩ : BufTy).Contents (Elt F)),
    ternary main_v180 main_v182 main_v176 main_v183 (select : (⟨S150000, .i1⟩ : BufTy).Contents (Elt F) → (⟨S150000, .i32⟩ : BufTy).Contents (Elt F) → (⟨S150000, .i32⟩ : BufTy).Contents (Elt F) → (⟨S150000, .i32⟩ : BufTy).Contents (Elt F)),
    unary main_v183 main_v184 (broadcastInDim S150000x1 ![0] bcast_S150000_S150000x1_0 : (⟨S150000, .i32⟩ : BufTy).Contents (Elt F) → (⟨S150000x1, .i32⟩ : BufTy).Contents (Elt F)),
    binary main_v9 main_v184 main_v185 ((fun x i => Host.gather gather_S50000x128_S150000x1_S150000x128_1_0_n_n_0_1_1128 x i) : (⟨S50000x128, .f32⟩ : BufTy).Contents (Elt F) → (⟨S150000x1, .i32⟩ : BufTy).Contents (Elt F) → (⟨S150000x128, .f32⟩ : BufTy).Contents (Elt F)),
    nullary main_cst_24 (constant S_ .f32 0x00000000#32),
    unary main_cst_24 main_v186 (broadcastInDim S5000x128 ![] bcast_S_S5000x128 : (⟨S_, .f32⟩ : BufTy).Contents (Elt F) → (⟨S5000x128, .f32⟩ : BufTy).Contents (Elt F)),
    unary main_v178 main_v187 (broadcastInDim S150000x1 ![0] bcast_S150000_S150000x1_0 : (⟨S150000, .i32⟩ : BufTy).Contents (Elt F) → (⟨S150000x1, .i32⟩ : BufTy).Contents (Elt F)),
    ternary main_v186 main_v187 main_v185 main_v188 ((fun x i u => Host.scatterAdd scatter_S5000x128_S150000x1_S150000x128_1_0_0_1 x i u) : (⟨S5000x128, .f32⟩ : BufTy).Contents (Elt F) → (⟨S150000x1, .i32⟩ : BufTy).Contents (Elt F) → (⟨S150000x128, .f32⟩ : BufTy).Contents (Elt F) → (⟨S5000x128, .f32⟩ : BufTy).Contents (Elt F)),
    nullary main_cst_25 (constant S_ .f32 0x3F800000#32),
    unary main_cst_25 main_v189 (broadcastInDim S150000 ![] bcast_S_S150000 : (⟨S_, .f32⟩ : BufTy).Contents (Elt F) → (⟨S150000, .f32⟩ : BufTy).Contents (Elt F)),
    nullary main_cst_26 (constant S_ .f32 0x00000000#32),
    unary main_cst_26 main_v190 (broadcastInDim S5000 ![] bcast_S_S5000 : (⟨S_, .f32⟩ : BufTy).Contents (Elt F) → (⟨S5000, .f32⟩ : BufTy).Contents (Elt F)),
    unary main_v178 main_v191 (broadcastInDim S150000x1 ![0] bcast_S150000_S150000x1_0 : (⟨S150000, .i32⟩ : BufTy).Contents (Elt F) → (⟨S150000x1, .i32⟩ : BufTy).Contents (Elt F)),
    ternary main_v190 main_v191 main_v189 main_v192 ((fun x i u => Host.scatterAdd scatter_S5000_S150000x1_S150000_n_0_0_1 x i u) : (⟨S5000, .f32⟩ : BufTy).Contents (Elt F) → (⟨S150000x1, .i32⟩ : BufTy).Contents (Elt F) → (⟨S150000, .f32⟩ : BufTy).Contents (Elt F) → (⟨S5000, .f32⟩ : BufTy).Contents (Elt F)),
    nullary main_cst_27 (constant S_ .f32 0x3F800000#32),
    unary main_cst_27 main_v193 (broadcastInDim S5000 ![] bcast_S_S5000 : (⟨S_, .f32⟩ : BufTy).Contents (Elt F) → (⟨S5000, .f32⟩ : BufTy).Contents (Elt F)),
    binary main_v192 main_v193 main_v194 (maximumf : (⟨S5000, .f32⟩ : BufTy).Contents (Elt F) → (⟨S5000, .f32⟩ : BufTy).Contents (Elt F) → (⟨S5000, .f32⟩ : BufTy).Contents (Elt F)),
    unary main_v194 main_v195 (broadcastInDim S5000x1 ![0] bcast_S5000_S5000x1_0 : (⟨S5000, .f32⟩ : BufTy).Contents (Elt F) → (⟨S5000x1, .f32⟩ : BufTy).Contents (Elt F)),
    unary main_v195 main_v196 (broadcastInDim S5000x128 ![0, 1] bcast_S5000x1_S5000x128_0_1 : (⟨S5000x1, .f32⟩ : BufTy).Contents (Elt F) → (⟨S5000x128, .f32⟩ : BufTy).Contents (Elt F)),
    binary main_v188 main_v196 main_v197 (Host.divf : (⟨S5000x128, .f32⟩ : BufTy).Contents (Elt F) → (⟨S5000x128, .f32⟩ : BufTy).Contents (Elt F) → (⟨S5000x128, .f32⟩ : BufTy).Contents (Elt F)),
    unary main_v170 main_v198 ((transpose S128x128 [1, 0] · transposes_S128x128_S128x128_1_0) : (⟨S128x128, .f32⟩ : BufTy).Contents (Elt F) → (⟨S128x128, .f32⟩ : BufTy).Contents (Elt F)),
    binary main_v197 main_v198 main_v199 ((fun l r => Host.dotGeneral dot_S5000x128_S128x128_S5000x128_1_0_0_1_n_n none l r) : (⟨S5000x128, .f32⟩ : BufTy).Contents (Elt F) → (⟨S128x128, .f32⟩ : BufTy).Contents (Elt F) → (⟨S5000x128, .f32⟩ : BufTy).Contents (Elt F)),
    unary main_v172 main_v200 (broadcastInDim S1x128 ![1] bcast_S128_S1x128_1 : (⟨S128, .f32⟩ : BufTy).Contents (Elt F) → (⟨S1x128, .f32⟩ : BufTy).Contents (Elt F)),
    unary main_v200 main_v201 (broadcastInDim S5000x128 ![0, 1] bcast_S1x128_S5000x128_0_1 : (⟨S1x128, .f32⟩ : BufTy).Contents (Elt F) → (⟨S5000x128, .f32⟩ : BufTy).Contents (Elt F)),
    binary main_v199 main_v201 main_v202 (addf : (⟨S5000x128, .f32⟩ : BufTy).Contents (Elt F) → (⟨S5000x128, .f32⟩ : BufTy).Contents (Elt F) → (⟨S5000x128, .f32⟩ : BufTy).Contents (Elt F)),
    unary main_v174 main_v203 ((transpose S128x128 [1, 0] · transposes_S128x128_S128x128_1_0) : (⟨S128x128, .f32⟩ : BufTy).Contents (Elt F) → (⟨S128x128, .f32⟩ : BufTy).Contents (Elt F)),
    binary main_v14 main_v203 main_v204 ((fun l r => Host.dotGeneral dot_S5000x128_S128x128_S5000x128_1_0_0_1_n_n none l r) : (⟨S5000x128, .f32⟩ : BufTy).Contents (Elt F) → (⟨S128x128, .f32⟩ : BufTy).Contents (Elt F) → (⟨S5000x128, .f32⟩ : BufTy).Contents (Elt F)),
    binary main_v202 main_v204 main_v205 (addf : (⟨S5000x128, .f32⟩ : BufTy).Contents (Elt F) → (⟨S5000x128, .f32⟩ : BufTy).Contents (Elt F) → (⟨S5000x128, .f32⟩ : BufTy).Contents (Elt F)) ]
/-- The buffers this stretch writes. -/
abbrev cE0_4_W : List (Ref sig .tc) := [main_v169, main_v170, main_v171, main_v172, main_v173, main_v174, main_v175, main_v176, main_v177, main_v178, main_c_22, main_v179, main_v180, main_c_23, main_v181, main_v182, main_v183, main_v184, main_v185, main_cst_24, main_v186, main_v187, main_v188, main_cst_25, main_v189, main_cst_26, main_v190, main_v191, main_v192, main_cst_27, main_v193, main_v194, main_v195, main_v196, main_v197, main_v198, main_v199, main_v200, main_v201, main_v202, main_v203, main_v204, main_v205]
theorem cE0_4_writes : (cE0_4 : List (HloOp τ sig (Elt F))).Forall fun op => op.writes ⊆ (cE0_4_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩

/-- Operations 236 to 278 of @main. -/
abbrev cE0_5 : List (HloOp τ sig (Elt F)) :=
  [ unary main_v16 main_v206 ((extractStridedSlice S1x128x128 ![5, 0, 0] · slices_S6x128x128_S1x128x128_5_0_0) : (⟨S6x128x128, .f32⟩ : BufTy).Contents (Elt F) → (⟨S1x128x128, .f32⟩ : BufTy).Contents (Elt F)),
    reshape main_v206 main_v207 rfl shapeCasts_S1x128x128_S128x128,
    unary main_v18 main_v208 ((extractStridedSlice S1x128 ![5, 0] · slices_S6x128_S1x128_5_0) : (⟨S6x128, .f32⟩ : BufTy).Contents (Elt F) → (⟨S1x128, .f32⟩ : BufTy).Contents (Elt F)),
    reshape main_v208 main_v209 rfl shapeCasts_S1x128_S128,
    unary main_v20 main_v210 ((extractStridedSlice S1x128x128 ![5, 0, 0] · slices_S6x128x128_S1x128x128_5_0_0) : (⟨S6x128x128, .f32⟩ : BufTy).Contents (Elt F) → (⟨S1x128x128, .f32⟩ : BufTy).Contents (Elt F)),
    reshape main_v210 main_v211 rfl shapeCasts_S1x128x128_S128x128,
    unary main_arg8 main_v212 ((extractStridedSlice S1x150000 ![0, 0] · slices_S2x150000_S1x150000_0_0) : (⟨S2x150000, .i32⟩ : BufTy).Contents (Elt F) → (⟨S1x150000, .i32⟩ : BufTy).Contents (Elt F)),
    reshape main_v212 main_v213 rfl shapeCasts_S1x150000_S150000,
    unary main_arg8 main_v214 ((extractStridedSlice S1x150000 ![1, 0] · slices_S2x150000_S1x150000_1_0) : (⟨S2x150000, .i32⟩ : BufTy).Contents (Elt F) → (⟨S1x150000, .i32⟩ : BufTy).Contents (Elt F)),
    reshape main_v214 main_v215 rfl shapeCasts_S1x150000_S150000,
    nullary main_c_28 (constantI S_ 32 0#32),
    unary main_c_28 main_v216 (broadcastInDim S150000 ![] bcast_S_S150000 : (⟨S_, .i32⟩ : BufTy).Contents (Elt F) → (⟨S150000, .i32⟩ : BufTy).Contents (Elt F)),
    binary main_v213 main_v216 main_v217 (cmpi .slt : (⟨S150000, .i32⟩ : BufTy).Contents (Elt F) → (⟨S150000, .i32⟩ : BufTy).Contents (Elt F) → (⟨S150000, .i1⟩ : BufTy).Contents (Elt F)),
    nullary main_c_29 (constantI S_ 32 5000#32),
    unary main_c_29 main_v218 (broadcastInDim S150000 ![] bcast_S_S150000 : (⟨S_, .i32⟩ : BufTy).Contents (Elt F) → (⟨S150000, .i32⟩ : BufTy).Contents (Elt F)),
    binary main_v213 main_v218 main_v219 (addi : (⟨S150000, .i32⟩ : BufTy).Contents (Elt F) → (⟨S150000, .i32⟩ : BufTy).Contents (Elt F) → (⟨S150000, .i32⟩ : BufTy).Contents (Elt F)),
    ternary main_v217 main_v219 main_v213 main_v220 (select : (⟨S150000, .i1⟩ : BufTy).Contents (Elt F) → (⟨S150000, .i32⟩ : BufTy).Contents (Elt F) → (⟨S150000, .i32⟩ : BufTy).Contents (Elt F) → (⟨S150000, .i32⟩ : BufTy).Contents (Elt F)),
    unary main_v220 main_v221 (broadcastInDim S150000x1 ![0] bcast_S150000_S150000x1_0 : (⟨S150000, .i32⟩ : BufTy).Contents (Elt F) → (⟨S150000x1, .i32⟩ : BufTy).Contents (Elt F)),
    binary main_v14 main_v221 main_v222 ((fun x i => Host.gather gather_S5000x128_S150000x1_S150000x128_1_0_n_n_0_1_1128 x i) : (⟨S5000x128, .f32⟩ : BufTy).Contents (Elt F) → (⟨S150000x1, .i32⟩ : BufTy).Contents (Elt F) → (⟨S150000x128, .f32⟩ : BufTy).Contents (Elt F)),
    nullary main_cst_30 (constant S_ .f32 0x00000000#32),
    unary main_cst_30 main_v223 (broadcastInDim S50000x128 ![] bcast_S_S50000x128 : (⟨S_, .f32⟩ : BufTy).Contents (Elt F) → (⟨S50000x128, .f32⟩ : BufTy).Contents (Elt F)),
    unary main_v215 main_v224 (broadcastInDim S150000x1 ![0] bcast_S150000_S150000x1_0 : (⟨S150000, .i32⟩ : BufTy).Contents (Elt F) → (⟨S150000x1, .i32⟩ : BufTy).Contents (Elt F)),
    ternary main_v223 main_v224 main_v222 main_v225 ((fun x i u => Host.scatterAdd scatter_S50000x128_S150000x1_S150000x128_1_0_0_1 x i u) : (⟨S50000x128, .f32⟩ : BufTy).Contents (Elt F) → (⟨S150000x1, .i32⟩ : BufTy).Contents (Elt F) → (⟨S150000x128, .f32⟩ : BufTy).Contents (Elt F) → (⟨S50000x128, .f32⟩ : BufTy).Contents (Elt F)),
    nullary main_cst_31 (constant S_ .f32 0x3F800000#32),
    unary main_cst_31 main_v226 (broadcastInDim S150000 ![] bcast_S_S150000 : (⟨S_, .f32⟩ : BufTy).Contents (Elt F) → (⟨S150000, .f32⟩ : BufTy).Contents (Elt F)),
    nullary main_cst_32 (constant S_ .f32 0x00000000#32),
    unary main_cst_32 main_v227 (broadcastInDim S50000 ![] bcast_S_S50000 : (⟨S_, .f32⟩ : BufTy).Contents (Elt F) → (⟨S50000, .f32⟩ : BufTy).Contents (Elt F)),
    unary main_v215 main_v228 (broadcastInDim S150000x1 ![0] bcast_S150000_S150000x1_0 : (⟨S150000, .i32⟩ : BufTy).Contents (Elt F) → (⟨S150000x1, .i32⟩ : BufTy).Contents (Elt F)),
    ternary main_v227 main_v228 main_v226 main_v229 ((fun x i u => Host.scatterAdd scatter_S50000_S150000x1_S150000_n_0_0_1 x i u) : (⟨S50000, .f32⟩ : BufTy).Contents (Elt F) → (⟨S150000x1, .i32⟩ : BufTy).Contents (Elt F) → (⟨S150000, .f32⟩ : BufTy).Contents (Elt F) → (⟨S50000, .f32⟩ : BufTy).Contents (Elt F)),
    nullary main_cst_33 (constant S_ .f32 0x3F800000#32),
    unary main_cst_33 main_v230 (broadcastInDim S50000 ![] bcast_S_S50000 : (⟨S_, .f32⟩ : BufTy).Contents (Elt F) → (⟨S50000, .f32⟩ : BufTy).Contents (Elt F)),
    binary main_v229 main_v230 main_v231 (maximumf : (⟨S50000, .f32⟩ : BufTy).Contents (Elt F) → (⟨S50000, .f32⟩ : BufTy).Contents (Elt F) → (⟨S50000, .f32⟩ : BufTy).Contents (Elt F)),
    unary main_v231 main_v232 (broadcastInDim S50000x1 ![0] bcast_S50000_S50000x1_0 : (⟨S50000, .f32⟩ : BufTy).Contents (Elt F) → (⟨S50000x1, .f32⟩ : BufTy).Contents (Elt F)),
    unary main_v232 main_v233 (broadcastInDim S50000x128 ![0, 1] bcast_S50000x1_S50000x128_0_1 : (⟨S50000x1, .f32⟩ : BufTy).Contents (Elt F) → (⟨S50000x128, .f32⟩ : BufTy).Contents (Elt F)),
    binary main_v225 main_v233 main_v234 (Host.divf : (⟨S50000x128, .f32⟩ : BufTy).Contents (Elt F) → (⟨S50000x128, .f32⟩ : BufTy).Contents (Elt F) → (⟨S50000x128, .f32⟩ : BufTy).Contents (Elt F)),
    unary main_v207 main_v235 ((transpose S128x128 [1, 0] · transposes_S128x128_S128x128_1_0) : (⟨S128x128, .f32⟩ : BufTy).Contents (Elt F) → (⟨S128x128, .f32⟩ : BufTy).Contents (Elt F)),
    binary main_v234 main_v235 main_v236 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_v209 main_v237 (broadcastInDim S1x128 ![1] bcast_S128_S1x128_1 : (⟨S128, .f32⟩ : BufTy).Contents (Elt F) → (⟨S1x128, .f32⟩ : BufTy).Contents (Elt F)),
    unary main_v237 main_v238 (broadcastInDim S50000x128 ![0, 1] bcast_S1x128_S50000x128_0_1 : (⟨S1x128, .f32⟩ : BufTy).Contents (Elt F) → (⟨S50000x128, .f32⟩ : BufTy).Contents (Elt F)),
    binary main_v236 main_v238 main_v239 (addf : (⟨S50000x128, .f32⟩ : BufTy).Contents (Elt F) → (⟨S50000x128, .f32⟩ : BufTy).Contents (Elt F) → (⟨S50000x128, .f32⟩ : BufTy).Contents (Elt F)),
    unary main_v211 main_v240 ((transpose S128x128 [1, 0] · transposes_S128x128_S128x128_1_0) : (⟨S128x128, .f32⟩ : BufTy).Contents (Elt F) → (⟨S128x128, .f32⟩ : BufTy).Contents (Elt F)),
    binary main_v9 main_v240 main_v241 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v239 main_v241 main_v242 (addf : (⟨S50000x128, .f32⟩ : BufTy).Contents (Elt F) → (⟨S50000x128, .f32⟩ : BufTy).Contents (Elt F) → (⟨S50000x128, .f32⟩ : BufTy).Contents (Elt F)) ]
/-- The buffers this stretch writes. -/
abbrev cE0_5_W : List (Ref sig .tc) := [main_v206, main_v207, main_v208, main_v209, main_v210, main_v211, main_v212, main_v213, main_v214, main_v215, main_c_28, main_v216, main_v217, main_c_29, main_v218, main_v219, main_v220, main_v221, main_v222, main_cst_30, main_v223, main_v224, main_v225, main_cst_31, main_v226, main_cst_32, main_v227, main_v228, main_v229, main_cst_33, main_v230, main_v231, main_v232, main_v233, main_v234, main_v235, main_v236, main_v237, main_v238, main_v239, main_v240, main_v241, main_v242]
theorem cE0_5_writes : (cE0_5 : List (HloOp τ sig (Elt F))).Forall fun op => op.writes ⊆ (cE0_5_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩

/-- Operations 279 to 318 of @main. -/
abbrev cS0_c : List (HloOp τ sig (Elt F)) :=
  [ binary main_v94 main_v168 main_v243 (addf : (⟨S100000x128, .f32⟩ : BufTy).Contents (Elt F) → (⟨S100000x128, .f32⟩ : BufTy).Contents (Elt F) → (⟨S100000x128, .f32⟩ : BufTy).Contents (Elt F)),
    nullary main_cst_34 (constant S_ .f32 0x3F000000#32),
    unary main_cst_34 main_v244 (broadcastInDim S100000x128 ![] bcast_S_S100000x128 : (⟨S_, .f32⟩ : BufTy).Contents (Elt F) → (⟨S100000x128, .f32⟩ : BufTy).Contents (Elt F)),
    binary main_v244 main_v243 main_v245 (mulf : (⟨S100000x128, .f32⟩ : BufTy).Contents (Elt F) → (⟨S100000x128, .f32⟩ : BufTy).Contents (Elt F) → (⟨S100000x128, .f32⟩ : BufTy).Contents (Elt F)),
    unary main_arg18 main_v246 ((extractStridedSlice S1x1x128 ![0, 0, 0] · slices_S2x3x128_S1x1x128_0_0_0) : (⟨S2x3x128, .f32⟩ : BufTy).Contents (Elt F) → (⟨S1x1x128, .f32⟩ : BufTy).Contents (Elt F)),
    reshape main_v246 main_v247 rfl shapeCasts_S1x1x128_S128,
    unary main_arg19 main_v248 ((extractStridedSlice S1x1x128 ![0, 0, 0] · slices_S2x3x128_S1x1x128_0_0_0) : (⟨S2x3x128, .f32⟩ : BufTy).Contents (Elt F) → (⟨S1x1x128, .f32⟩ : BufTy).Contents (Elt F)),
    reshape main_v248 main_v249 rfl shapeCasts_S1x1x128_S128,
    nullary main_cst_35 (constant S_ .f32 0x00000000#32),
    binary main_v245 main_cst_35 main_v250 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    unary main_v250 main_v251 (broadcastInDim S100000x1 ![0] bcast_S100000_S100000x1_0 : (⟨S100000, .f32⟩ : BufTy).Contents (Elt F) → (⟨S100000x1, .f32⟩ : BufTy).Contents (Elt F)),
    nullary main_cst_36 (constant S_ .f32 0x43000000#32),
    unary main_cst_36 main_v252 (broadcastInDim S100000x1 ![] bcast_S_S100000x1 : (⟨S_, .f32⟩ : BufTy).Contents (Elt F) → (⟨S100000x1, .f32⟩ : BufTy).Contents (Elt F)),
    binary main_v251 main_v252 main_v253 (Host.divf : (⟨S100000x1, .f32⟩ : BufTy).Contents (Elt F) → (⟨S100000x1, .f32⟩ : BufTy).Contents (Elt F) → (⟨S100000x1, .f32⟩ : BufTy).Contents (Elt F)),
    unary main_v253 main_v254 (broadcastInDim S100000x128 ![0, 1] bcast_S100000x1_S100000x128_0_1 : (⟨S100000x1, .f32⟩ : BufTy).Contents (Elt F) → (⟨S100000x128, .f32⟩ : BufTy).Contents (Elt F)),
    binary main_v245 main_v254 main_v255 (subf : (⟨S100000x128, .f32⟩ : BufTy).Contents (Elt F) → (⟨S100000x128, .f32⟩ : BufTy).Contents (Elt F) → (⟨S100000x128, .f32⟩ : BufTy).Contents (Elt F)),
    binary main_v255 main_v255 main_v256 (mulf : (⟨S100000x128, .f32⟩ : BufTy).Contents (Elt F) → (⟨S100000x128, .f32⟩ : BufTy).Contents (Elt F) → (⟨S100000x128, .f32⟩ : BufTy).Contents (Elt F)),
    nullary main_cst_37 (constant S_ .f32 0x00000000#32),
    binary main_v256 main_cst_37 main_v257 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    unary main_v257 main_v258 (broadcastInDim S100000x1 ![0] bcast_S100000_S100000x1_0 : (⟨S100000, .f32⟩ : BufTy).Contents (Elt F) → (⟨S100000x1, .f32⟩ : BufTy).Contents (Elt F)),
    nullary main_cst_38 (constant S_ .f32 0x43000000#32),
    unary main_cst_38 main_v259 (broadcastInDim S100000x1 ![] bcast_S_S100000x1 : (⟨S_, .f32⟩ : BufTy).Contents (Elt F) → (⟨S100000x1, .f32⟩ : BufTy).Contents (Elt F)),
    binary main_v258 main_v259 main_v260 (Host.divf : (⟨S100000x1, .f32⟩ : BufTy).Contents (Elt F) → (⟨S100000x1, .f32⟩ : BufTy).Contents (Elt F) → (⟨S100000x1, .f32⟩ : BufTy).Contents (Elt F)),
    unary main_v253 main_v261 (broadcastInDim S100000x128 ![0, 1] bcast_S100000x1_S100000x128_0_1 : (⟨S100000x1, .f32⟩ : BufTy).Contents (Elt F) → (⟨S100000x128, .f32⟩ : BufTy).Contents (Elt F)),
    binary main_v245 main_v261 main_v262 (subf : (⟨S100000x128, .f32⟩ : BufTy).Contents (Elt F) → (⟨S100000x128, .f32⟩ : BufTy).Contents (Elt F) → (⟨S100000x128, .f32⟩ : BufTy).Contents (Elt F)),
    nullary main_cst_39 (constant S_ .f32 0x3727C5AC#32),
    unary main_cst_39 main_v263 (broadcastInDim S100000x1 ![] bcast_S_S100000x1 : (⟨S_, .f32⟩ : BufTy).Contents (Elt F) → (⟨S100000x1, .f32⟩ : BufTy).Contents (Elt F)),
    binary main_v260 main_v263 main_v264 (addf : (⟨S100000x1, .f32⟩ : BufTy).Contents (Elt F) → (⟨S100000x1, .f32⟩ : BufTy).Contents (Elt F) → (⟨S100000x1, .f32⟩ : BufTy).Contents (Elt F)),
    unary main_v264 main_v265 (Host.rsqrt : (⟨S100000x1, .f32⟩ : BufTy).Contents (Elt F) → (⟨S100000x1, .f32⟩ : BufTy).Contents (Elt F)),
    unary main_v265 main_v266 (broadcastInDim S100000x128 ![0, 1] bcast_S100000x1_S100000x128_0_1 : (⟨S100000x1, .f32⟩ : BufTy).Contents (Elt F) → (⟨S100000x128, .f32⟩ : BufTy).Contents (Elt F)),
    binary main_v262 main_v266 main_v267 (mulf : (⟨S100000x128, .f32⟩ : BufTy).Contents (Elt F) → (⟨S100000x128, .f32⟩ : BufTy).Contents (Elt F) → (⟨S100000x128, .f32⟩ : BufTy).Contents (Elt F)),
    unary main_v247 main_v268 (broadcastInDim S1x128 ![1] bcast_S128_S1x128_1 : (⟨S128, .f32⟩ : BufTy).Contents (Elt F) → (⟨S1x128, .f32⟩ : BufTy).Contents (Elt F)),
    unary main_v268 main_v269 (broadcastInDim S100000x128 ![0, 1] bcast_S1x128_S100000x128_0_1 : (⟨S1x128, .f32⟩ : BufTy).Contents (Elt F) → (⟨S100000x128, .f32⟩ : BufTy).Contents (Elt F)),
    binary main_v267 main_v269 main_v270 (mulf : (⟨S100000x128, .f32⟩ : BufTy).Contents (Elt F) → (⟨S100000x128, .f32⟩ : BufTy).Contents (Elt F) → (⟨S100000x128, .f32⟩ : BufTy).Contents (Elt F)),
    unary main_v249 main_v271 (broadcastInDim S1x128 ![1] bcast_S128_S1x128_1 : (⟨S128, .f32⟩ : BufTy).Contents (Elt F) → (⟨S1x128, .f32⟩ : BufTy).Contents (Elt F)),
    unary main_v271 main_v272 (broadcastInDim S100000x128 ![0, 1] bcast_S1x128_S100000x128_0_1 : (⟨S1x128, .f32⟩ : BufTy).Contents (Elt F) → (⟨S100000x128, .f32⟩ : BufTy).Contents (Elt F)),
    binary main_v270 main_v272 main_v273 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x128, .f32⟩) main_call0_v0) (broadcastInDim S100000x128 ![] bcast_S_S100000x128),
    TRef.binary (TRef.of (T := ⟨S100000x128, .f32⟩) main_v273) (TRef.of (T := ⟨S100000x128, .f32⟩) main_call0_v0) (TRef.of (T := ⟨S100000x128, .f32⟩) main_v274) maximumf ]
/-- The buffers this stretch writes. -/
abbrev cS0_c_W : List (Ref sig .tc) := [main_v243, main_cst_34, main_v244, main_v245, main_v246, main_v247, main_v248, main_v249, main_cst_35, main_v250, main_v251, main_cst_36, main_v252, main_v253, main_v254, main_v255, main_v256, main_cst_37, main_v257, main_v258, main_cst_38, main_v259, main_v260, main_v261, main_v262, main_cst_39, main_v263, main_v264, main_v265, main_v266, main_v267, main_v268, main_v269, main_v270, main_v271, main_v272, main_v273, main_call0_cst, main_call0_v0, main_v274]
theorem cS0_c_writes : (cS0_c : List (HloOp τ sig (Elt F))).Forall fun op => op.writes ⊆ (cS0_c_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩

/-- Operations 319 to 358 of @main. -/
abbrev cS0_p : List (HloOp τ sig (Elt F)) :=
  [ binary main_v57 main_v242 main_v275 (addf : (⟨S50000x128, .f32⟩ : BufTy).Contents (Elt F) → (⟨S50000x128, .f32⟩ : BufTy).Contents (Elt F) → (⟨S50000x128, .f32⟩ : BufTy).Contents (Elt F)),
    nullary main_cst_40 (constant S_ .f32 0x3F000000#32),
    unary main_cst_40 main_v276 (broadcastInDim S50000x128 ![] bcast_S_S50000x128 : (⟨S_, .f32⟩ : BufTy).Contents (Elt F) → (⟨S50000x128, .f32⟩ : BufTy).Contents (Elt F)),
    binary main_v276 main_v275 main_v277 (mulf : (⟨S50000x128, .f32⟩ : BufTy).Contents (Elt F) → (⟨S50000x128, .f32⟩ : BufTy).Contents (Elt F) → (⟨S50000x128, .f32⟩ : BufTy).Contents (Elt F)),
    unary main_arg18 main_v278 ((extractStridedSlice S1x1x128 ![0, 1, 0] · slices_S2x3x128_S1x1x128_0_1_0) : (⟨S2x3x128, .f32⟩ : BufTy).Contents (Elt F) → (⟨S1x1x128, .f32⟩ : BufTy).Contents (Elt F)),
    reshape main_v278 main_v279 rfl shapeCasts_S1x1x128_S128,
    unary main_arg19 main_v280 ((extractStridedSlice S1x1x128 ![0, 1, 0] · slices_S2x3x128_S1x1x128_0_1_0) : (⟨S2x3x128, .f32⟩ : BufTy).Contents (Elt F) → (⟨S1x1x128, .f32⟩ : BufTy).Contents (Elt F)),
    reshape main_v280 main_v281 rfl shapeCasts_S1x1x128_S128,
    nullary main_cst_41 (constant S_ .f32 0x00000000#32),
    binary main_v277 main_cst_41 main_v282 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    unary main_v282 main_v283 (broadcastInDim S50000x1 ![0] bcast_S50000_S50000x1_0 : (⟨S50000, .f32⟩ : BufTy).Contents (Elt F) → (⟨S50000x1, .f32⟩ : BufTy).Contents (Elt F)),
    nullary main_cst_42 (constant S_ .f32 0x43000000#32),
    unary main_cst_42 main_v284 (broadcastInDim S50000x1 ![] bcast_S_S50000x1 : (⟨S_, .f32⟩ : BufTy).Contents (Elt F) → (⟨S50000x1, .f32⟩ : BufTy).Contents (Elt F)),
    binary main_v283 main_v284 main_v285 (Host.divf : (⟨S50000x1, .f32⟩ : BufTy).Contents (Elt F) → (⟨S50000x1, .f32⟩ : BufTy).Contents (Elt F) → (⟨S50000x1, .f32⟩ : BufTy).Contents (Elt F)),
    unary main_v285 main_v286 (broadcastInDim S50000x128 ![0, 1] bcast_S50000x1_S50000x128_0_1 : (⟨S50000x1, .f32⟩ : BufTy).Contents (Elt F) → (⟨S50000x128, .f32⟩ : BufTy).Contents (Elt F)),
    binary main_v277 main_v286 main_v287 (subf : (⟨S50000x128, .f32⟩ : BufTy).Contents (Elt F) → (⟨S50000x128, .f32⟩ : BufTy).Contents (Elt F) → (⟨S50000x128, .f32⟩ : BufTy).Contents (Elt F)),
    binary main_v287 main_v287 main_v288 (mulf : (⟨S50000x128, .f32⟩ : BufTy).Contents (Elt F) → (⟨S50000x128, .f32⟩ : BufTy).Contents (Elt F) → (⟨S50000x128, .f32⟩ : BufTy).Contents (Elt F)),
    nullary main_cst_43 (constant S_ .f32 0x00000000#32),
    binary main_v288 main_cst_43 main_v289 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    unary main_v289 main_v290 (broadcastInDim S50000x1 ![0] bcast_S50000_S50000x1_0 : (⟨S50000, .f32⟩ : BufTy).Contents (Elt F) → (⟨S50000x1, .f32⟩ : BufTy).Contents (Elt F)),
    nullary main_cst_44 (constant S_ .f32 0x43000000#32),
    unary main_cst_44 main_v291 (broadcastInDim S50000x1 ![] bcast_S_S50000x1 : (⟨S_, .f32⟩ : BufTy).Contents (Elt F) → (⟨S50000x1, .f32⟩ : BufTy).Contents (Elt F)),
    binary main_v290 main_v291 main_v292 (Host.divf : (⟨S50000x1, .f32⟩ : BufTy).Contents (Elt F) → (⟨S50000x1, .f32⟩ : BufTy).Contents (Elt F) → (⟨S50000x1, .f32⟩ : BufTy).Contents (Elt F)),
    unary main_v285 main_v293 (broadcastInDim S50000x128 ![0, 1] bcast_S50000x1_S50000x128_0_1 : (⟨S50000x1, .f32⟩ : BufTy).Contents (Elt F) → (⟨S50000x128, .f32⟩ : BufTy).Contents (Elt F)),
    binary main_v277 main_v293 main_v294 (subf : (⟨S50000x128, .f32⟩ : BufTy).Contents (Elt F) → (⟨S50000x128, .f32⟩ : BufTy).Contents (Elt F) → (⟨S50000x128, .f32⟩ : BufTy).Contents (Elt F)),
    nullary main_cst_45 (constant S_ .f32 0x3727C5AC#32),
    unary main_cst_45 main_v295 (broadcastInDim S50000x1 ![] bcast_S_S50000x1 : (⟨S_, .f32⟩ : BufTy).Contents (Elt F) → (⟨S50000x1, .f32⟩ : BufTy).Contents (Elt F)),
    binary main_v292 main_v295 main_v296 (addf : (⟨S50000x1, .f32⟩ : BufTy).Contents (Elt F) → (⟨S50000x1, .f32⟩ : BufTy).Contents (Elt F) → (⟨S50000x1, .f32⟩ : BufTy).Contents (Elt F)),
    unary main_v296 main_v297 (Host.rsqrt : (⟨S50000x1, .f32⟩ : BufTy).Contents (Elt F) → (⟨S50000x1, .f32⟩ : BufTy).Contents (Elt F)),
    unary main_v297 main_v298 (broadcastInDim S50000x128 ![0, 1] bcast_S50000x1_S50000x128_0_1 : (⟨S50000x1, .f32⟩ : BufTy).Contents (Elt F) → (⟨S50000x128, .f32⟩ : BufTy).Contents (Elt F)),
    binary main_v294 main_v298 main_v299 (mulf : (⟨S50000x128, .f32⟩ : BufTy).Contents (Elt F) → (⟨S50000x128, .f32⟩ : BufTy).Contents (Elt F) → (⟨S50000x128, .f32⟩ : BufTy).Contents (Elt F)),
    unary main_v279 main_v300 (broadcastInDim S1x128 ![1] bcast_S128_S1x128_1 : (⟨S128, .f32⟩ : BufTy).Contents (Elt F) → (⟨S1x128, .f32⟩ : BufTy).Contents (Elt F)),
    unary main_v300 main_v301 (broadcastInDim S50000x128 ![0, 1] bcast_S1x128_S50000x128_0_1 : (⟨S1x128, .f32⟩ : BufTy).Contents (Elt F) → (⟨S50000x128, .f32⟩ : BufTy).Contents (Elt F)),
    binary main_v299 main_v301 main_v302 (mulf : (⟨S50000x128, .f32⟩ : BufTy).Contents (Elt F) → (⟨S50000x128, .f32⟩ : BufTy).Contents (Elt F) → (⟨S50000x128, .f32⟩ : BufTy).Contents (Elt F)),
    unary main_v281 main_v303 (broadcastInDim S1x128 ![1] bcast_S128_S1x128_1 : (⟨S128, .f32⟩ : BufTy).Contents (Elt F) → (⟨S1x128, .f32⟩ : BufTy).Contents (Elt F)),
    unary main_v303 main_v304 (broadcastInDim S50000x128 ![0, 1] bcast_S1x128_S50000x128_0_1 : (⟨S1x128, .f32⟩ : BufTy).Contents (Elt F) → (⟨S50000x128, .f32⟩ : BufTy).Contents (Elt F)),
    binary main_v302 main_v304 main_v305 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x128, .f32⟩) main_call1_v0) (broadcastInDim S50000x128 ![] bcast_S_S50000x128),
    TRef.binary (TRef.of (T := ⟨S50000x128, .f32⟩) main_v305) (TRef.of (T := ⟨S50000x128, .f32⟩) main_call1_v0) (TRef.of (T := ⟨S50000x128, .f32⟩) main_v306) maximumf ]
/-- The buffers this stretch writes. -/
abbrev cS0_p_W : List (Ref sig .tc) := [main_v275, main_cst_40, main_v276, main_v277, main_v278, main_v279, main_v280, main_v281, main_cst_41, main_v282, main_v283, main_cst_42, main_v284, main_v285, main_v286, main_v287, main_v288, main_cst_43, main_v289, main_v290, main_cst_44, main_v291, main_v292, main_v293, main_v294, main_cst_45, main_v295, main_v296, main_v297, main_v298, main_v299, main_v300, main_v301, main_v302, main_v303, main_v304, main_v305, main_call1_cst, main_call1_v0, main_v306]
theorem cS0_p_writes : (cS0_p : List (HloOp τ sig (Elt F))).Forall fun op => op.writes ⊆ (cS0_p_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩

/-- Operations 359 to 398 of @main. -/
abbrev cS0_s : List (HloOp τ sig (Elt F)) :=
  [ binary main_v131 main_v205 main_v307 (addf : (⟨S5000x128, .f32⟩ : BufTy).Contents (Elt F) → (⟨S5000x128, .f32⟩ : BufTy).Contents (Elt F) → (⟨S5000x128, .f32⟩ : BufTy).Contents (Elt F)),
    nullary main_cst_46 (constant S_ .f32 0x3F000000#32),
    unary main_cst_46 main_v308 (broadcastInDim S5000x128 ![] bcast_S_S5000x128 : (⟨S_, .f32⟩ : BufTy).Contents (Elt F) → (⟨S5000x128, .f32⟩ : BufTy).Contents (Elt F)),
    binary main_v308 main_v307 main_v309 (mulf : (⟨S5000x128, .f32⟩ : BufTy).Contents (Elt F) → (⟨S5000x128, .f32⟩ : BufTy).Contents (Elt F) → (⟨S5000x128, .f32⟩ : BufTy).Contents (Elt F)),
    unary main_arg18 main_v310 ((extractStridedSlice S1x1x128 ![0, 2, 0] · slices_S2x3x128_S1x1x128_0_2_0) : (⟨S2x3x128, .f32⟩ : BufTy).Contents (Elt F) → (⟨S1x1x128, .f32⟩ : BufTy).Contents (Elt F)),
    reshape main_v310 main_v311 rfl shapeCasts_S1x1x128_S128,
    unary main_arg19 main_v312 ((extractStridedSlice S1x1x128 ![0, 2, 0] · slices_S2x3x128_S1x1x128_0_2_0) : (⟨S2x3x128, .f32⟩ : BufTy).Contents (Elt F) → (⟨S1x1x128, .f32⟩ : BufTy).Contents (Elt F)),
    reshape main_v312 main_v313 rfl shapeCasts_S1x1x128_S128,
    nullary main_cst_47 (constant S_ .f32 0x00000000#32),
    binary main_v309 main_cst_47 main_v314 ((fun x v => Host.reduceAdd x v reducesTo_S5000x128_S5000_d1 h_S_) : (⟨S5000x128, .f32⟩ : BufTy).Contents (Elt F) → (⟨S_, .f32⟩ : BufTy).Contents (Elt F) → (⟨S5000, .f32⟩ : BufTy).Contents (Elt F)),
    unary main_v314 main_v315 (broadcastInDim S5000x1 ![0] bcast_S5000_S5000x1_0 : (⟨S5000, .f32⟩ : BufTy).Contents (Elt F) → (⟨S5000x1, .f32⟩ : BufTy).Contents (Elt F)),
    nullary main_cst_48 (constant S_ .f32 0x43000000#32),
    unary main_cst_48 main_v316 (broadcastInDim S5000x1 ![] bcast_S_S5000x1 : (⟨S_, .f32⟩ : BufTy).Contents (Elt F) → (⟨S5000x1, .f32⟩ : BufTy).Contents (Elt F)),
    binary main_v315 main_v316 main_v317 (Host.divf : (⟨S5000x1, .f32⟩ : BufTy).Contents (Elt F) → (⟨S5000x1, .f32⟩ : BufTy).Contents (Elt F) → (⟨S5000x1, .f32⟩ : BufTy).Contents (Elt F)),
    unary main_v317 main_v318 (broadcastInDim S5000x128 ![0, 1] bcast_S5000x1_S5000x128_0_1 : (⟨S5000x1, .f32⟩ : BufTy).Contents (Elt F) → (⟨S5000x128, .f32⟩ : BufTy).Contents (Elt F)),
    binary main_v309 main_v318 main_v319 (subf : (⟨S5000x128, .f32⟩ : BufTy).Contents (Elt F) → (⟨S5000x128, .f32⟩ : BufTy).Contents (Elt F) → (⟨S5000x128, .f32⟩ : BufTy).Contents (Elt F)),
    binary main_v319 main_v319 main_v320 (mulf : (⟨S5000x128, .f32⟩ : BufTy).Contents (Elt F) → (⟨S5000x128, .f32⟩ : BufTy).Contents (Elt F) → (⟨S5000x128, .f32⟩ : BufTy).Contents (Elt F)),
    nullary main_cst_49 (constant S_ .f32 0x00000000#32),
    binary main_v320 main_cst_49 main_v321 ((fun x v => Host.reduceAdd x v reducesTo_S5000x128_S5000_d1 h_S_) : (⟨S5000x128, .f32⟩ : BufTy).Contents (Elt F) → (⟨S_, .f32⟩ : BufTy).Contents (Elt F) → (⟨S5000, .f32⟩ : BufTy).Contents (Elt F)),
    unary main_v321 main_v322 (broadcastInDim S5000x1 ![0] bcast_S5000_S5000x1_0 : (⟨S5000, .f32⟩ : BufTy).Contents (Elt F) → (⟨S5000x1, .f32⟩ : BufTy).Contents (Elt F)),
    nullary main_cst_50 (constant S_ .f32 0x43000000#32),
    unary main_cst_50 main_v323 (broadcastInDim S5000x1 ![] bcast_S_S5000x1 : (⟨S_, .f32⟩ : BufTy).Contents (Elt F) → (⟨S5000x1, .f32⟩ : BufTy).Contents (Elt F)),
    binary main_v322 main_v323 main_v324 (Host.divf : (⟨S5000x1, .f32⟩ : BufTy).Contents (Elt F) → (⟨S5000x1, .f32⟩ : BufTy).Contents (Elt F) → (⟨S5000x1, .f32⟩ : BufTy).Contents (Elt F)),
    unary main_v317 main_v325 (broadcastInDim S5000x128 ![0, 1] bcast_S5000x1_S5000x128_0_1 : (⟨S5000x1, .f32⟩ : BufTy).Contents (Elt F) → (⟨S5000x128, .f32⟩ : BufTy).Contents (Elt F)),
    binary main_v309 main_v325 main_v326 (subf : (⟨S5000x128, .f32⟩ : BufTy).Contents (Elt F) → (⟨S5000x128, .f32⟩ : BufTy).Contents (Elt F) → (⟨S5000x128, .f32⟩ : BufTy).Contents (Elt F)),
    nullary main_cst_51 (constant S_ .f32 0x3727C5AC#32),
    unary main_cst_51 main_v327 (broadcastInDim S5000x1 ![] bcast_S_S5000x1 : (⟨S_, .f32⟩ : BufTy).Contents (Elt F) → (⟨S5000x1, .f32⟩ : BufTy).Contents (Elt F)),
    binary main_v324 main_v327 main_v328 (addf : (⟨S5000x1, .f32⟩ : BufTy).Contents (Elt F) → (⟨S5000x1, .f32⟩ : BufTy).Contents (Elt F) → (⟨S5000x1, .f32⟩ : BufTy).Contents (Elt F)),
    unary main_v328 main_v329 (Host.rsqrt : (⟨S5000x1, .f32⟩ : BufTy).Contents (Elt F) → (⟨S5000x1, .f32⟩ : BufTy).Contents (Elt F)),
    unary main_v329 main_v330 (broadcastInDim S5000x128 ![0, 1] bcast_S5000x1_S5000x128_0_1 : (⟨S5000x1, .f32⟩ : BufTy).Contents (Elt F) → (⟨S5000x128, .f32⟩ : BufTy).Contents (Elt F)),
    binary main_v326 main_v330 main_v331 (mulf : (⟨S5000x128, .f32⟩ : BufTy).Contents (Elt F) → (⟨S5000x128, .f32⟩ : BufTy).Contents (Elt F) → (⟨S5000x128, .f32⟩ : BufTy).Contents (Elt F)),
    unary main_v311 main_v332 (broadcastInDim S1x128 ![1] bcast_S128_S1x128_1 : (⟨S128, .f32⟩ : BufTy).Contents (Elt F) → (⟨S1x128, .f32⟩ : BufTy).Contents (Elt F)),
    unary main_v332 main_v333 (broadcastInDim S5000x128 ![0, 1] bcast_S1x128_S5000x128_0_1 : (⟨S1x128, .f32⟩ : BufTy).Contents (Elt F) → (⟨S5000x128, .f32⟩ : BufTy).Contents (Elt F)),
    binary main_v331 main_v333 main_v334 (mulf : (⟨S5000x128, .f32⟩ : BufTy).Contents (Elt F) → (⟨S5000x128, .f32⟩ : BufTy).Contents (Elt F) → (⟨S5000x128, .f32⟩ : BufTy).Contents (Elt F)),
    unary main_v313 main_v335 (broadcastInDim S1x128 ![1] bcast_S128_S1x128_1 : (⟨S128, .f32⟩ : BufTy).Contents (Elt F) → (⟨S1x128, .f32⟩ : BufTy).Contents (Elt F)),
    unary main_v335 main_v336 (broadcastInDim S5000x128 ![0, 1] bcast_S1x128_S5000x128_0_1 : (⟨S1x128, .f32⟩ : BufTy).Contents (Elt F) → (⟨S5000x128, .f32⟩ : BufTy).Contents (Elt F)),
    binary main_v334 main_v336 main_v337 (addf : (⟨S5000x128, .f32⟩ : BufTy).Contents (Elt F) → (⟨S5000x128, .f32⟩ : BufTy).Contents (Elt F) → (⟨S5000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S5000x128, .f32⟩) main_call2_v0) (broadcastInDim S5000x128 ![] bcast_S_S5000x128),
    TRef.binary (TRef.of (T := ⟨S5000x128, .f32⟩) main_v337) (TRef.of (T := ⟨S5000x128, .f32⟩) main_call2_v0) (TRef.of (T := ⟨S5000x128, .f32⟩) main_v338) maximumf ]
/-- The buffers this stretch writes. -/
abbrev cS0_s_W : List (Ref sig .tc) := [main_v307, main_cst_46, main_v308, main_v309, main_v310, main_v311, main_v312, main_v313, main_cst_47, main_v314, main_v315, main_cst_48, main_v316, main_v317, main_v318, main_v319, main_v320, main_cst_49, main_v321, main_v322, main_cst_50, main_v323, main_v324, main_v325, main_v326, main_cst_51, main_v327, main_v328, main_v329, main_v330, main_v331, main_v332, main_v333, main_v334, main_v335, main_v336, main_v337, main_call2_cst, main_call2_v0, main_v338]
theorem cS0_s_writes : (cS0_s : List (HloOp τ sig (Elt F))).Forall fun op => op.writes ⊆ (cS0_s_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩

/-- Operations 399 to 404 of @main. -/
abbrev cL1 : List (HloOp τ sig (Elt F)) :=
  [ unary main_arg15 main_v339 ((extractStridedSlice S1x6x128x128 ![1, 0, 0, 0] · slices_S2x6x128x128_S1x6x128x128_1_0_0_0) : (⟨S2x6x128x128, .f32⟩ : BufTy).Contents (Elt F) → (⟨S1x6x128x128, .f32⟩ : BufTy).Contents (Elt F)),
    reshape main_v339 main_v340 rfl shapeCasts_S1x6x128x128_S6x128x128,
    unary main_arg16 main_v341 ((extractStridedSlice S1x6x128 ![1, 0, 0] · slices_S2x6x128_S1x6x128_1_0_0) : (⟨S2x6x128, .f32⟩ : BufTy).Contents (Elt F) → (⟨S1x6x128, .f32⟩ : BufTy).Contents (Elt F)),
    reshape main_v341 main_v342 rfl shapeCasts_S1x6x128_S6x128,
    unary main_arg17 main_v343 ((extractStridedSlice S1x6x128x128 ![1, 0, 0, 0] · slices_S2x6x128x128_S1x6x128x128_1_0_0_0) : (⟨S2x6x128x128, .f32⟩ : BufTy).Contents (Elt F) → (⟨S1x6x128x128, .f32⟩ : BufTy).Contents (Elt F)),
    reshape main_v343 main_v344 rfl shapeCasts_S1x6x128x128_S6x128x128 ]
/-- The buffers this stretch writes. -/
abbrev cL1_W : List (Ref sig .tc) := [main_v339, main_v340, main_v341, main_v342, main_v343, main_v344]
theorem cL1_writes : (cL1 : List (HloOp τ sig (Elt F))).Forall fun op => op.writes ⊆ (cL1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩

/-- Operations 405 to 447 of @main. -/
abbrev cE1_0 : List (HloOp τ sig (Elt F)) :=
  [ unary main_v340 main_v345 ((extractStridedSlice S1x128x128 ![0, 0, 0] · slices_S6x128x128_S1x128x128_0_0_0) : (⟨S6x128x128, .f32⟩ : BufTy).Contents (Elt F) → (⟨S1x128x128, .f32⟩ : BufTy).Contents (Elt F)),
    reshape main_v345 main_v346 rfl shapeCasts_S1x128x128_S128x128,
    unary main_v342 main_v347 ((extractStridedSlice S1x128 ![0, 0] · slices_S6x128_S1x128_0_0) : (⟨S6x128, .f32⟩ : BufTy).Contents (Elt F) → (⟨S1x128, .f32⟩ : BufTy).Contents (Elt F)),
    reshape main_v347 main_v348 rfl shapeCasts_S1x128_S128,
    unary main_v344 main_v349 ((extractStridedSlice S1x128x128 ![0, 0, 0] · slices_S6x128x128_S1x128x128_0_0_0) : (⟨S6x128x128, .f32⟩ : BufTy).Contents (Elt F) → (⟨S1x128x128, .f32⟩ : BufTy).Contents (Elt F)),
    reshape main_v349 main_v350 rfl shapeCasts_S1x128x128_S128x128,
    unary main_arg3 main_v351 ((extractStridedSlice S1x500000 ![0, 0] · slices_S2x500000_S1x500000_0_0) : (⟨S2x500000, .i32⟩ : BufTy).Contents (Elt F) → (⟨S1x500000, .i32⟩ : BufTy).Contents (Elt F)),
    reshape main_v351 main_v352 rfl shapeCasts_S1x500000_S500000,
    unary main_arg3 main_v353 ((extractStridedSlice S1x500000 ![1, 0] · slices_S2x500000_S1x500000_1_0) : (⟨S2x500000, .i32⟩ : BufTy).Contents (Elt F) → (⟨S1x500000, .i32⟩ : BufTy).Contents (Elt F)),
    reshape main_v353 main_v354 rfl shapeCasts_S1x500000_S500000,
    nullary main_c_52 (constantI S_ 32 0#32),
    unary main_c_52 main_v355 (broadcastInDim S500000 ![] bcast_S_S500000 : (⟨S_, .i32⟩ : BufTy).Contents (Elt F) → (⟨S500000, .i32⟩ : BufTy).Contents (Elt F)),
    binary main_v352 main_v355 main_v356 (cmpi .slt : (⟨S500000, .i32⟩ : BufTy).Contents (Elt F) → (⟨S500000, .i32⟩ : BufTy).Contents (Elt F) → (⟨S500000, .i1⟩ : BufTy).Contents (Elt F)),
    nullary main_c_53 (constantI S_ 32 100000#32),
    unary main_c_53 main_v357 (broadcastInDim S500000 ![] bcast_S_S500000 : (⟨S_, .i32⟩ : BufTy).Contents (Elt F) → (⟨S500000, .i32⟩ : BufTy).Contents (Elt F)),
    binary main_v352 main_v357 main_v358 (addi : (⟨S500000, .i32⟩ : BufTy).Contents (Elt F) → (⟨S500000, .i32⟩ : BufTy).Contents (Elt F) → (⟨S500000, .i32⟩ : BufTy).Contents (Elt F)),
    ternary main_v356 main_v358 main_v352 main_v359 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v359 main_v360 (broadcastInDim S500000x1 ![0] bcast_S500000_S500000x1_0 : (⟨S500000, .i32⟩ : BufTy).Contents (Elt F) → (⟨S500000x1, .i32⟩ : BufTy).Contents (Elt F)),
    binary main_v274 main_v360 main_v361 ((fun x i => Host.gather gather_S100000x128_S500000x1_S500000x128_1_0_n_n_0_1_1128 x i) : (⟨S100000x128, .f32⟩ : BufTy).Contents (Elt F) → (⟨S500000x1, .i32⟩ : BufTy).Contents (Elt F) → (⟨S500000x128, .f32⟩ : BufTy).Contents (Elt F)),
    nullary main_cst_54 (constant S_ .f32 0x00000000#32),
    unary main_cst_54 main_v362 (broadcastInDim S50000x128 ![] bcast_S_S50000x128 : (⟨S_, .f32⟩ : BufTy).Contents (Elt F) → (⟨S50000x128, .f32⟩ : BufTy).Contents (Elt F)),
    unary main_v354 main_v363 (broadcastInDim S500000x1 ![0] bcast_S500000_S500000x1_0 : (⟨S500000, .i32⟩ : BufTy).Contents (Elt F) → (⟨S500000x1, .i32⟩ : BufTy).Contents (Elt F)),
    ternary main_v362 main_v363 main_v361 main_v364 ((fun x i u => Host.scatterAdd scatter_S50000x128_S500000x1_S500000x128_1_0_0_1 x i u) : (⟨S50000x128, .f32⟩ : BufTy).Contents (Elt F) → (⟨S500000x1, .i32⟩ : BufTy).Contents (Elt F) → (⟨S500000x128, .f32⟩ : BufTy).Contents (Elt F) → (⟨S50000x128, .f32⟩ : BufTy).Contents (Elt F)),
    nullary main_cst_55 (constant S_ .f32 0x3F800000#32),
    unary main_cst_55 main_v365 (broadcastInDim S500000 ![] bcast_S_S500000 : (⟨S_, .f32⟩ : BufTy).Contents (Elt F) → (⟨S500000, .f32⟩ : BufTy).Contents (Elt F)),
    nullary main_cst_56 (constant S_ .f32 0x00000000#32),
    unary main_cst_56 main_v366 (broadcastInDim S50000 ![] bcast_S_S50000 : (⟨S_, .f32⟩ : BufTy).Contents (Elt F) → (⟨S50000, .f32⟩ : BufTy).Contents (Elt F)),
    unary main_v354 main_v367 (broadcastInDim S500000x1 ![0] bcast_S500000_S500000x1_0 : (⟨S500000, .i32⟩ : BufTy).Contents (Elt F) → (⟨S500000x1, .i32⟩ : BufTy).Contents (Elt F)),
    ternary main_v366 main_v367 main_v365 main_v368 ((fun x i u => Host.scatterAdd scatter_S50000_S500000x1_S500000_n_0_0_1 x i u) : (⟨S50000, .f32⟩ : BufTy).Contents (Elt F) → (⟨S500000x1, .i32⟩ : BufTy).Contents (Elt F) → (⟨S500000, .f32⟩ : BufTy).Contents (Elt F) → (⟨S50000, .f32⟩ : BufTy).Contents (Elt F)),
    nullary main_cst_57 (constant S_ .f32 0x3F800000#32),
    unary main_cst_57 main_v369 (broadcastInDim S50000 ![] bcast_S_S50000 : (⟨S_, .f32⟩ : BufTy).Contents (Elt F) → (⟨S50000, .f32⟩ : BufTy).Contents (Elt F)),
    binary main_v368 main_v369 main_v370 (maximumf : (⟨S50000, .f32⟩ : BufTy).Contents (Elt F) → (⟨S50000, .f32⟩ : BufTy).Contents (Elt F) → (⟨S50000, .f32⟩ : BufTy).Contents (Elt F)),
    unary main_v370 main_v371 (broadcastInDim S50000x1 ![0] bcast_S50000_S50000x1_0 : (⟨S50000, .f32⟩ : BufTy).Contents (Elt F) → (⟨S50000x1, .f32⟩ : BufTy).Contents (Elt F)),
    unary main_v371 main_v372 (broadcastInDim S50000x128 ![0, 1] bcast_S50000x1_S50000x128_0_1 : (⟨S50000x1, .f32⟩ : BufTy).Contents (Elt F) → (⟨S50000x128, .f32⟩ : BufTy).Contents (Elt F)),
    binary main_v364 main_v372 main_v373 (Host.divf : (⟨S50000x128, .f32⟩ : BufTy).Contents (Elt F) → (⟨S50000x128, .f32⟩ : BufTy).Contents (Elt F) → (⟨S50000x128, .f32⟩ : BufTy).Contents (Elt F)),
    unary main_v346 main_v374 ((transpose S128x128 [1, 0] · transposes_S128x128_S128x128_1_0) : (⟨S128x128, .f32⟩ : BufTy).Contents (Elt F) → (⟨S128x128, .f32⟩ : BufTy).Contents (Elt F)),
    binary main_v373 main_v374 main_v375 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_v348 main_v376 (broadcastInDim S1x128 ![1] bcast_S128_S1x128_1 : (⟨S128, .f32⟩ : BufTy).Contents (Elt F) → (⟨S1x128, .f32⟩ : BufTy).Contents (Elt F)),
    unary main_v376 main_v377 (broadcastInDim S50000x128 ![0, 1] bcast_S1x128_S50000x128_0_1 : (⟨S1x128, .f32⟩ : BufTy).Contents (Elt F) → (⟨S50000x128, .f32⟩ : BufTy).Contents (Elt F)),
    binary main_v375 main_v377 main_v378 (addf : (⟨S50000x128, .f32⟩ : BufTy).Contents (Elt F) → (⟨S50000x128, .f32⟩ : BufTy).Contents (Elt F) → (⟨S50000x128, .f32⟩ : BufTy).Contents (Elt F)),
    unary main_v350 main_v379 ((transpose S128x128 [1, 0] · transposes_S128x128_S128x128_1_0) : (⟨S128x128, .f32⟩ : BufTy).Contents (Elt F) → (⟨S128x128, .f32⟩ : BufTy).Contents (Elt F)),
    binary main_v306 main_v379 main_v380 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v378 main_v380 main_v381 (addf : (⟨S50000x128, .f32⟩ : BufTy).Contents (Elt F) → (⟨S50000x128, .f32⟩ : BufTy).Contents (Elt F) → (⟨S50000x128, .f32⟩ : BufTy).Contents (Elt F)) ]
/-- The buffers this stretch writes. -/
abbrev cE1_0_W : List (Ref sig .tc) := [main_v345, main_v346, main_v347, main_v348, main_v349, main_v350, main_v351, main_v352, main_v353, main_v354, main_c_52, main_v355, main_v356, main_c_53, main_v357, main_v358, main_v359, main_v360, main_v361, main_cst_54, main_v362, main_v363, main_v364, main_cst_55, main_v365, main_cst_56, main_v366, main_v367, main_v368, main_cst_57, main_v369, main_v370, main_v371, main_v372, main_v373, main_v374, main_v375, main_v376, main_v377, main_v378, main_v379, main_v380, main_v381]
theorem cE1_0_writes : (cE1_0 : List (HloOp τ sig (Elt F))).Forall fun op => op.writes ⊆ (cE1_0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩

/-- Operations 448 to 490 of @main. -/
abbrev cE1_1 : List (HloOp τ sig (Elt F)) :=
  [ unary main_v340 main_v382 ((extractStridedSlice S1x128x128 ![1, 0, 0] · slices_S6x128x128_S1x128x128_1_0_0) : (⟨S6x128x128, .f32⟩ : BufTy).Contents (Elt F) → (⟨S1x128x128, .f32⟩ : BufTy).Contents (Elt F)),
    reshape main_v382 main_v383 rfl shapeCasts_S1x128x128_S128x128,
    unary main_v342 main_v384 ((extractStridedSlice S1x128 ![1, 0] · slices_S6x128_S1x128_1_0) : (⟨S6x128, .f32⟩ : BufTy).Contents (Elt F) → (⟨S1x128, .f32⟩ : BufTy).Contents (Elt F)),
    reshape main_v384 main_v385 rfl shapeCasts_S1x128_S128,
    unary main_v344 main_v386 ((extractStridedSlice S1x128x128 ![1, 0, 0] · slices_S6x128x128_S1x128x128_1_0_0) : (⟨S6x128x128, .f32⟩ : BufTy).Contents (Elt F) → (⟨S1x128x128, .f32⟩ : BufTy).Contents (Elt F)),
    reshape main_v386 main_v387 rfl shapeCasts_S1x128x128_S128x128,
    unary main_arg4 main_v388 ((extractStridedSlice S1x500000 ![0, 0] · slices_S2x500000_S1x500000_0_0) : (⟨S2x500000, .i32⟩ : BufTy).Contents (Elt F) → (⟨S1x500000, .i32⟩ : BufTy).Contents (Elt F)),
    reshape main_v388 main_v389 rfl shapeCasts_S1x500000_S500000,
    unary main_arg4 main_v390 ((extractStridedSlice S1x500000 ![1, 0] · slices_S2x500000_S1x500000_1_0) : (⟨S2x500000, .i32⟩ : BufTy).Contents (Elt F) → (⟨S1x500000, .i32⟩ : BufTy).Contents (Elt F)),
    reshape main_v390 main_v391 rfl shapeCasts_S1x500000_S500000,
    nullary main_c_58 (constantI S_ 32 0#32),
    unary main_c_58 main_v392 (broadcastInDim S500000 ![] bcast_S_S500000 : (⟨S_, .i32⟩ : BufTy).Contents (Elt F) → (⟨S500000, .i32⟩ : BufTy).Contents (Elt F)),
    binary main_v389 main_v392 main_v393 (cmpi .slt : (⟨S500000, .i32⟩ : BufTy).Contents (Elt F) → (⟨S500000, .i32⟩ : BufTy).Contents (Elt F) → (⟨S500000, .i1⟩ : BufTy).Contents (Elt F)),
    nullary main_c_59 (constantI S_ 32 50000#32),
    unary main_c_59 main_v394 (broadcastInDim S500000 ![] bcast_S_S500000 : (⟨S_, .i32⟩ : BufTy).Contents (Elt F) → (⟨S500000, .i32⟩ : BufTy).Contents (Elt F)),
    binary main_v389 main_v394 main_v395 (addi : (⟨S500000, .i32⟩ : BufTy).Contents (Elt F) → (⟨S500000, .i32⟩ : BufTy).Contents (Elt F) → (⟨S500000, .i32⟩ : BufTy).Contents (Elt F)),
    ternary main_v393 main_v395 main_v389 main_v396 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v396 main_v397 (broadcastInDim S500000x1 ![0] bcast_S500000_S500000x1_0 : (⟨S500000, .i32⟩ : BufTy).Contents (Elt F) → (⟨S500000x1, .i32⟩ : BufTy).Contents (Elt F)),
    binary main_v306 main_v397 main_v398 ((fun x i => Host.gather gather_S50000x128_S500000x1_S500000x128_1_0_n_n_0_1_1128 x i) : (⟨S50000x128, .f32⟩ : BufTy).Contents (Elt F) → (⟨S500000x1, .i32⟩ : BufTy).Contents (Elt F) → (⟨S500000x128, .f32⟩ : BufTy).Contents (Elt F)),
    nullary main_cst_60 (constant S_ .f32 0x00000000#32),
    unary main_cst_60 main_v399 (broadcastInDim S100000x128 ![] bcast_S_S100000x128 : (⟨S_, .f32⟩ : BufTy).Contents (Elt F) → (⟨S100000x128, .f32⟩ : BufTy).Contents (Elt F)),
    unary main_v391 main_v400 (broadcastInDim S500000x1 ![0] bcast_S500000_S500000x1_0 : (⟨S500000, .i32⟩ : BufTy).Contents (Elt F) → (⟨S500000x1, .i32⟩ : BufTy).Contents (Elt F)),
    ternary main_v399 main_v400 main_v398 main_v401 ((fun x i u => Host.scatterAdd scatter_S100000x128_S500000x1_S500000x128_1_0_0_1 x i u) : (⟨S100000x128, .f32⟩ : BufTy).Contents (Elt F) → (⟨S500000x1, .i32⟩ : BufTy).Contents (Elt F) → (⟨S500000x128, .f32⟩ : BufTy).Contents (Elt F) → (⟨S100000x128, .f32⟩ : BufTy).Contents (Elt F)),
    nullary main_cst_61 (constant S_ .f32 0x3F800000#32),
    unary main_cst_61 main_v402 (broadcastInDim S500000 ![] bcast_S_S500000 : (⟨S_, .f32⟩ : BufTy).Contents (Elt F) → (⟨S500000, .f32⟩ : BufTy).Contents (Elt F)),
    nullary main_cst_62 (constant S_ .f32 0x00000000#32),
    unary main_cst_62 main_v403 (broadcastInDim S100000 ![] bcast_S_S100000 : (⟨S_, .f32⟩ : BufTy).Contents (Elt F) → (⟨S100000, .f32⟩ : BufTy).Contents (Elt F)),
    unary main_v391 main_v404 (broadcastInDim S500000x1 ![0] bcast_S500000_S500000x1_0 : (⟨S500000, .i32⟩ : BufTy).Contents (Elt F) → (⟨S500000x1, .i32⟩ : BufTy).Contents (Elt F)),
    ternary main_v403 main_v404 main_v402 main_v405 ((fun x i u => Host.scatterAdd scatter_S100000_S500000x1_S500000_n_0_0_1 x i u) : (⟨S100000, .f32⟩ : BufTy).Contents (Elt F) → (⟨S500000x1, .i32⟩ : BufTy).Contents (Elt F) → (⟨S500000, .f32⟩ : BufTy).Contents (Elt F) → (⟨S100000, .f32⟩ : BufTy).Contents (Elt F)),
    nullary main_cst_63 (constant S_ .f32 0x3F800000#32),
    unary main_cst_63 main_v406 (broadcastInDim S100000 ![] bcast_S_S100000 : (⟨S_, .f32⟩ : BufTy).Contents (Elt F) → (⟨S100000, .f32⟩ : BufTy).Contents (Elt F)),
    binary main_v405 main_v406 main_v407 (maximumf : (⟨S100000, .f32⟩ : BufTy).Contents (Elt F) → (⟨S100000, .f32⟩ : BufTy).Contents (Elt F) → (⟨S100000, .f32⟩ : BufTy).Contents (Elt F)),
    unary main_v407 main_v408 (broadcastInDim S100000x1 ![0] bcast_S100000_S100000x1_0 : (⟨S100000, .f32⟩ : BufTy).Contents (Elt F) → (⟨S100000x1, .f32⟩ : BufTy).Contents (Elt F)),
    unary main_v408 main_v409 (broadcastInDim S100000x128 ![0, 1] bcast_S100000x1_S100000x128_0_1 : (⟨S100000x1, .f32⟩ : BufTy).Contents (Elt F) → (⟨S100000x128, .f32⟩ : BufTy).Contents (Elt F)),
    binary main_v401 main_v409 main_v410 (Host.divf : (⟨S100000x128, .f32⟩ : BufTy).Contents (Elt F) → (⟨S100000x128, .f32⟩ : BufTy).Contents (Elt F) → (⟨S100000x128, .f32⟩ : BufTy).Contents (Elt F)),
    unary main_v383 main_v411 ((transpose S128x128 [1, 0] · transposes_S128x128_S128x128_1_0) : (⟨S128x128, .f32⟩ : BufTy).Contents (Elt F) → (⟨S128x128, .f32⟩ : BufTy).Contents (Elt F)),
    binary main_v410 main_v411 main_v412 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_v385 main_v413 (broadcastInDim S1x128 ![1] bcast_S128_S1x128_1 : (⟨S128, .f32⟩ : BufTy).Contents (Elt F) → (⟨S1x128, .f32⟩ : BufTy).Contents (Elt F)),
    unary main_v413 main_v414 (broadcastInDim S100000x128 ![0, 1] bcast_S1x128_S100000x128_0_1 : (⟨S1x128, .f32⟩ : BufTy).Contents (Elt F) → (⟨S100000x128, .f32⟩ : BufTy).Contents (Elt F)),
    binary main_v412 main_v414 main_v415 (addf : (⟨S100000x128, .f32⟩ : BufTy).Contents (Elt F) → (⟨S100000x128, .f32⟩ : BufTy).Contents (Elt F) → (⟨S100000x128, .f32⟩ : BufTy).Contents (Elt F)),
    unary main_v387 main_v416 ((transpose S128x128 [1, 0] · transposes_S128x128_S128x128_1_0) : (⟨S128x128, .f32⟩ : BufTy).Contents (Elt F) → (⟨S128x128, .f32⟩ : BufTy).Contents (Elt F)),
    binary main_v274 main_v416 main_v417 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v415 main_v417 main_v418 (addf : (⟨S100000x128, .f32⟩ : BufTy).Contents (Elt F) → (⟨S100000x128, .f32⟩ : BufTy).Contents (Elt F) → (⟨S100000x128, .f32⟩ : BufTy).Contents (Elt F)) ]
/-- The buffers this stretch writes. -/
abbrev cE1_1_W : List (Ref sig .tc) := [main_v382, main_v383, main_v384, main_v385, main_v386, main_v387, main_v388, main_v389, main_v390, main_v391, main_c_58, main_v392, main_v393, main_c_59, main_v394, main_v395, main_v396, main_v397, main_v398, main_cst_60, main_v399, main_v400, main_v401, main_cst_61, main_v402, main_cst_62, main_v403, main_v404, main_v405, main_cst_63, main_v406, main_v407, main_v408, main_v409, main_v410, main_v411, main_v412, main_v413, main_v414, main_v415, main_v416, main_v417, main_v418]
theorem cE1_1_writes : (cE1_1 : List (HloOp τ sig (Elt F))).Forall fun op => op.writes ⊆ (cE1_1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩

/-- Operations 491 to 533 of @main. -/
abbrev cE1_2 : List (HloOp τ sig (Elt F)) :=
  [ unary main_v340 main_v419 ((extractStridedSlice S1x128x128 ![2, 0, 0] · slices_S6x128x128_S1x128x128_2_0_0) : (⟨S6x128x128, .f32⟩ : BufTy).Contents (Elt F) → (⟨S1x128x128, .f32⟩ : BufTy).Contents (Elt F)),
    reshape main_v419 main_v420 rfl shapeCasts_S1x128x128_S128x128,
    unary main_v342 main_v421 ((extractStridedSlice S1x128 ![2, 0] · slices_S6x128_S1x128_2_0) : (⟨S6x128, .f32⟩ : BufTy).Contents (Elt F) → (⟨S1x128, .f32⟩ : BufTy).Contents (Elt F)),
    reshape main_v421 main_v422 rfl shapeCasts_S1x128_S128,
    unary main_v344 main_v423 ((extractStridedSlice S1x128x128 ![2, 0, 0] · slices_S6x128x128_S1x128x128_2_0_0) : (⟨S6x128x128, .f32⟩ : BufTy).Contents (Elt F) → (⟨S1x128x128, .f32⟩ : BufTy).Contents (Elt F)),
    reshape main_v423 main_v424 rfl shapeCasts_S1x128x128_S128x128,
    unary main_arg5 main_v425 ((extractStridedSlice S1x300000 ![0, 0] · slices_S2x300000_S1x300000_0_0) : (⟨S2x300000, .i32⟩ : BufTy).Contents (Elt F) → (⟨S1x300000, .i32⟩ : BufTy).Contents (Elt F)),
    reshape main_v425 main_v426 rfl shapeCasts_S1x300000_S300000,
    unary main_arg5 main_v427 ((extractStridedSlice S1x300000 ![1, 0] · slices_S2x300000_S1x300000_1_0) : (⟨S2x300000, .i32⟩ : BufTy).Contents (Elt F) → (⟨S1x300000, .i32⟩ : BufTy).Contents (Elt F)),
    reshape main_v427 main_v428 rfl shapeCasts_S1x300000_S300000,
    nullary main_c_64 (constantI S_ 32 0#32),
    unary main_c_64 main_v429 (broadcastInDim S300000 ![] bcast_S_S300000 : (⟨S_, .i32⟩ : BufTy).Contents (Elt F) → (⟨S300000, .i32⟩ : BufTy).Contents (Elt F)),
    binary main_v426 main_v429 main_v430 (cmpi .slt : (⟨S300000, .i32⟩ : BufTy).Contents (Elt F) → (⟨S300000, .i32⟩ : BufTy).Contents (Elt F) → (⟨S300000, .i1⟩ : BufTy).Contents (Elt F)),
    nullary main_c_65 (constantI S_ 32 100000#32),
    unary main_c_65 main_v431 (broadcastInDim S300000 ![] bcast_S_S300000 : (⟨S_, .i32⟩ : BufTy).Contents (Elt F) → (⟨S300000, .i32⟩ : BufTy).Contents (Elt F)),
    binary main_v426 main_v431 main_v432 (addi : (⟨S300000, .i32⟩ : BufTy).Contents (Elt F) → (⟨S300000, .i32⟩ : BufTy).Contents (Elt F) → (⟨S300000, .i32⟩ : BufTy).Contents (Elt F)),
    ternary main_v430 main_v432 main_v426 main_v433 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    unary main_v433 main_v434 (broadcastInDim S300000x1 ![0] bcast_S300000_S300000x1_0 : (⟨S300000, .i32⟩ : BufTy).Contents (Elt F) → (⟨S300000x1, .i32⟩ : BufTy).Contents (Elt F)),
    binary main_v274 main_v434 main_v435 ((fun x i => Host.gather gather_S100000x128_S300000x1_S300000x128_1_0_n_n_0_1_1128 x i) : (⟨S100000x128, .f32⟩ : BufTy).Contents (Elt F) → (⟨S300000x1, .i32⟩ : BufTy).Contents (Elt F) → (⟨S300000x128, .f32⟩ : BufTy).Contents (Elt F)),
    nullary main_cst_66 (constant S_ .f32 0x00000000#32),
    unary main_cst_66 main_v436 (broadcastInDim S5000x128 ![] bcast_S_S5000x128 : (⟨S_, .f32⟩ : BufTy).Contents (Elt F) → (⟨S5000x128, .f32⟩ : BufTy).Contents (Elt F)),
    unary main_v428 main_v437 (broadcastInDim S300000x1 ![0] bcast_S300000_S300000x1_0 : (⟨S300000, .i32⟩ : BufTy).Contents (Elt F) → (⟨S300000x1, .i32⟩ : BufTy).Contents (Elt F)),
    ternary main_v436 main_v437 main_v435 main_v438 ((fun x i u => Host.scatterAdd scatter_S5000x128_S300000x1_S300000x128_1_0_0_1 x i u) : (⟨S5000x128, .f32⟩ : BufTy).Contents (Elt F) → (⟨S300000x1, .i32⟩ : BufTy).Contents (Elt F) → (⟨S300000x128, .f32⟩ : BufTy).Contents (Elt F) → (⟨S5000x128, .f32⟩ : BufTy).Contents (Elt F)),
    nullary main_cst_67 (constant S_ .f32 0x3F800000#32),
    unary main_cst_67 main_v439 (broadcastInDim S300000 ![] bcast_S_S300000 : (⟨S_, .f32⟩ : BufTy).Contents (Elt F) → (⟨S300000, .f32⟩ : BufTy).Contents (Elt F)),
    nullary main_cst_68 (constant S_ .f32 0x00000000#32),
    unary main_cst_68 main_v440 (broadcastInDim S5000 ![] bcast_S_S5000 : (⟨S_, .f32⟩ : BufTy).Contents (Elt F) → (⟨S5000, .f32⟩ : BufTy).Contents (Elt F)),
    unary main_v428 main_v441 (broadcastInDim S300000x1 ![0] bcast_S300000_S300000x1_0 : (⟨S300000, .i32⟩ : BufTy).Contents (Elt F) → (⟨S300000x1, .i32⟩ : BufTy).Contents (Elt F)),
    ternary main_v440 main_v441 main_v439 main_v442 ((fun x i u => Host.scatterAdd scatter_S5000_S300000x1_S300000_n_0_0_1 x i u) : (⟨S5000, .f32⟩ : BufTy).Contents (Elt F) → (⟨S300000x1, .i32⟩ : BufTy).Contents (Elt F) → (⟨S300000, .f32⟩ : BufTy).Contents (Elt F) → (⟨S5000, .f32⟩ : BufTy).Contents (Elt F)),
    nullary main_cst_69 (constant S_ .f32 0x3F800000#32),
    unary main_cst_69 main_v443 (broadcastInDim S5000 ![] bcast_S_S5000 : (⟨S_, .f32⟩ : BufTy).Contents (Elt F) → (⟨S5000, .f32⟩ : BufTy).Contents (Elt F)),
    binary main_v442 main_v443 main_v444 (maximumf : (⟨S5000, .f32⟩ : BufTy).Contents (Elt F) → (⟨S5000, .f32⟩ : BufTy).Contents (Elt F) → (⟨S5000, .f32⟩ : BufTy).Contents (Elt F)),
    unary main_v444 main_v445 (broadcastInDim S5000x1 ![0] bcast_S5000_S5000x1_0 : (⟨S5000, .f32⟩ : BufTy).Contents (Elt F) → (⟨S5000x1, .f32⟩ : BufTy).Contents (Elt F)),
    unary main_v445 main_v446 (broadcastInDim S5000x128 ![0, 1] bcast_S5000x1_S5000x128_0_1 : (⟨S5000x1, .f32⟩ : BufTy).Contents (Elt F) → (⟨S5000x128, .f32⟩ : BufTy).Contents (Elt F)),
    binary main_v438 main_v446 main_v447 (Host.divf : (⟨S5000x128, .f32⟩ : BufTy).Contents (Elt F) → (⟨S5000x128, .f32⟩ : BufTy).Contents (Elt F) → (⟨S5000x128, .f32⟩ : BufTy).Contents (Elt F)),
    unary main_v420 main_v448 ((transpose S128x128 [1, 0] · transposes_S128x128_S128x128_1_0) : (⟨S128x128, .f32⟩ : BufTy).Contents (Elt F) → (⟨S128x128, .f32⟩ : BufTy).Contents (Elt F)),
    binary main_v447 main_v448 main_v449 ((fun l r => Host.dotGeneral dot_S5000x128_S128x128_S5000x128_1_0_0_1_n_n none l r) : (⟨S5000x128, .f32⟩ : BufTy).Contents (Elt F) → (⟨S128x128, .f32⟩ : BufTy).Contents (Elt F) → (⟨S5000x128, .f32⟩ : BufTy).Contents (Elt F)),
    unary main_v422 main_v450 (broadcastInDim S1x128 ![1] bcast_S128_S1x128_1 : (⟨S128, .f32⟩ : BufTy).Contents (Elt F) → (⟨S1x128, .f32⟩ : BufTy).Contents (Elt F)),
    unary main_v450 main_v451 (broadcastInDim S5000x128 ![0, 1] bcast_S1x128_S5000x128_0_1 : (⟨S1x128, .f32⟩ : BufTy).Contents (Elt F) → (⟨S5000x128, .f32⟩ : BufTy).Contents (Elt F)),
    binary main_v449 main_v451 main_v452 (addf : (⟨S5000x128, .f32⟩ : BufTy).Contents (Elt F) → (⟨S5000x128, .f32⟩ : BufTy).Contents (Elt F) → (⟨S5000x128, .f32⟩ : BufTy).Contents (Elt F)),
    unary main_v424 main_v453 ((transpose S128x128 [1, 0] · transposes_S128x128_S128x128_1_0) : (⟨S128x128, .f32⟩ : BufTy).Contents (Elt F) → (⟨S128x128, .f32⟩ : BufTy).Contents (Elt F)),
    binary main_v338 main_v453 main_v454 ((fun l r => Host.dotGeneral dot_S5000x128_S128x128_S5000x128_1_0_0_1_n_n none l r) : (⟨S5000x128, .f32⟩ : BufTy).Contents (Elt F) → (⟨S128x128, .f32⟩ : BufTy).Contents (Elt F) → (⟨S5000x128, .f32⟩ : BufTy).Contents (Elt F)),
    binary main_v452 main_v454 main_v455 (addf : (⟨S5000x128, .f32⟩ : BufTy).Contents (Elt F) → (⟨S5000x128, .f32⟩ : BufTy).Contents (Elt F) → (⟨S5000x128, .f32⟩ : BufTy).Contents (Elt F)) ]
/-- The buffers this stretch writes. -/
abbrev cE1_2_W : List (Ref sig .tc) := [main_v419, main_v420, main_v421, main_v422, main_v423, main_v424, main_v425, main_v426, main_v427, main_v428, main_c_64, main_v429, main_v430, main_c_65, main_v431, main_v432, main_v433, main_v434, main_v435, main_cst_66, main_v436, main_v437, main_v438, main_cst_67, main_v439, main_cst_68, main_v440, main_v441, main_v442, main_cst_69, main_v443, main_v444, main_v445, main_v446, main_v447, main_v448, main_v449, main_v450, main_v451, main_v452, main_v453, main_v454, main_v455]
theorem cE1_2_writes : (cE1_2 : List (HloOp τ sig (Elt F))).Forall fun op => op.writes ⊆ (cE1_2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩

/-- Operations 534 to 576 of @main. -/
abbrev cE1_3 : List (HloOp τ sig (Elt F)) :=
  [ unary main_v340 main_v456 ((extractStridedSlice S1x128x128 ![3, 0, 0] · slices_S6x128x128_S1x128x128_3_0_0) : (⟨S6x128x128, .f32⟩ : BufTy).Contents (Elt F) → (⟨S1x128x128, .f32⟩ : BufTy).Contents (Elt F)),
    reshape main_v456 main_v457 rfl shapeCasts_S1x128x128_S128x128,
    unary main_v342 main_v458 ((extractStridedSlice S1x128 ![3, 0] · slices_S6x128_S1x128_3_0) : (⟨S6x128, .f32⟩ : BufTy).Contents (Elt F) → (⟨S1x128, .f32⟩ : BufTy).Contents (Elt F)),
    reshape main_v458 main_v459 rfl shapeCasts_S1x128_S128,
    unary main_v344 main_v460 ((extractStridedSlice S1x128x128 ![3, 0, 0] · slices_S6x128x128_S1x128x128_3_0_0) : (⟨S6x128x128, .f32⟩ : BufTy).Contents (Elt F) → (⟨S1x128x128, .f32⟩ : BufTy).Contents (Elt F)),
    reshape main_v460 main_v461 rfl shapeCasts_S1x128x128_S128x128,
    unary main_arg6 main_v462 ((extractStridedSlice S1x300000 ![0, 0] · slices_S2x300000_S1x300000_0_0) : (⟨S2x300000, .i32⟩ : BufTy).Contents (Elt F) → (⟨S1x300000, .i32⟩ : BufTy).Contents (Elt F)),
    reshape main_v462 main_v463 rfl shapeCasts_S1x300000_S300000,
    unary main_arg6 main_v464 ((extractStridedSlice S1x300000 ![1, 0] · slices_S2x300000_S1x300000_1_0) : (⟨S2x300000, .i32⟩ : BufTy).Contents (Elt F) → (⟨S1x300000, .i32⟩ : BufTy).Contents (Elt F)),
    reshape main_v464 main_v465 rfl shapeCasts_S1x300000_S300000,
    nullary main_c_70 (constantI S_ 32 0#32),
    unary main_c_70 main_v466 (broadcastInDim S300000 ![] bcast_S_S300000 : (⟨S_, .i32⟩ : BufTy).Contents (Elt F) → (⟨S300000, .i32⟩ : BufTy).Contents (Elt F)),
    binary main_v463 main_v466 main_v467 (cmpi .slt : (⟨S300000, .i32⟩ : BufTy).Contents (Elt F) → (⟨S300000, .i32⟩ : BufTy).Contents (Elt F) → (⟨S300000, .i1⟩ : BufTy).Contents (Elt F)),
    nullary main_c_71 (constantI S_ 32 5000#32),
    unary main_c_71 main_v468 (broadcastInDim S300000 ![] bcast_S_S300000 : (⟨S_, .i32⟩ : BufTy).Contents (Elt F) → (⟨S300000, .i32⟩ : BufTy).Contents (Elt F)),
    binary main_v463 main_v468 main_v469 (addi : (⟨S300000, .i32⟩ : BufTy).Contents (Elt F) → (⟨S300000, .i32⟩ : BufTy).Contents (Elt F) → (⟨S300000, .i32⟩ : BufTy).Contents (Elt F)),
    ternary main_v467 main_v469 main_v463 main_v470 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    unary main_v470 main_v471 (broadcastInDim S300000x1 ![0] bcast_S300000_S300000x1_0 : (⟨S300000, .i32⟩ : BufTy).Contents (Elt F) → (⟨S300000x1, .i32⟩ : BufTy).Contents (Elt F)),
    binary main_v338 main_v471 main_v472 ((fun x i => Host.gather gather_S5000x128_S300000x1_S300000x128_1_0_n_n_0_1_1128 x i) : (⟨S5000x128, .f32⟩ : BufTy).Contents (Elt F) → (⟨S300000x1, .i32⟩ : BufTy).Contents (Elt F) → (⟨S300000x128, .f32⟩ : BufTy).Contents (Elt F)),
    nullary main_cst_72 (constant S_ .f32 0x00000000#32),
    unary main_cst_72 main_v473 (broadcastInDim S100000x128 ![] bcast_S_S100000x128 : (⟨S_, .f32⟩ : BufTy).Contents (Elt F) → (⟨S100000x128, .f32⟩ : BufTy).Contents (Elt F)),
    unary main_v465 main_v474 (broadcastInDim S300000x1 ![0] bcast_S300000_S300000x1_0 : (⟨S300000, .i32⟩ : BufTy).Contents (Elt F) → (⟨S300000x1, .i32⟩ : BufTy).Contents (Elt F)),
    ternary main_v473 main_v474 main_v472 main_v475 ((fun x i u => Host.scatterAdd scatter_S100000x128_S300000x1_S300000x128_1_0_0_1 x i u) : (⟨S100000x128, .f32⟩ : BufTy).Contents (Elt F) → (⟨S300000x1, .i32⟩ : BufTy).Contents (Elt F) → (⟨S300000x128, .f32⟩ : BufTy).Contents (Elt F) → (⟨S100000x128, .f32⟩ : BufTy).Contents (Elt F)),
    nullary main_cst_73 (constant S_ .f32 0x3F800000#32),
    unary main_cst_73 main_v476 (broadcastInDim S300000 ![] bcast_S_S300000 : (⟨S_, .f32⟩ : BufTy).Contents (Elt F) → (⟨S300000, .f32⟩ : BufTy).Contents (Elt F)),
    nullary main_cst_74 (constant S_ .f32 0x00000000#32),
    unary main_cst_74 main_v477 (broadcastInDim S100000 ![] bcast_S_S100000 : (⟨S_, .f32⟩ : BufTy).Contents (Elt F) → (⟨S100000, .f32⟩ : BufTy).Contents (Elt F)),
    unary main_v465 main_v478 (broadcastInDim S300000x1 ![0] bcast_S300000_S300000x1_0 : (⟨S300000, .i32⟩ : BufTy).Contents (Elt F) → (⟨S300000x1, .i32⟩ : BufTy).Contents (Elt F)),
    ternary main_v477 main_v478 main_v476 main_v479 ((fun x i u => Host.scatterAdd scatter_S100000_S300000x1_S300000_n_0_0_1 x i u) : (⟨S100000, .f32⟩ : BufTy).Contents (Elt F) → (⟨S300000x1, .i32⟩ : BufTy).Contents (Elt F) → (⟨S300000, .f32⟩ : BufTy).Contents (Elt F) → (⟨S100000, .f32⟩ : BufTy).Contents (Elt F)),
    nullary main_cst_75 (constant S_ .f32 0x3F800000#32),
    unary main_cst_75 main_v480 (broadcastInDim S100000 ![] bcast_S_S100000 : (⟨S_, .f32⟩ : BufTy).Contents (Elt F) → (⟨S100000, .f32⟩ : BufTy).Contents (Elt F)),
    binary main_v479 main_v480 main_v481 (maximumf : (⟨S100000, .f32⟩ : BufTy).Contents (Elt F) → (⟨S100000, .f32⟩ : BufTy).Contents (Elt F) → (⟨S100000, .f32⟩ : BufTy).Contents (Elt F)),
    unary main_v481 main_v482 (broadcastInDim S100000x1 ![0] bcast_S100000_S100000x1_0 : (⟨S100000, .f32⟩ : BufTy).Contents (Elt F) → (⟨S100000x1, .f32⟩ : BufTy).Contents (Elt F)),
    unary main_v482 main_v483 (broadcastInDim S100000x128 ![0, 1] bcast_S100000x1_S100000x128_0_1 : (⟨S100000x1, .f32⟩ : BufTy).Contents (Elt F) → (⟨S100000x128, .f32⟩ : BufTy).Contents (Elt F)),
    binary main_v475 main_v483 main_v484 (Host.divf : (⟨S100000x128, .f32⟩ : BufTy).Contents (Elt F) → (⟨S100000x128, .f32⟩ : BufTy).Contents (Elt F) → (⟨S100000x128, .f32⟩ : BufTy).Contents (Elt F)),
    unary main_v457 main_v485 ((transpose S128x128 [1, 0] · transposes_S128x128_S128x128_1_0) : (⟨S128x128, .f32⟩ : BufTy).Contents (Elt F) → (⟨S128x128, .f32⟩ : BufTy).Contents (Elt F)),
    binary main_v484 main_v485 main_v486 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_v459 main_v487 (broadcastInDim S1x128 ![1] bcast_S128_S1x128_1 : (⟨S128, .f32⟩ : BufTy).Contents (Elt F) → (⟨S1x128, .f32⟩ : BufTy).Contents (Elt F)),
    unary main_v487 main_v488 (broadcastInDim S100000x128 ![0, 1] bcast_S1x128_S100000x128_0_1 : (⟨S1x128, .f32⟩ : BufTy).Contents (Elt F) → (⟨S100000x128, .f32⟩ : BufTy).Contents (Elt F)),
    binary main_v486 main_v488 main_v489 (addf : (⟨S100000x128, .f32⟩ : BufTy).Contents (Elt F) → (⟨S100000x128, .f32⟩ : BufTy).Contents (Elt F) → (⟨S100000x128, .f32⟩ : BufTy).Contents (Elt F)),
    unary main_v461 main_v490 ((transpose S128x128 [1, 0] · transposes_S128x128_S128x128_1_0) : (⟨S128x128, .f32⟩ : BufTy).Contents (Elt F) → (⟨S128x128, .f32⟩ : BufTy).Contents (Elt F)),
    binary main_v274 main_v490 main_v491 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v489 main_v491 main_v492 (addf : (⟨S100000x128, .f32⟩ : BufTy).Contents (Elt F) → (⟨S100000x128, .f32⟩ : BufTy).Contents (Elt F) → (⟨S100000x128, .f32⟩ : BufTy).Contents (Elt F)) ]
/-- The buffers this stretch writes. -/
abbrev cE1_3_W : List (Ref sig .tc) := [main_v456, main_v457, main_v458, main_v459, main_v460, main_v461, main_v462, main_v463, main_v464, main_v465, main_c_70, main_v466, main_v467, main_c_71, main_v468, main_v469, main_v470, main_v471, main_v472, main_cst_72, main_v473, main_v474, main_v475, main_cst_73, main_v476, main_cst_74, main_v477, main_v478, main_v479, main_cst_75, main_v480, main_v481, main_v482, main_v483, main_v484, main_v485, main_v486, main_v487, main_v488, main_v489, main_v490, main_v491, main_v492]
theorem cE1_3_writes : (cE1_3 : List (HloOp τ sig (Elt F))).Forall fun op => op.writes ⊆ (cE1_3_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩

/-- Operations 577 to 619 of @main. -/
abbrev cE1_4 : List (HloOp τ sig (Elt F)) :=
  [ unary main_v340 main_v493 ((extractStridedSlice S1x128x128 ![4, 0, 0] · slices_S6x128x128_S1x128x128_4_0_0) : (⟨S6x128x128, .f32⟩ : BufTy).Contents (Elt F) → (⟨S1x128x128, .f32⟩ : BufTy).Contents (Elt F)),
    reshape main_v493 main_v494 rfl shapeCasts_S1x128x128_S128x128,
    unary main_v342 main_v495 ((extractStridedSlice S1x128 ![4, 0] · slices_S6x128_S1x128_4_0) : (⟨S6x128, .f32⟩ : BufTy).Contents (Elt F) → (⟨S1x128, .f32⟩ : BufTy).Contents (Elt F)),
    reshape main_v495 main_v496 rfl shapeCasts_S1x128_S128,
    unary main_v344 main_v497 ((extractStridedSlice S1x128x128 ![4, 0, 0] · slices_S6x128x128_S1x128x128_4_0_0) : (⟨S6x128x128, .f32⟩ : BufTy).Contents (Elt F) → (⟨S1x128x128, .f32⟩ : BufTy).Contents (Elt F)),
    reshape main_v497 main_v498 rfl shapeCasts_S1x128x128_S128x128,
    unary main_arg7 main_v499 ((extractStridedSlice S1x150000 ![0, 0] · slices_S2x150000_S1x150000_0_0) : (⟨S2x150000, .i32⟩ : BufTy).Contents (Elt F) → (⟨S1x150000, .i32⟩ : BufTy).Contents (Elt F)),
    reshape main_v499 main_v500 rfl shapeCasts_S1x150000_S150000,
    unary main_arg7 main_v501 ((extractStridedSlice S1x150000 ![1, 0] · slices_S2x150000_S1x150000_1_0) : (⟨S2x150000, .i32⟩ : BufTy).Contents (Elt F) → (⟨S1x150000, .i32⟩ : BufTy).Contents (Elt F)),
    reshape main_v501 main_v502 rfl shapeCasts_S1x150000_S150000,
    nullary main_c_76 (constantI S_ 32 0#32),
    unary main_c_76 main_v503 (broadcastInDim S150000 ![] bcast_S_S150000 : (⟨S_, .i32⟩ : BufTy).Contents (Elt F) → (⟨S150000, .i32⟩ : BufTy).Contents (Elt F)),
    binary main_v500 main_v503 main_v504 (cmpi .slt : (⟨S150000, .i32⟩ : BufTy).Contents (Elt F) → (⟨S150000, .i32⟩ : BufTy).Contents (Elt F) → (⟨S150000, .i1⟩ : BufTy).Contents (Elt F)),
    nullary main_c_77 (constantI S_ 32 50000#32),
    unary main_c_77 main_v505 (broadcastInDim S150000 ![] bcast_S_S150000 : (⟨S_, .i32⟩ : BufTy).Contents (Elt F) → (⟨S150000, .i32⟩ : BufTy).Contents (Elt F)),
    binary main_v500 main_v505 main_v506 (addi : (⟨S150000, .i32⟩ : BufTy).Contents (Elt F) → (⟨S150000, .i32⟩ : BufTy).Contents (Elt F) → (⟨S150000, .i32⟩ : BufTy).Contents (Elt F)),
    ternary main_v504 main_v506 main_v500 main_v507 (select : (⟨S150000, .i1⟩ : BufTy).Contents (Elt F) → (⟨S150000, .i32⟩ : BufTy).Contents (Elt F) → (⟨S150000, .i32⟩ : BufTy).Contents (Elt F) → (⟨S150000, .i32⟩ : BufTy).Contents (Elt F)),
    unary main_v507 main_v508 (broadcastInDim S150000x1 ![0] bcast_S150000_S150000x1_0 : (⟨S150000, .i32⟩ : BufTy).Contents (Elt F) → (⟨S150000x1, .i32⟩ : BufTy).Contents (Elt F)),
    binary main_v306 main_v508 main_v509 ((fun x i => Host.gather gather_S50000x128_S150000x1_S150000x128_1_0_n_n_0_1_1128 x i) : (⟨S50000x128, .f32⟩ : BufTy).Contents (Elt F) → (⟨S150000x1, .i32⟩ : BufTy).Contents (Elt F) → (⟨S150000x128, .f32⟩ : BufTy).Contents (Elt F)),
    nullary main_cst_78 (constant S_ .f32 0x00000000#32),
    unary main_cst_78 main_v510 (broadcastInDim S5000x128 ![] bcast_S_S5000x128 : (⟨S_, .f32⟩ : BufTy).Contents (Elt F) → (⟨S5000x128, .f32⟩ : BufTy).Contents (Elt F)),
    unary main_v502 main_v511 (broadcastInDim S150000x1 ![0] bcast_S150000_S150000x1_0 : (⟨S150000, .i32⟩ : BufTy).Contents (Elt F) → (⟨S150000x1, .i32⟩ : BufTy).Contents (Elt F)),
    ternary main_v510 main_v511 main_v509 main_v512 ((fun x i u => Host.scatterAdd scatter_S5000x128_S150000x1_S150000x128_1_0_0_1 x i u) : (⟨S5000x128, .f32⟩ : BufTy).Contents (Elt F) → (⟨S150000x1, .i32⟩ : BufTy).Contents (Elt F) → (⟨S150000x128, .f32⟩ : BufTy).Contents (Elt F) → (⟨S5000x128, .f32⟩ : BufTy).Contents (Elt F)),
    nullary main_cst_79 (constant S_ .f32 0x3F800000#32),
    unary main_cst_79 main_v513 (broadcastInDim S150000 ![] bcast_S_S150000 : (⟨S_, .f32⟩ : BufTy).Contents (Elt F) → (⟨S150000, .f32⟩ : BufTy).Contents (Elt F)),
    nullary main_cst_80 (constant S_ .f32 0x00000000#32),
    unary main_cst_80 main_v514 (broadcastInDim S5000 ![] bcast_S_S5000 : (⟨S_, .f32⟩ : BufTy).Contents (Elt F) → (⟨S5000, .f32⟩ : BufTy).Contents (Elt F)),
    unary main_v502 main_v515 (broadcastInDim S150000x1 ![0] bcast_S150000_S150000x1_0 : (⟨S150000, .i32⟩ : BufTy).Contents (Elt F) → (⟨S150000x1, .i32⟩ : BufTy).Contents (Elt F)),
    ternary main_v514 main_v515 main_v513 main_v516 ((fun x i u => Host.scatterAdd scatter_S5000_S150000x1_S150000_n_0_0_1 x i u) : (⟨S5000, .f32⟩ : BufTy).Contents (Elt F) → (⟨S150000x1, .i32⟩ : BufTy).Contents (Elt F) → (⟨S150000, .f32⟩ : BufTy).Contents (Elt F) → (⟨S5000, .f32⟩ : BufTy).Contents (Elt F)),
    nullary main_cst_81 (constant S_ .f32 0x3F800000#32),
    unary main_cst_81 main_v517 (broadcastInDim S5000 ![] bcast_S_S5000 : (⟨S_, .f32⟩ : BufTy).Contents (Elt F) → (⟨S5000, .f32⟩ : BufTy).Contents (Elt F)),
    binary main_v516 main_v517 main_v518 (maximumf : (⟨S5000, .f32⟩ : BufTy).Contents (Elt F) → (⟨S5000, .f32⟩ : BufTy).Contents (Elt F) → (⟨S5000, .f32⟩ : BufTy).Contents (Elt F)),
    unary main_v518 main_v519 (broadcastInDim S5000x1 ![0] bcast_S5000_S5000x1_0 : (⟨S5000, .f32⟩ : BufTy).Contents (Elt F) → (⟨S5000x1, .f32⟩ : BufTy).Contents (Elt F)),
    unary main_v519 main_v520 (broadcastInDim S5000x128 ![0, 1] bcast_S5000x1_S5000x128_0_1 : (⟨S5000x1, .f32⟩ : BufTy).Contents (Elt F) → (⟨S5000x128, .f32⟩ : BufTy).Contents (Elt F)),
    binary main_v512 main_v520 main_v521 (Host.divf : (⟨S5000x128, .f32⟩ : BufTy).Contents (Elt F) → (⟨S5000x128, .f32⟩ : BufTy).Contents (Elt F) → (⟨S5000x128, .f32⟩ : BufTy).Contents (Elt F)),
    unary main_v494 main_v522 ((transpose S128x128 [1, 0] · transposes_S128x128_S128x128_1_0) : (⟨S128x128, .f32⟩ : BufTy).Contents (Elt F) → (⟨S128x128, .f32⟩ : BufTy).Contents (Elt F)),
    binary main_v521 main_v522 main_v523 ((fun l r => Host.dotGeneral dot_S5000x128_S128x128_S5000x128_1_0_0_1_n_n none l r) : (⟨S5000x128, .f32⟩ : BufTy).Contents (Elt F) → (⟨S128x128, .f32⟩ : BufTy).Contents (Elt F) → (⟨S5000x128, .f32⟩ : BufTy).Contents (Elt F)),
    unary main_v496 main_v524 (broadcastInDim S1x128 ![1] bcast_S128_S1x128_1 : (⟨S128, .f32⟩ : BufTy).Contents (Elt F) → (⟨S1x128, .f32⟩ : BufTy).Contents (Elt F)),
    unary main_v524 main_v525 (broadcastInDim S5000x128 ![0, 1] bcast_S1x128_S5000x128_0_1 : (⟨S1x128, .f32⟩ : BufTy).Contents (Elt F) → (⟨S5000x128, .f32⟩ : BufTy).Contents (Elt F)),
    binary main_v523 main_v525 main_v526 (addf : (⟨S5000x128, .f32⟩ : BufTy).Contents (Elt F) → (⟨S5000x128, .f32⟩ : BufTy).Contents (Elt F) → (⟨S5000x128, .f32⟩ : BufTy).Contents (Elt F)),
    unary main_v498 main_v527 ((transpose S128x128 [1, 0] · transposes_S128x128_S128x128_1_0) : (⟨S128x128, .f32⟩ : BufTy).Contents (Elt F) → (⟨S128x128, .f32⟩ : BufTy).Contents (Elt F)),
    binary main_v338 main_v527 main_v528 ((fun l r => Host.dotGeneral dot_S5000x128_S128x128_S5000x128_1_0_0_1_n_n none l r) : (⟨S5000x128, .f32⟩ : BufTy).Contents (Elt F) → (⟨S128x128, .f32⟩ : BufTy).Contents (Elt F) → (⟨S5000x128, .f32⟩ : BufTy).Contents (Elt F)),
    binary main_v526 main_v528 main_v529 (addf : (⟨S5000x128, .f32⟩ : BufTy).Contents (Elt F) → (⟨S5000x128, .f32⟩ : BufTy).Contents (Elt F) → (⟨S5000x128, .f32⟩ : BufTy).Contents (Elt F)) ]
/-- The buffers this stretch writes. -/
abbrev cE1_4_W : List (Ref sig .tc) := [main_v493, main_v494, main_v495, main_v496, main_v497, main_v498, main_v499, main_v500, main_v501, main_v502, main_c_76, main_v503, main_v504, main_c_77, main_v505, main_v506, main_v507, main_v508, main_v509, main_cst_78, main_v510, main_v511, main_v512, main_cst_79, main_v513, main_cst_80, main_v514, main_v515, main_v516, main_cst_81, main_v517, main_v518, main_v519, main_v520, main_v521, main_v522, main_v523, main_v524, main_v525, main_v526, main_v527, main_v528, main_v529]
theorem cE1_4_writes : (cE1_4 : List (HloOp τ sig (Elt F))).Forall fun op => op.writes ⊆ (cE1_4_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩

/-- Operations 620 to 662 of @main. -/
abbrev cE1_5 : List (HloOp τ sig (Elt F)) :=
  [ unary main_v340 main_v530 ((extractStridedSlice S1x128x128 ![5, 0, 0] · slices_S6x128x128_S1x128x128_5_0_0) : (⟨S6x128x128, .f32⟩ : BufTy).Contents (Elt F) → (⟨S1x128x128, .f32⟩ : BufTy).Contents (Elt F)),
    reshape main_v530 main_v531 rfl shapeCasts_S1x128x128_S128x128,
    unary main_v342 main_v532 ((extractStridedSlice S1x128 ![5, 0] · slices_S6x128_S1x128_5_0) : (⟨S6x128, .f32⟩ : BufTy).Contents (Elt F) → (⟨S1x128, .f32⟩ : BufTy).Contents (Elt F)),
    reshape main_v532 main_v533 rfl shapeCasts_S1x128_S128,
    unary main_v344 main_v534 ((extractStridedSlice S1x128x128 ![5, 0, 0] · slices_S6x128x128_S1x128x128_5_0_0) : (⟨S6x128x128, .f32⟩ : BufTy).Contents (Elt F) → (⟨S1x128x128, .f32⟩ : BufTy).Contents (Elt F)),
    reshape main_v534 main_v535 rfl shapeCasts_S1x128x128_S128x128,
    unary main_arg8 main_v536 ((extractStridedSlice S1x150000 ![0, 0] · slices_S2x150000_S1x150000_0_0) : (⟨S2x150000, .i32⟩ : BufTy).Contents (Elt F) → (⟨S1x150000, .i32⟩ : BufTy).Contents (Elt F)),
    reshape main_v536 main_v537 rfl shapeCasts_S1x150000_S150000,
    unary main_arg8 main_v538 ((extractStridedSlice S1x150000 ![1, 0] · slices_S2x150000_S1x150000_1_0) : (⟨S2x150000, .i32⟩ : BufTy).Contents (Elt F) → (⟨S1x150000, .i32⟩ : BufTy).Contents (Elt F)),
    reshape main_v538 main_v539 rfl shapeCasts_S1x150000_S150000,
    nullary main_c_82 (constantI S_ 32 0#32),
    unary main_c_82 main_v540 (broadcastInDim S150000 ![] bcast_S_S150000 : (⟨S_, .i32⟩ : BufTy).Contents (Elt F) → (⟨S150000, .i32⟩ : BufTy).Contents (Elt F)),
    binary main_v537 main_v540 main_v541 (cmpi .slt : (⟨S150000, .i32⟩ : BufTy).Contents (Elt F) → (⟨S150000, .i32⟩ : BufTy).Contents (Elt F) → (⟨S150000, .i1⟩ : BufTy).Contents (Elt F)),
    nullary main_c_83 (constantI S_ 32 5000#32),
    unary main_c_83 main_v542 (broadcastInDim S150000 ![] bcast_S_S150000 : (⟨S_, .i32⟩ : BufTy).Contents (Elt F) → (⟨S150000, .i32⟩ : BufTy).Contents (Elt F)),
    binary main_v537 main_v542 main_v543 (addi : (⟨S150000, .i32⟩ : BufTy).Contents (Elt F) → (⟨S150000, .i32⟩ : BufTy).Contents (Elt F) → (⟨S150000, .i32⟩ : BufTy).Contents (Elt F)),
    ternary main_v541 main_v543 main_v537 main_v544 (select : (⟨S150000, .i1⟩ : BufTy).Contents (Elt F) → (⟨S150000, .i32⟩ : BufTy).Contents (Elt F) → (⟨S150000, .i32⟩ : BufTy).Contents (Elt F) → (⟨S150000, .i32⟩ : BufTy).Contents (Elt F)),
    unary main_v544 main_v545 (broadcastInDim S150000x1 ![0] bcast_S150000_S150000x1_0 : (⟨S150000, .i32⟩ : BufTy).Contents (Elt F) → (⟨S150000x1, .i32⟩ : BufTy).Contents (Elt F)),
    binary main_v338 main_v545 main_v546 ((fun x i => Host.gather gather_S5000x128_S150000x1_S150000x128_1_0_n_n_0_1_1128 x i) : (⟨S5000x128, .f32⟩ : BufTy).Contents (Elt F) → (⟨S150000x1, .i32⟩ : BufTy).Contents (Elt F) → (⟨S150000x128, .f32⟩ : BufTy).Contents (Elt F)),
    nullary main_cst_84 (constant S_ .f32 0x00000000#32),
    unary main_cst_84 main_v547 (broadcastInDim S50000x128 ![] bcast_S_S50000x128 : (⟨S_, .f32⟩ : BufTy).Contents (Elt F) → (⟨S50000x128, .f32⟩ : BufTy).Contents (Elt F)),
    unary main_v539 main_v548 (broadcastInDim S150000x1 ![0] bcast_S150000_S150000x1_0 : (⟨S150000, .i32⟩ : BufTy).Contents (Elt F) → (⟨S150000x1, .i32⟩ : BufTy).Contents (Elt F)),
    ternary main_v547 main_v548 main_v546 main_v549 ((fun x i u => Host.scatterAdd scatter_S50000x128_S150000x1_S150000x128_1_0_0_1 x i u) : (⟨S50000x128, .f32⟩ : BufTy).Contents (Elt F) → (⟨S150000x1, .i32⟩ : BufTy).Contents (Elt F) → (⟨S150000x128, .f32⟩ : BufTy).Contents (Elt F) → (⟨S50000x128, .f32⟩ : BufTy).Contents (Elt F)),
    nullary main_cst_85 (constant S_ .f32 0x3F800000#32),
    unary main_cst_85 main_v550 (broadcastInDim S150000 ![] bcast_S_S150000 : (⟨S_, .f32⟩ : BufTy).Contents (Elt F) → (⟨S150000, .f32⟩ : BufTy).Contents (Elt F)),
    nullary main_cst_86 (constant S_ .f32 0x00000000#32),
    unary main_cst_86 main_v551 (broadcastInDim S50000 ![] bcast_S_S50000 : (⟨S_, .f32⟩ : BufTy).Contents (Elt F) → (⟨S50000, .f32⟩ : BufTy).Contents (Elt F)),
    unary main_v539 main_v552 (broadcastInDim S150000x1 ![0] bcast_S150000_S150000x1_0 : (⟨S150000, .i32⟩ : BufTy).Contents (Elt F) → (⟨S150000x1, .i32⟩ : BufTy).Contents (Elt F)),
    ternary main_v551 main_v552 main_v550 main_v553 ((fun x i u => Host.scatterAdd scatter_S50000_S150000x1_S150000_n_0_0_1 x i u) : (⟨S50000, .f32⟩ : BufTy).Contents (Elt F) → (⟨S150000x1, .i32⟩ : BufTy).Contents (Elt F) → (⟨S150000, .f32⟩ : BufTy).Contents (Elt F) → (⟨S50000, .f32⟩ : BufTy).Contents (Elt F)),
    nullary main_cst_87 (constant S_ .f32 0x3F800000#32),
    unary main_cst_87 main_v554 (broadcastInDim S50000 ![] bcast_S_S50000 : (⟨S_, .f32⟩ : BufTy).Contents (Elt F) → (⟨S50000, .f32⟩ : BufTy).Contents (Elt F)),
    binary main_v553 main_v554 main_v555 (maximumf : (⟨S50000, .f32⟩ : BufTy).Contents (Elt F) → (⟨S50000, .f32⟩ : BufTy).Contents (Elt F) → (⟨S50000, .f32⟩ : BufTy).Contents (Elt F)),
    unary main_v555 main_v556 (broadcastInDim S50000x1 ![0] bcast_S50000_S50000x1_0 : (⟨S50000, .f32⟩ : BufTy).Contents (Elt F) → (⟨S50000x1, .f32⟩ : BufTy).Contents (Elt F)),
    unary main_v556 main_v557 (broadcastInDim S50000x128 ![0, 1] bcast_S50000x1_S50000x128_0_1 : (⟨S50000x1, .f32⟩ : BufTy).Contents (Elt F) → (⟨S50000x128, .f32⟩ : BufTy).Contents (Elt F)),
    binary main_v549 main_v557 main_v558 (Host.divf : (⟨S50000x128, .f32⟩ : BufTy).Contents (Elt F) → (⟨S50000x128, .f32⟩ : BufTy).Contents (Elt F) → (⟨S50000x128, .f32⟩ : BufTy).Contents (Elt F)),
    unary main_v531 main_v559 ((transpose S128x128 [1, 0] · transposes_S128x128_S128x128_1_0) : (⟨S128x128, .f32⟩ : BufTy).Contents (Elt F) → (⟨S128x128, .f32⟩ : BufTy).Contents (Elt F)),
    binary main_v558 main_v559 main_v560 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_v533 main_v561 (broadcastInDim S1x128 ![1] bcast_S128_S1x128_1 : (⟨S128, .f32⟩ : BufTy).Contents (Elt F) → (⟨S1x128, .f32⟩ : BufTy).Contents (Elt F)),
    unary main_v561 main_v562 (broadcastInDim S50000x128 ![0, 1] bcast_S1x128_S50000x128_0_1 : (⟨S1x128, .f32⟩ : BufTy).Contents (Elt F) → (⟨S50000x128, .f32⟩ : BufTy).Contents (Elt F)),
    binary main_v560 main_v562 main_v563 (addf : (⟨S50000x128, .f32⟩ : BufTy).Contents (Elt F) → (⟨S50000x128, .f32⟩ : BufTy).Contents (Elt F) → (⟨S50000x128, .f32⟩ : BufTy).Contents (Elt F)),
    unary main_v535 main_v564 ((transpose S128x128 [1, 0] · transposes_S128x128_S128x128_1_0) : (⟨S128x128, .f32⟩ : BufTy).Contents (Elt F) → (⟨S128x128, .f32⟩ : BufTy).Contents (Elt F)),
    binary main_v306 main_v564 main_v565 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v563 main_v565 main_v566 (addf : (⟨S50000x128, .f32⟩ : BufTy).Contents (Elt F) → (⟨S50000x128, .f32⟩ : BufTy).Contents (Elt F) → (⟨S50000x128, .f32⟩ : BufTy).Contents (Elt F)) ]
/-- The buffers this stretch writes. -/
abbrev cE1_5_W : List (Ref sig .tc) := [main_v530, main_v531, main_v532, main_v533, main_v534, main_v535, main_v536, main_v537, main_v538, main_v539, main_c_82, main_v540, main_v541, main_c_83, main_v542, main_v543, main_v544, main_v545, main_v546, main_cst_84, main_v547, main_v548, main_v549, main_cst_85, main_v550, main_cst_86, main_v551, main_v552, main_v553, main_cst_87, main_v554, main_v555, main_v556, main_v557, main_v558, main_v559, main_v560, main_v561, main_v562, main_v563, main_v564, main_v565, main_v566]
theorem cE1_5_writes : (cE1_5 : List (HloOp τ sig (Elt F))).Forall fun op => op.writes ⊆ (cE1_5_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩

/-- Operations 663 to 702 of @main. -/
abbrev cS1_c : List (HloOp τ sig (Elt F)) :=
  [ binary main_v418 main_v492 main_v567 (addf : (⟨S100000x128, .f32⟩ : BufTy).Contents (Elt F) → (⟨S100000x128, .f32⟩ : BufTy).Contents (Elt F) → (⟨S100000x128, .f32⟩ : BufTy).Contents (Elt F)),
    nullary main_cst_88 (constant S_ .f32 0x3F000000#32),
    unary main_cst_88 main_v568 (broadcastInDim S100000x128 ![] bcast_S_S100000x128 : (⟨S_, .f32⟩ : BufTy).Contents (Elt F) → (⟨S100000x128, .f32⟩ : BufTy).Contents (Elt F)),
    binary main_v568 main_v567 main_v569 (mulf : (⟨S100000x128, .f32⟩ : BufTy).Contents (Elt F) → (⟨S100000x128, .f32⟩ : BufTy).Contents (Elt F) → (⟨S100000x128, .f32⟩ : BufTy).Contents (Elt F)),
    unary main_arg18 main_v570 ((extractStridedSlice S1x1x128 ![1, 0, 0] · slices_S2x3x128_S1x1x128_1_0_0) : (⟨S2x3x128, .f32⟩ : BufTy).Contents (Elt F) → (⟨S1x1x128, .f32⟩ : BufTy).Contents (Elt F)),
    reshape main_v570 main_v571 rfl shapeCasts_S1x1x128_S128,
    unary main_arg19 main_v572 ((extractStridedSlice S1x1x128 ![1, 0, 0] · slices_S2x3x128_S1x1x128_1_0_0) : (⟨S2x3x128, .f32⟩ : BufTy).Contents (Elt F) → (⟨S1x1x128, .f32⟩ : BufTy).Contents (Elt F)),
    reshape main_v572 main_v573 rfl shapeCasts_S1x1x128_S128,
    nullary main_cst_89 (constant S_ .f32 0x00000000#32),
    binary main_v569 main_cst_89 main_v574 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    unary main_v574 main_v575 (broadcastInDim S100000x1 ![0] bcast_S100000_S100000x1_0 : (⟨S100000, .f32⟩ : BufTy).Contents (Elt F) → (⟨S100000x1, .f32⟩ : BufTy).Contents (Elt F)),
    nullary main_cst_90 (constant S_ .f32 0x43000000#32),
    unary main_cst_90 main_v576 (broadcastInDim S100000x1 ![] bcast_S_S100000x1 : (⟨S_, .f32⟩ : BufTy).Contents (Elt F) → (⟨S100000x1, .f32⟩ : BufTy).Contents (Elt F)),
    binary main_v575 main_v576 main_v577 (Host.divf : (⟨S100000x1, .f32⟩ : BufTy).Contents (Elt F) → (⟨S100000x1, .f32⟩ : BufTy).Contents (Elt F) → (⟨S100000x1, .f32⟩ : BufTy).Contents (Elt F)),
    unary main_v577 main_v578 (broadcastInDim S100000x128 ![0, 1] bcast_S100000x1_S100000x128_0_1 : (⟨S100000x1, .f32⟩ : BufTy).Contents (Elt F) → (⟨S100000x128, .f32⟩ : BufTy).Contents (Elt F)),
    binary main_v569 main_v578 main_v579 (subf : (⟨S100000x128, .f32⟩ : BufTy).Contents (Elt F) → (⟨S100000x128, .f32⟩ : BufTy).Contents (Elt F) → (⟨S100000x128, .f32⟩ : BufTy).Contents (Elt F)),
    binary main_v579 main_v579 main_v580 (mulf : (⟨S100000x128, .f32⟩ : BufTy).Contents (Elt F) → (⟨S100000x128, .f32⟩ : BufTy).Contents (Elt F) → (⟨S100000x128, .f32⟩ : BufTy).Contents (Elt F)),
    nullary main_cst_91 (constant S_ .f32 0x00000000#32),
    binary main_v580 main_cst_91 main_v581 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    unary main_v581 main_v582 (broadcastInDim S100000x1 ![0] bcast_S100000_S100000x1_0 : (⟨S100000, .f32⟩ : BufTy).Contents (Elt F) → (⟨S100000x1, .f32⟩ : BufTy).Contents (Elt F)),
    nullary main_cst_92 (constant S_ .f32 0x43000000#32),
    unary main_cst_92 main_v583 (broadcastInDim S100000x1 ![] bcast_S_S100000x1 : (⟨S_, .f32⟩ : BufTy).Contents (Elt F) → (⟨S100000x1, .f32⟩ : BufTy).Contents (Elt F)),
    binary main_v582 main_v583 main_v584 (Host.divf : (⟨S100000x1, .f32⟩ : BufTy).Contents (Elt F) → (⟨S100000x1, .f32⟩ : BufTy).Contents (Elt F) → (⟨S100000x1, .f32⟩ : BufTy).Contents (Elt F)),
    unary main_v577 main_v585 (broadcastInDim S100000x128 ![0, 1] bcast_S100000x1_S100000x128_0_1 : (⟨S100000x1, .f32⟩ : BufTy).Contents (Elt F) → (⟨S100000x128, .f32⟩ : BufTy).Contents (Elt F)),
    binary main_v569 main_v585 main_v586 (subf : (⟨S100000x128, .f32⟩ : BufTy).Contents (Elt F) → (⟨S100000x128, .f32⟩ : BufTy).Contents (Elt F) → (⟨S100000x128, .f32⟩ : BufTy).Contents (Elt F)),
    nullary main_cst_93 (constant S_ .f32 0x3727C5AC#32),
    unary main_cst_93 main_v587 (broadcastInDim S100000x1 ![] bcast_S_S100000x1 : (⟨S_, .f32⟩ : BufTy).Contents (Elt F) → (⟨S100000x1, .f32⟩ : BufTy).Contents (Elt F)),
    binary main_v584 main_v587 main_v588 (addf : (⟨S100000x1, .f32⟩ : BufTy).Contents (Elt F) → (⟨S100000x1, .f32⟩ : BufTy).Contents (Elt F) → (⟨S100000x1, .f32⟩ : BufTy).Contents (Elt F)),
    unary main_v588 main_v589 (Host.rsqrt : (⟨S100000x1, .f32⟩ : BufTy).Contents (Elt F) → (⟨S100000x1, .f32⟩ : BufTy).Contents (Elt F)),
    unary main_v589 main_v590 (broadcastInDim S100000x128 ![0, 1] bcast_S100000x1_S100000x128_0_1 : (⟨S100000x1, .f32⟩ : BufTy).Contents (Elt F) → (⟨S100000x128, .f32⟩ : BufTy).Contents (Elt F)),
    binary main_v586 main_v590 main_v591 (mulf : (⟨S100000x128, .f32⟩ : BufTy).Contents (Elt F) → (⟨S100000x128, .f32⟩ : BufTy).Contents (Elt F) → (⟨S100000x128, .f32⟩ : BufTy).Contents (Elt F)),
    unary main_v571 main_v592 (broadcastInDim S1x128 ![1] bcast_S128_S1x128_1 : (⟨S128, .f32⟩ : BufTy).Contents (Elt F) → (⟨S1x128, .f32⟩ : BufTy).Contents (Elt F)),
    unary main_v592 main_v593 (broadcastInDim S100000x128 ![0, 1] bcast_S1x128_S100000x128_0_1 : (⟨S1x128, .f32⟩ : BufTy).Contents (Elt F) → (⟨S100000x128, .f32⟩ : BufTy).Contents (Elt F)),
    binary main_v591 main_v593 main_v594 (mulf : (⟨S100000x128, .f32⟩ : BufTy).Contents (Elt F) → (⟨S100000x128, .f32⟩ : BufTy).Contents (Elt F) → (⟨S100000x128, .f32⟩ : BufTy).Contents (Elt F)),
    unary main_v573 main_v595 (broadcastInDim S1x128 ![1] bcast_S128_S1x128_1 : (⟨S128, .f32⟩ : BufTy).Contents (Elt F) → (⟨S1x128, .f32⟩ : BufTy).Contents (Elt F)),
    unary main_v595 main_v596 (broadcastInDim S100000x128 ![0, 1] bcast_S1x128_S100000x128_0_1 : (⟨S1x128, .f32⟩ : BufTy).Contents (Elt F) → (⟨S100000x128, .f32⟩ : BufTy).Contents (Elt F)),
    binary main_v594 main_v596 main_v597 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S100000x128, .f32⟩) main_call3_v0) (broadcastInDim S100000x128 ![] bcast_S_S100000x128),
    TRef.binary (TRef.of (T := ⟨S100000x128, .f32⟩) main_v597) (TRef.of (T := ⟨S100000x128, .f32⟩) main_call3_v0) (TRef.of (T := ⟨S100000x128, .f32⟩) main_v598) maximumf ]
/-- The buffers this stretch writes. -/
abbrev cS1_c_W : List (Ref sig .tc) := [main_v567, main_cst_88, main_v568, main_v569, main_v570, main_v571, main_v572, main_v573, main_cst_89, main_v574, main_v575, main_cst_90, main_v576, main_v577, main_v578, main_v579, main_v580, main_cst_91, main_v581, main_v582, main_cst_92, main_v583, main_v584, main_v585, main_v586, main_cst_93, main_v587, main_v588, main_v589, main_v590, main_v591, main_v592, main_v593, main_v594, main_v595, main_v596, main_v597, main_call3_cst, main_call3_v0, main_v598]
theorem cS1_c_writes : (cS1_c : List (HloOp τ sig (Elt F))).Forall fun op => op.writes ⊆ (cS1_c_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩

/-- Operations 703 to 742 of @main. -/
abbrev cS1_p : List (HloOp τ sig (Elt F)) :=
  [ binary main_v381 main_v566 main_v599 (addf : (⟨S50000x128, .f32⟩ : BufTy).Contents (Elt F) → (⟨S50000x128, .f32⟩ : BufTy).Contents (Elt F) → (⟨S50000x128, .f32⟩ : BufTy).Contents (Elt F)),
    nullary main_cst_94 (constant S_ .f32 0x3F000000#32),
    unary main_cst_94 main_v600 (broadcastInDim S50000x128 ![] bcast_S_S50000x128 : (⟨S_, .f32⟩ : BufTy).Contents (Elt F) → (⟨S50000x128, .f32⟩ : BufTy).Contents (Elt F)),
    binary main_v600 main_v599 main_v601 (mulf : (⟨S50000x128, .f32⟩ : BufTy).Contents (Elt F) → (⟨S50000x128, .f32⟩ : BufTy).Contents (Elt F) → (⟨S50000x128, .f32⟩ : BufTy).Contents (Elt F)),
    unary main_arg18 main_v602 ((extractStridedSlice S1x1x128 ![1, 1, 0] · slices_S2x3x128_S1x1x128_1_1_0) : (⟨S2x3x128, .f32⟩ : BufTy).Contents (Elt F) → (⟨S1x1x128, .f32⟩ : BufTy).Contents (Elt F)),
    reshape main_v602 main_v603 rfl shapeCasts_S1x1x128_S128,
    unary main_arg19 main_v604 ((extractStridedSlice S1x1x128 ![1, 1, 0] · slices_S2x3x128_S1x1x128_1_1_0) : (⟨S2x3x128, .f32⟩ : BufTy).Contents (Elt F) → (⟨S1x1x128, .f32⟩ : BufTy).Contents (Elt F)),
    reshape main_v604 main_v605 rfl shapeCasts_S1x1x128_S128,
    nullary main_cst_95 (constant S_ .f32 0x00000000#32),
    binary main_v601 main_cst_95 main_v606 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    unary main_v606 main_v607 (broadcastInDim S50000x1 ![0] bcast_S50000_S50000x1_0 : (⟨S50000, .f32⟩ : BufTy).Contents (Elt F) → (⟨S50000x1, .f32⟩ : BufTy).Contents (Elt F)),
    nullary main_cst_96 (constant S_ .f32 0x43000000#32),
    unary main_cst_96 main_v608 (broadcastInDim S50000x1 ![] bcast_S_S50000x1 : (⟨S_, .f32⟩ : BufTy).Contents (Elt F) → (⟨S50000x1, .f32⟩ : BufTy).Contents (Elt F)),
    binary main_v607 main_v608 main_v609 (Host.divf : (⟨S50000x1, .f32⟩ : BufTy).Contents (Elt F) → (⟨S50000x1, .f32⟩ : BufTy).Contents (Elt F) → (⟨S50000x1, .f32⟩ : BufTy).Contents (Elt F)),
    unary main_v609 main_v610 (broadcastInDim S50000x128 ![0, 1] bcast_S50000x1_S50000x128_0_1 : (⟨S50000x1, .f32⟩ : BufTy).Contents (Elt F) → (⟨S50000x128, .f32⟩ : BufTy).Contents (Elt F)),
    binary main_v601 main_v610 main_v611 (subf : (⟨S50000x128, .f32⟩ : BufTy).Contents (Elt F) → (⟨S50000x128, .f32⟩ : BufTy).Contents (Elt F) → (⟨S50000x128, .f32⟩ : BufTy).Contents (Elt F)),
    binary main_v611 main_v611 main_v612 (mulf : (⟨S50000x128, .f32⟩ : BufTy).Contents (Elt F) → (⟨S50000x128, .f32⟩ : BufTy).Contents (Elt F) → (⟨S50000x128, .f32⟩ : BufTy).Contents (Elt F)),
    nullary main_cst_97 (constant S_ .f32 0x00000000#32),
    binary main_v612 main_cst_97 main_v613 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    unary main_v613 main_v614 (broadcastInDim S50000x1 ![0] bcast_S50000_S50000x1_0 : (⟨S50000, .f32⟩ : BufTy).Contents (Elt F) → (⟨S50000x1, .f32⟩ : BufTy).Contents (Elt F)),
    nullary main_cst_98 (constant S_ .f32 0x43000000#32),
    unary main_cst_98 main_v615 (broadcastInDim S50000x1 ![] bcast_S_S50000x1 : (⟨S_, .f32⟩ : BufTy).Contents (Elt F) → (⟨S50000x1, .f32⟩ : BufTy).Contents (Elt F)),
    binary main_v614 main_v615 main_v616 (Host.divf : (⟨S50000x1, .f32⟩ : BufTy).Contents (Elt F) → (⟨S50000x1, .f32⟩ : BufTy).Contents (Elt F) → (⟨S50000x1, .f32⟩ : BufTy).Contents (Elt F)),
    unary main_v609 main_v617 (broadcastInDim S50000x128 ![0, 1] bcast_S50000x1_S50000x128_0_1 : (⟨S50000x1, .f32⟩ : BufTy).Contents (Elt F) → (⟨S50000x128, .f32⟩ : BufTy).Contents (Elt F)),
    binary main_v601 main_v617 main_v618 (subf : (⟨S50000x128, .f32⟩ : BufTy).Contents (Elt F) → (⟨S50000x128, .f32⟩ : BufTy).Contents (Elt F) → (⟨S50000x128, .f32⟩ : BufTy).Contents (Elt F)),
    nullary main_cst_99 (constant S_ .f32 0x3727C5AC#32),
    unary main_cst_99 main_v619 (broadcastInDim S50000x1 ![] bcast_S_S50000x1 : (⟨S_, .f32⟩ : BufTy).Contents (Elt F) → (⟨S50000x1, .f32⟩ : BufTy).Contents (Elt F)),
    binary main_v616 main_v619 main_v620 (addf : (⟨S50000x1, .f32⟩ : BufTy).Contents (Elt F) → (⟨S50000x1, .f32⟩ : BufTy).Contents (Elt F) → (⟨S50000x1, .f32⟩ : BufTy).Contents (Elt F)),
    unary main_v620 main_v621 (Host.rsqrt : (⟨S50000x1, .f32⟩ : BufTy).Contents (Elt F) → (⟨S50000x1, .f32⟩ : BufTy).Contents (Elt F)),
    unary main_v621 main_v622 (broadcastInDim S50000x128 ![0, 1] bcast_S50000x1_S50000x128_0_1 : (⟨S50000x1, .f32⟩ : BufTy).Contents (Elt F) → (⟨S50000x128, .f32⟩ : BufTy).Contents (Elt F)),
    binary main_v618 main_v622 main_v623 (mulf : (⟨S50000x128, .f32⟩ : BufTy).Contents (Elt F) → (⟨S50000x128, .f32⟩ : BufTy).Contents (Elt F) → (⟨S50000x128, .f32⟩ : BufTy).Contents (Elt F)),
    unary main_v603 main_v624 (broadcastInDim S1x128 ![1] bcast_S128_S1x128_1 : (⟨S128, .f32⟩ : BufTy).Contents (Elt F) → (⟨S1x128, .f32⟩ : BufTy).Contents (Elt F)),
    unary main_v624 main_v625 (broadcastInDim S50000x128 ![0, 1] bcast_S1x128_S50000x128_0_1 : (⟨S1x128, .f32⟩ : BufTy).Contents (Elt F) → (⟨S50000x128, .f32⟩ : BufTy).Contents (Elt F)),
    binary main_v623 main_v625 main_v626 (mulf : (⟨S50000x128, .f32⟩ : BufTy).Contents (Elt F) → (⟨S50000x128, .f32⟩ : BufTy).Contents (Elt F) → (⟨S50000x128, .f32⟩ : BufTy).Contents (Elt F)),
    unary main_v605 main_v627 (broadcastInDim S1x128 ![1] bcast_S128_S1x128_1 : (⟨S128, .f32⟩ : BufTy).Contents (Elt F) → (⟨S1x128, .f32⟩ : BufTy).Contents (Elt F)),
    unary main_v627 main_v628 (broadcastInDim S50000x128 ![0, 1] bcast_S1x128_S50000x128_0_1 : (⟨S1x128, .f32⟩ : BufTy).Contents (Elt F) → (⟨S50000x128, .f32⟩ : BufTy).Contents (Elt F)),
    binary main_v626 main_v628 main_v629 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S50000x128, .f32⟩) main_call4_v0) (broadcastInDim S50000x128 ![] bcast_S_S50000x128),
    TRef.binary (TRef.of (T := ⟨S50000x128, .f32⟩) main_v629) (TRef.of (T := ⟨S50000x128, .f32⟩) main_call4_v0) (TRef.of (T := ⟨S50000x128, .f32⟩) main_v630) maximumf ]
/-- The buffers this stretch writes. -/
abbrev cS1_p_W : List (Ref sig .tc) := [main_v599, main_cst_94, main_v600, main_v601, main_v602, main_v603, main_v604, main_v605, main_cst_95, main_v606, main_v607, main_cst_96, main_v608, main_v609, main_v610, main_v611, main_v612, main_cst_97, main_v613, main_v614, main_cst_98, main_v615, main_v616, main_v617, main_v618, main_cst_99, main_v619, main_v620, main_v621, main_v622, main_v623, main_v624, main_v625, main_v626, main_v627, main_v628, main_v629, main_call4_cst, main_call4_v0, main_v630]
theorem cS1_p_writes : (cS1_p : List (HloOp τ sig (Elt F))).Forall fun op => op.writes ⊆ (cS1_p_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩

/-- Operations 743 to 782 of @main. -/
abbrev cS1_s : List (HloOp τ sig (Elt F)) :=
  [ binary main_v455 main_v529 main_v631 (addf : (⟨S5000x128, .f32⟩ : BufTy).Contents (Elt F) → (⟨S5000x128, .f32⟩ : BufTy).Contents (Elt F) → (⟨S5000x128, .f32⟩ : BufTy).Contents (Elt F)),
    nullary main_cst_100 (constant S_ .f32 0x3F000000#32),
    unary main_cst_100 main_v632 (broadcastInDim S5000x128 ![] bcast_S_S5000x128 : (⟨S_, .f32⟩ : BufTy).Contents (Elt F) → (⟨S5000x128, .f32⟩ : BufTy).Contents (Elt F)),
    binary main_v632 main_v631 main_v633 (mulf : (⟨S5000x128, .f32⟩ : BufTy).Contents (Elt F) → (⟨S5000x128, .f32⟩ : BufTy).Contents (Elt F) → (⟨S5000x128, .f32⟩ : BufTy).Contents (Elt F)),
    unary main_arg18 main_v634 ((extractStridedSlice S1x1x128 ![1, 2, 0] · slices_S2x3x128_S1x1x128_1_2_0) : (⟨S2x3x128, .f32⟩ : BufTy).Contents (Elt F) → (⟨S1x1x128, .f32⟩ : BufTy).Contents (Elt F)),
    reshape main_v634 main_v635 rfl shapeCasts_S1x1x128_S128,
    unary main_arg19 main_v636 ((extractStridedSlice S1x1x128 ![1, 2, 0] · slices_S2x3x128_S1x1x128_1_2_0) : (⟨S2x3x128, .f32⟩ : BufTy).Contents (Elt F) → (⟨S1x1x128, .f32⟩ : BufTy).Contents (Elt F)),
    reshape main_v636 main_v637 rfl shapeCasts_S1x1x128_S128,
    nullary main_cst_101 (constant S_ .f32 0x00000000#32),
    binary main_v633 main_cst_101 main_v638 ((fun x v => Host.reduceAdd x v reducesTo_S5000x128_S5000_d1 h_S_) : (⟨S5000x128, .f32⟩ : BufTy).Contents (Elt F) → (⟨S_, .f32⟩ : BufTy).Contents (Elt F) → (⟨S5000, .f32⟩ : BufTy).Contents (Elt F)),
    unary main_v638 main_v639 (broadcastInDim S5000x1 ![0] bcast_S5000_S5000x1_0 : (⟨S5000, .f32⟩ : BufTy).Contents (Elt F) → (⟨S5000x1, .f32⟩ : BufTy).Contents (Elt F)),
    nullary main_cst_102 (constant S_ .f32 0x43000000#32),
    unary main_cst_102 main_v640 (broadcastInDim S5000x1 ![] bcast_S_S5000x1 : (⟨S_, .f32⟩ : BufTy).Contents (Elt F) → (⟨S5000x1, .f32⟩ : BufTy).Contents (Elt F)),
    binary main_v639 main_v640 main_v641 (Host.divf : (⟨S5000x1, .f32⟩ : BufTy).Contents (Elt F) → (⟨S5000x1, .f32⟩ : BufTy).Contents (Elt F) → (⟨S5000x1, .f32⟩ : BufTy).Contents (Elt F)),
    unary main_v641 main_v642 (broadcastInDim S5000x128 ![0, 1] bcast_S5000x1_S5000x128_0_1 : (⟨S5000x1, .f32⟩ : BufTy).Contents (Elt F) → (⟨S5000x128, .f32⟩ : BufTy).Contents (Elt F)),
    binary main_v633 main_v642 main_v643 (subf : (⟨S5000x128, .f32⟩ : BufTy).Contents (Elt F) → (⟨S5000x128, .f32⟩ : BufTy).Contents (Elt F) → (⟨S5000x128, .f32⟩ : BufTy).Contents (Elt F)),
    binary main_v643 main_v643 main_v644 (mulf : (⟨S5000x128, .f32⟩ : BufTy).Contents (Elt F) → (⟨S5000x128, .f32⟩ : BufTy).Contents (Elt F) → (⟨S5000x128, .f32⟩ : BufTy).Contents (Elt F)),
    nullary main_cst_103 (constant S_ .f32 0x00000000#32),
    binary main_v644 main_cst_103 main_v645 ((fun x v => Host.reduceAdd x v reducesTo_S5000x128_S5000_d1 h_S_) : (⟨S5000x128, .f32⟩ : BufTy).Contents (Elt F) → (⟨S_, .f32⟩ : BufTy).Contents (Elt F) → (⟨S5000, .f32⟩ : BufTy).Contents (Elt F)),
    unary main_v645 main_v646 (broadcastInDim S5000x1 ![0] bcast_S5000_S5000x1_0 : (⟨S5000, .f32⟩ : BufTy).Contents (Elt F) → (⟨S5000x1, .f32⟩ : BufTy).Contents (Elt F)),
    nullary main_cst_104 (constant S_ .f32 0x43000000#32),
    unary main_cst_104 main_v647 (broadcastInDim S5000x1 ![] bcast_S_S5000x1 : (⟨S_, .f32⟩ : BufTy).Contents (Elt F) → (⟨S5000x1, .f32⟩ : BufTy).Contents (Elt F)),
    binary main_v646 main_v647 main_v648 (Host.divf : (⟨S5000x1, .f32⟩ : BufTy).Contents (Elt F) → (⟨S5000x1, .f32⟩ : BufTy).Contents (Elt F) → (⟨S5000x1, .f32⟩ : BufTy).Contents (Elt F)),
    unary main_v641 main_v649 (broadcastInDim S5000x128 ![0, 1] bcast_S5000x1_S5000x128_0_1 : (⟨S5000x1, .f32⟩ : BufTy).Contents (Elt F) → (⟨S5000x128, .f32⟩ : BufTy).Contents (Elt F)),
    binary main_v633 main_v649 main_v650 (subf : (⟨S5000x128, .f32⟩ : BufTy).Contents (Elt F) → (⟨S5000x128, .f32⟩ : BufTy).Contents (Elt F) → (⟨S5000x128, .f32⟩ : BufTy).Contents (Elt F)),
    nullary main_cst_105 (constant S_ .f32 0x3727C5AC#32),
    unary main_cst_105 main_v651 (broadcastInDim S5000x1 ![] bcast_S_S5000x1 : (⟨S_, .f32⟩ : BufTy).Contents (Elt F) → (⟨S5000x1, .f32⟩ : BufTy).Contents (Elt F)),
    binary main_v648 main_v651 main_v652 (addf : (⟨S5000x1, .f32⟩ : BufTy).Contents (Elt F) → (⟨S5000x1, .f32⟩ : BufTy).Contents (Elt F) → (⟨S5000x1, .f32⟩ : BufTy).Contents (Elt F)),
    unary main_v652 main_v653 (Host.rsqrt : (⟨S5000x1, .f32⟩ : BufTy).Contents (Elt F) → (⟨S5000x1, .f32⟩ : BufTy).Contents (Elt F)),
    unary main_v653 main_v654 (broadcastInDim S5000x128 ![0, 1] bcast_S5000x1_S5000x128_0_1 : (⟨S5000x1, .f32⟩ : BufTy).Contents (Elt F) → (⟨S5000x128, .f32⟩ : BufTy).Contents (Elt F)),
    binary main_v650 main_v654 main_v655 (mulf : (⟨S5000x128, .f32⟩ : BufTy).Contents (Elt F) → (⟨S5000x128, .f32⟩ : BufTy).Contents (Elt F) → (⟨S5000x128, .f32⟩ : BufTy).Contents (Elt F)),
    unary main_v635 main_v656 (broadcastInDim S1x128 ![1] bcast_S128_S1x128_1 : (⟨S128, .f32⟩ : BufTy).Contents (Elt F) → (⟨S1x128, .f32⟩ : BufTy).Contents (Elt F)),
    unary main_v656 main_v657 (broadcastInDim S5000x128 ![0, 1] bcast_S1x128_S5000x128_0_1 : (⟨S1x128, .f32⟩ : BufTy).Contents (Elt F) → (⟨S5000x128, .f32⟩ : BufTy).Contents (Elt F)),
    binary main_v655 main_v657 main_v658 (mulf : (⟨S5000x128, .f32⟩ : BufTy).Contents (Elt F) → (⟨S5000x128, .f32⟩ : BufTy).Contents (Elt F) → (⟨S5000x128, .f32⟩ : BufTy).Contents (Elt F)),
    unary main_v637 main_v659 (broadcastInDim S1x128 ![1] bcast_S128_S1x128_1 : (⟨S128, .f32⟩ : BufTy).Contents (Elt F) → (⟨S1x128, .f32⟩ : BufTy).Contents (Elt F)),
    unary main_v659 main_v660 (broadcastInDim S5000x128 ![0, 1] bcast_S1x128_S5000x128_0_1 : (⟨S1x128, .f32⟩ : BufTy).Contents (Elt F) → (⟨S5000x128, .f32⟩ : BufTy).Contents (Elt F)),
    binary main_v658 main_v660 main_v661 (addf : (⟨S5000x128, .f32⟩ : BufTy).Contents (Elt F) → (⟨S5000x128, .f32⟩ : BufTy).Contents (Elt F) → (⟨S5000x128, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S5000x128, .f32⟩) main_call5_v0) (broadcastInDim S5000x128 ![] bcast_S_S5000x128),
    TRef.binary (TRef.of (T := ⟨S5000x128, .f32⟩) main_v661) (TRef.of (T := ⟨S5000x128, .f32⟩) main_call5_v0) (TRef.of (T := ⟨S5000x128, .f32⟩) main_v662) maximumf ]
/-- The buffers this stretch writes. -/
abbrev cS1_s_W : List (Ref sig .tc) := [main_v631, main_cst_100, main_v632, main_v633, main_v634, main_v635, main_v636, main_v637, main_cst_101, main_v638, main_v639, main_cst_102, main_v640, main_v641, main_v642, main_v643, main_v644, main_cst_103, main_v645, main_v646, main_cst_104, main_v647, main_v648, main_v649, main_v650, main_cst_105, main_v651, main_v652, main_v653, main_v654, main_v655, main_v656, main_v657, main_v658, main_v659, main_v660, main_v661, main_call5_cst, main_call5_v0, main_v662]
theorem cS1_s_writes : (cS1_s : List (HloOp τ sig (Elt F))).Forall fun op => op.writes ⊆ (cS1_s_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩

set_option maxRecDepth 16384 in
/-- The operations of @main are the stretches in order. -/
theorem ops_split : (ops : List (HloOp τ sig (Elt F))) = cP ++ (cL0 ++ (cE0_0 ++ (cE0_1 ++ (cE0_2 ++ (cE0_3 ++ (cE0_4 ++ (cE0_5 ++ (cS0_c ++ (cS0_p ++ (cS0_s ++ (cL1 ++ (cE1_0 ++ (cE1_1 ++ (cE1_2 ++ (cE1_3 ++ (cE1_4 ++ (cE1_5 ++ (cS1_c ++ (cS1_p ++ (cS1_s)))))))))))))))))))) := rfl

variable (V : Valuation τ sig (Elt F))

/-- The contents before the first stretch. -/
abbrev R0 : Valuation τ sig (Elt F) := V
/-- The contents after the stretch cP. -/
def R1 : Valuation τ sig (Elt F) := after cP (R0 V)
theorem R1_keep (r : Ref sig .tc) (h : r ∉ (cP_W : List (Ref sig .tc))) : R1 V (Proc.devRef .tc r) = R0 V (Proc.devRef .tc r) :=
  after_of_writes_sub cP _ cP_writes h
/-- The contents after the stretch cL0. -/
def R2 : Valuation τ sig (Elt F) := after cL0 (R1 V)
theorem R2_keep (r : Ref sig .tc) (h : r ∉ (cL0_W : List (Ref sig .tc))) : R2 V (Proc.devRef .tc r) = R1 V (Proc.devRef .tc r) :=
  after_of_writes_sub cL0 _ cL0_writes h
/-- The contents after the stretch cE0_0. -/
def R3 : Valuation τ sig (Elt F) := after cE0_0 (R2 V)
theorem R3_keep (r : Ref sig .tc) (h : r ∉ (cE0_0_W : List (Ref sig .tc))) : R3 V (Proc.devRef .tc r) = R2 V (Proc.devRef .tc r) :=
  after_of_writes_sub cE0_0 _ cE0_0_writes h
/-- The contents after the stretch cE0_1. -/
def R4 : Valuation τ sig (Elt F) := after cE0_1 (R3 V)
theorem R4_keep (r : Ref sig .tc) (h : r ∉ (cE0_1_W : List (Ref sig .tc))) : R4 V (Proc.devRef .tc r) = R3 V (Proc.devRef .tc r) :=
  after_of_writes_sub cE0_1 _ cE0_1_writes h
/-- The contents after the stretch cE0_2. -/
def R5 : Valuation τ sig (Elt F) := after cE0_2 (R4 V)
theorem R5_keep (r : Ref sig .tc) (h : r ∉ (cE0_2_W : List (Ref sig .tc))) : R5 V (Proc.devRef .tc r) = R4 V (Proc.devRef .tc r) :=
  after_of_writes_sub cE0_2 _ cE0_2_writes h
/-- The contents after the stretch cE0_3. -/
def R6 : Valuation τ sig (Elt F) := after cE0_3 (R5 V)
theorem R6_keep (r : Ref sig .tc) (h : r ∉ (cE0_3_W : List (Ref sig .tc))) : R6 V (Proc.devRef .tc r) = R5 V (Proc.devRef .tc r) :=
  after_of_writes_sub cE0_3 _ cE0_3_writes h
/-- The contents after the stretch cE0_4. -/
def R7 : Valuation τ sig (Elt F) := after cE0_4 (R6 V)
theorem R7_keep (r : Ref sig .tc) (h : r ∉ (cE0_4_W : List (Ref sig .tc))) : R7 V (Proc.devRef .tc r) = R6 V (Proc.devRef .tc r) :=
  after_of_writes_sub cE0_4 _ cE0_4_writes h
/-- The contents after the stretch cE0_5. -/
def R8 : Valuation τ sig (Elt F) := after cE0_5 (R7 V)
theorem R8_keep (r : Ref sig .tc) (h : r ∉ (cE0_5_W : List (Ref sig .tc))) : R8 V (Proc.devRef .tc r) = R7 V (Proc.devRef .tc r) :=
  after_of_writes_sub cE0_5 _ cE0_5_writes h
/-- The contents after the stretch cS0_c. -/
def R9 : Valuation τ sig (Elt F) := after cS0_c (R8 V)
theorem R9_keep (r : Ref sig .tc) (h : r ∉ (cS0_c_W : List (Ref sig .tc))) : R9 V (Proc.devRef .tc r) = R8 V (Proc.devRef .tc r) :=
  after_of_writes_sub cS0_c _ cS0_c_writes h
/-- The contents after the stretch cS0_p. -/
def R10 : Valuation τ sig (Elt F) := after cS0_p (R9 V)
theorem R10_keep (r : Ref sig .tc) (h : r ∉ (cS0_p_W : List (Ref sig .tc))) : R10 V (Proc.devRef .tc r) = R9 V (Proc.devRef .tc r) :=
  after_of_writes_sub cS0_p _ cS0_p_writes h
/-- The contents after the stretch cS0_s. -/
def R11 : Valuation τ sig (Elt F) := after cS0_s (R10 V)
theorem R11_keep (r : Ref sig .tc) (h : r ∉ (cS0_s_W : List (Ref sig .tc))) : R11 V (Proc.devRef .tc r) = R10 V (Proc.devRef .tc r) :=
  after_of_writes_sub cS0_s _ cS0_s_writes h
/-- The contents after the stretch cL1. -/
def R12 : Valuation τ sig (Elt F) := after cL1 (R11 V)
theorem R12_keep (r : Ref sig .tc) (h : r ∉ (cL1_W : List (Ref sig .tc))) : R12 V (Proc.devRef .tc r) = R11 V (Proc.devRef .tc r) :=
  after_of_writes_sub cL1 _ cL1_writes h
/-- The contents after the stretch cE1_0. -/
def R13 : Valuation τ sig (Elt F) := after cE1_0 (R12 V)
theorem R13_keep (r : Ref sig .tc) (h : r ∉ (cE1_0_W : List (Ref sig .tc))) : R13 V (Proc.devRef .tc r) = R12 V (Proc.devRef .tc r) :=
  after_of_writes_sub cE1_0 _ cE1_0_writes h
/-- The contents after the stretch cE1_1. -/
def R14 : Valuation τ sig (Elt F) := after cE1_1 (R13 V)
theorem R14_keep (r : Ref sig .tc) (h : r ∉ (cE1_1_W : List (Ref sig .tc))) : R14 V (Proc.devRef .tc r) = R13 V (Proc.devRef .tc r) :=
  after_of_writes_sub cE1_1 _ cE1_1_writes h
/-- The contents after the stretch cE1_2. -/
def R15 : Valuation τ sig (Elt F) := after cE1_2 (R14 V)
theorem R15_keep (r : Ref sig .tc) (h : r ∉ (cE1_2_W : List (Ref sig .tc))) : R15 V (Proc.devRef .tc r) = R14 V (Proc.devRef .tc r) :=
  after_of_writes_sub cE1_2 _ cE1_2_writes h
/-- The contents after the stretch cE1_3. -/
def R16 : Valuation τ sig (Elt F) := after cE1_3 (R15 V)
theorem R16_keep (r : Ref sig .tc) (h : r ∉ (cE1_3_W : List (Ref sig .tc))) : R16 V (Proc.devRef .tc r) = R15 V (Proc.devRef .tc r) :=
  after_of_writes_sub cE1_3 _ cE1_3_writes h
/-- The contents after the stretch cE1_4. -/
def R17 : Valuation τ sig (Elt F) := after cE1_4 (R16 V)
theorem R17_keep (r : Ref sig .tc) (h : r ∉ (cE1_4_W : List (Ref sig .tc))) : R17 V (Proc.devRef .tc r) = R16 V (Proc.devRef .tc r) :=
  after_of_writes_sub cE1_4 _ cE1_4_writes h
/-- The contents after the stretch cE1_5. -/
def R18 : Valuation τ sig (Elt F) := after cE1_5 (R17 V)
theorem R18_keep (r : Ref sig .tc) (h : r ∉ (cE1_5_W : List (Ref sig .tc))) : R18 V (Proc.devRef .tc r) = R17 V (Proc.devRef .tc r) :=
  after_of_writes_sub cE1_5 _ cE1_5_writes h
/-- The contents after the stretch cS1_c. -/
def R19 : Valuation τ sig (Elt F) := after cS1_c (R18 V)
theorem R19_keep (r : Ref sig .tc) (h : r ∉ (cS1_c_W : List (Ref sig .tc))) : R19 V (Proc.devRef .tc r) = R18 V (Proc.devRef .tc r) :=
  after_of_writes_sub cS1_c _ cS1_c_writes h
/-- The contents after the stretch cS1_p. -/
def R20 : Valuation τ sig (Elt F) := after cS1_p (R19 V)
theorem R20_keep (r : Ref sig .tc) (h : r ∉ (cS1_p_W : List (Ref sig .tc))) : R20 V (Proc.devRef .tc r) = R19 V (Proc.devRef .tc r) :=
  after_of_writes_sub cS1_p _ cS1_p_writes h
/-- The contents after the stretch cS1_s. -/
def R21 : Valuation τ sig (Elt F) := after cS1_s (R20 V)
theorem R21_keep (r : Ref sig .tc) (h : r ∉ (cS1_s_W : List (Ref sig .tc))) : R21 V (Proc.devRef .tc r) = R20 V (Proc.devRef .tc r) :=
  after_of_writes_sub cS1_s _ cS1_s_writes h

/-- The fold over all of @main is the last of these. -/
theorem after_ops : after ops V = R21 V := by
  rw [ops_split]; simp only [StableHlo.after_append]; rfl

end Cert.ReferenceIdeal.Chunks

end
-- ==== Proof.RStageS1c.lean ====
/-
  The reference's stretch that turns the two relation outputs of one node type into that type's new features, read at
  one row i and one feature j.

  The two arrays are added and multiplied by one half; along the 128 features of a row the mean is the sum divided by
  128, the deviation is the halved row less its mean, the variance is the sum of the squared deviations divided by 128;
  the deviation is multiplied by the reciprocal square root of the variance shifted by a small constant, scaled and
  shifted per feature by the slices at one layer and one node type of two 2 x 3 x 128 arrays, and clipped below at zero.
  Each operation that is not pointwise — a scalar spread over an array, the sum along a row, a vector made a column,
  a column spread across the features, a slice made a row and spread down the rows — is read at an index by one small
  lemma over arrays of the literal shapes; the pointwise ones read through by definition; the composed term is then the
  specification's function of the row, term for term.
-/
import proofs.«159317_j31121333027532_1_alg».proof.Proof.RefChunks
import proofs.«159317_j31121333027532_1_alg».proof.Proof.Spec
import Idealize.ShloMosaic.Lib.StableHlo.Run
import Idealize.ShloMosaic.Lib.Pipeline.Value
import Idealize.ShloMosaic.Lib.ValueIdx
import Idealize.ShloMosaic.PureOps.Ideal.Laws

noncomputable section

namespace Cert.ReferenceIdeal.Stage

open Cert.ReferenceIdeal Cert.ReferenceIdeal.Chunks Idealize.ShloMosaic Idealize.ShloMosaic.StableHlo Idealize.ShloMosaic.ValueIdx

/-- A scalar constant broadcast over the array reads its value everywhere. -/
theorem cS1_c_splat_apply (w : BitVec (FTy.bits .f32))
    (h : S_.BroadcastsInDim S100000x128 (![] : Fin 0 → Fin S100000x128.rank)) (p : S100000x128.Idx) :
    broadcastInDim S100000x128 (no_index ![]) h (constant (F := Ideal) S_ .f32 w) p = Ideal.ofBits .f32 w := rfl

/-- A scalar constant broadcast over the column reads its value everywhere. -/
theorem cS1_c_splat_col_apply (w : BitVec (FTy.bits .f32))
    (h : S_.BroadcastsInDim S100000x1 (![] : Fin 0 → Fin S100000x1.rank)) (p : S100000x1.Idx) :
    broadcastInDim S100000x1 (no_index ![]) h (constant (F := Ideal) S_ .f32 w) p = Ideal.ofBits .f32 w := rfl

/-- The host's sum along the 128 features from the zero pattern, read at row i, is the sum of the row. -/
theorem cS1_c_rowsum_apply (x : FVec Ideal S100000x128 .f32) (h' : S100000x128.ReducesTo [1] S100000)
    (hu : 0 < S_.numel) (i : Fin 100000) :
    Host.reduceAdd (F := Ideal) x (constant (F := Ideal) S_ .f32 0x00000000#32) h' hu (ix1 i)
      = ∑ k : Fin 128, x (ix2 i k) := by
  have h : S100000x128.Reduces [1] S100000 := by decide
  show Ideal.hostReduceAdd h' x (Ideal.ofBits .f32 0x00000000#32) (ix1 i) = _
  rw [Ideal.hostReduceAdd_single h' h, Ideal.ofBits_zero_f32, zero_add]
  exact Finset.sum_congr rfl fun k _ => congrArg x
    (funext fun ax => Fin.ext (by match ax with | ⟨0, _⟩ => rfl | ⟨1, _⟩ => rfl))

/-- A vector over the rows as a column: at (i, 0), the vector at i. -/
theorem cS1_c_column_apply (v : FVec Ideal S100000 .f32)
    (h : S100000.BroadcastsInDim S100000x1 (![0] : Fin 1 → Fin S100000x1.rank)) (i : Fin 100000) :
    broadcastInDim S100000x1 (no_index ![0]) h v (ix2 i (0 : Fin 1)) = v (ix1 i) := by
  refine broadcastInDim_apply _ h v _ (ix1 i) fun a => ?_
  match a with
  | ⟨0, _⟩ => rfl

/-- A column broadcast across the 128 features: at (i, j), the column at (i, 0). -/
theorem cS1_c_across_apply (c : FVec Ideal S100000x1 .f32)
    (h : S100000x1.BroadcastsInDim S100000x128 (![0, 1] : Fin 2 → Fin S100000x128.rank)) (i : Fin 100000) (j : Fin 128) :
    broadcastInDim S100000x128 (no_index ![0, 1]) h c (ix2 i j) = c (ix2 i (0 : Fin 1)) := by
  refine broadcastInDim_apply _ h c _ (ix2 i (0 : Fin 1)) fun a => ?_
  match a with
  | ⟨0, _⟩ => rfl
  | ⟨1, _⟩ => rfl

/-- A per-feature parameter, the slice at one layer and one node type of a 2 x 3 x 128 array made a vector, then a
    row, then broadcast down the rows: at (i, j), the array at that layer, that node type and feature j. -/
theorem cS1_c_param_apply (g : FVec Ideal S2x3x128 .f32) (hs : S2x3x128.Slices ![1, 0, 0] S1x1x128)
    (hc : S1x1x128.ShapeCasts S128) (h₁ : S128.BroadcastsInDim S1x128 (![1] : Fin 1 → Fin S1x128.rank))
    (h₂ : S1x128.BroadcastsInDim S100000x128 (![0, 1] : Fin 2 → Fin S100000x128.rank)) (i : Fin 100000) (j : Fin 128) :
    broadcastInDim S100000x128 (no_index ![0, 1]) h₂ (broadcastInDim S1x128 (no_index ![1]) h₁
        (shapeCast S128 (extractStridedSlice S1x1x128 (no_index ![1, 0, 0]) g hs) hc)) (ix2 i j)
      = g (ix3 (1 : Fin 2) (0 : Fin 3) j) := by
  refine (broadcastInDim_apply _ h₂ _ _ (ix2 (0 : Fin 1) j) fun a => ?_).trans
    ((broadcastInDim_apply _ h₁ _ _ (ix1 j) fun a => ?_).trans
      ((shapeCast_apply _ hc _ (ix3 (0 : Fin 1) (0 : Fin 1) j) ?_).trans
        (extractStridedSlice_apply _ g hs _ (ix3 (1 : Fin 2) (0 : Fin 3) j) fun a => ?_)))
  · match a with
    | ⟨0, _⟩ => rfl
    | ⟨1, _⟩ => rfl
  · match a with
    | ⟨0, _⟩ => rfl
  · rw [Shape.rowMajor_val_three, Shape.rowMajor_val_one]
    show (0 * 1 + 0) * 128 + j.val = j.val
    omega
  · match a with
    | ⟨0, _⟩ => rfl
    | ⟨1, _⟩ => rfl
    | ⟨2, _⟩ => show j.val = 0 + j.val; omega

/-- The host's division and reciprocal square root read at an index. -/
theorem cS1_c_hostDivf_apply {s : Shape} (a b : FVec Ideal s .f32) (p : s.Idx) :
    Host.divf a b p = Ideal.div (a p) (b p) := rfl
theorem cS1_c_hostRsqrt_apply {s : Shape} (a : FVec Ideal s .f32) (p : s.Idx) :
    Host.rsqrt a p = Ideal.rsqrt (a p) := rfl

/-- The forty operations as one term over the arrays they read, at (i, j): the two relation outputs added and
    halved (X), the row mean (m), the deviation (d), the row variance (v), the reciprocal root of the shifted
    variance (r); the deviation times r, scaled, shifted, clipped below at zero. -/
theorem cS1_c_value (x y : FVec Ideal S100000x128 .f32) (g b : FVec Ideal S2x3x128 .f32)
    (X d : FVec Ideal S100000x128 .f32) (m v r : FVec Ideal S100000x1 .f32)
    (hb0 : S_.BroadcastsInDim S100000x128 (![] : Fin 0 → Fin S100000x128.rank))
    (hb1 : S_.BroadcastsInDim S100000x1 (![] : Fin 0 → Fin S100000x1.rank))
    (hcol : S100000.BroadcastsInDim S100000x1 (![0] : Fin 1 → Fin S100000x1.rank))
    (hacr : S100000x1.BroadcastsInDim S100000x128 (![0, 1] : Fin 2 → Fin S100000x128.rank))
    (hred : S100000x128.ReducesTo [1] S100000) (hu : 0 < S_.numel)
    (hs : S2x3x128.Slices ![1, 0, 0] S1x1x128) (hc : S1x1x128.ShapeCasts S128)
    (h₁ : S128.BroadcastsInDim S1x128 (![1] : Fin 1 → Fin S1x128.rank))
    (h₂ : S1x128.BroadcastsInDim S100000x128 (![0, 1] : Fin 2 → Fin S100000x128.rank))
    (hX : X = mulf (broadcastInDim S100000x128 ![] hb0 (constant (F := Ideal) S_ .f32 0x3F000000#32)) (addf x y))
    (hm : m = Host.divf (broadcastInDim S100000x1 ![0] hcol
        (Host.reduceAdd (F := Ideal) X (constant (F := Ideal) S_ .f32 0x00000000#32) hred hu))
      (broadcastInDim S100000x1 ![] hb1 (constant (F := Ideal) S_ .f32 0x43000000#32)))
    (hd : d = subf X (broadcastInDim S100000x128 ![0, 1] hacr m))
    (hv : v = Host.divf (broadcastInDim S100000x1 ![0] hcol
        (Host.reduceAdd (F := Ideal) (mulf d d) (constant (F := Ideal) S_ .f32 0x00000000#32) hred hu))
      (broadcastInDim S100000x1 ![] hb1 (constant (F := Ideal) S_ .f32 0x43000000#32)))
    (hr : r = Host.rsqrt (addf v (broadcastInDim S100000x1 ![] hb1 (constant (F := Ideal) S_ .f32 0x3727C5AC#32))))
    (i : Fin 100000) (j : Fin 128) :
    maximumf
        (addf
          (mulf (mulf d (broadcastInDim S100000x128 ![0, 1] hacr r))
            (broadcastInDim S100000x128 ![0, 1] h₂ (broadcastInDim S1x128 ![1] h₁
              (shapeCast S128 (extractStridedSlice S1x1x128 ![1, 0, 0] g hs) hc))))
          (broadcastInDim S100000x128 ![0, 1] h₂ (broadcastInDim S1x128 ![1] h₁
            (shapeCast S128 (extractStridedSlice S1x1x128 ![1, 0, 0] b hs) hc))))
        (broadcastInDim S100000x128 ![] hb0 (constant (F := Ideal) S_ .f32 0x00000000#32)) (ix2 i j)
      = Cert.Spec.lnrelu (fun j => x (ix2 i j) + y (ix2 i j)) (fun j => g (ix3 (1 : Fin 2) (0 : Fin 3) j))
          (fun j => b (ix3 (1 : Fin 2) (0 : Fin 3) j)) j := by
  subst hr hv hd hm hX
  simp only [maximumf_apply, addf_apply, mulf_apply, subf_apply, cS1_c_hostDivf_apply, cS1_c_hostRsqrt_apply,
    cS1_c_splat_apply, cS1_c_splat_col_apply, cS1_c_rowsum_apply, cS1_c_column_apply, cS1_c_across_apply,
    cS1_c_param_apply]
  rfl

/-- The stretch's result at (i, j) is the specification's function of row i of the two relation outputs and of the
    two parameter slices. -/
theorem stageS1_c_apply (W : Valuation τ sig (Elt Ideal)) (i : Fin 100000) (j : Fin 128) :
    (after cS1_c W (Proc.devRef .tc main_v598) : Vec Ideal S100000x128 .f32) (ix2 i j)
      = Cert.Spec.lnrelu (fun j => HAdd.hAdd (α := EReal) (β := EReal) (γ := EReal) ((W (Proc.devRef .tc main_v418) : Vec Ideal S100000x128 .f32) (ix2 i j)) ((W (Proc.devRef .tc main_v492) : Vec Ideal S100000x128 .f32) (ix2 i j)))
          (fun j => (W (Proc.devRef .tc main_arg18) : Vec Ideal S2x3x128 .f32) (ix3 (1 : Fin 2) (0 : Fin 3) j))
          (fun j => (W (Proc.devRef .tc main_arg19) : Vec Ideal S2x3x128 .f32) (ix3 (1 : Fin 2) (0 : Fin 3) j)) j := by
  simp only [cS1_c]
  after_results_simp
  exact cS1_c_value (W (Proc.devRef .tc main_v418)) (W (Proc.devRef .tc main_v492)) (W (Proc.devRef .tc main_arg18))
    (W (Proc.devRef .tc main_arg19)) _ _ _ _ _ _ _ _ _ _ _ _ _ _ _ rfl rfl rfl rfl rfl i j

end Cert.ReferenceIdeal.Stage

end
-- ==== Proof.RStageE1_1.lean ====
/-
  One relation of the first layer, read at a row and a feature.

  The stretch slices the layer's stacked weights at the relation's position (a 128 × 128 left matrix, a bias row of 128, a
  128 × 128 right matrix), forms the mean message of every destination node from its neighbours' features, and returns
  message · leftᵀ + bias + features · rightᵀ, each product contracting the 128 features. Here the mean message stays an
  unopened array: the result at row `i` and feature `j` is `Cert.Spec.sage` of row `i` of the mean message, row `i` of
  the node features, and the relation's slabs of the stacked weights read transposed (entry `(k, j)` of a factor is
  entry `(j, k)` of the relation's slab of its stack).
-/
import proofs.«159317_j31121333027532_1_alg».proof.Proof.RefChunks
import proofs.«159317_j31121333027532_1_alg».proof.Proof.Spec
import Idealize.ShloMosaic.Lib.Pipeline.Value
import Idealize.ShloMosaic.Lib.ValueIdx
import Idealize.ShloMosaic.PureOps.Ideal.Laws

noncomputable section

namespace Cert.ReferenceIdeal.Stage

open Cert.ReferenceIdeal Cert.ReferenceIdeal.Gen Cert.ReferenceIdeal.Chunks Idealize.ShloMosaic Idealize.ShloMosaic.StableHlo Idealize.ShloMosaic.ValueIdx

/-! ## The layer's weights of one relation, read at an index -/

/-- The relation's slab of a stack of six 128 × 128 matrices, flattened to a matrix: its entry `(a, b)` is the slab's entry `(a, b)` in the stack. -/
theorem slabE1_1_apply (w : FVec Ideal S6x128x128 .f32) (a b : Fin 128) :
    (shapeCast S128x128 (extractStridedSlice S1x128x128 ![1, 0, 0] w slices_S6x128x128_S1x128x128_1_0_0)
      shapeCasts_S1x128x128_S128x128 : FVec Ideal S128x128 .f32) (ix2 a b) = w (ix3 (1 : Fin 6) a b) := by
  refine (shapeCast_apply _ shapeCasts_S1x128x128_S128x128 (ix2 a b) (ix3 (0 : Fin 1) a b) ?_).trans ?_
  · rw [Shape.rowMajor_val_three, Shape.rowMajor_val_two]
    show (0 * 128 + a.val) * 128 + b.val = a.val * 128 + b.val
    omega
  · exact extractStridedSlice_apply ![1, 0, 0] w slices_S6x128x128_S1x128x128_1_0_0 (ix3 (0 : Fin 1) a b) (ix3 (1 : Fin 6) a b)
      (fun c => match c with
        | ⟨0, _⟩ => by show 1 = 1 + 0; rfl
        | ⟨1, _⟩ => by show a.val = 0 + a.val; omega
        | ⟨2, _⟩ => by show b.val = 0 + b.val; omega)

/-- The transposed slab: entry `(k, j)` is the slab's entry `(j, k)` in the stack. -/
theorem slabTE1_1_apply (w : FVec Ideal S6x128x128 .f32) (k j : Fin 128) :
    (transpose S128x128 [1, 0] (shapeCast S128x128 (extractStridedSlice S1x128x128 ![1, 0, 0] w slices_S6x128x128_S1x128x128_1_0_0)
      shapeCasts_S1x128x128_S128x128) transposes_S128x128_S128x128_1_0 : FVec Ideal S128x128 .f32) (ix2 k j) = w (ix3 (1 : Fin 6) j k) := by
  refine (transpose_apply [1, 0] _ transposes_S128x128_S128x128_1_0 (ix2 k j) (ix2 j k) (fun c => match c with
    | ⟨0, _⟩ => rfl
    | ⟨1, _⟩ => rfl)).trans ?_
  exact slabE1_1_apply w j k

/-- The relation's row of a stack of six bias vectors, broadcast along the rows: entry `(i, j)` is the row's entry `j` in the stack. -/
theorem biasRowE1_1_apply (v : FVec Ideal S6x128 .f32) (i : Fin 100000) (j : Fin 128) :
    (broadcastInDim S100000x128 ![0, 1] bcast_S1x128_S100000x128_0_1 (broadcastInDim S1x128 ![1] bcast_S128_S1x128_1
      (shapeCast S128 (extractStridedSlice S1x128 ![1, 0] v slices_S6x128_S1x128_1_0) shapeCasts_S1x128_S128)) : FVec Ideal S100000x128 .f32) (ix2 i j)
      = v (ix2 (1 : Fin 6) j) := by
  refine (broadcastInDim_apply _ bcast_S1x128_S100000x128_0_1 _ (ix2 i j) (ix2 (0 : Fin 1) j) (fun c => match c with
    | ⟨0, _⟩ => by show 0 = if (1 : Nat) = 1 then 0 else i.val; rw [if_pos rfl]
    | ⟨1, _⟩ => by show j.val = if (128 : Nat) = 1 then 0 else j.val; rw [if_neg (by decide)])).trans ?_
  refine (broadcastInDim_apply _ bcast_S128_S1x128_1 _ (ix2 (0 : Fin 1) j) (ix1 j) (fun c => match c with
    | ⟨0, _⟩ => by show j.val = if (128 : Nat) = 1 then 0 else j.val; rw [if_neg (by decide)])).trans ?_
  refine (shapeCast_apply _ shapeCasts_S1x128_S128 (ix1 j) (ix2 (0 : Fin 1) j) ?_).trans ?_
  · rw [Shape.rowMajor_val_two, Shape.rowMajor_val_one]
    show 0 * 128 + j.val = j.val
    omega
  · exact extractStridedSlice_apply ![1, 0] v slices_S6x128_S1x128_1_0 (ix2 (0 : Fin 1) j) (ix2 (1 : Fin 6) j)
      (fun c => match c with
        | ⟨0, _⟩ => by show 1 = 1 + 0; rfl
        | ⟨1, _⟩ => by show j.val = 0 + j.val; omega)

/-! ## A product with a 128 × 128 matrix, read at an index -/

theorem lhsE1_1_0 (i : S100000x128.Idx) (q : dot_S100000x128_S128x128_S100000x128_1_0_0_1_n_n.contr.Idx) :
    (dot_S100000x128_S128x128_S100000x128_1_0_0_1_n_n.lhsIdx i q 0).val = (i 0).val := by
  unfold DotDims.lhsIdx
  rw [dif_neg (show ¬(0 : Fin S100000x128.rank) ∈ dot_S100000x128_S128x128_S100000x128_1_0_0_1_n_n.lhsBatch from List.not_mem_nil), dif_pos (show (0 : Fin S100000x128.rank) ∈ dot_S100000x128_S128x128_S100000x128_1_0_0_1_n_n.lhsNonContracting from List.mem_singleton.mpr rfl)]
  rfl
theorem lhsE1_1_1 (i : S100000x128.Idx) (q : dot_S100000x128_S128x128_S100000x128_1_0_0_1_n_n.contr.Idx) :
    (dot_S100000x128_S128x128_S100000x128_1_0_0_1_n_n.lhsIdx i q 1).val = (q ⟨0, Nat.one_pos⟩).val :=
  dot_S100000x128_S128x128_S100000x128_1_0_0_1_n_n.lhsIdx_val_of_single rfl i q
theorem rhsE1_1_0 (i : S100000x128.Idx) (q : dot_S100000x128_S128x128_S100000x128_1_0_0_1_n_n.contr.Idx) :
    (dot_S100000x128_S128x128_S100000x128_1_0_0_1_n_n.rhsIdx i q 0).val = (q ⟨0, Nat.one_pos⟩).val :=
  dot_S100000x128_S128x128_S100000x128_1_0_0_1_n_n.rhsIdx_val_of_single rfl i q
theorem rhsE1_1_1 (i : S100000x128.Idx) (q : dot_S100000x128_S128x128_S100000x128_1_0_0_1_n_n.contr.Idx) :
    (dot_S100000x128_S128x128_S100000x128_1_0_0_1_n_n.rhsIdx i q 1).val = (i 1).val := by
  unfold DotDims.rhsIdx
  rw [dif_neg (show ¬(1 : Fin S128x128.rank) ∈ dot_S100000x128_S128x128_S100000x128_1_0_0_1_n_n.rhsBatch from List.not_mem_nil), dif_pos (show (1 : Fin S128x128.rank) ∈ dot_S100000x128_S128x128_S100000x128_1_0_0_1_n_n.rhsNonContracting from List.mem_singleton.mpr rfl)]
  rfl

/-- Rows times a matrix, contracting the 128 features: entry `(i, j)` is the sum over `k` of `l (i, k) * r (k, j)`. -/
theorem dotE1_1_apply (l : FVec Ideal S100000x128 .f32) (r : FVec Ideal S128x128 .f32) (i : Fin 100000) (j : Fin 128) :
    Host.dotGeneral (F := Ideal) dot_S100000x128_S128x128_S100000x128_1_0_0_1_n_n none l r (ix2 i j) = ∑ k : Fin 128, l (ix2 i k) * r (ix2 k j) := by
  simp only [Host.dotGeneral]
  rw [Ideal.dotGeneral_apply, ← Equiv.sum_comp (ValueIdx.contrEquiv1 dot_S100000x128_S128x128_S100000x128_1_0_0_1_n_n 128 rfl rfl).symm]
  refine Finset.sum_congr rfl fun k _ => ?_
  have hk := ValueIdx.contrEquiv1_symm_val dot_S100000x128_S128x128_S100000x128_1_0_0_1_n_n 128 rfl rfl k
  have el : dot_S100000x128_S128x128_S100000x128_1_0_0_1_n_n.lhsIdx (ix2 i j) ((ValueIdx.contrEquiv1 dot_S100000x128_S128x128_S100000x128_1_0_0_1_n_n 128 rfl rfl).symm k) = ix2 i k := funext fun a => Fin.ext (by
    match a with
    | ⟨0, _⟩ => exact lhsE1_1_0 _ _
    | ⟨1, _⟩ => exact (lhsE1_1_1 _ _).trans hk)
  have er : dot_S100000x128_S128x128_S100000x128_1_0_0_1_n_n.rhsIdx (ix2 i j) ((ValueIdx.contrEquiv1 dot_S100000x128_S128x128_S100000x128_1_0_0_1_n_n 128 rfl rfl).symm k) = ix2 k j := funext fun a => Fin.ext (by
    match a with
    | ⟨0, _⟩ => exact (rhsE1_1_0 _ _).trans hk
    | ⟨1, _⟩ => exact rhsE1_1_1 _ _)
  rw [el, er]

/-! ## The relation's output from the mean message -/

/-- The relation's output as the program composes it: the mean message times the transposed left slab, plus the bias
    row, plus the node features times the transposed right slab. -/
def relOutE1_1 {F : FTy → Type} [FloatOps F] (msg x : FVec F S100000x128 .f32) (wl wr : FVec F S6x128x128 .f32)
    (bl : FVec F S6x128 .f32) : FVec F S100000x128 .f32 :=
  addf (addf (Host.dotGeneral dot_S100000x128_S128x128_S100000x128_1_0_0_1_n_n none msg (transpose S128x128 [1, 0] (shapeCast S128x128 (extractStridedSlice S1x128x128 ![1, 0, 0] wl slices_S6x128x128_S1x128x128_1_0_0) shapeCasts_S1x128x128_S128x128) transposes_S128x128_S128x128_1_0))
      (broadcastInDim S100000x128 ![0, 1] bcast_S1x128_S100000x128_0_1 (broadcastInDim S1x128 ![1] bcast_S128_S1x128_1 (shapeCast S128 (extractStridedSlice S1x128 ![1, 0] bl slices_S6x128_S1x128_1_0) shapeCasts_S1x128_S128))))
    (Host.dotGeneral dot_S100000x128_S128x128_S100000x128_1_0_0_1_n_n none x (transpose S128x128 [1, 0] (shapeCast S128x128 (extractStridedSlice S1x128x128 ![1, 0, 0] wr slices_S6x128x128_S1x128x128_1_0_0) shapeCasts_S1x128x128_S128x128) transposes_S128x128_S128x128_1_0))

/-- Read at row `i` and feature `j`, it is the relation's law on the two rows. -/
theorem relOutE1_1_apply (msg x : FVec Ideal S100000x128 .f32) (wl wr : FVec Ideal S6x128x128 .f32) (bl : FVec Ideal S6x128 .f32)
    (i : Fin 100000) (j : Fin 128) :
    relOutE1_1 msg x wl wr bl (ix2 i j)
      = Cert.Spec.sage (fun k => msg (ix2 i k)) (fun k => x (ix2 i k)) (fun k j => wl (ix3 (1 : Fin 6) j k))
          (fun k j => wr (ix3 (1 : Fin 6) j k)) (fun j => bl (ix2 (1 : Fin 6) j)) j := by
  unfold relOutE1_1 Cert.Spec.sage
  rw [addf_apply, addf_apply, dotE1_1_apply, dotE1_1_apply, biasRowE1_1_apply]
  refine congrArg₂ (· + ·) (congrArg (· + bl (ix2 (1 : Fin 6) j)) (Finset.sum_congr rfl fun k _ => ?_)) (Finset.sum_congr rfl fun k _ => ?_)
  · exact congrArg (msg (ix2 i k) * ·) (slabTE1_1_apply wl k j)
  · exact congrArg (x (ix2 i k) * ·) (slabTE1_1_apply wr k j)

/-! ## The stretch -/

set_option maxHeartbeats 1000000 in
/-- After the stretch, the output buffer holds the relation's composition of the mean message buffer, the node
    features and the stacked weights the stretch reads. -/
theorem stageE1_1_eq {F : FTy → Type} [FloatOps F] (W : Valuation τ sig (Elt F)) :
    (after (cE1_1 (F := F)) W (Proc.devRef .tc main_v418) : FVec F S100000x128 .f32)
      = relOutE1_1 (after (cE1_1 (F := F)) W (Proc.devRef .tc main_v410)) (W (Proc.devRef .tc main_v274))
          (W (Proc.devRef .tc main_v340)) (W (Proc.devRef .tc main_v344)) (W (Proc.devRef .tc main_v342)) := by
  simp only [cE1_1]
  after_results_simp <;> rfl

/-- The stretch's output at row `i` and feature `j` is the relation's law on row `i` of the mean message and of the
    node features, with the relation's slabs of the stacked weights read transposed. -/
theorem stageE1_1_apply (W : Valuation τ sig (Elt Ideal)) (i : Fin 100000) (j : Fin 128) :
    (after cE1_1 W (Proc.devRef .tc main_v418) : Vec Ideal S100000x128 .f32) (ix2 i j)
      = Cert.Spec.sage (fun k => (after cE1_1 W (Proc.devRef .tc main_v410) : Vec Ideal S100000x128 .f32) (ix2 i k))
          (fun k => (W (Proc.devRef .tc main_v274) : Vec Ideal S100000x128 .f32) (ix2 i k))
          (fun k j => (W (Proc.devRef .tc main_v340) : Vec Ideal S6x128x128 .f32) (ix3 (1 : Fin 6) j k))
          (fun k j => (W (Proc.devRef .tc main_v344) : Vec Ideal S6x128x128 .f32) (ix3 (1 : Fin 6) j k))
          (fun j => (W (Proc.devRef .tc main_v342) : Vec Ideal S6x128 .f32) (ix2 (1 : Fin 6) j)) j :=
  (congrFun (stageE1_1_eq (F := Ideal) W) (ix2 i j)).trans (relOutE1_1_apply _ _ _ _ _ i j)

end Cert.ReferenceIdeal.Stage

end
-- ==== Proof.RStageE1_3.lean ====
/-
  One relation of the first layer, read at a row and a feature.

  The stretch slices the layer's stacked weights at the relation's position (a 128 × 128 left matrix, a bias row of 128, a
  128 × 128 right matrix), forms the mean message of every destination node from its neighbours' features, and returns
  message · leftᵀ + bias + features · rightᵀ, each product contracting the 128 features. Here the mean message stays an
  unopened array: the result at row `i` and feature `j` is `Cert.Spec.sage` of row `i` of the mean message, row `i` of
  the node features, and the relation's slabs of the stacked weights read transposed (entry `(k, j)` of a factor is
  entry `(j, k)` of the relation's slab of its stack).
-/
import proofs.«159317_j31121333027532_1_alg».proof.Proof.RefChunks
import proofs.«159317_j31121333027532_1_alg».proof.Proof.Spec
import Idealize.ShloMosaic.Lib.Pipeline.Value
import Idealize.ShloMosaic.Lib.ValueIdx
import Idealize.ShloMosaic.PureOps.Ideal.Laws

noncomputable section

namespace Cert.ReferenceIdeal.Stage

open Cert.ReferenceIdeal Cert.ReferenceIdeal.Gen Cert.ReferenceIdeal.Chunks Idealize.ShloMosaic Idealize.ShloMosaic.StableHlo Idealize.ShloMosaic.ValueIdx

/-! ## The layer's weights of one relation, read at an index -/

/-- The relation's slab of a stack of six 128 × 128 matrices, flattened to a matrix: its entry `(a, b)` is the slab's entry `(a, b)` in the stack. -/
theorem slabE1_3_apply (w : FVec Ideal S6x128x128 .f32) (a b : Fin 128) :
    (shapeCast S128x128 (extractStridedSlice S1x128x128 ![3, 0, 0] w slices_S6x128x128_S1x128x128_3_0_0)
      shapeCasts_S1x128x128_S128x128 : FVec Ideal S128x128 .f32) (ix2 a b) = w (ix3 (3 : Fin 6) a b) := by
  refine (shapeCast_apply _ shapeCasts_S1x128x128_S128x128 (ix2 a b) (ix3 (0 : Fin 1) a b) ?_).trans ?_
  · rw [Shape.rowMajor_val_three, Shape.rowMajor_val_two]
    show (0 * 128 + a.val) * 128 + b.val = a.val * 128 + b.val
    omega
  · exact extractStridedSlice_apply ![3, 0, 0] w slices_S6x128x128_S1x128x128_3_0_0 (ix3 (0 : Fin 1) a b) (ix3 (3 : Fin 6) a b)
      (fun c => match c with
        | ⟨0, _⟩ => by show 3 = 3 + 0; rfl
        | ⟨1, _⟩ => by show a.val = 0 + a.val; omega
        | ⟨2, _⟩ => by show b.val = 0 + b.val; omega)

/-- The transposed slab: entry `(k, j)` is the slab's entry `(j, k)` in the stack. -/
theorem slabTE1_3_apply (w : FVec Ideal S6x128x128 .f32) (k j : Fin 128) :
    (transpose S128x128 [1, 0] (shapeCast S128x128 (extractStridedSlice S1x128x128 ![3, 0, 0] w slices_S6x128x128_S1x128x128_3_0_0)
      shapeCasts_S1x128x128_S128x128) transposes_S128x128_S128x128_1_0 : FVec Ideal S128x128 .f32) (ix2 k j) = w (ix3 (3 : Fin 6) j k) := by
  refine (transpose_apply [1, 0] _ transposes_S128x128_S128x128_1_0 (ix2 k j) (ix2 j k) (fun c => match c with
    | ⟨0, _⟩ => rfl
    | ⟨1, _⟩ => rfl)).trans ?_
  exact slabE1_3_apply w j k

/-- The relation's row of a stack of six bias vectors, broadcast along the rows: entry `(i, j)` is the row's entry `j` in the stack. -/
theorem biasRowE1_3_apply (v : FVec Ideal S6x128 .f32) (i : Fin 100000) (j : Fin 128) :
    (broadcastInDim S100000x128 ![0, 1] bcast_S1x128_S100000x128_0_1 (broadcastInDim S1x128 ![1] bcast_S128_S1x128_1
      (shapeCast S128 (extractStridedSlice S1x128 ![3, 0] v slices_S6x128_S1x128_3_0) shapeCasts_S1x128_S128)) : FVec Ideal S100000x128 .f32) (ix2 i j)
      = v (ix2 (3 : Fin 6) j) := by
  refine (broadcastInDim_apply _ bcast_S1x128_S100000x128_0_1 _ (ix2 i j) (ix2 (0 : Fin 1) j) (fun c => match c with
    | ⟨0, _⟩ => by show 0 = if (1 : Nat) = 1 then 0 else i.val; rw [if_pos rfl]
    | ⟨1, _⟩ => by show j.val = if (128 : Nat) = 1 then 0 else j.val; rw [if_neg (by decide)])).trans ?_
  refine (broadcastInDim_apply _ bcast_S128_S1x128_1 _ (ix2 (0 : Fin 1) j) (ix1 j) (fun c => match c with
    | ⟨0, _⟩ => by show j.val = if (128 : Nat) = 1 then 0 else j.val; rw [if_neg (by decide)])).trans ?_
  refine (shapeCast_apply _ shapeCasts_S1x128_S128 (ix1 j) (ix2 (0 : Fin 1) j) ?_).trans ?_
  · rw [Shape.rowMajor_val_two, Shape.rowMajor_val_one]
    show 0 * 128 + j.val = j.val
    omega
  · exact extractStridedSlice_apply ![3, 0] v slices_S6x128_S1x128_3_0 (ix2 (0 : Fin 1) j) (ix2 (3 : Fin 6) j)
      (fun c => match c with
        | ⟨0, _⟩ => by show 3 = 3 + 0; rfl
        | ⟨1, _⟩ => by show j.val = 0 + j.val; omega)

/-! ## A product with a 128 × 128 matrix, read at an index -/

theorem lhsE1_3_0 (i : S100000x128.Idx) (q : dot_S100000x128_S128x128_S100000x128_1_0_0_1_n_n.contr.Idx) :
    (dot_S100000x128_S128x128_S100000x128_1_0_0_1_n_n.lhsIdx i q 0).val = (i 0).val := by
  unfold DotDims.lhsIdx
  rw [dif_neg (show ¬(0 : Fin S100000x128.rank) ∈ dot_S100000x128_S128x128_S100000x128_1_0_0_1_n_n.lhsBatch from List.not_mem_nil), dif_pos (show (0 : Fin S100000x128.rank) ∈ dot_S100000x128_S128x128_S100000x128_1_0_0_1_n_n.lhsNonContracting from List.mem_singleton.mpr rfl)]
  rfl
theorem lhsE1_3_1 (i : S100000x128.Idx) (q : dot_S100000x128_S128x128_S100000x128_1_0_0_1_n_n.contr.Idx) :
    (dot_S100000x128_S128x128_S100000x128_1_0_0_1_n_n.lhsIdx i q 1).val = (q ⟨0, Nat.one_pos⟩).val :=
  dot_S100000x128_S128x128_S100000x128_1_0_0_1_n_n.lhsIdx_val_of_single rfl i q
theorem rhsE1_3_0 (i : S100000x128.Idx) (q : dot_S100000x128_S128x128_S100000x128_1_0_0_1_n_n.contr.Idx) :
    (dot_S100000x128_S128x128_S100000x128_1_0_0_1_n_n.rhsIdx i q 0).val = (q ⟨0, Nat.one_pos⟩).val :=
  dot_S100000x128_S128x128_S100000x128_1_0_0_1_n_n.rhsIdx_val_of_single rfl i q
theorem rhsE1_3_1 (i : S100000x128.Idx) (q : dot_S100000x128_S128x128_S100000x128_1_0_0_1_n_n.contr.Idx) :
    (dot_S100000x128_S128x128_S100000x128_1_0_0_1_n_n.rhsIdx i q 1).val = (i 1).val := by
  unfold DotDims.rhsIdx
  rw [dif_neg (show ¬(1 : Fin S128x128.rank) ∈ dot_S100000x128_S128x128_S100000x128_1_0_0_1_n_n.rhsBatch from List.not_mem_nil), dif_pos (show (1 : Fin S128x128.rank) ∈ dot_S100000x128_S128x128_S100000x128_1_0_0_1_n_n.rhsNonContracting from List.mem_singleton.mpr rfl)]
  rfl

/-- Rows times a matrix, contracting the 128 features: entry `(i, j)` is the sum over `k` of `l (i, k) * r (k, j)`. -/
theorem dotE1_3_apply (l : FVec Ideal S100000x128 .f32) (r : FVec Ideal S128x128 .f32) (i : Fin 100000) (j : Fin 128) :
    Host.dotGeneral (F := Ideal) dot_S100000x128_S128x128_S100000x128_1_0_0_1_n_n none l r (ix2 i j) = ∑ k : Fin 128, l (ix2 i k) * r (ix2 k j) := by
  simp only [Host.dotGeneral]
  rw [Ideal.dotGeneral_apply, ← Equiv.sum_comp (ValueIdx.contrEquiv1 dot_S100000x128_S128x128_S100000x128_1_0_0_1_n_n 128 rfl rfl).symm]
  refine Finset.sum_congr rfl fun k _ => ?_
  have hk := ValueIdx.contrEquiv1_symm_val dot_S100000x128_S128x128_S100000x128_1_0_0_1_n_n 128 rfl rfl k
  have el : dot_S100000x128_S128x128_S100000x128_1_0_0_1_n_n.lhsIdx (ix2 i j) ((ValueIdx.contrEquiv1 dot_S100000x128_S128x128_S100000x128_1_0_0_1_n_n 128 rfl rfl).symm k) = ix2 i k := funext fun a => Fin.ext (by
    match a with
    | ⟨0, _⟩ => exact lhsE1_3_0 _ _
    | ⟨1, _⟩ => exact (lhsE1_3_1 _ _).trans hk)
  have er : dot_S100000x128_S128x128_S100000x128_1_0_0_1_n_n.rhsIdx (ix2 i j) ((ValueIdx.contrEquiv1 dot_S100000x128_S128x128_S100000x128_1_0_0_1_n_n 128 rfl rfl).symm k) = ix2 k j := funext fun a => Fin.ext (by
    match a with
    | ⟨0, _⟩ => exact (rhsE1_3_0 _ _).trans hk
    | ⟨1, _⟩ => exact rhsE1_3_1 _ _)
  rw [el, er]

/-! ## The relation's output from the mean message -/

/-- The relation's output as the program composes it: the mean message times the transposed left slab, plus the bias
    row, plus the node features times the transposed right slab. -/
def relOutE1_3 {F : FTy → Type} [FloatOps F] (msg x : FVec F S100000x128 .f32) (wl wr : FVec F S6x128x128 .f32)
    (bl : FVec F S6x128 .f32) : FVec F S100000x128 .f32 :=
  addf (addf (Host.dotGeneral dot_S100000x128_S128x128_S100000x128_1_0_0_1_n_n none msg (transpose S128x128 [1, 0] (shapeCast S128x128 (extractStridedSlice S1x128x128 ![3, 0, 0] wl slices_S6x128x128_S1x128x128_3_0_0) shapeCasts_S1x128x128_S128x128) transposes_S128x128_S128x128_1_0))
      (broadcastInDim S100000x128 ![0, 1] bcast_S1x128_S100000x128_0_1 (broadcastInDim S1x128 ![1] bcast_S128_S1x128_1 (shapeCast S128 (extractStridedSlice S1x128 ![3, 0] bl slices_S6x128_S1x128_3_0) shapeCasts_S1x128_S128))))
    (Host.dotGeneral dot_S100000x128_S128x128_S100000x128_1_0_0_1_n_n none x (transpose S128x128 [1, 0] (shapeCast S128x128 (extractStridedSlice S1x128x128 ![3, 0, 0] wr slices_S6x128x128_S1x128x128_3_0_0) shapeCasts_S1x128x128_S128x128) transposes_S128x128_S128x128_1_0))

/-- Read at row `i` and feature `j`, it is the relation's law on the two rows. -/
theorem relOutE1_3_apply (msg x : FVec Ideal S100000x128 .f32) (wl wr : FVec Ideal S6x128x128 .f32) (bl : FVec Ideal S6x128 .f32)
    (i : Fin 100000) (j : Fin 128) :
    relOutE1_3 msg x wl wr bl (ix2 i j)
      = Cert.Spec.sage (fun k => msg (ix2 i k)) (fun k => x (ix2 i k)) (fun k j => wl (ix3 (3 : Fin 6) j k))
          (fun k j => wr (ix3 (3 : Fin 6) j k)) (fun j => bl (ix2 (3 : Fin 6) j)) j := by
  unfold relOutE1_3 Cert.Spec.sage
  rw [addf_apply, addf_apply, dotE1_3_apply, dotE1_3_apply, biasRowE1_3_apply]
  refine congrArg₂ (· + ·) (congrArg (· + bl (ix2 (3 : Fin 6) j)) (Finset.sum_congr rfl fun k _ => ?_)) (Finset.sum_congr rfl fun k _ => ?_)
  · exact congrArg (msg (ix2 i k) * ·) (slabTE1_3_apply wl k j)
  · exact congrArg (x (ix2 i k) * ·) (slabTE1_3_apply wr k j)

/-! ## The stretch -/

set_option maxHeartbeats 1000000 in
/-- After the stretch, the output buffer holds the relation's composition of the mean message buffer, the node
    features and the stacked weights the stretch reads. -/
theorem stageE1_3_eq {F : FTy → Type} [FloatOps F] (W : Valuation τ sig (Elt F)) :
    (after (cE1_3 (F := F)) W (Proc.devRef .tc main_v492) : FVec F S100000x128 .f32)
      = relOutE1_3 (after (cE1_3 (F := F)) W (Proc.devRef .tc main_v484)) (W (Proc.devRef .tc main_v274))
          (W (Proc.devRef .tc main_v340)) (W (Proc.devRef .tc main_v344)) (W (Proc.devRef .tc main_v342)) := by
  simp only [cE1_3]
  after_results_simp <;> rfl

/-- The stretch's output at row `i` and feature `j` is the relation's law on row `i` of the mean message and of the
    node features, with the relation's slabs of the stacked weights read transposed. -/
theorem stageE1_3_apply (W : Valuation τ sig (Elt Ideal)) (i : Fin 100000) (j : Fin 128) :
    (after cE1_3 W (Proc.devRef .tc main_v492) : Vec Ideal S100000x128 .f32) (ix2 i j)
      = Cert.Spec.sage (fun k => (after cE1_3 W (Proc.devRef .tc main_v484) : Vec Ideal S100000x128 .f32) (ix2 i k))
          (fun k => (W (Proc.devRef .tc main_v274) : Vec Ideal S100000x128 .f32) (ix2 i k))
          (fun k j => (W (Proc.devRef .tc main_v340) : Vec Ideal S6x128x128 .f32) (ix3 (3 : Fin 6) j k))
          (fun k j => (W (Proc.devRef .tc main_v344) : Vec Ideal S6x128x128 .f32) (ix3 (3 : Fin 6) j k))
          (fun j => (W (Proc.devRef .tc main_v342) : Vec Ideal S6x128 .f32) (ix2 (3 : Fin 6) j)) j :=
  (congrFun (stageE1_3_eq (F := Ideal) W) (ix2 i j)).trans (relOutE1_3_apply _ _ _ _ _ i j)

end Cert.ReferenceIdeal.Stage

end
-- ==== Proof.RSlices.lean ====
/- The reference's per-layer weight arrays, read at an index: the stretch that cuts layer `l` out of the stacked
   arguments and drops the layer axis gives, at `(e, j, k)`, the argument at `(l, e, j, k)`. -/
import proofs.«159317_j31121333027532_1_alg».proof.Proof.RefChunks
import Idealize.ShloMosaic.Lib.ValueLayout

noncomputable section

namespace Cert.ReferenceIdeal.Stage

open Cert.ReferenceIdeal Cert.ReferenceIdeal.Chunks Idealize.ShloMosaic Idealize.ShloMosaic.StableHlo Idealize.ShloMosaic.ValueIdx

/-! ## One slab of the leading axis, with that axis dropped, read at an index -/

section Slab

variable {α : Type}

/-- A rank-4 array cut to the one slab `l` of its leading axis and reshaped to drop that axis reads, at `(e, j, k)`,
the source at `(l, e, j, k)`. -/
theorem leadSlab4_apply {n m a b : ℕ} (o : ℕ) (X : (⟨4, ![n, m, a, b]⟩ : Shape).Idx → α)
    (hs : (⟨4, ![n, m, a, b]⟩ : Shape).Slices ![o, 0, 0, 0] ⟨4, ![1, m, a, b]⟩)
    (hc : (⟨4, ![1, m, a, b]⟩ : Shape).ShapeCasts ⟨3, ![m, a, b]⟩)
    (l : Fin n) (hl : l.val = o) (e : Fin m) (j : Fin a) (k : Fin b) :
    shapeCast ⟨3, ![m, a, b]⟩ (extractStridedSlice ⟨4, ![1, m, a, b]⟩ ![o, 0, 0, 0] X hs) hc (ix3 e j k)
      = X (ix4 l e j k) := by
  refine (shapeCast_1abc_abc_apply _ hc e j k).trans ?_
  exact extractStridedSlice_apply _ _ _ _ _ (fun ax => by
    match ax with
    | ⟨0, _⟩ => exact hl.trans (Nat.add_zero _).symm
    | ⟨1, _⟩ => exact (Nat.zero_add _).symm
    | ⟨2, _⟩ => exact (Nat.zero_add _).symm
    | ⟨3, _⟩ => exact (Nat.zero_add _).symm)

/-- A rank-3 array cut to the one slab `l` of its leading axis and reshaped to drop that axis reads, at `(e, j)`,
the source at `(l, e, j)`. -/
theorem leadSlab3_apply {n m a : ℕ} (o : ℕ) (X : (⟨3, ![n, m, a]⟩ : Shape).Idx → α)
    (hs : (⟨3, ![n, m, a]⟩ : Shape).Slices ![o, 0, 0] ⟨3, ![1, m, a]⟩)
    (hc : (⟨3, ![1, m, a]⟩ : Shape).ShapeCasts ⟨2, ![m, a]⟩)
    (l : Fin n) (hl : l.val = o) (e : Fin m) (j : Fin a) :
    shapeCast ⟨2, ![m, a]⟩ (extractStridedSlice ⟨3, ![1, m, a]⟩ ![o, 0, 0] X hs) hc (ix2 e j)
      = X (ix3 l e j) := by
  refine (shapeCast_1ab_ab_apply _ hc e j).trans ?_
  exact extractStridedSlice_apply _ _ _ _ _ (fun ax => by
    match ax with
    | ⟨0, _⟩ => exact hl.trans (Nat.add_zero _).symm
    | ⟨1, _⟩ => exact (Nat.zero_add _).symm
    | ⟨2, _⟩ => exact (Nat.zero_add _).symm)

end Slab

/-! ## The per-layer weights: layer `l` of the stacked arguments, read at an index -/

/-- After the stretch `cL0`, `main_v16` at `(e, j, k)` is the argument `main_arg15` at `(0, e, j, k)`. -/
theorem sliceWl0 (W : Valuation τ sig (Elt Ideal)) (e : Fin 6) (j k : Fin 128) :
    (after cL0 W (Proc.devRef .tc main_v16) : Vec Ideal S6x128x128 .f32) (ix3 e j k)
      = (W (Proc.devRef .tc main_arg15) : Vec Ideal S2x6x128x128 .f32) (ix4 (0 : Fin 2) e j k) := by
  simp only [cL0]
  after_results_simp
  exact leadSlab4_apply 0 _ _ _ (0 : Fin 2) rfl e j k

/-- After the stretch `cL0`, `main_v18` at `(e, j)` is the argument `main_arg16` at `(0, e, j)`. -/
theorem sliceBl0 (W : Valuation τ sig (Elt Ideal)) (e : Fin 6) (j : Fin 128) :
    (after cL0 W (Proc.devRef .tc main_v18) : Vec Ideal S6x128 .f32) (ix2 e j)
      = (W (Proc.devRef .tc main_arg16) : Vec Ideal S2x6x128 .f32) (ix3 (0 : Fin 2) e j) := by
  simp only [cL0]
  after_results_simp
  exact leadSlab3_apply 0 _ _ _ (0 : Fin 2) rfl e j

/-- After the stretch `cL0`, `main_v20` at `(e, j, k)` is the argument `main_arg17` at `(0, e, j, k)`. -/
theorem sliceWr0 (W : Valuation τ sig (Elt Ideal)) (e : Fin 6) (j k : Fin 128) :
    (after cL0 W (Proc.devRef .tc main_v20) : Vec Ideal S6x128x128 .f32) (ix3 e j k)
      = (W (Proc.devRef .tc main_arg17) : Vec Ideal S2x6x128x128 .f32) (ix4 (0 : Fin 2) e j k) := by
  simp only [cL0]
  after_results_simp
  exact leadSlab4_apply 0 _ _ _ (0 : Fin 2) rfl e j k

/-- After the stretch `cL1`, `main_v340` at `(e, j, k)` is the argument `main_arg15` at `(1, e, j, k)`. -/
theorem sliceWl1 (W : Valuation τ sig (Elt Ideal)) (e : Fin 6) (j k : Fin 128) :
    (after cL1 W (Proc.devRef .tc main_v340) : Vec Ideal S6x128x128 .f32) (ix3 e j k)
      = (W (Proc.devRef .tc main_arg15) : Vec Ideal S2x6x128x128 .f32) (ix4 (1 : Fin 2) e j k) := by
  simp only [cL1]
  after_results_simp
  exact leadSlab4_apply 1 _ _ _ (1 : Fin 2) rfl e j k

/-- After the stretch `cL1`, `main_v342` at `(e, j)` is the argument `main_arg16` at `(1, e, j)`. -/
theorem sliceBl1 (W : Valuation τ sig (Elt Ideal)) (e : Fin 6) (j : Fin 128) :
    (after cL1 W (Proc.devRef .tc main_v342) : Vec Ideal S6x128 .f32) (ix2 e j)
      = (W (Proc.devRef .tc main_arg16) : Vec Ideal S2x6x128 .f32) (ix3 (1 : Fin 2) e j) := by
  simp only [cL1]
  after_results_simp
  exact leadSlab3_apply 1 _ _ _ (1 : Fin 2) rfl e j

/-- After the stretch `cL1`, `main_v344` at `(e, j, k)` is the argument `main_arg17` at `(1, e, j, k)`. -/
theorem sliceWr1 (W : Valuation τ sig (Elt Ideal)) (e : Fin 6) (j k : Fin 128) :
    (after cL1 W (Proc.devRef .tc main_v344) : Vec Ideal S6x128x128 .f32) (ix3 e j k)
      = (W (Proc.devRef .tc main_arg17) : Vec Ideal S2x6x128x128 .f32) (ix4 (1 : Fin 2) e j k) := by
  simp only [cL1]
  after_results_simp
  exact leadSlab4_apply 1 _ _ _ (1 : Fin 2) rfl e j k

end Cert.ReferenceIdeal.Stage

end
-- ==== Proof.RArgs0.lean ====
/- No stretch of the reference writes an argument: after every stretch each argument holds what it held at the start.
   One lemma per stretch and argument, each from the one before; here the arguments 0 … 4. -/
import proofs.«159317_j31121333027532_1_alg».proof.Proof.RefChunks

noncomputable section

namespace Cert.ReferenceIdeal.Stage

open Cert.ReferenceIdeal Cert.ReferenceIdeal.Chunks Idealize.ShloMosaic Idealize.ShloMosaic.StableHlo

variable {F : FTy → Type} [FloatOps F] (V : Valuation τ sig (Elt F))

/-! `main_arg0` -/
theorem argK_1_main_arg0 : R1 V (Proc.devRef .tc main_arg0) = V (Proc.devRef .tc main_arg0) := R1_keep V main_arg0 (by decide)
theorem argK_2_main_arg0 : R2 V (Proc.devRef .tc main_arg0) = V (Proc.devRef .tc main_arg0) := (R2_keep V main_arg0 (by decide)).trans (argK_1_main_arg0 V)
theorem argK_3_main_arg0 : R3 V (Proc.devRef .tc main_arg0) = V (Proc.devRef .tc main_arg0) := (R3_keep V main_arg0 (by decide)).trans (argK_2_main_arg0 V)
theorem argK_4_main_arg0 : R4 V (Proc.devRef .tc main_arg0) = V (Proc.devRef .tc main_arg0) := (R4_keep V main_arg0 (by decide)).trans (argK_3_main_arg0 V)
theorem argK_5_main_arg0 : R5 V (Proc.devRef .tc main_arg0) = V (Proc.devRef .tc main_arg0) := (R5_keep V main_arg0 (by decide)).trans (argK_4_main_arg0 V)
theorem argK_6_main_arg0 : R6 V (Proc.devRef .tc main_arg0) = V (Proc.devRef .tc main_arg0) := (R6_keep V main_arg0 (by decide)).trans (argK_5_main_arg0 V)
theorem argK_7_main_arg0 : R7 V (Proc.devRef .tc main_arg0) = V (Proc.devRef .tc main_arg0) := (R7_keep V main_arg0 (by decide)).trans (argK_6_main_arg0 V)
theorem argK_8_main_arg0 : R8 V (Proc.devRef .tc main_arg0) = V (Proc.devRef .tc main_arg0) := (R8_keep V main_arg0 (by decide)).trans (argK_7_main_arg0 V)
theorem argK_9_main_arg0 : R9 V (Proc.devRef .tc main_arg0) = V (Proc.devRef .tc main_arg0) := (R9_keep V main_arg0 (by decide)).trans (argK_8_main_arg0 V)
theorem argK_10_main_arg0 : R10 V (Proc.devRef .tc main_arg0) = V (Proc.devRef .tc main_arg0) := (R10_keep V main_arg0 (by decide)).trans (argK_9_main_arg0 V)
theorem argK_11_main_arg0 : R11 V (Proc.devRef .tc main_arg0) = V (Proc.devRef .tc main_arg0) := (R11_keep V main_arg0 (by decide)).trans (argK_10_main_arg0 V)
theorem argK_12_main_arg0 : R12 V (Proc.devRef .tc main_arg0) = V (Proc.devRef .tc main_arg0) := (R12_keep V main_arg0 (by decide)).trans (argK_11_main_arg0 V)
theorem argK_13_main_arg0 : R13 V (Proc.devRef .tc main_arg0) = V (Proc.devRef .tc main_arg0) := (R13_keep V main_arg0 (by decide)).trans (argK_12_main_arg0 V)
theorem argK_14_main_arg0 : R14 V (Proc.devRef .tc main_arg0) = V (Proc.devRef .tc main_arg0) := (R14_keep V main_arg0 (by decide)).trans (argK_13_main_arg0 V)
theorem argK_15_main_arg0 : R15 V (Proc.devRef .tc main_arg0) = V (Proc.devRef .tc main_arg0) := (R15_keep V main_arg0 (by decide)).trans (argK_14_main_arg0 V)
theorem argK_16_main_arg0 : R16 V (Proc.devRef .tc main_arg0) = V (Proc.devRef .tc main_arg0) := (R16_keep V main_arg0 (by decide)).trans (argK_15_main_arg0 V)
theorem argK_17_main_arg0 : R17 V (Proc.devRef .tc main_arg0) = V (Proc.devRef .tc main_arg0) := (R17_keep V main_arg0 (by decide)).trans (argK_16_main_arg0 V)
theorem argK_18_main_arg0 : R18 V (Proc.devRef .tc main_arg0) = V (Proc.devRef .tc main_arg0) := (R18_keep V main_arg0 (by decide)).trans (argK_17_main_arg0 V)
theorem argK_19_main_arg0 : R19 V (Proc.devRef .tc main_arg0) = V (Proc.devRef .tc main_arg0) := (R19_keep V main_arg0 (by decide)).trans (argK_18_main_arg0 V)
theorem argK_20_main_arg0 : R20 V (Proc.devRef .tc main_arg0) = V (Proc.devRef .tc main_arg0) := (R20_keep V main_arg0 (by decide)).trans (argK_19_main_arg0 V)
theorem argK_21_main_arg0 : R21 V (Proc.devRef .tc main_arg0) = V (Proc.devRef .tc main_arg0) := (R21_keep V main_arg0 (by decide)).trans (argK_20_main_arg0 V)

/-! `main_arg1` -/
theorem argK_1_main_arg1 : R1 V (Proc.devRef .tc main_arg1) = V (Proc.devRef .tc main_arg1) := R1_keep V main_arg1 (by decide)
theorem argK_2_main_arg1 : R2 V (Proc.devRef .tc main_arg1) = V (Proc.devRef .tc main_arg1) := (R2_keep V main_arg1 (by decide)).trans (argK_1_main_arg1 V)
theorem argK_3_main_arg1 : R3 V (Proc.devRef .tc main_arg1) = V (Proc.devRef .tc main_arg1) := (R3_keep V main_arg1 (by decide)).trans (argK_2_main_arg1 V)
theorem argK_4_main_arg1 : R4 V (Proc.devRef .tc main_arg1) = V (Proc.devRef .tc main_arg1) := (R4_keep V main_arg1 (by decide)).trans (argK_3_main_arg1 V)
theorem argK_5_main_arg1 : R5 V (Proc.devRef .tc main_arg1) = V (Proc.devRef .tc main_arg1) := (R5_keep V main_arg1 (by decide)).trans (argK_4_main_arg1 V)
theorem argK_6_main_arg1 : R6 V (Proc.devRef .tc main_arg1) = V (Proc.devRef .tc main_arg1) := (R6_keep V main_arg1 (by decide)).trans (argK_5_main_arg1 V)
theorem argK_7_main_arg1 : R7 V (Proc.devRef .tc main_arg1) = V (Proc.devRef .tc main_arg1) := (R7_keep V main_arg1 (by decide)).trans (argK_6_main_arg1 V)
theorem argK_8_main_arg1 : R8 V (Proc.devRef .tc main_arg1) = V (Proc.devRef .tc main_arg1) := (R8_keep V main_arg1 (by decide)).trans (argK_7_main_arg1 V)
theorem argK_9_main_arg1 : R9 V (Proc.devRef .tc main_arg1) = V (Proc.devRef .tc main_arg1) := (R9_keep V main_arg1 (by decide)).trans (argK_8_main_arg1 V)
theorem argK_10_main_arg1 : R10 V (Proc.devRef .tc main_arg1) = V (Proc.devRef .tc main_arg1) := (R10_keep V main_arg1 (by decide)).trans (argK_9_main_arg1 V)
theorem argK_11_main_arg1 : R11 V (Proc.devRef .tc main_arg1) = V (Proc.devRef .tc main_arg1) := (R11_keep V main_arg1 (by decide)).trans (argK_10_main_arg1 V)
theorem argK_12_main_arg1 : R12 V (Proc.devRef .tc main_arg1) = V (Proc.devRef .tc main_arg1) := (R12_keep V main_arg1 (by decide)).trans (argK_11_main_arg1 V)
theorem argK_13_main_arg1 : R13 V (Proc.devRef .tc main_arg1) = V (Proc.devRef .tc main_arg1) := (R13_keep V main_arg1 (by decide)).trans (argK_12_main_arg1 V)
theorem argK_14_main_arg1 : R14 V (Proc.devRef .tc main_arg1) = V (Proc.devRef .tc main_arg1) := (R14_keep V main_arg1 (by decide)).trans (argK_13_main_arg1 V)
theorem argK_15_main_arg1 : R15 V (Proc.devRef .tc main_arg1) = V (Proc.devRef .tc main_arg1) := (R15_keep V main_arg1 (by decide)).trans (argK_14_main_arg1 V)
theorem argK_16_main_arg1 : R16 V (Proc.devRef .tc main_arg1) = V (Proc.devRef .tc main_arg1) := (R16_keep V main_arg1 (by decide)).trans (argK_15_main_arg1 V)
theorem argK_17_main_arg1 : R17 V (Proc.devRef .tc main_arg1) = V (Proc.devRef .tc main_arg1) := (R17_keep V main_arg1 (by decide)).trans (argK_16_main_arg1 V)
theorem argK_18_main_arg1 : R18 V (Proc.devRef .tc main_arg1) = V (Proc.devRef .tc main_arg1) := (R18_keep V main_arg1 (by decide)).trans (argK_17_main_arg1 V)
theorem argK_19_main_arg1 : R19 V (Proc.devRef .tc main_arg1) = V (Proc.devRef .tc main_arg1) := (R19_keep V main_arg1 (by decide)).trans (argK_18_main_arg1 V)
theorem argK_20_main_arg1 : R20 V (Proc.devRef .tc main_arg1) = V (Proc.devRef .tc main_arg1) := (R20_keep V main_arg1 (by decide)).trans (argK_19_main_arg1 V)
theorem argK_21_main_arg1 : R21 V (Proc.devRef .tc main_arg1) = V (Proc.devRef .tc main_arg1) := (R21_keep V main_arg1 (by decide)).trans (argK_20_main_arg1 V)

/-! `main_arg2` -/
theorem argK_1_main_arg2 : R1 V (Proc.devRef .tc main_arg2) = V (Proc.devRef .tc main_arg2) := R1_keep V main_arg2 (by decide)
theorem argK_2_main_arg2 : R2 V (Proc.devRef .tc main_arg2) = V (Proc.devRef .tc main_arg2) := (R2_keep V main_arg2 (by decide)).trans (argK_1_main_arg2 V)
theorem argK_3_main_arg2 : R3 V (Proc.devRef .tc main_arg2) = V (Proc.devRef .tc main_arg2) := (R3_keep V main_arg2 (by decide)).trans (argK_2_main_arg2 V)
theorem argK_4_main_arg2 : R4 V (Proc.devRef .tc main_arg2) = V (Proc.devRef .tc main_arg2) := (R4_keep V main_arg2 (by decide)).trans (argK_3_main_arg2 V)
theorem argK_5_main_arg2 : R5 V (Proc.devRef .tc main_arg2) = V (Proc.devRef .tc main_arg2) := (R5_keep V main_arg2 (by decide)).trans (argK_4_main_arg2 V)
theorem argK_6_main_arg2 : R6 V (Proc.devRef .tc main_arg2) = V (Proc.devRef .tc main_arg2) := (R6_keep V main_arg2 (by decide)).trans (argK_5_main_arg2 V)
theorem argK_7_main_arg2 : R7 V (Proc.devRef .tc main_arg2) = V (Proc.devRef .tc main_arg2) := (R7_keep V main_arg2 (by decide)).trans (argK_6_main_arg2 V)
theorem argK_8_main_arg2 : R8 V (Proc.devRef .tc main_arg2) = V (Proc.devRef .tc main_arg2) := (R8_keep V main_arg2 (by decide)).trans (argK_7_main_arg2 V)
theorem argK_9_main_arg2 : R9 V (Proc.devRef .tc main_arg2) = V (Proc.devRef .tc main_arg2) := (R9_keep V main_arg2 (by decide)).trans (argK_8_main_arg2 V)
theorem argK_10_main_arg2 : R10 V (Proc.devRef .tc main_arg2) = V (Proc.devRef .tc main_arg2) := (R10_keep V main_arg2 (by decide)).trans (argK_9_main_arg2 V)
theorem argK_11_main_arg2 : R11 V (Proc.devRef .tc main_arg2) = V (Proc.devRef .tc main_arg2) := (R11_keep V main_arg2 (by decide)).trans (argK_10_main_arg2 V)
theorem argK_12_main_arg2 : R12 V (Proc.devRef .tc main_arg2) = V (Proc.devRef .tc main_arg2) := (R12_keep V main_arg2 (by decide)).trans (argK_11_main_arg2 V)
theorem argK_13_main_arg2 : R13 V (Proc.devRef .tc main_arg2) = V (Proc.devRef .tc main_arg2) := (R13_keep V main_arg2 (by decide)).trans (argK_12_main_arg2 V)
theorem argK_14_main_arg2 : R14 V (Proc.devRef .tc main_arg2) = V (Proc.devRef .tc main_arg2) := (R14_keep V main_arg2 (by decide)).trans (argK_13_main_arg2 V)
theorem argK_15_main_arg2 : R15 V (Proc.devRef .tc main_arg2) = V (Proc.devRef .tc main_arg2) := (R15_keep V main_arg2 (by decide)).trans (argK_14_main_arg2 V)
theorem argK_16_main_arg2 : R16 V (Proc.devRef .tc main_arg2) = V (Proc.devRef .tc main_arg2) := (R16_keep V main_arg2 (by decide)).trans (argK_15_main_arg2 V)
theorem argK_17_main_arg2 : R17 V (Proc.devRef .tc main_arg2) = V (Proc.devRef .tc main_arg2) := (R17_keep V main_arg2 (by decide)).trans (argK_16_main_arg2 V)
theorem argK_18_main_arg2 : R18 V (Proc.devRef .tc main_arg2) = V (Proc.devRef .tc main_arg2) := (R18_keep V main_arg2 (by decide)).trans (argK_17_main_arg2 V)
theorem argK_19_main_arg2 : R19 V (Proc.devRef .tc main_arg2) = V (Proc.devRef .tc main_arg2) := (R19_keep V main_arg2 (by decide)).trans (argK_18_main_arg2 V)
theorem argK_20_main_arg2 : R20 V (Proc.devRef .tc main_arg2) = V (Proc.devRef .tc main_arg2) := (R20_keep V main_arg2 (by decide)).trans (argK_19_main_arg2 V)
theorem argK_21_main_arg2 : R21 V (Proc.devRef .tc main_arg2) = V (Proc.devRef .tc main_arg2) := (R21_keep V main_arg2 (by decide)).trans (argK_20_main_arg2 V)

/-! `main_arg3` -/
theorem argK_1_main_arg3 : R1 V (Proc.devRef .tc main_arg3) = V (Proc.devRef .tc main_arg3) := R1_keep V main_arg3 (by decide)
theorem argK_2_main_arg3 : R2 V (Proc.devRef .tc main_arg3) = V (Proc.devRef .tc main_arg3) := (R2_keep V main_arg3 (by decide)).trans (argK_1_main_arg3 V)
theorem argK_3_main_arg3 : R3 V (Proc.devRef .tc main_arg3) = V (Proc.devRef .tc main_arg3) := (R3_keep V main_arg3 (by decide)).trans (argK_2_main_arg3 V)
theorem argK_4_main_arg3 : R4 V (Proc.devRef .tc main_arg3) = V (Proc.devRef .tc main_arg3) := (R4_keep V main_arg3 (by decide)).trans (argK_3_main_arg3 V)
theorem argK_5_main_arg3 : R5 V (Proc.devRef .tc main_arg3) = V (Proc.devRef .tc main_arg3) := (R5_keep V main_arg3 (by decide)).trans (argK_4_main_arg3 V)
theorem argK_6_main_arg3 : R6 V (Proc.devRef .tc main_arg3) = V (Proc.devRef .tc main_arg3) := (R6_keep V main_arg3 (by decide)).trans (argK_5_main_arg3 V)
theorem argK_7_main_arg3 : R7 V (Proc.devRef .tc main_arg3) = V (Proc.devRef .tc main_arg3) := (R7_keep V main_arg3 (by decide)).trans (argK_6_main_arg3 V)
theorem argK_8_main_arg3 : R8 V (Proc.devRef .tc main_arg3) = V (Proc.devRef .tc main_arg3) := (R8_keep V main_arg3 (by decide)).trans (argK_7_main_arg3 V)
theorem argK_9_main_arg3 : R9 V (Proc.devRef .tc main_arg3) = V (Proc.devRef .tc main_arg3) := (R9_keep V main_arg3 (by decide)).trans (argK_8_main_arg3 V)
theorem argK_10_main_arg3 : R10 V (Proc.devRef .tc main_arg3) = V (Proc.devRef .tc main_arg3) := (R10_keep V main_arg3 (by decide)).trans (argK_9_main_arg3 V)
theorem argK_11_main_arg3 : R11 V (Proc.devRef .tc main_arg3) = V (Proc.devRef .tc main_arg3) := (R11_keep V main_arg3 (by decide)).trans (argK_10_main_arg3 V)
theorem argK_12_main_arg3 : R12 V (Proc.devRef .tc main_arg3) = V (Proc.devRef .tc main_arg3) := (R12_keep V main_arg3 (by decide)).trans (argK_11_main_arg3 V)
theorem argK_13_main_arg3 : R13 V (Proc.devRef .tc main_arg3) = V (Proc.devRef .tc main_arg3) := (R13_keep V main_arg3 (by decide)).trans (argK_12_main_arg3 V)
theorem argK_14_main_arg3 : R14 V (Proc.devRef .tc main_arg3) = V (Proc.devRef .tc main_arg3) := (R14_keep V main_arg3 (by decide)).trans (argK_13_main_arg3 V)
theorem argK_15_main_arg3 : R15 V (Proc.devRef .tc main_arg3) = V (Proc.devRef .tc main_arg3) := (R15_keep V main_arg3 (by decide)).trans (argK_14_main_arg3 V)
theorem argK_16_main_arg3 : R16 V (Proc.devRef .tc main_arg3) = V (Proc.devRef .tc main_arg3) := (R16_keep V main_arg3 (by decide)).trans (argK_15_main_arg3 V)
theorem argK_17_main_arg3 : R17 V (Proc.devRef .tc main_arg3) = V (Proc.devRef .tc main_arg3) := (R17_keep V main_arg3 (by decide)).trans (argK_16_main_arg3 V)
theorem argK_18_main_arg3 : R18 V (Proc.devRef .tc main_arg3) = V (Proc.devRef .tc main_arg3) := (R18_keep V main_arg3 (by decide)).trans (argK_17_main_arg3 V)
theorem argK_19_main_arg3 : R19 V (Proc.devRef .tc main_arg3) = V (Proc.devRef .tc main_arg3) := (R19_keep V main_arg3 (by decide)).trans (argK_18_main_arg3 V)
theorem argK_20_main_arg3 : R20 V (Proc.devRef .tc main_arg3) = V (Proc.devRef .tc main_arg3) := (R20_keep V main_arg3 (by decide)).trans (argK_19_main_arg3 V)
theorem argK_21_main_arg3 : R21 V (Proc.devRef .tc main_arg3) = V (Proc.devRef .tc main_arg3) := (R21_keep V main_arg3 (by decide)).trans (argK_20_main_arg3 V)

/-! `main_arg4` -/
theorem argK_1_main_arg4 : R1 V (Proc.devRef .tc main_arg4) = V (Proc.devRef .tc main_arg4) := R1_keep V main_arg4 (by decide)
theorem argK_2_main_arg4 : R2 V (Proc.devRef .tc main_arg4) = V (Proc.devRef .tc main_arg4) := (R2_keep V main_arg4 (by decide)).trans (argK_1_main_arg4 V)
theorem argK_3_main_arg4 : R3 V (Proc.devRef .tc main_arg4) = V (Proc.devRef .tc main_arg4) := (R3_keep V main_arg4 (by decide)).trans (argK_2_main_arg4 V)
theorem argK_4_main_arg4 : R4 V (Proc.devRef .tc main_arg4) = V (Proc.devRef .tc main_arg4) := (R4_keep V main_arg4 (by decide)).trans (argK_3_main_arg4 V)
theorem argK_5_main_arg4 : R5 V (Proc.devRef .tc main_arg4) = V (Proc.devRef .tc main_arg4) := (R5_keep V main_arg4 (by decide)).trans (argK_4_main_arg4 V)
theorem argK_6_main_arg4 : R6 V (Proc.devRef .tc main_arg4) = V (Proc.devRef .tc main_arg4) := (R6_keep V main_arg4 (by decide)).trans (argK_5_main_arg4 V)
theorem argK_7_main_arg4 : R7 V (Proc.devRef .tc main_arg4) = V (Proc.devRef .tc main_arg4) := (R7_keep V main_arg4 (by decide)).trans (argK_6_main_arg4 V)
theorem argK_8_main_arg4 : R8 V (Proc.devRef .tc main_arg4) = V (Proc.devRef .tc main_arg4) := (R8_keep V main_arg4 (by decide)).trans (argK_7_main_arg4 V)
theorem argK_9_main_arg4 : R9 V (Proc.devRef .tc main_arg4) = V (Proc.devRef .tc main_arg4) := (R9_keep V main_arg4 (by decide)).trans (argK_8_main_arg4 V)
theorem argK_10_main_arg4 : R10 V (Proc.devRef .tc main_arg4) = V (Proc.devRef .tc main_arg4) := (R10_keep V main_arg4 (by decide)).trans (argK_9_main_arg4 V)
theorem argK_11_main_arg4 : R11 V (Proc.devRef .tc main_arg4) = V (Proc.devRef .tc main_arg4) := (R11_keep V main_arg4 (by decide)).trans (argK_10_main_arg4 V)
theorem argK_12_main_arg4 : R12 V (Proc.devRef .tc main_arg4) = V (Proc.devRef .tc main_arg4) := (R12_keep V main_arg4 (by decide)).trans (argK_11_main_arg4 V)
theorem argK_13_main_arg4 : R13 V (Proc.devRef .tc main_arg4) = V (Proc.devRef .tc main_arg4) := (R13_keep V main_arg4 (by decide)).trans (argK_12_main_arg4 V)
theorem argK_14_main_arg4 : R14 V (Proc.devRef .tc main_arg4) = V (Proc.devRef .tc main_arg4) := (R14_keep V main_arg4 (by decide)).trans (argK_13_main_arg4 V)
theorem argK_15_main_arg4 : R15 V (Proc.devRef .tc main_arg4) = V (Proc.devRef .tc main_arg4) := (R15_keep V main_arg4 (by decide)).trans (argK_14_main_arg4 V)
theorem argK_16_main_arg4 : R16 V (Proc.devRef .tc main_arg4) = V (Proc.devRef .tc main_arg4) := (R16_keep V main_arg4 (by decide)).trans (argK_15_main_arg4 V)
theorem argK_17_main_arg4 : R17 V (Proc.devRef .tc main_arg4) = V (Proc.devRef .tc main_arg4) := (R17_keep V main_arg4 (by decide)).trans (argK_16_main_arg4 V)
theorem argK_18_main_arg4 : R18 V (Proc.devRef .tc main_arg4) = V (Proc.devRef .tc main_arg4) := (R18_keep V main_arg4 (by decide)).trans (argK_17_main_arg4 V)
theorem argK_19_main_arg4 : R19 V (Proc.devRef .tc main_arg4) = V (Proc.devRef .tc main_arg4) := (R19_keep V main_arg4 (by decide)).trans (argK_18_main_arg4 V)
theorem argK_20_main_arg4 : R20 V (Proc.devRef .tc main_arg4) = V (Proc.devRef .tc main_arg4) := (R20_keep V main_arg4 (by decide)).trans (argK_19_main_arg4 V)
theorem argK_21_main_arg4 : R21 V (Proc.devRef .tc main_arg4) = V (Proc.devRef .tc main_arg4) := (R21_keep V main_arg4 (by decide)).trans (argK_20_main_arg4 V)

end Cert.ReferenceIdeal.Stage

end
-- ==== Proof.RArgs1.lean ====
/- No stretch of the reference writes an argument: after every stretch each argument holds what it held at the start.
   One lemma per stretch and argument, each from the one before; here the arguments 5 … 9. -/
import proofs.«159317_j31121333027532_1_alg».proof.Proof.RefChunks

noncomputable section

namespace Cert.ReferenceIdeal.Stage

open Cert.ReferenceIdeal Cert.ReferenceIdeal.Chunks Idealize.ShloMosaic Idealize.ShloMosaic.StableHlo

variable {F : FTy → Type} [FloatOps F] (V : Valuation τ sig (Elt F))

/-! `main_arg5` -/
theorem argK_1_main_arg5 : R1 V (Proc.devRef .tc main_arg5) = V (Proc.devRef .tc main_arg5) := R1_keep V main_arg5 (by decide)
theorem argK_2_main_arg5 : R2 V (Proc.devRef .tc main_arg5) = V (Proc.devRef .tc main_arg5) := (R2_keep V main_arg5 (by decide)).trans (argK_1_main_arg5 V)
theorem argK_3_main_arg5 : R3 V (Proc.devRef .tc main_arg5) = V (Proc.devRef .tc main_arg5) := (R3_keep V main_arg5 (by decide)).trans (argK_2_main_arg5 V)
theorem argK_4_main_arg5 : R4 V (Proc.devRef .tc main_arg5) = V (Proc.devRef .tc main_arg5) := (R4_keep V main_arg5 (by decide)).trans (argK_3_main_arg5 V)
theorem argK_5_main_arg5 : R5 V (Proc.devRef .tc main_arg5) = V (Proc.devRef .tc main_arg5) := (R5_keep V main_arg5 (by decide)).trans (argK_4_main_arg5 V)
theorem argK_6_main_arg5 : R6 V (Proc.devRef .tc main_arg5) = V (Proc.devRef .tc main_arg5) := (R6_keep V main_arg5 (by decide)).trans (argK_5_main_arg5 V)
theorem argK_7_main_arg5 : R7 V (Proc.devRef .tc main_arg5) = V (Proc.devRef .tc main_arg5) := (R7_keep V main_arg5 (by decide)).trans (argK_6_main_arg5 V)
theorem argK_8_main_arg5 : R8 V (Proc.devRef .tc main_arg5) = V (Proc.devRef .tc main_arg5) := (R8_keep V main_arg5 (by decide)).trans (argK_7_main_arg5 V)
theorem argK_9_main_arg5 : R9 V (Proc.devRef .tc main_arg5) = V (Proc.devRef .tc main_arg5) := (R9_keep V main_arg5 (by decide)).trans (argK_8_main_arg5 V)
theorem argK_10_main_arg5 : R10 V (Proc.devRef .tc main_arg5) = V (Proc.devRef .tc main_arg5) := (R10_keep V main_arg5 (by decide)).trans (argK_9_main_arg5 V)
theorem argK_11_main_arg5 : R11 V (Proc.devRef .tc main_arg5) = V (Proc.devRef .tc main_arg5) := (R11_keep V main_arg5 (by decide)).trans (argK_10_main_arg5 V)
theorem argK_12_main_arg5 : R12 V (Proc.devRef .tc main_arg5) = V (Proc.devRef .tc main_arg5) := (R12_keep V main_arg5 (by decide)).trans (argK_11_main_arg5 V)
theorem argK_13_main_arg5 : R13 V (Proc.devRef .tc main_arg5) = V (Proc.devRef .tc main_arg5) := (R13_keep V main_arg5 (by decide)).trans (argK_12_main_arg5 V)
theorem argK_14_main_arg5 : R14 V (Proc.devRef .tc main_arg5) = V (Proc.devRef .tc main_arg5) := (R14_keep V main_arg5 (by decide)).trans (argK_13_main_arg5 V)
theorem argK_15_main_arg5 : R15 V (Proc.devRef .tc main_arg5) = V (Proc.devRef .tc main_arg5) := (R15_keep V main_arg5 (by decide)).trans (argK_14_main_arg5 V)
theorem argK_16_main_arg5 : R16 V (Proc.devRef .tc main_arg5) = V (Proc.devRef .tc main_arg5) := (R16_keep V main_arg5 (by decide)).trans (argK_15_main_arg5 V)
theorem argK_17_main_arg5 : R17 V (Proc.devRef .tc main_arg5) = V (Proc.devRef .tc main_arg5) := (R17_keep V main_arg5 (by decide)).trans (argK_16_main_arg5 V)
theorem argK_18_main_arg5 : R18 V (Proc.devRef .tc main_arg5) = V (Proc.devRef .tc main_arg5) := (R18_keep V main_arg5 (by decide)).trans (argK_17_main_arg5 V)
theorem argK_19_main_arg5 : R19 V (Proc.devRef .tc main_arg5) = V (Proc.devRef .tc main_arg5) := (R19_keep V main_arg5 (by decide)).trans (argK_18_main_arg5 V)
theorem argK_20_main_arg5 : R20 V (Proc.devRef .tc main_arg5) = V (Proc.devRef .tc main_arg5) := (R20_keep V main_arg5 (by decide)).trans (argK_19_main_arg5 V)
theorem argK_21_main_arg5 : R21 V (Proc.devRef .tc main_arg5) = V (Proc.devRef .tc main_arg5) := (R21_keep V main_arg5 (by decide)).trans (argK_20_main_arg5 V)

/-! `main_arg6` -/
theorem argK_1_main_arg6 : R1 V (Proc.devRef .tc main_arg6) = V (Proc.devRef .tc main_arg6) := R1_keep V main_arg6 (by decide)
theorem argK_2_main_arg6 : R2 V (Proc.devRef .tc main_arg6) = V (Proc.devRef .tc main_arg6) := (R2_keep V main_arg6 (by decide)).trans (argK_1_main_arg6 V)
theorem argK_3_main_arg6 : R3 V (Proc.devRef .tc main_arg6) = V (Proc.devRef .tc main_arg6) := (R3_keep V main_arg6 (by decide)).trans (argK_2_main_arg6 V)
theorem argK_4_main_arg6 : R4 V (Proc.devRef .tc main_arg6) = V (Proc.devRef .tc main_arg6) := (R4_keep V main_arg6 (by decide)).trans (argK_3_main_arg6 V)
theorem argK_5_main_arg6 : R5 V (Proc.devRef .tc main_arg6) = V (Proc.devRef .tc main_arg6) := (R5_keep V main_arg6 (by decide)).trans (argK_4_main_arg6 V)
theorem argK_6_main_arg6 : R6 V (Proc.devRef .tc main_arg6) = V (Proc.devRef .tc main_arg6) := (R6_keep V main_arg6 (by decide)).trans (argK_5_main_arg6 V)
theorem argK_7_main_arg6 : R7 V (Proc.devRef .tc main_arg6) = V (Proc.devRef .tc main_arg6) := (R7_keep V main_arg6 (by decide)).trans (argK_6_main_arg6 V)
theorem argK_8_main_arg6 : R8 V (Proc.devRef .tc main_arg6) = V (Proc.devRef .tc main_arg6) := (R8_keep V main_arg6 (by decide)).trans (argK_7_main_arg6 V)
theorem argK_9_main_arg6 : R9 V (Proc.devRef .tc main_arg6) = V (Proc.devRef .tc main_arg6) := (R9_keep V main_arg6 (by decide)).trans (argK_8_main_arg6 V)
theorem argK_10_main_arg6 : R10 V (Proc.devRef .tc main_arg6) = V (Proc.devRef .tc main_arg6) := (R10_keep V main_arg6 (by decide)).trans (argK_9_main_arg6 V)
theorem argK_11_main_arg6 : R11 V (Proc.devRef .tc main_arg6) = V (Proc.devRef .tc main_arg6) := (R11_keep V main_arg6 (by decide)).trans (argK_10_main_arg6 V)
theorem argK_12_main_arg6 : R12 V (Proc.devRef .tc main_arg6) = V (Proc.devRef .tc main_arg6) := (R12_keep V main_arg6 (by decide)).trans (argK_11_main_arg6 V)
theorem argK_13_main_arg6 : R13 V (Proc.devRef .tc main_arg6) = V (Proc.devRef .tc main_arg6) := (R13_keep V main_arg6 (by decide)).trans (argK_12_main_arg6 V)
theorem argK_14_main_arg6 : R14 V (Proc.devRef .tc main_arg6) = V (Proc.devRef .tc main_arg6) := (R14_keep V main_arg6 (by decide)).trans (argK_13_main_arg6 V)
theorem argK_15_main_arg6 : R15 V (Proc.devRef .tc main_arg6) = V (Proc.devRef .tc main_arg6) := (R15_keep V main_arg6 (by decide)).trans (argK_14_main_arg6 V)
theorem argK_16_main_arg6 : R16 V (Proc.devRef .tc main_arg6) = V (Proc.devRef .tc main_arg6) := (R16_keep V main_arg6 (by decide)).trans (argK_15_main_arg6 V)
theorem argK_17_main_arg6 : R17 V (Proc.devRef .tc main_arg6) = V (Proc.devRef .tc main_arg6) := (R17_keep V main_arg6 (by decide)).trans (argK_16_main_arg6 V)
theorem argK_18_main_arg6 : R18 V (Proc.devRef .tc main_arg6) = V (Proc.devRef .tc main_arg6) := (R18_keep V main_arg6 (by decide)).trans (argK_17_main_arg6 V)
theorem argK_19_main_arg6 : R19 V (Proc.devRef .tc main_arg6) = V (Proc.devRef .tc main_arg6) := (R19_keep V main_arg6 (by decide)).trans (argK_18_main_arg6 V)
theorem argK_20_main_arg6 : R20 V (Proc.devRef .tc main_arg6) = V (Proc.devRef .tc main_arg6) := (R20_keep V main_arg6 (by decide)).trans (argK_19_main_arg6 V)
theorem argK_21_main_arg6 : R21 V (Proc.devRef .tc main_arg6) = V (Proc.devRef .tc main_arg6) := (R21_keep V main_arg6 (by decide)).trans (argK_20_main_arg6 V)

/-! `main_arg7` -/
theorem argK_1_main_arg7 : R1 V (Proc.devRef .tc main_arg7) = V (Proc.devRef .tc main_arg7) := R1_keep V main_arg7 (by decide)
theorem argK_2_main_arg7 : R2 V (Proc.devRef .tc main_arg7) = V (Proc.devRef .tc main_arg7) := (R2_keep V main_arg7 (by decide)).trans (argK_1_main_arg7 V)
theorem argK_3_main_arg7 : R3 V (Proc.devRef .tc main_arg7) = V (Proc.devRef .tc main_arg7) := (R3_keep V main_arg7 (by decide)).trans (argK_2_main_arg7 V)
theorem argK_4_main_arg7 : R4 V (Proc.devRef .tc main_arg7) = V (Proc.devRef .tc main_arg7) := (R4_keep V main_arg7 (by decide)).trans (argK_3_main_arg7 V)
theorem argK_5_main_arg7 : R5 V (Proc.devRef .tc main_arg7) = V (Proc.devRef .tc main_arg7) := (R5_keep V main_arg7 (by decide)).trans (argK_4_main_arg7 V)
theorem argK_6_main_arg7 : R6 V (Proc.devRef .tc main_arg7) = V (Proc.devRef .tc main_arg7) := (R6_keep V main_arg7 (by decide)).trans (argK_5_main_arg7 V)
theorem argK_7_main_arg7 : R7 V (Proc.devRef .tc main_arg7) = V (Proc.devRef .tc main_arg7) := (R7_keep V main_arg7 (by decide)).trans (argK_6_main_arg7 V)
theorem argK_8_main_arg7 : R8 V (Proc.devRef .tc main_arg7) = V (Proc.devRef .tc main_arg7) := (R8_keep V main_arg7 (by decide)).trans (argK_7_main_arg7 V)
theorem argK_9_main_arg7 : R9 V (Proc.devRef .tc main_arg7) = V (Proc.devRef .tc main_arg7) := (R9_keep V main_arg7 (by decide)).trans (argK_8_main_arg7 V)
theorem argK_10_main_arg7 : R10 V (Proc.devRef .tc main_arg7) = V (Proc.devRef .tc main_arg7) := (R10_keep V main_arg7 (by decide)).trans (argK_9_main_arg7 V)
theorem argK_11_main_arg7 : R11 V (Proc.devRef .tc main_arg7) = V (Proc.devRef .tc main_arg7) := (R11_keep V main_arg7 (by decide)).trans (argK_10_main_arg7 V)
theorem argK_12_main_arg7 : R12 V (Proc.devRef .tc main_arg7) = V (Proc.devRef .tc main_arg7) := (R12_keep V main_arg7 (by decide)).trans (argK_11_main_arg7 V)
theorem argK_13_main_arg7 : R13 V (Proc.devRef .tc main_arg7) = V (Proc.devRef .tc main_arg7) := (R13_keep V main_arg7 (by decide)).trans (argK_12_main_arg7 V)
theorem argK_14_main_arg7 : R14 V (Proc.devRef .tc main_arg7) = V (Proc.devRef .tc main_arg7) := (R14_keep V main_arg7 (by decide)).trans (argK_13_main_arg7 V)
theorem argK_15_main_arg7 : R15 V (Proc.devRef .tc main_arg7) = V (Proc.devRef .tc main_arg7) := (R15_keep V main_arg7 (by decide)).trans (argK_14_main_arg7 V)
theorem argK_16_main_arg7 : R16 V (Proc.devRef .tc main_arg7) = V (Proc.devRef .tc main_arg7) := (R16_keep V main_arg7 (by decide)).trans (argK_15_main_arg7 V)
theorem argK_17_main_arg7 : R17 V (Proc.devRef .tc main_arg7) = V (Proc.devRef .tc main_arg7) := (R17_keep V main_arg7 (by decide)).trans (argK_16_main_arg7 V)
theorem argK_18_main_arg7 : R18 V (Proc.devRef .tc main_arg7) = V (Proc.devRef .tc main_arg7) := (R18_keep V main_arg7 (by decide)).trans (argK_17_main_arg7 V)
theorem argK_19_main_arg7 : R19 V (Proc.devRef .tc main_arg7) = V (Proc.devRef .tc main_arg7) := (R19_keep V main_arg7 (by decide)).trans (argK_18_main_arg7 V)
theorem argK_20_main_arg7 : R20 V (Proc.devRef .tc main_arg7) = V (Proc.devRef .tc main_arg7) := (R20_keep V main_arg7 (by decide)).trans (argK_19_main_arg7 V)
theorem argK_21_main_arg7 : R21 V (Proc.devRef .tc main_arg7) = V (Proc.devRef .tc main_arg7) := (R21_keep V main_arg7 (by decide)).trans (argK_20_main_arg7 V)

/-! `main_arg8` -/
theorem argK_1_main_arg8 : R1 V (Proc.devRef .tc main_arg8) = V (Proc.devRef .tc main_arg8) := R1_keep V main_arg8 (by decide)
theorem argK_2_main_arg8 : R2 V (Proc.devRef .tc main_arg8) = V (Proc.devRef .tc main_arg8) := (R2_keep V main_arg8 (by decide)).trans (argK_1_main_arg8 V)
theorem argK_3_main_arg8 : R3 V (Proc.devRef .tc main_arg8) = V (Proc.devRef .tc main_arg8) := (R3_keep V main_arg8 (by decide)).trans (argK_2_main_arg8 V)
theorem argK_4_main_arg8 : R4 V (Proc.devRef .tc main_arg8) = V (Proc.devRef .tc main_arg8) := (R4_keep V main_arg8 (by decide)).trans (argK_3_main_arg8 V)
theorem argK_5_main_arg8 : R5 V (Proc.devRef .tc main_arg8) = V (Proc.devRef .tc main_arg8) := (R5_keep V main_arg8 (by decide)).trans (argK_4_main_arg8 V)
theorem argK_6_main_arg8 : R6 V (Proc.devRef .tc main_arg8) = V (Proc.devRef .tc main_arg8) := (R6_keep V main_arg8 (by decide)).trans (argK_5_main_arg8 V)
theorem argK_7_main_arg8 : R7 V (Proc.devRef .tc main_arg8) = V (Proc.devRef .tc main_arg8) := (R7_keep V main_arg8 (by decide)).trans (argK_6_main_arg8 V)
theorem argK_8_main_arg8 : R8 V (Proc.devRef .tc main_arg8) = V (Proc.devRef .tc main_arg8) := (R8_keep V main_arg8 (by decide)).trans (argK_7_main_arg8 V)
theorem argK_9_main_arg8 : R9 V (Proc.devRef .tc main_arg8) = V (Proc.devRef .tc main_arg8) := (R9_keep V main_arg8 (by decide)).trans (argK_8_main_arg8 V)
theorem argK_10_main_arg8 : R10 V (Proc.devRef .tc main_arg8) = V (Proc.devRef .tc main_arg8) := (R10_keep V main_arg8 (by decide)).trans (argK_9_main_arg8 V)
theorem argK_11_main_arg8 : R11 V (Proc.devRef .tc main_arg8) = V (Proc.devRef .tc main_arg8) := (R11_keep V main_arg8 (by decide)).trans (argK_10_main_arg8 V)
theorem argK_12_main_arg8 : R12 V (Proc.devRef .tc main_arg8) = V (Proc.devRef .tc main_arg8) := (R12_keep V main_arg8 (by decide)).trans (argK_11_main_arg8 V)
theorem argK_13_main_arg8 : R13 V (Proc.devRef .tc main_arg8) = V (Proc.devRef .tc main_arg8) := (R13_keep V main_arg8 (by decide)).trans (argK_12_main_arg8 V)
theorem argK_14_main_arg8 : R14 V (Proc.devRef .tc main_arg8) = V (Proc.devRef .tc main_arg8) := (R14_keep V main_arg8 (by decide)).trans (argK_13_main_arg8 V)
theorem argK_15_main_arg8 : R15 V (Proc.devRef .tc main_arg8) = V (Proc.devRef .tc main_arg8) := (R15_keep V main_arg8 (by decide)).trans (argK_14_main_arg8 V)
theorem argK_16_main_arg8 : R16 V (Proc.devRef .tc main_arg8) = V (Proc.devRef .tc main_arg8) := (R16_keep V main_arg8 (by decide)).trans (argK_15_main_arg8 V)
theorem argK_17_main_arg8 : R17 V (Proc.devRef .tc main_arg8) = V (Proc.devRef .tc main_arg8) := (R17_keep V main_arg8 (by decide)).trans (argK_16_main_arg8 V)
theorem argK_18_main_arg8 : R18 V (Proc.devRef .tc main_arg8) = V (Proc.devRef .tc main_arg8) := (R18_keep V main_arg8 (by decide)).trans (argK_17_main_arg8 V)
theorem argK_19_main_arg8 : R19 V (Proc.devRef .tc main_arg8) = V (Proc.devRef .tc main_arg8) := (R19_keep V main_arg8 (by decide)).trans (argK_18_main_arg8 V)
theorem argK_20_main_arg8 : R20 V (Proc.devRef .tc main_arg8) = V (Proc.devRef .tc main_arg8) := (R20_keep V main_arg8 (by decide)).trans (argK_19_main_arg8 V)
theorem argK_21_main_arg8 : R21 V (Proc.devRef .tc main_arg8) = V (Proc.devRef .tc main_arg8) := (R21_keep V main_arg8 (by decide)).trans (argK_20_main_arg8 V)

/-! `main_arg9` -/
theorem argK_1_main_arg9 : R1 V (Proc.devRef .tc main_arg9) = V (Proc.devRef .tc main_arg9) := R1_keep V main_arg9 (by decide)
theorem argK_2_main_arg9 : R2 V (Proc.devRef .tc main_arg9) = V (Proc.devRef .tc main_arg9) := (R2_keep V main_arg9 (by decide)).trans (argK_1_main_arg9 V)
theorem argK_3_main_arg9 : R3 V (Proc.devRef .tc main_arg9) = V (Proc.devRef .tc main_arg9) := (R3_keep V main_arg9 (by decide)).trans (argK_2_main_arg9 V)
theorem argK_4_main_arg9 : R4 V (Proc.devRef .tc main_arg9) = V (Proc.devRef .tc main_arg9) := (R4_keep V main_arg9 (by decide)).trans (argK_3_main_arg9 V)
theorem argK_5_main_arg9 : R5 V (Proc.devRef .tc main_arg9) = V (Proc.devRef .tc main_arg9) := (R5_keep V main_arg9 (by decide)).trans (argK_4_main_arg9 V)
theorem argK_6_main_arg9 : R6 V (Proc.devRef .tc main_arg9) = V (Proc.devRef .tc main_arg9) := (R6_keep V main_arg9 (by decide)).trans (argK_5_main_arg9 V)
theorem argK_7_main_arg9 : R7 V (Proc.devRef .tc main_arg9) = V (Proc.devRef .tc main_arg9) := (R7_keep V main_arg9 (by decide)).trans (argK_6_main_arg9 V)
theorem argK_8_main_arg9 : R8 V (Proc.devRef .tc main_arg9) = V (Proc.devRef .tc main_arg9) := (R8_keep V main_arg9 (by decide)).trans (argK_7_main_arg9 V)
theorem argK_9_main_arg9 : R9 V (Proc.devRef .tc main_arg9) = V (Proc.devRef .tc main_arg9) := (R9_keep V main_arg9 (by decide)).trans (argK_8_main_arg9 V)
theorem argK_10_main_arg9 : R10 V (Proc.devRef .tc main_arg9) = V (Proc.devRef .tc main_arg9) := (R10_keep V main_arg9 (by decide)).trans (argK_9_main_arg9 V)
theorem argK_11_main_arg9 : R11 V (Proc.devRef .tc main_arg9) = V (Proc.devRef .tc main_arg9) := (R11_keep V main_arg9 (by decide)).trans (argK_10_main_arg9 V)
theorem argK_12_main_arg9 : R12 V (Proc.devRef .tc main_arg9) = V (Proc.devRef .tc main_arg9) := (R12_keep V main_arg9 (by decide)).trans (argK_11_main_arg9 V)
theorem argK_13_main_arg9 : R13 V (Proc.devRef .tc main_arg9) = V (Proc.devRef .tc main_arg9) := (R13_keep V main_arg9 (by decide)).trans (argK_12_main_arg9 V)
theorem argK_14_main_arg9 : R14 V (Proc.devRef .tc main_arg9) = V (Proc.devRef .tc main_arg9) := (R14_keep V main_arg9 (by decide)).trans (argK_13_main_arg9 V)
theorem argK_15_main_arg9 : R15 V (Proc.devRef .tc main_arg9) = V (Proc.devRef .tc main_arg9) := (R15_keep V main_arg9 (by decide)).trans (argK_14_main_arg9 V)
theorem argK_16_main_arg9 : R16 V (Proc.devRef .tc main_arg9) = V (Proc.devRef .tc main_arg9) := (R16_keep V main_arg9 (by decide)).trans (argK_15_main_arg9 V)
theorem argK_17_main_arg9 : R17 V (Proc.devRef .tc main_arg9) = V (Proc.devRef .tc main_arg9) := (R17_keep V main_arg9 (by decide)).trans (argK_16_main_arg9 V)
theorem argK_18_main_arg9 : R18 V (Proc.devRef .tc main_arg9) = V (Proc.devRef .tc main_arg9) := (R18_keep V main_arg9 (by decide)).trans (argK_17_main_arg9 V)
theorem argK_19_main_arg9 : R19 V (Proc.devRef .tc main_arg9) = V (Proc.devRef .tc main_arg9) := (R19_keep V main_arg9 (by decide)).trans (argK_18_main_arg9 V)
theorem argK_20_main_arg9 : R20 V (Proc.devRef .tc main_arg9) = V (Proc.devRef .tc main_arg9) := (R20_keep V main_arg9 (by decide)).trans (argK_19_main_arg9 V)
theorem argK_21_main_arg9 : R21 V (Proc.devRef .tc main_arg9) = V (Proc.devRef .tc main_arg9) := (R21_keep V main_arg9 (by decide)).trans (argK_20_main_arg9 V)

end Cert.ReferenceIdeal.Stage

end
-- ==== Proof.RArgs2.lean ====
/- No stretch of the reference writes an argument: after every stretch each argument holds what it held at the start.
   One lemma per stretch and argument, each from the one before; here the arguments 10 … 14. -/
import proofs.«159317_j31121333027532_1_alg».proof.Proof.RefChunks

noncomputable section

namespace Cert.ReferenceIdeal.Stage

open Cert.ReferenceIdeal Cert.ReferenceIdeal.Chunks Idealize.ShloMosaic Idealize.ShloMosaic.StableHlo

variable {F : FTy → Type} [FloatOps F] (V : Valuation τ sig (Elt F))

/-! `main_arg10` -/
theorem argK_1_main_arg10 : R1 V (Proc.devRef .tc main_arg10) = V (Proc.devRef .tc main_arg10) := R1_keep V main_arg10 (by decide)
theorem argK_2_main_arg10 : R2 V (Proc.devRef .tc main_arg10) = V (Proc.devRef .tc main_arg10) := (R2_keep V main_arg10 (by decide)).trans (argK_1_main_arg10 V)
theorem argK_3_main_arg10 : R3 V (Proc.devRef .tc main_arg10) = V (Proc.devRef .tc main_arg10) := (R3_keep V main_arg10 (by decide)).trans (argK_2_main_arg10 V)
theorem argK_4_main_arg10 : R4 V (Proc.devRef .tc main_arg10) = V (Proc.devRef .tc main_arg10) := (R4_keep V main_arg10 (by decide)).trans (argK_3_main_arg10 V)
theorem argK_5_main_arg10 : R5 V (Proc.devRef .tc main_arg10) = V (Proc.devRef .tc main_arg10) := (R5_keep V main_arg10 (by decide)).trans (argK_4_main_arg10 V)
theorem argK_6_main_arg10 : R6 V (Proc.devRef .tc main_arg10) = V (Proc.devRef .tc main_arg10) := (R6_keep V main_arg10 (by decide)).trans (argK_5_main_arg10 V)
theorem argK_7_main_arg10 : R7 V (Proc.devRef .tc main_arg10) = V (Proc.devRef .tc main_arg10) := (R7_keep V main_arg10 (by decide)).trans (argK_6_main_arg10 V)
theorem argK_8_main_arg10 : R8 V (Proc.devRef .tc main_arg10) = V (Proc.devRef .tc main_arg10) := (R8_keep V main_arg10 (by decide)).trans (argK_7_main_arg10 V)
theorem argK_9_main_arg10 : R9 V (Proc.devRef .tc main_arg10) = V (Proc.devRef .tc main_arg10) := (R9_keep V main_arg10 (by decide)).trans (argK_8_main_arg10 V)
theorem argK_10_main_arg10 : R10 V (Proc.devRef .tc main_arg10) = V (Proc.devRef .tc main_arg10) := (R10_keep V main_arg10 (by decide)).trans (argK_9_main_arg10 V)
theorem argK_11_main_arg10 : R11 V (Proc.devRef .tc main_arg10) = V (Proc.devRef .tc main_arg10) := (R11_keep V main_arg10 (by decide)).trans (argK_10_main_arg10 V)
theorem argK_12_main_arg10 : R12 V (Proc.devRef .tc main_arg10) = V (Proc.devRef .tc main_arg10) := (R12_keep V main_arg10 (by decide)).trans (argK_11_main_arg10 V)
theorem argK_13_main_arg10 : R13 V (Proc.devRef .tc main_arg10) = V (Proc.devRef .tc main_arg10) := (R13_keep V main_arg10 (by decide)).trans (argK_12_main_arg10 V)
theorem argK_14_main_arg10 : R14 V (Proc.devRef .tc main_arg10) = V (Proc.devRef .tc main_arg10) := (R14_keep V main_arg10 (by decide)).trans (argK_13_main_arg10 V)
theorem argK_15_main_arg10 : R15 V (Proc.devRef .tc main_arg10) = V (Proc.devRef .tc main_arg10) := (R15_keep V main_arg10 (by decide)).trans (argK_14_main_arg10 V)
theorem argK_16_main_arg10 : R16 V (Proc.devRef .tc main_arg10) = V (Proc.devRef .tc main_arg10) := (R16_keep V main_arg10 (by decide)).trans (argK_15_main_arg10 V)
theorem argK_17_main_arg10 : R17 V (Proc.devRef .tc main_arg10) = V (Proc.devRef .tc main_arg10) := (R17_keep V main_arg10 (by decide)).trans (argK_16_main_arg10 V)
theorem argK_18_main_arg10 : R18 V (Proc.devRef .tc main_arg10) = V (Proc.devRef .tc main_arg10) := (R18_keep V main_arg10 (by decide)).trans (argK_17_main_arg10 V)
theorem argK_19_main_arg10 : R19 V (Proc.devRef .tc main_arg10) = V (Proc.devRef .tc main_arg10) := (R19_keep V main_arg10 (by decide)).trans (argK_18_main_arg10 V)
theorem argK_20_main_arg10 : R20 V (Proc.devRef .tc main_arg10) = V (Proc.devRef .tc main_arg10) := (R20_keep V main_arg10 (by decide)).trans (argK_19_main_arg10 V)
theorem argK_21_main_arg10 : R21 V (Proc.devRef .tc main_arg10) = V (Proc.devRef .tc main_arg10) := (R21_keep V main_arg10 (by decide)).trans (argK_20_main_arg10 V)

/-! `main_arg11` -/
theorem argK_1_main_arg11 : R1 V (Proc.devRef .tc main_arg11) = V (Proc.devRef .tc main_arg11) := R1_keep V main_arg11 (by decide)
theorem argK_2_main_arg11 : R2 V (Proc.devRef .tc main_arg11) = V (Proc.devRef .tc main_arg11) := (R2_keep V main_arg11 (by decide)).trans (argK_1_main_arg11 V)
theorem argK_3_main_arg11 : R3 V (Proc.devRef .tc main_arg11) = V (Proc.devRef .tc main_arg11) := (R3_keep V main_arg11 (by decide)).trans (argK_2_main_arg11 V)
theorem argK_4_main_arg11 : R4 V (Proc.devRef .tc main_arg11) = V (Proc.devRef .tc main_arg11) := (R4_keep V main_arg11 (by decide)).trans (argK_3_main_arg11 V)
theorem argK_5_main_arg11 : R5 V (Proc.devRef .tc main_arg11) = V (Proc.devRef .tc main_arg11) := (R5_keep V main_arg11 (by decide)).trans (argK_4_main_arg11 V)
theorem argK_6_main_arg11 : R6 V (Proc.devRef .tc main_arg11) = V (Proc.devRef .tc main_arg11) := (R6_keep V main_arg11 (by decide)).trans (argK_5_main_arg11 V)
theorem argK_7_main_arg11 : R7 V (Proc.devRef .tc main_arg11) = V (Proc.devRef .tc main_arg11) := (R7_keep V main_arg11 (by decide)).trans (argK_6_main_arg11 V)
theorem argK_8_main_arg11 : R8 V (Proc.devRef .tc main_arg11) = V (Proc.devRef .tc main_arg11) := (R8_keep V main_arg11 (by decide)).trans (argK_7_main_arg11 V)
theorem argK_9_main_arg11 : R9 V (Proc.devRef .tc main_arg11) = V (Proc.devRef .tc main_arg11) := (R9_keep V main_arg11 (by decide)).trans (argK_8_main_arg11 V)
theorem argK_10_main_arg11 : R10 V (Proc.devRef .tc main_arg11) = V (Proc.devRef .tc main_arg11) := (R10_keep V main_arg11 (by decide)).trans (argK_9_main_arg11 V)
theorem argK_11_main_arg11 : R11 V (Proc.devRef .tc main_arg11) = V (Proc.devRef .tc main_arg11) := (R11_keep V main_arg11 (by decide)).trans (argK_10_main_arg11 V)
theorem argK_12_main_arg11 : R12 V (Proc.devRef .tc main_arg11) = V (Proc.devRef .tc main_arg11) := (R12_keep V main_arg11 (by decide)).trans (argK_11_main_arg11 V)
theorem argK_13_main_arg11 : R13 V (Proc.devRef .tc main_arg11) = V (Proc.devRef .tc main_arg11) := (R13_keep V main_arg11 (by decide)).trans (argK_12_main_arg11 V)
theorem argK_14_main_arg11 : R14 V (Proc.devRef .tc main_arg11) = V (Proc.devRef .tc main_arg11) := (R14_keep V main_arg11 (by decide)).trans (argK_13_main_arg11 V)
theorem argK_15_main_arg11 : R15 V (Proc.devRef .tc main_arg11) = V (Proc.devRef .tc main_arg11) := (R15_keep V main_arg11 (by decide)).trans (argK_14_main_arg11 V)
theorem argK_16_main_arg11 : R16 V (Proc.devRef .tc main_arg11) = V (Proc.devRef .tc main_arg11) := (R16_keep V main_arg11 (by decide)).trans (argK_15_main_arg11 V)
theorem argK_17_main_arg11 : R17 V (Proc.devRef .tc main_arg11) = V (Proc.devRef .tc main_arg11) := (R17_keep V main_arg11 (by decide)).trans (argK_16_main_arg11 V)
theorem argK_18_main_arg11 : R18 V (Proc.devRef .tc main_arg11) = V (Proc.devRef .tc main_arg11) := (R18_keep V main_arg11 (by decide)).trans (argK_17_main_arg11 V)
theorem argK_19_main_arg11 : R19 V (Proc.devRef .tc main_arg11) = V (Proc.devRef .tc main_arg11) := (R19_keep V main_arg11 (by decide)).trans (argK_18_main_arg11 V)
theorem argK_20_main_arg11 : R20 V (Proc.devRef .tc main_arg11) = V (Proc.devRef .tc main_arg11) := (R20_keep V main_arg11 (by decide)).trans (argK_19_main_arg11 V)
theorem argK_21_main_arg11 : R21 V (Proc.devRef .tc main_arg11) = V (Proc.devRef .tc main_arg11) := (R21_keep V main_arg11 (by decide)).trans (argK_20_main_arg11 V)

/-! `main_arg12` -/
theorem argK_1_main_arg12 : R1 V (Proc.devRef .tc main_arg12) = V (Proc.devRef .tc main_arg12) := R1_keep V main_arg12 (by decide)
theorem argK_2_main_arg12 : R2 V (Proc.devRef .tc main_arg12) = V (Proc.devRef .tc main_arg12) := (R2_keep V main_arg12 (by decide)).trans (argK_1_main_arg12 V)
theorem argK_3_main_arg12 : R3 V (Proc.devRef .tc main_arg12) = V (Proc.devRef .tc main_arg12) := (R3_keep V main_arg12 (by decide)).trans (argK_2_main_arg12 V)
theorem argK_4_main_arg12 : R4 V (Proc.devRef .tc main_arg12) = V (Proc.devRef .tc main_arg12) := (R4_keep V main_arg12 (by decide)).trans (argK_3_main_arg12 V)
theorem argK_5_main_arg12 : R5 V (Proc.devRef .tc main_arg12) = V (Proc.devRef .tc main_arg12) := (R5_keep V main_arg12 (by decide)).trans (argK_4_main_arg12 V)
theorem argK_6_main_arg12 : R6 V (Proc.devRef .tc main_arg12) = V (Proc.devRef .tc main_arg12) := (R6_keep V main_arg12 (by decide)).trans (argK_5_main_arg12 V)
theorem argK_7_main_arg12 : R7 V (Proc.devRef .tc main_arg12) = V (Proc.devRef .tc main_arg12) := (R7_keep V main_arg12 (by decide)).trans (argK_6_main_arg12 V)
theorem argK_8_main_arg12 : R8 V (Proc.devRef .tc main_arg12) = V (Proc.devRef .tc main_arg12) := (R8_keep V main_arg12 (by decide)).trans (argK_7_main_arg12 V)
theorem argK_9_main_arg12 : R9 V (Proc.devRef .tc main_arg12) = V (Proc.devRef .tc main_arg12) := (R9_keep V main_arg12 (by decide)).trans (argK_8_main_arg12 V)
theorem argK_10_main_arg12 : R10 V (Proc.devRef .tc main_arg12) = V (Proc.devRef .tc main_arg12) := (R10_keep V main_arg12 (by decide)).trans (argK_9_main_arg12 V)
theorem argK_11_main_arg12 : R11 V (Proc.devRef .tc main_arg12) = V (Proc.devRef .tc main_arg12) := (R11_keep V main_arg12 (by decide)).trans (argK_10_main_arg12 V)
theorem argK_12_main_arg12 : R12 V (Proc.devRef .tc main_arg12) = V (Proc.devRef .tc main_arg12) := (R12_keep V main_arg12 (by decide)).trans (argK_11_main_arg12 V)
theorem argK_13_main_arg12 : R13 V (Proc.devRef .tc main_arg12) = V (Proc.devRef .tc main_arg12) := (R13_keep V main_arg12 (by decide)).trans (argK_12_main_arg12 V)
theorem argK_14_main_arg12 : R14 V (Proc.devRef .tc main_arg12) = V (Proc.devRef .tc main_arg12) := (R14_keep V main_arg12 (by decide)).trans (argK_13_main_arg12 V)
theorem argK_15_main_arg12 : R15 V (Proc.devRef .tc main_arg12) = V (Proc.devRef .tc main_arg12) := (R15_keep V main_arg12 (by decide)).trans (argK_14_main_arg12 V)
theorem argK_16_main_arg12 : R16 V (Proc.devRef .tc main_arg12) = V (Proc.devRef .tc main_arg12) := (R16_keep V main_arg12 (by decide)).trans (argK_15_main_arg12 V)
theorem argK_17_main_arg12 : R17 V (Proc.devRef .tc main_arg12) = V (Proc.devRef .tc main_arg12) := (R17_keep V main_arg12 (by decide)).trans (argK_16_main_arg12 V)
theorem argK_18_main_arg12 : R18 V (Proc.devRef .tc main_arg12) = V (Proc.devRef .tc main_arg12) := (R18_keep V main_arg12 (by decide)).trans (argK_17_main_arg12 V)
theorem argK_19_main_arg12 : R19 V (Proc.devRef .tc main_arg12) = V (Proc.devRef .tc main_arg12) := (R19_keep V main_arg12 (by decide)).trans (argK_18_main_arg12 V)
theorem argK_20_main_arg12 : R20 V (Proc.devRef .tc main_arg12) = V (Proc.devRef .tc main_arg12) := (R20_keep V main_arg12 (by decide)).trans (argK_19_main_arg12 V)
theorem argK_21_main_arg12 : R21 V (Proc.devRef .tc main_arg12) = V (Proc.devRef .tc main_arg12) := (R21_keep V main_arg12 (by decide)).trans (argK_20_main_arg12 V)

/-! `main_arg13` -/
theorem argK_1_main_arg13 : R1 V (Proc.devRef .tc main_arg13) = V (Proc.devRef .tc main_arg13) := R1_keep V main_arg13 (by decide)
theorem argK_2_main_arg13 : R2 V (Proc.devRef .tc main_arg13) = V (Proc.devRef .tc main_arg13) := (R2_keep V main_arg13 (by decide)).trans (argK_1_main_arg13 V)
theorem argK_3_main_arg13 : R3 V (Proc.devRef .tc main_arg13) = V (Proc.devRef .tc main_arg13) := (R3_keep V main_arg13 (by decide)).trans (argK_2_main_arg13 V)
theorem argK_4_main_arg13 : R4 V (Proc.devRef .tc main_arg13) = V (Proc.devRef .tc main_arg13) := (R4_keep V main_arg13 (by decide)).trans (argK_3_main_arg13 V)
theorem argK_5_main_arg13 : R5 V (Proc.devRef .tc main_arg13) = V (Proc.devRef .tc main_arg13) := (R5_keep V main_arg13 (by decide)).trans (argK_4_main_arg13 V)
theorem argK_6_main_arg13 : R6 V (Proc.devRef .tc main_arg13) = V (Proc.devRef .tc main_arg13) := (R6_keep V main_arg13 (by decide)).trans (argK_5_main_arg13 V)
theorem argK_7_main_arg13 : R7 V (Proc.devRef .tc main_arg13) = V (Proc.devRef .tc main_arg13) := (R7_keep V main_arg13 (by decide)).trans (argK_6_main_arg13 V)
theorem argK_8_main_arg13 : R8 V (Proc.devRef .tc main_arg13) = V (Proc.devRef .tc main_arg13) := (R8_keep V main_arg13 (by decide)).trans (argK_7_main_arg13 V)
theorem argK_9_main_arg13 : R9 V (Proc.devRef .tc main_arg13) = V (Proc.devRef .tc main_arg13) := (R9_keep V main_arg13 (by decide)).trans (argK_8_main_arg13 V)
theorem argK_10_main_arg13 : R10 V (Proc.devRef .tc main_arg13) = V (Proc.devRef .tc main_arg13) := (R10_keep V main_arg13 (by decide)).trans (argK_9_main_arg13 V)
theorem argK_11_main_arg13 : R11 V (Proc.devRef .tc main_arg13) = V (Proc.devRef .tc main_arg13) := (R11_keep V main_arg13 (by decide)).trans (argK_10_main_arg13 V)
theorem argK_12_main_arg13 : R12 V (Proc.devRef .tc main_arg13) = V (Proc.devRef .tc main_arg13) := (R12_keep V main_arg13 (by decide)).trans (argK_11_main_arg13 V)
theorem argK_13_main_arg13 : R13 V (Proc.devRef .tc main_arg13) = V (Proc.devRef .tc main_arg13) := (R13_keep V main_arg13 (by decide)).trans (argK_12_main_arg13 V)
theorem argK_14_main_arg13 : R14 V (Proc.devRef .tc main_arg13) = V (Proc.devRef .tc main_arg13) := (R14_keep V main_arg13 (by decide)).trans (argK_13_main_arg13 V)
theorem argK_15_main_arg13 : R15 V (Proc.devRef .tc main_arg13) = V (Proc.devRef .tc main_arg13) := (R15_keep V main_arg13 (by decide)).trans (argK_14_main_arg13 V)
theorem argK_16_main_arg13 : R16 V (Proc.devRef .tc main_arg13) = V (Proc.devRef .tc main_arg13) := (R16_keep V main_arg13 (by decide)).trans (argK_15_main_arg13 V)
theorem argK_17_main_arg13 : R17 V (Proc.devRef .tc main_arg13) = V (Proc.devRef .tc main_arg13) := (R17_keep V main_arg13 (by decide)).trans (argK_16_main_arg13 V)
theorem argK_18_main_arg13 : R18 V (Proc.devRef .tc main_arg13) = V (Proc.devRef .tc main_arg13) := (R18_keep V main_arg13 (by decide)).trans (argK_17_main_arg13 V)
theorem argK_19_main_arg13 : R19 V (Proc.devRef .tc main_arg13) = V (Proc.devRef .tc main_arg13) := (R19_keep V main_arg13 (by decide)).trans (argK_18_main_arg13 V)
theorem argK_20_main_arg13 : R20 V (Proc.devRef .tc main_arg13) = V (Proc.devRef .tc main_arg13) := (R20_keep V main_arg13 (by decide)).trans (argK_19_main_arg13 V)
theorem argK_21_main_arg13 : R21 V (Proc.devRef .tc main_arg13) = V (Proc.devRef .tc main_arg13) := (R21_keep V main_arg13 (by decide)).trans (argK_20_main_arg13 V)

/-! `main_arg14` -/
theorem argK_1_main_arg14 : R1 V (Proc.devRef .tc main_arg14) = V (Proc.devRef .tc main_arg14) := R1_keep V main_arg14 (by decide)
theorem argK_2_main_arg14 : R2 V (Proc.devRef .tc main_arg14) = V (Proc.devRef .tc main_arg14) := (R2_keep V main_arg14 (by decide)).trans (argK_1_main_arg14 V)
theorem argK_3_main_arg14 : R3 V (Proc.devRef .tc main_arg14) = V (Proc.devRef .tc main_arg14) := (R3_keep V main_arg14 (by decide)).trans (argK_2_main_arg14 V)
theorem argK_4_main_arg14 : R4 V (Proc.devRef .tc main_arg14) = V (Proc.devRef .tc main_arg14) := (R4_keep V main_arg14 (by decide)).trans (argK_3_main_arg14 V)
theorem argK_5_main_arg14 : R5 V (Proc.devRef .tc main_arg14) = V (Proc.devRef .tc main_arg14) := (R5_keep V main_arg14 (by decide)).trans (argK_4_main_arg14 V)
theorem argK_6_main_arg14 : R6 V (Proc.devRef .tc main_arg14) = V (Proc.devRef .tc main_arg14) := (R6_keep V main_arg14 (by decide)).trans (argK_5_main_arg14 V)
theorem argK_7_main_arg14 : R7 V (Proc.devRef .tc main_arg14) = V (Proc.devRef .tc main_arg14) := (R7_keep V main_arg14 (by decide)).trans (argK_6_main_arg14 V)
theorem argK_8_main_arg14 : R8 V (Proc.devRef .tc main_arg14) = V (Proc.devRef .tc main_arg14) := (R8_keep V main_arg14 (by decide)).trans (argK_7_main_arg14 V)
theorem argK_9_main_arg14 : R9 V (Proc.devRef .tc main_arg14) = V (Proc.devRef .tc main_arg14) := (R9_keep V main_arg14 (by decide)).trans (argK_8_main_arg14 V)
theorem argK_10_main_arg14 : R10 V (Proc.devRef .tc main_arg14) = V (Proc.devRef .tc main_arg14) := (R10_keep V main_arg14 (by decide)).trans (argK_9_main_arg14 V)
theorem argK_11_main_arg14 : R11 V (Proc.devRef .tc main_arg14) = V (Proc.devRef .tc main_arg14) := (R11_keep V main_arg14 (by decide)).trans (argK_10_main_arg14 V)
theorem argK_12_main_arg14 : R12 V (Proc.devRef .tc main_arg14) = V (Proc.devRef .tc main_arg14) := (R12_keep V main_arg14 (by decide)).trans (argK_11_main_arg14 V)
theorem argK_13_main_arg14 : R13 V (Proc.devRef .tc main_arg14) = V (Proc.devRef .tc main_arg14) := (R13_keep V main_arg14 (by decide)).trans (argK_12_main_arg14 V)
theorem argK_14_main_arg14 : R14 V (Proc.devRef .tc main_arg14) = V (Proc.devRef .tc main_arg14) := (R14_keep V main_arg14 (by decide)).trans (argK_13_main_arg14 V)
theorem argK_15_main_arg14 : R15 V (Proc.devRef .tc main_arg14) = V (Proc.devRef .tc main_arg14) := (R15_keep V main_arg14 (by decide)).trans (argK_14_main_arg14 V)
theorem argK_16_main_arg14 : R16 V (Proc.devRef .tc main_arg14) = V (Proc.devRef .tc main_arg14) := (R16_keep V main_arg14 (by decide)).trans (argK_15_main_arg14 V)
theorem argK_17_main_arg14 : R17 V (Proc.devRef .tc main_arg14) = V (Proc.devRef .tc main_arg14) := (R17_keep V main_arg14 (by decide)).trans (argK_16_main_arg14 V)
theorem argK_18_main_arg14 : R18 V (Proc.devRef .tc main_arg14) = V (Proc.devRef .tc main_arg14) := (R18_keep V main_arg14 (by decide)).trans (argK_17_main_arg14 V)
theorem argK_19_main_arg14 : R19 V (Proc.devRef .tc main_arg14) = V (Proc.devRef .tc main_arg14) := (R19_keep V main_arg14 (by decide)).trans (argK_18_main_arg14 V)
theorem argK_20_main_arg14 : R20 V (Proc.devRef .tc main_arg14) = V (Proc.devRef .tc main_arg14) := (R20_keep V main_arg14 (by decide)).trans (argK_19_main_arg14 V)
theorem argK_21_main_arg14 : R21 V (Proc.devRef .tc main_arg14) = V (Proc.devRef .tc main_arg14) := (R21_keep V main_arg14 (by decide)).trans (argK_20_main_arg14 V)

end Cert.ReferenceIdeal.Stage

end
-- ==== Proof.RArgs3.lean ====
/- No stretch of the reference writes an argument: after every stretch each argument holds what it held at the start.
   One lemma per stretch and argument, each from the one before; here the arguments 15 … 19. -/
import proofs.«159317_j31121333027532_1_alg».proof.Proof.RefChunks

noncomputable section

namespace Cert.ReferenceIdeal.Stage

open Cert.ReferenceIdeal Cert.ReferenceIdeal.Chunks Idealize.ShloMosaic Idealize.ShloMosaic.StableHlo

variable {F : FTy → Type} [FloatOps F] (V : Valuation τ sig (Elt F))

/-! `main_arg15` -/
theorem argK_1_main_arg15 : R1 V (Proc.devRef .tc main_arg15) = V (Proc.devRef .tc main_arg15) := R1_keep V main_arg15 (by decide)
theorem argK_2_main_arg15 : R2 V (Proc.devRef .tc main_arg15) = V (Proc.devRef .tc main_arg15) := (R2_keep V main_arg15 (by decide)).trans (argK_1_main_arg15 V)
theorem argK_3_main_arg15 : R3 V (Proc.devRef .tc main_arg15) = V (Proc.devRef .tc main_arg15) := (R3_keep V main_arg15 (by decide)).trans (argK_2_main_arg15 V)
theorem argK_4_main_arg15 : R4 V (Proc.devRef .tc main_arg15) = V (Proc.devRef .tc main_arg15) := (R4_keep V main_arg15 (by decide)).trans (argK_3_main_arg15 V)
theorem argK_5_main_arg15 : R5 V (Proc.devRef .tc main_arg15) = V (Proc.devRef .tc main_arg15) := (R5_keep V main_arg15 (by decide)).trans (argK_4_main_arg15 V)
theorem argK_6_main_arg15 : R6 V (Proc.devRef .tc main_arg15) = V (Proc.devRef .tc main_arg15) := (R6_keep V main_arg15 (by decide)).trans (argK_5_main_arg15 V)
theorem argK_7_main_arg15 : R7 V (Proc.devRef .tc main_arg15) = V (Proc.devRef .tc main_arg15) := (R7_keep V main_arg15 (by decide)).trans (argK_6_main_arg15 V)
theorem argK_8_main_arg15 : R8 V (Proc.devRef .tc main_arg15) = V (Proc.devRef .tc main_arg15) := (R8_keep V main_arg15 (by decide)).trans (argK_7_main_arg15 V)
theorem argK_9_main_arg15 : R9 V (Proc.devRef .tc main_arg15) = V (Proc.devRef .tc main_arg15) := (R9_keep V main_arg15 (by decide)).trans (argK_8_main_arg15 V)
theorem argK_10_main_arg15 : R10 V (Proc.devRef .tc main_arg15) = V (Proc.devRef .tc main_arg15) := (R10_keep V main_arg15 (by decide)).trans (argK_9_main_arg15 V)
theorem argK_11_main_arg15 : R11 V (Proc.devRef .tc main_arg15) = V (Proc.devRef .tc main_arg15) := (R11_keep V main_arg15 (by decide)).trans (argK_10_main_arg15 V)
theorem argK_12_main_arg15 : R12 V (Proc.devRef .tc main_arg15) = V (Proc.devRef .tc main_arg15) := (R12_keep V main_arg15 (by decide)).trans (argK_11_main_arg15 V)
theorem argK_13_main_arg15 : R13 V (Proc.devRef .tc main_arg15) = V (Proc.devRef .tc main_arg15) := (R13_keep V main_arg15 (by decide)).trans (argK_12_main_arg15 V)
theorem argK_14_main_arg15 : R14 V (Proc.devRef .tc main_arg15) = V (Proc.devRef .tc main_arg15) := (R14_keep V main_arg15 (by decide)).trans (argK_13_main_arg15 V)
theorem argK_15_main_arg15 : R15 V (Proc.devRef .tc main_arg15) = V (Proc.devRef .tc main_arg15) := (R15_keep V main_arg15 (by decide)).trans (argK_14_main_arg15 V)
theorem argK_16_main_arg15 : R16 V (Proc.devRef .tc main_arg15) = V (Proc.devRef .tc main_arg15) := (R16_keep V main_arg15 (by decide)).trans (argK_15_main_arg15 V)
theorem argK_17_main_arg15 : R17 V (Proc.devRef .tc main_arg15) = V (Proc.devRef .tc main_arg15) := (R17_keep V main_arg15 (by decide)).trans (argK_16_main_arg15 V)
theorem argK_18_main_arg15 : R18 V (Proc.devRef .tc main_arg15) = V (Proc.devRef .tc main_arg15) := (R18_keep V main_arg15 (by decide)).trans (argK_17_main_arg15 V)
theorem argK_19_main_arg15 : R19 V (Proc.devRef .tc main_arg15) = V (Proc.devRef .tc main_arg15) := (R19_keep V main_arg15 (by decide)).trans (argK_18_main_arg15 V)
theorem argK_20_main_arg15 : R20 V (Proc.devRef .tc main_arg15) = V (Proc.devRef .tc main_arg15) := (R20_keep V main_arg15 (by decide)).trans (argK_19_main_arg15 V)
theorem argK_21_main_arg15 : R21 V (Proc.devRef .tc main_arg15) = V (Proc.devRef .tc main_arg15) := (R21_keep V main_arg15 (by decide)).trans (argK_20_main_arg15 V)

/-! `main_arg16` -/
theorem argK_1_main_arg16 : R1 V (Proc.devRef .tc main_arg16) = V (Proc.devRef .tc main_arg16) := R1_keep V main_arg16 (by decide)
theorem argK_2_main_arg16 : R2 V (Proc.devRef .tc main_arg16) = V (Proc.devRef .tc main_arg16) := (R2_keep V main_arg16 (by decide)).trans (argK_1_main_arg16 V)
theorem argK_3_main_arg16 : R3 V (Proc.devRef .tc main_arg16) = V (Proc.devRef .tc main_arg16) := (R3_keep V main_arg16 (by decide)).trans (argK_2_main_arg16 V)
theorem argK_4_main_arg16 : R4 V (Proc.devRef .tc main_arg16) = V (Proc.devRef .tc main_arg16) := (R4_keep V main_arg16 (by decide)).trans (argK_3_main_arg16 V)
theorem argK_5_main_arg16 : R5 V (Proc.devRef .tc main_arg16) = V (Proc.devRef .tc main_arg16) := (R5_keep V main_arg16 (by decide)).trans (argK_4_main_arg16 V)
theorem argK_6_main_arg16 : R6 V (Proc.devRef .tc main_arg16) = V (Proc.devRef .tc main_arg16) := (R6_keep V main_arg16 (by decide)).trans (argK_5_main_arg16 V)
theorem argK_7_main_arg16 : R7 V (Proc.devRef .tc main_arg16) = V (Proc.devRef .tc main_arg16) := (R7_keep V main_arg16 (by decide)).trans (argK_6_main_arg16 V)
theorem argK_8_main_arg16 : R8 V (Proc.devRef .tc main_arg16) = V (Proc.devRef .tc main_arg16) := (R8_keep V main_arg16 (by decide)).trans (argK_7_main_arg16 V)
theorem argK_9_main_arg16 : R9 V (Proc.devRef .tc main_arg16) = V (Proc.devRef .tc main_arg16) := (R9_keep V main_arg16 (by decide)).trans (argK_8_main_arg16 V)
theorem argK_10_main_arg16 : R10 V (Proc.devRef .tc main_arg16) = V (Proc.devRef .tc main_arg16) := (R10_keep V main_arg16 (by decide)).trans (argK_9_main_arg16 V)
theorem argK_11_main_arg16 : R11 V (Proc.devRef .tc main_arg16) = V (Proc.devRef .tc main_arg16) := (R11_keep V main_arg16 (by decide)).trans (argK_10_main_arg16 V)
theorem argK_12_main_arg16 : R12 V (Proc.devRef .tc main_arg16) = V (Proc.devRef .tc main_arg16) := (R12_keep V main_arg16 (by decide)).trans (argK_11_main_arg16 V)
theorem argK_13_main_arg16 : R13 V (Proc.devRef .tc main_arg16) = V (Proc.devRef .tc main_arg16) := (R13_keep V main_arg16 (by decide)).trans (argK_12_main_arg16 V)
theorem argK_14_main_arg16 : R14 V (Proc.devRef .tc main_arg16) = V (Proc.devRef .tc main_arg16) := (R14_keep V main_arg16 (by decide)).trans (argK_13_main_arg16 V)
theorem argK_15_main_arg16 : R15 V (Proc.devRef .tc main_arg16) = V (Proc.devRef .tc main_arg16) := (R15_keep V main_arg16 (by decide)).trans (argK_14_main_arg16 V)
theorem argK_16_main_arg16 : R16 V (Proc.devRef .tc main_arg16) = V (Proc.devRef .tc main_arg16) := (R16_keep V main_arg16 (by decide)).trans (argK_15_main_arg16 V)
theorem argK_17_main_arg16 : R17 V (Proc.devRef .tc main_arg16) = V (Proc.devRef .tc main_arg16) := (R17_keep V main_arg16 (by decide)).trans (argK_16_main_arg16 V)
theorem argK_18_main_arg16 : R18 V (Proc.devRef .tc main_arg16) = V (Proc.devRef .tc main_arg16) := (R18_keep V main_arg16 (by decide)).trans (argK_17_main_arg16 V)
theorem argK_19_main_arg16 : R19 V (Proc.devRef .tc main_arg16) = V (Proc.devRef .tc main_arg16) := (R19_keep V main_arg16 (by decide)).trans (argK_18_main_arg16 V)
theorem argK_20_main_arg16 : R20 V (Proc.devRef .tc main_arg16) = V (Proc.devRef .tc main_arg16) := (R20_keep V main_arg16 (by decide)).trans (argK_19_main_arg16 V)
theorem argK_21_main_arg16 : R21 V (Proc.devRef .tc main_arg16) = V (Proc.devRef .tc main_arg16) := (R21_keep V main_arg16 (by decide)).trans (argK_20_main_arg16 V)

/-! `main_arg17` -/
theorem argK_1_main_arg17 : R1 V (Proc.devRef .tc main_arg17) = V (Proc.devRef .tc main_arg17) := R1_keep V main_arg17 (by decide)
theorem argK_2_main_arg17 : R2 V (Proc.devRef .tc main_arg17) = V (Proc.devRef .tc main_arg17) := (R2_keep V main_arg17 (by decide)).trans (argK_1_main_arg17 V)
theorem argK_3_main_arg17 : R3 V (Proc.devRef .tc main_arg17) = V (Proc.devRef .tc main_arg17) := (R3_keep V main_arg17 (by decide)).trans (argK_2_main_arg17 V)
theorem argK_4_main_arg17 : R4 V (Proc.devRef .tc main_arg17) = V (Proc.devRef .tc main_arg17) := (R4_keep V main_arg17 (by decide)).trans (argK_3_main_arg17 V)
theorem argK_5_main_arg17 : R5 V (Proc.devRef .tc main_arg17) = V (Proc.devRef .tc main_arg17) := (R5_keep V main_arg17 (by decide)).trans (argK_4_main_arg17 V)
theorem argK_6_main_arg17 : R6 V (Proc.devRef .tc main_arg17) = V (Proc.devRef .tc main_arg17) := (R6_keep V main_arg17 (by decide)).trans (argK_5_main_arg17 V)
theorem argK_7_main_arg17 : R7 V (Proc.devRef .tc main_arg17) = V (Proc.devRef .tc main_arg17) := (R7_keep V main_arg17 (by decide)).trans (argK_6_main_arg17 V)
theorem argK_8_main_arg17 : R8 V (Proc.devRef .tc main_arg17) = V (Proc.devRef .tc main_arg17) := (R8_keep V main_arg17 (by decide)).trans (argK_7_main_arg17 V)
theorem argK_9_main_arg17 : R9 V (Proc.devRef .tc main_arg17) = V (Proc.devRef .tc main_arg17) := (R9_keep V main_arg17 (by decide)).trans (argK_8_main_arg17 V)
theorem argK_10_main_arg17 : R10 V (Proc.devRef .tc main_arg17) = V (Proc.devRef .tc main_arg17) := (R10_keep V main_arg17 (by decide)).trans (argK_9_main_arg17 V)
theorem argK_11_main_arg17 : R11 V (Proc.devRef .tc main_arg17) = V (Proc.devRef .tc main_arg17) := (R11_keep V main_arg17 (by decide)).trans (argK_10_main_arg17 V)
theorem argK_12_main_arg17 : R12 V (Proc.devRef .tc main_arg17) = V (Proc.devRef .tc main_arg17) := (R12_keep V main_arg17 (by decide)).trans (argK_11_main_arg17 V)
theorem argK_13_main_arg17 : R13 V (Proc.devRef .tc main_arg17) = V (Proc.devRef .tc main_arg17) := (R13_keep V main_arg17 (by decide)).trans (argK_12_main_arg17 V)
theorem argK_14_main_arg17 : R14 V (Proc.devRef .tc main_arg17) = V (Proc.devRef .tc main_arg17) := (R14_keep V main_arg17 (by decide)).trans (argK_13_main_arg17 V)
theorem argK_15_main_arg17 : R15 V (Proc.devRef .tc main_arg17) = V (Proc.devRef .tc main_arg17) := (R15_keep V main_arg17 (by decide)).trans (argK_14_main_arg17 V)
theorem argK_16_main_arg17 : R16 V (Proc.devRef .tc main_arg17) = V (Proc.devRef .tc main_arg17) := (R16_keep V main_arg17 (by decide)).trans (argK_15_main_arg17 V)
theorem argK_17_main_arg17 : R17 V (Proc.devRef .tc main_arg17) = V (Proc.devRef .tc main_arg17) := (R17_keep V main_arg17 (by decide)).trans (argK_16_main_arg17 V)
theorem argK_18_main_arg17 : R18 V (Proc.devRef .tc main_arg17) = V (Proc.devRef .tc main_arg17) := (R18_keep V main_arg17 (by decide)).trans (argK_17_main_arg17 V)
theorem argK_19_main_arg17 : R19 V (Proc.devRef .tc main_arg17) = V (Proc.devRef .tc main_arg17) := (R19_keep V main_arg17 (by decide)).trans (argK_18_main_arg17 V)
theorem argK_20_main_arg17 : R20 V (Proc.devRef .tc main_arg17) = V (Proc.devRef .tc main_arg17) := (R20_keep V main_arg17 (by decide)).trans (argK_19_main_arg17 V)
theorem argK_21_main_arg17 : R21 V (Proc.devRef .tc main_arg17) = V (Proc.devRef .tc main_arg17) := (R21_keep V main_arg17 (by decide)).trans (argK_20_main_arg17 V)

/-! `main_arg18` -/
theorem argK_1_main_arg18 : R1 V (Proc.devRef .tc main_arg18) = V (Proc.devRef .tc main_arg18) := R1_keep V main_arg18 (by decide)
theorem argK_2_main_arg18 : R2 V (Proc.devRef .tc main_arg18) = V (Proc.devRef .tc main_arg18) := (R2_keep V main_arg18 (by decide)).trans (argK_1_main_arg18 V)
theorem argK_3_main_arg18 : R3 V (Proc.devRef .tc main_arg18) = V (Proc.devRef .tc main_arg18) := (R3_keep V main_arg18 (by decide)).trans (argK_2_main_arg18 V)
theorem argK_4_main_arg18 : R4 V (Proc.devRef .tc main_arg18) = V (Proc.devRef .tc main_arg18) := (R4_keep V main_arg18 (by decide)).trans (argK_3_main_arg18 V)
theorem argK_5_main_arg18 : R5 V (Proc.devRef .tc main_arg18) = V (Proc.devRef .tc main_arg18) := (R5_keep V main_arg18 (by decide)).trans (argK_4_main_arg18 V)
theorem argK_6_main_arg18 : R6 V (Proc.devRef .tc main_arg18) = V (Proc.devRef .tc main_arg18) := (R6_keep V main_arg18 (by decide)).trans (argK_5_main_arg18 V)
theorem argK_7_main_arg18 : R7 V (Proc.devRef .tc main_arg18) = V (Proc.devRef .tc main_arg18) := (R7_keep V main_arg18 (by decide)).trans (argK_6_main_arg18 V)
theorem argK_8_main_arg18 : R8 V (Proc.devRef .tc main_arg18) = V (Proc.devRef .tc main_arg18) := (R8_keep V main_arg18 (by decide)).trans (argK_7_main_arg18 V)
theorem argK_9_main_arg18 : R9 V (Proc.devRef .tc main_arg18) = V (Proc.devRef .tc main_arg18) := (R9_keep V main_arg18 (by decide)).trans (argK_8_main_arg18 V)
theorem argK_10_main_arg18 : R10 V (Proc.devRef .tc main_arg18) = V (Proc.devRef .tc main_arg18) := (R10_keep V main_arg18 (by decide)).trans (argK_9_main_arg18 V)
theorem argK_11_main_arg18 : R11 V (Proc.devRef .tc main_arg18) = V (Proc.devRef .tc main_arg18) := (R11_keep V main_arg18 (by decide)).trans (argK_10_main_arg18 V)
theorem argK_12_main_arg18 : R12 V (Proc.devRef .tc main_arg18) = V (Proc.devRef .tc main_arg18) := (R12_keep V main_arg18 (by decide)).trans (argK_11_main_arg18 V)
theorem argK_13_main_arg18 : R13 V (Proc.devRef .tc main_arg18) = V (Proc.devRef .tc main_arg18) := (R13_keep V main_arg18 (by decide)).trans (argK_12_main_arg18 V)
theorem argK_14_main_arg18 : R14 V (Proc.devRef .tc main_arg18) = V (Proc.devRef .tc main_arg18) := (R14_keep V main_arg18 (by decide)).trans (argK_13_main_arg18 V)
theorem argK_15_main_arg18 : R15 V (Proc.devRef .tc main_arg18) = V (Proc.devRef .tc main_arg18) := (R15_keep V main_arg18 (by decide)).trans (argK_14_main_arg18 V)
theorem argK_16_main_arg18 : R16 V (Proc.devRef .tc main_arg18) = V (Proc.devRef .tc main_arg18) := (R16_keep V main_arg18 (by decide)).trans (argK_15_main_arg18 V)
theorem argK_17_main_arg18 : R17 V (Proc.devRef .tc main_arg18) = V (Proc.devRef .tc main_arg18) := (R17_keep V main_arg18 (by decide)).trans (argK_16_main_arg18 V)
theorem argK_18_main_arg18 : R18 V (Proc.devRef .tc main_arg18) = V (Proc.devRef .tc main_arg18) := (R18_keep V main_arg18 (by decide)).trans (argK_17_main_arg18 V)
theorem argK_19_main_arg18 : R19 V (Proc.devRef .tc main_arg18) = V (Proc.devRef .tc main_arg18) := (R19_keep V main_arg18 (by decide)).trans (argK_18_main_arg18 V)
theorem argK_20_main_arg18 : R20 V (Proc.devRef .tc main_arg18) = V (Proc.devRef .tc main_arg18) := (R20_keep V main_arg18 (by decide)).trans (argK_19_main_arg18 V)
theorem argK_21_main_arg18 : R21 V (Proc.devRef .tc main_arg18) = V (Proc.devRef .tc main_arg18) := (R21_keep V main_arg18 (by decide)).trans (argK_20_main_arg18 V)

/-! `main_arg19` -/
theorem argK_1_main_arg19 : R1 V (Proc.devRef .tc main_arg19) = V (Proc.devRef .tc main_arg19) := R1_keep V main_arg19 (by decide)
theorem argK_2_main_arg19 : R2 V (Proc.devRef .tc main_arg19) = V (Proc.devRef .tc main_arg19) := (R2_keep V main_arg19 (by decide)).trans (argK_1_main_arg19 V)
theorem argK_3_main_arg19 : R3 V (Proc.devRef .tc main_arg19) = V (Proc.devRef .tc main_arg19) := (R3_keep V main_arg19 (by decide)).trans (argK_2_main_arg19 V)
theorem argK_4_main_arg19 : R4 V (Proc.devRef .tc main_arg19) = V (Proc.devRef .tc main_arg19) := (R4_keep V main_arg19 (by decide)).trans (argK_3_main_arg19 V)
theorem argK_5_main_arg19 : R5 V (Proc.devRef .tc main_arg19) = V (Proc.devRef .tc main_arg19) := (R5_keep V main_arg19 (by decide)).trans (argK_4_main_arg19 V)
theorem argK_6_main_arg19 : R6 V (Proc.devRef .tc main_arg19) = V (Proc.devRef .tc main_arg19) := (R6_keep V main_arg19 (by decide)).trans (argK_5_main_arg19 V)
theorem argK_7_main_arg19 : R7 V (Proc.devRef .tc main_arg19) = V (Proc.devRef .tc main_arg19) := (R7_keep V main_arg19 (by decide)).trans (argK_6_main_arg19 V)
theorem argK_8_main_arg19 : R8 V (Proc.devRef .tc main_arg19) = V (Proc.devRef .tc main_arg19) := (R8_keep V main_arg19 (by decide)).trans (argK_7_main_arg19 V)
theorem argK_9_main_arg19 : R9 V (Proc.devRef .tc main_arg19) = V (Proc.devRef .tc main_arg19) := (R9_keep V main_arg19 (by decide)).trans (argK_8_main_arg19 V)
theorem argK_10_main_arg19 : R10 V (Proc.devRef .tc main_arg19) = V (Proc.devRef .tc main_arg19) := (R10_keep V main_arg19 (by decide)).trans (argK_9_main_arg19 V)
theorem argK_11_main_arg19 : R11 V (Proc.devRef .tc main_arg19) = V (Proc.devRef .tc main_arg19) := (R11_keep V main_arg19 (by decide)).trans (argK_10_main_arg19 V)
theorem argK_12_main_arg19 : R12 V (Proc.devRef .tc main_arg19) = V (Proc.devRef .tc main_arg19) := (R12_keep V main_arg19 (by decide)).trans (argK_11_main_arg19 V)
theorem argK_13_main_arg19 : R13 V (Proc.devRef .tc main_arg19) = V (Proc.devRef .tc main_arg19) := (R13_keep V main_arg19 (by decide)).trans (argK_12_main_arg19 V)
theorem argK_14_main_arg19 : R14 V (Proc.devRef .tc main_arg19) = V (Proc.devRef .tc main_arg19) := (R14_keep V main_arg19 (by decide)).trans (argK_13_main_arg19 V)
theorem argK_15_main_arg19 : R15 V (Proc.devRef .tc main_arg19) = V (Proc.devRef .tc main_arg19) := (R15_keep V main_arg19 (by decide)).trans (argK_14_main_arg19 V)
theorem argK_16_main_arg19 : R16 V (Proc.devRef .tc main_arg19) = V (Proc.devRef .tc main_arg19) := (R16_keep V main_arg19 (by decide)).trans (argK_15_main_arg19 V)
theorem argK_17_main_arg19 : R17 V (Proc.devRef .tc main_arg19) = V (Proc.devRef .tc main_arg19) := (R17_keep V main_arg19 (by decide)).trans (argK_16_main_arg19 V)
theorem argK_18_main_arg19 : R18 V (Proc.devRef .tc main_arg19) = V (Proc.devRef .tc main_arg19) := (R18_keep V main_arg19 (by decide)).trans (argK_17_main_arg19 V)
theorem argK_19_main_arg19 : R19 V (Proc.devRef .tc main_arg19) = V (Proc.devRef .tc main_arg19) := (R19_keep V main_arg19 (by decide)).trans (argK_18_main_arg19 V)
theorem argK_20_main_arg19 : R20 V (Proc.devRef .tc main_arg19) = V (Proc.devRef .tc main_arg19) := (R20_keep V main_arg19 (by decide)).trans (argK_19_main_arg19 V)
theorem argK_21_main_arg19 : R21 V (Proc.devRef .tc main_arg19) = V (Proc.devRef .tc main_arg19) := (R21_keep V main_arg19 (by decide)).trans (argK_20_main_arg19 V)

end Cert.ReferenceIdeal.Stage

end
-- ==== Proof.RCarry0.lean ====
/- A buffer one stretch of the reference writes and a later stretch reads keeps its contents through the stretches
   between, none of which writes it: one lemma per buffer and stretch, each from the one before; here the buffers
   written in the first layer's stretches. -/
import proofs.«159317_j31121333027532_1_alg».proof.Proof.RefChunks

noncomputable section

namespace Cert.ReferenceIdeal.Stage

open Cert.ReferenceIdeal Cert.ReferenceIdeal.Chunks Idealize.ShloMosaic Idealize.ShloMosaic.StableHlo

variable {F : FTy → Type} [FloatOps F] (V : Valuation τ sig (Elt F))

/-! `main_v4`, written by `cP`. -/
theorem carry_main_v4_1_2 : R2 V (Proc.devRef .tc main_v4) = R1 V (Proc.devRef .tc main_v4) := R2_keep V main_v4 (by decide)
theorem carry_main_v4_1_3 : R3 V (Proc.devRef .tc main_v4) = R1 V (Proc.devRef .tc main_v4) := (R3_keep V main_v4 (by decide)).trans (carry_main_v4_1_2 V)
theorem carry_main_v4_1_4 : R4 V (Proc.devRef .tc main_v4) = R1 V (Proc.devRef .tc main_v4) := (R4_keep V main_v4 (by decide)).trans (carry_main_v4_1_3 V)
theorem carry_main_v4_1_5 : R5 V (Proc.devRef .tc main_v4) = R1 V (Proc.devRef .tc main_v4) := (R5_keep V main_v4 (by decide)).trans (carry_main_v4_1_4 V)
theorem carry_main_v4_1_6 : R6 V (Proc.devRef .tc main_v4) = R1 V (Proc.devRef .tc main_v4) := (R6_keep V main_v4 (by decide)).trans (carry_main_v4_1_5 V)

/-! `main_v9`, written by `cP`. -/
theorem carry_main_v9_1_2 : R2 V (Proc.devRef .tc main_v9) = R1 V (Proc.devRef .tc main_v9) := R2_keep V main_v9 (by decide)
theorem carry_main_v9_1_3 : R3 V (Proc.devRef .tc main_v9) = R1 V (Proc.devRef .tc main_v9) := (R3_keep V main_v9 (by decide)).trans (carry_main_v9_1_2 V)
theorem carry_main_v9_1_4 : R4 V (Proc.devRef .tc main_v9) = R1 V (Proc.devRef .tc main_v9) := (R4_keep V main_v9 (by decide)).trans (carry_main_v9_1_3 V)
theorem carry_main_v9_1_5 : R5 V (Proc.devRef .tc main_v9) = R1 V (Proc.devRef .tc main_v9) := (R5_keep V main_v9 (by decide)).trans (carry_main_v9_1_4 V)
theorem carry_main_v9_1_6 : R6 V (Proc.devRef .tc main_v9) = R1 V (Proc.devRef .tc main_v9) := (R6_keep V main_v9 (by decide)).trans (carry_main_v9_1_5 V)
theorem carry_main_v9_1_7 : R7 V (Proc.devRef .tc main_v9) = R1 V (Proc.devRef .tc main_v9) := (R7_keep V main_v9 (by decide)).trans (carry_main_v9_1_6 V)

/-! `main_v14`, written by `cP`. -/
theorem carry_main_v14_1_2 : R2 V (Proc.devRef .tc main_v14) = R1 V (Proc.devRef .tc main_v14) := R2_keep V main_v14 (by decide)
theorem carry_main_v14_1_3 : R3 V (Proc.devRef .tc main_v14) = R1 V (Proc.devRef .tc main_v14) := (R3_keep V main_v14 (by decide)).trans (carry_main_v14_1_2 V)
theorem carry_main_v14_1_4 : R4 V (Proc.devRef .tc main_v14) = R1 V (Proc.devRef .tc main_v14) := (R4_keep V main_v14 (by decide)).trans (carry_main_v14_1_3 V)
theorem carry_main_v14_1_5 : R5 V (Proc.devRef .tc main_v14) = R1 V (Proc.devRef .tc main_v14) := (R5_keep V main_v14 (by decide)).trans (carry_main_v14_1_4 V)
theorem carry_main_v14_1_6 : R6 V (Proc.devRef .tc main_v14) = R1 V (Proc.devRef .tc main_v14) := (R6_keep V main_v14 (by decide)).trans (carry_main_v14_1_5 V)
theorem carry_main_v14_1_7 : R7 V (Proc.devRef .tc main_v14) = R1 V (Proc.devRef .tc main_v14) := (R7_keep V main_v14 (by decide)).trans (carry_main_v14_1_6 V)

/-! `main_v16`, written by `cL0`. -/
theorem carry_main_v16_2_3 : R3 V (Proc.devRef .tc main_v16) = R2 V (Proc.devRef .tc main_v16) := R3_keep V main_v16 (by decide)
theorem carry_main_v16_2_4 : R4 V (Proc.devRef .tc main_v16) = R2 V (Proc.devRef .tc main_v16) := (R4_keep V main_v16 (by decide)).trans (carry_main_v16_2_3 V)
theorem carry_main_v16_2_5 : R5 V (Proc.devRef .tc main_v16) = R2 V (Proc.devRef .tc main_v16) := (R5_keep V main_v16 (by decide)).trans (carry_main_v16_2_4 V)
theorem carry_main_v16_2_6 : R6 V (Proc.devRef .tc main_v16) = R2 V (Proc.devRef .tc main_v16) := (R6_keep V main_v16 (by decide)).trans (carry_main_v16_2_5 V)
theorem carry_main_v16_2_7 : R7 V (Proc.devRef .tc main_v16) = R2 V (Proc.devRef .tc main_v16) := (R7_keep V main_v16 (by decide)).trans (carry_main_v16_2_6 V)

/-! `main_v18`, written by `cL0`. -/
theorem carry_main_v18_2_3 : R3 V (Proc.devRef .tc main_v18) = R2 V (Proc.devRef .tc main_v18) := R3_keep V main_v18 (by decide)
theorem carry_main_v18_2_4 : R4 V (Proc.devRef .tc main_v18) = R2 V (Proc.devRef .tc main_v18) := (R4_keep V main_v18 (by decide)).trans (carry_main_v18_2_3 V)
theorem carry_main_v18_2_5 : R5 V (Proc.devRef .tc main_v18) = R2 V (Proc.devRef .tc main_v18) := (R5_keep V main_v18 (by decide)).trans (carry_main_v18_2_4 V)
theorem carry_main_v18_2_6 : R6 V (Proc.devRef .tc main_v18) = R2 V (Proc.devRef .tc main_v18) := (R6_keep V main_v18 (by decide)).trans (carry_main_v18_2_5 V)
theorem carry_main_v18_2_7 : R7 V (Proc.devRef .tc main_v18) = R2 V (Proc.devRef .tc main_v18) := (R7_keep V main_v18 (by decide)).trans (carry_main_v18_2_6 V)

/-! `main_v20`, written by `cL0`. -/
theorem carry_main_v20_2_3 : R3 V (Proc.devRef .tc main_v20) = R2 V (Proc.devRef .tc main_v20) := R3_keep V main_v20 (by decide)
theorem carry_main_v20_2_4 : R4 V (Proc.devRef .tc main_v20) = R2 V (Proc.devRef .tc main_v20) := (R4_keep V main_v20 (by decide)).trans (carry_main_v20_2_3 V)
theorem carry_main_v20_2_5 : R5 V (Proc.devRef .tc main_v20) = R2 V (Proc.devRef .tc main_v20) := (R5_keep V main_v20 (by decide)).trans (carry_main_v20_2_4 V)
theorem carry_main_v20_2_6 : R6 V (Proc.devRef .tc main_v20) = R2 V (Proc.devRef .tc main_v20) := (R6_keep V main_v20 (by decide)).trans (carry_main_v20_2_5 V)
theorem carry_main_v20_2_7 : R7 V (Proc.devRef .tc main_v20) = R2 V (Proc.devRef .tc main_v20) := (R7_keep V main_v20 (by decide)).trans (carry_main_v20_2_6 V)

/-! `main_v57`, written by `cE0_0`. -/
theorem carry_main_v57_3_4 : R4 V (Proc.devRef .tc main_v57) = R3 V (Proc.devRef .tc main_v57) := R4_keep V main_v57 (by decide)
theorem carry_main_v57_3_5 : R5 V (Proc.devRef .tc main_v57) = R3 V (Proc.devRef .tc main_v57) := (R5_keep V main_v57 (by decide)).trans (carry_main_v57_3_4 V)
theorem carry_main_v57_3_6 : R6 V (Proc.devRef .tc main_v57) = R3 V (Proc.devRef .tc main_v57) := (R6_keep V main_v57 (by decide)).trans (carry_main_v57_3_5 V)
theorem carry_main_v57_3_7 : R7 V (Proc.devRef .tc main_v57) = R3 V (Proc.devRef .tc main_v57) := (R7_keep V main_v57 (by decide)).trans (carry_main_v57_3_6 V)
theorem carry_main_v57_3_8 : R8 V (Proc.devRef .tc main_v57) = R3 V (Proc.devRef .tc main_v57) := (R8_keep V main_v57 (by decide)).trans (carry_main_v57_3_7 V)
theorem carry_main_v57_3_9 : R9 V (Proc.devRef .tc main_v57) = R3 V (Proc.devRef .tc main_v57) := (R9_keep V main_v57 (by decide)).trans (carry_main_v57_3_8 V)

/-! `main_v94`, written by `cE0_1`. -/
theorem carry_main_v94_4_5 : R5 V (Proc.devRef .tc main_v94) = R4 V (Proc.devRef .tc main_v94) := R5_keep V main_v94 (by decide)
theorem carry_main_v94_4_6 : R6 V (Proc.devRef .tc main_v94) = R4 V (Proc.devRef .tc main_v94) := (R6_keep V main_v94 (by decide)).trans (carry_main_v94_4_5 V)
theorem carry_main_v94_4_7 : R7 V (Proc.devRef .tc main_v94) = R4 V (Proc.devRef .tc main_v94) := (R7_keep V main_v94 (by decide)).trans (carry_main_v94_4_6 V)
theorem carry_main_v94_4_8 : R8 V (Proc.devRef .tc main_v94) = R4 V (Proc.devRef .tc main_v94) := (R8_keep V main_v94 (by decide)).trans (carry_main_v94_4_7 V)

/-! `main_v131`, written by `cE0_2`. -/
theorem carry_main_v131_5_6 : R6 V (Proc.devRef .tc main_v131) = R5 V (Proc.devRef .tc main_v131) := R6_keep V main_v131 (by decide)
theorem carry_main_v131_5_7 : R7 V (Proc.devRef .tc main_v131) = R5 V (Proc.devRef .tc main_v131) := (R7_keep V main_v131 (by decide)).trans (carry_main_v131_5_6 V)
theorem carry_main_v131_5_8 : R8 V (Proc.devRef .tc main_v131) = R5 V (Proc.devRef .tc main_v131) := (R8_keep V main_v131 (by decide)).trans (carry_main_v131_5_7 V)
theorem carry_main_v131_5_9 : R9 V (Proc.devRef .tc main_v131) = R5 V (Proc.devRef .tc main_v131) := (R9_keep V main_v131 (by decide)).trans (carry_main_v131_5_8 V)
theorem carry_main_v131_5_10 : R10 V (Proc.devRef .tc main_v131) = R5 V (Proc.devRef .tc main_v131) := (R10_keep V main_v131 (by decide)).trans (carry_main_v131_5_9 V)

/-! `main_v168`, written by `cE0_3`. -/
theorem carry_main_v168_6_7 : R7 V (Proc.devRef .tc main_v168) = R6 V (Proc.devRef .tc main_v168) := R7_keep V main_v168 (by decide)
theorem carry_main_v168_6_8 : R8 V (Proc.devRef .tc main_v168) = R6 V (Proc.devRef .tc main_v168) := (R8_keep V main_v168 (by decide)).trans (carry_main_v168_6_7 V)

/-! `main_v205`, written by `cE0_4`. -/
theorem carry_main_v205_7_8 : R8 V (Proc.devRef .tc main_v205) = R7 V (Proc.devRef .tc main_v205) := R8_keep V main_v205 (by decide)
theorem carry_main_v205_7_9 : R9 V (Proc.devRef .tc main_v205) = R7 V (Proc.devRef .tc main_v205) := (R9_keep V main_v205 (by decide)).trans (carry_main_v205_7_8 V)
theorem carry_main_v205_7_10 : R10 V (Proc.devRef .tc main_v205) = R7 V (Proc.devRef .tc main_v205) := (R10_keep V main_v205 (by decide)).trans (carry_main_v205_7_9 V)

/-! `main_v242`, written by `cE0_5`. -/
theorem carry_main_v242_8_9 : R9 V (Proc.devRef .tc main_v242) = R8 V (Proc.devRef .tc main_v242) := R9_keep V main_v242 (by decide)

end Cert.ReferenceIdeal.Stage

end
-- ==== Proof.RCarry1.lean ====
/- A buffer one stretch of the reference writes and a later stretch reads keeps its contents through the stretches
   between, none of which writes it: one lemma per buffer and stretch, each from the one before; here the buffers
   written in the first layer's node stages and in the second layer's stretches. -/
import proofs.«159317_j31121333027532_1_alg».proof.Proof.RefChunks

noncomputable section

namespace Cert.ReferenceIdeal.Stage

open Cert.ReferenceIdeal Cert.ReferenceIdeal.Chunks Idealize.ShloMosaic Idealize.ShloMosaic.StableHlo

variable {F : FTy → Type} [FloatOps F] (V : Valuation τ sig (Elt F))

/-! `main_v274`, written by `cS0_c`. -/
theorem carry_main_v274_9_10 : R10 V (Proc.devRef .tc main_v274) = R9 V (Proc.devRef .tc main_v274) := R10_keep V main_v274 (by decide)
theorem carry_main_v274_9_11 : R11 V (Proc.devRef .tc main_v274) = R9 V (Proc.devRef .tc main_v274) := (R11_keep V main_v274 (by decide)).trans (carry_main_v274_9_10 V)
theorem carry_main_v274_9_12 : R12 V (Proc.devRef .tc main_v274) = R9 V (Proc.devRef .tc main_v274) := (R12_keep V main_v274 (by decide)).trans (carry_main_v274_9_11 V)
theorem carry_main_v274_9_13 : R13 V (Proc.devRef .tc main_v274) = R9 V (Proc.devRef .tc main_v274) := (R13_keep V main_v274 (by decide)).trans (carry_main_v274_9_12 V)
theorem carry_main_v274_9_14 : R14 V (Proc.devRef .tc main_v274) = R9 V (Proc.devRef .tc main_v274) := (R14_keep V main_v274 (by decide)).trans (carry_main_v274_9_13 V)
theorem carry_main_v274_9_15 : R15 V (Proc.devRef .tc main_v274) = R9 V (Proc.devRef .tc main_v274) := (R15_keep V main_v274 (by decide)).trans (carry_main_v274_9_14 V)
theorem carry_main_v274_9_16 : R16 V (Proc.devRef .tc main_v274) = R9 V (Proc.devRef .tc main_v274) := (R16_keep V main_v274 (by decide)).trans (carry_main_v274_9_15 V)

/-! `main_v306`, written by `cS0_p`. -/
theorem carry_main_v306_10_11 : R11 V (Proc.devRef .tc main_v306) = R10 V (Proc.devRef .tc main_v306) := R11_keep V main_v306 (by decide)
theorem carry_main_v306_10_12 : R12 V (Proc.devRef .tc main_v306) = R10 V (Proc.devRef .tc main_v306) := (R12_keep V main_v306 (by decide)).trans (carry_main_v306_10_11 V)
theorem carry_main_v306_10_13 : R13 V (Proc.devRef .tc main_v306) = R10 V (Proc.devRef .tc main_v306) := (R13_keep V main_v306 (by decide)).trans (carry_main_v306_10_12 V)
theorem carry_main_v306_10_14 : R14 V (Proc.devRef .tc main_v306) = R10 V (Proc.devRef .tc main_v306) := (R14_keep V main_v306 (by decide)).trans (carry_main_v306_10_13 V)
theorem carry_main_v306_10_15 : R15 V (Proc.devRef .tc main_v306) = R10 V (Proc.devRef .tc main_v306) := (R15_keep V main_v306 (by decide)).trans (carry_main_v306_10_14 V)
theorem carry_main_v306_10_16 : R16 V (Proc.devRef .tc main_v306) = R10 V (Proc.devRef .tc main_v306) := (R16_keep V main_v306 (by decide)).trans (carry_main_v306_10_15 V)
theorem carry_main_v306_10_17 : R17 V (Proc.devRef .tc main_v306) = R10 V (Proc.devRef .tc main_v306) := (R17_keep V main_v306 (by decide)).trans (carry_main_v306_10_16 V)

/-! `main_v338`, written by `cS0_s`. -/
theorem carry_main_v338_11_12 : R12 V (Proc.devRef .tc main_v338) = R11 V (Proc.devRef .tc main_v338) := R12_keep V main_v338 (by decide)
theorem carry_main_v338_11_13 : R13 V (Proc.devRef .tc main_v338) = R11 V (Proc.devRef .tc main_v338) := (R13_keep V main_v338 (by decide)).trans (carry_main_v338_11_12 V)
theorem carry_main_v338_11_14 : R14 V (Proc.devRef .tc main_v338) = R11 V (Proc.devRef .tc main_v338) := (R14_keep V main_v338 (by decide)).trans (carry_main_v338_11_13 V)
theorem carry_main_v338_11_15 : R15 V (Proc.devRef .tc main_v338) = R11 V (Proc.devRef .tc main_v338) := (R15_keep V main_v338 (by decide)).trans (carry_main_v338_11_14 V)
theorem carry_main_v338_11_16 : R16 V (Proc.devRef .tc main_v338) = R11 V (Proc.devRef .tc main_v338) := (R16_keep V main_v338 (by decide)).trans (carry_main_v338_11_15 V)
theorem carry_main_v338_11_17 : R17 V (Proc.devRef .tc main_v338) = R11 V (Proc.devRef .tc main_v338) := (R17_keep V main_v338 (by decide)).trans (carry_main_v338_11_16 V)

/-! `main_v340`, written by `cL1`. -/
theorem carry_main_v340_12_13 : R13 V (Proc.devRef .tc main_v340) = R12 V (Proc.devRef .tc main_v340) := R13_keep V main_v340 (by decide)
theorem carry_main_v340_12_14 : R14 V (Proc.devRef .tc main_v340) = R12 V (Proc.devRef .tc main_v340) := (R14_keep V main_v340 (by decide)).trans (carry_main_v340_12_13 V)
theorem carry_main_v340_12_15 : R15 V (Proc.devRef .tc main_v340) = R12 V (Proc.devRef .tc main_v340) := (R15_keep V main_v340 (by decide)).trans (carry_main_v340_12_14 V)
theorem carry_main_v340_12_16 : R16 V (Proc.devRef .tc main_v340) = R12 V (Proc.devRef .tc main_v340) := (R16_keep V main_v340 (by decide)).trans (carry_main_v340_12_15 V)
theorem carry_main_v340_12_17 : R17 V (Proc.devRef .tc main_v340) = R12 V (Proc.devRef .tc main_v340) := (R17_keep V main_v340 (by decide)).trans (carry_main_v340_12_16 V)

/-! `main_v342`, written by `cL1`. -/
theorem carry_main_v342_12_13 : R13 V (Proc.devRef .tc main_v342) = R12 V (Proc.devRef .tc main_v342) := R13_keep V main_v342 (by decide)
theorem carry_main_v342_12_14 : R14 V (Proc.devRef .tc main_v342) = R12 V (Proc.devRef .tc main_v342) := (R14_keep V main_v342 (by decide)).trans (carry_main_v342_12_13 V)
theorem carry_main_v342_12_15 : R15 V (Proc.devRef .tc main_v342) = R12 V (Proc.devRef .tc main_v342) := (R15_keep V main_v342 (by decide)).trans (carry_main_v342_12_14 V)
theorem carry_main_v342_12_16 : R16 V (Proc.devRef .tc main_v342) = R12 V (Proc.devRef .tc main_v342) := (R16_keep V main_v342 (by decide)).trans (carry_main_v342_12_15 V)
theorem carry_main_v342_12_17 : R17 V (Proc.devRef .tc main_v342) = R12 V (Proc.devRef .tc main_v342) := (R17_keep V main_v342 (by decide)).trans (carry_main_v342_12_16 V)

/-! `main_v344`, written by `cL1`. -/
theorem carry_main_v344_12_13 : R13 V (Proc.devRef .tc main_v344) = R12 V (Proc.devRef .tc main_v344) := R13_keep V main_v344 (by decide)
theorem carry_main_v344_12_14 : R14 V (Proc.devRef .tc main_v344) = R12 V (Proc.devRef .tc main_v344) := (R14_keep V main_v344 (by decide)).trans (carry_main_v344_12_13 V)
theorem carry_main_v344_12_15 : R15 V (Proc.devRef .tc main_v344) = R12 V (Proc.devRef .tc main_v344) := (R15_keep V main_v344 (by decide)).trans (carry_main_v344_12_14 V)
theorem carry_main_v344_12_16 : R16 V (Proc.devRef .tc main_v344) = R12 V (Proc.devRef .tc main_v344) := (R16_keep V main_v344 (by decide)).trans (carry_main_v344_12_15 V)
theorem carry_main_v344_12_17 : R17 V (Proc.devRef .tc main_v344) = R12 V (Proc.devRef .tc main_v344) := (R17_keep V main_v344 (by decide)).trans (carry_main_v344_12_16 V)

/-! `main_v381`, written by `cE1_0`. -/
theorem carry_main_v381_13_14 : R14 V (Proc.devRef .tc main_v381) = R13 V (Proc.devRef .tc main_v381) := R14_keep V main_v381 (by decide)
theorem carry_main_v381_13_15 : R15 V (Proc.devRef .tc main_v381) = R13 V (Proc.devRef .tc main_v381) := (R15_keep V main_v381 (by decide)).trans (carry_main_v381_13_14 V)
theorem carry_main_v381_13_16 : R16 V (Proc.devRef .tc main_v381) = R13 V (Proc.devRef .tc main_v381) := (R16_keep V main_v381 (by decide)).trans (carry_main_v381_13_15 V)
theorem carry_main_v381_13_17 : R17 V (Proc.devRef .tc main_v381) = R13 V (Proc.devRef .tc main_v381) := (R17_keep V main_v381 (by decide)).trans (carry_main_v381_13_16 V)
theorem carry_main_v381_13_18 : R18 V (Proc.devRef .tc main_v381) = R13 V (Proc.devRef .tc main_v381) := (R18_keep V main_v381 (by decide)).trans (carry_main_v381_13_17 V)
theorem carry_main_v381_13_19 : R19 V (Proc.devRef .tc main_v381) = R13 V (Proc.devRef .tc main_v381) := (R19_keep V main_v381 (by decide)).trans (carry_main_v381_13_18 V)

/-! `main_v418`, written by `cE1_1`. -/
theorem carry_main_v418_14_15 : R15 V (Proc.devRef .tc main_v418) = R14 V (Proc.devRef .tc main_v418) := R15_keep V main_v418 (by decide)
theorem carry_main_v418_14_16 : R16 V (Proc.devRef .tc main_v418) = R14 V (Proc.devRef .tc main_v418) := (R16_keep V main_v418 (by decide)).trans (carry_main_v418_14_15 V)
theorem carry_main_v418_14_17 : R17 V (Proc.devRef .tc main_v418) = R14 V (Proc.devRef .tc main_v418) := (R17_keep V main_v418 (by decide)).trans (carry_main_v418_14_16 V)
theorem carry_main_v418_14_18 : R18 V (Proc.devRef .tc main_v418) = R14 V (Proc.devRef .tc main_v418) := (R18_keep V main_v418 (by decide)).trans (carry_main_v418_14_17 V)

/-! `main_v455`, written by `cE1_2`. -/
theorem carry_main_v455_15_16 : R16 V (Proc.devRef .tc main_v455) = R15 V (Proc.devRef .tc main_v455) := R16_keep V main_v455 (by decide)
theorem carry_main_v455_15_17 : R17 V (Proc.devRef .tc main_v455) = R15 V (Proc.devRef .tc main_v455) := (R17_keep V main_v455 (by decide)).trans (carry_main_v455_15_16 V)
theorem carry_main_v455_15_18 : R18 V (Proc.devRef .tc main_v455) = R15 V (Proc.devRef .tc main_v455) := (R18_keep V main_v455 (by decide)).trans (carry_main_v455_15_17 V)
theorem carry_main_v455_15_19 : R19 V (Proc.devRef .tc main_v455) = R15 V (Proc.devRef .tc main_v455) := (R19_keep V main_v455 (by decide)).trans (carry_main_v455_15_18 V)
theorem carry_main_v455_15_20 : R20 V (Proc.devRef .tc main_v455) = R15 V (Proc.devRef .tc main_v455) := (R20_keep V main_v455 (by decide)).trans (carry_main_v455_15_19 V)

/-! `main_v492`, written by `cE1_3`. -/
theorem carry_main_v492_16_17 : R17 V (Proc.devRef .tc main_v492) = R16 V (Proc.devRef .tc main_v492) := R17_keep V main_v492 (by decide)
theorem carry_main_v492_16_18 : R18 V (Proc.devRef .tc main_v492) = R16 V (Proc.devRef .tc main_v492) := (R18_keep V main_v492 (by decide)).trans (carry_main_v492_16_17 V)

/-! `main_v529`, written by `cE1_4`. -/
theorem carry_main_v529_17_18 : R18 V (Proc.devRef .tc main_v529) = R17 V (Proc.devRef .tc main_v529) := R18_keep V main_v529 (by decide)
theorem carry_main_v529_17_19 : R19 V (Proc.devRef .tc main_v529) = R17 V (Proc.devRef .tc main_v529) := (R19_keep V main_v529 (by decide)).trans (carry_main_v529_17_18 V)
theorem carry_main_v529_17_20 : R20 V (Proc.devRef .tc main_v529) = R17 V (Proc.devRef .tc main_v529) := (R20_keep V main_v529 (by decide)).trans (carry_main_v529_17_19 V)

/-! `main_v566`, written by `cE1_5`. -/
theorem carry_main_v566_18_19 : R19 V (Proc.devRef .tc main_v566) = R18 V (Proc.devRef .tc main_v566) := R19_keep V main_v566 (by decide)

/-! `main_v598`, written by `cS1_c`. -/
theorem carry_main_v598_19_20 : R20 V (Proc.devRef .tc main_v598) = R19 V (Proc.devRef .tc main_v598) := R20_keep V main_v598 (by decide)
theorem carry_main_v598_19_21 : R21 V (Proc.devRef .tc main_v598) = R19 V (Proc.devRef .tc main_v598) := (R21_keep V main_v598 (by decide)).trans (carry_main_v598_19_20 V)

/-! `main_v630`, written by `cS1_p`. -/
theorem carry_main_v630_20_21 : R21 V (Proc.devRef .tc main_v630) = R20 V (Proc.devRef .tc main_v630) := R21_keep V main_v630 (by decide)

end Cert.ReferenceIdeal.Stage

end
-- ==== Proof.RWeights.lean ====
/- The reference's per-layer weights, the arguments and the carried buffers, gathered; and the per-layer weights after
   their stretch read at an index from the start contents. -/
import proofs.«159317_j31121333027532_1_alg».proof.Proof.RSlices
import proofs.«159317_j31121333027532_1_alg».proof.Proof.RArgs0
import proofs.«159317_j31121333027532_1_alg».proof.Proof.RArgs1
import proofs.«159317_j31121333027532_1_alg».proof.Proof.RArgs2
import proofs.«159317_j31121333027532_1_alg».proof.Proof.RArgs3
import proofs.«159317_j31121333027532_1_alg».proof.Proof.RCarry0
import proofs.«159317_j31121333027532_1_alg».proof.Proof.RCarry1

noncomputable section

namespace Cert.ReferenceIdeal.Stage

open Cert.ReferenceIdeal Cert.ReferenceIdeal.Chunks Idealize.ShloMosaic Idealize.ShloMosaic.StableHlo Idealize.ShloMosaic.ValueIdx

/-! ## The per-layer weights after their stretch, from the start contents -/

/-- `main_v16` after the stretch `cL0`, from the start contents: at `(e, j, k)` it is `main_arg15` at `(0, e, j, k)`. -/
theorem R2_main_v16_apply (V : Valuation τ sig (Elt Ideal)) (e : Fin 6) (j k : Fin 128) :
    (R2 V (Proc.devRef .tc main_v16) : Vec Ideal S6x128x128 .f32) (ix3 e j k)
      = (V (Proc.devRef .tc main_arg15) : Vec Ideal S2x6x128x128 .f32) (ix4 (0 : Fin 2) e j k) :=
  (sliceWl0 (R1 V) e j k).trans (by rw [argK_1_main_arg15])

/-- `main_v18` after the stretch `cL0`, from the start contents: at `(e, j)` it is `main_arg16` at `(0, e, j)`. -/
theorem R2_main_v18_apply (V : Valuation τ sig (Elt Ideal)) (e : Fin 6) (j : Fin 128) :
    (R2 V (Proc.devRef .tc main_v18) : Vec Ideal S6x128 .f32) (ix2 e j)
      = (V (Proc.devRef .tc main_arg16) : Vec Ideal S2x6x128 .f32) (ix3 (0 : Fin 2) e j) :=
  (sliceBl0 (R1 V) e j).trans (by rw [argK_1_main_arg16])

/-- `main_v20` after the stretch `cL0`, from the start contents: at `(e, j, k)` it is `main_arg17` at `(0, e, j, k)`. -/
theorem R2_main_v20_apply (V : Valuation τ sig (Elt Ideal)) (e : Fin 6) (j k : Fin 128) :
    (R2 V (Proc.devRef .tc main_v20) : Vec Ideal S6x128x128 .f32) (ix3 e j k)
      = (V (Proc.devRef .tc main_arg17) : Vec Ideal S2x6x128x128 .f32) (ix4 (0 : Fin 2) e j k) :=
  (sliceWr0 (R1 V) e j k).trans (by rw [argK_1_main_arg17])

/-- `main_v340` after the stretch `cL1`, from the start contents: at `(e, j, k)` it is `main_arg15` at `(1, e, j, k)`. -/
theorem R12_main_v340_apply (V : Valuation τ sig (Elt Ideal)) (e : Fin 6) (j k : Fin 128) :
    (R12 V (Proc.devRef .tc main_v340) : Vec Ideal S6x128x128 .f32) (ix3 e j k)
      = (V (Proc.devRef .tc main_arg15) : Vec Ideal S2x6x128x128 .f32) (ix4 (1 : Fin 2) e j k) :=
  (sliceWl1 (R11 V) e j k).trans (by rw [argK_11_main_arg15])

/-- `main_v342` after the stretch `cL1`, from the start contents: at `(e, j)` it is `main_arg16` at `(1, e, j)`. -/
theorem R12_main_v342_apply (V : Valuation τ sig (Elt Ideal)) (e : Fin 6) (j : Fin 128) :
    (R12 V (Proc.devRef .tc main_v342) : Vec Ideal S6x128 .f32) (ix2 e j)
      = (V (Proc.devRef .tc main_arg16) : Vec Ideal S2x6x128 .f32) (ix3 (1 : Fin 2) e j) :=
  (sliceBl1 (R11 V) e j).trans (by rw [argK_11_main_arg16])

/-- `main_v344` after the stretch `cL1`, from the start contents: at `(e, j, k)` it is `main_arg17` at `(1, e, j, k)`. -/
theorem R12_main_v344_apply (V : Valuation τ sig (Elt Ideal)) (e : Fin 6) (j k : Fin 128) :
    (R12 V (Proc.devRef .tc main_v344) : Vec Ideal S6x128x128 .f32) (ix3 e j k)
      = (V (Proc.devRef .tc main_arg17) : Vec Ideal S2x6x128x128 .f32) (ix4 (1 : Fin 2) e j k) :=
  (sliceWr1 (R11 V) e j k).trans (by rw [argK_11_main_arg17])

end Cert.ReferenceIdeal.Stage

end
-- ==== Proof.RWt.lean ====
/-
  The reference program's per-relation weights and per-node-type normalisation parameters, read at an index at the
  contents each stretch starts from, in terms of the contents the program starts from.

  Layer `l`'s stretch cuts member `l` of the stacked weights Wl, bl, Wr; the stretch of relation `e` starts
  `e` stretches later, none of which writes those three arrays, so there they still hold member `l`: entry
  `(e, j, k)` is the stack's entry `(l, e, j, k)`. The arguments gamma and beta are never written, so each stage
  reads them as they were at the start.
-/
import proofs.«159317_j31121333027532_1_alg».proof.Proof.RWeights

noncomputable section

namespace Cert.ReferenceIdeal.Stage

open Cert.ReferenceIdeal Cert.ReferenceIdeal.Chunks Idealize.ShloMosaic Idealize.ShloMosaic.StableHlo Idealize.ShloMosaic.ValueIdx

/-! ## First layer: relation `e`'s stretch starts from the contents after `2 + e` stretches -/

theorem rwt0_0_wl (V : Valuation τ sig (Elt Ideal)) (j k : Fin 128) :
    (R2 V (Proc.devRef .tc main_v16) : Vec Ideal S6x128x128 .f32) (ix3 (0 : Fin 6) j k)
      = (V (Proc.devRef .tc main_arg15) : Vec Ideal S2x6x128x128 .f32) (ix4 (0 : Fin 2) (0 : Fin 6) j k) :=
  R2_main_v16_apply V (0 : Fin 6) j k

theorem rwt0_0_wr (V : Valuation τ sig (Elt Ideal)) (j k : Fin 128) :
    (R2 V (Proc.devRef .tc main_v20) : Vec Ideal S6x128x128 .f32) (ix3 (0 : Fin 6) j k)
      = (V (Proc.devRef .tc main_arg17) : Vec Ideal S2x6x128x128 .f32) (ix4 (0 : Fin 2) (0 : Fin 6) j k) :=
  R2_main_v20_apply V (0 : Fin 6) j k

theorem rwt0_0_bl (V : Valuation τ sig (Elt Ideal)) (j : Fin 128) :
    (R2 V (Proc.devRef .tc main_v18) : Vec Ideal S6x128 .f32) (ix2 (0 : Fin 6) j)
      = (V (Proc.devRef .tc main_arg16) : Vec Ideal S2x6x128 .f32) (ix3 (0 : Fin 2) (0 : Fin 6) j) :=
  R2_main_v18_apply V (0 : Fin 6) j

theorem rwt0_1_wl (V : Valuation τ sig (Elt Ideal)) (j k : Fin 128) :
    (R3 V (Proc.devRef .tc main_v16) : Vec Ideal S6x128x128 .f32) (ix3 (1 : Fin 6) j k)
      = (V (Proc.devRef .tc main_arg15) : Vec Ideal S2x6x128x128 .f32) (ix4 (0 : Fin 2) (1 : Fin 6) j k) := by
  rw [carry_main_v16_2_3 V]
  exact R2_main_v16_apply V (1 : Fin 6) j k

theorem rwt0_1_wr (V : Valuation τ sig (Elt Ideal)) (j k : Fin 128) :
    (R3 V (Proc.devRef .tc main_v20) : Vec Ideal S6x128x128 .f32) (ix3 (1 : Fin 6) j k)
      = (V (Proc.devRef .tc main_arg17) : Vec Ideal S2x6x128x128 .f32) (ix4 (0 : Fin 2) (1 : Fin 6) j k) := by
  rw [carry_main_v20_2_3 V]
  exact R2_main_v20_apply V (1 : Fin 6) j k

theorem rwt0_1_bl (V : Valuation τ sig (Elt Ideal)) (j : Fin 128) :
    (R3 V (Proc.devRef .tc main_v18) : Vec Ideal S6x128 .f32) (ix2 (1 : Fin 6) j)
      = (V (Proc.devRef .tc main_arg16) : Vec Ideal S2x6x128 .f32) (ix3 (0 : Fin 2) (1 : Fin 6) j) := by
  rw [carry_main_v18_2_3 V]
  exact R2_main_v18_apply V (1 : Fin 6) j

theorem rwt0_2_wl (V : Valuation τ sig (Elt Ideal)) (j k : Fin 128) :
    (R4 V (Proc.devRef .tc main_v16) : Vec Ideal S6x128x128 .f32) (ix3 (2 : Fin 6) j k)
      = (V (Proc.devRef .tc main_arg15) : Vec Ideal S2x6x128x128 .f32) (ix4 (0 : Fin 2) (2 : Fin 6) j k) := by
  rw [carry_main_v16_2_4 V]
  exact R2_main_v16_apply V (2 : Fin 6) j k

theorem rwt0_2_wr (V : Valuation τ sig (Elt Ideal)) (j k : Fin 128) :
    (R4 V (Proc.devRef .tc main_v20) : Vec Ideal S6x128x128 .f32) (ix3 (2 : Fin 6) j k)
      = (V (Proc.devRef .tc main_arg17) : Vec Ideal S2x6x128x128 .f32) (ix4 (0 : Fin 2) (2 : Fin 6) j k) := by
  rw [carry_main_v20_2_4 V]
  exact R2_main_v20_apply V (2 : Fin 6) j k

theorem rwt0_2_bl (V : Valuation τ sig (Elt Ideal)) (j : Fin 128) :
    (R4 V (Proc.devRef .tc main_v18) : Vec Ideal S6x128 .f32) (ix2 (2 : Fin 6) j)
      = (V (Proc.devRef .tc main_arg16) : Vec Ideal S2x6x128 .f32) (ix3 (0 : Fin 2) (2 : Fin 6) j) := by
  rw [carry_main_v18_2_4 V]
  exact R2_main_v18_apply V (2 : Fin 6) j

theorem rwt0_3_wl (V : Valuation τ sig (Elt Ideal)) (j k : Fin 128) :
    (R5 V (Proc.devRef .tc main_v16) : Vec Ideal S6x128x128 .f32) (ix3 (3 : Fin 6) j k)
      = (V (Proc.devRef .tc main_arg15) : Vec Ideal S2x6x128x128 .f32) (ix4 (0 : Fin 2) (3 : Fin 6) j k) := by
  rw [carry_main_v16_2_5 V]
  exact R2_main_v16_apply V (3 : Fin 6) j k

theorem rwt0_3_wr (V : Valuation τ sig (Elt Ideal)) (j k : Fin 128) :
    (R5 V (Proc.devRef .tc main_v20) : Vec Ideal S6x128x128 .f32) (ix3 (3 : Fin 6) j k)
      = (V (Proc.devRef .tc main_arg17) : Vec Ideal S2x6x128x128 .f32) (ix4 (0 : Fin 2) (3 : Fin 6) j k) := by
  rw [carry_main_v20_2_5 V]
  exact R2_main_v20_apply V (3 : Fin 6) j k

theorem rwt0_3_bl (V : Valuation τ sig (Elt Ideal)) (j : Fin 128) :
    (R5 V (Proc.devRef .tc main_v18) : Vec Ideal S6x128 .f32) (ix2 (3 : Fin 6) j)
      = (V (Proc.devRef .tc main_arg16) : Vec Ideal S2x6x128 .f32) (ix3 (0 : Fin 2) (3 : Fin 6) j) := by
  rw [carry_main_v18_2_5 V]
  exact R2_main_v18_apply V (3 : Fin 6) j

theorem rwt0_4_wl (V : Valuation τ sig (Elt Ideal)) (j k : Fin 128) :
    (R6 V (Proc.devRef .tc main_v16) : Vec Ideal S6x128x128 .f32) (ix3 (4 : Fin 6) j k)
      = (V (Proc.devRef .tc main_arg15) : Vec Ideal S2x6x128x128 .f32) (ix4 (0 : Fin 2) (4 : Fin 6) j k) := by
  rw [carry_main_v16_2_6 V]
  exact R2_main_v16_apply V (4 : Fin 6) j k

theorem rwt0_4_wr (V : Valuation τ sig (Elt Ideal)) (j k : Fin 128) :
    (R6 V (Proc.devRef .tc main_v20) : Vec Ideal S6x128x128 .f32) (ix3 (4 : Fin 6) j k)
      = (V (Proc.devRef .tc main_arg17) : Vec Ideal S2x6x128x128 .f32) (ix4 (0 : Fin 2) (4 : Fin 6) j k) := by
  rw [carry_main_v20_2_6 V]
  exact R2_main_v20_apply V (4 : Fin 6) j k

theorem rwt0_4_bl (V : Valuation τ sig (Elt Ideal)) (j : Fin 128) :
    (R6 V (Proc.devRef .tc main_v18) : Vec Ideal S6x128 .f32) (ix2 (4 : Fin 6) j)
      = (V (Proc.devRef .tc main_arg16) : Vec Ideal S2x6x128 .f32) (ix3 (0 : Fin 2) (4 : Fin 6) j) := by
  rw [carry_main_v18_2_6 V]
  exact R2_main_v18_apply V (4 : Fin 6) j

theorem rwt0_5_wl (V : Valuation τ sig (Elt Ideal)) (j k : Fin 128) :
    (R7 V (Proc.devRef .tc main_v16) : Vec Ideal S6x128x128 .f32) (ix3 (5 : Fin 6) j k)
      = (V (Proc.devRef .tc main_arg15) : Vec Ideal S2x6x128x128 .f32) (ix4 (0 : Fin 2) (5 : Fin 6) j k) := by
  rw [carry_main_v16_2_7 V]
  exact R2_main_v16_apply V (5 : Fin 6) j k

theorem rwt0_5_wr (V : Valuation τ sig (Elt Ideal)) (j k : Fin 128) :
    (R7 V (Proc.devRef .tc main_v20) : Vec Ideal S6x128x128 .f32) (ix3 (5 : Fin 6) j k)
      = (V (Proc.devRef .tc main_arg17) : Vec Ideal S2x6x128x128 .f32) (ix4 (0 : Fin 2) (5 : Fin 6) j k) := by
  rw [carry_main_v20_2_7 V]
  exact R2_main_v20_apply V (5 : Fin 6) j k

theorem rwt0_5_bl (V : Valuation τ sig (Elt Ideal)) (j : Fin 128) :
    (R7 V (Proc.devRef .tc main_v18) : Vec Ideal S6x128 .f32) (ix2 (5 : Fin 6) j)
      = (V (Proc.devRef .tc main_arg16) : Vec Ideal S2x6x128 .f32) (ix3 (0 : Fin 2) (5 : Fin 6) j) := by
  rw [carry_main_v18_2_7 V]
  exact R2_main_v18_apply V (5 : Fin 6) j

/-! ## Second layer: relation `e`'s stretch starts from the contents after `12 + e` stretches -/

theorem rwt1_0_wl (V : Valuation τ sig (Elt Ideal)) (j k : Fin 128) :
    (R12 V (Proc.devRef .tc main_v340) : Vec Ideal S6x128x128 .f32) (ix3 (0 : Fin 6) j k)
      = (V (Proc.devRef .tc main_arg15) : Vec Ideal S2x6x128x128 .f32) (ix4 (1 : Fin 2) (0 : Fin 6) j k) :=
  R12_main_v340_apply V (0 : Fin 6) j k

theorem rwt1_0_wr (V : Valuation τ sig (Elt Ideal)) (j k : Fin 128) :
    (R12 V (Proc.devRef .tc main_v344) : Vec Ideal S6x128x128 .f32) (ix3 (0 : Fin 6) j k)
      = (V (Proc.devRef .tc main_arg17) : Vec Ideal S2x6x128x128 .f32) (ix4 (1 : Fin 2) (0 : Fin 6) j k) :=
  R12_main_v344_apply V (0 : Fin 6) j k

theorem rwt1_0_bl (V : Valuation τ sig (Elt Ideal)) (j : Fin 128) :
    (R12 V (Proc.devRef .tc main_v342) : Vec Ideal S6x128 .f32) (ix2 (0 : Fin 6) j)
      = (V (Proc.devRef .tc main_arg16) : Vec Ideal S2x6x128 .f32) (ix3 (1 : Fin 2) (0 : Fin 6) j) :=
  R12_main_v342_apply V (0 : Fin 6) j

theorem rwt1_1_wl (V : Valuation τ sig (Elt Ideal)) (j k : Fin 128) :
    (R13 V (Proc.devRef .tc main_v340) : Vec Ideal S6x128x128 .f32) (ix3 (1 : Fin 6) j k)
      = (V (Proc.devRef .tc main_arg15) : Vec Ideal S2x6x128x128 .f32) (ix4 (1 : Fin 2) (1 : Fin 6) j k) := by
  rw [carry_main_v340_12_13 V]
  exact R12_main_v340_apply V (1 : Fin 6) j k

theorem rwt1_1_wr (V : Valuation τ sig (Elt Ideal)) (j k : Fin 128) :
    (R13 V (Proc.devRef .tc main_v344) : Vec Ideal S6x128x128 .f32) (ix3 (1 : Fin 6) j k)
      = (V (Proc.devRef .tc main_arg17) : Vec Ideal S2x6x128x128 .f32) (ix4 (1 : Fin 2) (1 : Fin 6) j k) := by
  rw [carry_main_v344_12_13 V]
  exact R12_main_v344_apply V (1 : Fin 6) j k

theorem rwt1_1_bl (V : Valuation τ sig (Elt Ideal)) (j : Fin 128) :
    (R13 V (Proc.devRef .tc main_v342) : Vec Ideal S6x128 .f32) (ix2 (1 : Fin 6) j)
      = (V (Proc.devRef .tc main_arg16) : Vec Ideal S2x6x128 .f32) (ix3 (1 : Fin 2) (1 : Fin 6) j) := by
  rw [carry_main_v342_12_13 V]
  exact R12_main_v342_apply V (1 : Fin 6) j

theorem rwt1_2_wl (V : Valuation τ sig (Elt Ideal)) (j k : Fin 128) :
    (R14 V (Proc.devRef .tc main_v340) : Vec Ideal S6x128x128 .f32) (ix3 (2 : Fin 6) j k)
      = (V (Proc.devRef .tc main_arg15) : Vec Ideal S2x6x128x128 .f32) (ix4 (1 : Fin 2) (2 : Fin 6) j k) := by
  rw [carry_main_v340_12_14 V]
  exact R12_main_v340_apply V (2 : Fin 6) j k

theorem rwt1_2_wr (V : Valuation τ sig (Elt Ideal)) (j k : Fin 128) :
    (R14 V (Proc.devRef .tc main_v344) : Vec Ideal S6x128x128 .f32) (ix3 (2 : Fin 6) j k)
      = (V (Proc.devRef .tc main_arg17) : Vec Ideal S2x6x128x128 .f32) (ix4 (1 : Fin 2) (2 : Fin 6) j k) := by
  rw [carry_main_v344_12_14 V]
  exact R12_main_v344_apply V (2 : Fin 6) j k

theorem rwt1_2_bl (V : Valuation τ sig (Elt Ideal)) (j : Fin 128) :
    (R14 V (Proc.devRef .tc main_v342) : Vec Ideal S6x128 .f32) (ix2 (2 : Fin 6) j)
      = (V (Proc.devRef .tc main_arg16) : Vec Ideal S2x6x128 .f32) (ix3 (1 : Fin 2) (2 : Fin 6) j) := by
  rw [carry_main_v342_12_14 V]
  exact R12_main_v342_apply V (2 : Fin 6) j

theorem rwt1_3_wl (V : Valuation τ sig (Elt Ideal)) (j k : Fin 128) :
    (R15 V (Proc.devRef .tc main_v340) : Vec Ideal S6x128x128 .f32) (ix3 (3 : Fin 6) j k)
      = (V (Proc.devRef .tc main_arg15) : Vec Ideal S2x6x128x128 .f32) (ix4 (1 : Fin 2) (3 : Fin 6) j k) := by
  rw [carry_main_v340_12_15 V]
  exact R12_main_v340_apply V (3 : Fin 6) j k

theorem rwt1_3_wr (V : Valuation τ sig (Elt Ideal)) (j k : Fin 128) :
    (R15 V (Proc.devRef .tc main_v344) : Vec Ideal S6x128x128 .f32) (ix3 (3 : Fin 6) j k)
      = (V (Proc.devRef .tc main_arg17) : Vec Ideal S2x6x128x128 .f32) (ix4 (1 : Fin 2) (3 : Fin 6) j k) := by
  rw [carry_main_v344_12_15 V]
  exact R12_main_v344_apply V (3 : Fin 6) j k

theorem rwt1_3_bl (V : Valuation τ sig (Elt Ideal)) (j : Fin 128) :
    (R15 V (Proc.devRef .tc main_v342) : Vec Ideal S6x128 .f32) (ix2 (3 : Fin 6) j)
      = (V (Proc.devRef .tc main_arg16) : Vec Ideal S2x6x128 .f32) (ix3 (1 : Fin 2) (3 : Fin 6) j) := by
  rw [carry_main_v342_12_15 V]
  exact R12_main_v342_apply V (3 : Fin 6) j

theorem rwt1_4_wl (V : Valuation τ sig (Elt Ideal)) (j k : Fin 128) :
    (R16 V (Proc.devRef .tc main_v340) : Vec Ideal S6x128x128 .f32) (ix3 (4 : Fin 6) j k)
      = (V (Proc.devRef .tc main_arg15) : Vec Ideal S2x6x128x128 .f32) (ix4 (1 : Fin 2) (4 : Fin 6) j k) := by
  rw [carry_main_v340_12_16 V]
  exact R12_main_v340_apply V (4 : Fin 6) j k

theorem rwt1_4_wr (V : Valuation τ sig (Elt Ideal)) (j k : Fin 128) :
    (R16 V (Proc.devRef .tc main_v344) : Vec Ideal S6x128x128 .f32) (ix3 (4 : Fin 6) j k)
      = (V (Proc.devRef .tc main_arg17) : Vec Ideal S2x6x128x128 .f32) (ix4 (1 : Fin 2) (4 : Fin 6) j k) := by
  rw [carry_main_v344_12_16 V]
  exact R12_main_v344_apply V (4 : Fin 6) j k

theorem rwt1_4_bl (V : Valuation τ sig (Elt Ideal)) (j : Fin 128) :
    (R16 V (Proc.devRef .tc main_v342) : Vec Ideal S6x128 .f32) (ix2 (4 : Fin 6) j)
      = (V (Proc.devRef .tc main_arg16) : Vec Ideal S2x6x128 .f32) (ix3 (1 : Fin 2) (4 : Fin 6) j) := by
  rw [carry_main_v342_12_16 V]
  exact R12_main_v342_apply V (4 : Fin 6) j

theorem rwt1_5_wl (V : Valuation τ sig (Elt Ideal)) (j k : Fin 128) :
    (R17 V (Proc.devRef .tc main_v340) : Vec Ideal S6x128x128 .f32) (ix3 (5 : Fin 6) j k)
      = (V (Proc.devRef .tc main_arg15) : Vec Ideal S2x6x128x128 .f32) (ix4 (1 : Fin 2) (5 : Fin 6) j k) := by
  rw [carry_main_v340_12_17 V]
  exact R12_main_v340_apply V (5 : Fin 6) j k

theorem rwt1_5_wr (V : Valuation τ sig (Elt Ideal)) (j k : Fin 128) :
    (R17 V (Proc.devRef .tc main_v344) : Vec Ideal S6x128x128 .f32) (ix3 (5 : Fin 6) j k)
      = (V (Proc.devRef .tc main_arg17) : Vec Ideal S2x6x128x128 .f32) (ix4 (1 : Fin 2) (5 : Fin 6) j k) := by
  rw [carry_main_v344_12_17 V]
  exact R12_main_v344_apply V (5 : Fin 6) j k

theorem rwt1_5_bl (V : Valuation τ sig (Elt Ideal)) (j : Fin 128) :
    (R17 V (Proc.devRef .tc main_v342) : Vec Ideal S6x128 .f32) (ix2 (5 : Fin 6) j)
      = (V (Proc.devRef .tc main_arg16) : Vec Ideal S2x6x128 .f32) (ix3 (1 : Fin 2) (5 : Fin 6) j) := by
  rw [carry_main_v342_12_17 V]
  exact R12_main_v342_apply V (5 : Fin 6) j

/-! ## The stage parameters: gamma and beta at the contents each stage starts from -/

theorem rpar0_0_g (V : Valuation τ sig (Elt Ideal)) (j : Fin 128) :
    (R8 V (Proc.devRef .tc main_arg18) : Vec Ideal S2x3x128 .f32) (ix3 (0 : Fin 2) (0 : Fin 3) j)
      = (V (Proc.devRef .tc main_arg18) : Vec Ideal S2x3x128 .f32) (ix3 (0 : Fin 2) (0 : Fin 3) j) := by
  rw [argK_8_main_arg18 V]

theorem rpar0_0_b (V : Valuation τ sig (Elt Ideal)) (j : Fin 128) :
    (R8 V (Proc.devRef .tc main_arg19) : Vec Ideal S2x3x128 .f32) (ix3 (0 : Fin 2) (0 : Fin 3) j)
      = (V (Proc.devRef .tc main_arg19) : Vec Ideal S2x3x128 .f32) (ix3 (0 : Fin 2) (0 : Fin 3) j) := by
  rw [argK_8_main_arg19 V]

theorem rpar0_1_g (V : Valuation τ sig (Elt Ideal)) (j : Fin 128) :
    (R9 V (Proc.devRef .tc main_arg18) : Vec Ideal S2x3x128 .f32) (ix3 (0 : Fin 2) (1 : Fin 3) j)
      = (V (Proc.devRef .tc main_arg18) : Vec Ideal S2x3x128 .f32) (ix3 (0 : Fin 2) (1 : Fin 3) j) := by
  rw [argK_9_main_arg18 V]

theorem rpar0_1_b (V : Valuation τ sig (Elt Ideal)) (j : Fin 128) :
    (R9 V (Proc.devRef .tc main_arg19) : Vec Ideal S2x3x128 .f32) (ix3 (0 : Fin 2) (1 : Fin 3) j)
      = (V (Proc.devRef .tc main_arg19) : Vec Ideal S2x3x128 .f32) (ix3 (0 : Fin 2) (1 : Fin 3) j) := by
  rw [argK_9_main_arg19 V]

theorem rpar0_2_g (V : Valuation τ sig (Elt Ideal)) (j : Fin 128) :
    (R10 V (Proc.devRef .tc main_arg18) : Vec Ideal S2x3x128 .f32) (ix3 (0 : Fin 2) (2 : Fin 3) j)
      = (V (Proc.devRef .tc main_arg18) : Vec Ideal S2x3x128 .f32) (ix3 (0 : Fin 2) (2 : Fin 3) j) := by
  rw [argK_10_main_arg18 V]

theorem rpar0_2_b (V : Valuation τ sig (Elt Ideal)) (j : Fin 128) :
    (R10 V (Proc.devRef .tc main_arg19) : Vec Ideal S2x3x128 .f32) (ix3 (0 : Fin 2) (2 : Fin 3) j)
      = (V (Proc.devRef .tc main_arg19) : Vec Ideal S2x3x128 .f32) (ix3 (0 : Fin 2) (2 : Fin 3) j) := by
  rw [argK_10_main_arg19 V]

theorem rpar1_0_g (V : Valuation τ sig (Elt Ideal)) (j : Fin 128) :
    (R18 V (Proc.devRef .tc main_arg18) : Vec Ideal S2x3x128 .f32) (ix3 (1 : Fin 2) (0 : Fin 3) j)
      = (V (Proc.devRef .tc main_arg18) : Vec Ideal S2x3x128 .f32) (ix3 (1 : Fin 2) (0 : Fin 3) j) := by
  rw [argK_18_main_arg18 V]

theorem rpar1_0_b (V : Valuation τ sig (Elt Ideal)) (j : Fin 128) :
    (R18 V (Proc.devRef .tc main_arg19) : Vec Ideal S2x3x128 .f32) (ix3 (1 : Fin 2) (0 : Fin 3) j)
      = (V (Proc.devRef .tc main_arg19) : Vec Ideal S2x3x128 .f32) (ix3 (1 : Fin 2) (0 : Fin 3) j) := by
  rw [argK_18_main_arg19 V]

theorem rpar1_1_g (V : Valuation τ sig (Elt Ideal)) (j : Fin 128) :
    (R19 V (Proc.devRef .tc main_arg18) : Vec Ideal S2x3x128 .f32) (ix3 (1 : Fin 2) (1 : Fin 3) j)
      = (V (Proc.devRef .tc main_arg18) : Vec Ideal S2x3x128 .f32) (ix3 (1 : Fin 2) (1 : Fin 3) j) := by
  rw [argK_19_main_arg18 V]

theorem rpar1_1_b (V : Valuation τ sig (Elt Ideal)) (j : Fin 128) :
    (R19 V (Proc.devRef .tc main_arg19) : Vec Ideal S2x3x128 .f32) (ix3 (1 : Fin 2) (1 : Fin 3) j)
      = (V (Proc.devRef .tc main_arg19) : Vec Ideal S2x3x128 .f32) (ix3 (1 : Fin 2) (1 : Fin 3) j) := by
  rw [argK_19_main_arg19 V]

theorem rpar1_2_g (V : Valuation τ sig (Elt Ideal)) (j : Fin 128) :
    (R20 V (Proc.devRef .tc main_arg18) : Vec Ideal S2x3x128 .f32) (ix3 (1 : Fin 2) (2 : Fin 3) j)
      = (V (Proc.devRef .tc main_arg18) : Vec Ideal S2x3x128 .f32) (ix3 (1 : Fin 2) (2 : Fin 3) j) := by
  rw [argK_20_main_arg18 V]

theorem rpar1_2_b (V : Valuation τ sig (Elt Ideal)) (j : Fin 128) :
    (R20 V (Proc.devRef .tc main_arg19) : Vec Ideal S2x3x128 .f32) (ix3 (1 : Fin 2) (2 : Fin 3) j)
      = (V (Proc.devRef .tc main_arg19) : Vec Ideal S2x3x128 .f32) (ix3 (1 : Fin 2) (2 : Fin 3) j) := by
  rw [argK_20_main_arg19 V]

end Cert.ReferenceIdeal.Stage
-- ==== Proof.Agree.lean ====
/-
  The two programs are run from memories that agree on the twenty arguments: stated once, between the kernel program's
  launch memory on a device and the reference program's buffer contents there.
-/
import proofs.«159317_j31121333027532_1_alg».proof.KernelIdeal
import proofs.«159317_j31121333027532_1_alg».proof.ReferenceIdeal
import Idealize.ShloMosaic.Lib.StableHlo.Run

noncomputable section

namespace Cert.Glue

open Idealize.ShloMosaic Idealize.ShloMosaic.TcCoe Idealize.SL.Sem Idealize.ShloMosaic.StableHlo

variable {F : FTy → Type} [FloatOps F]

set_option maxHeartbeats 4000000 in
/-- The reference's contents `V` on device `c` hold, argument by argument, what the kernel program's memory `m` holds. -/
def Agree (m : (ℓ : Loc Cert.KernelIdeal.nD Cert.KernelIdeal.τ Cert.KernelIdeal.sig) → Buf (Elt F) ℓ) (c : Dev Cert.KernelIdeal.nD)
    (V : Valuation Cert.ReferenceIdeal.τ Cert.ReferenceIdeal.sig (Elt F)) : Prop :=
  V (Proc.devRef .tc Cert.ReferenceIdeal.main_arg0) = m ((c : Thread Cert.KernelIdeal.nD Cert.KernelIdeal.τ).loc Cert.KernelIdeal.main_arg0)
  ∧ V (Proc.devRef .tc Cert.ReferenceIdeal.main_arg1) = m ((c : Thread Cert.KernelIdeal.nD Cert.KernelIdeal.τ).loc Cert.KernelIdeal.main_arg1)
  ∧ V (Proc.devRef .tc Cert.ReferenceIdeal.main_arg2) = m ((c : Thread Cert.KernelIdeal.nD Cert.KernelIdeal.τ).loc Cert.KernelIdeal.main_arg2)
  ∧ V (Proc.devRef .tc Cert.ReferenceIdeal.main_arg3) = m ((c : Thread Cert.KernelIdeal.nD Cert.KernelIdeal.τ).loc Cert.KernelIdeal.main_arg3)
  ∧ V (Proc.devRef .tc Cert.ReferenceIdeal.main_arg4) = m ((c : Thread Cert.KernelIdeal.nD Cert.KernelIdeal.τ).loc Cert.KernelIdeal.main_arg4)
  ∧ V (Proc.devRef .tc Cert.ReferenceIdeal.main_arg5) = m ((c : Thread Cert.KernelIdeal.nD Cert.KernelIdeal.τ).loc Cert.KernelIdeal.main_arg5)
  ∧ V (Proc.devRef .tc Cert.ReferenceIdeal.main_arg6) = m ((c : Thread Cert.KernelIdeal.nD Cert.KernelIdeal.τ).loc Cert.KernelIdeal.main_arg6)
  ∧ V (Proc.devRef .tc Cert.ReferenceIdeal.main_arg7) = m ((c : Thread Cert.KernelIdeal.nD Cert.KernelIdeal.τ).loc Cert.KernelIdeal.main_arg7)
  ∧ V (Proc.devRef .tc Cert.ReferenceIdeal.main_arg8) = m ((c : Thread Cert.KernelIdeal.nD Cert.KernelIdeal.τ).loc Cert.KernelIdeal.main_arg8)
  ∧ V (Proc.devRef .tc Cert.ReferenceIdeal.main_arg9) = m ((c : Thread Cert.KernelIdeal.nD Cert.KernelIdeal.τ).loc Cert.KernelIdeal.main_arg9)
  ∧ V (Proc.devRef .tc Cert.ReferenceIdeal.main_arg10) = m ((c : Thread Cert.KernelIdeal.nD Cert.KernelIdeal.τ).loc Cert.KernelIdeal.main_arg10)
  ∧ V (Proc.devRef .tc Cert.ReferenceIdeal.main_arg11) = m ((c : Thread Cert.KernelIdeal.nD Cert.KernelIdeal.τ).loc Cert.KernelIdeal.main_arg11)
  ∧ V (Proc.devRef .tc Cert.ReferenceIdeal.main_arg12) = m ((c : Thread Cert.KernelIdeal.nD Cert.KernelIdeal.τ).loc Cert.KernelIdeal.main_arg12)
  ∧ V (Proc.devRef .tc Cert.ReferenceIdeal.main_arg13) = m ((c : Thread Cert.KernelIdeal.nD Cert.KernelIdeal.τ).loc Cert.KernelIdeal.main_arg13)
  ∧ V (Proc.devRef .tc Cert.ReferenceIdeal.main_arg14) = m ((c : Thread Cert.KernelIdeal.nD Cert.KernelIdeal.τ).loc Cert.KernelIdeal.main_arg14)
  ∧ V (Proc.devRef .tc Cert.ReferenceIdeal.main_arg15) = m ((c : Thread Cert.KernelIdeal.nD Cert.KernelIdeal.τ).loc Cert.KernelIdeal.main_arg15)
  ∧ V (Proc.devRef .tc Cert.ReferenceIdeal.main_arg16) = m ((c : Thread Cert.KernelIdeal.nD Cert.KernelIdeal.τ).loc Cert.KernelIdeal.main_arg16)
  ∧ V (Proc.devRef .tc Cert.ReferenceIdeal.main_arg17) = m ((c : Thread Cert.KernelIdeal.nD Cert.KernelIdeal.τ).loc Cert.KernelIdeal.main_arg17)
  ∧ V (Proc.devRef .tc Cert.ReferenceIdeal.main_arg18) = m ((c : Thread Cert.KernelIdeal.nD Cert.KernelIdeal.τ).loc Cert.KernelIdeal.main_arg18)
  ∧ V (Proc.devRef .tc Cert.ReferenceIdeal.main_arg19) = m ((c : Thread Cert.KernelIdeal.nD Cert.KernelIdeal.τ).loc Cert.KernelIdeal.main_arg19)

end Cert.Glue

end
-- ==== Proof.HostSim.lean ====
/- The host operations the two programs share give equal arrays. Each program first projects the three node types'
   input features, x · Wᵀ + b (a transpose, a product, the bias broadcast along the rows and then over the array, a sum),
   and then, in each of its two layers and for each of the six relations, averages the source rows over the incoming
   edges: the edge list's two rows are sliced out, a negative source index is wrapped by the number of source rows, the
   source rows are gathered, added up by destination, the destinations' edges are counted by adding up ones, the count
   is bounded below by 1, and the sum is divided by it. These are the same operations in both programs, one for one,
   under other buffer names; so on equal inputs they give equal arrays. -/
import proofs.«159317_j31121333027532_1_alg».proof.Proof.Gen.KernelIdeal.Launch
import proofs.«159317_j31121333027532_1_alg».proof.Proof.RefChunks

-- the kernel program's first and fourth host stretches are lists of 213 and 198 operations
set_option maxRecDepth 8000

noncomputable section

namespace Cert.Glue

open Idealize.ShloMosaic Idealize.ShloMosaic.StableHlo Idealize.SL.Sem
open Cert.ReferenceIdeal Cert.ReferenceIdeal.Chunks

variable {F : FTy → Type} [FloatOps F]
variable (WK : Valuation Cert.KernelIdeal.τ Cert.KernelIdeal.sig (Elt F)) (WR : Valuation Cert.ReferenceIdeal.τ Cert.ReferenceIdeal.sig (Elt F))

/-- A buffer of the kernel program's device, by its reference. -/
local notation:max "kb(" r ")" => Proc.devRef (τ := Cert.KernelIdeal.τ) (sig := Cert.KernelIdeal.sig) Proc.tc r
/-- A buffer of the reference program's device, by its reference. -/
local notation:max "rb(" r ")" => Proc.devRef (τ := Cert.ReferenceIdeal.τ) (sig := Cert.ReferenceIdeal.sig) Proc.tc r

/-! ## The input projections

Both programs open with the same fifteen operations on the same arguments. -/

set_option maxHeartbeats 4000000 in
/-- The first node type's projected features x · Wᵀ + b are the same array in both programs, given the same
    features, weight and bias. -/
theorem projC (h0 : WR rb(main_arg0) = WK kb(Cert.KernelIdeal.main_arg0)) (h9 : WR rb(main_arg9) = WK kb(Cert.KernelIdeal.main_arg9))
    (h10 : WR rb(main_arg10) = WK kb(Cert.KernelIdeal.main_arg10)) :
    after cP WR rb(main_v4) = after Cert.KernelIdeal.Gen.hostOps0 WK kb(Cert.KernelIdeal.main_v4) := by
  after_results_simp
  rw [h0, h9, h10]
  rfl

set_option maxHeartbeats 4000000 in
/-- The second node type's projected features x · Wᵀ + b are the same array in both programs, given the same
    features, weight and bias. -/
theorem projP (h1 : WR rb(main_arg1) = WK kb(Cert.KernelIdeal.main_arg1)) (h11 : WR rb(main_arg11) = WK kb(Cert.KernelIdeal.main_arg11))
    (h12 : WR rb(main_arg12) = WK kb(Cert.KernelIdeal.main_arg12)) :
    after cP WR rb(main_v9) = after Cert.KernelIdeal.Gen.hostOps0 WK kb(Cert.KernelIdeal.main_v9) := by
  after_results_simp
  rw [h1, h11, h12]
  rfl

set_option maxHeartbeats 4000000 in
/-- The third node type's projected features x · Wᵀ + b are the same array in both programs, given the same
    features, weight and bias. -/
theorem projS (h2 : WR rb(main_arg2) = WK kb(Cert.KernelIdeal.main_arg2)) (h13 : WR rb(main_arg13) = WK kb(Cert.KernelIdeal.main_arg13))
    (h14 : WR rb(main_arg14) = WK kb(Cert.KernelIdeal.main_arg14)) :
    after cP WR rb(main_v14) = after Cert.KernelIdeal.Gen.hostOps0 WK kb(Cert.KernelIdeal.main_v14) := by
  after_results_simp
  rw [h2, h13, h14]
  rfl

/-! ## The first layer's neighbour aggregations

The reference reads the source type's projected features from before its stretch; the kernel program computes them
earlier in the same stretch, so the hypothesis equates what the reference reads with what the kernel program computes. -/

set_option maxHeartbeats 4000000 in
/-- The first relation's mean of the source rows over each destination's incoming edges, first layer: the same array
    in both programs, given the same source features and the same edge list. -/
theorem agg0_0 (hx : WR rb(main_v4) = after Cert.KernelIdeal.Gen.hostOps0 WK kb(Cert.KernelIdeal.main_v4))
    (he : WR rb(main_arg3) = WK kb(Cert.KernelIdeal.main_arg3)) :
    after cE0_0 WR rb(main_v49) = after Cert.KernelIdeal.Gen.hostOps0 WK kb(Cert.KernelIdeal.main_v45) := by
  after_results_simp
  rw [hx, he]
  after_results_simp
  rfl

set_option maxHeartbeats 4000000 in
/-- The second relation's mean of the source rows over each destination's incoming edges, first layer: the same array
    in both programs, given the same source features and the same edge list. -/
theorem agg0_1 (hx : WR rb(main_v9) = after Cert.KernelIdeal.Gen.hostOps0 WK kb(Cert.KernelIdeal.main_v9))
    (he : WR rb(main_arg4) = WK kb(Cert.KernelIdeal.main_arg4)) :
    after cE0_1 WR rb(main_v86) = after Cert.KernelIdeal.Gen.hostOps0 WK kb(Cert.KernelIdeal.main_v68) := by
  after_results_simp
  rw [hx, he]
  after_results_simp
  rfl

set_option maxHeartbeats 4000000 in
/-- The third relation's mean of the source rows over each destination's incoming edges, first layer: the same array
    in both programs, given the same source features and the same edge list. -/
theorem agg0_2 (hx : WR rb(main_v4) = after Cert.KernelIdeal.Gen.hostOps0 WK kb(Cert.KernelIdeal.main_v4))
    (he : WR rb(main_arg5) = WK kb(Cert.KernelIdeal.main_arg5)) :
    after cE0_2 WR rb(main_v123) = after Cert.KernelIdeal.Gen.hostOps0 WK kb(Cert.KernelIdeal.main_v91) := by
  after_results_simp
  rw [hx, he]
  after_results_simp
  rfl

set_option maxHeartbeats 4000000 in
/-- The fourth relation's mean of the source rows over each destination's incoming edges, first layer: the same array
    in both programs, given the same source features and the same edge list. -/
theorem agg0_3 (hx : WR rb(main_v14) = after Cert.KernelIdeal.Gen.hostOps0 WK kb(Cert.KernelIdeal.main_v14))
    (he : WR rb(main_arg6) = WK kb(Cert.KernelIdeal.main_arg6)) :
    after cE0_3 WR rb(main_v160) = after Cert.KernelIdeal.Gen.hostOps0 WK kb(Cert.KernelIdeal.main_v114) := by
  after_results_simp
  rw [hx, he]
  after_results_simp
  rfl

set_option maxHeartbeats 4000000 in
/-- The fifth relation's mean of the source rows over each destination's incoming edges, first layer: the same array
    in both programs, given the same source features and the same edge list. -/
theorem agg0_4 (hx : WR rb(main_v9) = after Cert.KernelIdeal.Gen.hostOps0 WK kb(Cert.KernelIdeal.main_v9))
    (he : WR rb(main_arg7) = WK kb(Cert.KernelIdeal.main_arg7)) :
    after cE0_4 WR rb(main_v197) = after Cert.KernelIdeal.Gen.hostOps0 WK kb(Cert.KernelIdeal.main_v137) := by
  after_results_simp
  rw [hx, he]
  after_results_simp
  rfl

set_option maxHeartbeats 4000000 in
/-- The sixth relation's mean of the source rows over each destination's incoming edges, first layer: the same array
    in both programs, given the same source features and the same edge list. -/
theorem agg0_5 (hx : WR rb(main_v14) = after Cert.KernelIdeal.Gen.hostOps0 WK kb(Cert.KernelIdeal.main_v14))
    (he : WR rb(main_arg8) = WK kb(Cert.KernelIdeal.main_arg8)) :
    after cE0_5 WR rb(main_v234) = after Cert.KernelIdeal.Gen.hostOps0 WK kb(Cert.KernelIdeal.main_v160) := by
  after_results_simp
  rw [hx, he]
  after_results_simp
  rfl

/-! ## The second layer's neighbour aggregations

Both programs read the source type's features, the first layer's output, from before the stretch. -/

set_option maxHeartbeats 4000000 in
/-- The first relation's mean of the source rows over each destination's incoming edges, second layer: the same
    array in both programs, given the same source features and the same edge list. -/
theorem agg1_0 (hx : WR rb(main_v274) = WK kb(Cert.KernelIdeal.main_v177)) (he : WR rb(main_arg3) = WK kb(Cert.KernelIdeal.main_arg3)) :
    after cE1_0 WR rb(main_v373) = after Cert.KernelIdeal.Gen.hostOps3 WK kb(Cert.KernelIdeal.main_v242) := by
  after_results_simp
  rw [hx, he]
  rfl

set_option maxHeartbeats 4000000 in
/-- The second relation's mean of the source rows over each destination's incoming edges, second layer: the same
    array in both programs, given the same source features and the same edge list. -/
theorem agg1_1 (hx : WR rb(main_v306) = WK kb(Cert.KernelIdeal.main_v194)) (he : WR rb(main_arg4) = WK kb(Cert.KernelIdeal.main_arg4)) :
    after cE1_1 WR rb(main_v410) = after Cert.KernelIdeal.Gen.hostOps3 WK kb(Cert.KernelIdeal.main_v265) := by
  after_results_simp
  rw [hx, he]
  rfl

set_option maxHeartbeats 4000000 in
/-- The third relation's mean of the source rows over each destination's incoming edges, second layer: the same
    array in both programs, given the same source features and the same edge list. -/
theorem agg1_2 (hx : WR rb(main_v274) = WK kb(Cert.KernelIdeal.main_v177)) (he : WR rb(main_arg5) = WK kb(Cert.KernelIdeal.main_arg5)) :
    after cE1_2 WR rb(main_v447) = after Cert.KernelIdeal.Gen.hostOps3 WK kb(Cert.KernelIdeal.main_v288) := by
  after_results_simp
  rw [hx, he]
  rfl

set_option maxHeartbeats 4000000 in
/-- The fourth relation's mean of the source rows over each destination's incoming edges, second layer: the same
    array in both programs, given the same source features and the same edge list. -/
theorem agg1_3 (hx : WR rb(main_v338) = WK kb(Cert.KernelIdeal.main_v211)) (he : WR rb(main_arg6) = WK kb(Cert.KernelIdeal.main_arg6)) :
    after cE1_3 WR rb(main_v484) = after Cert.KernelIdeal.Gen.hostOps3 WK kb(Cert.KernelIdeal.main_v311) := by
  after_results_simp
  rw [hx, he]
  rfl

set_option maxHeartbeats 4000000 in
/-- The fifth relation's mean of the source rows over each destination's incoming edges, second layer: the same
    array in both programs, given the same source features and the same edge list. -/
theorem agg1_4 (hx : WR rb(main_v306) = WK kb(Cert.KernelIdeal.main_v194)) (he : WR rb(main_arg7) = WK kb(Cert.KernelIdeal.main_arg7)) :
    after cE1_4 WR rb(main_v521) = after Cert.KernelIdeal.Gen.hostOps3 WK kb(Cert.KernelIdeal.main_v334) := by
  after_results_simp
  rw [hx, he]
  rfl

set_option maxHeartbeats 4000000 in
/-- The sixth relation's mean of the source rows over each destination's incoming edges, second layer: the same
    array in both programs, given the same source features and the same edge list. -/
theorem agg1_5 (hx : WR rb(main_v338) = WK kb(Cert.KernelIdeal.main_v211)) (he : WR rb(main_arg8) = WK kb(Cert.KernelIdeal.main_arg8)) :
    after cE1_5 WR rb(main_v558) = after Cert.KernelIdeal.Gen.hostOps3 WK kb(Cert.KernelIdeal.main_v357) := by
  after_results_simp
  rw [hx, he]
  rfl

end Cert.Glue

end
-- ==== Proof.GlueHost.lean ====
/-
  The host stretches the two programs share, at the boundaries of the two runs.

  The two programs open with the same projections of the three node types' input features, and in each of the two
  layers average, relation by relation, the source type's rows over each destination's incoming edges. Run from
  memories that agree on the arguments, they hold equal arrays at the corresponding boundaries: the three projected
  feature arrays after the first stretch, the six first-layer neighbour means, and the six second-layer neighbour
  means given that the source type's first-layer outputs are equal.
-/
import proofs.«159317_j31121333027532_1_alg».proof.Proof.KCarry
import proofs.«159317_j31121333027532_1_alg».proof.Proof.RWeights
import proofs.«159317_j31121333027532_1_alg».proof.Proof.Agree
import proofs.«159317_j31121333027532_1_alg».proof.Proof.HostSim

noncomputable section

namespace Cert.Glue

open Idealize.ShloMosaic Idealize.ShloMosaic.TcCoe Idealize.ShloMosaic.StableHlo Idealize.SL.Sem
open Cert.ReferenceIdeal Cert.ReferenceIdeal.Chunks

variable {F : FTy → Type} [FloatOps F]
variable (m : (ℓ : Loc Cert.KernelIdeal.nD Cert.KernelIdeal.τ Cert.KernelIdeal.sig) → Buf (Elt F) ℓ)
  (ρ : Dev Cert.KernelIdeal.nD → PrngReg) (c : Dev Cert.KernelIdeal.nD)
variable (V : Valuation Cert.ReferenceIdeal.τ Cert.ReferenceIdeal.sig (Elt F))

/-- A buffer of the kernel program's device, by its reference. -/
local notation:max "kb(" r ")" => Proc.devRef (τ := Cert.KernelIdeal.τ) (sig := Cert.KernelIdeal.sig) Proc.tc r
/-- A buffer of the reference program's device, by its reference. -/
local notation:max "rb(" r ")" => Proc.devRef (τ := Cert.ReferenceIdeal.τ) (sig := Cert.ReferenceIdeal.sig) Proc.tc r

/-! ## The projected input features after the first stretch -/

set_option maxHeartbeats 1000000 in
/-- The first node type's projected features are the same array in both programs after their first stretches. -/
theorem X0c (hA : Agree m c V) :
    R1 V rb(main_v4) = Cert.KernelIdeal.GenP.W1 m ρ c kb(Cert.KernelIdeal.main_v4) := by
  obtain ⟨h0, h1, h2, h3, h4, h5, h6, h7, h8, h9, h10, h11, h12, h13, h14, h15, h16, h17, h18, h19⟩ := hA
  exact projC (Cert.KernelIdeal.GenP.W0 m ρ c) V
    (h0.trans (Cert.KernelIdeal.Carry.W0_arg0 m ρ c).symm)
    (h9.trans (Cert.KernelIdeal.Carry.W0_arg9 m ρ c).symm)
    (h10.trans (Cert.KernelIdeal.Carry.W0_arg10 m ρ c).symm)

set_option maxHeartbeats 1000000 in
/-- The second node type's projected features are the same array in both programs after their first stretches. -/
theorem X0p (hA : Agree m c V) :
    R1 V rb(main_v9) = Cert.KernelIdeal.GenP.W1 m ρ c kb(Cert.KernelIdeal.main_v9) := by
  obtain ⟨h0, h1, h2, h3, h4, h5, h6, h7, h8, h9, h10, h11, h12, h13, h14, h15, h16, h17, h18, h19⟩ := hA
  exact projP (Cert.KernelIdeal.GenP.W0 m ρ c) V
    (h1.trans (Cert.KernelIdeal.Carry.W0_arg1 m ρ c).symm)
    (h11.trans (Cert.KernelIdeal.Carry.W0_arg11 m ρ c).symm)
    (h12.trans (Cert.KernelIdeal.Carry.W0_arg12 m ρ c).symm)

set_option maxHeartbeats 1000000 in
/-- The third node type's projected features are the same array in both programs after their first stretches. -/
theorem X0s (hA : Agree m c V) :
    R1 V rb(main_v14) = Cert.KernelIdeal.GenP.W1 m ρ c kb(Cert.KernelIdeal.main_v14) := by
  obtain ⟨h0, h1, h2, h3, h4, h5, h6, h7, h8, h9, h10, h11, h12, h13, h14, h15, h16, h17, h18, h19⟩ := hA
  exact projS (Cert.KernelIdeal.GenP.W0 m ρ c) V
    (h2.trans (Cert.KernelIdeal.Carry.W0_arg2 m ρ c).symm)
    (h13.trans (Cert.KernelIdeal.Carry.W0_arg13 m ρ c).symm)
    (h14.trans (Cert.KernelIdeal.Carry.W0_arg14 m ρ c).symm)

/-! ## The first layer's neighbour means -/

set_option maxHeartbeats 1000000 in
/-- The first relation's first-layer mean of the source rows over each destination's incoming edges is the same
    array in both programs. -/
theorem M0_0 (hA : Agree m c V) :
    R3 V rb(main_v49) = Cert.KernelIdeal.GenP.W1 m ρ c kb(Cert.KernelIdeal.main_v45) := by
  have hx := (Cert.ReferenceIdeal.Stage.carry_main_v4_1_2 V).trans (X0c m ρ c V hA)
  obtain ⟨h0, h1, h2, h3, h4, h5, h6, h7, h8, h9, h10, h11, h12, h13, h14, h15, h16, h17, h18, h19⟩ := hA
  exact agg0_0 (Cert.KernelIdeal.GenP.W0 m ρ c) (R2 V) hx
    ((Cert.ReferenceIdeal.Stage.argK_2_main_arg3 V).trans (h3.trans (Cert.KernelIdeal.Carry.W0_arg3 m ρ c).symm))

set_option maxHeartbeats 1000000 in
/-- The second relation's first-layer mean of the source rows over each destination's incoming edges is the same
    array in both programs. -/
theorem M0_1 (hA : Agree m c V) :
    R4 V rb(main_v86) = Cert.KernelIdeal.GenP.W1 m ρ c kb(Cert.KernelIdeal.main_v68) := by
  have hx := (Cert.ReferenceIdeal.Stage.carry_main_v9_1_3 V).trans (X0p m ρ c V hA)
  obtain ⟨h0, h1, h2, h3, h4, h5, h6, h7, h8, h9, h10, h11, h12, h13, h14, h15, h16, h17, h18, h19⟩ := hA
  exact agg0_1 (Cert.KernelIdeal.GenP.W0 m ρ c) (R3 V) hx
    ((Cert.ReferenceIdeal.Stage.argK_3_main_arg4 V).trans (h4.trans (Cert.KernelIdeal.Carry.W0_arg4 m ρ c).symm))

set_option maxHeartbeats 1000000 in
/-- The third relation's first-layer mean of the source rows over each destination's incoming edges is the same
    array in both programs. -/
theorem M0_2 (hA : Agree m c V) :
    R5 V rb(main_v123) = Cert.KernelIdeal.GenP.W1 m ρ c kb(Cert.KernelIdeal.main_v91) := by
  have hx := (Cert.ReferenceIdeal.Stage.carry_main_v4_1_4 V).trans (X0c m ρ c V hA)
  obtain ⟨h0, h1, h2, h3, h4, h5, h6, h7, h8, h9, h10, h11, h12, h13, h14, h15, h16, h17, h18, h19⟩ := hA
  exact agg0_2 (Cert.KernelIdeal.GenP.W0 m ρ c) (R4 V) hx
    ((Cert.ReferenceIdeal.Stage.argK_4_main_arg5 V).trans (h5.trans (Cert.KernelIdeal.Carry.W0_arg5 m ρ c).symm))

set_option maxHeartbeats 1000000 in
/-- The fourth relation's first-layer mean of the source rows over each destination's incoming edges is the same
    array in both programs. -/
theorem M0_3 (hA : Agree m c V) :
    R6 V rb(main_v160) = Cert.KernelIdeal.GenP.W1 m ρ c kb(Cert.KernelIdeal.main_v114) := by
  have hx := (Cert.ReferenceIdeal.Stage.carry_main_v14_1_5 V).trans (X0s m ρ c V hA)
  obtain ⟨h0, h1, h2, h3, h4, h5, h6, h7, h8, h9, h10, h11, h12, h13, h14, h15, h16, h17, h18, h19⟩ := hA
  exact agg0_3 (Cert.KernelIdeal.GenP.W0 m ρ c) (R5 V) hx
    ((Cert.ReferenceIdeal.Stage.argK_5_main_arg6 V).trans (h6.trans (Cert.KernelIdeal.Carry.W0_arg6 m ρ c).symm))

set_option maxHeartbeats 1000000 in
/-- The fifth relation's first-layer mean of the source rows over each destination's incoming edges is the same
    array in both programs. -/
theorem M0_4 (hA : Agree m c V) :
    R7 V rb(main_v197) = Cert.KernelIdeal.GenP.W1 m ρ c kb(Cert.KernelIdeal.main_v137) := by
  have hx := (Cert.ReferenceIdeal.Stage.carry_main_v9_1_6 V).trans (X0p m ρ c V hA)
  obtain ⟨h0, h1, h2, h3, h4, h5, h6, h7, h8, h9, h10, h11, h12, h13, h14, h15, h16, h17, h18, h19⟩ := hA
  exact agg0_4 (Cert.KernelIdeal.GenP.W0 m ρ c) (R6 V) hx
    ((Cert.ReferenceIdeal.Stage.argK_6_main_arg7 V).trans (h7.trans (Cert.KernelIdeal.Carry.W0_arg7 m ρ c).symm))

set_option maxHeartbeats 1000000 in
/-- The sixth relation's first-layer mean of the source rows over each destination's incoming edges is the same
    array in both programs. -/
theorem M0_5 (hA : Agree m c V) :
    R8 V rb(main_v234) = Cert.KernelIdeal.GenP.W1 m ρ c kb(Cert.KernelIdeal.main_v160) := by
  have hx := (Cert.ReferenceIdeal.Stage.carry_main_v14_1_7 V).trans (X0s m ρ c V hA)
  obtain ⟨h0, h1, h2, h3, h4, h5, h6, h7, h8, h9, h10, h11, h12, h13, h14, h15, h16, h17, h18, h19⟩ := hA
  exact agg0_5 (Cert.KernelIdeal.GenP.W0 m ρ c) (R7 V) hx
    ((Cert.ReferenceIdeal.Stage.argK_7_main_arg8 V).trans (h8.trans (Cert.KernelIdeal.Carry.W0_arg8 m ρ c).symm))

/-! ## The second layer's neighbour means, given equal first-layer outputs of the source type -/

set_option maxHeartbeats 1000000 in
/-- The first relation's second-layer mean of the source rows over each destination's incoming edges is the same
    array in both programs, given that the source type's first-layer outputs are. -/
theorem M1_0 (hA : Agree m c V)
    (hsrc : R9 V rb(main_v274) = Cert.KernelIdeal.GenP.W2 m ρ c kb(Cert.KernelIdeal.main_v177)) :
    R13 V rb(main_v373) = Cert.KernelIdeal.GenP.W7 m ρ c kb(Cert.KernelIdeal.main_v242) := by
  have hx := ((Cert.ReferenceIdeal.Stage.carry_main_v274_9_12 V).trans hsrc).trans (Cert.KernelIdeal.Carry.carry_v177_2_6 m ρ c).symm
  obtain ⟨h0, h1, h2, h3, h4, h5, h6, h7, h8, h9, h10, h11, h12, h13, h14, h15, h16, h17, h18, h19⟩ := hA
  exact agg1_0 (Cert.KernelIdeal.GenP.W6 m ρ c) (R12 V) hx
    ((Cert.ReferenceIdeal.Stage.argK_12_main_arg3 V).trans (h3.trans (Cert.KernelIdeal.Carry.W6_arg3 m ρ c).symm))

set_option maxHeartbeats 1000000 in
/-- The second relation's second-layer mean of the source rows over each destination's incoming edges is the same
    array in both programs, given that the source type's first-layer outputs are. -/
theorem M1_1 (hA : Agree m c V)
    (hsrc : R10 V rb(main_v306) = Cert.KernelIdeal.GenP.W4 m ρ c kb(Cert.KernelIdeal.main_v194)) :
    R14 V rb(main_v410) = Cert.KernelIdeal.GenP.W7 m ρ c kb(Cert.KernelIdeal.main_v265) := by
  have hx := ((Cert.ReferenceIdeal.Stage.carry_main_v306_10_13 V).trans hsrc).trans (Cert.KernelIdeal.Carry.carry_v194_4_6 m ρ c).symm
  obtain ⟨h0, h1, h2, h3, h4, h5, h6, h7, h8, h9, h10, h11, h12, h13, h14, h15, h16, h17, h18, h19⟩ := hA
  exact agg1_1 (Cert.KernelIdeal.GenP.W6 m ρ c) (R13 V) hx
    ((Cert.ReferenceIdeal.Stage.argK_13_main_arg4 V).trans (h4.trans (Cert.KernelIdeal.Carry.W6_arg4 m ρ c).symm))

set_option maxHeartbeats 1000000 in
/-- The third relation's second-layer mean of the source rows over each destination's incoming edges is the same
    array in both programs, given that the source type's first-layer outputs are. -/
theorem M1_2 (hA : Agree m c V)
    (hsrc : R9 V rb(main_v274) = Cert.KernelIdeal.GenP.W2 m ρ c kb(Cert.KernelIdeal.main_v177)) :
    R15 V rb(main_v447) = Cert.KernelIdeal.GenP.W7 m ρ c kb(Cert.KernelIdeal.main_v288) := by
  have hx := ((Cert.ReferenceIdeal.Stage.carry_main_v274_9_14 V).trans hsrc).trans (Cert.KernelIdeal.Carry.carry_v177_2_6 m ρ c).symm
  obtain ⟨h0, h1, h2, h3, h4, h5, h6, h7, h8, h9, h10, h11, h12, h13, h14, h15, h16, h17, h18, h19⟩ := hA
  exact agg1_2 (Cert.KernelIdeal.GenP.W6 m ρ c) (R14 V) hx
    ((Cert.ReferenceIdeal.Stage.argK_14_main_arg5 V).trans (h5.trans (Cert.KernelIdeal.Carry.W6_arg5 m ρ c).symm))

set_option maxHeartbeats 1000000 in
/-- The fourth relation's second-layer mean of the source rows over each destination's incoming edges is the same
    array in both programs, given that the source type's first-layer outputs are. -/
theorem M1_3 (hA : Agree m c V)
    (hsrc : R11 V rb(main_v338) = Cert.KernelIdeal.GenP.W6 m ρ c kb(Cert.KernelIdeal.main_v211)) :
    R16 V rb(main_v484) = Cert.KernelIdeal.GenP.W7 m ρ c kb(Cert.KernelIdeal.main_v311) := by
  have hx := ((Cert.ReferenceIdeal.Stage.carry_main_v338_11_15 V).trans hsrc)
  obtain ⟨h0, h1, h2, h3, h4, h5, h6, h7, h8, h9, h10, h11, h12, h13, h14, h15, h16, h17, h18, h19⟩ := hA
  exact agg1_3 (Cert.KernelIdeal.GenP.W6 m ρ c) (R15 V) hx
    ((Cert.ReferenceIdeal.Stage.argK_15_main_arg6 V).trans (h6.trans (Cert.KernelIdeal.Carry.W6_arg6 m ρ c).symm))

set_option maxHeartbeats 1000000 in
/-- The fifth relation's second-layer mean of the source rows over each destination's incoming edges is the same
    array in both programs, given that the source type's first-layer outputs are. -/
theorem M1_4 (hA : Agree m c V)
    (hsrc : R10 V rb(main_v306) = Cert.KernelIdeal.GenP.W4 m ρ c kb(Cert.KernelIdeal.main_v194)) :
    R17 V rb(main_v521) = Cert.KernelIdeal.GenP.W7 m ρ c kb(Cert.KernelIdeal.main_v334) := by
  have hx := ((Cert.ReferenceIdeal.Stage.carry_main_v306_10_16 V).trans hsrc).trans (Cert.KernelIdeal.Carry.carry_v194_4_6 m ρ c).symm
  obtain ⟨h0, h1, h2, h3, h4, h5, h6, h7, h8, h9, h10, h11, h12, h13, h14, h15, h16, h17, h18, h19⟩ := hA
  exact agg1_4 (Cert.KernelIdeal.GenP.W6 m ρ c) (R16 V) hx
    ((Cert.ReferenceIdeal.Stage.argK_16_main_arg7 V).trans (h7.trans (Cert.KernelIdeal.Carry.W6_arg7 m ρ c).symm))

set_option maxHeartbeats 1000000 in
/-- The sixth relation's second-layer mean of the source rows over each destination's incoming edges is the same
    array in both programs, given that the source type's first-layer outputs are. -/
theorem M1_5 (hA : Agree m c V)
    (hsrc : R11 V rb(main_v338) = Cert.KernelIdeal.GenP.W6 m ρ c kb(Cert.KernelIdeal.main_v211)) :
    R18 V rb(main_v558) = Cert.KernelIdeal.GenP.W7 m ρ c kb(Cert.KernelIdeal.main_v357) := by
  have hx := ((Cert.ReferenceIdeal.Stage.carry_main_v338_11_17 V).trans hsrc)
  obtain ⟨h0, h1, h2, h3, h4, h5, h6, h7, h8, h9, h10, h11, h12, h13, h14, h15, h16, h17, h18, h19⟩ := hA
  exact agg1_5 (Cert.KernelIdeal.GenP.W6 m ρ c) (R17 V) hx
    ((Cert.ReferenceIdeal.Stage.argK_17_main_arg8 V).trans (h8.trans (Cert.KernelIdeal.Carry.W6_arg8 m ρ c).symm))

end Cert.Glue

end
-- ==== Proof.SpecCongr.lean ====
/-
  The row formulas depend only on the values of their arguments: congruence statements in the form the assembly uses.
-/
import proofs.«159317_j31121333027532_1_alg».proof.Proof.Spec

noncomputable section

namespace Cert.Spec

theorem sage_congr {msg msg' x x' : Fin 128 → EReal} {wl wl' wr wr' : Fin 128 → Fin 128 → EReal} {bl bl' : Fin 128 → EReal}
    (h1 : msg = msg') (h2 : x = x') (h3 : wl = wl') (h4 : wr = wr') (h5 : bl = bl') (j : Fin 128) :
    sage msg x wl wr bl j = sage msg' x' wl' wr' bl' j := by
  subst h1 h2 h3 h4 h5; rfl

theorem lnrelu_congr {o o' g g' b b' : Fin 128 → EReal} (h1 : o = o') (h2 : g = g') (h3 : b = b') (j : Fin 128) :
    lnrelu o g b j = lnrelu o' g' b' j := by
  subst h1 h2 h3; rfl

/-- A node's new features are the normalised, clipped half-sum of its two relations. -/
theorem row_eq (m1 m2 x : Fin 128 → EReal) (wl1 wl2 wr1 wr2 : Fin 128 → Fin 128 → EReal) (bl1 bl2 g b : Fin 128 → EReal)
    (j : Fin 128) :
    row m1 m2 x wl1 wl2 wr1 wr2 bl1 bl2 g b j
      = lnrelu (fun j => sage m1 x wl1 wr1 bl1 j + sage m2 x wl2 wr2 bl2 j) g b j := rfl

end Cert.Spec

end
-- ==== Proof.KReg0.lean ====
/-
  Region 0 of the kernel program, read as a value. The region's 25 grid points each take a block of 4000 rows of the
  three row arrays (and the whole weight matrices and vectors) to the same block of rows of the output array, every
  row by the row formula. The 25 blocks tile the 100000 rows, so after the region the output array holds at every
  row the row formula of that row, the body's payload at an index being the row formula (a hypothesis here).
-/
import proofs.«159317_j31121333027532_1_alg».proof.Proof.KIFrameReg0
import proofs.«159317_j31121333027532_1_alg».proof.Proof.Spec
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.GenP Idealize.ShloMosaic Idealize.ShloMosaic.TcCoe Idealize.ShloMosaic.ValueIdx
open Idealize.ShloMosaic.Pipeline (Dat)

/-- The body's payload at an index is the row formula (proved elsewhere). -/
def Body0 : Prop := ∀ (x0 x1 x2 : Vec Ideal S4000x128 .f32) (x3 x4 x5 x6 : Vec Ideal S128x128 .f32) (x7 x8 x9 x10 : Vec Ideal S128 .f32) (p : Fin 4000) (q : Fin 128),
    k0_pay1 (F := Ideal) (k0_pay2 (F := Ideal) x0 x1 x2 x3 x4 x5 x6 x7 x8) (Scalar.ofBits .f32 0x3F000000#32) x9 x10 (ix2 p q)
      = Cert.Spec.row (fun k => x0 (ix2 p k)) (fun k => x1 (ix2 p k)) (fun k => x2 (ix2 p k))
          (fun k j => x3 (ix2 k j)) (fun k j => x4 (ix2 k j)) (fun k j => x5 (ix2 k j)) (fun k j => x6 (ix2 k j))
          (fun j => x7 (ix1 j)) (fun j => x8 (ix1 j)) (fun j => x9 (ix1 j)) (fun j => x10 (ix1 j)) q

namespace Reg0

/-- Row r, feature q of the region's result, from the three row arrays, the four weight matrices and the four vectors. -/
def rowAt (a0 a1 a2 : Vec Ideal S100000x128 .f32) (a3 a4 a5 a6 : Vec Ideal S128x128 .f32) (a7 a8 a9 a10 : Vec Ideal S128 .f32)
    (r : Fin 100000) (q : Fin 128) : EReal :=
  Cert.Spec.row (fun k => a0 (ix2 r k)) (fun k => a1 (ix2 r k)) (fun k => a2 (ix2 r k))
    (fun k j => a3 (ix2 k j)) (fun k j => a4 (ix2 k j)) (fun k j => a5 (ix2 k j)) (fun k j => a6 (ix2 k j))
    (fun j => a7 (ix1 j)) (fun j => a8 (ix1 j)) (fun j => a9 (ix1 j)) (fun j => a10 (ix1 j)) q

/-- The region's result array: every row is the row formula of the same row of the row arrays. -/
def result (a0 a1 a2 : Vec Ideal S100000x128 .f32) (a3 a4 a5 a6 : Vec Ideal S128x128 .f32) (a7 a8 a9 a10 : Vec Ideal S128 .f32) :
    Vec Ideal S100000x128 .f32 :=
  fun i => rowAt a0 a1 a2 a3 a4 a5 a6 a7 a8 a9 a10 (i 0) (i 1)

/-- The result array at row r, feature q. -/
theorem result_apply (a0 a1 a2 : Vec Ideal S100000x128 .f32) (a3 a4 a5 a6 : Vec Ideal S128x128 .f32) (a7 a8 a9 a10 : Vec Ideal S128 .f32)
    (r : Fin 100000) (q : Fin 128) :
    result a0 a1 a2 a3 a4 a5 a6 a7 a8 a9 a10 (ix2 r q)
      = Cert.Spec.row (fun k => a0 (ix2 r k)) (fun k => a1 (ix2 r k)) (fun k => a2 (ix2 r k))
          (fun k j => a3 (ix2 k j)) (fun k j => a4 (ix2 k j)) (fun k j => a5 (ix2 k j)) (fun k j => a6 (ix2 k j))
          (fun j => a7 (ix1 j)) (fun j => a8 (ix1 j)) (fun j => a9 (ix1 j)) (fun j => a10 (ix1 j)) q := rfl

/-- The row formula respects equality of each of its eleven arguments. -/
theorem row_congr {m1 m1' m2 m2' x x' : Fin 128 → EReal} {wl1 wl1' wl2 wl2' wr1 wr1' wr2 wr2' : Fin 128 → Fin 128 → EReal}
    {bl1 bl1' bl2 bl2' g g' b b' : Fin 128 → EReal}
    (ha : m1 = m1') (hb : m2 = m2') (hc : x = x') (hd : wl1 = wl1') (he : wl2 = wl2') (hf : wr1 = wr1') (hg : wr2 = wr2')
    (hh : bl1 = bl1') (hi : bl2 = bl2') (hj : g = g') (hk : b = b') (q : Fin 128) :
    Cert.Spec.row m1 m2 x wl1 wl2 wr1 wr2 bl1 bl2 g b q = Cert.Spec.row m1' m2' x' wl1' wl2' wr1' wr2' bl1' bl2' g' b' q := by
  subst ha hb hc hd he hf hg hh hi hj hk; rfl

theorem zeros_two : (![0, 0] : Fin 2 → Nat) = fun _ => 0 := funext fun a => by fin_cases a <;> rfl
theorem zeros_one : (![0] : Fin 1 → Nat) = fun _ => 0 := funext fun a => by fin_cases a <;> rfl

/-- Window 0's block index at point t: row block t, lane block 0. -/
theorem idx_rowsA : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
/-- Window 1's block index at point t: row block t, lane block 0. -/
theorem idx_rowsB : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
/-- Window 2's block index at point t: row block t, lane block 0. -/
theorem idx_rowsC : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)
/-- Window 11's block index at point t: row block t, lane block 0. -/
theorem idx_out : ∀ t : Fin cfg0.N, win0_11.index t (0 : Fin 2) = t.val ∧ win0_11.index t (1 : Fin 2) = 0 :=
  (by decide +kernel : ∀ t : Fin grid0.N, win0_11.index t (0 : Fin 2) = t.val ∧ win0_11.index t (1 : Fin 2) = 0)
/-- Window 3's block index is zero on both axes at every point: the whole matrix. -/
theorem idx_matA : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
/-- Window 4's block index is zero on both axes at every point: the whole matrix. -/
theorem idx_matB : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
/-- Window 5's block index is zero on both axes at every point: the whole matrix. -/
theorem idx_matC : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)
/-- Window 6's block index is zero on both axes at every point: the whole matrix. -/
theorem idx_matD : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)
/-- Window 7's block index is zero at every point: the whole vector. -/
theorem idx_vecA : ∀ t : Fin cfg0.N, win0_7.index t (0 : Fin 1) = 0 :=
  (by decide +kernel : ∀ t : Fin grid0.N, win0_7.index t (0 : Fin 1) = 0)
/-- Window 8's block index is zero at every point: the whole vector. -/
theorem idx_vecB : ∀ t : Fin cfg0.N, win0_8.index t (0 : Fin 1) = 0 :=
  (by decide +kernel : ∀ t : Fin grid0.N, win0_8.index t (0 : Fin 1) = 0)
/-- Window 9's block index is zero at every point: the whole vector. -/
theorem idx_vecC : ∀ t : Fin cfg0.N, win0_9.index t (0 : Fin 1) = 0 :=
  (by decide +kernel : ∀ t : Fin grid0.N, win0_9.index t (0 : Fin 1) = 0)
/-- Window 10's block index is zero at every point: the whole vector. -/
theorem idx_vecD : ∀ t : Fin cfg0.N, win0_10.index t (0 : Fin 1) = 0 :=
  (by decide +kernel : ∀ t : Fin grid0.N, win0_10.index t (0 : Fin 1) = 0)

/-- The row blocks fill the rows exactly. -/
theorem rows_eq : cfg0.N * 4000 = 100000 := (by decide +kernel : grid0.N * 4000 = 100000)

/-- The array row of row p of the block at point t. -/
def rowOf (t : Fin cfg0.N) (p : Fin 4000) : Fin 100000 :=
  ⟨t.val * 4000 + p.val, by have h := rows_eq; have ht := t.isLt; have hp := p.isLt; omega⟩

variable (V : (c : Dev nD) → (b : Ref sig .tc) → Buf (Elt Ideal) ((c : Thread nD τ).loc b))

/-- Row p of window 0's block at point t is row t * 4000 + p of its array. -/
theorem rowsA_apply (c : Dev nD) (t : Fin cfg0.N) (p : Fin 4000) (k : Fin 128) :
    (iblk0 V c 0 t : Vec Ideal S4000x128 .f32) (ix2 p k) = (V c main_v68 : Vec Ideal S100000x128 .f32) (ix2 (rowOf t p) k) := by
  obtain ⟨ea, eb⟩ := idx_rowsA t
  unfold iblk0
  rw [View.read_apply]
  show (V c main_v68 : Vec Ideal S100000x128 .f32) (((cfg0.win 0).blk t).view.emb (ix2 p k)) = _
  refine congrArg (V c main_v68 : Vec Ideal S100000x128 .f32) ?_
  funext a
  apply Fin.ext
  match a with
  | ⟨0, _⟩ => show win0_0.index t (0 : Fin 2) * 4000 + 1 * p.val = t.val * 4000 + p.val; omega
  | ⟨1, _⟩ => show win0_0.index t (1 : Fin 2) * 128 + 1 * k.val = k.val; omega
/-- Row p of window 1's block at point t is row t * 4000 + p of its array. -/
theorem rowsB_apply (c : Dev nD) (t : Fin cfg0.N) (p : Fin 4000) (k : Fin 128) :
    (iblk0 V c 1 t : Vec Ideal S4000x128 .f32) (ix2 p k) = (V c main_v114 : Vec Ideal S100000x128 .f32) (ix2 (rowOf t p) k) := by
  obtain ⟨ea, eb⟩ := idx_rowsB t
  unfold iblk0
  rw [View.read_apply]
  show (V c main_v114 : Vec Ideal S100000x128 .f32) (((cfg0.win 1).blk t).view.emb (ix2 p k)) = _
  refine congrArg (V c main_v114 : Vec Ideal S100000x128 .f32) ?_
  funext a
  apply Fin.ext
  match a with
  | ⟨0, _⟩ => show win0_1.index t (0 : Fin 2) * 4000 + 1 * p.val = t.val * 4000 + p.val; omega
  | ⟨1, _⟩ => show win0_1.index t (1 : Fin 2) * 128 + 1 * k.val = k.val; omega
/-- Row p of window 2's block at point t is row t * 4000 + p of its array. -/
theorem rowsC_apply (c : Dev nD) (t : Fin cfg0.N) (p : Fin 4000) (k : Fin 128) :
    (iblk0 V c 2 t : Vec Ideal S4000x128 .f32) (ix2 p k) = (V c main_v4 : Vec Ideal S100000x128 .f32) (ix2 (rowOf t p) k) := by
  obtain ⟨ea, eb⟩ := idx_rowsC t
  unfold iblk0
  rw [View.read_apply]
  show (V c main_v4 : Vec Ideal S100000x128 .f32) (((cfg0.win 2).blk t).view.emb (ix2 p k)) = _
  refine congrArg (V c main_v4 : Vec Ideal S100000x128 .f32) ?_
  funext a
  apply Fin.ext
  match a with
  | ⟨0, _⟩ => show win0_2.index t (0 : Fin 2) * 4000 + 1 * p.val = t.val * 4000 + p.val; omega
  | ⟨1, _⟩ => show win0_2.index t (1 : Fin 2) * 128 + 1 * k.val = k.val; omega
/-- Window 3's block at any point is its whole matrix. -/
theorem matA_apply (c : Dev nD) (t : Fin cfg0.N) (k j : Fin 128) :
    (iblk0 V c 3 t : Vec Ideal S128x128 .f32) (ix2 k j) = (V c main_v162 : Vec Ideal S128x128 .f32) (ix2 k j) := by
  obtain ⟨ea, eb⟩ := idx_matA t
  unfold iblk0
  rw [View.read_apply]
  show (V c main_v162 : Vec Ideal S128x128 .f32) (((cfg0.win 3).blk t).view.emb (ix2 k j)) = _
  refine congrArg (V c main_v162 : Vec Ideal S128x128 .f32) ?_
  funext a
  apply Fin.ext
  match a with
  | ⟨0, _⟩ => show win0_3.index t (0 : Fin 2) * 128 + 1 * k.val = k.val; omega
  | ⟨1, _⟩ => show win0_3.index t (1 : Fin 2) * 128 + 1 * j.val = j.val; omega
/-- Window 4's block at any point is its whole matrix. -/
theorem matB_apply (c : Dev nD) (t : Fin cfg0.N) (k j : Fin 128) :
    (iblk0 V c 4 t : Vec Ideal S128x128 .f32) (ix2 k j) = (V c main_v164 : Vec Ideal S128x128 .f32) (ix2 k j) := by
  obtain ⟨ea, eb⟩ := idx_matB t
  unfold iblk0
  rw [View.read_apply]
  show (V c main_v164 : Vec Ideal S128x128 .f32) (((cfg0.win 4).blk t).view.emb (ix2 k j)) = _
  refine congrArg (V c main_v164 : Vec Ideal S128x128 .f32) ?_
  funext a
  apply Fin.ext
  match a with
  | ⟨0, _⟩ => show win0_4.index t (0 : Fin 2) * 128 + 1 * k.val = k.val; omega
  | ⟨1, _⟩ => show win0_4.index t (1 : Fin 2) * 128 + 1 * j.val = j.val; omega
/-- Window 5's block at any point is its whole matrix. -/
theorem matC_apply (c : Dev nD) (t : Fin cfg0.N) (k j : Fin 128) :
    (iblk0 V c 5 t : Vec Ideal S128x128 .f32) (ix2 k j) = (V c main_v166 : Vec Ideal S128x128 .f32) (ix2 k j) := by
  obtain ⟨ea, eb⟩ := idx_matC t
  unfold iblk0
  rw [View.read_apply]
  show (V c main_v166 : Vec Ideal S128x128 .f32) (((cfg0.win 5).blk t).view.emb (ix2 k j)) = _
  refine congrArg (V c main_v166 : Vec Ideal S128x128 .f32) ?_
  funext a
  apply Fin.ext
  match a with
  | ⟨0, _⟩ => show win0_5.index t (0 : Fin 2) * 128 + 1 * k.val = k.val; omega
  | ⟨1, _⟩ => show win0_5.index t (1 : Fin 2) * 128 + 1 * j.val = j.val; omega
/-- Window 6's block at any point is its whole matrix. -/
theorem matD_apply (c : Dev nD) (t : Fin cfg0.N) (k j : Fin 128) :
    (iblk0 V c 6 t : Vec Ideal S128x128 .f32) (ix2 k j) = (V c main_v168 : Vec Ideal S128x128 .f32) (ix2 k j) := by
  obtain ⟨ea, eb⟩ := idx_matD t
  unfold iblk0
  rw [View.read_apply]
  show (V c main_v168 : Vec Ideal S128x128 .f32) (((cfg0.win 6).blk t).view.emb (ix2 k j)) = _
  refine congrArg (V c main_v168 : Vec Ideal S128x128 .f32) ?_
  funext a
  apply Fin.ext
  match a with
  | ⟨0, _⟩ => show win0_6.index t (0 : Fin 2) * 128 + 1 * k.val = k.val; omega
  | ⟨1, _⟩ => show win0_6.index t (1 : Fin 2) * 128 + 1 * j.val = j.val; omega
/-- Window 7's block at any point is its whole vector. -/
theorem vecA_apply (c : Dev nD) (t : Fin cfg0.N) (j : Fin 128) :
    (iblk0 V c 7 t : Vec Ideal S128 .f32) (ix1 j) = (V c main_v170 : Vec Ideal S128 .f32) (ix1 j) := by
  have ea := idx_vecA t
  unfold iblk0
  rw [View.read_apply]
  show (V c main_v170 : Vec Ideal S128 .f32) (((cfg0.win 7).blk t).view.emb (ix1 j)) = _
  refine congrArg (V c main_v170 : Vec Ideal S128 .f32) ?_
  funext a
  apply Fin.ext
  match a with
  | ⟨0, _⟩ => show win0_7.index t (0 : Fin 1) * 128 + 1 * j.val = j.val; omega
/-- Window 8's block at any point is its whole vector. -/
theorem vecB_apply (c : Dev nD) (t : Fin cfg0.N) (j : Fin 128) :
    (iblk0 V c 8 t : Vec Ideal S128 .f32) (ix1 j) = (V c main_v172 : Vec Ideal S128 .f32) (ix1 j) := by
  have ea := idx_vecB t
  unfold iblk0
  rw [View.read_apply]
  show (V c main_v172 : Vec Ideal S128 .f32) (((cfg0.win 8).blk t).view.emb (ix1 j)) = _
  refine congrArg (V c main_v172 : Vec Ideal S128 .f32) ?_
  funext a
  apply Fin.ext
  match a with
  | ⟨0, _⟩ => show win0_8.index t (0 : Fin 1) * 128 + 1 * j.val = j.val; omega
/-- Window 9's block at any point is its whole vector. -/
theorem vecC_apply (c : Dev nD) (t : Fin cfg0.N) (j : Fin 128) :
    (iblk0 V c 9 t : Vec Ideal S128 .f32) (ix1 j) = (V c main_v174 : Vec Ideal S128 .f32) (ix1 j) := by
  have ea := idx_vecC t
  unfold iblk0
  rw [View.read_apply]
  show (V c main_v174 : Vec Ideal S128 .f32) (((cfg0.win 9).blk t).view.emb (ix1 j)) = _
  refine congrArg (V c main_v174 : Vec Ideal S128 .f32) ?_
  funext a
  apply Fin.ext
  match a with
  | ⟨0, _⟩ => show win0_9.index t (0 : Fin 1) * 128 + 1 * j.val = j.val; omega
/-- Window 10's block at any point is its whole vector. -/
theorem vecD_apply (c : Dev nD) (t : Fin cfg0.N) (j : Fin 128) :
    (iblk0 V c 10 t : Vec Ideal S128 .f32) (ix1 j) = (V c main_v176 : Vec Ideal S128 .f32) (ix1 j) := by
  have ea := idx_vecD t
  unfold iblk0
  rw [View.read_apply]
  show (V c main_v176 : Vec Ideal S128 .f32) (((cfg0.win 10).blk t).view.emb (ix1 j)) = _
  refine congrArg (V c main_v176 : Vec Ideal S128 .f32) ?_
  funext a
  apply Fin.ext
  match a with
  | ⟨0, _⟩ => show win0_10.index t (0 : Fin 1) * 128 + 1 * j.val = j.val; omega

/-- Element (p, q) of the output's block at point t sits at row t * 4000 + p, lane q of the array. -/
theorem out_emb (t : Fin cfg0.N) (p : Fin 4000) (q : Fin 128) :
    (((cfg0.win 11).blk t).view.emb (ix2 p q) : S100000x128.Idx) = ix2 (rowOf t p) q := by
  obtain ⟨ea, eb⟩ := idx_out t
  funext a
  apply Fin.ext
  match a with
  | ⟨0, _⟩ => show win0_11.index t (0 : Fin 2) * 4000 + 1 * p.val = t.val * 4000 + p.val; omega
  | ⟨1, _⟩ => show win0_11.index t (1 : Fin 2) * 128 + 1 * q.val = q.val; omega

/-- An array read through the output's block at point t, at element (p, q), is the array at row t * 4000 + p, lane q. -/
theorem out_read (G : Vec Ideal S100000x128 .f32) (t : Fin cfg0.N) (p : Fin 4000) (q : Fin 128) :
    ((cfg0.win 11).blk t).view.read (Elt Ideal) G (ix2 p q) = G (ix2 (rowOf t p) q) := by
  rw [View.read_apply]
  show G (((cfg0.win 11).blk t).view.emb (ix2 p q)) = _
  exact congrArg G (out_emb t p q)

/-- What point t writes back is block t of the result array. -/
theorem flushed_eq (hbody : Body0) (c : Dev nD) (t : Fin cfg0.N) :
    (dat0 (F := Ideal) V c).flushed 11 t
      = ((cfg0.win 11).blk t).view.read (Elt Ideal) (result (V c main_v68) (V c main_v114) (V c main_v4) (V c main_v162) (V c main_v164) (V c main_v166) (V c main_v168) (V c main_v170) (V c main_v172) (V c main_v174) (V c main_v176)) := by
  show (cfg0.win 11).cut (grid0.coords t) ((dat0 V c).after 11 t) = _
  rw [after0_11]
  unfold out0_11
  rw [View.canon_unit_zero zeros_two]
  simp only [View.ld_unit_zero (S := S4000x128) zeros_two, View.ld_unit_zero (S := S128x128) zeros_two, View.ld_unit_zero (S := S128) zeros_one]
  funext y
  obtain ⟨p, q, rfl⟩ : ∃ (p : Fin 4000) (q : Fin 128), y = ix2 p q := ⟨y 0, y 1, eq_ix2 y⟩
  refine (hbody (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) p q).trans ?_
  refine Eq.trans ?_ (out_read (result (V c main_v68) (V c main_v114) (V c main_v4) (V c main_v162) (V c main_v164) (V c main_v166) (V c main_v168) (V c main_v170) (V c main_v172) (V c main_v174) (V c main_v176)) t p q).symm
  refine Eq.trans ?_ (result_apply (V c main_v68) (V c main_v114) (V c main_v4) (V c main_v162) (V c main_v164) (V c main_v166) (V c main_v168) (V c main_v170) (V c main_v172) (V c main_v174) (V c main_v176) (rowOf t p) q).symm
  exact row_congr (funext fun k => rowsA_apply V c t p k) (funext fun k => rowsB_apply V c t p k) (funext fun k => rowsC_apply V c t p k)
    (funext fun k => funext fun j => matA_apply V c t k j) (funext fun k => funext fun j => matB_apply V c t k j)
    (funext fun k => funext fun j => matC_apply V c t k j) (funext fun k => funext fun j => matD_apply V c t k j)
    (funext fun j => vecA_apply V c t j) (funext fun j => vecB_apply V c t j) (funext fun j => vecC_apply V c t j)
    (funext fun j => vecD_apply V c t j) q

/-- An index of the array is in point t's block iff each coordinate is in the block's range on its axis. -/
theorem mem_blk (t : Fin cfg0.N) (i : S100000x128.Idx) :
    i ∈ ((cfg0.win 11).blk t).view.set ↔ ∀ a : Fin 2, win0_11.index t a * S4000x128.size a ≤ (i a).val ∧ (i a).val < win0_11.index t a * S4000x128.size a + S4000x128.size a := by
  show i ∈ ((View.whole (Pipeline.arrRef spec0 11)).slice (win0_11.rect t)).set ↔ _
  rw [View.set_slice_whole, Rect.mem_set_unit]
  exact Iff.rfl

/-- Every index of the array is in the block of the point its row falls in. -/
theorem cover (i : S100000x128.Idx) : ∃ t : Fin cfg0.N, (cfg0.win 11).flush t = true ∧ i ∈ ((cfg0.win 11).blk t).view.set := by
  have hi0 : (i 0).val < 100000 := (i 0).isLt
  have hi1 : (i 1).val < 128 := (i 1).isLt
  have hN := rows_eq
  obtain ⟨t, ht⟩ : ∃ t : Fin cfg0.N, t.val = (i 0).val / 4000 := ⟨⟨(i 0).val / 4000, by omega⟩, rfl⟩
  obtain ⟨ea, eb⟩ := idx_out t
  refine ⟨t, flush0_11 t, ?_⟩
  rw [mem_blk]
  intro a
  match a with
  | ⟨0, _⟩ => show win0_11.index t (0 : Fin 2) * 4000 ≤ (i 0).val ∧ (i 0).val < win0_11.index t (0 : Fin 2) * 4000 + 4000; omega
  | ⟨1, _⟩ => show win0_11.index t (1 : Fin 2) * 128 ≤ (i 1).val ∧ (i 1).val < win0_11.index t (1 : Fin 2) * 128 + 128; omega

/-- After the region the output array is the result array. -/
theorem final (hbody : Body0) (c : Dev nD) :
    (dat0 (F := Ideal) V c).arrAt 11 cfg0.N = result (V c main_v68) (V c main_v114) (V c main_v4) (V c main_v162) (V c main_v164) (V c main_v166) (V c main_v168) (V c main_v170) (V c main_v172) (V c main_v174) (V c main_v176) :=
  (dat0 (F := Ideal) V c).arrAt_eq_of_cover 11 (result (V c main_v68) (V c main_v114) (V c main_v4) (V c main_v162) (V c main_v164) (V c main_v166) (V c main_v168) (V c main_v170) (V c main_v172) (V c main_v174) (V c main_v176))
    (fun t _ => flushed_eq V hbody c t) cover

end Reg0

/-- After region 0 its output array holds, at every row, the row formula of that row of the three row arrays. -/
theorem region0_apply (hbody : Body0)
    (V : (c : Dev nD) → (b : Ref sig .tc) → Buf (Elt Ideal) ((c : Thread nD τ).loc b)) (c : Dev nD) (i : Fin 100000) (j : Fin 128) :
    ((dat0 (F := Ideal) V c).arrAt 11 cfg0.N : Vec Ideal S100000x128 .f32) (ix2 i j)
      = Cert.Spec.row (fun k => (V c main_v68 : Vec Ideal S100000x128 .f32) (ix2 i k)) (fun k => (V c main_v114 : Vec Ideal S100000x128 .f32) (ix2 i k))
          (fun k => (V c main_v4 : Vec Ideal S100000x128 .f32) (ix2 i k))
          (fun k j => (V c main_v162 : Vec Ideal S128x128 .f32) (ix2 k j)) (fun k j => (V c main_v164 : Vec Ideal S128x128 .f32) (ix2 k j))
          (fun k j => (V c main_v166 : Vec Ideal S128x128 .f32) (ix2 k j)) (fun k j => (V c main_v168 : Vec Ideal S128x128 .f32) (ix2 k j))
          (fun j => (V c main_v170 : Vec Ideal S128 .f32) (ix1 j)) (fun j => (V c main_v172 : Vec Ideal S128 .f32) (ix1 j))
          (fun j => (V c main_v174 : Vec Ideal S128 .f32) (ix1 j)) (fun j => (V c main_v176 : Vec Ideal S128 .f32) (ix1 j)) j :=
  (congrFun (Reg0.final V hbody c) (ix2 i j)).trans
    (Reg0.result_apply (V c main_v68) (V c main_v114) (V c main_v4) (V c main_v162) (V c main_v164) (V c main_v166) (V c main_v168) (V c main_v170) (V c main_v172) (V c main_v174) (V c main_v176) i j)

end Cert.KernelIdeal.Val

end
-- ==== Proof.KBody0.lean ====
/-
  The kernel body's value at an index, for blocks of 4000 rows.

  For a block of 4000 rows of 128 features the body forms the two relations' outputs (four products of the block's
  rows with 128 × 128 weight matrices into zero accumulators, two bias rows, all summed), halves the sum, normalises
  each row along its 128 lanes (mean and variance as lane sums divided by 128, the variance shifted by a small
  constant before the reciprocal square root), scales and shifts per feature, and clips below at zero. Read at row p
  and feature q, that is the row formula `Cert.Spec.row` of the three input rows at p.
-/
import proofs.«159317_j31121333027532_1_alg».proof.Proof.Gen.KernelIdeal.Skeleton
import proofs.«159317_j31121333027532_1_alg».proof.Proof.Spec
import proofs.«159317_j31121333027532_1_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Val

open Cert.KernelIdeal Cert.KernelIdeal.Gen Idealize.ShloMosaic Idealize.ShloMosaic.ValueIdx

/-! ## A product of a block of rows with a square matrix, read at an index -/

/-- The left operand's index at output row `i 0`: its row coordinate. -/
theorem k0_lhs_0 (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
/-- Its column coordinate is the contraction index. -/
theorem k0_lhs_1 (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q
/-- The right operand's row coordinate is the contraction index. -/
theorem k0_rhs_0 (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q
/-- Its column coordinate is the output's. -/
theorem k0_rhs_1 (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- Into the zero accumulator the product at (p, q) is the sum over k of the left operand at (p, k) times the right
    at (k, q). -/
theorem k0_matmul_apply (a : FVec Ideal S4000x128 .bf16) (w : FVec Ideal S128x128 .bf16) (p : Fin 4000) (q : Fin 128) :
    matmul dot_S4000x128_S128x128_S4000x128_1_0_0_1_n_n none a w (constant (F := Ideal) S4000x128 .f32 0x00000000#32) (ix2 p q)
      = ∑ k : Fin 128, a (ix2 p k) * w (ix2 k q) := by
  refine (Ideal.matmul_constant_zero_apply dot_S4000x128_S128x128_S4000x128_1_0_0_1_n_n none a w (ix2 p q)).trans ?_
  rw [← Equiv.sum_comp (contrEquiv1 dot_S4000x128_S128x128_S4000x128_1_0_0_1_n_n 128 rfl rfl).symm]
  refine Finset.sum_congr rfl fun k _ => ?_
  have hk := contrEquiv1_symm_val dot_S4000x128_S128x128_S4000x128_1_0_0_1_n_n 128 rfl rfl k
  have el : dot_S4000x128_S128x128_S4000x128_1_0_0_1_n_n.lhsIdx (ix2 p q) ((contrEquiv1 dot_S4000x128_S128x128_S4000x128_1_0_0_1_n_n 128 rfl rfl).symm k) = ix2 p k := funext fun a => Fin.ext (by
    match a with
    | ⟨0, _⟩ => exact k0_lhs_0 _ _
    | ⟨1, _⟩ => exact (k0_lhs_1 _ _).trans hk)
  have er : dot_S4000x128_S128x128_S4000x128_1_0_0_1_n_n.rhsIdx (ix2 p q) ((contrEquiv1 dot_S4000x128_S128x128_S4000x128_1_0_0_1_n_n 128 rfl rfl).symm k) = ix2 k q := funext fun a => Fin.ext (by
    match a with
    | ⟨0, _⟩ => exact (k0_rhs_0 _ _).trans hk
    | ⟨1, _⟩ => exact k0_rhs_1 _ _)
  rw [el, er]

/-! ## The layout operations of the payloads, read at an index -/

/-- A block of rows cast to its own shape reads the block. -/
theorem k0_cast_rows_apply (v : FVec Ideal S4000x128 .f32) (i : S4000x128.Idx) :
    shapeCast S4000x128 v shapeCasts_S4000x128_S4000x128 i = v i :=
  congrFun (shapeCast_self v shapeCasts_S4000x128_S4000x128) i

/-- A square matrix cast to its own shape reads the matrix. -/
theorem k0_cast_sq_apply (v : FVec Ideal S128x128 .f32) (i : S128x128.Idx) :
    shapeCast S128x128 v shapeCasts_S128x128_S128x128 i = v i :=
  congrFun (shapeCast_self v shapeCasts_S128x128_S128x128) i

/-- A feature vector cast to itself, then to a row [1, 128], and broadcast down the rows: at (p, q), the vector at q. -/
theorem k0_row_apply (v : FVec Ideal S128 .f32) (p : Fin 4000) (q : Fin 128) :
    broadcastTo S4000x128 (shapeCast S1x128 (shapeCast S128 v shapeCasts_S128_S128) shapeCasts_S128_S1x128)
      broadcasts_S1x128_S4000x128 (ix2 p q) = v (ix1 q) := by
  refine (broadcastTo_1b_ab_apply _ broadcasts_S1x128_S4000x128 p q).trans ?_
  refine (shapeCast_a_1a_apply _ shapeCasts_S128_S1x128 (0 : Fin 1) q).trans ?_
  exact congrFun (shapeCast_self v shapeCasts_S128_S128) _

/-- A column [4000, 1] broadcast across the lanes: at (p, q), the column at p. -/
theorem k0_col_apply (w : FVec Ideal S4000x1 .f32) (p : Fin 4000) (q : Fin 128) :
    broadcastTo S4000x128 w broadcasts_S4000x1_S4000x128 (ix2 p q) = w (ix2 p (0 : Fin 1)) := by
  refine broadcastTo_apply w broadcasts_S4000x1_S4000x128 (ix2 p q) (ix2 p (0 : Fin 1)) fun ax => ?_
  match ax with
  | ⟨0, _⟩ =>
    show p.val = if (4000 : ℕ) = 1 then 0 else p.val
    exact (if_neg (by decide)).symm
  | ⟨1, _⟩ => rfl

/-- A vector [4000] cast to a column [4000, 1]: at (p, 0), the vector at p. -/
theorem k0_colcast_apply (v : FVec Ideal S4000 .f32) (p : Fin 4000) :
    shapeCast S4000x1 v shapeCasts_S4000_S4000x1 (ix2 p (0 : Fin 1)) = v (ix1 p) := by
  refine shapeCast_apply v shapeCasts_S4000_S4000x1 _ _ ?_
  rw [Shape.rowMajor_val_one, Shape.rowMajor_val_two]
  show p.val = p.val * 1 + 0
  omega

/-- The sum along the lanes from the zero pattern, read at row p, is the sum of the row. -/
theorem k0_lane_sum_apply (src : FVec Ideal S4000x128 .f32) (hφ : FKind.Formats .f32)
    (hacc : @Eq (BitVec (FTy.bits .f32)) 0x00000000#32 0x00000000#32) (p : Fin 4000) :
    multiReduction (F := Ideal) .add ([1] : List (Fin 2)) S4000 src 0x00000000#32 reduces_S4000x128_S4000 hφ hacc (ix1 p)
      = ∑ k : Fin 128, src (ix2 p k) :=
  Cert.LibKeepdims.lane_sum_apply src reduces_S4000x128_S4000 hφ hacc p

/-- A reciprocal square root at an index is that of the element. -/
theorem k0_rsqrt_apply {s : Shape} (a : FVec Ideal s .f32) (i : s.Idx) : rsqrt a i = Ideal.rsqrt (a i) := rfl

/-! ## The two payloads at an index -/

/-- The sum of the two relations' outputs at (p, q). -/
theorem k0_pay2_apply (x0 x1 x2 : Vec Ideal S4000x128 .f32) (x3 x4 x5 x6 : Vec Ideal S128x128 .f32) (x7 x8 : Vec Ideal S128 .f32)
    (p : Fin 4000) (q : Fin 128) :
    k0_pay2 (F := Ideal) x0 x1 x2 x3 x4 x5 x6 x7 x8 (ix2 p q)
      = Cert.Spec.sage (fun k => x0 (ix2 p k)) (fun k => x2 (ix2 p k)) (fun k j => x3 (ix2 k j)) (fun k j => x5 (ix2 k j))
          (fun j => x7 (ix1 j)) q
        + Cert.Spec.sage (fun k => x1 (ix2 p k)) (fun k => x2 (ix2 p k)) (fun k j => x4 (ix2 k j)) (fun k j => x6 (ix2 k j))
          (fun j => x8 (ix1 j)) q := by
  unfold k0_pay2
  simp only [addf_apply, k0_matmul_apply, k0_row_apply, truncf_apply, k0_cast_rows_apply, k0_cast_sq_apply]
  rfl

/-- The halved, normalised, scaled, shifted and clipped row at (p, q). -/
theorem k0_pay1_apply (o : FVec Ideal S4000x128 .f32) (g b : Vec Ideal S128 .f32) (p : Fin 4000) (q : Fin 128) :
    k0_pay1 (F := Ideal) o (Scalar.ofBits .f32 0x3F000000#32) g b (ix2 p q)
      = Cert.Spec.lnrelu (fun j => o (ix2 p j)) (fun j => g (ix1 j)) (fun j => b (ix1 j)) q := by
  unfold k0_pay1
  simp only [maximumf_apply, addf_apply, mulf_apply, subf_apply, divf_apply, broadcast_apply, k0_rsqrt_apply, k0_row_apply,
    k0_col_apply, k0_colcast_apply, k0_lane_sum_apply]
  rfl

/-- The kernel body's value at (p, q) is the row formula of the three rows at p. -/
theorem body0_apply (x0 x1 x2 : Vec Ideal S4000x128 .f32) (x3 x4 x5 x6 : Vec Ideal S128x128 .f32) (x7 x8 x9 x10 : Vec Ideal S128 .f32)
    (p : Fin 4000) (q : Fin 128) :
    k0_pay1 (F := Ideal) (k0_pay2 (F := Ideal) x0 x1 x2 x3 x4 x5 x6 x7 x8) (Scalar.ofBits .f32 0x3F000000#32) x9 x10 (ix2 p q)
      = Cert.Spec.row (fun k => x0 (ix2 p k)) (fun k => x1 (ix2 p k)) (fun k => x2 (ix2 p k))
          (fun k j => x3 (ix2 k j)) (fun k j => x4 (ix2 k j)) (fun k j => x5 (ix2 k j)) (fun k j => x6 (ix2 k j))
          (fun j => x7 (ix1 j)) (fun j => x8 (ix1 j)) (fun j => x9 (ix1 j)) (fun j => x10 (ix1 j)) q := by
  refine (k0_pay1_apply _ x9 x10 p q).trans ?_
  unfold Cert.Spec.row
  exact congrArg (fun o => Cert.Spec.lnrelu o (fun j => x9 (ix1 j)) (fun j => x10 (ix1 j)) q)
    (funext fun j => k0_pay2_apply x0 x1 x2 x3 x4 x5 x6 x7 x8 p j)

end Cert.KernelIdeal.Val

end
-- ==== Proof.RStageS0c.lean ====
/-
  The reference's stretch that turns the two relation outputs of one node type into that type's new features, read at
  one row i and one feature j.

  The two arrays are added and multiplied by one half; along the 128 features of a row the mean is the sum divided by
  128, the deviation is the halved row less its mean, the variance is the sum of the squared deviations divided by 128;
  the deviation is multiplied by the reciprocal square root of the variance shifted by a small constant, scaled and
  shifted per feature by the slices at one layer and one node type of two 2 x 3 x 128 arrays, and clipped below at zero.
  Each operation that is not pointwise — a scalar spread over an array, the sum along a row, a vector made a column,
  a column spread across the features, a slice made a row and spread down the rows — is read at an index by one small
  lemma over arrays of the literal shapes; the pointwise ones read through by definition; the composed term is then the
  specification's function of the row, term for term.
-/
import proofs.«159317_j31121333027532_1_alg».proof.Proof.RefChunks
import proofs.«159317_j31121333027532_1_alg».proof.Proof.Spec
import Idealize.ShloMosaic.Lib.StableHlo.Run
import Idealize.ShloMosaic.Lib.Pipeline.Value
import Idealize.ShloMosaic.Lib.ValueIdx
import Idealize.ShloMosaic.PureOps.Ideal.Laws

noncomputable section

namespace Cert.ReferenceIdeal.Stage

open Cert.ReferenceIdeal Cert.ReferenceIdeal.Chunks Idealize.ShloMosaic Idealize.ShloMosaic.StableHlo Idealize.ShloMosaic.ValueIdx

/-- A scalar constant broadcast over the array reads its value everywhere. -/
theorem cS0_c_splat_apply (w : BitVec (FTy.bits .f32))
    (h : S_.BroadcastsInDim S100000x128 (![] : Fin 0 → Fin S100000x128.rank)) (p : S100000x128.Idx) :
    broadcastInDim S100000x128 (no_index ![]) h (constant (F := Ideal) S_ .f32 w) p = Ideal.ofBits .f32 w := rfl

/-- A scalar constant broadcast over the column reads its value everywhere. -/
theorem cS0_c_splat_col_apply (w : BitVec (FTy.bits .f32))
    (h : S_.BroadcastsInDim S100000x1 (![] : Fin 0 → Fin S100000x1.rank)) (p : S100000x1.Idx) :
    broadcastInDim S100000x1 (no_index ![]) h (constant (F := Ideal) S_ .f32 w) p = Ideal.ofBits .f32 w := rfl

/-- The host's sum along the 128 features from the zero pattern, read at row i, is the sum of the row. -/
theorem cS0_c_rowsum_apply (x : FVec Ideal S100000x128 .f32) (h' : S100000x128.ReducesTo [1] S100000)
    (hu : 0 < S_.numel) (i : Fin 100000) :
    Host.reduceAdd (F := Ideal) x (constant (F := Ideal) S_ .f32 0x00000000#32) h' hu (ix1 i)
      = ∑ k : Fin 128, x (ix2 i k) := by
  have h : S100000x128.Reduces [1] S100000 := by decide
  show Ideal.hostReduceAdd h' x (Ideal.ofBits .f32 0x00000000#32) (ix1 i) = _
  rw [Ideal.hostReduceAdd_single h' h, Ideal.ofBits_zero_f32, zero_add]
  exact Finset.sum_congr rfl fun k _ => congrArg x
    (funext fun ax => Fin.ext (by match ax with | ⟨0, _⟩ => rfl | ⟨1, _⟩ => rfl))

/-- A vector over the rows as a column: at (i, 0), the vector at i. -/
theorem cS0_c_column_apply (v : FVec Ideal S100000 .f32)
    (h : S100000.BroadcastsInDim S100000x1 (![0] : Fin 1 → Fin S100000x1.rank)) (i : Fin 100000) :
    broadcastInDim S100000x1 (no_index ![0]) h v (ix2 i (0 : Fin 1)) = v (ix1 i) := by
  refine broadcastInDim_apply _ h v _ (ix1 i) fun a => ?_
  match a with
  | ⟨0, _⟩ => rfl

/-- A column broadcast across the 128 features: at (i, j), the column at (i, 0). -/
theorem cS0_c_across_apply (c : FVec Ideal S100000x1 .f32)
    (h : S100000x1.BroadcastsInDim S100000x128 (![0, 1] : Fin 2 → Fin S100000x128.rank)) (i : Fin 100000) (j : Fin 128) :
    broadcastInDim S100000x128 (no_index ![0, 1]) h c (ix2 i j) = c (ix2 i (0 : Fin 1)) := by
  refine broadcastInDim_apply _ h c _ (ix2 i (0 : Fin 1)) fun a => ?_
  match a with
  | ⟨0, _⟩ => rfl
  | ⟨1, _⟩ => rfl

/-- A per-feature parameter, the slice at one layer and one node type of a 2 x 3 x 128 array made a vector, then a
    row, then broadcast down the rows: at (i, j), the array at that layer, that node type and feature j. -/
theorem cS0_c_param_apply (g : FVec Ideal S2x3x128 .f32) (hs : S2x3x128.Slices ![0, 0, 0] S1x1x128)
    (hc : S1x1x128.ShapeCasts S128) (h₁ : S128.BroadcastsInDim S1x128 (![1] : Fin 1 → Fin S1x128.rank))
    (h₂ : S1x128.BroadcastsInDim S100000x128 (![0, 1] : Fin 2 → Fin S100000x128.rank)) (i : Fin 100000) (j : Fin 128) :
    broadcastInDim S100000x128 (no_index ![0, 1]) h₂ (broadcastInDim S1x128 (no_index ![1]) h₁
        (shapeCast S128 (extractStridedSlice S1x1x128 (no_index ![0, 0, 0]) g hs) hc)) (ix2 i j)
      = g (ix3 (0 : Fin 2) (0 : Fin 3) j) := by
  refine (broadcastInDim_apply _ h₂ _ _ (ix2 (0 : Fin 1) j) fun a => ?_).trans
    ((broadcastInDim_apply _ h₁ _ _ (ix1 j) fun a => ?_).trans
      ((shapeCast_apply _ hc _ (ix3 (0 : Fin 1) (0 : Fin 1) j) ?_).trans
        (extractStridedSlice_apply _ g hs _ (ix3 (0 : Fin 2) (0 : Fin 3) j) fun a => ?_)))
  · match a with
    | ⟨0, _⟩ => rfl
    | ⟨1, _⟩ => rfl
  · match a with
    | ⟨0, _⟩ => rfl
  · rw [Shape.rowMajor_val_three, Shape.rowMajor_val_one]
    show (0 * 1 + 0) * 128 + j.val = j.val
    omega
  · match a with
    | ⟨0, _⟩ => rfl
    | ⟨1, _⟩ => rfl
    | ⟨2, _⟩ => show j.val = 0 + j.val; omega

/-- The host's division and reciprocal square root read at an index. -/
theorem cS0_c_hostDivf_apply {s : Shape} (a b : FVec Ideal s .f32) (p : s.Idx) :
    Host.divf a b p = Ideal.div (a p) (b p) := rfl
theorem cS0_c_hostRsqrt_apply {s : Shape} (a : FVec Ideal s .f32) (p : s.Idx) :
    Host.rsqrt a p = Ideal.rsqrt (a p) := rfl

/-- The forty operations as one term over the arrays they read, at (i, j): the two relation outputs added and
    halved (X), the row mean (m), the deviation (d), the row variance (v), the reciprocal root of the shifted
    variance (r); the deviation times r, scaled, shifted, clipped below at zero. -/
theorem cS0_c_value (x y : FVec Ideal S100000x128 .f32) (g b : FVec Ideal S2x3x128 .f32)
    (X d : FVec Ideal S100000x128 .f32) (m v r : FVec Ideal S100000x1 .f32)
    (hb0 : S_.BroadcastsInDim S100000x128 (![] : Fin 0 → Fin S100000x128.rank))
    (hb1 : S_.BroadcastsInDim S100000x1 (![] : Fin 0 → Fin S100000x1.rank))
    (hcol : S100000.BroadcastsInDim S100000x1 (![0] : Fin 1 → Fin S100000x1.rank))
    (hacr : S100000x1.BroadcastsInDim S100000x128 (![0, 1] : Fin 2 → Fin S100000x128.rank))
    (hred : S100000x128.ReducesTo [1] S100000) (hu : 0 < S_.numel)
    (hs : S2x3x128.Slices ![0, 0, 0] S1x1x128) (hc : S1x1x128.ShapeCasts S128)
    (h₁ : S128.BroadcastsInDim S1x128 (![1] : Fin 1 → Fin S1x128.rank))
    (h₂ : S1x128.BroadcastsInDim S100000x128 (![0, 1] : Fin 2 → Fin S100000x128.rank))
    (hX : X = mulf (broadcastInDim S100000x128 ![] hb0 (constant (F := Ideal) S_ .f32 0x3F000000#32)) (addf x y))
    (hm : m = Host.divf (broadcastInDim S100000x1 ![0] hcol
        (Host.reduceAdd (F := Ideal) X (constant (F := Ideal) S_ .f32 0x00000000#32) hred hu))
      (broadcastInDim S100000x1 ![] hb1 (constant (F := Ideal) S_ .f32 0x43000000#32)))
    (hd : d = subf X (broadcastInDim S100000x128 ![0, 1] hacr m))
    (hv : v = Host.divf (broadcastInDim S100000x1 ![0] hcol
        (Host.reduceAdd (F := Ideal) (mulf d d) (constant (F := Ideal) S_ .f32 0x00000000#32) hred hu))
      (broadcastInDim S100000x1 ![] hb1 (constant (F := Ideal) S_ .f32 0x43000000#32)))
    (hr : r = Host.rsqrt (addf v (broadcastInDim S100000x1 ![] hb1 (constant (F := Ideal) S_ .f32 0x3727C5AC#32))))
    (i : Fin 100000) (j : Fin 128) :
    maximumf
        (addf
          (mulf (mulf d (broadcastInDim S100000x128 ![0, 1] hacr r))
            (broadcastInDim S100000x128 ![0, 1] h₂ (broadcastInDim S1x128 ![1] h₁
              (shapeCast S128 (extractStridedSlice S1x1x128 ![0, 0, 0] g hs) hc))))
          (broadcastInDim S100000x128 ![0, 1] h₂ (broadcastInDim S1x128 ![1] h₁
            (shapeCast S128 (extractStridedSlice S1x1x128 ![0, 0, 0] b hs) hc))))
        (broadcastInDim S100000x128 ![] hb0 (constant (F := Ideal) S_ .f32 0x00000000#32)) (ix2 i j)
      = Cert.Spec.lnrelu (fun j => x (ix2 i j) + y (ix2 i j)) (fun j => g (ix3 (0 : Fin 2) (0 : Fin 3) j))
          (fun j => b (ix3 (0 : Fin 2) (0 : Fin 3) j)) j := by
  subst hr hv hd hm hX
  simp only [maximumf_apply, addf_apply, mulf_apply, subf_apply, cS0_c_hostDivf_apply, cS0_c_hostRsqrt_apply,
    cS0_c_splat_apply, cS0_c_splat_col_apply, cS0_c_rowsum_apply, cS0_c_column_apply, cS0_c_across_apply,
    cS0_c_param_apply]
  rfl

/-- The stretch's result at (i, j) is the specification's function of row i of the two relation outputs and of the
    two parameter slices. -/
theorem stageS0_c_apply (W : Valuation τ sig (Elt Ideal)) (i : Fin 100000) (j : Fin 128) :
    (after cS0_c W (Proc.devRef .tc main_v274) : Vec Ideal S100000x128 .f32) (ix2 i j)
      = Cert.Spec.lnrelu (fun j => HAdd.hAdd (α := EReal) (β := EReal) (γ := EReal) ((W (Proc.devRef .tc main_v94) : Vec Ideal S100000x128 .f32) (ix2 i j)) ((W (Proc.devRef .tc main_v168) : Vec Ideal S100000x128 .f32) (ix2 i j)))
          (fun j => (W (Proc.devRef .tc main_arg18) : Vec Ideal S2x3x128 .f32) (ix3 (0 : Fin 2) (0 : Fin 3) j))
          (fun j => (W (Proc.devRef .tc main_arg19) : Vec Ideal S2x3x128 .f32) (ix3 (0 : Fin 2) (0 : Fin 3) j)) j := by
  simp only [cS0_c]
  after_results_simp
  exact cS0_c_value (W (Proc.devRef .tc main_v94)) (W (Proc.devRef .tc main_v168)) (W (Proc.devRef .tc main_arg18))
    (W (Proc.devRef .tc main_arg19)) _ _ _ _ _ _ _ _ _ _ _ _ _ _ _ rfl rfl rfl rfl rfl i j

end Cert.ReferenceIdeal.Stage

end
-- ==== Proof.RStageE0_1.lean ====
/-
  One relation of the first layer, read at a row and a feature.

  The stretch slices the layer's stacked weights at the relation's position (a 128 × 128 left matrix, a bias row of 128, a
  128 × 128 right matrix), forms the mean message of every destination node from its neighbours' features, and returns
  message · leftᵀ + bias + features · rightᵀ, each product contracting the 128 features. Here the mean message stays an
  unopened array: the result at row `i` and feature `j` is `Cert.Spec.sage` of row `i` of the mean message, row `i` of
  the node features, and the relation's slabs of the stacked weights read transposed (entry `(k, j)` of a factor is
  entry `(j, k)` of the relation's slab of its stack).
-/
import proofs.«159317_j31121333027532_1_alg».proof.Proof.RefChunks
import proofs.«159317_j31121333027532_1_alg».proof.Proof.Spec
import Idealize.ShloMosaic.Lib.Pipeline.Value
import Idealize.ShloMosaic.Lib.ValueIdx
import Idealize.ShloMosaic.PureOps.Ideal.Laws

noncomputable section

namespace Cert.ReferenceIdeal.Stage

open Cert.ReferenceIdeal Cert.ReferenceIdeal.Gen Cert.ReferenceIdeal.Chunks Idealize.ShloMosaic Idealize.ShloMosaic.StableHlo Idealize.ShloMosaic.ValueIdx

/-! ## The layer's weights of one relation, read at an index -/

/-- The relation's slab of a stack of six 128 × 128 matrices, flattened to a matrix: its entry `(a, b)` is the slab's entry `(a, b)` in the stack. -/
theorem slabE0_1_apply (w : FVec Ideal S6x128x128 .f32) (a b : Fin 128) :
    (shapeCast S128x128 (extractStridedSlice S1x128x128 ![1, 0, 0] w slices_S6x128x128_S1x128x128_1_0_0)
      shapeCasts_S1x128x128_S128x128 : FVec Ideal S128x128 .f32) (ix2 a b) = w (ix3 (1 : Fin 6) a b) := by
  refine (shapeCast_apply _ shapeCasts_S1x128x128_S128x128 (ix2 a b) (ix3 (0 : Fin 1) a b) ?_).trans ?_
  · rw [Shape.rowMajor_val_three, Shape.rowMajor_val_two]
    show (0 * 128 + a.val) * 128 + b.val = a.val * 128 + b.val
    omega
  · exact extractStridedSlice_apply ![1, 0, 0] w slices_S6x128x128_S1x128x128_1_0_0 (ix3 (0 : Fin 1) a b) (ix3 (1 : Fin 6) a b)
      (fun c => match c with
        | ⟨0, _⟩ => by show 1 = 1 + 0; rfl
        | ⟨1, _⟩ => by show a.val = 0 + a.val; omega
        | ⟨2, _⟩ => by show b.val = 0 + b.val; omega)

/-- The transposed slab: entry `(k, j)` is the slab's entry `(j, k)` in the stack. -/
theorem slabTE0_1_apply (w : FVec Ideal S6x128x128 .f32) (k j : Fin 128) :
    (transpose S128x128 [1, 0] (shapeCast S128x128 (extractStridedSlice S1x128x128 ![1, 0, 0] w slices_S6x128x128_S1x128x128_1_0_0)
      shapeCasts_S1x128x128_S128x128) transposes_S128x128_S128x128_1_0 : FVec Ideal S128x128 .f32) (ix2 k j) = w (ix3 (1 : Fin 6) j k) := by
  refine (transpose_apply [1, 0] _ transposes_S128x128_S128x128_1_0 (ix2 k j) (ix2 j k) (fun c => match c with
    | ⟨0, _⟩ => rfl
    | ⟨1, _⟩ => rfl)).trans ?_
  exact slabE0_1_apply w j k

/-- The relation's row of a stack of six bias vectors, broadcast along the rows: entry `(i, j)` is the row's entry `j` in the stack. -/
theorem biasRowE0_1_apply (v : FVec Ideal S6x128 .f32) (i : Fin 100000) (j : Fin 128) :
    (broadcastInDim S100000x128 ![0, 1] bcast_S1x128_S100000x128_0_1 (broadcastInDim S1x128 ![1] bcast_S128_S1x128_1
      (shapeCast S128 (extractStridedSlice S1x128 ![1, 0] v slices_S6x128_S1x128_1_0) shapeCasts_S1x128_S128)) : FVec Ideal S100000x128 .f32) (ix2 i j)
      = v (ix2 (1 : Fin 6) j) := by
  refine (broadcastInDim_apply _ bcast_S1x128_S100000x128_0_1 _ (ix2 i j) (ix2 (0 : Fin 1) j) (fun c => match c with
    | ⟨0, _⟩ => by show 0 = if (1 : Nat) = 1 then 0 else i.val; rw [if_pos rfl]
    | ⟨1, _⟩ => by show j.val = if (128 : Nat) = 1 then 0 else j.val; rw [if_neg (by decide)])).trans ?_
  refine (broadcastInDim_apply _ bcast_S128_S1x128_1 _ (ix2 (0 : Fin 1) j) (ix1 j) (fun c => match c with
    | ⟨0, _⟩ => by show j.val = if (128 : Nat) = 1 then 0 else j.val; rw [if_neg (by decide)])).trans ?_
  refine (shapeCast_apply _ shapeCasts_S1x128_S128 (ix1 j) (ix2 (0 : Fin 1) j) ?_).trans ?_
  · rw [Shape.rowMajor_val_two, Shape.rowMajor_val_one]
    show 0 * 128 + j.val = j.val
    omega
  · exact extractStridedSlice_apply ![1, 0] v slices_S6x128_S1x128_1_0 (ix2 (0 : Fin 1) j) (ix2 (1 : Fin 6) j)
      (fun c => match c with
        | ⟨0, _⟩ => by show 1 = 1 + 0; rfl
        | ⟨1, _⟩ => by show j.val = 0 + j.val; omega)

/-! ## A product with a 128 × 128 matrix, read at an index -/

theorem lhsE0_1_0 (i : S100000x128.Idx) (q : dot_S100000x128_S128x128_S100000x128_1_0_0_1_n_n.contr.Idx) :
    (dot_S100000x128_S128x128_S100000x128_1_0_0_1_n_n.lhsIdx i q 0).val = (i 0).val := by
  unfold DotDims.lhsIdx
  rw [dif_neg (show ¬(0 : Fin S100000x128.rank) ∈ dot_S100000x128_S128x128_S100000x128_1_0_0_1_n_n.lhsBatch from List.not_mem_nil), dif_pos (show (0 : Fin S100000x128.rank) ∈ dot_S100000x128_S128x128_S100000x128_1_0_0_1_n_n.lhsNonContracting from List.mem_singleton.mpr rfl)]
  rfl
theorem lhsE0_1_1 (i : S100000x128.Idx) (q : dot_S100000x128_S128x128_S100000x128_1_0_0_1_n_n.contr.Idx) :
    (dot_S100000x128_S128x128_S100000x128_1_0_0_1_n_n.lhsIdx i q 1).val = (q ⟨0, Nat.one_pos⟩).val :=
  dot_S100000x128_S128x128_S100000x128_1_0_0_1_n_n.lhsIdx_val_of_single rfl i q
theorem rhsE0_1_0 (i : S100000x128.Idx) (q : dot_S100000x128_S128x128_S100000x128_1_0_0_1_n_n.contr.Idx) :
    (dot_S100000x128_S128x128_S100000x128_1_0_0_1_n_n.rhsIdx i q 0).val = (q ⟨0, Nat.one_pos⟩).val :=
  dot_S100000x128_S128x128_S100000x128_1_0_0_1_n_n.rhsIdx_val_of_single rfl i q
theorem rhsE0_1_1 (i : S100000x128.Idx) (q : dot_S100000x128_S128x128_S100000x128_1_0_0_1_n_n.contr.Idx) :
    (dot_S100000x128_S128x128_S100000x128_1_0_0_1_n_n.rhsIdx i q 1).val = (i 1).val := by
  unfold DotDims.rhsIdx
  rw [dif_neg (show ¬(1 : Fin S128x128.rank) ∈ dot_S100000x128_S128x128_S100000x128_1_0_0_1_n_n.rhsBatch from List.not_mem_nil), dif_pos (show (1 : Fin S128x128.rank) ∈ dot_S100000x128_S128x128_S100000x128_1_0_0_1_n_n.rhsNonContracting from List.mem_singleton.mpr rfl)]
  rfl

/-- Rows times a matrix, contracting the 128 features: entry `(i, j)` is the sum over `k` of `l (i, k) * r (k, j)`. -/
theorem dotE0_1_apply (l : FVec Ideal S100000x128 .f32) (r : FVec Ideal S128x128 .f32) (i : Fin 100000) (j : Fin 128) :
    Host.dotGeneral (F := Ideal) dot_S100000x128_S128x128_S100000x128_1_0_0_1_n_n none l r (ix2 i j) = ∑ k : Fin 128, l (ix2 i k) * r (ix2 k j) := by
  simp only [Host.dotGeneral]
  rw [Ideal.dotGeneral_apply, ← Equiv.sum_comp (ValueIdx.contrEquiv1 dot_S100000x128_S128x128_S100000x128_1_0_0_1_n_n 128 rfl rfl).symm]
  refine Finset.sum_congr rfl fun k _ => ?_
  have hk := ValueIdx.contrEquiv1_symm_val dot_S100000x128_S128x128_S100000x128_1_0_0_1_n_n 128 rfl rfl k
  have el : dot_S100000x128_S128x128_S100000x128_1_0_0_1_n_n.lhsIdx (ix2 i j) ((ValueIdx.contrEquiv1 dot_S100000x128_S128x128_S100000x128_1_0_0_1_n_n 128 rfl rfl).symm k) = ix2 i k := funext fun a => Fin.ext (by
    match a with
    | ⟨0, _⟩ => exact lhsE0_1_0 _ _
    | ⟨1, _⟩ => exact (lhsE0_1_1 _ _).trans hk)
  have er : dot_S100000x128_S128x128_S100000x128_1_0_0_1_n_n.rhsIdx (ix2 i j) ((ValueIdx.contrEquiv1 dot_S100000x128_S128x128_S100000x128_1_0_0_1_n_n 128 rfl rfl).symm k) = ix2 k j := funext fun a => Fin.ext (by
    match a with
    | ⟨0, _⟩ => exact (rhsE0_1_0 _ _).trans hk
    | ⟨1, _⟩ => exact rhsE0_1_1 _ _)
  rw [el, er]

/-! ## The relation's output from the mean message -/

/-- The relation's output as the program composes it: the mean message times the transposed left slab, plus the bias
    row, plus the node features times the transposed right slab. -/
def relOutE0_1 {F : FTy → Type} [FloatOps F] (msg x : FVec F S100000x128 .f32) (wl wr : FVec F S6x128x128 .f32)
    (bl : FVec F S6x128 .f32) : FVec F S100000x128 .f32 :=
  addf (addf (Host.dotGeneral dot_S100000x128_S128x128_S100000x128_1_0_0_1_n_n none msg (transpose S128x128 [1, 0] (shapeCast S128x128 (extractStridedSlice S1x128x128 ![1, 0, 0] wl slices_S6x128x128_S1x128x128_1_0_0) shapeCasts_S1x128x128_S128x128) transposes_S128x128_S128x128_1_0))
      (broadcastInDim S100000x128 ![0, 1] bcast_S1x128_S100000x128_0_1 (broadcastInDim S1x128 ![1] bcast_S128_S1x128_1 (shapeCast S128 (extractStridedSlice S1x128 ![1, 0] bl slices_S6x128_S1x128_1_0) shapeCasts_S1x128_S128))))
    (Host.dotGeneral dot_S100000x128_S128x128_S100000x128_1_0_0_1_n_n none x (transpose S128x128 [1, 0] (shapeCast S128x128 (extractStridedSlice S1x128x128 ![1, 0, 0] wr slices_S6x128x128_S1x128x128_1_0_0) shapeCasts_S1x128x128_S128x128) transposes_S128x128_S128x128_1_0))

/-- Read at row `i` and feature `j`, it is the relation's law on the two rows. -/
theorem relOutE0_1_apply (msg x : FVec Ideal S100000x128 .f32) (wl wr : FVec Ideal S6x128x128 .f32) (bl : FVec Ideal S6x128 .f32)
    (i : Fin 100000) (j : Fin 128) :
    relOutE0_1 msg x wl wr bl (ix2 i j)
      = Cert.Spec.sage (fun k => msg (ix2 i k)) (fun k => x (ix2 i k)) (fun k j => wl (ix3 (1 : Fin 6) j k))
          (fun k j => wr (ix3 (1 : Fin 6) j k)) (fun j => bl (ix2 (1 : Fin 6) j)) j := by
  unfold relOutE0_1 Cert.Spec.sage
  rw [addf_apply, addf_apply, dotE0_1_apply, dotE0_1_apply, biasRowE0_1_apply]
  refine congrArg₂ (· + ·) (congrArg (· + bl (ix2 (1 : Fin 6) j)) (Finset.sum_congr rfl fun k _ => ?_)) (Finset.sum_congr rfl fun k _ => ?_)
  · exact congrArg (msg (ix2 i k) * ·) (slabTE0_1_apply wl k j)
  · exact congrArg (x (ix2 i k) * ·) (slabTE0_1_apply wr k j)

/-! ## The stretch -/

set_option maxHeartbeats 1000000 in
/-- After the stretch, the output buffer holds the relation's composition of the mean message buffer, the node
    features and the stacked weights the stretch reads. -/
theorem stageE0_1_eq {F : FTy → Type} [FloatOps F] (W : Valuation τ sig (Elt F)) :
    (after (cE0_1 (F := F)) W (Proc.devRef .tc main_v94) : FVec F S100000x128 .f32)
      = relOutE0_1 (after (cE0_1 (F := F)) W (Proc.devRef .tc main_v86)) (W (Proc.devRef .tc main_v4))
          (W (Proc.devRef .tc main_v16)) (W (Proc.devRef .tc main_v20)) (W (Proc.devRef .tc main_v18)) := by
  simp only [cE0_1]
  after_results_simp <;> rfl

/-- The stretch's output at row `i` and feature `j` is the relation's law on row `i` of the mean message and of the
    node features, with the relation's slabs of the stacked weights read transposed. -/
theorem stageE0_1_apply (W : Valuation τ sig (Elt Ideal)) (i : Fin 100000) (j : Fin 128) :
    (after cE0_1 W (Proc.devRef .tc main_v94) : Vec Ideal S100000x128 .f32) (ix2 i j)
      = Cert.Spec.sage (fun k => (after cE0_1 W (Proc.devRef .tc main_v86) : Vec Ideal S100000x128 .f32) (ix2 i k))
          (fun k => (W (Proc.devRef .tc main_v4) : Vec Ideal S100000x128 .f32) (ix2 i k))
          (fun k j => (W (Proc.devRef .tc main_v16) : Vec Ideal S6x128x128 .f32) (ix3 (1 : Fin 6) j k))
          (fun k j => (W (Proc.devRef .tc main_v20) : Vec Ideal S6x128x128 .f32) (ix3 (1 : Fin 6) j k))
          (fun j => (W (Proc.devRef .tc main_v18) : Vec Ideal S6x128 .f32) (ix2 (1 : Fin 6) j)) j :=
  (congrFun (stageE0_1_eq (F := Ideal) W) (ix2 i j)).trans (relOutE0_1_apply _ _ _ _ _ i j)

end Cert.ReferenceIdeal.Stage

end
-- ==== Proof.RStageE0_3.lean ====
/-
  One relation of the first layer, read at a row and a feature.

  The stretch slices the layer's stacked weights at the relation's position (a 128 × 128 left matrix, a bias row of 128, a
  128 × 128 right matrix), forms the mean message of every destination node from its neighbours' features, and returns
  message · leftᵀ + bias + features · rightᵀ, each product contracting the 128 features. Here the mean message stays an
  unopened array: the result at row `i` and feature `j` is `Cert.Spec.sage` of row `i` of the mean message, row `i` of
  the node features, and the relation's slabs of the stacked weights read transposed (entry `(k, j)` of a factor is
  entry `(j, k)` of the relation's slab of its stack).
-/
import proofs.«159317_j31121333027532_1_alg».proof.Proof.RefChunks
import proofs.«159317_j31121333027532_1_alg».proof.Proof.Spec
import Idealize.ShloMosaic.Lib.Pipeline.Value
import Idealize.ShloMosaic.Lib.ValueIdx
import Idealize.ShloMosaic.PureOps.Ideal.Laws

noncomputable section

namespace Cert.ReferenceIdeal.Stage

open Cert.ReferenceIdeal Cert.ReferenceIdeal.Gen Cert.ReferenceIdeal.Chunks Idealize.ShloMosaic Idealize.ShloMosaic.StableHlo Idealize.ShloMosaic.ValueIdx

/-! ## The layer's weights of one relation, read at an index -/

/-- The relation's slab of a stack of six 128 × 128 matrices, flattened to a matrix: its entry `(a, b)` is the slab's entry `(a, b)` in the stack. -/
theorem slabE0_3_apply (w : FVec Ideal S6x128x128 .f32) (a b : Fin 128) :
    (shapeCast S128x128 (extractStridedSlice S1x128x128 ![3, 0, 0] w slices_S6x128x128_S1x128x128_3_0_0)
      shapeCasts_S1x128x128_S128x128 : FVec Ideal S128x128 .f32) (ix2 a b) = w (ix3 (3 : Fin 6) a b) := by
  refine (shapeCast_apply _ shapeCasts_S1x128x128_S128x128 (ix2 a b) (ix3 (0 : Fin 1) a b) ?_).trans ?_
  · rw [Shape.rowMajor_val_three, Shape.rowMajor_val_two]
    show (0 * 128 + a.val) * 128 + b.val = a.val * 128 + b.val
    omega
  · exact extractStridedSlice_apply ![3, 0, 0] w slices_S6x128x128_S1x128x128_3_0_0 (ix3 (0 : Fin 1) a b) (ix3 (3 : Fin 6) a b)
      (fun c => match c with
        | ⟨0, _⟩ => by show 3 = 3 + 0; rfl
        | ⟨1, _⟩ => by show a.val = 0 + a.val; omega
        | ⟨2, _⟩ => by show b.val = 0 + b.val; omega)

/-- The transposed slab: entry `(k, j)` is the slab's entry `(j, k)` in the stack. -/
theorem slabTE0_3_apply (w : FVec Ideal S6x128x128 .f32) (k j : Fin 128) :
    (transpose S128x128 [1, 0] (shapeCast S128x128 (extractStridedSlice S1x128x128 ![3, 0, 0] w slices_S6x128x128_S1x128x128_3_0_0)
      shapeCasts_S1x128x128_S128x128) transposes_S128x128_S128x128_1_0 : FVec Ideal S128x128 .f32) (ix2 k j) = w (ix3 (3 : Fin 6) j k) := by
  refine (transpose_apply [1, 0] _ transposes_S128x128_S128x128_1_0 (ix2 k j) (ix2 j k) (fun c => match c with
    | ⟨0, _⟩ => rfl
    | ⟨1, _⟩ => rfl)).trans ?_
  exact slabE0_3_apply w j k

/-- The relation's row of a stack of six bias vectors, broadcast along the rows: entry `(i, j)` is the row's entry `j` in the stack. -/
theorem biasRowE0_3_apply (v : FVec Ideal S6x128 .f32) (i : Fin 100000) (j : Fin 128) :
    (broadcastInDim S100000x128 ![0, 1] bcast_S1x128_S100000x128_0_1 (broadcastInDim S1x128 ![1] bcast_S128_S1x128_1
      (shapeCast S128 (extractStridedSlice S1x128 ![3, 0] v slices_S6x128_S1x128_3_0) shapeCasts_S1x128_S128)) : FVec Ideal S100000x128 .f32) (ix2 i j)
      = v (ix2 (3 : Fin 6) j) := by
  refine (broadcastInDim_apply _ bcast_S1x128_S100000x128_0_1 _ (ix2 i j) (ix2 (0 : Fin 1) j) (fun c => match c with
    | ⟨0, _⟩ => by show 0 = if (1 : Nat) = 1 then 0 else i.val; rw [if_pos rfl]
    | ⟨1, _⟩ => by show j.val = if (128 : Nat) = 1 then 0 else j.val; rw [if_neg (by decide)])).trans ?_
  refine (broadcastInDim_apply _ bcast_S128_S1x128_1 _ (ix2 (0 : Fin 1) j) (ix1 j) (fun c => match c with
    | ⟨0, _⟩ => by show j.val = if (128 : Nat) = 1 then 0 else j.val; rw [if_neg (by decide)])).trans ?_
  refine (shapeCast_apply _ shapeCasts_S1x128_S128 (ix1 j) (ix2 (0 : Fin 1) j) ?_).trans ?_
  · rw [Shape.rowMajor_val_two, Shape.rowMajor_val_one]
    show 0 * 128 + j.val = j.val
    omega
  · exact extractStridedSlice_apply ![3, 0] v slices_S6x128_S1x128_3_0 (ix2 (0 : Fin 1) j) (ix2 (3 : Fin 6) j)
      (fun c => match c with
        | ⟨0, _⟩ => by show 3 = 3 + 0; rfl
        | ⟨1, _⟩ => by show j.val = 0 + j.val; omega)

/-! ## A product with a 128 × 128 matrix, read at an index -/

theorem lhsE0_3_0 (i : S100000x128.Idx) (q : dot_S100000x128_S128x128_S100000x128_1_0_0_1_n_n.contr.Idx) :
    (dot_S100000x128_S128x128_S100000x128_1_0_0_1_n_n.lhsIdx i q 0).val = (i 0).val := by
  unfold DotDims.lhsIdx
  rw [dif_neg (show ¬(0 : Fin S100000x128.rank) ∈ dot_S100000x128_S128x128_S100000x128_1_0_0_1_n_n.lhsBatch from List.not_mem_nil), dif_pos (show (0 : Fin S100000x128.rank) ∈ dot_S100000x128_S128x128_S100000x128_1_0_0_1_n_n.lhsNonContracting from List.mem_singleton.mpr rfl)]
  rfl
theorem lhsE0_3_1 (i : S100000x128.Idx) (q : dot_S100000x128_S128x128_S100000x128_1_0_0_1_n_n.contr.Idx) :
    (dot_S100000x128_S128x128_S100000x128_1_0_0_1_n_n.lhsIdx i q 1).val = (q ⟨0, Nat.one_pos⟩).val :=
  dot_S100000x128_S128x128_S100000x128_1_0_0_1_n_n.lhsIdx_val_of_single rfl i q
theorem rhsE0_3_0 (i : S100000x128.Idx) (q : dot_S100000x128_S128x128_S100000x128_1_0_0_1_n_n.contr.Idx) :
    (dot_S100000x128_S128x128_S100000x128_1_0_0_1_n_n.rhsIdx i q 0).val = (q ⟨0, Nat.one_pos⟩).val :=
  dot_S100000x128_S128x128_S100000x128_1_0_0_1_n_n.rhsIdx_val_of_single rfl i q
theorem rhsE0_3_1 (i : S100000x128.Idx) (q : dot_S100000x128_S128x128_S100000x128_1_0_0_1_n_n.contr.Idx) :
    (dot_S100000x128_S128x128_S100000x128_1_0_0_1_n_n.rhsIdx i q 1).val = (i 1).val := by
  unfold DotDims.rhsIdx
  rw [dif_neg (show ¬(1 : Fin S128x128.rank) ∈ dot_S100000x128_S128x128_S100000x128_1_0_0_1_n_n.rhsBatch from List.not_mem_nil), dif_pos (show (1 : Fin S128x128.rank) ∈ dot_S100000x128_S128x128_S100000x128_1_0_0_1_n_n.rhsNonContracting from List.mem_singleton.mpr rfl)]
  rfl

/-- Rows times a matrix, contracting the 128 features: entry `(i, j)` is the sum over `k` of `l (i, k) * r (k, j)`. -/
theorem dotE0_3_apply (l : FVec Ideal S100000x128 .f32) (r : FVec Ideal S128x128 .f32) (i : Fin 100000) (j : Fin 128) :
    Host.dotGeneral (F := Ideal) dot_S100000x128_S128x128_S100000x128_1_0_0_1_n_n none l r (ix2 i j) = ∑ k : Fin 128, l (ix2 i k) * r (ix2 k j) := by
  simp only [Host.dotGeneral]
  rw [Ideal.dotGeneral_apply, ← Equiv.sum_comp (ValueIdx.contrEquiv1 dot_S100000x128_S128x128_S100000x128_1_0_0_1_n_n 128 rfl rfl).symm]
  refine Finset.sum_congr rfl fun k _ => ?_
  have hk := ValueIdx.contrEquiv1_symm_val dot_S100000x128_S128x128_S100000x128_1_0_0_1_n_n 128 rfl rfl k
  have el : dot_S100000x128_S128x128_S100000x128_1_0_0_1_n_n.lhsIdx (ix2 i j) ((ValueIdx.contrEquiv1 dot_S100000x128_S128x128_S100000x128_1_0_0_1_n_n 128 rfl rfl).symm k) = ix2 i k := funext fun a => Fin.ext (by
    match a with
    | ⟨0, _⟩ => exact lhsE0_3_0 _ _
    | ⟨1, _⟩ => exact (lhsE0_3_1 _ _).trans hk)
  have er : dot_S100000x128_S128x128_S100000x128_1_0_0_1_n_n.rhsIdx (ix2 i j) ((ValueIdx.contrEquiv1 dot_S100000x128_S128x128_S100000x128_1_0_0_1_n_n 128 rfl rfl).symm k) = ix2 k j := funext fun a => Fin.ext (by
    match a with
    | ⟨0, _⟩ => exact (rhsE0_3_0 _ _).trans hk
    | ⟨1, _⟩ => exact rhsE0_3_1 _ _)
  rw [el, er]

/-! ## The relation's output from the mean message -/

/-- The relation's output as the program composes it: the mean message times the transposed left slab, plus the bias
    row, plus the node features times the transposed right slab. -/
def relOutE0_3 {F : FTy → Type} [FloatOps F] (msg x : FVec F S100000x128 .f32) (wl wr : FVec F S6x128x128 .f32)
    (bl : FVec F S6x128 .f32) : FVec F S100000x128 .f32 :=
  addf (addf (Host.dotGeneral dot_S100000x128_S128x128_S100000x128_1_0_0_1_n_n none msg (transpose S128x128 [1, 0] (shapeCast S128x128 (extractStridedSlice S1x128x128 ![3, 0, 0] wl slices_S6x128x128_S1x128x128_3_0_0) shapeCasts_S1x128x128_S128x128) transposes_S128x128_S128x128_1_0))
      (broadcastInDim S100000x128 ![0, 1] bcast_S1x128_S100000x128_0_1 (broadcastInDim S1x128 ![1] bcast_S128_S1x128_1 (shapeCast S128 (extractStridedSlice S1x128 ![3, 0] bl slices_S6x128_S1x128_3_0) shapeCasts_S1x128_S128))))
    (Host.dotGeneral dot_S100000x128_S128x128_S100000x128_1_0_0_1_n_n none x (transpose S128x128 [1, 0] (shapeCast S128x128 (extractStridedSlice S1x128x128 ![3, 0, 0] wr slices_S6x128x128_S1x128x128_3_0_0) shapeCasts_S1x128x128_S128x128) transposes_S128x128_S128x128_1_0))

/-- Read at row `i` and feature `j`, it is the relation's law on the two rows. -/
theorem relOutE0_3_apply (msg x : FVec Ideal S100000x128 .f32) (wl wr : FVec Ideal S6x128x128 .f32) (bl : FVec Ideal S6x128 .f32)
    (i : Fin 100000) (j : Fin 128) :
    relOutE0_3 msg x wl wr bl (ix2 i j)
      = Cert.Spec.sage (fun k => msg (ix2 i k)) (fun k => x (ix2 i k)) (fun k j => wl (ix3 (3 : Fin 6) j k))
          (fun k j => wr (ix3 (3 : Fin 6) j k)) (fun j => bl (ix2 (3 : Fin 6) j)) j := by
  unfold relOutE0_3 Cert.Spec.sage
  rw [addf_apply, addf_apply, dotE0_3_apply, dotE0_3_apply, biasRowE0_3_apply]
  refine congrArg₂ (· + ·) (congrArg (· + bl (ix2 (3 : Fin 6) j)) (Finset.sum_congr rfl fun k _ => ?_)) (Finset.sum_congr rfl fun k _ => ?_)
  · exact congrArg (msg (ix2 i k) * ·) (slabTE0_3_apply wl k j)
  · exact congrArg (x (ix2 i k) * ·) (slabTE0_3_apply wr k j)

/-! ## The stretch -/

set_option maxHeartbeats 1000000 in
/-- After the stretch, the output buffer holds the relation's composition of the mean message buffer, the node
    features and the stacked weights the stretch reads. -/
theorem stageE0_3_eq {F : FTy → Type} [FloatOps F] (W : Valuation τ sig (Elt F)) :
    (after (cE0_3 (F := F)) W (Proc.devRef .tc main_v168) : FVec F S100000x128 .f32)
      = relOutE0_3 (after (cE0_3 (F := F)) W (Proc.devRef .tc main_v160)) (W (Proc.devRef .tc main_v4))
          (W (Proc.devRef .tc main_v16)) (W (Proc.devRef .tc main_v20)) (W (Proc.devRef .tc main_v18)) := by
  simp only [cE0_3]
  after_results_simp <;> rfl

/-- The stretch's output at row `i` and feature `j` is the relation's law on row `i` of the mean message and of the
    node features, with the relation's slabs of the stacked weights read transposed. -/
theorem stageE0_3_apply (W : Valuation τ sig (Elt Ideal)) (i : Fin 100000) (j : Fin 128) :
    (after cE0_3 W (Proc.devRef .tc main_v168) : Vec Ideal S100000x128 .f32) (ix2 i j)
      = Cert.Spec.sage (fun k => (after cE0_3 W (Proc.devRef .tc main_v160) : Vec Ideal S100000x128 .f32) (ix2 i k))
          (fun k => (W (Proc.devRef .tc main_v4) : Vec Ideal S100000x128 .f32) (ix2 i k))
          (fun k j => (W (Proc.devRef .tc main_v16) : Vec Ideal S6x128x128 .f32) (ix3 (3 : Fin 6) j k))
          (fun k j => (W (Proc.devRef .tc main_v20) : Vec Ideal S6x128x128 .f32) (ix3 (3 : Fin 6) j k))
          (fun j => (W (Proc.devRef .tc main_v18) : Vec Ideal S6x128 .f32) (ix2 (3 : Fin 6) j)) j :=
  (congrFun (stageE0_3_eq (F := Ideal) W) (ix2 i j)).trans (relOutE0_3_apply _ _ _ _ _ i j)

end Cert.ReferenceIdeal.Stage

end
-- ==== Proof.Layer0c.lean ====
/-
  Layer 0, node type 0 (100000 nodes): after the kernel program's pallas_call 0 and after the reference's stage of
  that node type, the node features are the same array. Row by row both are the row formula: on the kernel side of
  the blocks the pallas_call wrote back, on the reference side of the two relation outputs and the normalisation
  stage; the rows that go in agree — the neighbour means and the nodes' own features by the shared host operations,
  the weights, biases and normalisation parameters as the same entries of the arguments.
-/
import proofs.«159317_j31121333027532_1_alg».proof.Proof.KReg0
import proofs.«159317_j31121333027532_1_alg».proof.Proof.KBody0
import proofs.«159317_j31121333027532_1_alg».proof.Proof.KWin
import proofs.«159317_j31121333027532_1_alg».proof.Proof.RStageS0c
import proofs.«159317_j31121333027532_1_alg».proof.Proof.RStageE0_1
import proofs.«159317_j31121333027532_1_alg».proof.Proof.RStageE0_3
import proofs.«159317_j31121333027532_1_alg».proof.Proof.RWt
import proofs.«159317_j31121333027532_1_alg».proof.Proof.GlueHost
import proofs.«159317_j31121333027532_1_alg».proof.Proof.SpecCongr

noncomputable section

namespace Cert.Glue

open Idealize.ShloMosaic Idealize.ShloMosaic.TcCoe Idealize.SL.Sem Idealize.ShloMosaic.StableHlo Idealize.ShloMosaic.ValueIdx
open Cert.ReferenceIdeal.Chunks Cert.KernelIdeal.GenP

local notation:max "kb(" r ")" => Proc.devRef (τ := Cert.KernelIdeal.τ) (sig := Cert.KernelIdeal.sig) Proc.tc r
local notation:max "rb(" r ")" => Proc.devRef (τ := Cert.ReferenceIdeal.τ) (sig := Cert.ReferenceIdeal.sig) Proc.tc r

variable (m : (ℓ : Loc Cert.KernelIdeal.nD Cert.KernelIdeal.τ Cert.KernelIdeal.sig) → Buf (Elt Ideal) ℓ)
  (ρ : Dev Cert.KernelIdeal.nD → PrngReg) (c : Dev Cert.KernelIdeal.nD)
  (V : Valuation Cert.ReferenceIdeal.τ Cert.ReferenceIdeal.sig (Elt Ideal))

set_option maxHeartbeats 8000000 in
/-- The 100000 x 128 node features after layer 0: the reference's array is the kernel program's. -/
theorem X1c (hA : Agree m c V) :
    R9 V rb(Cert.ReferenceIdeal.main_v274) = W2 m ρ c kb(Cert.KernelIdeal.main_v177) := by
  have hA' := hA
  obtain ⟨h0, h1, h2, h3, h4, h5, h6, h7, h8, h9, h10, h11, h12, h13, h14, h15, h16, h17, h18, h19⟩ := hA'
  refine funext fun (idx : Cert.KernelIdeal.S100000x128.Idx) => ?_
  obtain ⟨i, j, rfl⟩ : ∃ (i : Fin 100000) (j : Fin 128), idx = ix2 i j := ⟨idx 0, idx 1, eq_ix2 idx⟩
  -- the reference's stage at (i, j), and the kernel program's array at (i, j)
  refine ((Cert.ReferenceIdeal.Stage.stageS0_c_apply (R8 V) i j).trans ?_).trans
    ((congrFun (W2_arr m ρ c 11) (ix2 i j)).trans
      (Cert.KernelIdeal.Val.region0_apply (fun x0 x1 x2 x3 x4 x5 x6 x7 x8 x9 x10 p q => Cert.KernelIdeal.Val.body0_apply x0 x1 x2 x3 x4 x5 x6 x7 x8 x9 x10 p q) (V1 m ρ) c i j)).symm
  rw [Cert.Spec.row_eq]
  refine Cert.Spec.lnrelu_congr (funext fun j' => ?_) (funext fun j' => ?_) (funext fun j' => ?_) j
  · -- the two relations' outputs at (i, j')
    have ho1 : (R8 V rb(Cert.ReferenceIdeal.main_v94)) (ix2 i j') = _ :=
      (congrFun (Cert.ReferenceIdeal.Stage.carry_main_v94_4_8 V) (ix2 i j')).trans (Cert.ReferenceIdeal.Stage.stageE0_1_apply (R3 V) i j')
    have ho2 : (R8 V rb(Cert.ReferenceIdeal.main_v168)) (ix2 i j') = _ :=
      (congrFun (Cert.ReferenceIdeal.Stage.carry_main_v168_6_8 V) (ix2 i j')).trans (Cert.ReferenceIdeal.Stage.stageE0_3_apply (R5 V) i j')
    refine (congrArg₂ (HAdd.hAdd (α := EReal) (β := EReal) (γ := EReal)) ho1 ho2).trans ?_
    refine congrArg₂ (HAdd.hAdd (α := EReal) (β := EReal) (γ := EReal)) (Cert.Spec.sage_congr ?_ ?_ ?_ ?_ ?_ j') (Cert.Spec.sage_congr ?_ ?_ ?_ ?_ ?_ j')
    · -- the neighbour mean of relation 1
      funext k; exact congrFun (M0_1 m ρ c V hA) (ix2 i k)
    · -- the node's own features
      funext k; exact congrFun ((Cert.ReferenceIdeal.Stage.carry_main_v4_1_3 V).trans (X0c m ρ c V hA)) (ix2 i k)
    · funext k j''; exact ((Cert.ReferenceIdeal.Stage.rwt0_1_wl V j'' k).trans (congrFun h15 _)).trans (Cert.KernelIdeal.Val.kwin0_wl1 m ρ c k j'').symm
    · funext k j''; exact ((Cert.ReferenceIdeal.Stage.rwt0_1_wr V j'' k).trans (congrFun h17 _)).trans (Cert.KernelIdeal.Val.kwin0_wr1 m ρ c k j'').symm
    · funext j''; exact ((Cert.ReferenceIdeal.Stage.rwt0_1_bl V j'').trans (congrFun h16 _)).trans (Cert.KernelIdeal.Val.kwin0_bl1 m ρ c j'').symm
    · -- the neighbour mean of relation 3
      funext k; exact congrFun (M0_3 m ρ c V hA) (ix2 i k)
    · -- the node's own features
      funext k; exact congrFun ((Cert.ReferenceIdeal.Stage.carry_main_v4_1_5 V).trans (X0c m ρ c V hA)) (ix2 i k)
    · funext k j''; exact ((Cert.ReferenceIdeal.Stage.rwt0_3_wl V j'' k).trans (congrFun h15 _)).trans (Cert.KernelIdeal.Val.kwin0_wl2 m ρ c k j'').symm
    · funext k j''; exact ((Cert.ReferenceIdeal.Stage.rwt0_3_wr V j'' k).trans (congrFun h17 _)).trans (Cert.KernelIdeal.Val.kwin0_wr2 m ρ c k j'').symm
    · funext j''; exact ((Cert.ReferenceIdeal.Stage.rwt0_3_bl V j'').trans (congrFun h16 _)).trans (Cert.KernelIdeal.Val.kwin0_bl2 m ρ c j'').symm
  · -- the scale
    exact ((Cert.ReferenceIdeal.Stage.rpar0_0_g V j').trans (congrFun h18 _)).trans (Cert.KernelIdeal.Val.kwin0_g m ρ c j').symm
  · -- the shift
    exact ((Cert.ReferenceIdeal.Stage.rpar0_0_b V j').trans (congrFun h19 _)).trans (Cert.KernelIdeal.Val.kwin0_b m ρ c j').symm

end Cert.Glue

end
-- ==== Proof.KReg1.lean ====
/-
  Region 1 of the kernel program, read as a value. The region's 25 grid points each take a block of 2000 rows of the
  three row arrays (and the whole weight matrices and vectors) to the same block of rows of the output array, every
  row by the row formula. The 25 blocks tile the 50000 rows, so after the region the output array holds at every
  row the row formula of that row, the body's payload at an index being the row formula (a hypothesis here).
-/
import proofs.«159317_j31121333027532_1_alg».proof.Proof.KIFrameReg1
import proofs.«159317_j31121333027532_1_alg».proof.Proof.Spec
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.GenP Idealize.ShloMosaic Idealize.ShloMosaic.TcCoe Idealize.ShloMosaic.ValueIdx
open Idealize.ShloMosaic.Pipeline (Dat)

/-- The body's payload at an index is the row formula (proved elsewhere). -/
def Body1 : Prop := ∀ (x0 x1 x2 : Vec Ideal S2000x128 .f32) (x3 x4 x5 x6 : Vec Ideal S128x128 .f32) (x7 x8 x9 x10 : Vec Ideal S128 .f32) (p : Fin 2000) (q : Fin 128),
    k1_pay1 (F := Ideal) (k1_pay2 (F := Ideal) x0 x1 x2 x3 x4 x5 x6 x7 x8) (Scalar.ofBits .f32 0x3F000000#32) x9 x10 (ix2 p q)
      = Cert.Spec.row (fun k => x0 (ix2 p k)) (fun k => x1 (ix2 p k)) (fun k => x2 (ix2 p k))
          (fun k j => x3 (ix2 k j)) (fun k j => x4 (ix2 k j)) (fun k j => x5 (ix2 k j)) (fun k j => x6 (ix2 k j))
          (fun j => x7 (ix1 j)) (fun j => x8 (ix1 j)) (fun j => x9 (ix1 j)) (fun j => x10 (ix1 j)) q

namespace Reg1

/-- Row r, feature q of the region's result, from the three row arrays, the four weight matrices and the four vectors. -/
def rowAt (a0 a1 a2 : Vec Ideal S50000x128 .f32) (a3 a4 a5 a6 : Vec Ideal S128x128 .f32) (a7 a8 a9 a10 : Vec Ideal S128 .f32)
    (r : Fin 50000) (q : Fin 128) : EReal :=
  Cert.Spec.row (fun k => a0 (ix2 r k)) (fun k => a1 (ix2 r k)) (fun k => a2 (ix2 r k))
    (fun k j => a3 (ix2 k j)) (fun k j => a4 (ix2 k j)) (fun k j => a5 (ix2 k j)) (fun k j => a6 (ix2 k j))
    (fun j => a7 (ix1 j)) (fun j => a8 (ix1 j)) (fun j => a9 (ix1 j)) (fun j => a10 (ix1 j)) q

/-- The region's result array: every row is the row formula of the same row of the row arrays. -/
def result (a0 a1 a2 : Vec Ideal S50000x128 .f32) (a3 a4 a5 a6 : Vec Ideal S128x128 .f32) (a7 a8 a9 a10 : Vec Ideal S128 .f32) :
    Vec Ideal S50000x128 .f32 :=
  fun i => rowAt a0 a1 a2 a3 a4 a5 a6 a7 a8 a9 a10 (i 0) (i 1)

/-- The result array at row r, feature q. -/
theorem result_apply (a0 a1 a2 : Vec Ideal S50000x128 .f32) (a3 a4 a5 a6 : Vec Ideal S128x128 .f32) (a7 a8 a9 a10 : Vec Ideal S128 .f32)
    (r : Fin 50000) (q : Fin 128) :
    result a0 a1 a2 a3 a4 a5 a6 a7 a8 a9 a10 (ix2 r q)
      = Cert.Spec.row (fun k => a0 (ix2 r k)) (fun k => a1 (ix2 r k)) (fun k => a2 (ix2 r k))
          (fun k j => a3 (ix2 k j)) (fun k j => a4 (ix2 k j)) (fun k j => a5 (ix2 k j)) (fun k j => a6 (ix2 k j))
          (fun j => a7 (ix1 j)) (fun j => a8 (ix1 j)) (fun j => a9 (ix1 j)) (fun j => a10 (ix1 j)) q := rfl

/-- The row formula respects equality of each of its eleven arguments. -/
theorem row_congr {m1 m1' m2 m2' x x' : Fin 128 → EReal} {wl1 wl1' wl2 wl2' wr1 wr1' wr2 wr2' : Fin 128 → Fin 128 → EReal}
    {bl1 bl1' bl2 bl2' g g' b b' : Fin 128 → EReal}
    (ha : m1 = m1') (hb : m2 = m2') (hc : x = x') (hd : wl1 = wl1') (he : wl2 = wl2') (hf : wr1 = wr1') (hg : wr2 = wr2')
    (hh : bl1 = bl1') (hi : bl2 = bl2') (hj : g = g') (hk : b = b') (q : Fin 128) :
    Cert.Spec.row m1 m2 x wl1 wl2 wr1 wr2 bl1 bl2 g b q = Cert.Spec.row m1' m2' x' wl1' wl2' wr1' wr2' bl1' bl2' g' b' q := by
  subst ha hb hc hd he hf hg hh hi hj hk; rfl

theorem zeros_two : (![0, 0] : Fin 2 → Nat) = fun _ => 0 := funext fun a => by fin_cases a <;> rfl
theorem zeros_one : (![0] : Fin 1 → Nat) = fun _ => 0 := funext fun a => by fin_cases a <;> rfl

/-- Window 0's block index at point t: row block t, lane block 0. -/
theorem idx_rowsA : ∀ t : Fin cfg1.N, win1_0.index t (0 : Fin 2) = t.val ∧ win1_0.index t (1 : Fin 2) = 0 :=
  (by decide +kernel : ∀ t : Fin grid1.N, win1_0.index t (0 : Fin 2) = t.val ∧ win1_0.index t (1 : Fin 2) = 0)
/-- Window 1's block index at point t: row block t, lane block 0. -/
theorem idx_rowsB : ∀ t : Fin cfg1.N, win1_1.index t (0 : Fin 2) = t.val ∧ win1_1.index t (1 : Fin 2) = 0 :=
  (by decide +kernel : ∀ t : Fin grid1.N, win1_1.index t (0 : Fin 2) = t.val ∧ win1_1.index t (1 : Fin 2) = 0)
/-- Window 2's block index at point t: row block t, lane block 0. -/
theorem idx_rowsC : ∀ t : Fin cfg1.N, win1_2.index t (0 : Fin 2) = t.val ∧ win1_2.index t (1 : Fin 2) = 0 :=
  (by decide +kernel : ∀ t : Fin grid1.N, win1_2.index t (0 : Fin 2) = t.val ∧ win1_2.index t (1 : Fin 2) = 0)
/-- Window 11's block index at point t: row block t, lane block 0. -/
theorem idx_out : ∀ t : Fin cfg1.N, win1_11.index t (0 : Fin 2) = t.val ∧ win1_11.index t (1 : Fin 2) = 0 :=
  (by decide +kernel : ∀ t : Fin grid1.N, win1_11.index t (0 : Fin 2) = t.val ∧ win1_11.index t (1 : Fin 2) = 0)
/-- Window 3's block index is zero on both axes at every point: the whole matrix. -/
theorem idx_matA : ∀ t : Fin cfg1.N, win1_3.index t (0 : Fin 2) = 0 ∧ win1_3.index t (1 : Fin 2) = 0 :=
  (by decide +kernel : ∀ t : Fin grid1.N, win1_3.index t (0 : Fin 2) = 0 ∧ win1_3.index t (1 : Fin 2) = 0)
/-- Window 4's block index is zero on both axes at every point: the whole matrix. -/
theorem idx_matB : ∀ t : Fin cfg1.N, win1_4.index t (0 : Fin 2) = 0 ∧ win1_4.index t (1 : Fin 2) = 0 :=
  (by decide +kernel : ∀ t : Fin grid1.N, win1_4.index t (0 : Fin 2) = 0 ∧ win1_4.index t (1 : Fin 2) = 0)
/-- Window 5's block index is zero on both axes at every point: the whole matrix. -/
theorem idx_matC : ∀ t : Fin cfg1.N, win1_5.index t (0 : Fin 2) = 0 ∧ win1_5.index t (1 : Fin 2) = 0 :=
  (by decide +kernel : ∀ t : Fin grid1.N, win1_5.index t (0 : Fin 2) = 0 ∧ win1_5.index t (1 : Fin 2) = 0)
/-- Window 6's block index is zero on both axes at every point: the whole matrix. -/
theorem idx_matD : ∀ t : Fin cfg1.N, win1_6.index t (0 : Fin 2) = 0 ∧ win1_6.index t (1 : Fin 2) = 0 :=
  (by decide +kernel : ∀ t : Fin grid1.N, win1_6.index t (0 : Fin 2) = 0 ∧ win1_6.index t (1 : Fin 2) = 0)
/-- Window 7's block index is zero at every point: the whole vector. -/
theorem idx_vecA : ∀ t : Fin cfg1.N, win1_7.index t (0 : Fin 1) = 0 :=
  (by decide +kernel : ∀ t : Fin grid1.N, win1_7.index t (0 : Fin 1) = 0)
/-- Window 8's block index is zero at every point: the whole vector. -/
theorem idx_vecB : ∀ t : Fin cfg1.N, win1_8.index t (0 : Fin 1) = 0 :=
  (by decide +kernel : ∀ t : Fin grid1.N, win1_8.index t (0 : Fin 1) = 0)
/-- Window 9's block index is zero at every point: the whole vector. -/
theorem idx_vecC : ∀ t : Fin cfg1.N, win1_9.index t (0 : Fin 1) = 0 :=
  (by decide +kernel : ∀ t : Fin grid1.N, win1_9.index t (0 : Fin 1) = 0)
/-- Window 10's block index is zero at every point: the whole vector. -/
theorem idx_vecD : ∀ t : Fin cfg1.N, win1_10.index t (0 : Fin 1) = 0 :=
  (by decide +kernel : ∀ t : Fin grid1.N, win1_10.index t (0 : Fin 1) = 0)

/-- The row blocks fill the rows exactly. -/
theorem rows_eq : cfg1.N * 2000 = 50000 := (by decide +kernel : grid1.N * 2000 = 50000)

/-- The array row of row p of the block at point t. -/
def rowOf (t : Fin cfg1.N) (p : Fin 2000) : Fin 50000 :=
  ⟨t.val * 2000 + p.val, by have h := rows_eq; have ht := t.isLt; have hp := p.isLt; omega⟩

variable (V : (c : Dev nD) → (b : Ref sig .tc) → Buf (Elt Ideal) ((c : Thread nD τ).loc b))

/-- Row p of window 0's block at point t is row t * 2000 + p of its array. -/
theorem rowsA_apply (c : Dev nD) (t : Fin cfg1.N) (p : Fin 2000) (k : Fin 128) :
    (iblk1 V c 0 t : Vec Ideal S2000x128 .f32) (ix2 p k) = (V c main_v45 : Vec Ideal S50000x128 .f32) (ix2 (rowOf t p) k) := by
  obtain ⟨ea, eb⟩ := idx_rowsA t
  unfold iblk1
  rw [View.read_apply]
  show (V c main_v45 : Vec Ideal S50000x128 .f32) (((cfg1.win 0).blk t).view.emb (ix2 p k)) = _
  refine congrArg (V c main_v45 : Vec Ideal S50000x128 .f32) ?_
  funext a
  apply Fin.ext
  match a with
  | ⟨0, _⟩ => show win1_0.index t (0 : Fin 2) * 2000 + 1 * p.val = t.val * 2000 + p.val; omega
  | ⟨1, _⟩ => show win1_0.index t (1 : Fin 2) * 128 + 1 * k.val = k.val; omega
/-- Row p of window 1's block at point t is row t * 2000 + p of its array. -/
theorem rowsB_apply (c : Dev nD) (t : Fin cfg1.N) (p : Fin 2000) (k : Fin 128) :
    (iblk1 V c 1 t : Vec Ideal S2000x128 .f32) (ix2 p k) = (V c main_v160 : Vec Ideal S50000x128 .f32) (ix2 (rowOf t p) k) := by
  obtain ⟨ea, eb⟩ := idx_rowsB t
  unfold iblk1
  rw [View.read_apply]
  show (V c main_v160 : Vec Ideal S50000x128 .f32) (((cfg1.win 1).blk t).view.emb (ix2 p k)) = _
  refine congrArg (V c main_v160 : Vec Ideal S50000x128 .f32) ?_
  funext a
  apply Fin.ext
  match a with
  | ⟨0, _⟩ => show win1_1.index t (0 : Fin 2) * 2000 + 1 * p.val = t.val * 2000 + p.val; omega
  | ⟨1, _⟩ => show win1_1.index t (1 : Fin 2) * 128 + 1 * k.val = k.val; omega
/-- Row p of window 2's block at point t is row t * 2000 + p of its array. -/
theorem rowsC_apply (c : Dev nD) (t : Fin cfg1.N) (p : Fin 2000) (k : Fin 128) :
    (iblk1 V c 2 t : Vec Ideal S2000x128 .f32) (ix2 p k) = (V c main_v9 : Vec Ideal S50000x128 .f32) (ix2 (rowOf t p) k) := by
  obtain ⟨ea, eb⟩ := idx_rowsC t
  unfold iblk1
  rw [View.read_apply]
  show (V c main_v9 : Vec Ideal S50000x128 .f32) (((cfg1.win 2).blk t).view.emb (ix2 p k)) = _
  refine congrArg (V c main_v9 : Vec Ideal S50000x128 .f32) ?_
  funext a
  apply Fin.ext
  match a with
  | ⟨0, _⟩ => show win1_2.index t (0 : Fin 2) * 2000 + 1 * p.val = t.val * 2000 + p.val; omega
  | ⟨1, _⟩ => show win1_2.index t (1 : Fin 2) * 128 + 1 * k.val = k.val; omega
/-- Window 3's block at any point is its whole matrix. -/
theorem matA_apply (c : Dev nD) (t : Fin cfg1.N) (k j : Fin 128) :
    (iblk1 V c 3 t : Vec Ideal S128x128 .f32) (ix2 k j) = (V c main_v179 : Vec Ideal S128x128 .f32) (ix2 k j) := by
  obtain ⟨ea, eb⟩ := idx_matA t
  unfold iblk1
  rw [View.read_apply]
  show (V c main_v179 : Vec Ideal S128x128 .f32) (((cfg1.win 3).blk t).view.emb (ix2 k j)) = _
  refine congrArg (V c main_v179 : Vec Ideal S128x128 .f32) ?_
  funext a
  apply Fin.ext
  match a with
  | ⟨0, _⟩ => show win1_3.index t (0 : Fin 2) * 128 + 1 * k.val = k.val; omega
  | ⟨1, _⟩ => show win1_3.index t (1 : Fin 2) * 128 + 1 * j.val = j.val; omega
/-- Window 4's block at any point is its whole matrix. -/
theorem matB_apply (c : Dev nD) (t : Fin cfg1.N) (k j : Fin 128) :
    (iblk1 V c 4 t : Vec Ideal S128x128 .f32) (ix2 k j) = (V c main_v181 : Vec Ideal S128x128 .f32) (ix2 k j) := by
  obtain ⟨ea, eb⟩ := idx_matB t
  unfold iblk1
  rw [View.read_apply]
  show (V c main_v181 : Vec Ideal S128x128 .f32) (((cfg1.win 4).blk t).view.emb (ix2 k j)) = _
  refine congrArg (V c main_v181 : Vec Ideal S128x128 .f32) ?_
  funext a
  apply Fin.ext
  match a with
  | ⟨0, _⟩ => show win1_4.index t (0 : Fin 2) * 128 + 1 * k.val = k.val; omega
  | ⟨1, _⟩ => show win1_4.index t (1 : Fin 2) * 128 + 1 * j.val = j.val; omega
/-- Window 5's block at any point is its whole matrix. -/
theorem matC_apply (c : Dev nD) (t : Fin cfg1.N) (k j : Fin 128) :
    (iblk1 V c 5 t : Vec Ideal S128x128 .f32) (ix2 k j) = (V c main_v183 : Vec Ideal S128x128 .f32) (ix2 k j) := by
  obtain ⟨ea, eb⟩ := idx_matC t
  unfold iblk1
  rw [View.read_apply]
  show (V c main_v183 : Vec Ideal S128x128 .f32) (((cfg1.win 5).blk t).view.emb (ix2 k j)) = _
  refine congrArg (V c main_v183 : Vec Ideal S128x128 .f32) ?_
  funext a
  apply Fin.ext
  match a with
  | ⟨0, _⟩ => show win1_5.index t (0 : Fin 2) * 128 + 1 * k.val = k.val; omega
  | ⟨1, _⟩ => show win1_5.index t (1 : Fin 2) * 128 + 1 * j.val = j.val; omega
/-- Window 6's block at any point is its whole matrix. -/
theorem matD_apply (c : Dev nD) (t : Fin cfg1.N) (k j : Fin 128) :
    (iblk1 V c 6 t : Vec Ideal S128x128 .f32) (ix2 k j) = (V c main_v185 : Vec Ideal S128x128 .f32) (ix2 k j) := by
  obtain ⟨ea, eb⟩ := idx_matD t
  unfold iblk1
  rw [View.read_apply]
  show (V c main_v185 : Vec Ideal S128x128 .f32) (((cfg1.win 6).blk t).view.emb (ix2 k j)) = _
  refine congrArg (V c main_v185 : Vec Ideal S128x128 .f32) ?_
  funext a
  apply Fin.ext
  match a with
  | ⟨0, _⟩ => show win1_6.index t (0 : Fin 2) * 128 + 1 * k.val = k.val; omega
  | ⟨1, _⟩ => show win1_6.index t (1 : Fin 2) * 128 + 1 * j.val = j.val; omega
/-- Window 7's block at any point is its whole vector. -/
theorem vecA_apply (c : Dev nD) (t : Fin cfg1.N) (j : Fin 128) :
    (iblk1 V c 7 t : Vec Ideal S128 .f32) (ix1 j) = (V c main_v187 : Vec Ideal S128 .f32) (ix1 j) := by
  have ea := idx_vecA t
  unfold iblk1
  rw [View.read_apply]
  show (V c main_v187 : Vec Ideal S128 .f32) (((cfg1.win 7).blk t).view.emb (ix1 j)) = _
  refine congrArg (V c main_v187 : Vec Ideal S128 .f32) ?_
  funext a
  apply Fin.ext
  match a with
  | ⟨0, _⟩ => show win1_7.index t (0 : Fin 1) * 128 + 1 * j.val = j.val; omega
/-- Window 8's block at any point is its whole vector. -/
theorem vecB_apply (c : Dev nD) (t : Fin cfg1.N) (j : Fin 128) :
    (iblk1 V c 8 t : Vec Ideal S128 .f32) (ix1 j) = (V c main_v189 : Vec Ideal S128 .f32) (ix1 j) := by
  have ea := idx_vecB t
  unfold iblk1
  rw [View.read_apply]
  show (V c main_v189 : Vec Ideal S128 .f32) (((cfg1.win 8).blk t).view.emb (ix1 j)) = _
  refine congrArg (V c main_v189 : Vec Ideal S128 .f32) ?_
  funext a
  apply Fin.ext
  match a with
  | ⟨0, _⟩ => show win1_8.index t (0 : Fin 1) * 128 + 1 * j.val = j.val; omega
/-- Window 9's block at any point is its whole vector. -/
theorem vecC_apply (c : Dev nD) (t : Fin cfg1.N) (j : Fin 128) :
    (iblk1 V c 9 t : Vec Ideal S128 .f32) (ix1 j) = (V c main_v191 : Vec Ideal S128 .f32) (ix1 j) := by
  have ea := idx_vecC t
  unfold iblk1
  rw [View.read_apply]
  show (V c main_v191 : Vec Ideal S128 .f32) (((cfg1.win 9).blk t).view.emb (ix1 j)) = _
  refine congrArg (V c main_v191 : Vec Ideal S128 .f32) ?_
  funext a
  apply Fin.ext
  match a with
  | ⟨0, _⟩ => show win1_9.index t (0 : Fin 1) * 128 + 1 * j.val = j.val; omega
/-- Window 10's block at any point is its whole vector. -/
theorem vecD_apply (c : Dev nD) (t : Fin cfg1.N) (j : Fin 128) :
    (iblk1 V c 10 t : Vec Ideal S128 .f32) (ix1 j) = (V c main_v193 : Vec Ideal S128 .f32) (ix1 j) := by
  have ea := idx_vecD t
  unfold iblk1
  rw [View.read_apply]
  show (V c main_v193 : Vec Ideal S128 .f32) (((cfg1.win 10).blk t).view.emb (ix1 j)) = _
  refine congrArg (V c main_v193 : Vec Ideal S128 .f32) ?_
  funext a
  apply Fin.ext
  match a with
  | ⟨0, _⟩ => show win1_10.index t (0 : Fin 1) * 128 + 1 * j.val = j.val; omega

/-- Element (p, q) of the output's block at point t sits at row t * 2000 + p, lane q of the array. -/
theorem out_emb (t : Fin cfg1.N) (p : Fin 2000) (q : Fin 128) :
    (((cfg1.win 11).blk t).view.emb (ix2 p q) : S50000x128.Idx) = ix2 (rowOf t p) q := by
  obtain ⟨ea, eb⟩ := idx_out t
  funext a
  apply Fin.ext
  match a with
  | ⟨0, _⟩ => show win1_11.index t (0 : Fin 2) * 2000 + 1 * p.val = t.val * 2000 + p.val; omega
  | ⟨1, _⟩ => show win1_11.index t (1 : Fin 2) * 128 + 1 * q.val = q.val; omega

/-- An array read through the output's block at point t, at element (p, q), is the array at row t * 2000 + p, lane q. -/
theorem out_read (G : Vec Ideal S50000x128 .f32) (t : Fin cfg1.N) (p : Fin 2000) (q : Fin 128) :
    ((cfg1.win 11).blk t).view.read (Elt Ideal) G (ix2 p q) = G (ix2 (rowOf t p) q) := by
  rw [View.read_apply]
  show G (((cfg1.win 11).blk t).view.emb (ix2 p q)) = _
  exact congrArg G (out_emb t p q)

/-- What point t writes back is block t of the result array. -/
theorem flushed_eq (hbody : Body1) (c : Dev nD) (t : Fin cfg1.N) :
    (dat1 (F := Ideal) V c).flushed 11 t
      = ((cfg1.win 11).blk t).view.read (Elt Ideal) (result (V c main_v45) (V c main_v160) (V c main_v9) (V c main_v179) (V c main_v181) (V c main_v183) (V c main_v185) (V c main_v187) (V c main_v189) (V c main_v191) (V c main_v193)) := by
  show (cfg1.win 11).cut (grid1.coords t) ((dat1 V c).after 11 t) = _
  rw [after1_11]
  unfold out1_11
  rw [View.canon_unit_zero zeros_two]
  simp only [View.ld_unit_zero (S := S2000x128) zeros_two, View.ld_unit_zero (S := S128x128) zeros_two, View.ld_unit_zero (S := S128) zeros_one]
  funext y
  obtain ⟨p, q, rfl⟩ : ∃ (p : Fin 2000) (q : Fin 128), y = ix2 p q := ⟨y 0, y 1, eq_ix2 y⟩
  refine (hbody (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) p q).trans ?_
  refine Eq.trans ?_ (out_read (result (V c main_v45) (V c main_v160) (V c main_v9) (V c main_v179) (V c main_v181) (V c main_v183) (V c main_v185) (V c main_v187) (V c main_v189) (V c main_v191) (V c main_v193)) t p q).symm
  refine Eq.trans ?_ (result_apply (V c main_v45) (V c main_v160) (V c main_v9) (V c main_v179) (V c main_v181) (V c main_v183) (V c main_v185) (V c main_v187) (V c main_v189) (V c main_v191) (V c main_v193) (rowOf t p) q).symm
  exact row_congr (funext fun k => rowsA_apply V c t p k) (funext fun k => rowsB_apply V c t p k) (funext fun k => rowsC_apply V c t p k)
    (funext fun k => funext fun j => matA_apply V c t k j) (funext fun k => funext fun j => matB_apply V c t k j)
    (funext fun k => funext fun j => matC_apply V c t k j) (funext fun k => funext fun j => matD_apply V c t k j)
    (funext fun j => vecA_apply V c t j) (funext fun j => vecB_apply V c t j) (funext fun j => vecC_apply V c t j)
    (funext fun j => vecD_apply V c t j) q

/-- An index of the array is in point t's block iff each coordinate is in the block's range on its axis. -/
theorem mem_blk (t : Fin cfg1.N) (i : S50000x128.Idx) :
    i ∈ ((cfg1.win 11).blk t).view.set ↔ ∀ a : Fin 2, win1_11.index t a * S2000x128.size a ≤ (i a).val ∧ (i a).val < win1_11.index t a * S2000x128.size a + S2000x128.size a := by
  show i ∈ ((View.whole (Pipeline.arrRef spec1 11)).slice (win1_11.rect t)).set ↔ _
  rw [View.set_slice_whole, Rect.mem_set_unit]
  exact Iff.rfl

/-- Every index of the array is in the block of the point its row falls in. -/
theorem cover (i : S50000x128.Idx) : ∃ t : Fin cfg1.N, (cfg1.win 11).flush t = true ∧ i ∈ ((cfg1.win 11).blk t).view.set := by
  have hi0 : (i 0).val < 50000 := (i 0).isLt
  have hi1 : (i 1).val < 128 := (i 1).isLt
  have hN := rows_eq
  obtain ⟨t, ht⟩ : ∃ t : Fin cfg1.N, t.val = (i 0).val / 2000 := ⟨⟨(i 0).val / 2000, by omega⟩, rfl⟩
  obtain ⟨ea, eb⟩ := idx_out t
  refine ⟨t, flush1_11 t, ?_⟩
  rw [mem_blk]
  intro a
  match a with
  | ⟨0, _⟩ => show win1_11.index t (0 : Fin 2) * 2000 ≤ (i 0).val ∧ (i 0).val < win1_11.index t (0 : Fin 2) * 2000 + 2000; omega
  | ⟨1, _⟩ => show win1_11.index t (1 : Fin 2) * 128 ≤ (i 1).val ∧ (i 1).val < win1_11.index t (1 : Fin 2) * 128 + 128; omega

/-- After the region the output array is the result array. -/
theorem final (hbody : Body1) (c : Dev nD) :
    (dat1 (F := Ideal) V c).arrAt 11 cfg1.N = result (V c main_v45) (V c main_v160) (V c main_v9) (V c main_v179) (V c main_v181) (V c main_v183) (V c main_v185) (V c main_v187) (V c main_v189) (V c main_v191) (V c main_v193) :=
  (dat1 (F := Ideal) V c).arrAt_eq_of_cover 11 (result (V c main_v45) (V c main_v160) (V c main_v9) (V c main_v179) (V c main_v181) (V c main_v183) (V c main_v185) (V c main_v187) (V c main_v189) (V c main_v191) (V c main_v193))
    (fun t _ => flushed_eq V hbody c t) cover

end Reg1

/-- After region 1 its output array holds, at every row, the row formula of that row of the three row arrays. -/
theorem region1_apply (hbody : Body1)
    (V : (c : Dev nD) → (b : Ref sig .tc) → Buf (Elt Ideal) ((c : Thread nD τ).loc b)) (c : Dev nD) (i : Fin 50000) (j : Fin 128) :
    ((dat1 (F := Ideal) V c).arrAt 11 cfg1.N : Vec Ideal S50000x128 .f32) (ix2 i j)
      = Cert.Spec.row (fun k => (V c main_v45 : Vec Ideal S50000x128 .f32) (ix2 i k)) (fun k => (V c main_v160 : Vec Ideal S50000x128 .f32) (ix2 i k))
          (fun k => (V c main_v9 : Vec Ideal S50000x128 .f32) (ix2 i k))
          (fun k j => (V c main_v179 : Vec Ideal S128x128 .f32) (ix2 k j)) (fun k j => (V c main_v181 : Vec Ideal S128x128 .f32) (ix2 k j))
          (fun k j => (V c main_v183 : Vec Ideal S128x128 .f32) (ix2 k j)) (fun k j => (V c main_v185 : Vec Ideal S128x128 .f32) (ix2 k j))
          (fun j => (V c main_v187 : Vec Ideal S128 .f32) (ix1 j)) (fun j => (V c main_v189 : Vec Ideal S128 .f32) (ix1 j))
          (fun j => (V c main_v191 : Vec Ideal S128 .f32) (ix1 j)) (fun j => (V c main_v193 : Vec Ideal S128 .f32) (ix1 j)) j :=
  (congrFun (Reg1.final V hbody c) (ix2 i j)).trans
    (Reg1.result_apply (V c main_v45) (V c main_v160) (V c main_v9) (V c main_v179) (V c main_v181) (V c main_v183) (V c main_v185) (V c main_v187) (V c main_v189) (V c main_v191) (V c main_v193) i j)

end Cert.KernelIdeal.Val

end
-- ==== Proof.KBody1.lean ====
/-
  The kernel body's value at an index, for blocks of 2000 rows.

  For a block of 2000 rows of 128 features the body forms the two relations' outputs (four products of the block's
  rows with 128 × 128 weight matrices into zero accumulators, two bias rows, all summed), halves the sum, normalises
  each row along its 128 lanes (mean and variance as lane sums divided by 128, the variance shifted by a small
  constant before the reciprocal square root), scales and shifts per feature, and clips below at zero. Read at row p
  and feature q, that is the row formula `Cert.Spec.row` of the three input rows at p.
-/
import proofs.«159317_j31121333027532_1_alg».proof.Proof.Gen.KernelIdeal.Skeleton
import proofs.«159317_j31121333027532_1_alg».proof.Proof.Spec
import proofs.«159317_j31121333027532_1_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Val

open Cert.KernelIdeal Cert.KernelIdeal.Gen Idealize.ShloMosaic Idealize.ShloMosaic.ValueIdx

/-! ## A product of a block of rows with a square matrix, read at an index -/

/-- The left operand's index at output row `i 0`: its row coordinate. -/
theorem k1_lhs_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
/-- Its column coordinate is the contraction index. -/
theorem k1_lhs_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
/-- The right operand's row coordinate is the contraction index. -/
theorem k1_rhs_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
/-- Its column coordinate is the output's. -/
theorem k1_rhs_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- Into the zero accumulator the product at (p, q) is the sum over k of the left operand at (p, k) times the right
    at (k, q). -/
theorem k1_matmul_apply (a : FVec Ideal S2000x128 .bf16) (w : FVec Ideal S128x128 .bf16) (p : Fin 2000) (q : Fin 128) :
    matmul dot_S2000x128_S128x128_S2000x128_1_0_0_1_n_n none a w (constant (F := Ideal) S2000x128 .f32 0x00000000#32) (ix2 p q)
      = ∑ k : Fin 128, a (ix2 p k) * w (ix2 k q) := by
  refine (Ideal.matmul_constant_zero_apply dot_S2000x128_S128x128_S2000x128_1_0_0_1_n_n none a w (ix2 p q)).trans ?_
  rw [← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k := funext fun a => Fin.ext (by
    match a with
    | ⟨0, _⟩ => exact k1_lhs_0 _ _
    | ⟨1, _⟩ => exact (k1_lhs_1 _ _).trans hk)
  have er : dot_S2000x128_S128x128_S2000x128_1_0_0_1_n_n.rhsIdx (ix2 p q) ((contrEquiv1 dot_S2000x128_S128x128_S2000x128_1_0_0_1_n_n 128 rfl rfl).symm k) = ix2 k q := funext fun a => Fin.ext (by
    match a with
    | ⟨0, _⟩ => exact (k1_rhs_0 _ _).trans hk
    | ⟨1, _⟩ => exact k1_rhs_1 _ _)
  rw [el, er]

/-! ## The layout operations of the payloads, read at an index -/

/-- A block of rows cast to its own shape reads the block. -/
theorem k1_cast_rows_apply (v : FVec Ideal S2000x128 .f32) (i : S2000x128.Idx) :
    shapeCast S2000x128 v shapeCasts_S2000x128_S2000x128 i = v i :=
  congrFun (shapeCast_self v shapeCasts_S2000x128_S2000x128) i

/-- A square matrix cast to its own shape reads the matrix. -/
theorem k1_cast_sq_apply (v : FVec Ideal S128x128 .f32) (i : S128x128.Idx) :
    shapeCast S128x128 v shapeCasts_S128x128_S128x128 i = v i :=
  congrFun (shapeCast_self v shapeCasts_S128x128_S128x128) i

/-- A feature vector cast to itself, then to a row [1, 128], and broadcast down the rows: at (p, q), the vector at q. -/
theorem k1_row_apply (v : FVec Ideal S128 .f32) (p : Fin 2000) (q : Fin 128) :
    broadcastTo S2000x128 (shapeCast S1x128 (shapeCast S128 v shapeCasts_S128_S128) shapeCasts_S128_S1x128)
      broadcasts_S1x128_S2000x128 (ix2 p q) = v (ix1 q) := by
  refine (broadcastTo_1b_ab_apply _ broadcasts_S1x128_S2000x128 p q).trans ?_
  refine (shapeCast_a_1a_apply _ shapeCasts_S128_S1x128 (0 : Fin 1) q).trans ?_
  exact congrFun (shapeCast_self v shapeCasts_S128_S128) _

/-- A column [2000, 1] broadcast across the lanes: at (p, q), the column at p. -/
theorem k1_col_apply (w : FVec Ideal S2000x1 .f32) (p : Fin 2000) (q : Fin 128) :
    broadcastTo S2000x128 w broadcasts_S2000x1_S2000x128 (ix2 p q) = w (ix2 p (0 : Fin 1)) := by
  refine broadcastTo_apply w broadcasts_S2000x1_S2000x128 (ix2 p q) (ix2 p (0 : Fin 1)) fun ax => ?_
  match ax with
  | ⟨0, _⟩ =>
    show p.val = if (2000 : ℕ) = 1 then 0 else p.val
    exact (if_neg (by decide)).symm
  | ⟨1, _⟩ => rfl

/-- A vector [2000] cast to a column [2000, 1]: at (p, 0), the vector at p. -/
theorem k1_colcast_apply (v : FVec Ideal S2000 .f32) (p : Fin 2000) :
    shapeCast S2000x1 v shapeCasts_S2000_S2000x1 (ix2 p (0 : Fin 1)) = v (ix1 p) := by
  refine shapeCast_apply v shapeCasts_S2000_S2000x1 _ _ ?_
  rw [Shape.rowMajor_val_one, Shape.rowMajor_val_two]
  show p.val = p.val * 1 + 0
  omega

/-- The sum along the lanes from the zero pattern, read at row p, is the sum of the row. -/
theorem k1_lane_sum_apply (src : FVec Ideal S2000x128 .f32) (hφ : FKind.Formats .f32)
    (hacc : @Eq (BitVec (FTy.bits .f32)) 0x00000000#32 0x00000000#32) (p : Fin 2000) :
    multiReduction (F := Ideal) .add ([1] : List (Fin 2)) S2000 src 0x00000000#32 reduces_S2000x128_S2000 hφ hacc (ix1 p)
      = ∑ k : Fin 128, src (ix2 p k) :=
  Cert.LibKeepdims.lane_sum_apply src reduces_S2000x128_S2000 hφ hacc p

/-- A reciprocal square root at an index is that of the element. -/
theorem k1_rsqrt_apply {s : Shape} (a : FVec Ideal s .f32) (i : s.Idx) : rsqrt a i = Ideal.rsqrt (a i) := rfl

/-! ## The two payloads at an index -/

/-- The sum of the two relations' outputs at (p, q). -/
theorem k1_pay2_apply (x0 x1 x2 : Vec Ideal S2000x128 .f32) (x3 x4 x5 x6 : Vec Ideal S128x128 .f32) (x7 x8 : Vec Ideal S128 .f32)
    (p : Fin 2000) (q : Fin 128) :
    k1_pay2 (F := Ideal) x0 x1 x2 x3 x4 x5 x6 x7 x8 (ix2 p q)
      = Cert.Spec.sage (fun k => x0 (ix2 p k)) (fun k => x2 (ix2 p k)) (fun k j => x3 (ix2 k j)) (fun k j => x5 (ix2 k j))
          (fun j => x7 (ix1 j)) q
        + Cert.Spec.sage (fun k => x1 (ix2 p k)) (fun k => x2 (ix2 p k)) (fun k j => x4 (ix2 k j)) (fun k j => x6 (ix2 k j))
          (fun j => x8 (ix1 j)) q := by
  unfold k1_pay2
  simp only [addf_apply, k1_matmul_apply, k1_row_apply, truncf_apply, k1_cast_rows_apply, k1_cast_sq_apply]
  rfl

/-- The halved, normalised, scaled, shifted and clipped row at (p, q). -/
theorem k1_pay1_apply (o : FVec Ideal S2000x128 .f32) (g b : Vec Ideal S128 .f32) (p : Fin 2000) (q : Fin 128) :
    k1_pay1 (F := Ideal) o (Scalar.ofBits .f32 0x3F000000#32) g b (ix2 p q)
      = Cert.Spec.lnrelu (fun j => o (ix2 p j)) (fun j => g (ix1 j)) (fun j => b (ix1 j)) q := by
  unfold k1_pay1
  simp only [maximumf_apply, addf_apply, mulf_apply, subf_apply, divf_apply, broadcast_apply, k1_rsqrt_apply, k1_row_apply,
    k1_col_apply, k1_colcast_apply, k1_lane_sum_apply]
  rfl

/-- The kernel body's value at (p, q) is the row formula of the three rows at p. -/
theorem body1_apply (x0 x1 x2 : Vec Ideal S2000x128 .f32) (x3 x4 x5 x6 : Vec Ideal S128x128 .f32) (x7 x8 x9 x10 : Vec Ideal S128 .f32)
    (p : Fin 2000) (q : Fin 128) :
    k1_pay1 (F := Ideal) (k1_pay2 (F := Ideal) x0 x1 x2 x3 x4 x5 x6 x7 x8) (Scalar.ofBits .f32 0x3F000000#32) x9 x10 (ix2 p q)
      = Cert.Spec.row (fun k => x0 (ix2 p k)) (fun k => x1 (ix2 p k)) (fun k => x2 (ix2 p k))
          (fun k j => x3 (ix2 k j)) (fun k j => x4 (ix2 k j)) (fun k j => x5 (ix2 k j)) (fun k j => x6 (ix2 k j))
          (fun j => x7 (ix1 j)) (fun j => x8 (ix1 j)) (fun j => x9 (ix1 j)) (fun j => x10 (ix1 j)) q := by
  refine (k1_pay1_apply _ x9 x10 p q).trans ?_
  unfold Cert.Spec.row
  exact congrArg (fun o => Cert.Spec.lnrelu o (fun j => x9 (ix1 j)) (fun j => x10 (ix1 j)) q)
    (funext fun j => k1_pay2_apply x0 x1 x2 x3 x4 x5 x6 x7 x8 p j)

end Cert.KernelIdeal.Val

end
-- ==== Proof.RStageS0p.lean ====
/-
  The reference's stretch that turns the two relation outputs of one node type into that type's new features, read at
  one row i and one feature j.

  The two arrays are added and multiplied by one half; along the 128 features of a row the mean is the sum divided by
  128, the deviation is the halved row less its mean, the variance is the sum of the squared deviations divided by 128;
  the deviation is multiplied by the reciprocal square root of the variance shifted by a small constant, scaled and
  shifted per feature by the slices at one layer and one node type of two 2 x 3 x 128 arrays, and clipped below at zero.
  Each operation that is not pointwise — a scalar spread over an array, the sum along a row, a vector made a column,
  a column spread across the features, a slice made a row and spread down the rows — is read at an index by one small
  lemma over arrays of the literal shapes; the pointwise ones read through by definition; the composed term is then the
  specification's function of the row, term for term.
-/
import proofs.«159317_j31121333027532_1_alg».proof.Proof.RefChunks
import proofs.«159317_j31121333027532_1_alg».proof.Proof.Spec
import Idealize.ShloMosaic.Lib.StableHlo.Run
import Idealize.ShloMosaic.Lib.Pipeline.Value
import Idealize.ShloMosaic.Lib.ValueIdx
import Idealize.ShloMosaic.PureOps.Ideal.Laws

noncomputable section

namespace Cert.ReferenceIdeal.Stage

open Cert.ReferenceIdeal Cert.ReferenceIdeal.Chunks Idealize.ShloMosaic Idealize.ShloMosaic.StableHlo Idealize.ShloMosaic.ValueIdx

/-- A scalar constant broadcast over the array reads its value everywhere. -/
theorem cS0_p_splat_apply (w : BitVec (FTy.bits .f32))
    (h : S_.BroadcastsInDim S50000x128 (![] : Fin 0 → Fin S50000x128.rank)) (p : S50000x128.Idx) :
    broadcastInDim S50000x128 (no_index ![]) h (constant (F := Ideal) S_ .f32 w) p = Ideal.ofBits .f32 w := rfl

/-- A scalar constant broadcast over the column reads its value everywhere. -/
theorem cS0_p_splat_col_apply (w : BitVec (FTy.bits .f32))
    (h : S_.BroadcastsInDim S50000x1 (![] : Fin 0 → Fin S50000x1.rank)) (p : S50000x1.Idx) :
    broadcastInDim S50000x1 (no_index ![]) h (constant (F := Ideal) S_ .f32 w) p = Ideal.ofBits .f32 w := rfl

/-- The host's sum along the 128 features from the zero pattern, read at row i, is the sum of the row. -/
theorem cS0_p_rowsum_apply (x : FVec Ideal S50000x128 .f32) (h' : S50000x128.ReducesTo [1] S50000)
    (hu : 0 < S_.numel) (i : Fin 50000) :
    Host.reduceAdd (F := Ideal) x (constant (F := Ideal) S_ .f32 0x00000000#32) h' hu (ix1 i)
      = ∑ k : Fin 128, x (ix2 i k) := by
  have h : S50000x128.Reduces [1] S50000 := by decide
  show Ideal.hostReduceAdd h' x (Ideal.ofBits .f32 0x00000000#32) (ix1 i) = _
  rw [Ideal.hostReduceAdd_single h' h, Ideal.ofBits_zero_f32, zero_add]
  exact Finset.sum_congr rfl fun k _ => congrArg x
    (funext fun ax => Fin.ext (by match ax with | ⟨0, _⟩ => rfl | ⟨1, _⟩ => rfl))

/-- A vector over the rows as a column: at (i, 0), the vector at i. -/
theorem cS0_p_column_apply (v : FVec Ideal S50000 .f32)
    (h : S50000.BroadcastsInDim S50000x1 (![0] : Fin 1 → Fin S50000x1.rank)) (i : Fin 50000) :
    broadcastInDim S50000x1 (no_index ![0]) h v (ix2 i (0 : Fin 1)) = v (ix1 i) := by
  refine broadcastInDim_apply _ h v _ (ix1 i) fun a => ?_
  match a with
  | ⟨0, _⟩ => rfl

/-- A column broadcast across the 128 features: at (i, j), the column at (i, 0). -/
theorem cS0_p_across_apply (c : FVec Ideal S50000x1 .f32)
    (h : S50000x1.BroadcastsInDim S50000x128 (![0, 1] : Fin 2 → Fin S50000x128.rank)) (i : Fin 50000) (j : Fin 128) :
    broadcastInDim S50000x128 (no_index ![0, 1]) h c (ix2 i j) = c (ix2 i (0 : Fin 1)) := by
  refine broadcastInDim_apply _ h c _ (ix2 i (0 : Fin 1)) fun a => ?_
  match a with
  | ⟨0, _⟩ => rfl
  | ⟨1, _⟩ => rfl

/-- A per-feature parameter, the slice at one layer and one node type of a 2 x 3 x 128 array made a vector, then a
    row, then broadcast down the rows: at (i, j), the array at that layer, that node type and feature j. -/
theorem cS0_p_param_apply (g : FVec Ideal S2x3x128 .f32) (hs : S2x3x128.Slices ![0, 1, 0] S1x1x128)
    (hc : S1x1x128.ShapeCasts S128) (h₁ : S128.BroadcastsInDim S1x128 (![1] : Fin 1 → Fin S1x128.rank))
    (h₂ : S1x128.BroadcastsInDim S50000x128 (![0, 1] : Fin 2 → Fin S50000x128.rank)) (i : Fin 50000) (j : Fin 128) :
    broadcastInDim S50000x128 (no_index ![0, 1]) h₂ (broadcastInDim S1x128 (no_index ![1]) h₁
        (shapeCast S128 (extractStridedSlice S1x1x128 (no_index ![0, 1, 0]) g hs) hc)) (ix2 i j)
      = g (ix3 (0 : Fin 2) (1 : Fin 3) j) := by
  refine (broadcastInDim_apply _ h₂ _ _ (ix2 (0 : Fin 1) j) fun a => ?_).trans
    ((broadcastInDim_apply _ h₁ _ _ (ix1 j) fun a => ?_).trans
      ((shapeCast_apply _ hc _ (ix3 (0 : Fin 1) (0 : Fin 1) j) ?_).trans
        (extractStridedSlice_apply _ g hs _ (ix3 (0 : Fin 2) (1 : Fin 3) j) fun a => ?_)))
  · match a with
    | ⟨0, _⟩ => rfl
    | ⟨1, _⟩ => rfl
  · match a with
    | ⟨0, _⟩ => rfl
  · rw [Shape.rowMajor_val_three, Shape.rowMajor_val_one]
    show (0 * 1 + 0) * 128 + j.val = j.val
    omega
  · match a with
    | ⟨0, _⟩ => rfl
    | ⟨1, _⟩ => rfl
    | ⟨2, _⟩ => show j.val = 0 + j.val; omega

/-- The host's division and reciprocal square root read at an index. -/
theorem cS0_p_hostDivf_apply {s : Shape} (a b : FVec Ideal s .f32) (p : s.Idx) :
    Host.divf a b p = Ideal.div (a p) (b p) := rfl
theorem cS0_p_hostRsqrt_apply {s : Shape} (a : FVec Ideal s .f32) (p : s.Idx) :
    Host.rsqrt a p = Ideal.rsqrt (a p) := rfl

/-- The forty operations as one term over the arrays they read, at (i, j): the two relation outputs added and
    halved (X), the row mean (m), the deviation (d), the row variance (v), the reciprocal root of the shifted
    variance (r); the deviation times r, scaled, shifted, clipped below at zero. -/
theorem cS0_p_value (x y : FVec Ideal S50000x128 .f32) (g b : FVec Ideal S2x3x128 .f32)
    (X d : FVec Ideal S50000x128 .f32) (m v r : FVec Ideal S50000x1 .f32)
    (hb0 : S_.BroadcastsInDim S50000x128 (![] : Fin 0 → Fin S50000x128.rank))
    (hb1 : S_.BroadcastsInDim S50000x1 (![] : Fin 0 → Fin S50000x1.rank))
    (hcol : S50000.BroadcastsInDim S50000x1 (![0] : Fin 1 → Fin S50000x1.rank))
    (hacr : S50000x1.BroadcastsInDim S50000x128 (![0, 1] : Fin 2 → Fin S50000x128.rank))
    (hred : S50000x128.ReducesTo [1] S50000) (hu : 0 < S_.numel)
    (hs : S2x3x128.Slices ![0, 1, 0] S1x1x128) (hc : S1x1x128.ShapeCasts S128)
    (h₁ : S128.BroadcastsInDim S1x128 (![1] : Fin 1 → Fin S1x128.rank))
    (h₂ : S1x128.BroadcastsInDim S50000x128 (![0, 1] : Fin 2 → Fin S50000x128.rank))
    (hX : X = mulf (broadcastInDim S50000x128 ![] hb0 (constant (F := Ideal) S_ .f32 0x3F000000#32)) (addf x y))
    (hm : m = Host.divf (broadcastInDim S50000x1 ![0] hcol
        (Host.reduceAdd (F := Ideal) X (constant (F := Ideal) S_ .f32 0x00000000#32) hred hu))
      (broadcastInDim S50000x1 ![] hb1 (constant (F := Ideal) S_ .f32 0x43000000#32)))
    (hd : d = subf X (broadcastInDim S50000x128 ![0, 1] hacr m))
    (hv : v = Host.divf (broadcastInDim S50000x1 ![0] hcol
        (Host.reduceAdd (F := Ideal) (mulf d d) (constant (F := Ideal) S_ .f32 0x00000000#32) hred hu))
      (broadcastInDim S50000x1 ![] hb1 (constant (F := Ideal) S_ .f32 0x43000000#32)))
    (hr : r = Host.rsqrt (addf v (broadcastInDim S50000x1 ![] hb1 (constant (F := Ideal) S_ .f32 0x3727C5AC#32))))
    (i : Fin 50000) (j : Fin 128) :
    maximumf
        (addf
          (mulf (mulf d (broadcastInDim S50000x128 ![0, 1] hacr r))
            (broadcastInDim S50000x128 ![0, 1] h₂ (broadcastInDim S1x128 ![1] h₁
              (shapeCast S128 (extractStridedSlice S1x1x128 ![0, 1, 0] g hs) hc))))
          (broadcastInDim S50000x128 ![0, 1] h₂ (broadcastInDim S1x128 ![1] h₁
            (shapeCast S128 (extractStridedSlice S1x1x128 ![0, 1, 0] b hs) hc))))
        (broadcastInDim S50000x128 ![] hb0 (constant (F := Ideal) S_ .f32 0x00000000#32)) (ix2 i j)
      = Cert.Spec.lnrelu (fun j => x (ix2 i j) + y (ix2 i j)) (fun j => g (ix3 (0 : Fin 2) (1 : Fin 3) j))
          (fun j => b (ix3 (0 : Fin 2) (1 : Fin 3) j)) j := by
  subst hr hv hd hm hX
  simp only [maximumf_apply, addf_apply, mulf_apply, subf_apply, cS0_p_hostDivf_apply, cS0_p_hostRsqrt_apply,
    cS0_p_splat_apply, cS0_p_splat_col_apply, cS0_p_rowsum_apply, cS0_p_column_apply, cS0_p_across_apply,
    cS0_p_param_apply]
  rfl

/-- The stretch's result at (i, j) is the specification's function of row i of the two relation outputs and of the
    two parameter slices. -/
theorem stageS0_p_apply (W : Valuation τ sig (Elt Ideal)) (i : Fin 50000) (j : Fin 128) :
    (after cS0_p W (Proc.devRef .tc main_v306) : Vec Ideal S50000x128 .f32) (ix2 i j)
      = Cert.Spec.lnrelu (fun j => HAdd.hAdd (α := EReal) (β := EReal) (γ := EReal) ((W (Proc.devRef .tc main_v57) : Vec Ideal S50000x128 .f32) (ix2 i j)) ((W (Proc.devRef .tc main_v242) : Vec Ideal S50000x128 .f32) (ix2 i j)))
          (fun j => (W (Proc.devRef .tc main_arg18) : Vec Ideal S2x3x128 .f32) (ix3 (0 : Fin 2) (1 : Fin 3) j))
          (fun j => (W (Proc.devRef .tc main_arg19) : Vec Ideal S2x3x128 .f32) (ix3 (0 : Fin 2) (1 : Fin 3) j)) j := by
  simp only [cS0_p]
  after_results_simp
  exact cS0_p_value (W (Proc.devRef .tc main_v57)) (W (Proc.devRef .tc main_v242)) (W (Proc.devRef .tc main_arg18))
    (W (Proc.devRef .tc main_arg19)) _ _ _ _ _ _ _ _ _ _ _ _ _ _ _ rfl rfl rfl rfl rfl i j

end Cert.ReferenceIdeal.Stage

end
-- ==== Proof.RStageE0_0.lean ====
/-
  One relation of the first layer, read at a row and a feature.

  The stretch slices the layer's stacked weights at the relation's position (a 128 × 128 left matrix, a bias row of 128, a
  128 × 128 right matrix), forms the mean message of every destination node from its neighbours' features, and returns
  message · leftᵀ + bias + features · rightᵀ, each product contracting the 128 features. Here the mean message stays an
  unopened array: the result at row `i` and feature `j` is `Cert.Spec.sage` of row `i` of the mean message, row `i` of
  the node features, and the relation's slabs of the stacked weights read transposed (entry `(k, j)` of a factor is
  entry `(j, k)` of the relation's slab of its stack).
-/
import proofs.«159317_j31121333027532_1_alg».proof.Proof.RefChunks
import proofs.«159317_j31121333027532_1_alg».proof.Proof.Spec
import Idealize.ShloMosaic.Lib.Pipeline.Value
import Idealize.ShloMosaic.Lib.ValueIdx
import Idealize.ShloMosaic.PureOps.Ideal.Laws

noncomputable section

namespace Cert.ReferenceIdeal.Stage

open Cert.ReferenceIdeal Cert.ReferenceIdeal.Gen Cert.ReferenceIdeal.Chunks Idealize.ShloMosaic Idealize.ShloMosaic.StableHlo Idealize.ShloMosaic.ValueIdx

/-! ## The layer's weights of one relation, read at an index -/

/-- The relation's slab of a stack of six 128 × 128 matrices, flattened to a matrix: its entry `(a, b)` is the slab's entry `(a, b)` in the stack. -/
theorem slabE0_0_apply (w : FVec Ideal S6x128x128 .f32) (a b : Fin 128) :
    (shapeCast S128x128 (extractStridedSlice S1x128x128 ![0, 0, 0] w slices_S6x128x128_S1x128x128_0_0_0)
      shapeCasts_S1x128x128_S128x128 : FVec Ideal S128x128 .f32) (ix2 a b) = w (ix3 (0 : Fin 6) a b) := by
  refine (shapeCast_apply _ shapeCasts_S1x128x128_S128x128 (ix2 a b) (ix3 (0 : Fin 1) a b) ?_).trans ?_
  · rw [Shape.rowMajor_val_three, Shape.rowMajor_val_two]
    show (0 * 128 + a.val) * 128 + b.val = a.val * 128 + b.val
    omega
  · exact extractStridedSlice_apply ![0, 0, 0] w slices_S6x128x128_S1x128x128_0_0_0 (ix3 (0 : Fin 1) a b) (ix3 (0 : Fin 6) a b)
      (fun c => match c with
        | ⟨0, _⟩ => by show 0 = 0 + 0; rfl
        | ⟨1, _⟩ => by show a.val = 0 + a.val; omega
        | ⟨2, _⟩ => by show b.val = 0 + b.val; omega)

/-- The transposed slab: entry `(k, j)` is the slab's entry `(j, k)` in the stack. -/
theorem slabTE0_0_apply (w : FVec Ideal S6x128x128 .f32) (k j : Fin 128) :
    (transpose S128x128 [1, 0] (shapeCast S128x128 (extractStridedSlice S1x128x128 ![0, 0, 0] w slices_S6x128x128_S1x128x128_0_0_0)
      shapeCasts_S1x128x128_S128x128) transposes_S128x128_S128x128_1_0 : FVec Ideal S128x128 .f32) (ix2 k j) = w (ix3 (0 : Fin 6) j k) := by
  refine (transpose_apply [1, 0] _ transposes_S128x128_S128x128_1_0 (ix2 k j) (ix2 j k) (fun c => match c with
    | ⟨0, _⟩ => rfl
    | ⟨1, _⟩ => rfl)).trans ?_
  exact slabE0_0_apply w j k

/-- The relation's row of a stack of six bias vectors, broadcast along the rows: entry `(i, j)` is the row's entry `j` in the stack. -/
theorem biasRowE0_0_apply (v : FVec Ideal S6x128 .f32) (i : Fin 50000) (j : Fin 128) :
    (broadcastInDim S50000x128 ![0, 1] bcast_S1x128_S50000x128_0_1 (broadcastInDim S1x128 ![1] bcast_S128_S1x128_1
      (shapeCast S128 (extractStridedSlice S1x128 ![0, 0] v slices_S6x128_S1x128_0_0) shapeCasts_S1x128_S128)) : FVec Ideal S50000x128 .f32) (ix2 i j)
      = v (ix2 (0 : Fin 6) j) := by
  refine (broadcastInDim_apply _ bcast_S1x128_S50000x128_0_1 _ (ix2 i j) (ix2 (0 : Fin 1) j) (fun c => match c with
    | ⟨0, _⟩ => by show 0 = if (1 : Nat) = 1 then 0 else i.val; rw [if_pos rfl]
    | ⟨1, _⟩ => by show j.val = if (128 : Nat) = 1 then 0 else j.val; rw [if_neg (by decide)])).trans ?_
  refine (broadcastInDim_apply _ bcast_S128_S1x128_1 _ (ix2 (0 : Fin 1) j) (ix1 j) (fun c => match c with
    | ⟨0, _⟩ => by show j.val = if (128 : Nat) = 1 then 0 else j.val; rw [if_neg (by decide)])).trans ?_
  refine (shapeCast_apply _ shapeCasts_S1x128_S128 (ix1 j) (ix2 (0 : Fin 1) j) ?_).trans ?_
  · rw [Shape.rowMajor_val_two, Shape.rowMajor_val_one]
    show 0 * 128 + j.val = j.val
    omega
  · exact extractStridedSlice_apply ![0, 0] v slices_S6x128_S1x128_0_0 (ix2 (0 : Fin 1) j) (ix2 (0 : Fin 6) j)
      (fun c => match c with
        | ⟨0, _⟩ => by show 0 = 0 + 0; rfl
        | ⟨1, _⟩ => by show j.val = 0 + j.val; omega)

/-! ## A product with a 128 × 128 matrix, read at an index -/

theorem lhsE0_0_0 (i : S50000x128.Idx) (q : dot_S50000x128_S128x128_S50000x128_1_0_0_1_n_n.contr.Idx) :
    (dot_S50000x128_S128x128_S50000x128_1_0_0_1_n_n.lhsIdx i q 0).val = (i 0).val := by
  unfold DotDims.lhsIdx
  rw [dif_neg (show ¬(0 : Fin S50000x128.rank) ∈ dot_S50000x128_S128x128_S50000x128_1_0_0_1_n_n.lhsBatch from List.not_mem_nil), dif_pos (show (0 : Fin S50000x128.rank) ∈ dot_S50000x128_S128x128_S50000x128_1_0_0_1_n_n.lhsNonContracting from List.mem_singleton.mpr rfl)]
  rfl
theorem lhsE0_0_1 (i : S50000x128.Idx) (q : dot_S50000x128_S128x128_S50000x128_1_0_0_1_n_n.contr.Idx) :
    (dot_S50000x128_S128x128_S50000x128_1_0_0_1_n_n.lhsIdx i q 1).val = (q ⟨0, Nat.one_pos⟩).val :=
  dot_S50000x128_S128x128_S50000x128_1_0_0_1_n_n.lhsIdx_val_of_single rfl i q
theorem rhsE0_0_0 (i : S50000x128.Idx) (q : dot_S50000x128_S128x128_S50000x128_1_0_0_1_n_n.contr.Idx) :
    (dot_S50000x128_S128x128_S50000x128_1_0_0_1_n_n.rhsIdx i q 0).val = (q ⟨0, Nat.one_pos⟩).val :=
  dot_S50000x128_S128x128_S50000x128_1_0_0_1_n_n.rhsIdx_val_of_single rfl i q
theorem rhsE0_0_1 (i : S50000x128.Idx) (q : dot_S50000x128_S128x128_S50000x128_1_0_0_1_n_n.contr.Idx) :
    (dot_S50000x128_S128x128_S50000x128_1_0_0_1_n_n.rhsIdx i q 1).val = (i 1).val := by
  unfold DotDims.rhsIdx
  rw [dif_neg (show ¬(1 : Fin S128x128.rank) ∈ dot_S50000x128_S128x128_S50000x128_1_0_0_1_n_n.rhsBatch from List.not_mem_nil), dif_pos (show (1 : Fin S128x128.rank) ∈ dot_S50000x128_S128x128_S50000x128_1_0_0_1_n_n.rhsNonContracting from List.mem_singleton.mpr rfl)]
  rfl

/-- Rows times a matrix, contracting the 128 features: entry `(i, j)` is the sum over `k` of `l (i, k) * r (k, j)`. -/
theorem dotE0_0_apply (l : FVec Ideal S50000x128 .f32) (r : FVec Ideal S128x128 .f32) (i : Fin 50000) (j : Fin 128) :
    Host.dotGeneral (F := Ideal) dot_S50000x128_S128x128_S50000x128_1_0_0_1_n_n none l r (ix2 i j) = ∑ k : Fin 128, l (ix2 i k) * r (ix2 k j) := by
  simp only [Host.dotGeneral]
  rw [Ideal.dotGeneral_apply, ← Equiv.sum_comp (ValueIdx.contrEquiv1 dot_S50000x128_S128x128_S50000x128_1_0_0_1_n_n 128 rfl rfl).symm]
  refine Finset.sum_congr rfl fun k _ => ?_
  have hk := ValueIdx.contrEquiv1_symm_val dot_S50000x128_S128x128_S50000x128_1_0_0_1_n_n 128 rfl rfl k
  have el : dot_S50000x128_S128x128_S50000x128_1_0_0_1_n_n.lhsIdx (ix2 i j) ((ValueIdx.contrEquiv1 dot_S50000x128_S128x128_S50000x128_1_0_0_1_n_n 128 rfl rfl).symm k) = ix2 i k := funext fun a => Fin.ext (by
    match a with
    | ⟨0, _⟩ => exact lhsE0_0_0 _ _
    | ⟨1, _⟩ => exact (lhsE0_0_1 _ _).trans hk)
  have er : dot_S50000x128_S128x128_S50000x128_1_0_0_1_n_n.rhsIdx (ix2 i j) ((ValueIdx.contrEquiv1 dot_S50000x128_S128x128_S50000x128_1_0_0_1_n_n 128 rfl rfl).symm k) = ix2 k j := funext fun a => Fin.ext (by
    match a with
    | ⟨0, _⟩ => exact (rhsE0_0_0 _ _).trans hk
    | ⟨1, _⟩ => exact rhsE0_0_1 _ _)
  rw [el, er]

/-! ## The relation's output from the mean message -/

/-- The relation's output as the program composes it: the mean message times the transposed left slab, plus the bias
    row, plus the node features times the transposed right slab. -/
def relOutE0_0 {F : FTy → Type} [FloatOps F] (msg x : FVec F S50000x128 .f32) (wl wr : FVec F S6x128x128 .f32)
    (bl : FVec F S6x128 .f32) : FVec F S50000x128 .f32 :=
  addf (addf (Host.dotGeneral dot_S50000x128_S128x128_S50000x128_1_0_0_1_n_n none msg (transpose S128x128 [1, 0] (shapeCast S128x128 (extractStridedSlice S1x128x128 ![0, 0, 0] wl slices_S6x128x128_S1x128x128_0_0_0) shapeCasts_S1x128x128_S128x128) transposes_S128x128_S128x128_1_0))
      (broadcastInDim S50000x128 ![0, 1] bcast_S1x128_S50000x128_0_1 (broadcastInDim S1x128 ![1] bcast_S128_S1x128_1 (shapeCast S128 (extractStridedSlice S1x128 ![0, 0] bl slices_S6x128_S1x128_0_0) shapeCasts_S1x128_S128))))
    (Host.dotGeneral dot_S50000x128_S128x128_S50000x128_1_0_0_1_n_n none x (transpose S128x128 [1, 0] (shapeCast S128x128 (extractStridedSlice S1x128x128 ![0, 0, 0] wr slices_S6x128x128_S1x128x128_0_0_0) shapeCasts_S1x128x128_S128x128) transposes_S128x128_S128x128_1_0))

/-- Read at row `i` and feature `j`, it is the relation's law on the two rows. -/
theorem relOutE0_0_apply (msg x : FVec Ideal S50000x128 .f32) (wl wr : FVec Ideal S6x128x128 .f32) (bl : FVec Ideal S6x128 .f32)
    (i : Fin 50000) (j : Fin 128) :
    relOutE0_0 msg x wl wr bl (ix2 i j)
      = Cert.Spec.sage (fun k => msg (ix2 i k)) (fun k => x (ix2 i k)) (fun k j => wl (ix3 (0 : Fin 6) j k))
          (fun k j => wr (ix3 (0 : Fin 6) j k)) (fun j => bl (ix2 (0 : Fin 6) j)) j := by
  unfold relOutE0_0 Cert.Spec.sage
  rw [addf_apply, addf_apply, dotE0_0_apply, dotE0_0_apply, biasRowE0_0_apply]
  refine congrArg₂ (· + ·) (congrArg (· + bl (ix2 (0 : Fin 6) j)) (Finset.sum_congr rfl fun k _ => ?_)) (Finset.sum_congr rfl fun k _ => ?_)
  · exact congrArg (msg (ix2 i k) * ·) (slabTE0_0_apply wl k j)
  · exact congrArg (x (ix2 i k) * ·) (slabTE0_0_apply wr k j)

/-! ## The stretch -/

set_option maxHeartbeats 1000000 in
/-- After the stretch, the output buffer holds the relation's composition of the mean message buffer, the node
    features and the stacked weights the stretch reads. -/
theorem stageE0_0_eq {F : FTy → Type} [FloatOps F] (W : Valuation τ sig (Elt F)) :
    (after (cE0_0 (F := F)) W (Proc.devRef .tc main_v57) : FVec F S50000x128 .f32)
      = relOutE0_0 (after (cE0_0 (F := F)) W (Proc.devRef .tc main_v49)) (W (Proc.devRef .tc main_v9))
          (W (Proc.devRef .tc main_v16)) (W (Proc.devRef .tc main_v20)) (W (Proc.devRef .tc main_v18)) := by
  simp only [cE0_0]
  after_results_simp <;> rfl

/-- The stretch's output at row `i` and feature `j` is the relation's law on row `i` of the mean message and of the
    node features, with the relation's slabs of the stacked weights read transposed. -/
theorem stageE0_0_apply (W : Valuation τ sig (Elt Ideal)) (i : Fin 50000) (j : Fin 128) :
    (after cE0_0 W (Proc.devRef .tc main_v57) : Vec Ideal S50000x128 .f32) (ix2 i j)
      = Cert.Spec.sage (fun k => (after cE0_0 W (Proc.devRef .tc main_v49) : Vec Ideal S50000x128 .f32) (ix2 i k))
          (fun k => (W (Proc.devRef .tc main_v9) : Vec Ideal S50000x128 .f32) (ix2 i k))
          (fun k j => (W (Proc.devRef .tc main_v16) : Vec Ideal S6x128x128 .f32) (ix3 (0 : Fin 6) j k))
          (fun k j => (W (Proc.devRef .tc main_v20) : Vec Ideal S6x128x128 .f32) (ix3 (0 : Fin 6) j k))
          (fun j => (W (Proc.devRef .tc main_v18) : Vec Ideal S6x128 .f32) (ix2 (0 : Fin 6) j)) j :=
  (congrFun (stageE0_0_eq (F := Ideal) W) (ix2 i j)).trans (relOutE0_0_apply _ _ _ _ _ i j)

end Cert.ReferenceIdeal.Stage

end
-- ==== Proof.RStageE0_5.lean ====
/-
  One relation of the first layer, read at a row and a feature.

  The stretch slices the layer's stacked weights at the relation's position (a 128 × 128 left matrix, a bias row of 128, a
  128 × 128 right matrix), forms the mean message of every destination node from its neighbours' features, and returns
  message · leftᵀ + bias + features · rightᵀ, each product contracting the 128 features. Here the mean message stays an
  unopened array: the result at row `i` and feature `j` is `Cert.Spec.sage` of row `i` of the mean message, row `i` of
  the node features, and the relation's slabs of the stacked weights read transposed (entry `(k, j)` of a factor is
  entry `(j, k)` of the relation's slab of its stack).
-/
import proofs.«159317_j31121333027532_1_alg».proof.Proof.RefChunks
import proofs.«159317_j31121333027532_1_alg».proof.Proof.Spec
import Idealize.ShloMosaic.Lib.Pipeline.Value
import Idealize.ShloMosaic.Lib.ValueIdx
import Idealize.ShloMosaic.PureOps.Ideal.Laws

noncomputable section

namespace Cert.ReferenceIdeal.Stage

open Cert.ReferenceIdeal Cert.ReferenceIdeal.Gen Cert.ReferenceIdeal.Chunks Idealize.ShloMosaic Idealize.ShloMosaic.StableHlo Idealize.ShloMosaic.ValueIdx

/-! ## The layer's weights of one relation, read at an index -/

/-- The relation's slab of a stack of six 128 × 128 matrices, flattened to a matrix: its entry `(a, b)` is the slab's entry `(a, b)` in the stack. -/
theorem slabE0_5_apply (w : FVec Ideal S6x128x128 .f32) (a b : Fin 128) :
    (shapeCast S128x128 (extractStridedSlice S1x128x128 ![5, 0, 0] w slices_S6x128x128_S1x128x128_5_0_0)
      shapeCasts_S1x128x128_S128x128 : FVec Ideal S128x128 .f32) (ix2 a b) = w (ix3 (5 : Fin 6) a b) := by
  refine (shapeCast_apply _ shapeCasts_S1x128x128_S128x128 (ix2 a b) (ix3 (0 : Fin 1) a b) ?_).trans ?_
  · rw [Shape.rowMajor_val_three, Shape.rowMajor_val_two]
    show (0 * 128 + a.val) * 128 + b.val = a.val * 128 + b.val
    omega
  · exact extractStridedSlice_apply ![5, 0, 0] w slices_S6x128x128_S1x128x128_5_0_0 (ix3 (0 : Fin 1) a b) (ix3 (5 : Fin 6) a b)
      (fun c => match c with
        | ⟨0, _⟩ => by show 5 = 5 + 0; rfl
        | ⟨1, _⟩ => by show a.val = 0 + a.val; omega
        | ⟨2, _⟩ => by show b.val = 0 + b.val; omega)

/-- The transposed slab: entry `(k, j)` is the slab's entry `(j, k)` in the stack. -/
theorem slabTE0_5_apply (w : FVec Ideal S6x128x128 .f32) (k j : Fin 128) :
    (transpose S128x128 [1, 0] (shapeCast S128x128 (extractStridedSlice S1x128x128 ![5, 0, 0] w slices_S6x128x128_S1x128x128_5_0_0)
      shapeCasts_S1x128x128_S128x128) transposes_S128x128_S128x128_1_0 : FVec Ideal S128x128 .f32) (ix2 k j) = w (ix3 (5 : Fin 6) j k) := by
  refine (transpose_apply [1, 0] _ transposes_S128x128_S128x128_1_0 (ix2 k j) (ix2 j k) (fun c => match c with
    | ⟨0, _⟩ => rfl
    | ⟨1, _⟩ => rfl)).trans ?_
  exact slabE0_5_apply w j k

/-- The relation's row of a stack of six bias vectors, broadcast along the rows: entry `(i, j)` is the row's entry `j` in the stack. -/
theorem biasRowE0_5_apply (v : FVec Ideal S6x128 .f32) (i : Fin 50000) (j : Fin 128) :
    (broadcastInDim S50000x128 ![0, 1] bcast_S1x128_S50000x128_0_1 (broadcastInDim S1x128 ![1] bcast_S128_S1x128_1
      (shapeCast S128 (extractStridedSlice S1x128 ![5, 0] v slices_S6x128_S1x128_5_0) shapeCasts_S1x128_S128)) : FVec Ideal S50000x128 .f32) (ix2 i j)
      = v (ix2 (5 : Fin 6) j) := by
  refine (broadcastInDim_apply _ bcast_S1x128_S50000x128_0_1 _ (ix2 i j) (ix2 (0 : Fin 1) j) (fun c => match c with
    | ⟨0, _⟩ => by show 0 = if (1 : Nat) = 1 then 0 else i.val; rw [if_pos rfl]
    | ⟨1, _⟩ => by show j.val = if (128 : Nat) = 1 then 0 else j.val; rw [if_neg (by decide)])).trans ?_
  refine (broadcastInDim_apply _ bcast_S128_S1x128_1 _ (ix2 (0 : Fin 1) j) (ix1 j) (fun c => match c with
    | ⟨0, _⟩ => by show j.val = if (128 : Nat) = 1 then 0 else j.val; rw [if_neg (by decide)])).trans ?_
  refine (shapeCast_apply _ shapeCasts_S1x128_S128 (ix1 j) (ix2 (0 : Fin 1) j) ?_).trans ?_
  · rw [Shape.rowMajor_val_two, Shape.rowMajor_val_one]
    show 0 * 128 + j.val = j.val
    omega
  · exact extractStridedSlice_apply ![5, 0] v slices_S6x128_S1x128_5_0 (ix2 (0 : Fin 1) j) (ix2 (5 : Fin 6) j)
      (fun c => match c with
        | ⟨0, _⟩ => by show 5 = 5 + 0; rfl
        | ⟨1, _⟩ => by show j.val = 0 + j.val; omega)

/-! ## A product with a 128 × 128 matrix, read at an index -/

theorem lhsE0_5_0 (i : S50000x128.Idx) (q : dot_S50000x128_S128x128_S50000x128_1_0_0_1_n_n.contr.Idx) :
    (dot_S50000x128_S128x128_S50000x128_1_0_0_1_n_n.lhsIdx i q 0).val = (i 0).val := by
  unfold DotDims.lhsIdx
  rw [dif_neg (show ¬(0 : Fin S50000x128.rank) ∈ dot_S50000x128_S128x128_S50000x128_1_0_0_1_n_n.lhsBatch from List.not_mem_nil), dif_pos (show (0 : Fin S50000x128.rank) ∈ dot_S50000x128_S128x128_S50000x128_1_0_0_1_n_n.lhsNonContracting from List.mem_singleton.mpr rfl)]
  rfl
theorem lhsE0_5_1 (i : S50000x128.Idx) (q : dot_S50000x128_S128x128_S50000x128_1_0_0_1_n_n.contr.Idx) :
    (dot_S50000x128_S128x128_S50000x128_1_0_0_1_n_n.lhsIdx i q 1).val = (q ⟨0, Nat.one_pos⟩).val :=
  dot_S50000x128_S128x128_S50000x128_1_0_0_1_n_n.lhsIdx_val_of_single rfl i q
theorem rhsE0_5_0 (i : S50000x128.Idx) (q : dot_S50000x128_S128x128_S50000x128_1_0_0_1_n_n.contr.Idx) :
    (dot_S50000x128_S128x128_S50000x128_1_0_0_1_n_n.rhsIdx i q 0).val = (q ⟨0, Nat.one_pos⟩).val :=
  dot_S50000x128_S128x128_S50000x128_1_0_0_1_n_n.rhsIdx_val_of_single rfl i q
theorem rhsE0_5_1 (i : S50000x128.Idx) (q : dot_S50000x128_S128x128_S50000x128_1_0_0_1_n_n.contr.Idx) :
    (dot_S50000x128_S128x128_S50000x128_1_0_0_1_n_n.rhsIdx i q 1).val = (i 1).val := by
  unfold DotDims.rhsIdx
  rw [dif_neg (show ¬(1 : Fin S128x128.rank) ∈ dot_S50000x128_S128x128_S50000x128_1_0_0_1_n_n.rhsBatch from List.not_mem_nil), dif_pos (show (1 : Fin S128x128.rank) ∈ dot_S50000x128_S128x128_S50000x128_1_0_0_1_n_n.rhsNonContracting from List.mem_singleton.mpr rfl)]
  rfl

/-- Rows times a matrix, contracting the 128 features: entry `(i, j)` is the sum over `k` of `l (i, k) * r (k, j)`. -/
theorem dotE0_5_apply (l : FVec Ideal S50000x128 .f32) (r : FVec Ideal S128x128 .f32) (i : Fin 50000) (j : Fin 128) :
    Host.dotGeneral (F := Ideal) dot_S50000x128_S128x128_S50000x128_1_0_0_1_n_n none l r (ix2 i j) = ∑ k : Fin 128, l (ix2 i k) * r (ix2 k j) := by
  simp only [Host.dotGeneral]
  rw [Ideal.dotGeneral_apply, ← Equiv.sum_comp (ValueIdx.contrEquiv1 dot_S50000x128_S128x128_S50000x128_1_0_0_1_n_n 128 rfl rfl).symm]
  refine Finset.sum_congr rfl fun k _ => ?_
  have hk := ValueIdx.contrEquiv1_symm_val dot_S50000x128_S128x128_S50000x128_1_0_0_1_n_n 128 rfl rfl k
  have el : dot_S50000x128_S128x128_S50000x128_1_0_0_1_n_n.lhsIdx (ix2 i j) ((ValueIdx.contrEquiv1 dot_S50000x128_S128x128_S50000x128_1_0_0_1_n_n 128 rfl rfl).symm k) = ix2 i k := funext fun a => Fin.ext (by
    match a with
    | ⟨0, _⟩ => exact lhsE0_5_0 _ _
    | ⟨1, _⟩ => exact (lhsE0_5_1 _ _).trans hk)
  have er : dot_S50000x128_S128x128_S50000x128_1_0_0_1_n_n.rhsIdx (ix2 i j) ((ValueIdx.contrEquiv1 dot_S50000x128_S128x128_S50000x128_1_0_0_1_n_n 128 rfl rfl).symm k) = ix2 k j := funext fun a => Fin.ext (by
    match a with
    | ⟨0, _⟩ => exact (rhsE0_5_0 _ _).trans hk
    | ⟨1, _⟩ => exact rhsE0_5_1 _ _)
  rw [el, er]

/-! ## The relation's output from the mean message -/

/-- The relation's output as the program composes it: the mean message times the transposed left slab, plus the bias
    row, plus the node features times the transposed right slab. -/
def relOutE0_5 {F : FTy → Type} [FloatOps F] (msg x : FVec F S50000x128 .f32) (wl wr : FVec F S6x128x128 .f32)
    (bl : FVec F S6x128 .f32) : FVec F S50000x128 .f32 :=
  addf (addf (Host.dotGeneral dot_S50000x128_S128x128_S50000x128_1_0_0_1_n_n none msg (transpose S128x128 [1, 0] (shapeCast S128x128 (extractStridedSlice S1x128x128 ![5, 0, 0] wl slices_S6x128x128_S1x128x128_5_0_0) shapeCasts_S1x128x128_S128x128) transposes_S128x128_S128x128_1_0))
      (broadcastInDim S50000x128 ![0, 1] bcast_S1x128_S50000x128_0_1 (broadcastInDim S1x128 ![1] bcast_S128_S1x128_1 (shapeCast S128 (extractStridedSlice S1x128 ![5, 0] bl slices_S6x128_S1x128_5_0) shapeCasts_S1x128_S128))))
    (Host.dotGeneral dot_S50000x128_S128x128_S50000x128_1_0_0_1_n_n none x (transpose S128x128 [1, 0] (shapeCast S128x128 (extractStridedSlice S1x128x128 ![5, 0, 0] wr slices_S6x128x128_S1x128x128_5_0_0) shapeCasts_S1x128x128_S128x128) transposes_S128x128_S128x128_1_0))

/-- Read at row `i` and feature `j`, it is the relation's law on the two rows. -/
theorem relOutE0_5_apply (msg x : FVec Ideal S50000x128 .f32) (wl wr : FVec Ideal S6x128x128 .f32) (bl : FVec Ideal S6x128 .f32)
    (i : Fin 50000) (j : Fin 128) :
    relOutE0_5 msg x wl wr bl (ix2 i j)
      = Cert.Spec.sage (fun k => msg (ix2 i k)) (fun k => x (ix2 i k)) (fun k j => wl (ix3 (5 : Fin 6) j k))
          (fun k j => wr (ix3 (5 : Fin 6) j k)) (fun j => bl (ix2 (5 : Fin 6) j)) j := by
  unfold relOutE0_5 Cert.Spec.sage
  rw [addf_apply, addf_apply, dotE0_5_apply, dotE0_5_apply, biasRowE0_5_apply]
  refine congrArg₂ (· + ·) (congrArg (· + bl (ix2 (5 : Fin 6) j)) (Finset.sum_congr rfl fun k _ => ?_)) (Finset.sum_congr rfl fun k _ => ?_)
  · exact congrArg (msg (ix2 i k) * ·) (slabTE0_5_apply wl k j)
  · exact congrArg (x (ix2 i k) * ·) (slabTE0_5_apply wr k j)

/-! ## The stretch -/

set_option maxHeartbeats 1000000 in
/-- After the stretch, the output buffer holds the relation's composition of the mean message buffer, the node
    features and the stacked weights the stretch reads. -/
theorem stageE0_5_eq {F : FTy → Type} [FloatOps F] (W : Valuation τ sig (Elt F)) :
    (after (cE0_5 (F := F)) W (Proc.devRef .tc main_v242) : FVec F S50000x128 .f32)
      = relOutE0_5 (after (cE0_5 (F := F)) W (Proc.devRef .tc main_v234)) (W (Proc.devRef .tc main_v9))
          (W (Proc.devRef .tc main_v16)) (W (Proc.devRef .tc main_v20)) (W (Proc.devRef .tc main_v18)) := by
  simp only [cE0_5]
  after_results_simp <;> rfl

/-- The stretch's output at row `i` and feature `j` is the relation's law on row `i` of the mean message and of the
    node features, with the relation's slabs of the stacked weights read transposed. -/
theorem stageE0_5_apply (W : Valuation τ sig (Elt Ideal)) (i : Fin 50000) (j : Fin 128) :
    (after cE0_5 W (Proc.devRef .tc main_v242) : Vec Ideal S50000x128 .f32) (ix2 i j)
      = Cert.Spec.sage (fun k => (after cE0_5 W (Proc.devRef .tc main_v234) : Vec Ideal S50000x128 .f32) (ix2 i k))
          (fun k => (W (Proc.devRef .tc main_v9) : Vec Ideal S50000x128 .f32) (ix2 i k))
          (fun k j => (W (Proc.devRef .tc main_v16) : Vec Ideal S6x128x128 .f32) (ix3 (5 : Fin 6) j k))
          (fun k j => (W (Proc.devRef .tc main_v20) : Vec Ideal S6x128x128 .f32) (ix3 (5 : Fin 6) j k))
          (fun j => (W (Proc.devRef .tc main_v18) : Vec Ideal S6x128 .f32) (ix2 (5 : Fin 6) j)) j :=
  (congrFun (stageE0_5_eq (F := Ideal) W) (ix2 i j)).trans (relOutE0_5_apply _ _ _ _ _ i j)

end Cert.ReferenceIdeal.Stage

end
-- ==== Proof.Layer0p.lean ====
/-
  Layer 0, node type 1 (50000 nodes): after the kernel program's pallas_call 1 and after the reference's stage of
  that node type, the node features are the same array. Row by row both are the row formula: on the kernel side of
  the blocks the pallas_call wrote back, on the reference side of the two relation outputs and the normalisation
  stage; the rows that go in agree — the neighbour means and the nodes' own features by the shared host operations,
  the weights, biases and normalisation parameters as the same entries of the arguments.
-/
import proofs.«159317_j31121333027532_1_alg».proof.Proof.KReg1
import proofs.«159317_j31121333027532_1_alg».proof.Proof.KBody1
import proofs.«159317_j31121333027532_1_alg».proof.Proof.KWin
import proofs.«159317_j31121333027532_1_alg».proof.Proof.RStageS0p
import proofs.«159317_j31121333027532_1_alg».proof.Proof.RStageE0_0
import proofs.«159317_j31121333027532_1_alg».proof.Proof.RStageE0_5
import proofs.«159317_j31121333027532_1_alg».proof.Proof.RWt
import proofs.«159317_j31121333027532_1_alg».proof.Proof.GlueHost
import proofs.«159317_j31121333027532_1_alg».proof.Proof.SpecCongr

noncomputable section

namespace Cert.Glue

open Idealize.ShloMosaic Idealize.ShloMosaic.TcCoe Idealize.SL.Sem Idealize.ShloMosaic.StableHlo Idealize.ShloMosaic.ValueIdx
open Cert.ReferenceIdeal.Chunks Cert.KernelIdeal.GenP

local notation:max "kb(" r ")" => Proc.devRef (τ := Cert.KernelIdeal.τ) (sig := Cert.KernelIdeal.sig) Proc.tc r
local notation:max "rb(" r ")" => Proc.devRef (τ := Cert.ReferenceIdeal.τ) (sig := Cert.ReferenceIdeal.sig) Proc.tc r

variable (m : (ℓ : Loc Cert.KernelIdeal.nD Cert.KernelIdeal.τ Cert.KernelIdeal.sig) → Buf (Elt Ideal) ℓ)
  (ρ : Dev Cert.KernelIdeal.nD → PrngReg) (c : Dev Cert.KernelIdeal.nD)
  (V : Valuation Cert.ReferenceIdeal.τ Cert.ReferenceIdeal.sig (Elt Ideal))

set_option maxHeartbeats 8000000 in
/-- The 50000 x 128 node features after layer 0: the reference's array is the kernel program's. -/
theorem X1p (hA : Agree m c V) :
    R10 V rb(Cert.ReferenceIdeal.main_v306) = W4 m ρ c kb(Cert.KernelIdeal.main_v194) := by
  have hA' := hA
  obtain ⟨h0, h1, h2, h3, h4, h5, h6, h7, h8, h9, h10, h11, h12, h13, h14, h15, h16, h17, h18, h19⟩ := hA'
  refine funext fun (idx : Cert.KernelIdeal.S50000x128.Idx) => ?_
  obtain ⟨i, j, rfl⟩ : ∃ (i : Fin 50000) (j : Fin 128), idx = ix2 i j := ⟨idx 0, idx 1, eq_ix2 idx⟩
  -- the reference's stage at (i, j), and the kernel program's array at (i, j)
  refine ((Cert.ReferenceIdeal.Stage.stageS0_p_apply (R9 V) i j).trans ?_).trans
    ((congrFun (W4_arr m ρ c 11) (ix2 i j)).trans
      (Cert.KernelIdeal.Val.region1_apply (fun x0 x1 x2 x3 x4 x5 x6 x7 x8 x9 x10 p q => Cert.KernelIdeal.Val.body1_apply x0 x1 x2 x3 x4 x5 x6 x7 x8 x9 x10 p q) (V3 m ρ) c i j)).symm
  rw [Cert.Spec.row_eq]
  refine Cert.Spec.lnrelu_congr (funext fun j' => ?_) (funext fun j' => ?_) (funext fun j' => ?_) j
  · -- the two relations' outputs at (i, j')
    have ho1 : (R9 V rb(Cert.ReferenceIdeal.main_v57)) (ix2 i j') = _ :=
      (congrFun (Cert.ReferenceIdeal.Stage.carry_main_v57_3_9 V) (ix2 i j')).trans (Cert.ReferenceIdeal.Stage.stageE0_0_apply (R2 V) i j')
    have ho2 : (R9 V rb(Cert.ReferenceIdeal.main_v242)) (ix2 i j') = _ :=
      (congrFun (Cert.ReferenceIdeal.Stage.carry_main_v242_8_9 V) (ix2 i j')).trans (Cert.ReferenceIdeal.Stage.stageE0_5_apply (R7 V) i j')
    refine (congrArg₂ (HAdd.hAdd (α := EReal) (β := EReal) (γ := EReal)) ho1 ho2).trans ?_
    refine congrArg₂ (HAdd.hAdd (α := EReal) (β := EReal) (γ := EReal)) (Cert.Spec.sage_congr ?_ ?_ ?_ ?_ ?_ j') (Cert.Spec.sage_congr ?_ ?_ ?_ ?_ ?_ j')
    · -- the neighbour mean of relation 0
      funext k; exact congrFun ((M0_0 m ρ c V hA).trans (Cert.KernelIdeal.Carry.carry_v45_1_3 m ρ c).symm) (ix2 i k)
    · -- the node's own features
      funext k; exact congrFun ((Cert.ReferenceIdeal.Stage.carry_main_v9_1_2 V).trans ((X0p m ρ c V hA).trans (Cert.KernelIdeal.Carry.carry_v9_1_3 m ρ c).symm)) (ix2 i k)
    · funext k j''; exact ((Cert.ReferenceIdeal.Stage.rwt0_0_wl V j'' k).trans (congrFun h15 _)).trans (Cert.KernelIdeal.Val.kwin1_wl1 m ρ c k j'').symm
    · funext k j''; exact ((Cert.ReferenceIdeal.Stage.rwt0_0_wr V j'' k).trans (congrFun h17 _)).trans (Cert.KernelIdeal.Val.kwin1_wr1 m ρ c k j'').symm
    · funext j''; exact ((Cert.ReferenceIdeal.Stage.rwt0_0_bl V j'').trans (congrFun h16 _)).trans (Cert.KernelIdeal.Val.kwin1_bl1 m ρ c j'').symm
    · -- the neighbour mean of relation 5
      funext k; exact congrFun ((M0_5 m ρ c V hA).trans (Cert.KernelIdeal.Carry.carry_v160_1_3 m ρ c).symm) (ix2 i k)
    · -- the node's own features
      funext k; exact congrFun ((Cert.ReferenceIdeal.Stage.carry_main_v9_1_7 V).trans ((X0p m ρ c V hA).trans (Cert.KernelIdeal.Carry.carry_v9_1_3 m ρ c).symm)) (ix2 i k)
    · funext k j''; exact ((Cert.ReferenceIdeal.Stage.rwt0_5_wl V j'' k).trans (congrFun h15 _)).trans (Cert.KernelIdeal.Val.kwin1_wl2 m ρ c k j'').symm
    · funext k j''; exact ((Cert.ReferenceIdeal.Stage.rwt0_5_wr V j'' k).trans (congrFun h17 _)).trans (Cert.KernelIdeal.Val.kwin1_wr2 m ρ c k j'').symm
    · funext j''; exact ((Cert.ReferenceIdeal.Stage.rwt0_5_bl V j'').trans (congrFun h16 _)).trans (Cert.KernelIdeal.Val.kwin1_bl2 m ρ c j'').symm
  · -- the scale
    exact ((Cert.ReferenceIdeal.Stage.rpar0_1_g V j').trans (congrFun h18 _)).trans (Cert.KernelIdeal.Val.kwin1_g m ρ c j').symm
  · -- the shift
    exact ((Cert.ReferenceIdeal.Stage.rpar0_1_b V j').trans (congrFun h19 _)).trans (Cert.KernelIdeal.Val.kwin1_b m ρ c j').symm

end Cert.Glue

end
-- ==== Proof.KReg2.lean ====
/-
  Region 2 of the kernel program, read as a value. The region's 1 grid points each take a block of 5000 rows of the
  three row arrays (and the whole weight matrices and vectors) to the same block of rows of the output array, every
  row by the row formula. The 1 blocks tile the 5000 rows, so after the region the output array holds at every
  row the row formula of that row, the body's payload at an index being the row formula (a hypothesis here).
-/
import proofs.«159317_j31121333027532_1_alg».proof.Proof.KIFrameReg2
import proofs.«159317_j31121333027532_1_alg».proof.Proof.Spec
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.GenP Idealize.ShloMosaic Idealize.ShloMosaic.TcCoe Idealize.ShloMosaic.ValueIdx
open Idealize.ShloMosaic.Pipeline (Dat)

/-- The body's payload at an index is the row formula (proved elsewhere). -/
def Body2 : Prop := ∀ (x0 x1 x2 : Vec Ideal S5000x128 .f32) (x3 x4 x5 x6 : Vec Ideal S128x128 .f32) (x7 x8 x9 x10 : Vec Ideal S128 .f32) (p : Fin 5000) (q : Fin 128),
    k2_pay1 (F := Ideal) (k2_pay2 (F := Ideal) x0 x1 x2 x3 x4 x5 x6 x7 x8) (Scalar.ofBits .f32 0x3F000000#32) x9 x10 (ix2 p q)
      = Cert.Spec.row (fun k => x0 (ix2 p k)) (fun k => x1 (ix2 p k)) (fun k => x2 (ix2 p k))
          (fun k j => x3 (ix2 k j)) (fun k j => x4 (ix2 k j)) (fun k j => x5 (ix2 k j)) (fun k j => x6 (ix2 k j))
          (fun j => x7 (ix1 j)) (fun j => x8 (ix1 j)) (fun j => x9 (ix1 j)) (fun j => x10 (ix1 j)) q

namespace Reg2

/-- Row r, feature q of the region's result, from the three row arrays, the four weight matrices and the four vectors. -/
def rowAt (a0 a1 a2 : Vec Ideal S5000x128 .f32) (a3 a4 a5 a6 : Vec Ideal S128x128 .f32) (a7 a8 a9 a10 : Vec Ideal S128 .f32)
    (r : Fin 5000) (q : Fin 128) : EReal :=
  Cert.Spec.row (fun k => a0 (ix2 r k)) (fun k => a1 (ix2 r k)) (fun k => a2 (ix2 r k))
    (fun k j => a3 (ix2 k j)) (fun k j => a4 (ix2 k j)) (fun k j => a5 (ix2 k j)) (fun k j => a6 (ix2 k j))
    (fun j => a7 (ix1 j)) (fun j => a8 (ix1 j)) (fun j => a9 (ix1 j)) (fun j => a10 (ix1 j)) q

/-- The region's result array: every row is the row formula of the same row of the row arrays. -/
def result (a0 a1 a2 : Vec Ideal S5000x128 .f32) (a3 a4 a5 a6 : Vec Ideal S128x128 .f32) (a7 a8 a9 a10 : Vec Ideal S128 .f32) :
    Vec Ideal S5000x128 .f32 :=
  fun i => rowAt a0 a1 a2 a3 a4 a5 a6 a7 a8 a9 a10 (i 0) (i 1)

/-- The result array at row r, feature q. -/
theorem result_apply (a0 a1 a2 : Vec Ideal S5000x128 .f32) (a3 a4 a5 a6 : Vec Ideal S128x128 .f32) (a7 a8 a9 a10 : Vec Ideal S128 .f32)
    (r : Fin 5000) (q : Fin 128) :
    result a0 a1 a2 a3 a4 a5 a6 a7 a8 a9 a10 (ix2 r q)
      = Cert.Spec.row (fun k => a0 (ix2 r k)) (fun k => a1 (ix2 r k)) (fun k => a2 (ix2 r k))
          (fun k j => a3 (ix2 k j)) (fun k j => a4 (ix2 k j)) (fun k j => a5 (ix2 k j)) (fun k j => a6 (ix2 k j))
          (fun j => a7 (ix1 j)) (fun j => a8 (ix1 j)) (fun j => a9 (ix1 j)) (fun j => a10 (ix1 j)) q := rfl

/-- The row formula respects equality of each of its eleven arguments. -/
theorem row_congr {m1 m1' m2 m2' x x' : Fin 128 → EReal} {wl1 wl1' wl2 wl2' wr1 wr1' wr2 wr2' : Fin 128 → Fin 128 → EReal}
    {bl1 bl1' bl2 bl2' g g' b b' : Fin 128 → EReal}
    (ha : m1 = m1') (hb : m2 = m2') (hc : x = x') (hd : wl1 = wl1') (he : wl2 = wl2') (hf : wr1 = wr1') (hg : wr2 = wr2')
    (hh : bl1 = bl1') (hi : bl2 = bl2') (hj : g = g') (hk : b = b') (q : Fin 128) :
    Cert.Spec.row m1 m2 x wl1 wl2 wr1 wr2 bl1 bl2 g b q = Cert.Spec.row m1' m2' x' wl1' wl2' wr1' wr2' bl1' bl2' g' b' q := by
  subst ha hb hc hd he hf hg hh hi hj hk; rfl

theorem zeros_two : (![0, 0] : Fin 2 → Nat) = fun _ => 0 := funext fun a => by fin_cases a <;> rfl
theorem zeros_one : (![0] : Fin 1 → Nat) = fun _ => 0 := funext fun a => by fin_cases a <;> rfl

/-- Window 0's block index at point t: row block t, lane block 0. -/
theorem idx_rowsA : ∀ t : Fin cfg2.N, win2_0.index t (0 : Fin 2) = t.val ∧ win2_0.index t (1 : Fin 2) = 0 :=
  (by decide +kernel : ∀ t : Fin grid2.N, win2_0.index t (0 : Fin 2) = t.val ∧ win2_0.index t (1 : Fin 2) = 0)
/-- Window 1's block index at point t: row block t, lane block 0. -/
theorem idx_rowsB : ∀ t : Fin cfg2.N, win2_1.index t (0 : Fin 2) = t.val ∧ win2_1.index t (1 : Fin 2) = 0 :=
  (by decide +kernel : ∀ t : Fin grid2.N, win2_1.index t (0 : Fin 2) = t.val ∧ win2_1.index t (1 : Fin 2) = 0)
/-- Window 2's block index at point t: row block t, lane block 0. -/
theorem idx_rowsC : ∀ t : Fin cfg2.N, win2_2.index t (0 : Fin 2) = t.val ∧ win2_2.index t (1 : Fin 2) = 0 :=
  (by decide +kernel : ∀ t : Fin grid2.N, win2_2.index t (0 : Fin 2) = t.val ∧ win2_2.index t (1 : Fin 2) = 0)
/-- Window 11's block index at point t: row block t, lane block 0. -/
theorem idx_out : ∀ t : Fin cfg2.N, win2_11.index t (0 : Fin 2) = t.val ∧ win2_11.index t (1 : Fin 2) = 0 :=
  (by decide +kernel : ∀ t : Fin grid2.N, win2_11.index t (0 : Fin 2) = t.val ∧ win2_11.index t (1 : Fin 2) = 0)
/-- Window 3's block index is zero on both axes at every point: the whole matrix. -/
theorem idx_matA : ∀ t : Fin cfg2.N, win2_3.index t (0 : Fin 2) = 0 ∧ win2_3.index t (1 : Fin 2) = 0 :=
  (by decide +kernel : ∀ t : Fin grid2.N, win2_3.index t (0 : Fin 2) = 0 ∧ win2_3.index t (1 : Fin 2) = 0)
/-- Window 4's block index is zero on both axes at every point: the whole matrix. -/
theorem idx_matB : ∀ t : Fin cfg2.N, win2_4.index t (0 : Fin 2) = 0 ∧ win2_4.index t (1 : Fin 2) = 0 :=
  (by decide +kernel : ∀ t : Fin grid2.N, win2_4.index t (0 : Fin 2) = 0 ∧ win2_4.index t (1 : Fin 2) = 0)
/-- Window 5's block index is zero on both axes at every point: the whole matrix. -/
theorem idx_matC : ∀ t : Fin cfg2.N, win2_5.index t (0 : Fin 2) = 0 ∧ win2_5.index t (1 : Fin 2) = 0 :=
  (by decide +kernel : ∀ t : Fin grid2.N, win2_5.index t (0 : Fin 2) = 0 ∧ win2_5.index t (1 : Fin 2) = 0)
/-- Window 6's block index is zero on both axes at every point: the whole matrix. -/
theorem idx_matD : ∀ t : Fin cfg2.N, win2_6.index t (0 : Fin 2) = 0 ∧ win2_6.index t (1 : Fin 2) = 0 :=
  (by decide +kernel : ∀ t : Fin grid2.N, win2_6.index t (0 : Fin 2) = 0 ∧ win2_6.index t (1 : Fin 2) = 0)
/-- Window 7's block index is zero at every point: the whole vector. -/
theorem idx_vecA : ∀ t : Fin cfg2.N, win2_7.index t (0 : Fin 1) = 0 :=
  (by decide +kernel : ∀ t : Fin grid2.N, win2_7.index t (0 : Fin 1) = 0)
/-- Window 8's block index is zero at every point: the whole vector. -/
theorem idx_vecB : ∀ t : Fin cfg2.N, win2_8.index t (0 : Fin 1) = 0 :=
  (by decide +kernel : ∀ t : Fin grid2.N, win2_8.index t (0 : Fin 1) = 0)
/-- Window 9's block index is zero at every point: the whole vector. -/
theorem idx_vecC : ∀ t : Fin cfg2.N, win2_9.index t (0 : Fin 1) = 0 :=
  (by decide +kernel : ∀ t : Fin grid2.N, win2_9.index t (0 : Fin 1) = 0)
/-- Window 10's block index is zero at every point: the whole vector. -/
theorem idx_vecD : ∀ t : Fin cfg2.N, win2_10.index t (0 : Fin 1) = 0 :=
  (by decide +kernel : ∀ t : Fin grid2.N, win2_10.index t (0 : Fin 1) = 0)

/-- The row blocks fill the rows exactly. -/
theorem rows_eq : cfg2.N * 5000 = 5000 := (by decide +kernel : grid2.N * 5000 = 5000)

/-- The array row of row p of the block at point t. -/
def rowOf (t : Fin cfg2.N) (p : Fin 5000) : Fin 5000 :=
  ⟨t.val * 5000 + p.val, by have h := rows_eq; have ht := t.isLt; have hp := p.isLt; omega⟩

variable (V : (c : Dev nD) → (b : Ref sig .tc) → Buf (Elt Ideal) ((c : Thread nD τ).loc b))

/-- Row p of window 0's block at point t is row t * 5000 + p of its array. -/
theorem rowsA_apply (c : Dev nD) (t : Fin cfg2.N) (p : Fin 5000) (k : Fin 128) :
    (iblk2 V c 0 t : Vec Ideal S5000x128 .f32) (ix2 p k) = (V c main_v91 : Vec Ideal S5000x128 .f32) (ix2 (rowOf t p) k) := by
  obtain ⟨ea, eb⟩ := idx_rowsA t
  unfold iblk2
  rw [View.read_apply]
  show (V c main_v91 : Vec Ideal S5000x128 .f32) (((cfg2.win 0).blk t).view.emb (ix2 p k)) = _
  refine congrArg (V c main_v91 : Vec Ideal S5000x128 .f32) ?_
  funext a
  apply Fin.ext
  match a with
  | ⟨0, _⟩ => show win2_0.index t (0 : Fin 2) * 5000 + 1 * p.val = t.val * 5000 + p.val; omega
  | ⟨1, _⟩ => show win2_0.index t (1 : Fin 2) * 128 + 1 * k.val = k.val; omega
/-- Row p of window 1's block at point t is row t * 5000 + p of its array. -/
theorem rowsB_apply (c : Dev nD) (t : Fin cfg2.N) (p : Fin 5000) (k : Fin 128) :
    (iblk2 V c 1 t : Vec Ideal S5000x128 .f32) (ix2 p k) = (V c main_v137 : Vec Ideal S5000x128 .f32) (ix2 (rowOf t p) k) := by
  obtain ⟨ea, eb⟩ := idx_rowsB t
  unfold iblk2
  rw [View.read_apply]
  show (V c main_v137 : Vec Ideal S5000x128 .f32) (((cfg2.win 1).blk t).view.emb (ix2 p k)) = _
  refine congrArg (V c main_v137 : Vec Ideal S5000x128 .f32) ?_
  funext a
  apply Fin.ext
  match a with
  | ⟨0, _⟩ => show win2_1.index t (0 : Fin 2) * 5000 + 1 * p.val = t.val * 5000 + p.val; omega
  | ⟨1, _⟩ => show win2_1.index t (1 : Fin 2) * 128 + 1 * k.val = k.val; omega
/-- Row p of window 2's block at point t is row t * 5000 + p of its array. -/
theorem rowsC_apply (c : Dev nD) (t : Fin cfg2.N) (p : Fin 5000) (k : Fin 128) :
    (iblk2 V c 2 t : Vec Ideal S5000x128 .f32) (ix2 p k) = (V c main_v14 : Vec Ideal S5000x128 .f32) (ix2 (rowOf t p) k) := by
  obtain ⟨ea, eb⟩ := idx_rowsC t
  unfold iblk2
  rw [View.read_apply]
  show (V c main_v14 : Vec Ideal S5000x128 .f32) (((cfg2.win 2).blk t).view.emb (ix2 p k)) = _
  refine congrArg (V c main_v14 : Vec Ideal S5000x128 .f32) ?_
  funext a
  apply Fin.ext
  match a with
  | ⟨0, _⟩ => show win2_2.index t (0 : Fin 2) * 5000 + 1 * p.val = t.val * 5000 + p.val; omega
  | ⟨1, _⟩ => show win2_2.index t (1 : Fin 2) * 128 + 1 * k.val = k.val; omega
/-- Window 3's block at any point is its whole matrix. -/
theorem matA_apply (c : Dev nD) (t : Fin cfg2.N) (k j : Fin 128) :
    (iblk2 V c 3 t : Vec Ideal S128x128 .f32) (ix2 k j) = (V c main_v196 : Vec Ideal S128x128 .f32) (ix2 k j) := by
  obtain ⟨ea, eb⟩ := idx_matA t
  unfold iblk2
  rw [View.read_apply]
  show (V c main_v196 : Vec Ideal S128x128 .f32) (((cfg2.win 3).blk t).view.emb (ix2 k j)) = _
  refine congrArg (V c main_v196 : Vec Ideal S128x128 .f32) ?_
  funext a
  apply Fin.ext
  match a with
  | ⟨0, _⟩ => show win2_3.index t (0 : Fin 2) * 128 + 1 * k.val = k.val; omega
  | ⟨1, _⟩ => show win2_3.index t (1 : Fin 2) * 128 + 1 * j.val = j.val; omega
/-- Window 4's block at any point is its whole matrix. -/
theorem matB_apply (c : Dev nD) (t : Fin cfg2.N) (k j : Fin 128) :
    (iblk2 V c 4 t : Vec Ideal S128x128 .f32) (ix2 k j) = (V c main_v198 : Vec Ideal S128x128 .f32) (ix2 k j) := by
  obtain ⟨ea, eb⟩ := idx_matB t
  unfold iblk2
  rw [View.read_apply]
  show (V c main_v198 : Vec Ideal S128x128 .f32) (((cfg2.win 4).blk t).view.emb (ix2 k j)) = _
  refine congrArg (V c main_v198 : Vec Ideal S128x128 .f32) ?_
  funext a
  apply Fin.ext
  match a with
  | ⟨0, _⟩ => show win2_4.index t (0 : Fin 2) * 128 + 1 * k.val = k.val; omega
  | ⟨1, _⟩ => show win2_4.index t (1 : Fin 2) * 128 + 1 * j.val = j.val; omega
/-- Window 5's block at any point is its whole matrix. -/
theorem matC_apply (c : Dev nD) (t : Fin cfg2.N) (k j : Fin 128) :
    (iblk2 V c 5 t : Vec Ideal S128x128 .f32) (ix2 k j) = (V c main_v200 : Vec Ideal S128x128 .f32) (ix2 k j) := by
  obtain ⟨ea, eb⟩ := idx_matC t
  unfold iblk2
  rw [View.read_apply]
  show (V c main_v200 : Vec Ideal S128x128 .f32) (((cfg2.win 5).blk t).view.emb (ix2 k j)) = _
  refine congrArg (V c main_v200 : Vec Ideal S128x128 .f32) ?_
  funext a
  apply Fin.ext
  match a with
  | ⟨0, _⟩ => show win2_5.index t (0 : Fin 2) * 128 + 1 * k.val = k.val; omega
  | ⟨1, _⟩ => show win2_5.index t (1 : Fin 2) * 128 + 1 * j.val = j.val; omega
/-- Window 6's block at any point is its whole matrix. -/
theorem matD_apply (c : Dev nD) (t : Fin cfg2.N) (k j : Fin 128) :
    (iblk2 V c 6 t : Vec Ideal S128x128 .f32) (ix2 k j) = (V c main_v202 : Vec Ideal S128x128 .f32) (ix2 k j) := by
  obtain ⟨ea, eb⟩ := idx_matD t
  unfold iblk2
  rw [View.read_apply]
  show (V c main_v202 : Vec Ideal S128x128 .f32) (((cfg2.win 6).blk t).view.emb (ix2 k j)) = _
  refine congrArg (V c main_v202 : Vec Ideal S128x128 .f32) ?_
  funext a
  apply Fin.ext
  match a with
  | ⟨0, _⟩ => show win2_6.index t (0 : Fin 2) * 128 + 1 * k.val = k.val; omega
  | ⟨1, _⟩ => show win2_6.index t (1 : Fin 2) * 128 + 1 * j.val = j.val; omega
/-- Window 7's block at any point is its whole vector. -/
theorem vecA_apply (c : Dev nD) (t : Fin cfg2.N) (j : Fin 128) :
    (iblk2 V c 7 t : Vec Ideal S128 .f32) (ix1 j) = (V c main_v204 : Vec Ideal S128 .f32) (ix1 j) := by
  have ea := idx_vecA t
  unfold iblk2
  rw [View.read_apply]
  show (V c main_v204 : Vec Ideal S128 .f32) (((cfg2.win 7).blk t).view.emb (ix1 j)) = _
  refine congrArg (V c main_v204 : Vec Ideal S128 .f32) ?_
  funext a
  apply Fin.ext
  match a with
  | ⟨0, _⟩ => show win2_7.index t (0 : Fin 1) * 128 + 1 * j.val = j.val; omega
/-- Window 8's block at any point is its whole vector. -/
theorem vecB_apply (c : Dev nD) (t : Fin cfg2.N) (j : Fin 128) :
    (iblk2 V c 8 t : Vec Ideal S128 .f32) (ix1 j) = (V c main_v206 : Vec Ideal S128 .f32) (ix1 j) := by
  have ea := idx_vecB t
  unfold iblk2
  rw [View.read_apply]
  show (V c main_v206 : Vec Ideal S128 .f32) (((cfg2.win 8).blk t).view.emb (ix1 j)) = _
  refine congrArg (V c main_v206 : Vec Ideal S128 .f32) ?_
  funext a
  apply Fin.ext
  match a with
  | ⟨0, _⟩ => show win2_8.index t (0 : Fin 1) * 128 + 1 * j.val = j.val; omega
/-- Window 9's block at any point is its whole vector. -/
theorem vecC_apply (c : Dev nD) (t : Fin cfg2.N) (j : Fin 128) :
    (iblk2 V c 9 t : Vec Ideal S128 .f32) (ix1 j) = (V c main_v208 : Vec Ideal S128 .f32) (ix1 j) := by
  have ea := idx_vecC t
  unfold iblk2
  rw [View.read_apply]
  show (V c main_v208 : Vec Ideal S128 .f32) (((cfg2.win 9).blk t).view.emb (ix1 j)) = _
  refine congrArg (V c main_v208 : Vec Ideal S128 .f32) ?_
  funext a
  apply Fin.ext
  match a with
  | ⟨0, _⟩ => show win2_9.index t (0 : Fin 1) * 128 + 1 * j.val = j.val; omega
/-- Window 10's block at any point is its whole vector. -/
theorem vecD_apply (c : Dev nD) (t : Fin cfg2.N) (j : Fin 128) :
    (iblk2 V c 10 t : Vec Ideal S128 .f32) (ix1 j) = (V c main_v210 : Vec Ideal S128 .f32) (ix1 j) := by
  have ea := idx_vecD t
  unfold iblk2
  rw [View.read_apply]
  show (V c main_v210 : Vec Ideal S128 .f32) (((cfg2.win 10).blk t).view.emb (ix1 j)) = _
  refine congrArg (V c main_v210 : Vec Ideal S128 .f32) ?_
  funext a
  apply Fin.ext
  match a with
  | ⟨0, _⟩ => show win2_10.index t (0 : Fin 1) * 128 + 1 * j.val = j.val; omega

/-- Element (p, q) of the output's block at point t sits at row t * 5000 + p, lane q of the array. -/
theorem out_emb (t : Fin cfg2.N) (p : Fin 5000) (q : Fin 128) :
    (((cfg2.win 11).blk t).view.emb (ix2 p q) : S5000x128.Idx) = ix2 (rowOf t p) q := by
  obtain ⟨ea, eb⟩ := idx_out t
  funext a
  apply Fin.ext
  match a with
  | ⟨0, _⟩ => show win2_11.index t (0 : Fin 2) * 5000 + 1 * p.val = t.val * 5000 + p.val; omega
  | ⟨1, _⟩ => show win2_11.index t (1 : Fin 2) * 128 + 1 * q.val = q.val; omega

/-- An array read through the output's block at point t, at element (p, q), is the array at row t * 5000 + p, lane q. -/
theorem out_read (G : Vec Ideal S5000x128 .f32) (t : Fin cfg2.N) (p : Fin 5000) (q : Fin 128) :
    ((cfg2.win 11).blk t).view.read (Elt Ideal) G (ix2 p q) = G (ix2 (rowOf t p) q) := by
  rw [View.read_apply]
  show G (((cfg2.win 11).blk t).view.emb (ix2 p q)) = _
  exact congrArg G (out_emb t p q)

/-- What point t writes back is block t of the result array. -/
theorem flushed_eq (hbody : Body2) (c : Dev nD) (t : Fin cfg2.N) :
    (dat2 (F := Ideal) V c).flushed 11 t
      = ((cfg2.win 11).blk t).view.read (Elt Ideal) (result (V c main_v91) (V c main_v137) (V c main_v14) (V c main_v196) (V c main_v198) (V c main_v200) (V c main_v202) (V c main_v204) (V c main_v206) (V c main_v208) (V c main_v210)) := by
  show (cfg2.win 11).cut (grid2.coords t) ((dat2 V c).after 11 t) = _
  rw [after2_11]
  unfold out2_11
  rw [View.canon_unit_zero zeros_two]
  simp only [View.ld_unit_zero (S := S5000x128) zeros_two, View.ld_unit_zero (S := S128x128) zeros_two, View.ld_unit_zero (S := S128) zeros_one]
  funext y
  obtain ⟨p, q, rfl⟩ : ∃ (p : Fin 5000) (q : Fin 128), y = ix2 p q := ⟨y 0, y 1, eq_ix2 y⟩
  refine (hbody (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) p q).trans ?_
  refine Eq.trans ?_ (out_read (result (V c main_v91) (V c main_v137) (V c main_v14) (V c main_v196) (V c main_v198) (V c main_v200) (V c main_v202) (V c main_v204) (V c main_v206) (V c main_v208) (V c main_v210)) t p q).symm
  refine Eq.trans ?_ (result_apply (V c main_v91) (V c main_v137) (V c main_v14) (V c main_v196) (V c main_v198) (V c main_v200) (V c main_v202) (V c main_v204) (V c main_v206) (V c main_v208) (V c main_v210) (rowOf t p) q).symm
  exact row_congr (funext fun k => rowsA_apply V c t p k) (funext fun k => rowsB_apply V c t p k) (funext fun k => rowsC_apply V c t p k)
    (funext fun k => funext fun j => matA_apply V c t k j) (funext fun k => funext fun j => matB_apply V c t k j)
    (funext fun k => funext fun j => matC_apply V c t k j) (funext fun k => funext fun j => matD_apply V c t k j)
    (funext fun j => vecA_apply V c t j) (funext fun j => vecB_apply V c t j) (funext fun j => vecC_apply V c t j)
    (funext fun j => vecD_apply V c t j) q

/-- An index of the array is in point t's block iff each coordinate is in the block's range on its axis. -/
theorem mem_blk (t : Fin cfg2.N) (i : S5000x128.Idx) :
    i ∈ ((cfg2.win 11).blk t).view.set ↔ ∀ a : Fin 2, win2_11.index t a * S5000x128.size a ≤ (i a).val ∧ (i a).val < win2_11.index t a * S5000x128.size a + S5000x128.size a := by
  show i ∈ ((View.whole (Pipeline.arrRef spec2 11)).slice (win2_11.rect t)).set ↔ _
  rw [View.set_slice_whole, Rect.mem_set_unit]
  exact Iff.rfl

/-- Every index of the array is in the block of the point its row falls in. -/
theorem cover (i : S5000x128.Idx) : ∃ t : Fin cfg2.N, (cfg2.win 11).flush t = true ∧ i ∈ ((cfg2.win 11).blk t).view.set := by
  have hi0 : (i 0).val < 5000 := (i 0).isLt
  have hi1 : (i 1).val < 128 := (i 1).isLt
  have hN := rows_eq
  obtain ⟨t, ht⟩ : ∃ t : Fin cfg2.N, t.val = (i 0).val / 5000 := ⟨⟨(i 0).val / 5000, by omega⟩, rfl⟩
  obtain ⟨ea, eb⟩ := idx_out t
  refine ⟨t, flush2_11 t, ?_⟩
  rw [mem_blk]
  intro a
  match a with
  | ⟨0, _⟩ => show win2_11.index t (0 : Fin 2) * 5000 ≤ (i 0).val ∧ (i 0).val < win2_11.index t (0 : Fin 2) * 5000 + 5000; omega
  | ⟨1, _⟩ => show win2_11.index t (1 : Fin 2) * 128 ≤ (i 1).val ∧ (i 1).val < win2_11.index t (1 : Fin 2) * 128 + 128; omega

/-- After the region the output array is the result array. -/
theorem final (hbody : Body2) (c : Dev nD) :
    (dat2 (F := Ideal) V c).arrAt 11 cfg2.N = result (V c main_v91) (V c main_v137) (V c main_v14) (V c main_v196) (V c main_v198) (V c main_v200) (V c main_v202) (V c main_v204) (V c main_v206) (V c main_v208) (V c main_v210) :=
  (dat2 (F := Ideal) V c).arrAt_eq_of_cover 11 (result (V c main_v91) (V c main_v137) (V c main_v14) (V c main_v196) (V c main_v198) (V c main_v200) (V c main_v202) (V c main_v204) (V c main_v206) (V c main_v208) (V c main_v210))
    (fun t _ => flushed_eq V hbody c t) cover

end Reg2

/-- After region 2 its output array holds, at every row, the row formula of that row of the three row arrays. -/
theorem region2_apply (hbody : Body2)
    (V : (c : Dev nD) → (b : Ref sig .tc) → Buf (Elt Ideal) ((c : Thread nD τ).loc b)) (c : Dev nD) (i : Fin 5000) (j : Fin 128) :
    ((dat2 (F := Ideal) V c).arrAt 11 cfg2.N : Vec Ideal S5000x128 .f32) (ix2 i j)
      = Cert.Spec.row (fun k => (V c main_v91 : Vec Ideal S5000x128 .f32) (ix2 i k)) (fun k => (V c main_v137 : Vec Ideal S5000x128 .f32) (ix2 i k))
          (fun k => (V c main_v14 : Vec Ideal S5000x128 .f32) (ix2 i k))
          (fun k j => (V c main_v196 : Vec Ideal S128x128 .f32) (ix2 k j)) (fun k j => (V c main_v198 : Vec Ideal S128x128 .f32) (ix2 k j))
          (fun k j => (V c main_v200 : Vec Ideal S128x128 .f32) (ix2 k j)) (fun k j => (V c main_v202 : Vec Ideal S128x128 .f32) (ix2 k j))
          (fun j => (V c main_v204 : Vec Ideal S128 .f32) (ix1 j)) (fun j => (V c main_v206 : Vec Ideal S128 .f32) (ix1 j))
          (fun j => (V c main_v208 : Vec Ideal S128 .f32) (ix1 j)) (fun j => (V c main_v210 : Vec Ideal S128 .f32) (ix1 j)) j :=
  (congrFun (Reg2.final V hbody c) (ix2 i j)).trans
    (Reg2.result_apply (V c main_v91) (V c main_v137) (V c main_v14) (V c main_v196) (V c main_v198) (V c main_v200) (V c main_v202) (V c main_v204) (V c main_v206) (V c main_v208) (V c main_v210) i j)

end Cert.KernelIdeal.Val

end
-- ==== Proof.KBody2.lean ====
/-
  The kernel body's value at an index, for blocks of 5000 rows.

  For a block of 5000 rows of 128 features the body forms the two relations' outputs (four products of the block's
  rows with 128 × 128 weight matrices into zero accumulators, two bias rows, all summed), halves the sum, normalises
  each row along its 128 lanes (mean and variance as lane sums divided by 128, the variance shifted by a small
  constant before the reciprocal square root), scales and shifts per feature, and clips below at zero. Read at row p
  and feature q, that is the row formula `Cert.Spec.row` of the three input rows at p.
-/
import proofs.«159317_j31121333027532_1_alg».proof.Proof.Gen.KernelIdeal.Skeleton
import proofs.«159317_j31121333027532_1_alg».proof.Proof.Spec
import proofs.«159317_j31121333027532_1_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Val

open Cert.KernelIdeal Cert.KernelIdeal.Gen Idealize.ShloMosaic Idealize.ShloMosaic.ValueIdx

/-! ## A product of a block of rows with a square matrix, read at an index -/

/-- The left operand's index at output row `i 0`: its row coordinate. -/
theorem k2_lhs_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- Its column coordinate is the contraction index. -/
theorem k2_lhs_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- The right operand's row coordinate is the contraction index. -/
theorem k2_rhs_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- Its column coordinate is the output's. -/
theorem k2_rhs_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- Into the zero accumulator the product at (p, q) is the sum over k of the left operand at (p, k) times the right
    at (k, q). -/
theorem k2_matmul_apply (a : FVec Ideal S5000x128 .bf16) (w : FVec Ideal S128x128 .bf16) (p : Fin 5000) (q : Fin 128) :
    matmul dot_S5000x128_S128x128_S5000x128_1_0_0_1_n_n none a w (constant (F := Ideal) S5000x128 .f32 0x00000000#32) (ix2 p q)
      = ∑ k : Fin 128, a (ix2 p k) * w (ix2 k q) := by
  refine (Ideal.matmul_constant_zero_apply dot_S5000x128_S128x128_S5000x128_1_0_0_1_n_n none a w (ix2 p q)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact k2_lhs_0 _ _
    | ⟨1, _⟩ => exact (k2_lhs_1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (k2_rhs_0 _ _).trans hk
    | ⟨1, _⟩ => exact k2_rhs_1 _ _)
  rw [el, er]

/-! ## The layout operations of the payloads, read at an index -/

/-- A block of rows cast to its own shape reads the block. -/
theorem k2_cast_rows_apply (v : FVec Ideal S5000x128 .f32) (i : S5000x128.Idx) :
    shapeCast S5000x128 v shapeCasts_S5000x128_S5000x128 i = v i :=
  congrFun (shapeCast_self v shapeCasts_S5000x128_S5000x128) i

/-- A square matrix cast to its own shape reads the matrix. -/
theorem k2_cast_sq_apply (v : FVec Ideal S128x128 .f32) (i : S128x128.Idx) :
    shapeCast S128x128 v shapeCasts_S128x128_S128x128 i = v i :=
  congrFun (shapeCast_self v shapeCasts_S128x128_S128x128) i

/-- A feature vector cast to itself, then to a row [1, 128], and broadcast down the rows: at (p, q), the vector at q. -/
theorem k2_row_apply (v : FVec Ideal S128 .f32) (p : Fin 5000) (q : Fin 128) :
    broadcastTo S5000x128 (shapeCast S1x128 (shapeCast S128 v shapeCasts_S128_S128) shapeCasts_S128_S1x128)
      broadcasts_S1x128_S5000x128 (ix2 p q) = v (ix1 q) := by
  refine (broadcastTo_1b_ab_apply _ broadcasts_S1x128_S5000x128 p q).trans ?_
  refine (shapeCast_a_1a_apply _ shapeCasts_S128_S1x128 (0 : Fin 1) q).trans ?_
  exact congrFun (shapeCast_self v shapeCasts_S128_S128) _

/-- A column [5000, 1] broadcast across the lanes: at (p, q), the column at p. -/
theorem k2_col_apply (w : FVec Ideal S5000x1 .f32) (p : Fin 5000) (q : Fin 128) :
    broadcastTo S5000x128 w broadcasts_S5000x1_S5000x128 (ix2 p q) = w (ix2 p (0 : Fin 1)) := by
  refine broadcastTo_apply w broadcasts_S5000x1_S5000x128 (ix2 p q) (ix2 p (0 : Fin 1)) fun ax => ?_
  match ax with
  | ⟨0, _⟩ =>
    show p.val = if (5000 : ℕ) = 1 then 0 else p.val
    exact (if_neg (by decide)).symm
  | ⟨1, _⟩ => rfl

/-- A vector [5000] cast to a column [5000, 1]: at (p, 0), the vector at p. -/
theorem k2_colcast_apply (v : FVec Ideal S5000 .f32) (p : Fin 5000) :
    shapeCast S5000x1 v shapeCasts_S5000_S5000x1 (ix2 p (0 : Fin 1)) = v (ix1 p) := by
  refine shapeCast_apply v shapeCasts_S5000_S5000x1 _ _ ?_
  rw [Shape.rowMajor_val_one, Shape.rowMajor_val_two]
  show p.val = p.val * 1 + 0
  omega

/-- The sum along the lanes from the zero pattern, read at row p, is the sum of the row. -/
theorem k2_lane_sum_apply (src : FVec Ideal S5000x128 .f32) (hφ : FKind.Formats .f32)
    (hacc : @Eq (BitVec (FTy.bits .f32)) 0x00000000#32 0x00000000#32) (p : Fin 5000) :
    multiReduction (F := Ideal) .add ([1] : List (Fin 2)) S5000 src 0x00000000#32 reduces_S5000x128_S5000 hφ hacc (ix1 p)
      = ∑ k : Fin 128, src (ix2 p k) :=
  Cert.LibKeepdims.lane_sum_apply src reduces_S5000x128_S5000 hφ hacc p

/-- A reciprocal square root at an index is that of the element. -/
theorem k2_rsqrt_apply {s : Shape} (a : FVec Ideal s .f32) (i : s.Idx) : rsqrt a i = Ideal.rsqrt (a i) := rfl

/-! ## The two payloads at an index -/

/-- The sum of the two relations' outputs at (p, q). -/
theorem k2_pay2_apply (x0 x1 x2 : Vec Ideal S5000x128 .f32) (x3 x4 x5 x6 : Vec Ideal S128x128 .f32) (x7 x8 : Vec Ideal S128 .f32)
    (p : Fin 5000) (q : Fin 128) :
    k2_pay2 (F := Ideal) x0 x1 x2 x3 x4 x5 x6 x7 x8 (ix2 p q)
      = Cert.Spec.sage (fun k => x0 (ix2 p k)) (fun k => x2 (ix2 p k)) (fun k j => x3 (ix2 k j)) (fun k j => x5 (ix2 k j))
          (fun j => x7 (ix1 j)) q
        + Cert.Spec.sage (fun k => x1 (ix2 p k)) (fun k => x2 (ix2 p k)) (fun k j => x4 (ix2 k j)) (fun k j => x6 (ix2 k j))
          (fun j => x8 (ix1 j)) q := by
  unfold k2_pay2
  simp only [addf_apply, k2_matmul_apply, k2_row_apply, truncf_apply, k2_cast_rows_apply, k2_cast_sq_apply]
  rfl

/-- The halved, normalised, scaled, shifted and clipped row at (p, q). -/
theorem k2_pay1_apply (o : FVec Ideal S5000x128 .f32) (g b : Vec Ideal S128 .f32) (p : Fin 5000) (q : Fin 128) :
    k2_pay1 (F := Ideal) o (Scalar.ofBits .f32 0x3F000000#32) g b (ix2 p q)
      = Cert.Spec.lnrelu (fun j => o (ix2 p j)) (fun j => g (ix1 j)) (fun j => b (ix1 j)) q := by
  unfold k2_pay1
  simp only [maximumf_apply, addf_apply, mulf_apply, subf_apply, divf_apply, broadcast_apply, k2_rsqrt_apply, k2_row_apply,
    k2_col_apply, k2_colcast_apply, k2_lane_sum_apply]
  rfl

/-- The kernel body's value at (p, q) is the row formula of the three rows at p. -/
theorem body2_apply (x0 x1 x2 : Vec Ideal S5000x128 .f32) (x3 x4 x5 x6 : Vec Ideal S128x128 .f32) (x7 x8 x9 x10 : Vec Ideal S128 .f32)
    (p : Fin 5000) (q : Fin 128) :
    k2_pay1 (F := Ideal) (k2_pay2 (F := Ideal) x0 x1 x2 x3 x4 x5 x6 x7 x8) (Scalar.ofBits .f32 0x3F000000#32) x9 x10 (ix2 p q)
      = Cert.Spec.row (fun k => x0 (ix2 p k)) (fun k => x1 (ix2 p k)) (fun k => x2 (ix2 p k))
          (fun k j => x3 (ix2 k j)) (fun k j => x4 (ix2 k j)) (fun k j => x5 (ix2 k j)) (fun k j => x6 (ix2 k j))
          (fun j => x7 (ix1 j)) (fun j => x8 (ix1 j)) (fun j => x9 (ix1 j)) (fun j => x10 (ix1 j)) q := by
  refine (k2_pay1_apply _ x9 x10 p q).trans ?_
  unfold Cert.Spec.row
  exact congrArg (fun o => Cert.Spec.lnrelu o (fun j => x9 (ix1 j)) (fun j => x10 (ix1 j)) q)
    (funext fun j => k2_pay2_apply x0 x1 x2 x3 x4 x5 x6 x7 x8 p j)

end Cert.KernelIdeal.Val

end
-- ==== Proof.RStageS0s.lean ====
/-
  The reference's stretch that turns the two relation outputs of one node type into that type's new features, read at
  one row i and one feature j.

  The two arrays are added and multiplied by one half; along the 128 features of a row the mean is the sum divided by
  128, the deviation is the halved row less its mean, the variance is the sum of the squared deviations divided by 128;
  the deviation is multiplied by the reciprocal square root of the variance shifted by a small constant, scaled and
  shifted per feature by the slices at one layer and one node type of two 2 x 3 x 128 arrays, and clipped below at zero.
  Each operation that is not pointwise — a scalar spread over an array, the sum along a row, a vector made a column,
  a column spread across the features, a slice made a row and spread down the rows — is read at an index by one small
  lemma over arrays of the literal shapes; the pointwise ones read through by definition; the composed term is then the
  specification's function of the row, term for term.
-/
import proofs.«159317_j31121333027532_1_alg».proof.Proof.RefChunks
import proofs.«159317_j31121333027532_1_alg».proof.Proof.Spec
import Idealize.ShloMosaic.Lib.StableHlo.Run
import Idealize.ShloMosaic.Lib.Pipeline.Value
import Idealize.ShloMosaic.Lib.ValueIdx
import Idealize.ShloMosaic.PureOps.Ideal.Laws

noncomputable section

namespace Cert.ReferenceIdeal.Stage

open Cert.ReferenceIdeal Cert.ReferenceIdeal.Chunks Idealize.ShloMosaic Idealize.ShloMosaic.StableHlo Idealize.ShloMosaic.ValueIdx

/-- A scalar constant broadcast over the array reads its value everywhere. -/
theorem cS0_s_splat_apply (w : BitVec (FTy.bits .f32))
    (h : S_.BroadcastsInDim S5000x128 (![] : Fin 0 → Fin S5000x128.rank)) (p : S5000x128.Idx) :
    broadcastInDim S5000x128 (no_index ![]) h (constant (F := Ideal) S_ .f32 w) p = Ideal.ofBits .f32 w := rfl

/-- A scalar constant broadcast over the column reads its value everywhere. -/
theorem cS0_s_splat_col_apply (w : BitVec (FTy.bits .f32))
    (h : S_.BroadcastsInDim S5000x1 (![] : Fin 0 → Fin S5000x1.rank)) (p : S5000x1.Idx) :
    broadcastInDim S5000x1 (no_index ![]) h (constant (F := Ideal) S_ .f32 w) p = Ideal.ofBits .f32 w := rfl

/-- The host's sum along the 128 features from the zero pattern, read at row i, is the sum of the row. -/
theorem cS0_s_rowsum_apply (x : FVec Ideal S5000x128 .f32) (h' : S5000x128.ReducesTo [1] S5000)
    (hu : 0 < S_.numel) (i : Fin 5000) :
    Host.reduceAdd (F := Ideal) x (constant (F := Ideal) S_ .f32 0x00000000#32) h' hu (ix1 i)
      = ∑ k : Fin 128, x (ix2 i k) := by
  have h : S5000x128.Reduces [1] S5000 := by decide
  show Ideal.hostReduceAdd h' x (Ideal.ofBits .f32 0x00000000#32) (ix1 i) = _
  rw [Ideal.hostReduceAdd_single h' h, Ideal.ofBits_zero_f32, zero_add]
  exact Finset.sum_congr rfl fun k _ => congrArg x
    (funext fun ax => Fin.ext (by match ax with | ⟨0, _⟩ => rfl | ⟨1, _⟩ => rfl))

/-- A vector over the rows as a column: at (i, 0), the vector at i. -/
theorem cS0_s_column_apply (v : FVec Ideal S5000 .f32)
    (h : S5000.BroadcastsInDim S5000x1 (![0] : Fin 1 → Fin S5000x1.rank)) (i : Fin 5000) :
    broadcastInDim S5000x1 (no_index ![0]) h v (ix2 i (0 : Fin 1)) = v (ix1 i) := by
  refine broadcastInDim_apply _ h v _ (ix1 i) fun a => ?_
  match a with
  | ⟨0, _⟩ => rfl

/-- A column broadcast across the 128 features: at (i, j), the column at (i, 0). -/
theorem cS0_s_across_apply (c : FVec Ideal S5000x1 .f32)
    (h : S5000x1.BroadcastsInDim S5000x128 (![0, 1] : Fin 2 → Fin S5000x128.rank)) (i : Fin 5000) (j : Fin 128) :
    broadcastInDim S5000x128 (no_index ![0, 1]) h c (ix2 i j) = c (ix2 i (0 : Fin 1)) := by
  refine broadcastInDim_apply _ h c _ (ix2 i (0 : Fin 1)) fun a => ?_
  match a with
  | ⟨0, _⟩ => rfl
  | ⟨1, _⟩ => rfl

/-- A per-feature parameter, the slice at one layer and one node type of a 2 x 3 x 128 array made a vector, then a
    row, then broadcast down the rows: at (i, j), the array at that layer, that node type and feature j. -/
theorem cS0_s_param_apply (g : FVec Ideal S2x3x128 .f32) (hs : S2x3x128.Slices ![0, 2, 0] S1x1x128)
    (hc : S1x1x128.ShapeCasts S128) (h₁ : S128.BroadcastsInDim S1x128 (![1] : Fin 1 → Fin S1x128.rank))
    (h₂ : S1x128.BroadcastsInDim S5000x128 (![0, 1] : Fin 2 → Fin S5000x128.rank)) (i : Fin 5000) (j : Fin 128) :
    broadcastInDim S5000x128 (no_index ![0, 1]) h₂ (broadcastInDim S1x128 (no_index ![1]) h₁
        (shapeCast S128 (extractStridedSlice S1x1x128 (no_index ![0, 2, 0]) g hs) hc)) (ix2 i j)
      = g (ix3 (0 : Fin 2) (2 : Fin 3) j) := by
  refine (broadcastInDim_apply _ h₂ _ _ (ix2 (0 : Fin 1) j) fun a => ?_).trans
    ((broadcastInDim_apply _ h₁ _ _ (ix1 j) fun a => ?_).trans
      ((shapeCast_apply _ hc _ (ix3 (0 : Fin 1) (0 : Fin 1) j) ?_).trans
        (extractStridedSlice_apply _ g hs _ (ix3 (0 : Fin 2) (2 : Fin 3) j) fun a => ?_)))
  · match a with
    | ⟨0, _⟩ => rfl
    | ⟨1, _⟩ => rfl
  · match a with
    | ⟨0, _⟩ => rfl
  · rw [Shape.rowMajor_val_three, Shape.rowMajor_val_one]
    show (0 * 1 + 0) * 128 + j.val = j.val
    omega
  · match a with
    | ⟨0, _⟩ => rfl
    | ⟨1, _⟩ => rfl
    | ⟨2, _⟩ => show j.val = 0 + j.val; omega

/-- The host's division and reciprocal square root read at an index. -/
theorem cS0_s_hostDivf_apply {s : Shape} (a b : FVec Ideal s .f32) (p : s.Idx) :
    Host.divf a b p = Ideal.div (a p) (b p) := rfl
theorem cS0_s_hostRsqrt_apply {s : Shape} (a : FVec Ideal s .f32) (p : s.Idx) :
    Host.rsqrt a p = Ideal.rsqrt (a p) := rfl

/-- The forty operations as one term over the arrays they read, at (i, j): the two relation outputs added and
    halved (X), the row mean (m), the deviation (d), the row variance (v), the reciprocal root of the shifted
    variance (r); the deviation times r, scaled, shifted, clipped below at zero. -/
theorem cS0_s_value (x y : FVec Ideal S5000x128 .f32) (g b : FVec Ideal S2x3x128 .f32)
    (X d : FVec Ideal S5000x128 .f32) (m v r : FVec Ideal S5000x1 .f32)
    (hb0 : S_.BroadcastsInDim S5000x128 (![] : Fin 0 → Fin S5000x128.rank))
    (hb1 : S_.BroadcastsInDim S5000x1 (![] : Fin 0 → Fin S5000x1.rank))
    (hcol : S5000.BroadcastsInDim S5000x1 (![0] : Fin 1 → Fin S5000x1.rank))
    (hacr : S5000x1.BroadcastsInDim S5000x128 (![0, 1] : Fin 2 → Fin S5000x128.rank))
    (hred : S5000x128.ReducesTo [1] S5000) (hu : 0 < S_.numel)
    (hs : S2x3x128.Slices ![0, 2, 0] S1x1x128) (hc : S1x1x128.ShapeCasts S128)
    (h₁ : S128.BroadcastsInDim S1x128 (![1] : Fin 1 → Fin S1x128.rank))
    (h₂ : S1x128.BroadcastsInDim S5000x128 (![0, 1] : Fin 2 → Fin S5000x128.rank))
    (hX : X = mulf (broadcastInDim S5000x128 ![] hb0 (constant (F := Ideal) S_ .f32 0x3F000000#32)) (addf x y))
    (hm : m = Host.divf (broadcastInDim S5000x1 ![0] hcol
        (Host.reduceAdd (F := Ideal) X (constant (F := Ideal) S_ .f32 0x00000000#32) hred hu))
      (broadcastInDim S5000x1 ![] hb1 (constant (F := Ideal) S_ .f32 0x43000000#32)))
    (hd : d = subf X (broadcastInDim S5000x128 ![0, 1] hacr m))
    (hv : v = Host.divf (broadcastInDim S5000x1 ![0] hcol
        (Host.reduceAdd (F := Ideal) (mulf d d) (constant (F := Ideal) S_ .f32 0x00000000#32) hred hu))
      (broadcastInDim S5000x1 ![] hb1 (constant (F := Ideal) S_ .f32 0x43000000#32)))
    (hr : r = Host.rsqrt (addf v (broadcastInDim S5000x1 ![] hb1 (constant (F := Ideal) S_ .f32 0x3727C5AC#32))))
    (i : Fin 5000) (j : Fin 128) :
    maximumf
        (addf
          (mulf (mulf d (broadcastInDim S5000x128 ![0, 1] hacr r))
            (broadcastInDim S5000x128 ![0, 1] h₂ (broadcastInDim S1x128 ![1] h₁
              (shapeCast S128 (extractStridedSlice S1x1x128 ![0, 2, 0] g hs) hc))))
          (broadcastInDim S5000x128 ![0, 1] h₂ (broadcastInDim S1x128 ![1] h₁
            (shapeCast S128 (extractStridedSlice S1x1x128 ![0, 2, 0] b hs) hc))))
        (broadcastInDim S5000x128 ![] hb0 (constant (F := Ideal) S_ .f32 0x00000000#32)) (ix2 i j)
      = Cert.Spec.lnrelu (fun j => x (ix2 i j) + y (ix2 i j)) (fun j => g (ix3 (0 : Fin 2) (2 : Fin 3) j))
          (fun j => b (ix3 (0 : Fin 2) (2 : Fin 3) j)) j := by
  subst hr hv hd hm hX
  simp only [maximumf_apply, addf_apply, mulf_apply, subf_apply, cS0_s_hostDivf_apply, cS0_s_hostRsqrt_apply,
    cS0_s_splat_apply, cS0_s_splat_col_apply, cS0_s_rowsum_apply, cS0_s_column_apply, cS0_s_across_apply,
    cS0_s_param_apply]
  rfl

/-- The stretch's result at (i, j) is the specification's function of row i of the two relation outputs and of the
    two parameter slices. -/
theorem stageS0_s_apply (W : Valuation τ sig (Elt Ideal)) (i : Fin 5000) (j : Fin 128) :
    (after cS0_s W (Proc.devRef .tc main_v338) : Vec Ideal S5000x128 .f32) (ix2 i j)
      = Cert.Spec.lnrelu (fun j => HAdd.hAdd (α := EReal) (β := EReal) (γ := EReal) ((W (Proc.devRef .tc main_v131) : Vec Ideal S5000x128 .f32) (ix2 i j)) ((W (Proc.devRef .tc main_v205) : Vec Ideal S5000x128 .f32) (ix2 i j)))
          (fun j => (W (Proc.devRef .tc main_arg18) : Vec Ideal S2x3x128 .f32) (ix3 (0 : Fin 2) (2 : Fin 3) j))
          (fun j => (W (Proc.devRef .tc main_arg19) : Vec Ideal S2x3x128 .f32) (ix3 (0 : Fin 2) (2 : Fin 3) j)) j := by
  simp only [cS0_s]
  after_results_simp
  exact cS0_s_value (W (Proc.devRef .tc main_v131)) (W (Proc.devRef .tc main_v205)) (W (Proc.devRef .tc main_arg18))
    (W (Proc.devRef .tc main_arg19)) _ _ _ _ _ _ _ _ _ _ _ _ _ _ _ rfl rfl rfl rfl rfl i j

end Cert.ReferenceIdeal.Stage

end
-- ==== Proof.RStageE0_2.lean ====
/-
  One relation of the first layer, read at a row and a feature.

  The stretch slices the layer's stacked weights at the relation's position (a 128 × 128 left matrix, a bias row of 128, a
  128 × 128 right matrix), forms the mean message of every destination node from its neighbours' features, and returns
  message · leftᵀ + bias + features · rightᵀ, each product contracting the 128 features. Here the mean message stays an
  unopened array: the result at row `i` and feature `j` is `Cert.Spec.sage` of row `i` of the mean message, row `i` of
  the node features, and the relation's slabs of the stacked weights read transposed (entry `(k, j)` of a factor is
  entry `(j, k)` of the relation's slab of its stack).
-/
import proofs.«159317_j31121333027532_1_alg».proof.Proof.RefChunks
import proofs.«159317_j31121333027532_1_alg».proof.Proof.Spec
import Idealize.ShloMosaic.Lib.Pipeline.Value
import Idealize.ShloMosaic.Lib.ValueIdx
import Idealize.ShloMosaic.PureOps.Ideal.Laws

noncomputable section

namespace Cert.ReferenceIdeal.Stage

open Cert.ReferenceIdeal Cert.ReferenceIdeal.Gen Cert.ReferenceIdeal.Chunks Idealize.ShloMosaic Idealize.ShloMosaic.StableHlo Idealize.ShloMosaic.ValueIdx

/-! ## The layer's weights of one relation, read at an index -/

/-- The relation's slab of a stack of six 128 × 128 matrices, flattened to a matrix: its entry `(a, b)` is the slab's entry `(a, b)` in the stack. -/
theorem slabE0_2_apply (w : FVec Ideal S6x128x128 .f32) (a b : Fin 128) :
    (shapeCast S128x128 (extractStridedSlice S1x128x128 ![2, 0, 0] w slices_S6x128x128_S1x128x128_2_0_0)
      shapeCasts_S1x128x128_S128x128 : FVec Ideal S128x128 .f32) (ix2 a b) = w (ix3 (2 : Fin 6) a b) := by
  refine (shapeCast_apply _ shapeCasts_S1x128x128_S128x128 (ix2 a b) (ix3 (0 : Fin 1) a b) ?_).trans ?_
  · rw [Shape.rowMajor_val_three, Shape.rowMajor_val_two]
    show (0 * 128 + a.val) * 128 + b.val = a.val * 128 + b.val
    omega
  · exact extractStridedSlice_apply ![2, 0, 0] w slices_S6x128x128_S1x128x128_2_0_0 (ix3 (0 : Fin 1) a b) (ix3 (2 : Fin 6) a b)
      (fun c => match c with
        | ⟨0, _⟩ => by show 2 = 2 + 0; rfl
        | ⟨1, _⟩ => by show a.val = 0 + a.val; omega
        | ⟨2, _⟩ => by show b.val = 0 + b.val; omega)

/-- The transposed slab: entry `(k, j)` is the slab's entry `(j, k)` in the stack. -/
theorem slabTE0_2_apply (w : FVec Ideal S6x128x128 .f32) (k j : Fin 128) :
    (transpose S128x128 [1, 0] (shapeCast S128x128 (extractStridedSlice S1x128x128 ![2, 0, 0] w slices_S6x128x128_S1x128x128_2_0_0)
      shapeCasts_S1x128x128_S128x128) transposes_S128x128_S128x128_1_0 : FVec Ideal S128x128 .f32) (ix2 k j) = w (ix3 (2 : Fin 6) j k) := by
  refine (transpose_apply [1, 0] _ transposes_S128x128_S128x128_1_0 (ix2 k j) (ix2 j k) (fun c => match c with
    | ⟨0, _⟩ => rfl
    | ⟨1, _⟩ => rfl)).trans ?_
  exact slabE0_2_apply w j k

/-- The relation's row of a stack of six bias vectors, broadcast along the rows: entry `(i, j)` is the row's entry `j` in the stack. -/
theorem biasRowE0_2_apply (v : FVec Ideal S6x128 .f32) (i : Fin 5000) (j : Fin 128) :
    (broadcastInDim S5000x128 ![0, 1] bcast_S1x128_S5000x128_0_1 (broadcastInDim S1x128 ![1] bcast_S128_S1x128_1
      (shapeCast S128 (extractStridedSlice S1x128 ![2, 0] v slices_S6x128_S1x128_2_0) shapeCasts_S1x128_S128)) : FVec Ideal S5000x128 .f32) (ix2 i j)
      = v (ix2 (2 : Fin 6) j) := by
  refine (broadcastInDim_apply _ bcast_S1x128_S5000x128_0_1 _ (ix2 i j) (ix2 (0 : Fin 1) j) (fun c => match c with
    | ⟨0, _⟩ => by show 0 = if (1 : Nat) = 1 then 0 else i.val; rw [if_pos rfl]
    | ⟨1, _⟩ => by show j.val = if (128 : Nat) = 1 then 0 else j.val; rw [if_neg (by decide)])).trans ?_
  refine (broadcastInDim_apply _ bcast_S128_S1x128_1 _ (ix2 (0 : Fin 1) j) (ix1 j) (fun c => match c with
    | ⟨0, _⟩ => by show j.val = if (128 : Nat) = 1 then 0 else j.val; rw [if_neg (by decide)])).trans ?_
  refine (shapeCast_apply _ shapeCasts_S1x128_S128 (ix1 j) (ix2 (0 : Fin 1) j) ?_).trans ?_
  · rw [Shape.rowMajor_val_two, Shape.rowMajor_val_one]
    show 0 * 128 + j.val = j.val
    omega
  · exact extractStridedSlice_apply ![2, 0] v slices_S6x128_S1x128_2_0 (ix2 (0 : Fin 1) j) (ix2 (2 : Fin 6) j)
      (fun c => match c with
        | ⟨0, _⟩ => by show 2 = 2 + 0; rfl
        | ⟨1, _⟩ => by show j.val = 0 + j.val; omega)

/-! ## A product with a 128 × 128 matrix, read at an index -/

theorem lhsE0_2_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch from List.not_mem_nil), dif_pos (show (0 : Fin S5000x128.rank) ∈ dot_S5000x128_S128x128_S5000x128_1_0_0_1_n_n.lhsNonContracting from List.mem_singleton.mpr rfl)]
  rfl
theorem lhsE0_2_1 (i : S5000x128.Idx) (q : dot_S5000x128_S128x128_S5000x128_1_0_0_1_n_n.contr.Idx) :
    (dot_S5000x128_S128x128_S5000x128_1_0_0_1_n_n.lhsIdx i q 1).val = (q ⟨0, Nat.one_pos⟩).val :=
  dot_S5000x128_S128x128_S5000x128_1_0_0_1_n_n.lhsIdx_val_of_single rfl i q
theorem rhsE0_2_0 (i : S5000x128.Idx) (q : dot_S5000x128_S128x128_S5000x128_1_0_0_1_n_n.contr.Idx) :
    (dot_S5000x128_S128x128_S5000x128_1_0_0_1_n_n.rhsIdx i q 0).val = (q ⟨0, Nat.one_pos⟩).val :=
  dot_S5000x128_S128x128_S5000x128_1_0_0_1_n_n.rhsIdx_val_of_single rfl i q
theorem rhsE0_2_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch from List.not_mem_nil), dif_pos (show (1 : Fin S128x128.rank) ∈ dot_S5000x128_S128x128_S5000x128_1_0_0_1_n_n.rhsNonContracting from List.mem_singleton.mpr rfl)]
  rfl

/-- Rows times a matrix, contracting the 128 features: entry `(i, j)` is the sum over `k` of `l (i, k) * r (k, j)`. -/
theorem dotE0_2_apply (l : FVec Ideal S5000x128 .f32) (r : FVec Ideal S128x128 .f32) (i : Fin 5000) (j : Fin 128) :
    Host.dotGeneral (F := Ideal) dot_S5000x128_S128x128_S5000x128_1_0_0_1_n_n none l r (ix2 i j) = ∑ k : Fin 128, l (ix2 i k) * r (ix2 k j) := by
  simp only [Host.dotGeneral]
  rw [Ideal.dotGeneral_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 i j) ((ValueIdx.contrEquiv1 dot_S5000x128_S128x128_S5000x128_1_0_0_1_n_n 128 rfl rfl).symm k) = ix2 i k := funext fun a => Fin.ext (by
    match a with
    | ⟨0, _⟩ => exact lhsE0_2_0 _ _
    | ⟨1, _⟩ => exact (lhsE0_2_1 _ _).trans hk)
  have er : dot_S5000x128_S128x128_S5000x128_1_0_0_1_n_n.rhsIdx (ix2 i j) ((ValueIdx.contrEquiv1 dot_S5000x128_S128x128_S5000x128_1_0_0_1_n_n 128 rfl rfl).symm k) = ix2 k j := funext fun a => Fin.ext (by
    match a with
    | ⟨0, _⟩ => exact (rhsE0_2_0 _ _).trans hk
    | ⟨1, _⟩ => exact rhsE0_2_1 _ _)
  rw [el, er]

/-! ## The relation's output from the mean message -/

/-- The relation's output as the program composes it: the mean message times the transposed left slab, plus the bias
    row, plus the node features times the transposed right slab. -/
def relOutE0_2 {F : FTy → Type} [FloatOps F] (msg x : FVec F S5000x128 .f32) (wl wr : FVec F S6x128x128 .f32)
    (bl : FVec F S6x128 .f32) : FVec F S5000x128 .f32 :=
  addf (addf (Host.dotGeneral dot_S5000x128_S128x128_S5000x128_1_0_0_1_n_n none msg (transpose S128x128 [1, 0] (shapeCast S128x128 (extractStridedSlice S1x128x128 ![2, 0, 0] wl slices_S6x128x128_S1x128x128_2_0_0) shapeCasts_S1x128x128_S128x128) transposes_S128x128_S128x128_1_0))
      (broadcastInDim S5000x128 ![0, 1] bcast_S1x128_S5000x128_0_1 (broadcastInDim S1x128 ![1] bcast_S128_S1x128_1 (shapeCast S128 (extractStridedSlice S1x128 ![2, 0] bl slices_S6x128_S1x128_2_0) shapeCasts_S1x128_S128))))
    (Host.dotGeneral dot_S5000x128_S128x128_S5000x128_1_0_0_1_n_n none x (transpose S128x128 [1, 0] (shapeCast S128x128 (extractStridedSlice S1x128x128 ![2, 0, 0] wr slices_S6x128x128_S1x128x128_2_0_0) shapeCasts_S1x128x128_S128x128) transposes_S128x128_S128x128_1_0))

/-- Read at row `i` and feature `j`, it is the relation's law on the two rows. -/
theorem relOutE0_2_apply (msg x : FVec Ideal S5000x128 .f32) (wl wr : FVec Ideal S6x128x128 .f32) (bl : FVec Ideal S6x128 .f32)
    (i : Fin 5000) (j : Fin 128) :
    relOutE0_2 msg x wl wr bl (ix2 i j)
      = Cert.Spec.sage (fun k => msg (ix2 i k)) (fun k => x (ix2 i k)) (fun k j => wl (ix3 (2 : Fin 6) j k))
          (fun k j => wr (ix3 (2 : Fin 6) j k)) (fun j => bl (ix2 (2 : Fin 6) j)) j := by
  unfold relOutE0_2 Cert.Spec.sage
  rw [addf_apply, addf_apply, dotE0_2_apply, dotE0_2_apply, biasRowE0_2_apply]
  refine congrArg₂ (· + ·) (congrArg (· + bl (ix2 (2 : Fin 6) j)) (Finset.sum_congr rfl fun k _ => ?_)) (Finset.sum_congr rfl fun k _ => ?_)
  · exact congrArg (msg (ix2 i k) * ·) (slabTE0_2_apply wl k j)
  · exact congrArg (x (ix2 i k) * ·) (slabTE0_2_apply wr k j)

/-! ## The stretch -/

set_option maxHeartbeats 1000000 in
/-- After the stretch, the output buffer holds the relation's composition of the mean message buffer, the node
    features and the stacked weights the stretch reads. -/
theorem stageE0_2_eq {F : FTy → Type} [FloatOps F] (W : Valuation τ sig (Elt F)) :
    (after (cE0_2 (F := F)) W (Proc.devRef .tc main_v131) : FVec F S5000x128 .f32)
      = relOutE0_2 (after (cE0_2 (F := F)) W (Proc.devRef .tc main_v123)) (W (Proc.devRef .tc main_v14))
          (W (Proc.devRef .tc main_v16)) (W (Proc.devRef .tc main_v20)) (W (Proc.devRef .tc main_v18)) := by
  simp only [cE0_2]
  after_results_simp <;> rfl

/-- The stretch's output at row `i` and feature `j` is the relation's law on row `i` of the mean message and of the
    node features, with the relation's slabs of the stacked weights read transposed. -/
theorem stageE0_2_apply (W : Valuation τ sig (Elt Ideal)) (i : Fin 5000) (j : Fin 128) :
    (after cE0_2 W (Proc.devRef .tc main_v131) : Vec Ideal S5000x128 .f32) (ix2 i j)
      = Cert.Spec.sage (fun k => (after cE0_2 W (Proc.devRef .tc main_v123) : Vec Ideal S5000x128 .f32) (ix2 i k))
          (fun k => (W (Proc.devRef .tc main_v14) : Vec Ideal S5000x128 .f32) (ix2 i k))
          (fun k j => (W (Proc.devRef .tc main_v16) : Vec Ideal S6x128x128 .f32) (ix3 (2 : Fin 6) j k))
          (fun k j => (W (Proc.devRef .tc main_v20) : Vec Ideal S6x128x128 .f32) (ix3 (2 : Fin 6) j k))
          (fun j => (W (Proc.devRef .tc main_v18) : Vec Ideal S6x128 .f32) (ix2 (2 : Fin 6) j)) j :=
  (congrFun (stageE0_2_eq (F := Ideal) W) (ix2 i j)).trans (relOutE0_2_apply _ _ _ _ _ i j)

end Cert.ReferenceIdeal.Stage

end
-- ==== Proof.RStageE0_4.lean ====
/-
  One relation of the first layer, read at a row and a feature.

  The stretch slices the layer's stacked weights at the relation's position (a 128 × 128 left matrix, a bias row of 128, a
  128 × 128 right matrix), forms the mean message of every destination node from its neighbours' features, and returns
  message · leftᵀ + bias + features · rightᵀ, each product contracting the 128 features. Here the mean message stays an
  unopened array: the result at row `i` and feature `j` is `Cert.Spec.sage` of row `i` of the mean message, row `i` of
  the node features, and the relation's slabs of the stacked weights read transposed (entry `(k, j)` of a factor is
  entry `(j, k)` of the relation's slab of its stack).
-/
import proofs.«159317_j31121333027532_1_alg».proof.Proof.RefChunks
import proofs.«159317_j31121333027532_1_alg».proof.Proof.Spec
import Idealize.ShloMosaic.Lib.Pipeline.Value
import Idealize.ShloMosaic.Lib.ValueIdx
import Idealize.ShloMosaic.PureOps.Ideal.Laws

noncomputable section

namespace Cert.ReferenceIdeal.Stage

open Cert.ReferenceIdeal Cert.ReferenceIdeal.Gen Cert.ReferenceIdeal.Chunks Idealize.ShloMosaic Idealize.ShloMosaic.StableHlo Idealize.ShloMosaic.ValueIdx

/-! ## The layer's weights of one relation, read at an index -/

/-- The relation's slab of a stack of six 128 × 128 matrices, flattened to a matrix: its entry `(a, b)` is the slab's entry `(a, b)` in the stack. -/
theorem slabE0_4_apply (w : FVec Ideal S6x128x128 .f32) (a b : Fin 128) :
    (shapeCast S128x128 (extractStridedSlice S1x128x128 ![4, 0, 0] w slices_S6x128x128_S1x128x128_4_0_0)
      shapeCasts_S1x128x128_S128x128 : FVec Ideal S128x128 .f32) (ix2 a b) = w (ix3 (4 : Fin 6) a b) := by
  refine (shapeCast_apply _ shapeCasts_S1x128x128_S128x128 (ix2 a b) (ix3 (0 : Fin 1) a b) ?_).trans ?_
  · rw [Shape.rowMajor_val_three, Shape.rowMajor_val_two]
    show (0 * 128 + a.val) * 128 + b.val = a.val * 128 + b.val
    omega
  · exact extractStridedSlice_apply ![4, 0, 0] w slices_S6x128x128_S1x128x128_4_0_0 (ix3 (0 : Fin 1) a b) (ix3 (4 : Fin 6) a b)
      (fun c => match c with
        | ⟨0, _⟩ => by show 4 = 4 + 0; rfl
        | ⟨1, _⟩ => by show a.val = 0 + a.val; omega
        | ⟨2, _⟩ => by show b.val = 0 + b.val; omega)

/-- The transposed slab: entry `(k, j)` is the slab's entry `(j, k)` in the stack. -/
theorem slabTE0_4_apply (w : FVec Ideal S6x128x128 .f32) (k j : Fin 128) :
    (transpose S128x128 [1, 0] (shapeCast S128x128 (extractStridedSlice S1x128x128 ![4, 0, 0] w slices_S6x128x128_S1x128x128_4_0_0)
      shapeCasts_S1x128x128_S128x128) transposes_S128x128_S128x128_1_0 : FVec Ideal S128x128 .f32) (ix2 k j) = w (ix3 (4 : Fin 6) j k) := by
  refine (transpose_apply [1, 0] _ transposes_S128x128_S128x128_1_0 (ix2 k j) (ix2 j k) (fun c => match c with
    | ⟨0, _⟩ => rfl
    | ⟨1, _⟩ => rfl)).trans ?_
  exact slabE0_4_apply w j k

/-- The relation's row of a stack of six bias vectors, broadcast along the rows: entry `(i, j)` is the row's entry `j` in the stack. -/
theorem biasRowE0_4_apply (v : FVec Ideal S6x128 .f32) (i : Fin 5000) (j : Fin 128) :
    (broadcastInDim S5000x128 ![0, 1] bcast_S1x128_S5000x128_0_1 (broadcastInDim S1x128 ![1] bcast_S128_S1x128_1
      (shapeCast S128 (extractStridedSlice S1x128 ![4, 0] v slices_S6x128_S1x128_4_0) shapeCasts_S1x128_S128)) : FVec Ideal S5000x128 .f32) (ix2 i j)
      = v (ix2 (4 : Fin 6) j) := by
  refine (broadcastInDim_apply _ bcast_S1x128_S5000x128_0_1 _ (ix2 i j) (ix2 (0 : Fin 1) j) (fun c => match c with
    | ⟨0, _⟩ => by show 0 = if (1 : Nat) = 1 then 0 else i.val; rw [if_pos rfl]
    | ⟨1, _⟩ => by show j.val = if (128 : Nat) = 1 then 0 else j.val; rw [if_neg (by decide)])).trans ?_
  refine (broadcastInDim_apply _ bcast_S128_S1x128_1 _ (ix2 (0 : Fin 1) j) (ix1 j) (fun c => match c with
    | ⟨0, _⟩ => by show j.val = if (128 : Nat) = 1 then 0 else j.val; rw [if_neg (by decide)])).trans ?_
  refine (shapeCast_apply _ shapeCasts_S1x128_S128 (ix1 j) (ix2 (0 : Fin 1) j) ?_).trans ?_
  · rw [Shape.rowMajor_val_two, Shape.rowMajor_val_one]
    show 0 * 128 + j.val = j.val
    omega
  · exact extractStridedSlice_apply ![4, 0] v slices_S6x128_S1x128_4_0 (ix2 (0 : Fin 1) j) (ix2 (4 : Fin 6) j)
      (fun c => match c with
        | ⟨0, _⟩ => by show 4 = 4 + 0; rfl
        | ⟨1, _⟩ => by show j.val = 0 + j.val; omega)

/-! ## A product with a 128 × 128 matrix, read at an index -/

theorem lhsE0_4_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch from List.not_mem_nil), dif_pos (show (0 : Fin S5000x128.rank) ∈ dot_S5000x128_S128x128_S5000x128_1_0_0_1_n_n.lhsNonContracting from List.mem_singleton.mpr rfl)]
  rfl
theorem lhsE0_4_1 (i : S5000x128.Idx) (q : dot_S5000x128_S128x128_S5000x128_1_0_0_1_n_n.contr.Idx) :
    (dot_S5000x128_S128x128_S5000x128_1_0_0_1_n_n.lhsIdx i q 1).val = (q ⟨0, Nat.one_pos⟩).val :=
  dot_S5000x128_S128x128_S5000x128_1_0_0_1_n_n.lhsIdx_val_of_single rfl i q
theorem rhsE0_4_0 (i : S5000x128.Idx) (q : dot_S5000x128_S128x128_S5000x128_1_0_0_1_n_n.contr.Idx) :
    (dot_S5000x128_S128x128_S5000x128_1_0_0_1_n_n.rhsIdx i q 0).val = (q ⟨0, Nat.one_pos⟩).val :=
  dot_S5000x128_S128x128_S5000x128_1_0_0_1_n_n.rhsIdx_val_of_single rfl i q
theorem rhsE0_4_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch from List.not_mem_nil), dif_pos (show (1 : Fin S128x128.rank) ∈ dot_S5000x128_S128x128_S5000x128_1_0_0_1_n_n.rhsNonContracting from List.mem_singleton.mpr rfl)]
  rfl

/-- Rows times a matrix, contracting the 128 features: entry `(i, j)` is the sum over `k` of `l (i, k) * r (k, j)`. -/
theorem dotE0_4_apply (l : FVec Ideal S5000x128 .f32) (r : FVec Ideal S128x128 .f32) (i : Fin 5000) (j : Fin 128) :
    Host.dotGeneral (F := Ideal) dot_S5000x128_S128x128_S5000x128_1_0_0_1_n_n none l r (ix2 i j) = ∑ k : Fin 128, l (ix2 i k) * r (ix2 k j) := by
  simp only [Host.dotGeneral]
  rw [Ideal.dotGeneral_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 i j) ((ValueIdx.contrEquiv1 dot_S5000x128_S128x128_S5000x128_1_0_0_1_n_n 128 rfl rfl).symm k) = ix2 i k := funext fun a => Fin.ext (by
    match a with
    | ⟨0, _⟩ => exact lhsE0_4_0 _ _
    | ⟨1, _⟩ => exact (lhsE0_4_1 _ _).trans hk)
  have er : dot_S5000x128_S128x128_S5000x128_1_0_0_1_n_n.rhsIdx (ix2 i j) ((ValueIdx.contrEquiv1 dot_S5000x128_S128x128_S5000x128_1_0_0_1_n_n 128 rfl rfl).symm k) = ix2 k j := funext fun a => Fin.ext (by
    match a with
    | ⟨0, _⟩ => exact (rhsE0_4_0 _ _).trans hk
    | ⟨1, _⟩ => exact rhsE0_4_1 _ _)
  rw [el, er]

/-! ## The relation's output from the mean message -/

/-- The relation's output as the program composes it: the mean message times the transposed left slab, plus the bias
    row, plus the node features times the transposed right slab. -/
def relOutE0_4 {F : FTy → Type} [FloatOps F] (msg x : FVec F S5000x128 .f32) (wl wr : FVec F S6x128x128 .f32)
    (bl : FVec F S6x128 .f32) : FVec F S5000x128 .f32 :=
  addf (addf (Host.dotGeneral dot_S5000x128_S128x128_S5000x128_1_0_0_1_n_n none msg (transpose S128x128 [1, 0] (shapeCast S128x128 (extractStridedSlice S1x128x128 ![4, 0, 0] wl slices_S6x128x128_S1x128x128_4_0_0) shapeCasts_S1x128x128_S128x128) transposes_S128x128_S128x128_1_0))
      (broadcastInDim S5000x128 ![0, 1] bcast_S1x128_S5000x128_0_1 (broadcastInDim S1x128 ![1] bcast_S128_S1x128_1 (shapeCast S128 (extractStridedSlice S1x128 ![4, 0] bl slices_S6x128_S1x128_4_0) shapeCasts_S1x128_S128))))
    (Host.dotGeneral dot_S5000x128_S128x128_S5000x128_1_0_0_1_n_n none x (transpose S128x128 [1, 0] (shapeCast S128x128 (extractStridedSlice S1x128x128 ![4, 0, 0] wr slices_S6x128x128_S1x128x128_4_0_0) shapeCasts_S1x128x128_S128x128) transposes_S128x128_S128x128_1_0))

/-- Read at row `i` and feature `j`, it is the relation's law on the two rows. -/
theorem relOutE0_4_apply (msg x : FVec Ideal S5000x128 .f32) (wl wr : FVec Ideal S6x128x128 .f32) (bl : FVec Ideal S6x128 .f32)
    (i : Fin 5000) (j : Fin 128) :
    relOutE0_4 msg x wl wr bl (ix2 i j)
      = Cert.Spec.sage (fun k => msg (ix2 i k)) (fun k => x (ix2 i k)) (fun k j => wl (ix3 (4 : Fin 6) j k))
          (fun k j => wr (ix3 (4 : Fin 6) j k)) (fun j => bl (ix2 (4 : Fin 6) j)) j := by
  unfold relOutE0_4 Cert.Spec.sage
  rw [addf_apply, addf_apply, dotE0_4_apply, dotE0_4_apply, biasRowE0_4_apply]
  refine congrArg₂ (· + ·) (congrArg (· + bl (ix2 (4 : Fin 6) j)) (Finset.sum_congr rfl fun k _ => ?_)) (Finset.sum_congr rfl fun k _ => ?_)
  · exact congrArg (msg (ix2 i k) * ·) (slabTE0_4_apply wl k j)
  · exact congrArg (x (ix2 i k) * ·) (slabTE0_4_apply wr k j)

/-! ## The stretch -/

set_option maxHeartbeats 1000000 in
/-- After the stretch, the output buffer holds the relation's composition of the mean message buffer, the node
    features and the stacked weights the stretch reads. -/
theorem stageE0_4_eq {F : FTy → Type} [FloatOps F] (W : Valuation τ sig (Elt F)) :
    (after (cE0_4 (F := F)) W (Proc.devRef .tc main_v205) : FVec F S5000x128 .f32)
      = relOutE0_4 (after (cE0_4 (F := F)) W (Proc.devRef .tc main_v197)) (W (Proc.devRef .tc main_v14))
          (W (Proc.devRef .tc main_v16)) (W (Proc.devRef .tc main_v20)) (W (Proc.devRef .tc main_v18)) := by
  simp only [cE0_4]
  after_results_simp <;> rfl

/-- The stretch's output at row `i` and feature `j` is the relation's law on row `i` of the mean message and of the
    node features, with the relation's slabs of the stacked weights read transposed. -/
theorem stageE0_4_apply (W : Valuation τ sig (Elt Ideal)) (i : Fin 5000) (j : Fin 128) :
    (after cE0_4 W (Proc.devRef .tc main_v205) : Vec Ideal S5000x128 .f32) (ix2 i j)
      = Cert.Spec.sage (fun k => (after cE0_4 W (Proc.devRef .tc main_v197) : Vec Ideal S5000x128 .f32) (ix2 i k))
          (fun k => (W (Proc.devRef .tc main_v14) : Vec Ideal S5000x128 .f32) (ix2 i k))
          (fun k j => (W (Proc.devRef .tc main_v16) : Vec Ideal S6x128x128 .f32) (ix3 (4 : Fin 6) j k))
          (fun k j => (W (Proc.devRef .tc main_v20) : Vec Ideal S6x128x128 .f32) (ix3 (4 : Fin 6) j k))
          (fun j => (W (Proc.devRef .tc main_v18) : Vec Ideal S6x128 .f32) (ix2 (4 : Fin 6) j)) j :=
  (congrFun (stageE0_4_eq (F := Ideal) W) (ix2 i j)).trans (relOutE0_4_apply _ _ _ _ _ i j)

end Cert.ReferenceIdeal.Stage

end
-- ==== Proof.Layer0s.lean ====
/-
  Layer 0, node type 2 (5000 nodes): after the kernel program's pallas_call 2 and after the reference's stage of
  that node type, the node features are the same array. Row by row both are the row formula: on the kernel side of
  the blocks the pallas_call wrote back, on the reference side of the two relation outputs and the normalisation
  stage; the rows that go in agree — the neighbour means and the nodes' own features by the shared host operations,
  the weights, biases and normalisation parameters as the same entries of the arguments.
-/
import proofs.«159317_j31121333027532_1_alg».proof.Proof.KReg2
import proofs.«159317_j31121333027532_1_alg».proof.Proof.KBody2
import proofs.«159317_j31121333027532_1_alg».proof.Proof.KWin
import proofs.«159317_j31121333027532_1_alg».proof.Proof.RStageS0s
import proofs.«159317_j31121333027532_1_alg».proof.Proof.RStageE0_2
import proofs.«159317_j31121333027532_1_alg».proof.Proof.RStageE0_4
import proofs.«159317_j31121333027532_1_alg».proof.Proof.RWt
import proofs.«159317_j31121333027532_1_alg».proof.Proof.GlueHost
import proofs.«159317_j31121333027532_1_alg».proof.Proof.SpecCongr

noncomputable section

namespace Cert.Glue

open Idealize.ShloMosaic Idealize.ShloMosaic.TcCoe Idealize.SL.Sem Idealize.ShloMosaic.StableHlo Idealize.ShloMosaic.ValueIdx
open Cert.ReferenceIdeal.Chunks Cert.KernelIdeal.GenP

local notation:max "kb(" r ")" => Proc.devRef (τ := Cert.KernelIdeal.τ) (sig := Cert.KernelIdeal.sig) Proc.tc r
local notation:max "rb(" r ")" => Proc.devRef (τ := Cert.ReferenceIdeal.τ) (sig := Cert.ReferenceIdeal.sig) Proc.tc r

variable (m : (ℓ : Loc Cert.KernelIdeal.nD Cert.KernelIdeal.τ Cert.KernelIdeal.sig) → Buf (Elt Ideal) ℓ)
  (ρ : Dev Cert.KernelIdeal.nD → PrngReg) (c : Dev Cert.KernelIdeal.nD)
  (V : Valuation Cert.ReferenceIdeal.τ Cert.ReferenceIdeal.sig (Elt Ideal))

set_option maxHeartbeats 8000000 in
/-- The 5000 x 128 node features after layer 0: the reference's array is the kernel program's. -/
theorem X1s (hA : Agree m c V) :
    R11 V rb(Cert.ReferenceIdeal.main_v338) = W6 m ρ c kb(Cert.KernelIdeal.main_v211) := by
  have hA' := hA
  obtain ⟨h0, h1, h2, h3, h4, h5, h6, h7, h8, h9, h10, h11, h12, h13, h14, h15, h16, h17, h18, h19⟩ := hA'
  refine funext fun (idx : Cert.KernelIdeal.S5000x128.Idx) => ?_
  obtain ⟨i, j, rfl⟩ : ∃ (i : Fin 5000) (j : Fin 128), idx = ix2 i j := ⟨idx 0, idx 1, eq_ix2 idx⟩
  -- the reference's stage at (i, j), and the kernel program's array at (i, j)
  refine ((Cert.ReferenceIdeal.Stage.stageS0_s_apply (R10 V) i j).trans ?_).trans
    ((congrFun (W6_arr m ρ c 11) (ix2 i j)).trans
      (Cert.KernelIdeal.Val.region2_apply (fun x0 x1 x2 x3 x4 x5 x6 x7 x8 x9 x10 p q => Cert.KernelIdeal.Val.body2_apply x0 x1 x2 x3 x4 x5 x6 x7 x8 x9 x10 p q) (V5 m ρ) c i j)).symm
  rw [Cert.Spec.row_eq]
  refine Cert.Spec.lnrelu_congr (funext fun j' => ?_) (funext fun j' => ?_) (funext fun j' => ?_) j
  · -- the two relations' outputs at (i, j')
    have ho1 : (R10 V rb(Cert.ReferenceIdeal.main_v131)) (ix2 i j') = _ :=
      (congrFun (Cert.ReferenceIdeal.Stage.carry_main_v131_5_10 V) (ix2 i j')).trans (Cert.ReferenceIdeal.Stage.stageE0_2_apply (R4 V) i j')
    have ho2 : (R10 V rb(Cert.ReferenceIdeal.main_v205)) (ix2 i j') = _ :=
      (congrFun (Cert.ReferenceIdeal.Stage.carry_main_v205_7_10 V) (ix2 i j')).trans (Cert.ReferenceIdeal.Stage.stageE0_4_apply (R6 V) i j')
    refine (congrArg₂ (HAdd.hAdd (α := EReal) (β := EReal) (γ := EReal)) ho1 ho2).trans ?_
    refine congrArg₂ (HAdd.hAdd (α := EReal) (β := EReal) (γ := EReal)) (Cert.Spec.sage_congr ?_ ?_ ?_ ?_ ?_ j') (Cert.Spec.sage_congr ?_ ?_ ?_ ?_ ?_ j')
    · -- the neighbour mean of relation 2
      funext k; exact congrFun ((M0_2 m ρ c V hA).trans (Cert.KernelIdeal.Carry.carry_v91_1_5 m ρ c).symm) (ix2 i k)
    · -- the node's own features
      funext k; exact congrFun ((Cert.ReferenceIdeal.Stage.carry_main_v14_1_4 V).trans ((X0s m ρ c V hA).trans (Cert.KernelIdeal.Carry.carry_v14_1_5 m ρ c).symm)) (ix2 i k)
    · funext k j''; exact ((Cert.ReferenceIdeal.Stage.rwt0_2_wl V j'' k).trans (congrFun h15 _)).trans (Cert.KernelIdeal.Val.kwin2_wl1 m ρ c k j'').symm
    · funext k j''; exact ((Cert.ReferenceIdeal.Stage.rwt0_2_wr V j'' k).trans (congrFun h17 _)).trans (Cert.KernelIdeal.Val.kwin2_wr1 m ρ c k j'').symm
    · funext j''; exact ((Cert.ReferenceIdeal.Stage.rwt0_2_bl V j'').trans (congrFun h16 _)).trans (Cert.KernelIdeal.Val.kwin2_bl1 m ρ c j'').symm
    · -- the neighbour mean of relation 4
      funext k; exact congrFun ((M0_4 m ρ c V hA).trans (Cert.KernelIdeal.Carry.carry_v137_1_5 m ρ c).symm) (ix2 i k)
    · -- the node's own features
      funext k; exact congrFun ((Cert.ReferenceIdeal.Stage.carry_main_v14_1_6 V).trans ((X0s m ρ c V hA).trans (Cert.KernelIdeal.Carry.carry_v14_1_5 m ρ c).symm)) (ix2 i k)
    · funext k j''; exact ((Cert.ReferenceIdeal.Stage.rwt0_4_wl V j'' k).trans (congrFun h15 _)).trans (Cert.KernelIdeal.Val.kwin2_wl2 m ρ c k j'').symm
    · funext k j''; exact ((Cert.ReferenceIdeal.Stage.rwt0_4_wr V j'' k).trans (congrFun h17 _)).trans (Cert.KernelIdeal.Val.kwin2_wr2 m ρ c k j'').symm
    · funext j''; exact ((Cert.ReferenceIdeal.Stage.rwt0_4_bl V j'').trans (congrFun h16 _)).trans (Cert.KernelIdeal.Val.kwin2_bl2 m ρ c j'').symm
  · -- the scale
    exact ((Cert.ReferenceIdeal.Stage.rpar0_2_g V j').trans (congrFun h18 _)).trans (Cert.KernelIdeal.Val.kwin2_g m ρ c j').symm
  · -- the shift
    exact ((Cert.ReferenceIdeal.Stage.rpar0_2_b V j').trans (congrFun h19 _)).trans (Cert.KernelIdeal.Val.kwin2_b m ρ c j').symm

end Cert.Glue

end
-- ==== Proof.Layer1c.lean ====
/-
  Layer 1, node type 0 (100000 nodes): after the kernel program's pallas_call 3 and after the reference's stage of
  that node type, the node features are the same array. Row by row both are the row formula: on the kernel side of
  the blocks the pallas_call wrote back, on the reference side of the two relation outputs and the normalisation
  stage; the rows that go in agree — the neighbour means and the nodes' own features by the shared host operations,
  the weights, biases and normalisation parameters as the same entries of the arguments.
-/
import proofs.«159317_j31121333027532_1_alg».proof.Proof.KReg3
import proofs.«159317_j31121333027532_1_alg».proof.Proof.KBody3
import proofs.«159317_j31121333027532_1_alg».proof.Proof.KWin
import proofs.«159317_j31121333027532_1_alg».proof.Proof.RStageS1c
import proofs.«159317_j31121333027532_1_alg».proof.Proof.RStageE1_1
import proofs.«159317_j31121333027532_1_alg».proof.Proof.RStageE1_3
import proofs.«159317_j31121333027532_1_alg».proof.Proof.RWt
import proofs.«159317_j31121333027532_1_alg».proof.Proof.GlueHost
import proofs.«159317_j31121333027532_1_alg».proof.Proof.SpecCongr
import proofs.«159317_j31121333027532_1_alg».proof.Proof.Layer0c
import proofs.«159317_j31121333027532_1_alg».proof.Proof.Layer0p
import proofs.«159317_j31121333027532_1_alg».proof.Proof.Layer0s

noncomputable section

namespace Cert.Glue

open Idealize.ShloMosaic Idealize.ShloMosaic.TcCoe Idealize.SL.Sem Idealize.ShloMosaic.StableHlo Idealize.ShloMosaic.ValueIdx
open Cert.ReferenceIdeal.Chunks Cert.KernelIdeal.GenP

local notation:max "kb(" r ")" => Proc.devRef (τ := Cert.KernelIdeal.τ) (sig := Cert.KernelIdeal.sig) Proc.tc r
local notation:max "rb(" r ")" => Proc.devRef (τ := Cert.ReferenceIdeal.τ) (sig := Cert.ReferenceIdeal.sig) Proc.tc r

variable (m : (ℓ : Loc Cert.KernelIdeal.nD Cert.KernelIdeal.τ Cert.KernelIdeal.sig) → Buf (Elt Ideal) ℓ)
  (ρ : Dev Cert.KernelIdeal.nD → PrngReg) (c : Dev Cert.KernelIdeal.nD)
  (V : Valuation Cert.ReferenceIdeal.τ Cert.ReferenceIdeal.sig (Elt Ideal))

set_option maxHeartbeats 8000000 in
/-- The 100000 x 128 node features after layer 1: the reference's array is the kernel program's. -/
theorem X2c (hA : Agree m c V) :
    R19 V rb(Cert.ReferenceIdeal.main_v598) = W8 m ρ c kb(Cert.KernelIdeal.main_v374) := by
  have hA' := hA
  obtain ⟨h0, h1, h2, h3, h4, h5, h6, h7, h8, h9, h10, h11, h12, h13, h14, h15, h16, h17, h18, h19⟩ := hA'
  refine funext fun (idx : Cert.KernelIdeal.S100000x128.Idx) => ?_
  obtain ⟨i, j, rfl⟩ : ∃ (i : Fin 100000) (j : Fin 128), idx = ix2 i j := ⟨idx 0, idx 1, eq_ix2 idx⟩
  -- the reference's stage at (i, j), and the kernel program's array at (i, j)
  refine ((Cert.ReferenceIdeal.Stage.stageS1_c_apply (R18 V) i j).trans ?_).trans
    ((congrFun (W8_arr m ρ c 11) (ix2 i j)).trans
      (Cert.KernelIdeal.Val.region3_apply (fun x0 x1 x2 x3 x4 x5 x6 x7 x8 x9 x10 p q => Cert.KernelIdeal.Val.body3_apply x0 x1 x2 x3 x4 x5 x6 x7 x8 x9 x10 p q) (V7 m ρ) c i j)).symm
  rw [Cert.Spec.row_eq]
  refine Cert.Spec.lnrelu_congr (funext fun j' => ?_) (funext fun j' => ?_) (funext fun j' => ?_) j
  · -- the two relations' outputs at (i, j')
    have ho1 : (R18 V rb(Cert.ReferenceIdeal.main_v418)) (ix2 i j') = _ :=
      (congrFun (Cert.ReferenceIdeal.Stage.carry_main_v418_14_18 V) (ix2 i j')).trans (Cert.ReferenceIdeal.Stage.stageE1_1_apply (R13 V) i j')
    have ho2 : (R18 V rb(Cert.ReferenceIdeal.main_v492)) (ix2 i j') = _ :=
      (congrFun (Cert.ReferenceIdeal.Stage.carry_main_v492_16_18 V) (ix2 i j')).trans (Cert.ReferenceIdeal.Stage.stageE1_3_apply (R15 V) i j')
    refine (congrArg₂ (HAdd.hAdd (α := EReal) (β := EReal) (γ := EReal)) ho1 ho2).trans ?_
    refine congrArg₂ (HAdd.hAdd (α := EReal) (β := EReal) (γ := EReal)) (Cert.Spec.sage_congr ?_ ?_ ?_ ?_ ?_ j') (Cert.Spec.sage_congr ?_ ?_ ?_ ?_ ?_ j')
    · -- the neighbour mean of relation 1
      funext k; exact congrFun (M1_1 m ρ c V hA (X1p m ρ c V hA)) (ix2 i k)
    · -- the node's own features
      funext k; exact congrFun ((Cert.ReferenceIdeal.Stage.carry_main_v274_9_13 V).trans ((X1c m ρ c V hA).trans (Cert.KernelIdeal.Carry.carry_v177_2_7 m ρ c).symm)) (ix2 i k)
    · funext k j''; exact ((Cert.ReferenceIdeal.Stage.rwt1_1_wl V j'' k).trans (congrFun h15 _)).trans (Cert.KernelIdeal.Val.kwin3_wl1 m ρ c k j'').symm
    · funext k j''; exact ((Cert.ReferenceIdeal.Stage.rwt1_1_wr V j'' k).trans (congrFun h17 _)).trans (Cert.KernelIdeal.Val.kwin3_wr1 m ρ c k j'').symm
    · funext j''; exact ((Cert.ReferenceIdeal.Stage.rwt1_1_bl V j'').trans (congrFun h16 _)).trans (Cert.KernelIdeal.Val.kwin3_bl1 m ρ c j'').symm
    · -- the neighbour mean of relation 3
      funext k; exact congrFun (M1_3 m ρ c V hA (X1s m ρ c V hA)) (ix2 i k)
    · -- the node's own features
      funext k; exact congrFun ((Cert.ReferenceIdeal.Stage.carry_main_v274_9_15 V).trans ((X1c m ρ c V hA).trans (Cert.KernelIdeal.Carry.carry_v177_2_7 m ρ c).symm)) (ix2 i k)
    · funext k j''; exact ((Cert.ReferenceIdeal.Stage.rwt1_3_wl V j'' k).trans (congrFun h15 _)).trans (Cert.KernelIdeal.Val.kwin3_wl2 m ρ c k j'').symm
    · funext k j''; exact ((Cert.ReferenceIdeal.Stage.rwt1_3_wr V j'' k).trans (congrFun h17 _)).trans (Cert.KernelIdeal.Val.kwin3_wr2 m ρ c k j'').symm
    · funext j''; exact ((Cert.ReferenceIdeal.Stage.rwt1_3_bl V j'').trans (congrFun h16 _)).trans (Cert.KernelIdeal.Val.kwin3_bl2 m ρ c j'').symm
  · -- the scale
    exact ((Cert.ReferenceIdeal.Stage.rpar1_0_g V j').trans (congrFun h18 _)).trans (Cert.KernelIdeal.Val.kwin3_g m ρ c j').symm
  · -- the shift
    exact ((Cert.ReferenceIdeal.Stage.rpar1_0_b V j').trans (congrFun h19 _)).trans (Cert.KernelIdeal.Val.kwin3_b m ρ c j').symm

end Cert.Glue

end
-- ==== Proof.KReg4.lean ====
/-
  Region 4 of the kernel program, read as a value. The region's 25 grid points each take a block of 2000 rows of the
  three row arrays (and the whole weight matrices and vectors) to the same block of rows of the output array, every
  row by the row formula. The 25 blocks tile the 50000 rows, so after the region the output array holds at every
  row the row formula of that row, the body's payload at an index being the row formula (a hypothesis here).
-/
import proofs.«159317_j31121333027532_1_alg».proof.Proof.KIFrameReg4
import proofs.«159317_j31121333027532_1_alg».proof.Proof.Spec
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.GenP Idealize.ShloMosaic Idealize.ShloMosaic.TcCoe Idealize.ShloMosaic.ValueIdx
open Idealize.ShloMosaic.Pipeline (Dat)

/-- The body's payload at an index is the row formula (proved elsewhere). -/
def Body4 : Prop := ∀ (x0 x1 x2 : Vec Ideal S2000x128 .f32) (x3 x4 x5 x6 : Vec Ideal S128x128 .f32) (x7 x8 x9 x10 : Vec Ideal S128 .f32) (p : Fin 2000) (q : Fin 128),
    k4_pay1 (F := Ideal) (k4_pay2 (F := Ideal) x0 x1 x2 x3 x4 x5 x6 x7 x8) (Scalar.ofBits .f32 0x3F000000#32) x9 x10 (ix2 p q)
      = Cert.Spec.row (fun k => x0 (ix2 p k)) (fun k => x1 (ix2 p k)) (fun k => x2 (ix2 p k))
          (fun k j => x3 (ix2 k j)) (fun k j => x4 (ix2 k j)) (fun k j => x5 (ix2 k j)) (fun k j => x6 (ix2 k j))
          (fun j => x7 (ix1 j)) (fun j => x8 (ix1 j)) (fun j => x9 (ix1 j)) (fun j => x10 (ix1 j)) q

namespace Reg4

/-- Row r, feature q of the region's result, from the three row arrays, the four weight matrices and the four vectors. -/
def rowAt (a0 a1 a2 : Vec Ideal S50000x128 .f32) (a3 a4 a5 a6 : Vec Ideal S128x128 .f32) (a7 a8 a9 a10 : Vec Ideal S128 .f32)
    (r : Fin 50000) (q : Fin 128) : EReal :=
  Cert.Spec.row (fun k => a0 (ix2 r k)) (fun k => a1 (ix2 r k)) (fun k => a2 (ix2 r k))
    (fun k j => a3 (ix2 k j)) (fun k j => a4 (ix2 k j)) (fun k j => a5 (ix2 k j)) (fun k j => a6 (ix2 k j))
    (fun j => a7 (ix1 j)) (fun j => a8 (ix1 j)) (fun j => a9 (ix1 j)) (fun j => a10 (ix1 j)) q

/-- The region's result array: every row is the row formula of the same row of the row arrays. -/
def result (a0 a1 a2 : Vec Ideal S50000x128 .f32) (a3 a4 a5 a6 : Vec Ideal S128x128 .f32) (a7 a8 a9 a10 : Vec Ideal S128 .f32) :
    Vec Ideal S50000x128 .f32 :=
  fun i => rowAt a0 a1 a2 a3 a4 a5 a6 a7 a8 a9 a10 (i 0) (i 1)

/-- The result array at row r, feature q. -/
theorem result_apply (a0 a1 a2 : Vec Ideal S50000x128 .f32) (a3 a4 a5 a6 : Vec Ideal S128x128 .f32) (a7 a8 a9 a10 : Vec Ideal S128 .f32)
    (r : Fin 50000) (q : Fin 128) :
    result a0 a1 a2 a3 a4 a5 a6 a7 a8 a9 a10 (ix2 r q)
      = Cert.Spec.row (fun k => a0 (ix2 r k)) (fun k => a1 (ix2 r k)) (fun k => a2 (ix2 r k))
          (fun k j => a3 (ix2 k j)) (fun k j => a4 (ix2 k j)) (fun k j => a5 (ix2 k j)) (fun k j => a6 (ix2 k j))
          (fun j => a7 (ix1 j)) (fun j => a8 (ix1 j)) (fun j => a9 (ix1 j)) (fun j => a10 (ix1 j)) q := rfl

/-- The row formula respects equality of each of its eleven arguments. -/
theorem row_congr {m1 m1' m2 m2' x x' : Fin 128 → EReal} {wl1 wl1' wl2 wl2' wr1 wr1' wr2 wr2' : Fin 128 → Fin 128 → EReal}
    {bl1 bl1' bl2 bl2' g g' b b' : Fin 128 → EReal}
    (ha : m1 = m1') (hb : m2 = m2') (hc : x = x') (hd : wl1 = wl1') (he : wl2 = wl2') (hf : wr1 = wr1') (hg : wr2 = wr2')
    (hh : bl1 = bl1') (hi : bl2 = bl2') (hj : g = g') (hk : b = b') (q : Fin 128) :
    Cert.Spec.row m1 m2 x wl1 wl2 wr1 wr2 bl1 bl2 g b q = Cert.Spec.row m1' m2' x' wl1' wl2' wr1' wr2' bl1' bl2' g' b' q := by
  subst ha hb hc hd he hf hg hh hi hj hk; rfl

theorem zeros_two : (![0, 0] : Fin 2 → Nat) = fun _ => 0 := funext fun a => by fin_cases a <;> rfl
theorem zeros_one : (![0] : Fin 1 → Nat) = fun _ => 0 := funext fun a => by fin_cases a <;> rfl

/-- Window 0's block index at point t: row block t, lane block 0. -/
theorem idx_rowsA : ∀ t : Fin cfg4.N, win4_0.index t (0 : Fin 2) = t.val ∧ win4_0.index t (1 : Fin 2) = 0 :=
  (by decide +kernel : ∀ t : Fin grid4.N, win4_0.index t (0 : Fin 2) = t.val ∧ win4_0.index t (1 : Fin 2) = 0)
/-- Window 1's block index at point t: row block t, lane block 0. -/
theorem idx_rowsB : ∀ t : Fin cfg4.N, win4_1.index t (0 : Fin 2) = t.val ∧ win4_1.index t (1 : Fin 2) = 0 :=
  (by decide +kernel : ∀ t : Fin grid4.N, win4_1.index t (0 : Fin 2) = t.val ∧ win4_1.index t (1 : Fin 2) = 0)
/-- Window 2's block index at point t: row block t, lane block 0. -/
theorem idx_rowsC : ∀ t : Fin cfg4.N, win4_2.index t (0 : Fin 2) = t.val ∧ win4_2.index t (1 : Fin 2) = 0 :=
  (by decide +kernel : ∀ t : Fin grid4.N, win4_2.index t (0 : Fin 2) = t.val ∧ win4_2.index t (1 : Fin 2) = 0)
/-- Window 11's block index at point t: row block t, lane block 0. -/
theorem idx_out : ∀ t : Fin cfg4.N, win4_11.index t (0 : Fin 2) = t.val ∧ win4_11.index t (1 : Fin 2) = 0 :=
  (by decide +kernel : ∀ t : Fin grid4.N, win4_11.index t (0 : Fin 2) = t.val ∧ win4_11.index t (1 : Fin 2) = 0)
/-- Window 3's block index is zero on both axes at every point: the whole matrix. -/
theorem idx_matA : ∀ t : Fin cfg4.N, win4_3.index t (0 : Fin 2) = 0 ∧ win4_3.index t (1 : Fin 2) = 0 :=
  (by decide +kernel : ∀ t : Fin grid4.N, win4_3.index t (0 : Fin 2) = 0 ∧ win4_3.index t (1 : Fin 2) = 0)
/-- Window 4's block index is zero on both axes at every point: the whole matrix. -/
theorem idx_matB : ∀ t : Fin cfg4.N, win4_4.index t (0 : Fin 2) = 0 ∧ win4_4.index t (1 : Fin 2) = 0 :=
  (by decide +kernel : ∀ t : Fin grid4.N, win4_4.index t (0 : Fin 2) = 0 ∧ win4_4.index t (1 : Fin 2) = 0)
/-- Window 5's block index is zero on both axes at every point: the whole matrix. -/
theorem idx_matC : ∀ t : Fin cfg4.N, win4_5.index t (0 : Fin 2) = 0 ∧ win4_5.index t (1 : Fin 2) = 0 :=
  (by decide +kernel : ∀ t : Fin grid4.N, win4_5.index t (0 : Fin 2) = 0 ∧ win4_5.index t (1 : Fin 2) = 0)
/-- Window 6's block index is zero on both axes at every point: the whole matrix. -/
theorem idx_matD : ∀ t : Fin cfg4.N, win4_6.index t (0 : Fin 2) = 0 ∧ win4_6.index t (1 : Fin 2) = 0 :=
  (by decide +kernel : ∀ t : Fin grid4.N, win4_6.index t (0 : Fin 2) = 0 ∧ win4_6.index t (1 : Fin 2) = 0)
/-- Window 7's block index is zero at every point: the whole vector. -/
theorem idx_vecA : ∀ t : Fin cfg4.N, win4_7.index t (0 : Fin 1) = 0 :=
  (by decide +kernel : ∀ t : Fin grid4.N, win4_7.index t (0 : Fin 1) = 0)
/-- Window 8's block index is zero at every point: the whole vector. -/
theorem idx_vecB : ∀ t : Fin cfg4.N, win4_8.index t (0 : Fin 1) = 0 :=
  (by decide +kernel : ∀ t : Fin grid4.N, win4_8.index t (0 : Fin 1) = 0)
/-- Window 9's block index is zero at every point: the whole vector. -/
theorem idx_vecC : ∀ t : Fin cfg4.N, win4_9.index t (0 : Fin 1) = 0 :=
  (by decide +kernel : ∀ t : Fin grid4.N, win4_9.index t (0 : Fin 1) = 0)
/-- Window 10's block index is zero at every point: the whole vector. -/
theorem idx_vecD : ∀ t : Fin cfg4.N, win4_10.index t (0 : Fin 1) = 0 :=
  (by decide +kernel : ∀ t : Fin grid4.N, win4_10.index t (0 : Fin 1) = 0)

/-- The row blocks fill the rows exactly. -/
theorem rows_eq : cfg4.N * 2000 = 50000 := (by decide +kernel : grid4.N * 2000 = 50000)

/-- The array row of row p of the block at point t. -/
def rowOf (t : Fin cfg4.N) (p : Fin 2000) : Fin 50000 :=
  ⟨t.val * 2000 + p.val, by have h := rows_eq; have ht := t.isLt; have hp := p.isLt; omega⟩

variable (V : (c : Dev nD) → (b : Ref sig .tc) → Buf (Elt Ideal) ((c : Thread nD τ).loc b))

/-- Row p of window 0's block at point t is row t * 2000 + p of its array. -/
theorem rowsA_apply (c : Dev nD) (t : Fin cfg4.N) (p : Fin 2000) (k : Fin 128) :
    (iblk4 V c 0 t : Vec Ideal S2000x128 .f32) (ix2 p k) = (V c main_v242 : Vec Ideal S50000x128 .f32) (ix2 (rowOf t p) k) := by
  obtain ⟨ea, eb⟩ := idx_rowsA t
  unfold iblk4
  rw [View.read_apply]
  show (V c main_v242 : Vec Ideal S50000x128 .f32) (((cfg4.win 0).blk t).view.emb (ix2 p k)) = _
  refine congrArg (V c main_v242 : Vec Ideal S50000x128 .f32) ?_
  funext a
  apply Fin.ext
  match a with
  | ⟨0, _⟩ => show win4_0.index t (0 : Fin 2) * 2000 + 1 * p.val = t.val * 2000 + p.val; omega
  | ⟨1, _⟩ => show win4_0.index t (1 : Fin 2) * 128 + 1 * k.val = k.val; omega
/-- Row p of window 1's block at point t is row t * 2000 + p of its array. -/
theorem rowsB_apply (c : Dev nD) (t : Fin cfg4.N) (p : Fin 2000) (k : Fin 128) :
    (iblk4 V c 1 t : Vec Ideal S2000x128 .f32) (ix2 p k) = (V c main_v357 : Vec Ideal S50000x128 .f32) (ix2 (rowOf t p) k) := by
  obtain ⟨ea, eb⟩ := idx_rowsB t
  unfold iblk4
  rw [View.read_apply]
  show (V c main_v357 : Vec Ideal S50000x128 .f32) (((cfg4.win 1).blk t).view.emb (ix2 p k)) = _
  refine congrArg (V c main_v357 : Vec Ideal S50000x128 .f32) ?_
  funext a
  apply Fin.ext
  match a with
  | ⟨0, _⟩ => show win4_1.index t (0 : Fin 2) * 2000 + 1 * p.val = t.val * 2000 + p.val; omega
  | ⟨1, _⟩ => show win4_1.index t (1 : Fin 2) * 128 + 1 * k.val = k.val; omega
/-- Row p of window 2's block at point t is row t * 2000 + p of its array. -/
theorem rowsC_apply (c : Dev nD) (t : Fin cfg4.N) (p : Fin 2000) (k : Fin 128) :
    (iblk4 V c 2 t : Vec Ideal S2000x128 .f32) (ix2 p k) = (V c main_v194 : Vec Ideal S50000x128 .f32) (ix2 (rowOf t p) k) := by
  obtain ⟨ea, eb⟩ := idx_rowsC t
  unfold iblk4
  rw [View.read_apply]
  show (V c main_v194 : Vec Ideal S50000x128 .f32) (((cfg4.win 2).blk t).view.emb (ix2 p k)) = _
  refine congrArg (V c main_v194 : Vec Ideal S50000x128 .f32) ?_
  funext a
  apply Fin.ext
  match a with
  | ⟨0, _⟩ => show win4_2.index t (0 : Fin 2) * 2000 + 1 * p.val = t.val * 2000 + p.val; omega
  | ⟨1, _⟩ => show win4_2.index t (1 : Fin 2) * 128 + 1 * k.val = k.val; omega
/-- Window 3's block at any point is its whole matrix. -/
theorem matA_apply (c : Dev nD) (t : Fin cfg4.N) (k j : Fin 128) :
    (iblk4 V c 3 t : Vec Ideal S128x128 .f32) (ix2 k j) = (V c main_v376 : Vec Ideal S128x128 .f32) (ix2 k j) := by
  obtain ⟨ea, eb⟩ := idx_matA t
  unfold iblk4
  rw [View.read_apply]
  show (V c main_v376 : Vec Ideal S128x128 .f32) (((cfg4.win 3).blk t).view.emb (ix2 k j)) = _
  refine congrArg (V c main_v376 : Vec Ideal S128x128 .f32) ?_
  funext a
  apply Fin.ext
  match a with
  | ⟨0, _⟩ => show win4_3.index t (0 : Fin 2) * 128 + 1 * k.val = k.val; omega
  | ⟨1, _⟩ => show win4_3.index t (1 : Fin 2) * 128 + 1 * j.val = j.val; omega
/-- Window 4's block at any point is its whole matrix. -/
theorem matB_apply (c : Dev nD) (t : Fin cfg4.N) (k j : Fin 128) :
    (iblk4 V c 4 t : Vec Ideal S128x128 .f32) (ix2 k j) = (V c main_v378 : Vec Ideal S128x128 .f32) (ix2 k j) := by
  obtain ⟨ea, eb⟩ := idx_matB t
  unfold iblk4
  rw [View.read_apply]
  show (V c main_v378 : Vec Ideal S128x128 .f32) (((cfg4.win 4).blk t).view.emb (ix2 k j)) = _
  refine congrArg (V c main_v378 : Vec Ideal S128x128 .f32) ?_
  funext a
  apply Fin.ext
  match a with
  | ⟨0, _⟩ => show win4_4.index t (0 : Fin 2) * 128 + 1 * k.val = k.val; omega
  | ⟨1, _⟩ => show win4_4.index t (1 : Fin 2) * 128 + 1 * j.val = j.val; omega
/-- Window 5's block at any point is its whole matrix. -/
theorem matC_apply (c : Dev nD) (t : Fin cfg4.N) (k j : Fin 128) :
    (iblk4 V c 5 t : Vec Ideal S128x128 .f32) (ix2 k j) = (V c main_v380 : Vec Ideal S128x128 .f32) (ix2 k j) := by
  obtain ⟨ea, eb⟩ := idx_matC t
  unfold iblk4
  rw [View.read_apply]
  show (V c main_v380 : Vec Ideal S128x128 .f32) (((cfg4.win 5).blk t).view.emb (ix2 k j)) = _
  refine congrArg (V c main_v380 : Vec Ideal S128x128 .f32) ?_
  funext a
  apply Fin.ext
  match a with
  | ⟨0, _⟩ => show win4_5.index t (0 : Fin 2) * 128 + 1 * k.val = k.val; omega
  | ⟨1, _⟩ => show win4_5.index t (1 : Fin 2) * 128 + 1 * j.val = j.val; omega
/-- Window 6's block at any point is its whole matrix. -/
theorem matD_apply (c : Dev nD) (t : Fin cfg4.N) (k j : Fin 128) :
    (iblk4 V c 6 t : Vec Ideal S128x128 .f32) (ix2 k j) = (V c main_v382 : Vec Ideal S128x128 .f32) (ix2 k j) := by
  obtain ⟨ea, eb⟩ := idx_matD t
  unfold iblk4
  rw [View.read_apply]
  show (V c main_v382 : Vec Ideal S128x128 .f32) (((cfg4.win 6).blk t).view.emb (ix2 k j)) = _
  refine congrArg (V c main_v382 : Vec Ideal S128x128 .f32) ?_
  funext a
  apply Fin.ext
  match a with
  | ⟨0, _⟩ => show win4_6.index t (0 : Fin 2) * 128 + 1 * k.val = k.val; omega
  | ⟨1, _⟩ => show win4_6.index t (1 : Fin 2) * 128 + 1 * j.val = j.val; omega
/-- Window 7's block at any point is its whole vector. -/
theorem vecA_apply (c : Dev nD) (t : Fin cfg4.N) (j : Fin 128) :
    (iblk4 V c 7 t : Vec Ideal S128 .f32) (ix1 j) = (V c main_v384 : Vec Ideal S128 .f32) (ix1 j) := by
  have ea := idx_vecA t
  unfold iblk4
  rw [View.read_apply]
  show (V c main_v384 : Vec Ideal S128 .f32) (((cfg4.win 7).blk t).view.emb (ix1 j)) = _
  refine congrArg (V c main_v384 : Vec Ideal S128 .f32) ?_
  funext a
  apply Fin.ext
  match a with
  | ⟨0, _⟩ => show win4_7.index t (0 : Fin 1) * 128 + 1 * j.val = j.val; omega
/-- Window 8's block at any point is its whole vector. -/
theorem vecB_apply (c : Dev nD) (t : Fin cfg4.N) (j : Fin 128) :
    (iblk4 V c 8 t : Vec Ideal S128 .f32) (ix1 j) = (V c main_v386 : Vec Ideal S128 .f32) (ix1 j) := by
  have ea := idx_vecB t
  unfold iblk4
  rw [View.read_apply]
  show (V c main_v386 : Vec Ideal S128 .f32) (((cfg4.win 8).blk t).view.emb (ix1 j)) = _
  refine congrArg (V c main_v386 : Vec Ideal S128 .f32) ?_
  funext a
  apply Fin.ext
  match a with
  | ⟨0, _⟩ => show win4_8.index t (0 : Fin 1) * 128 + 1 * j.val = j.val; omega
/-- Window 9's block at any point is its whole vector. -/
theorem vecC_apply (c : Dev nD) (t : Fin cfg4.N) (j : Fin 128) :
    (iblk4 V c 9 t : Vec Ideal S128 .f32) (ix1 j) = (V c main_v388 : Vec Ideal S128 .f32) (ix1 j) := by
  have ea := idx_vecC t
  unfold iblk4
  rw [View.read_apply]
  show (V c main_v388 : Vec Ideal S128 .f32) (((cfg4.win 9).blk t).view.emb (ix1 j)) = _
  refine congrArg (V c main_v388 : Vec Ideal S128 .f32) ?_
  funext a
  apply Fin.ext
  match a with
  | ⟨0, _⟩ => show win4_9.index t (0 : Fin 1) * 128 + 1 * j.val = j.val; omega
/-- Window 10's block at any point is its whole vector. -/
theorem vecD_apply (c : Dev nD) (t : Fin cfg4.N) (j : Fin 128) :
    (iblk4 V c 10 t : Vec Ideal S128 .f32) (ix1 j) = (V c main_v390 : Vec Ideal S128 .f32) (ix1 j) := by
  have ea := idx_vecD t
  unfold iblk4
  rw [View.read_apply]
  show (V c main_v390 : Vec Ideal S128 .f32) (((cfg4.win 10).blk t).view.emb (ix1 j)) = _
  refine congrArg (V c main_v390 : Vec Ideal S128 .f32) ?_
  funext a
  apply Fin.ext
  match a with
  | ⟨0, _⟩ => show win4_10.index t (0 : Fin 1) * 128 + 1 * j.val = j.val; omega

/-- Element (p, q) of the output's block at point t sits at row t * 2000 + p, lane q of the array. -/
theorem out_emb (t : Fin cfg4.N) (p : Fin 2000) (q : Fin 128) :
    (((cfg4.win 11).blk t).view.emb (ix2 p q) : S50000x128.Idx) = ix2 (rowOf t p) q := by
  obtain ⟨ea, eb⟩ := idx_out t
  funext a
  apply Fin.ext
  match a with
  | ⟨0, _⟩ => show win4_11.index t (0 : Fin 2) * 2000 + 1 * p.val = t.val * 2000 + p.val; omega
  | ⟨1, _⟩ => show win4_11.index t (1 : Fin 2) * 128 + 1 * q.val = q.val; omega

/-- An array read through the output's block at point t, at element (p, q), is the array at row t * 2000 + p, lane q. -/
theorem out_read (G : Vec Ideal S50000x128 .f32) (t : Fin cfg4.N) (p : Fin 2000) (q : Fin 128) :
    ((cfg4.win 11).blk t).view.read (Elt Ideal) G (ix2 p q) = G (ix2 (rowOf t p) q) := by
  rw [View.read_apply]
  show G (((cfg4.win 11).blk t).view.emb (ix2 p q)) = _
  exact congrArg G (out_emb t p q)

/-- What point t writes back is block t of the result array. -/
theorem flushed_eq (hbody : Body4) (c : Dev nD) (t : Fin cfg4.N) :
    (dat4 (F := Ideal) V c).flushed 11 t
      = ((cfg4.win 11).blk t).view.read (Elt Ideal) (result (V c main_v242) (V c main_v357) (V c main_v194) (V c main_v376) (V c main_v378) (V c main_v380) (V c main_v382) (V c main_v384) (V c main_v386) (V c main_v388) (V c main_v390)) := by
  show (cfg4.win 11).cut (grid4.coords t) ((dat4 V c).after 11 t) = _
  rw [after4_11]
  unfold out4_11
  rw [View.canon_unit_zero zeros_two]
  simp only [View.ld_unit_zero (S := S2000x128) zeros_two, View.ld_unit_zero (S := S128x128) zeros_two, View.ld_unit_zero (S := S128) zeros_one]
  funext y
  obtain ⟨p, q, rfl⟩ : ∃ (p : Fin 2000) (q : Fin 128), y = ix2 p q := ⟨y 0, y 1, eq_ix2 y⟩
  refine (hbody (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t) p q).trans ?_
  refine Eq.trans ?_ (out_read (result (V c main_v242) (V c main_v357) (V c main_v194) (V c main_v376) (V c main_v378) (V c main_v380) (V c main_v382) (V c main_v384) (V c main_v386) (V c main_v388) (V c main_v390)) t p q).symm
  refine Eq.trans ?_ (result_apply (V c main_v242) (V c main_v357) (V c main_v194) (V c main_v376) (V c main_v378) (V c main_v380) (V c main_v382) (V c main_v384) (V c main_v386) (V c main_v388) (V c main_v390) (rowOf t p) q).symm
  exact row_congr (funext fun k => rowsA_apply V c t p k) (funext fun k => rowsB_apply V c t p k) (funext fun k => rowsC_apply V c t p k)
    (funext fun k => funext fun j => matA_apply V c t k j) (funext fun k => funext fun j => matB_apply V c t k j)
    (funext fun k => funext fun j => matC_apply V c t k j) (funext fun k => funext fun j => matD_apply V c t k j)
    (funext fun j => vecA_apply V c t j) (funext fun j => vecB_apply V c t j) (funext fun j => vecC_apply V c t j)
    (funext fun j => vecD_apply V c t j) q

/-- An index of the array is in point t's block iff each coordinate is in the block's range on its axis. -/
theorem mem_blk (t : Fin cfg4.N) (i : S50000x128.Idx) :
    i ∈ ((cfg4.win 11).blk t).view.set ↔ ∀ a : Fin 2, win4_11.index t a * S2000x128.size a ≤ (i a).val ∧ (i a).val < win4_11.index t a * S2000x128.size a + S2000x128.size a := by
  show i ∈ ((View.whole (Pipeline.arrRef spec4 11)).slice (win4_11.rect t)).set ↔ _
  rw [View.set_slice_whole, Rect.mem_set_unit]
  exact Iff.rfl

/-- Every index of the array is in the block of the point its row falls in. -/
theorem cover (i : S50000x128.Idx) : ∃ t : Fin cfg4.N, (cfg4.win 11).flush t = true ∧ i ∈ ((cfg4.win 11).blk t).view.set := by
  have hi0 : (i 0).val < 50000 := (i 0).isLt
  have hi1 : (i 1).val < 128 := (i 1).isLt
  have hN := rows_eq
  obtain ⟨t, ht⟩ : ∃ t : Fin cfg4.N, t.val = (i 0).val / 2000 := ⟨⟨(i 0).val / 2000, by omega⟩, rfl⟩
  obtain ⟨ea, eb⟩ := idx_out t
  refine ⟨t, flush4_11 t, ?_⟩
  rw [mem_blk]
  intro a
  match a with
  | ⟨0, _⟩ => show win4_11.index t (0 : Fin 2) * 2000 ≤ (i 0).val ∧ (i 0).val < win4_11.index t (0 : Fin 2) * 2000 + 2000; omega
  | ⟨1, _⟩ => show win4_11.index t (1 : Fin 2) * 128 ≤ (i 1).val ∧ (i 1).val < win4_11.index t (1 : Fin 2) * 128 + 128; omega

/-- After the region the output array is the result array. -/
theorem final (hbody : Body4) (c : Dev nD) :
    (dat4 (F := Ideal) V c).arrAt 11 cfg4.N = result (V c main_v242) (V c main_v357) (V c main_v194) (V c main_v376) (V c main_v378) (V c main_v380) (V c main_v382) (V c main_v384) (V c main_v386) (V c main_v388) (V c main_v390) :=
  (dat4 (F := Ideal) V c).arrAt_eq_of_cover 11 (result (V c main_v242) (V c main_v357) (V c main_v194) (V c main_v376) (V c main_v378) (V c main_v380) (V c main_v382) (V c main_v384) (V c main_v386) (V c main_v388) (V c main_v390))
    (fun t _ => flushed_eq V hbody c t) cover

end Reg4

/-- After region 4 its output array holds, at every row, the row formula of that row of the three row arrays. -/
theorem region4_apply (hbody : Body4)
    (V : (c : Dev nD) → (b : Ref sig .tc) → Buf (Elt Ideal) ((c : Thread nD τ).loc b)) (c : Dev nD) (i : Fin 50000) (j : Fin 128) :
    ((dat4 (F := Ideal) V c).arrAt 11 cfg4.N : Vec Ideal S50000x128 .f32) (ix2 i j)
      = Cert.Spec.row (fun k => (V c main_v242 : Vec Ideal S50000x128 .f32) (ix2 i k)) (fun k => (V c main_v357 : Vec Ideal S50000x128 .f32) (ix2 i k))
          (fun k => (V c main_v194 : Vec Ideal S50000x128 .f32) (ix2 i k))
          (fun k j => (V c main_v376 : Vec Ideal S128x128 .f32) (ix2 k j)) (fun k j => (V c main_v378 : Vec Ideal S128x128 .f32) (ix2 k j))
          (fun k j => (V c main_v380 : Vec Ideal S128x128 .f32) (ix2 k j)) (fun k j => (V c main_v382 : Vec Ideal S128x128 .f32) (ix2 k j))
          (fun j => (V c main_v384 : Vec Ideal S128 .f32) (ix1 j)) (fun j => (V c main_v386 : Vec Ideal S128 .f32) (ix1 j))
          (fun j => (V c main_v388 : Vec Ideal S128 .f32) (ix1 j)) (fun j => (V c main_v390 : Vec Ideal S128 .f32) (ix1 j)) j :=
  (congrFun (Reg4.final V hbody c) (ix2 i j)).trans
    (Reg4.result_apply (V c main_v242) (V c main_v357) (V c main_v194) (V c main_v376) (V c main_v378) (V c main_v380) (V c main_v382) (V c main_v384) (V c main_v386) (V c main_v388) (V c main_v390) i j)

end Cert.KernelIdeal.Val

end
-- ==== Proof.KBody4.lean ====
/-
  The kernel body's value at an index, for blocks of 2000 rows.

  For a block of 2000 rows of 128 features the body forms the two relations' outputs (four products of the block's
  rows with 128 × 128 weight matrices into zero accumulators, two bias rows, all summed), halves the sum, normalises
  each row along its 128 lanes (mean and variance as lane sums divided by 128, the variance shifted by a small
  constant before the reciprocal square root), scales and shifts per feature, and clips below at zero. Read at row p
  and feature q, that is the row formula `Cert.Spec.row` of the three input rows at p.
-/
import proofs.«159317_j31121333027532_1_alg».proof.Proof.Gen.KernelIdeal.Skeleton
import proofs.«159317_j31121333027532_1_alg».proof.Proof.Spec
import proofs.«159317_j31121333027532_1_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Val

open Cert.KernelIdeal Cert.KernelIdeal.Gen Idealize.ShloMosaic Idealize.ShloMosaic.ValueIdx

/-! ## A product of a block of rows with a square matrix, read at an index -/

/-- The left operand's index at output row `i 0`: its row coordinate. -/
theorem k4_lhs_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
/-- Its column coordinate is the contraction index. -/
theorem k4_lhs_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
/-- The right operand's row coordinate is the contraction index. -/
theorem k4_rhs_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
/-- Its column coordinate is the output's. -/
theorem k4_rhs_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- Into the zero accumulator the product at (p, q) is the sum over k of the left operand at (p, k) times the right
    at (k, q). -/
theorem k4_matmul_apply (a : FVec Ideal S2000x128 .bf16) (w : FVec Ideal S128x128 .bf16) (p : Fin 2000) (q : Fin 128) :
    matmul dot_S2000x128_S128x128_S2000x128_1_0_0_1_n_n none a w (constant (F := Ideal) S2000x128 .f32 0x00000000#32) (ix2 p q)
      = ∑ k : Fin 128, a (ix2 p k) * w (ix2 k q) := by
  refine (Ideal.matmul_constant_zero_apply dot_S2000x128_S128x128_S2000x128_1_0_0_1_n_n none a w (ix2 p q)).trans ?_
  rw [← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k := funext fun a => Fin.ext (by
    match a with
    | ⟨0, _⟩ => exact k4_lhs_0 _ _
    | ⟨1, _⟩ => exact (k4_lhs_1 _ _).trans hk)
  have er : dot_S2000x128_S128x128_S2000x128_1_0_0_1_n_n.rhsIdx (ix2 p q) ((contrEquiv1 dot_S2000x128_S128x128_S2000x128_1_0_0_1_n_n 128 rfl rfl).symm k) = ix2 k q := funext fun a => Fin.ext (by
    match a with
    | ⟨0, _⟩ => exact (k4_rhs_0 _ _).trans hk
    | ⟨1, _⟩ => exact k4_rhs_1 _ _)
  rw [el, er]

/-! ## The layout operations of the payloads, read at an index -/

/-- A block of rows cast to its own shape reads the block. -/
theorem k4_cast_rows_apply (v : FVec Ideal S2000x128 .f32) (i : S2000x128.Idx) :
    shapeCast S2000x128 v shapeCasts_S2000x128_S2000x128 i = v i :=
  congrFun (shapeCast_self v shapeCasts_S2000x128_S2000x128) i

/-- A square matrix cast to its own shape reads the matrix. -/
theorem k4_cast_sq_apply (v : FVec Ideal S128x128 .f32) (i : S128x128.Idx) :
    shapeCast S128x128 v shapeCasts_S128x128_S128x128 i = v i :=
  congrFun (shapeCast_self v shapeCasts_S128x128_S128x128) i

/-- A feature vector cast to itself, then to a row [1, 128], and broadcast down the rows: at (p, q), the vector at q. -/
theorem k4_row_apply (v : FVec Ideal S128 .f32) (p : Fin 2000) (q : Fin 128) :
    broadcastTo S2000x128 (shapeCast S1x128 (shapeCast S128 v shapeCasts_S128_S128) shapeCasts_S128_S1x128)
      broadcasts_S1x128_S2000x128 (ix2 p q) = v (ix1 q) := by
  refine (broadcastTo_1b_ab_apply _ broadcasts_S1x128_S2000x128 p q).trans ?_
  refine (shapeCast_a_1a_apply _ shapeCasts_S128_S1x128 (0 : Fin 1) q).trans ?_
  exact congrFun (shapeCast_self v shapeCasts_S128_S128) _

/-- A column [2000, 1] broadcast across the lanes: at (p, q), the column at p. -/
theorem k4_col_apply (w : FVec Ideal S2000x1 .f32) (p : Fin 2000) (q : Fin 128) :
    broadcastTo S2000x128 w broadcasts_S2000x1_S2000x128 (ix2 p q) = w (ix2 p (0 : Fin 1)) := by
  refine broadcastTo_apply w broadcasts_S2000x1_S2000x128 (ix2 p q) (ix2 p (0 : Fin 1)) fun ax => ?_
  match ax with
  | ⟨0, _⟩ =>
    show p.val = if (2000 : ℕ) = 1 then 0 else p.val
    exact (if_neg (by decide)).symm
  | ⟨1, _⟩ => rfl

/-- A vector [2000] cast to a column [2000, 1]: at (p, 0), the vector at p. -/
theorem k4_colcast_apply (v : FVec Ideal S2000 .f32) (p : Fin 2000) :
    shapeCast S2000x1 v shapeCasts_S2000_S2000x1 (ix2 p (0 : Fin 1)) = v (ix1 p) := by
  refine shapeCast_apply v shapeCasts_S2000_S2000x1 _ _ ?_
  rw [Shape.rowMajor_val_one, Shape.rowMajor_val_two]
  show p.val = p.val * 1 + 0
  omega

/-- The sum along the lanes from the zero pattern, read at row p, is the sum of the row. -/
theorem k4_lane_sum_apply (src : FVec Ideal S2000x128 .f32) (hφ : FKind.Formats .f32)
    (hacc : @Eq (BitVec (FTy.bits .f32)) 0x00000000#32 0x00000000#32) (p : Fin 2000) :
    multiReduction (F := Ideal) .add ([1] : List (Fin 2)) S2000 src 0x00000000#32 reduces_S2000x128_S2000 hφ hacc (ix1 p)
      = ∑ k : Fin 128, src (ix2 p k) :=
  Cert.LibKeepdims.lane_sum_apply src reduces_S2000x128_S2000 hφ hacc p

/-- A reciprocal square root at an index is that of the element. -/
theorem k4_rsqrt_apply {s : Shape} (a : FVec Ideal s .f32) (i : s.Idx) : rsqrt a i = Ideal.rsqrt (a i) := rfl

/-! ## The two payloads at an index -/

/-- The sum of the two relations' outputs at (p, q). -/
theorem k4_pay2_apply (x0 x1 x2 : Vec Ideal S2000x128 .f32) (x3 x4 x5 x6 : Vec Ideal S128x128 .f32) (x7 x8 : Vec Ideal S128 .f32)
    (p : Fin 2000) (q : Fin 128) :
    k4_pay2 (F := Ideal) x0 x1 x2 x3 x4 x5 x6 x7 x8 (ix2 p q)
      = Cert.Spec.sage (fun k => x0 (ix2 p k)) (fun k => x2 (ix2 p k)) (fun k j => x3 (ix2 k j)) (fun k j => x5 (ix2 k j))
          (fun j => x7 (ix1 j)) q
        + Cert.Spec.sage (fun k => x1 (ix2 p k)) (fun k => x2 (ix2 p k)) (fun k j => x4 (ix2 k j)) (fun k j => x6 (ix2 k j))
          (fun j => x8 (ix1 j)) q := by
  unfold k4_pay2
  simp only [addf_apply, k4_matmul_apply, k4_row_apply, truncf_apply, k4_cast_rows_apply, k4_cast_sq_apply]
  rfl

/-- The halved, normalised, scaled, shifted and clipped row at (p, q). -/
theorem k4_pay1_apply (o : FVec Ideal S2000x128 .f32) (g b : Vec Ideal S128 .f32) (p : Fin 2000) (q : Fin 128) :
    k4_pay1 (F := Ideal) o (Scalar.ofBits .f32 0x3F000000#32) g b (ix2 p q)
      = Cert.Spec.lnrelu (fun j => o (ix2 p j)) (fun j => g (ix1 j)) (fun j => b (ix1 j)) q := by
  unfold k4_pay1
  simp only [maximumf_apply, addf_apply, mulf_apply, subf_apply, divf_apply, broadcast_apply, k4_rsqrt_apply, k4_row_apply,
    k4_col_apply, k4_colcast_apply, k4_lane_sum_apply]
  rfl

/-- The kernel body's value at (p, q) is the row formula of the three rows at p. -/
theorem body4_apply (x0 x1 x2 : Vec Ideal S2000x128 .f32) (x3 x4 x5 x6 : Vec Ideal S128x128 .f32) (x7 x8 x9 x10 : Vec Ideal S128 .f32)
    (p : Fin 2000) (q : Fin 128) :
    k4_pay1 (F := Ideal) (k4_pay2 (F := Ideal) x0 x1 x2 x3 x4 x5 x6 x7 x8) (Scalar.ofBits .f32 0x3F000000#32) x9 x10 (ix2 p q)
      = Cert.Spec.row (fun k => x0 (ix2 p k)) (fun k => x1 (ix2 p k)) (fun k => x2 (ix2 p k))
          (fun k j => x3 (ix2 k j)) (fun k j => x4 (ix2 k j)) (fun k j => x5 (ix2 k j)) (fun k j => x6 (ix2 k j))
          (fun j => x7 (ix1 j)) (fun j => x8 (ix1 j)) (fun j => x9 (ix1 j)) (fun j => x10 (ix1 j)) q := by
  refine (k4_pay1_apply _ x9 x10 p q).trans ?_
  unfold Cert.Spec.row
  exact congrArg (fun o => Cert.Spec.lnrelu o (fun j => x9 (ix1 j)) (fun j => x10 (ix1 j)) q)
    (funext fun j => k4_pay2_apply x0 x1 x2 x3 x4 x5 x6 x7 x8 p j)

end Cert.KernelIdeal.Val

end
-- ==== Proof.RStageS1p.lean ====
/-
  The reference's stretch that turns the two relation outputs of one node type into that type's new features, read at
  one row i and one feature j.

  The two arrays are added and multiplied by one half; along the 128 features of a row the mean is the sum divided by
  128, the deviation is the halved row less its mean, the variance is the sum of the squared deviations divided by 128;
  the deviation is multiplied by the reciprocal square root of the variance shifted by a small constant, scaled and
  shifted per feature by the slices at one layer and one node type of two 2 x 3 x 128 arrays, and clipped below at zero.
  Each operation that is not pointwise — a scalar spread over an array, the sum along a row, a vector made a column,
  a column spread across the features, a slice made a row and spread down the rows — is read at an index by one small
  lemma over arrays of the literal shapes; the pointwise ones read through by definition; the composed term is then the
  specification's function of the row, term for term.
-/
import proofs.«159317_j31121333027532_1_alg».proof.Proof.RefChunks
import proofs.«159317_j31121333027532_1_alg».proof.Proof.Spec
import Idealize.ShloMosaic.Lib.StableHlo.Run
import Idealize.ShloMosaic.Lib.Pipeline.Value
import Idealize.ShloMosaic.Lib.ValueIdx
import Idealize.ShloMosaic.PureOps.Ideal.Laws

noncomputable section

namespace Cert.ReferenceIdeal.Stage

open Cert.ReferenceIdeal Cert.ReferenceIdeal.Chunks Idealize.ShloMosaic Idealize.ShloMosaic.StableHlo Idealize.ShloMosaic.ValueIdx

/-- A scalar constant broadcast over the array reads its value everywhere. -/
theorem cS1_p_splat_apply (w : BitVec (FTy.bits .f32))
    (h : S_.BroadcastsInDim S50000x128 (![] : Fin 0 → Fin S50000x128.rank)) (p : S50000x128.Idx) :
    broadcastInDim S50000x128 (no_index ![]) h (constant (F := Ideal) S_ .f32 w) p = Ideal.ofBits .f32 w := rfl

/-- A scalar constant broadcast over the column reads its value everywhere. -/
theorem cS1_p_splat_col_apply (w : BitVec (FTy.bits .f32))
    (h : S_.BroadcastsInDim S50000x1 (![] : Fin 0 → Fin S50000x1.rank)) (p : S50000x1.Idx) :
    broadcastInDim S50000x1 (no_index ![]) h (constant (F := Ideal) S_ .f32 w) p = Ideal.ofBits .f32 w := rfl

/-- The host's sum along the 128 features from the zero pattern, read at row i, is the sum of the row. -/
theorem cS1_p_rowsum_apply (x : FVec Ideal S50000x128 .f32) (h' : S50000x128.ReducesTo [1] S50000)
    (hu : 0 < S_.numel) (i : Fin 50000) :
    Host.reduceAdd (F := Ideal) x (constant (F := Ideal) S_ .f32 0x00000000#32) h' hu (ix1 i)
      = ∑ k : Fin 128, x (ix2 i k) := by
  have h : S50000x128.Reduces [1] S50000 := by decide
  show Ideal.hostReduceAdd h' x (Ideal.ofBits .f32 0x00000000#32) (ix1 i) = _
  rw [Ideal.hostReduceAdd_single h' h, Ideal.ofBits_zero_f32, zero_add]
  exact Finset.sum_congr rfl fun k _ => congrArg x
    (funext fun ax => Fin.ext (by match ax with | ⟨0, _⟩ => rfl | ⟨1, _⟩ => rfl))

/-- A vector over the rows as a column: at (i, 0), the vector at i. -/
theorem cS1_p_column_apply (v : FVec Ideal S50000 .f32)
    (h : S50000.BroadcastsInDim S50000x1 (![0] : Fin 1 → Fin S50000x1.rank)) (i : Fin 50000) :
    broadcastInDim S50000x1 (no_index ![0]) h v (ix2 i (0 : Fin 1)) = v (ix1 i) := by
  refine broadcastInDim_apply _ h v _ (ix1 i) fun a => ?_
  match a with
  | ⟨0, _⟩ => rfl

/-- A column broadcast across the 128 features: at (i, j), the column at (i, 0). -/
theorem cS1_p_across_apply (c : FVec Ideal S50000x1 .f32)
    (h : S50000x1.BroadcastsInDim S50000x128 (![0, 1] : Fin 2 → Fin S50000x128.rank)) (i : Fin 50000) (j : Fin 128) :
    broadcastInDim S50000x128 (no_index ![0, 1]) h c (ix2 i j) = c (ix2 i (0 : Fin 1)) := by
  refine broadcastInDim_apply _ h c _ (ix2 i (0 : Fin 1)) fun a => ?_
  match a with
  | ⟨0, _⟩ => rfl
  | ⟨1, _⟩ => rfl

/-- A per-feature parameter, the slice at one layer and one node type of a 2 x 3 x 128 array made a vector, then a
    row, then broadcast down the rows: at (i, j), the array at that layer, that node type and feature j. -/
theorem cS1_p_param_apply (g : FVec Ideal S2x3x128 .f32) (hs : S2x3x128.Slices ![1, 1, 0] S1x1x128)
    (hc : S1x1x128.ShapeCasts S128) (h₁ : S128.BroadcastsInDim S1x128 (![1] : Fin 1 → Fin S1x128.rank))
    (h₂ : S1x128.BroadcastsInDim S50000x128 (![0, 1] : Fin 2 → Fin S50000x128.rank)) (i : Fin 50000) (j : Fin 128) :
    broadcastInDim S50000x128 (no_index ![0, 1]) h₂ (broadcastInDim S1x128 (no_index ![1]) h₁
        (shapeCast S128 (extractStridedSlice S1x1x128 (no_index ![1, 1, 0]) g hs) hc)) (ix2 i j)
      = g (ix3 (1 : Fin 2) (1 : Fin 3) j) := by
  refine (broadcastInDim_apply _ h₂ _ _ (ix2 (0 : Fin 1) j) fun a => ?_).trans
    ((broadcastInDim_apply _ h₁ _ _ (ix1 j) fun a => ?_).trans
      ((shapeCast_apply _ hc _ (ix3 (0 : Fin 1) (0 : Fin 1) j) ?_).trans
        (extractStridedSlice_apply _ g hs _ (ix3 (1 : Fin 2) (1 : Fin 3) j) fun a => ?_)))
  · match a with
    | ⟨0, _⟩ => rfl
    | ⟨1, _⟩ => rfl
  · match a with
    | ⟨0, _⟩ => rfl
  · rw [Shape.rowMajor_val_three, Shape.rowMajor_val_one]
    show (0 * 1 + 0) * 128 + j.val = j.val
    omega
  · match a with
    | ⟨0, _⟩ => rfl
    | ⟨1, _⟩ => rfl
    | ⟨2, _⟩ => show j.val = 0 + j.val; omega

/-- The host's division and reciprocal square root read at an index. -/
theorem cS1_p_hostDivf_apply {s : Shape} (a b : FVec Ideal s .f32) (p : s.Idx) :
    Host.divf a b p = Ideal.div (a p) (b p) := rfl
theorem cS1_p_hostRsqrt_apply {s : Shape} (a : FVec Ideal s .f32) (p : s.Idx) :
    Host.rsqrt a p = Ideal.rsqrt (a p) := rfl

/-- The forty operations as one term over the arrays they read, at (i, j): the two relation outputs added and
    halved (X), the row mean (m), the deviation (d), the row variance (v), the reciprocal root of the shifted
    variance (r); the deviation times r, scaled, shifted, clipped below at zero. -/
theorem cS1_p_value (x y : FVec Ideal S50000x128 .f32) (g b : FVec Ideal S2x3x128 .f32)
    (X d : FVec Ideal S50000x128 .f32) (m v r : FVec Ideal S50000x1 .f32)
    (hb0 : S_.BroadcastsInDim S50000x128 (![] : Fin 0 → Fin S50000x128.rank))
    (hb1 : S_.BroadcastsInDim S50000x1 (![] : Fin 0 → Fin S50000x1.rank))
    (hcol : S50000.BroadcastsInDim S50000x1 (![0] : Fin 1 → Fin S50000x1.rank))
    (hacr : S50000x1.BroadcastsInDim S50000x128 (![0, 1] : Fin 2 → Fin S50000x128.rank))
    (hred : S50000x128.ReducesTo [1] S50000) (hu : 0 < S_.numel)
    (hs : S2x3x128.Slices ![1, 1, 0] S1x1x128) (hc : S1x1x128.ShapeCasts S128)
    (h₁ : S128.BroadcastsInDim S1x128 (![1] : Fin 1 → Fin S1x128.rank))
    (h₂ : S1x128.BroadcastsInDim S50000x128 (![0, 1] : Fin 2 → Fin S50000x128.rank))
    (hX : X = mulf (broadcastInDim S50000x128 ![] hb0 (constant (F := Ideal) S_ .f32 0x3F000000#32)) (addf x y))
    (hm : m = Host.divf (broadcastInDim S50000x1 ![0] hcol
        (Host.reduceAdd (F := Ideal) X (constant (F := Ideal) S_ .f32 0x00000000#32) hred hu))
      (broadcastInDim S50000x1 ![] hb1 (constant (F := Ideal) S_ .f32 0x43000000#32)))
    (hd : d = subf X (broadcastInDim S50000x128 ![0, 1] hacr m))
    (hv : v = Host.divf (broadcastInDim S50000x1 ![0] hcol
        (Host.reduceAdd (F := Ideal) (mulf d d) (constant (F := Ideal) S_ .f32 0x00000000#32) hred hu))
      (broadcastInDim S50000x1 ![] hb1 (constant (F := Ideal) S_ .f32 0x43000000#32)))
    (hr : r = Host.rsqrt (addf v (broadcastInDim S50000x1 ![] hb1 (constant (F := Ideal) S_ .f32 0x3727C5AC#32))))
    (i : Fin 50000) (j : Fin 128) :
    maximumf
        (addf
          (mulf (mulf d (broadcastInDim S50000x128 ![0, 1] hacr r))
            (broadcastInDim S50000x128 ![0, 1] h₂ (broadcastInDim S1x128 ![1] h₁
              (shapeCast S128 (extractStridedSlice S1x1x128 ![1, 1, 0] g hs) hc))))
          (broadcastInDim S50000x128 ![0, 1] h₂ (broadcastInDim S1x128 ![1] h₁
            (shapeCast S128 (extractStridedSlice S1x1x128 ![1, 1, 0] b hs) hc))))
        (broadcastInDim S50000x128 ![] hb0 (constant (F := Ideal) S_ .f32 0x00000000#32)) (ix2 i j)
      = Cert.Spec.lnrelu (fun j => x (ix2 i j) + y (ix2 i j)) (fun j => g (ix3 (1 : Fin 2) (1 : Fin 3) j))
          (fun j => b (ix3 (1 : Fin 2) (1 : Fin 3) j)) j := by
  subst hr hv hd hm hX
  simp only [maximumf_apply, addf_apply, mulf_apply, subf_apply, cS1_p_hostDivf_apply, cS1_p_hostRsqrt_apply,
    cS1_p_splat_apply, cS1_p_splat_col_apply, cS1_p_rowsum_apply, cS1_p_column_apply, cS1_p_across_apply,
    cS1_p_param_apply]
  rfl

/-- The stretch's result at (i, j) is the specification's function of row i of the two relation outputs and of the
    two parameter slices. -/
theorem stageS1_p_apply (W : Valuation τ sig (Elt Ideal)) (i : Fin 50000) (j : Fin 128) :
    (after cS1_p W (Proc.devRef .tc main_v630) : Vec Ideal S50000x128 .f32) (ix2 i j)
      = Cert.Spec.lnrelu (fun j => HAdd.hAdd (α := EReal) (β := EReal) (γ := EReal) ((W (Proc.devRef .tc main_v381) : Vec Ideal S50000x128 .f32) (ix2 i j)) ((W (Proc.devRef .tc main_v566) : Vec Ideal S50000x128 .f32) (ix2 i j)))
          (fun j => (W (Proc.devRef .tc main_arg18) : Vec Ideal S2x3x128 .f32) (ix3 (1 : Fin 2) (1 : Fin 3) j))
          (fun j => (W (Proc.devRef .tc main_arg19) : Vec Ideal S2x3x128 .f32) (ix3 (1 : Fin 2) (1 : Fin 3) j)) j := by
  simp only [cS1_p]
  after_results_simp
  exact cS1_p_value (W (Proc.devRef .tc main_v381)) (W (Proc.devRef .tc main_v566)) (W (Proc.devRef .tc main_arg18))
    (W (Proc.devRef .tc main_arg19)) _ _ _ _ _ _ _ _ _ _ _ _ _ _ _ rfl rfl rfl rfl rfl i j

end Cert.ReferenceIdeal.Stage

end
-- ==== Proof.RStageE1_0.lean ====
/-
  One relation of the first layer, read at a row and a feature.

  The stretch slices the layer's stacked weights at the relation's position (a 128 × 128 left matrix, a bias row of 128, a
  128 × 128 right matrix), forms the mean message of every destination node from its neighbours' features, and returns
  message · leftᵀ + bias + features · rightᵀ, each product contracting the 128 features. Here the mean message stays an
  unopened array: the result at row `i` and feature `j` is `Cert.Spec.sage` of row `i` of the mean message, row `i` of
  the node features, and the relation's slabs of the stacked weights read transposed (entry `(k, j)` of a factor is
  entry `(j, k)` of the relation's slab of its stack).
-/
import proofs.«159317_j31121333027532_1_alg».proof.Proof.RefChunks
import proofs.«159317_j31121333027532_1_alg».proof.Proof.Spec
import Idealize.ShloMosaic.Lib.Pipeline.Value
import Idealize.ShloMosaic.Lib.ValueIdx
import Idealize.ShloMosaic.PureOps.Ideal.Laws

noncomputable section

namespace Cert.ReferenceIdeal.Stage

open Cert.ReferenceIdeal Cert.ReferenceIdeal.Gen Cert.ReferenceIdeal.Chunks Idealize.ShloMosaic Idealize.ShloMosaic.StableHlo Idealize.ShloMosaic.ValueIdx

/-! ## The layer's weights of one relation, read at an index -/

/-- The relation's slab of a stack of six 128 × 128 matrices, flattened to a matrix: its entry `(a, b)` is the slab's entry `(a, b)` in the stack. -/
theorem slabE1_0_apply (w : FVec Ideal S6x128x128 .f32) (a b : Fin 128) :
    (shapeCast S128x128 (extractStridedSlice S1x128x128 ![0, 0, 0] w slices_S6x128x128_S1x128x128_0_0_0)
      shapeCasts_S1x128x128_S128x128 : FVec Ideal S128x128 .f32) (ix2 a b) = w (ix3 (0 : Fin 6) a b) := by
  refine (shapeCast_apply _ shapeCasts_S1x128x128_S128x128 (ix2 a b) (ix3 (0 : Fin 1) a b) ?_).trans ?_
  · rw [Shape.rowMajor_val_three, Shape.rowMajor_val_two]
    show (0 * 128 + a.val) * 128 + b.val = a.val * 128 + b.val
    omega
  · exact extractStridedSlice_apply ![0, 0, 0] w slices_S6x128x128_S1x128x128_0_0_0 (ix3 (0 : Fin 1) a b) (ix3 (0 : Fin 6) a b)
      (fun c => match c with
        | ⟨0, _⟩ => by show 0 = 0 + 0; rfl
        | ⟨1, _⟩ => by show a.val = 0 + a.val; omega
        | ⟨2, _⟩ => by show b.val = 0 + b.val; omega)

/-- The transposed slab: entry `(k, j)` is the slab's entry `(j, k)` in the stack. -/
theorem slabTE1_0_apply (w : FVec Ideal S6x128x128 .f32) (k j : Fin 128) :
    (transpose S128x128 [1, 0] (shapeCast S128x128 (extractStridedSlice S1x128x128 ![0, 0, 0] w slices_S6x128x128_S1x128x128_0_0_0)
      shapeCasts_S1x128x128_S128x128) transposes_S128x128_S128x128_1_0 : FVec Ideal S128x128 .f32) (ix2 k j) = w (ix3 (0 : Fin 6) j k) := by
  refine (transpose_apply [1, 0] _ transposes_S128x128_S128x128_1_0 (ix2 k j) (ix2 j k) (fun c => match c with
    | ⟨0, _⟩ => rfl
    | ⟨1, _⟩ => rfl)).trans ?_
  exact slabE1_0_apply w j k

/-- The relation's row of a stack of six bias vectors, broadcast along the rows: entry `(i, j)` is the row's entry `j` in the stack. -/
theorem biasRowE1_0_apply (v : FVec Ideal S6x128 .f32) (i : Fin 50000) (j : Fin 128) :
    (broadcastInDim S50000x128 ![0, 1] bcast_S1x128_S50000x128_0_1 (broadcastInDim S1x128 ![1] bcast_S128_S1x128_1
      (shapeCast S128 (extractStridedSlice S1x128 ![0, 0] v slices_S6x128_S1x128_0_0) shapeCasts_S1x128_S128)) : FVec Ideal S50000x128 .f32) (ix2 i j)
      = v (ix2 (0 : Fin 6) j) := by
  refine (broadcastInDim_apply _ bcast_S1x128_S50000x128_0_1 _ (ix2 i j) (ix2 (0 : Fin 1) j) (fun c => match c with
    | ⟨0, _⟩ => by show 0 = if (1 : Nat) = 1 then 0 else i.val; rw [if_pos rfl]
    | ⟨1, _⟩ => by show j.val = if (128 : Nat) = 1 then 0 else j.val; rw [if_neg (by decide)])).trans ?_
  refine (broadcastInDim_apply _ bcast_S128_S1x128_1 _ (ix2 (0 : Fin 1) j) (ix1 j) (fun c => match c with
    | ⟨0, _⟩ => by show j.val = if (128 : Nat) = 1 then 0 else j.val; rw [if_neg (by decide)])).trans ?_
  refine (shapeCast_apply _ shapeCasts_S1x128_S128 (ix1 j) (ix2 (0 : Fin 1) j) ?_).trans ?_
  · rw [Shape.rowMajor_val_two, Shape.rowMajor_val_one]
    show 0 * 128 + j.val = j.val
    omega
  · exact extractStridedSlice_apply ![0, 0] v slices_S6x128_S1x128_0_0 (ix2 (0 : Fin 1) j) (ix2 (0 : Fin 6) j)
      (fun c => match c with
        | ⟨0, _⟩ => by show 0 = 0 + 0; rfl
        | ⟨1, _⟩ => by show j.val = 0 + j.val; omega)

/-! ## A product with a 128 × 128 matrix, read at an index -/

theorem lhsE1_0_0 (i : S50000x128.Idx) (q : dot_S50000x128_S128x128_S50000x128_1_0_0_1_n_n.contr.Idx) :
    (dot_S50000x128_S128x128_S50000x128_1_0_0_1_n_n.lhsIdx i q 0).val = (i 0).val := by
  unfold DotDims.lhsIdx
  rw [dif_neg (show ¬(0 : Fin S50000x128.rank) ∈ dot_S50000x128_S128x128_S50000x128_1_0_0_1_n_n.lhsBatch from List.not_mem_nil), dif_pos (show (0 : Fin S50000x128.rank) ∈ dot_S50000x128_S128x128_S50000x128_1_0_0_1_n_n.lhsNonContracting from List.mem_singleton.mpr rfl)]
  rfl
theorem lhsE1_0_1 (i : S50000x128.Idx) (q : dot_S50000x128_S128x128_S50000x128_1_0_0_1_n_n.contr.Idx) :
    (dot_S50000x128_S128x128_S50000x128_1_0_0_1_n_n.lhsIdx i q 1).val = (q ⟨0, Nat.one_pos⟩).val :=
  dot_S50000x128_S128x128_S50000x128_1_0_0_1_n_n.lhsIdx_val_of_single rfl i q
theorem rhsE1_0_0 (i : S50000x128.Idx) (q : dot_S50000x128_S128x128_S50000x128_1_0_0_1_n_n.contr.Idx) :
    (dot_S50000x128_S128x128_S50000x128_1_0_0_1_n_n.rhsIdx i q 0).val = (q ⟨0, Nat.one_pos⟩).val :=
  dot_S50000x128_S128x128_S50000x128_1_0_0_1_n_n.rhsIdx_val_of_single rfl i q
theorem rhsE1_0_1 (i : S50000x128.Idx) (q : dot_S50000x128_S128x128_S50000x128_1_0_0_1_n_n.contr.Idx) :
    (dot_S50000x128_S128x128_S50000x128_1_0_0_1_n_n.rhsIdx i q 1).val = (i 1).val := by
  unfold DotDims.rhsIdx
  rw [dif_neg (show ¬(1 : Fin S128x128.rank) ∈ dot_S50000x128_S128x128_S50000x128_1_0_0_1_n_n.rhsBatch from List.not_mem_nil), dif_pos (show (1 : Fin S128x128.rank) ∈ dot_S50000x128_S128x128_S50000x128_1_0_0_1_n_n.rhsNonContracting from List.mem_singleton.mpr rfl)]
  rfl

/-- Rows times a matrix, contracting the 128 features: entry `(i, j)` is the sum over `k` of `l (i, k) * r (k, j)`. -/
theorem dotE1_0_apply (l : FVec Ideal S50000x128 .f32) (r : FVec Ideal S128x128 .f32) (i : Fin 50000) (j : Fin 128) :
    Host.dotGeneral (F := Ideal) dot_S50000x128_S128x128_S50000x128_1_0_0_1_n_n none l r (ix2 i j) = ∑ k : Fin 128, l (ix2 i k) * r (ix2 k j) := by
  simp only [Host.dotGeneral]
  rw [Ideal.dotGeneral_apply, ← Equiv.sum_comp (ValueIdx.contrEquiv1 dot_S50000x128_S128x128_S50000x128_1_0_0_1_n_n 128 rfl rfl).symm]
  refine Finset.sum_congr rfl fun k _ => ?_
  have hk := ValueIdx.contrEquiv1_symm_val dot_S50000x128_S128x128_S50000x128_1_0_0_1_n_n 128 rfl rfl k
  have el : dot_S50000x128_S128x128_S50000x128_1_0_0_1_n_n.lhsIdx (ix2 i j) ((ValueIdx.contrEquiv1 dot_S50000x128_S128x128_S50000x128_1_0_0_1_n_n 128 rfl rfl).symm k) = ix2 i k := funext fun a => Fin.ext (by
    match a with
    | ⟨0, _⟩ => exact lhsE1_0_0 _ _
    | ⟨1, _⟩ => exact (lhsE1_0_1 _ _).trans hk)
  have er : dot_S50000x128_S128x128_S50000x128_1_0_0_1_n_n.rhsIdx (ix2 i j) ((ValueIdx.contrEquiv1 dot_S50000x128_S128x128_S50000x128_1_0_0_1_n_n 128 rfl rfl).symm k) = ix2 k j := funext fun a => Fin.ext (by
    match a with
    | ⟨0, _⟩ => exact (rhsE1_0_0 _ _).trans hk
    | ⟨1, _⟩ => exact rhsE1_0_1 _ _)
  rw [el, er]

/-! ## The relation's output from the mean message -/

/-- The relation's output as the program composes it: the mean message times the transposed left slab, plus the bias
    row, plus the node features times the transposed right slab. -/
def relOutE1_0 {F : FTy → Type} [FloatOps F] (msg x : FVec F S50000x128 .f32) (wl wr : FVec F S6x128x128 .f32)
    (bl : FVec F S6x128 .f32) : FVec F S50000x128 .f32 :=
  addf (addf (Host.dotGeneral dot_S50000x128_S128x128_S50000x128_1_0_0_1_n_n none msg (transpose S128x128 [1, 0] (shapeCast S128x128 (extractStridedSlice S1x128x128 ![0, 0, 0] wl slices_S6x128x128_S1x128x128_0_0_0) shapeCasts_S1x128x128_S128x128) transposes_S128x128_S128x128_1_0))
      (broadcastInDim S50000x128 ![0, 1] bcast_S1x128_S50000x128_0_1 (broadcastInDim S1x128 ![1] bcast_S128_S1x128_1 (shapeCast S128 (extractStridedSlice S1x128 ![0, 0] bl slices_S6x128_S1x128_0_0) shapeCasts_S1x128_S128))))
    (Host.dotGeneral dot_S50000x128_S128x128_S50000x128_1_0_0_1_n_n none x (transpose S128x128 [1, 0] (shapeCast S128x128 (extractStridedSlice S1x128x128 ![0, 0, 0] wr slices_S6x128x128_S1x128x128_0_0_0) shapeCasts_S1x128x128_S128x128) transposes_S128x128_S128x128_1_0))

/-- Read at row `i` and feature `j`, it is the relation's law on the two rows. -/
theorem relOutE1_0_apply (msg x : FVec Ideal S50000x128 .f32) (wl wr : FVec Ideal S6x128x128 .f32) (bl : FVec Ideal S6x128 .f32)
    (i : Fin 50000) (j : Fin 128) :
    relOutE1_0 msg x wl wr bl (ix2 i j)
      = Cert.Spec.sage (fun k => msg (ix2 i k)) (fun k => x (ix2 i k)) (fun k j => wl (ix3 (0 : Fin 6) j k))
          (fun k j => wr (ix3 (0 : Fin 6) j k)) (fun j => bl (ix2 (0 : Fin 6) j)) j := by
  unfold relOutE1_0 Cert.Spec.sage
  rw [addf_apply, addf_apply, dotE1_0_apply, dotE1_0_apply, biasRowE1_0_apply]
  refine congrArg₂ (· + ·) (congrArg (· + bl (ix2 (0 : Fin 6) j)) (Finset.sum_congr rfl fun k _ => ?_)) (Finset.sum_congr rfl fun k _ => ?_)
  · exact congrArg (msg (ix2 i k) * ·) (slabTE1_0_apply wl k j)
  · exact congrArg (x (ix2 i k) * ·) (slabTE1_0_apply wr k j)

/-! ## The stretch -/

set_option maxHeartbeats 1000000 in
/-- After the stretch, the output buffer holds the relation's composition of the mean message buffer, the node
    features and the stacked weights the stretch reads. -/
theorem stageE1_0_eq {F : FTy → Type} [FloatOps F] (W : Valuation τ sig (Elt F)) :
    (after (cE1_0 (F := F)) W (Proc.devRef .tc main_v381) : FVec F S50000x128 .f32)
      = relOutE1_0 (after (cE1_0 (F := F)) W (Proc.devRef .tc main_v373)) (W (Proc.devRef .tc main_v306))
          (W (Proc.devRef .tc main_v340)) (W (Proc.devRef .tc main_v344)) (W (Proc.devRef .tc main_v342)) := by
  simp only [cE1_0]
  after_results_simp <;> rfl

/-- The stretch's output at row `i` and feature `j` is the relation's law on row `i` of the mean message and of the
    node features, with the relation's slabs of the stacked weights read transposed. -/
theorem stageE1_0_apply (W : Valuation τ sig (Elt Ideal)) (i : Fin 50000) (j : Fin 128) :
    (after cE1_0 W (Proc.devRef .tc main_v381) : Vec Ideal S50000x128 .f32) (ix2 i j)
      = Cert.Spec.sage (fun k => (after cE1_0 W (Proc.devRef .tc main_v373) : Vec Ideal S50000x128 .f32) (ix2 i k))
          (fun k => (W (Proc.devRef .tc main_v306) : Vec Ideal S50000x128 .f32) (ix2 i k))
          (fun k j => (W (Proc.devRef .tc main_v340) : Vec Ideal S6x128x128 .f32) (ix3 (0 : Fin 6) j k))
          (fun k j => (W (Proc.devRef .tc main_v344) : Vec Ideal S6x128x128 .f32) (ix3 (0 : Fin 6) j k))
          (fun j => (W (Proc.devRef .tc main_v342) : Vec Ideal S6x128 .f32) (ix2 (0 : Fin 6) j)) j :=
  (congrFun (stageE1_0_eq (F := Ideal) W) (ix2 i j)).trans (relOutE1_0_apply _ _ _ _ _ i j)

end Cert.ReferenceIdeal.Stage

end
-- ==== Proof.RStageE1_5.lean ====
/-
  One relation of the first layer, read at a row and a feature.

  The stretch slices the layer's stacked weights at the relation's position (a 128 × 128 left matrix, a bias row of 128, a
  128 × 128 right matrix), forms the mean message of every destination node from its neighbours' features, and returns
  message · leftᵀ + bias + features · rightᵀ, each product contracting the 128 features. Here the mean message stays an
  unopened array: the result at row `i` and feature `j` is `Cert.Spec.sage` of row `i` of the mean message, row `i` of
  the node features, and the relation's slabs of the stacked weights read transposed (entry `(k, j)` of a factor is
  entry `(j, k)` of the relation's slab of its stack).
-/
import proofs.«159317_j31121333027532_1_alg».proof.Proof.RefChunks
import proofs.«159317_j31121333027532_1_alg».proof.Proof.Spec
import Idealize.ShloMosaic.Lib.Pipeline.Value
import Idealize.ShloMosaic.Lib.ValueIdx
import Idealize.ShloMosaic.PureOps.Ideal.Laws

noncomputable section

namespace Cert.ReferenceIdeal.Stage

open Cert.ReferenceIdeal Cert.ReferenceIdeal.Gen Cert.ReferenceIdeal.Chunks Idealize.ShloMosaic Idealize.ShloMosaic.StableHlo Idealize.ShloMosaic.ValueIdx

/-! ## The layer's weights of one relation, read at an index -/

/-- The relation's slab of a stack of six 128 × 128 matrices, flattened to a matrix: its entry `(a, b)` is the slab's entry `(a, b)` in the stack. -/
theorem slabE1_5_apply (w : FVec Ideal S6x128x128 .f32) (a b : Fin 128) :
    (shapeCast S128x128 (extractStridedSlice S1x128x128 ![5, 0, 0] w slices_S6x128x128_S1x128x128_5_0_0)
      shapeCasts_S1x128x128_S128x128 : FVec Ideal S128x128 .f32) (ix2 a b) = w (ix3 (5 : Fin 6) a b) := by
  refine (shapeCast_apply _ shapeCasts_S1x128x128_S128x128 (ix2 a b) (ix3 (0 : Fin 1) a b) ?_).trans ?_
  · rw [Shape.rowMajor_val_three, Shape.rowMajor_val_two]
    show (0 * 128 + a.val) * 128 + b.val = a.val * 128 + b.val
    omega
  · exact extractStridedSlice_apply ![5, 0, 0] w slices_S6x128x128_S1x128x128_5_0_0 (ix3 (0 : Fin 1) a b) (ix3 (5 : Fin 6) a b)
      (fun c => match c with
        | ⟨0, _⟩ => by show 5 = 5 + 0; rfl
        | ⟨1, _⟩ => by show a.val = 0 + a.val; omega
        | ⟨2, _⟩ => by show b.val = 0 + b.val; omega)

/-- The transposed slab: entry `(k, j)` is the slab's entry `(j, k)` in the stack. -/
theorem slabTE1_5_apply (w : FVec Ideal S6x128x128 .f32) (k j : Fin 128) :
    (transpose S128x128 [1, 0] (shapeCast S128x128 (extractStridedSlice S1x128x128 ![5, 0, 0] w slices_S6x128x128_S1x128x128_5_0_0)
      shapeCasts_S1x128x128_S128x128) transposes_S128x128_S128x128_1_0 : FVec Ideal S128x128 .f32) (ix2 k j) = w (ix3 (5 : Fin 6) j k) := by
  refine (transpose_apply [1, 0] _ transposes_S128x128_S128x128_1_0 (ix2 k j) (ix2 j k) (fun c => match c with
    | ⟨0, _⟩ => rfl
    | ⟨1, _⟩ => rfl)).trans ?_
  exact slabE1_5_apply w j k

/-- The relation's row of a stack of six bias vectors, broadcast along the rows: entry `(i, j)` is the row's entry `j` in the stack. -/
theorem biasRowE1_5_apply (v : FVec Ideal S6x128 .f32) (i : Fin 50000) (j : Fin 128) :
    (broadcastInDim S50000x128 ![0, 1] bcast_S1x128_S50000x128_0_1 (broadcastInDim S1x128 ![1] bcast_S128_S1x128_1
      (shapeCast S128 (extractStridedSlice S1x128 ![5, 0] v slices_S6x128_S1x128_5_0) shapeCasts_S1x128_S128)) : FVec Ideal S50000x128 .f32) (ix2 i j)
      = v (ix2 (5 : Fin 6) j) := by
  refine (broadcastInDim_apply _ bcast_S1x128_S50000x128_0_1 _ (ix2 i j) (ix2 (0 : Fin 1) j) (fun c => match c with
    | ⟨0, _⟩ => by show 0 = if (1 : Nat) = 1 then 0 else i.val; rw [if_pos rfl]
    | ⟨1, _⟩ => by show j.val = if (128 : Nat) = 1 then 0 else j.val; rw [if_neg (by decide)])).trans ?_
  refine (broadcastInDim_apply _ bcast_S128_S1x128_1 _ (ix2 (0 : Fin 1) j) (ix1 j) (fun c => match c with
    | ⟨0, _⟩ => by show j.val = if (128 : Nat) = 1 then 0 else j.val; rw [if_neg (by decide)])).trans ?_
  refine (shapeCast_apply _ shapeCasts_S1x128_S128 (ix1 j) (ix2 (0 : Fin 1) j) ?_).trans ?_
  · rw [Shape.rowMajor_val_two, Shape.rowMajor_val_one]
    show 0 * 128 + j.val = j.val
    omega
  · exact extractStridedSlice_apply ![5, 0] v slices_S6x128_S1x128_5_0 (ix2 (0 : Fin 1) j) (ix2 (5 : Fin 6) j)
      (fun c => match c with
        | ⟨0, _⟩ => by show 5 = 5 + 0; rfl
        | ⟨1, _⟩ => by show j.val = 0 + j.val; omega)

/-! ## A product with a 128 × 128 matrix, read at an index -/

theorem lhsE1_5_0 (i : S50000x128.Idx) (q : dot_S50000x128_S128x128_S50000x128_1_0_0_1_n_n.contr.Idx) :
    (dot_S50000x128_S128x128_S50000x128_1_0_0_1_n_n.lhsIdx i q 0).val = (i 0).val := by
  unfold DotDims.lhsIdx
  rw [dif_neg (show ¬(0 : Fin S50000x128.rank) ∈ dot_S50000x128_S128x128_S50000x128_1_0_0_1_n_n.lhsBatch from List.not_mem_nil), dif_pos (show (0 : Fin S50000x128.rank) ∈ dot_S50000x128_S128x128_S50000x128_1_0_0_1_n_n.lhsNonContracting from List.mem_singleton.mpr rfl)]
  rfl
theorem lhsE1_5_1 (i : S50000x128.Idx) (q : dot_S50000x128_S128x128_S50000x128_1_0_0_1_n_n.contr.Idx) :
    (dot_S50000x128_S128x128_S50000x128_1_0_0_1_n_n.lhsIdx i q 1).val = (q ⟨0, Nat.one_pos⟩).val :=
  dot_S50000x128_S128x128_S50000x128_1_0_0_1_n_n.lhsIdx_val_of_single rfl i q
theorem rhsE1_5_0 (i : S50000x128.Idx) (q : dot_S50000x128_S128x128_S50000x128_1_0_0_1_n_n.contr.Idx) :
    (dot_S50000x128_S128x128_S50000x128_1_0_0_1_n_n.rhsIdx i q 0).val = (q ⟨0, Nat.one_pos⟩).val :=
  dot_S50000x128_S128x128_S50000x128_1_0_0_1_n_n.rhsIdx_val_of_single rfl i q
theorem rhsE1_5_1 (i : S50000x128.Idx) (q : dot_S50000x128_S128x128_S50000x128_1_0_0_1_n_n.contr.Idx) :
    (dot_S50000x128_S128x128_S50000x128_1_0_0_1_n_n.rhsIdx i q 1).val = (i 1).val := by
  unfold DotDims.rhsIdx
  rw [dif_neg (show ¬(1 : Fin S128x128.rank) ∈ dot_S50000x128_S128x128_S50000x128_1_0_0_1_n_n.rhsBatch from List.not_mem_nil), dif_pos (show (1 : Fin S128x128.rank) ∈ dot_S50000x128_S128x128_S50000x128_1_0_0_1_n_n.rhsNonContracting from List.mem_singleton.mpr rfl)]
  rfl

/-- Rows times a matrix, contracting the 128 features: entry `(i, j)` is the sum over `k` of `l (i, k) * r (k, j)`. -/
theorem dotE1_5_apply (l : FVec Ideal S50000x128 .f32) (r : FVec Ideal S128x128 .f32) (i : Fin 50000) (j : Fin 128) :
    Host.dotGeneral (F := Ideal) dot_S50000x128_S128x128_S50000x128_1_0_0_1_n_n none l r (ix2 i j) = ∑ k : Fin 128, l (ix2 i k) * r (ix2 k j) := by
  simp only [Host.dotGeneral]
  rw [Ideal.dotGeneral_apply, ← Equiv.sum_comp (ValueIdx.contrEquiv1 dot_S50000x128_S128x128_S50000x128_1_0_0_1_n_n 128 rfl rfl).symm]
  refine Finset.sum_congr rfl fun k _ => ?_
  have hk := ValueIdx.contrEquiv1_symm_val dot_S50000x128_S128x128_S50000x128_1_0_0_1_n_n 128 rfl rfl k
  have el : dot_S50000x128_S128x128_S50000x128_1_0_0_1_n_n.lhsIdx (ix2 i j) ((ValueIdx.contrEquiv1 dot_S50000x128_S128x128_S50000x128_1_0_0_1_n_n 128 rfl rfl).symm k) = ix2 i k := funext fun a => Fin.ext (by
    match a with
    | ⟨0, _⟩ => exact lhsE1_5_0 _ _
    | ⟨1, _⟩ => exact (lhsE1_5_1 _ _).trans hk)
  have er : dot_S50000x128_S128x128_S50000x128_1_0_0_1_n_n.rhsIdx (ix2 i j) ((ValueIdx.contrEquiv1 dot_S50000x128_S128x128_S50000x128_1_0_0_1_n_n 128 rfl rfl).symm k) = ix2 k j := funext fun a => Fin.ext (by
    match a with
    | ⟨0, _⟩ => exact (rhsE1_5_0 _ _).trans hk
    | ⟨1, _⟩ => exact rhsE1_5_1 _ _)
  rw [el, er]

/-! ## The relation's output from the mean message -/

/-- The relation's output as the program composes it: the mean message times the transposed left slab, plus the bias
    row, plus the node features times the transposed right slab. -/
def relOutE1_5 {F : FTy → Type} [FloatOps F] (msg x : FVec F S50000x128 .f32) (wl wr : FVec F S6x128x128 .f32)
    (bl : FVec F S6x128 .f32) : FVec F S50000x128 .f32 :=
  addf (addf (Host.dotGeneral dot_S50000x128_S128x128_S50000x128_1_0_0_1_n_n none msg (transpose S128x128 [1, 0] (shapeCast S128x128 (extractStridedSlice S1x128x128 ![5, 0, 0] wl slices_S6x128x128_S1x128x128_5_0_0) shapeCasts_S1x128x128_S128x128) transposes_S128x128_S128x128_1_0))
      (broadcastInDim S50000x128 ![0, 1] bcast_S1x128_S50000x128_0_1 (broadcastInDim S1x128 ![1] bcast_S128_S1x128_1 (shapeCast S128 (extractStridedSlice S1x128 ![5, 0] bl slices_S6x128_S1x128_5_0) shapeCasts_S1x128_S128))))
    (Host.dotGeneral dot_S50000x128_S128x128_S50000x128_1_0_0_1_n_n none x (transpose S128x128 [1, 0] (shapeCast S128x128 (extractStridedSlice S1x128x128 ![5, 0, 0] wr slices_S6x128x128_S1x128x128_5_0_0) shapeCasts_S1x128x128_S128x128) transposes_S128x128_S128x128_1_0))

/-- Read at row `i` and feature `j`, it is the relation's law on the two rows. -/
theorem relOutE1_5_apply (msg x : FVec Ideal S50000x128 .f32) (wl wr : FVec Ideal S6x128x128 .f32) (bl : FVec Ideal S6x128 .f32)
    (i : Fin 50000) (j : Fin 128) :
    relOutE1_5 msg x wl wr bl (ix2 i j)
      = Cert.Spec.sage (fun k => msg (ix2 i k)) (fun k => x (ix2 i k)) (fun k j => wl (ix3 (5 : Fin 6) j k))
          (fun k j => wr (ix3 (5 : Fin 6) j k)) (fun j => bl (ix2 (5 : Fin 6) j)) j := by
  unfold relOutE1_5 Cert.Spec.sage
  rw [addf_apply, addf_apply, dotE1_5_apply, dotE1_5_apply, biasRowE1_5_apply]
  refine congrArg₂ (· + ·) (congrArg (· + bl (ix2 (5 : Fin 6) j)) (Finset.sum_congr rfl fun k _ => ?_)) (Finset.sum_congr rfl fun k _ => ?_)
  · exact congrArg (msg (ix2 i k) * ·) (slabTE1_5_apply wl k j)
  · exact congrArg (x (ix2 i k) * ·) (slabTE1_5_apply wr k j)

/-! ## The stretch -/

set_option maxHeartbeats 1000000 in
/-- After the stretch, the output buffer holds the relation's composition of the mean message buffer, the node
    features and the stacked weights the stretch reads. -/
theorem stageE1_5_eq {F : FTy → Type} [FloatOps F] (W : Valuation τ sig (Elt F)) :
    (after (cE1_5 (F := F)) W (Proc.devRef .tc main_v566) : FVec F S50000x128 .f32)
      = relOutE1_5 (after (cE1_5 (F := F)) W (Proc.devRef .tc main_v558)) (W (Proc.devRef .tc main_v306))
          (W (Proc.devRef .tc main_v340)) (W (Proc.devRef .tc main_v344)) (W (Proc.devRef .tc main_v342)) := by
  simp only [cE1_5]
  after_results_simp <;> rfl

/-- The stretch's output at row `i` and feature `j` is the relation's law on row `i` of the mean message and of the
    node features, with the relation's slabs of the stacked weights read transposed. -/
theorem stageE1_5_apply (W : Valuation τ sig (Elt Ideal)) (i : Fin 50000) (j : Fin 128) :
    (after cE1_5 W (Proc.devRef .tc main_v566) : Vec Ideal S50000x128 .f32) (ix2 i j)
      = Cert.Spec.sage (fun k => (after cE1_5 W (Proc.devRef .tc main_v558) : Vec Ideal S50000x128 .f32) (ix2 i k))
          (fun k => (W (Proc.devRef .tc main_v306) : Vec Ideal S50000x128 .f32) (ix2 i k))
          (fun k j => (W (Proc.devRef .tc main_v340) : Vec Ideal S6x128x128 .f32) (ix3 (5 : Fin 6) j k))
          (fun k j => (W (Proc.devRef .tc main_v344) : Vec Ideal S6x128x128 .f32) (ix3 (5 : Fin 6) j k))
          (fun j => (W (Proc.devRef .tc main_v342) : Vec Ideal S6x128 .f32) (ix2 (5 : Fin 6) j)) j :=
  (congrFun (stageE1_5_eq (F := Ideal) W) (ix2 i j)).trans (relOutE1_5_apply _ _ _ _ _ i j)

end Cert.ReferenceIdeal.Stage

end
-- ==== Proof.Layer1p.lean ====
/-
  Layer 1, node type 1 (50000 nodes): after the kernel program's pallas_call 4 and after the reference's stage of
  that node type, the node features are the same array. Row by row both are the row formula: on the kernel side of
  the blocks the pallas_call wrote back, on the reference side of the two relation outputs and the normalisation
  stage; the rows that go in agree — the neighbour means and the nodes' own features by the shared host operations,
  the weights, biases and normalisation parameters as the same entries of the arguments.
-/
import proofs.«159317_j31121333027532_1_alg».proof.Proof.KReg4
import proofs.«159317_j31121333027532_1_alg».proof.Proof.KBody4
import proofs.«159317_j31121333027532_1_alg».proof.Proof.KWin
import proofs.«159317_j31121333027532_1_alg».proof.Proof.RStageS1p
import proofs.«159317_j31121333027532_1_alg».proof.Proof.RStageE1_0
import proofs.«159317_j31121333027532_1_alg».proof.Proof.RStageE1_5
import proofs.«159317_j31121333027532_1_alg».proof.Proof.RWt
import proofs.«159317_j31121333027532_1_alg».proof.Proof.GlueHost
import proofs.«159317_j31121333027532_1_alg».proof.Proof.SpecCongr
import proofs.«159317_j31121333027532_1_alg».proof.Proof.Layer0c
import proofs.«159317_j31121333027532_1_alg».proof.Proof.Layer0p
import proofs.«159317_j31121333027532_1_alg».proof.Proof.Layer0s

noncomputable section

namespace Cert.Glue

open Idealize.ShloMosaic Idealize.ShloMosaic.TcCoe Idealize.SL.Sem Idealize.ShloMosaic.StableHlo Idealize.ShloMosaic.ValueIdx
open Cert.ReferenceIdeal.Chunks Cert.KernelIdeal.GenP

local notation:max "kb(" r ")" => Proc.devRef (τ := Cert.KernelIdeal.τ) (sig := Cert.KernelIdeal.sig) Proc.tc r
local notation:max "rb(" r ")" => Proc.devRef (τ := Cert.ReferenceIdeal.τ) (sig := Cert.ReferenceIdeal.sig) Proc.tc r

variable (m : (ℓ : Loc Cert.KernelIdeal.nD Cert.KernelIdeal.τ Cert.KernelIdeal.sig) → Buf (Elt Ideal) ℓ)
  (ρ : Dev Cert.KernelIdeal.nD → PrngReg) (c : Dev Cert.KernelIdeal.nD)
  (V : Valuation Cert.ReferenceIdeal.τ Cert.ReferenceIdeal.sig (Elt Ideal))

set_option maxHeartbeats 8000000 in
/-- The 50000 x 128 node features after layer 1: the reference's array is the kernel program's. -/
theorem X2p (hA : Agree m c V) :
    R20 V rb(Cert.ReferenceIdeal.main_v630) = W10 m ρ c kb(Cert.KernelIdeal.main_v391) := by
  have hA' := hA
  obtain ⟨h0, h1, h2, h3, h4, h5, h6, h7, h8, h9, h10, h11, h12, h13, h14, h15, h16, h17, h18, h19⟩ := hA'
  refine funext fun (idx : Cert.KernelIdeal.S50000x128.Idx) => ?_
  obtain ⟨i, j, rfl⟩ : ∃ (i : Fin 50000) (j : Fin 128), idx = ix2 i j := ⟨idx 0, idx 1, eq_ix2 idx⟩
  -- the reference's stage at (i, j), and the kernel program's array at (i, j)
  refine ((Cert.ReferenceIdeal.Stage.stageS1_p_apply (R19 V) i j).trans ?_).trans
    ((congrFun (W10_arr m ρ c 11) (ix2 i j)).trans
      (Cert.KernelIdeal.Val.region4_apply (fun x0 x1 x2 x3 x4 x5 x6 x7 x8 x9 x10 p q => Cert.KernelIdeal.Val.body4_apply x0 x1 x2 x3 x4 x5 x6 x7 x8 x9 x10 p q) (V9 m ρ) c i j)).symm
  rw [Cert.Spec.row_eq]
  refine Cert.Spec.lnrelu_congr (funext fun j' => ?_) (funext fun j' => ?_) (funext fun j' => ?_) j
  · -- the two relations' outputs at (i, j')
    have ho1 : (R19 V rb(Cert.ReferenceIdeal.main_v381)) (ix2 i j') = _ :=
      (congrFun (Cert.ReferenceIdeal.Stage.carry_main_v381_13_19 V) (ix2 i j')).trans (Cert.ReferenceIdeal.Stage.stageE1_0_apply (R12 V) i j')
    have ho2 : (R19 V rb(Cert.ReferenceIdeal.main_v566)) (ix2 i j') = _ :=
      (congrFun (Cert.ReferenceIdeal.Stage.carry_main_v566_18_19 V) (ix2 i j')).trans (Cert.ReferenceIdeal.Stage.stageE1_5_apply (R17 V) i j')
    refine (congrArg₂ (HAdd.hAdd (α := EReal) (β := EReal) (γ := EReal)) ho1 ho2).trans ?_
    refine congrArg₂ (HAdd.hAdd (α := EReal) (β := EReal) (γ := EReal)) (Cert.Spec.sage_congr ?_ ?_ ?_ ?_ ?_ j') (Cert.Spec.sage_congr ?_ ?_ ?_ ?_ ?_ j')
    · -- the neighbour mean of relation 0
      funext k; exact congrFun ((M1_0 m ρ c V hA (X1c m ρ c V hA)).trans (Cert.KernelIdeal.Carry.carry_v242_7_9 m ρ c).symm) (ix2 i k)
    · -- the node's own features
      funext k; exact congrFun ((Cert.ReferenceIdeal.Stage.carry_main_v306_10_12 V).trans ((X1p m ρ c V hA).trans (Cert.KernelIdeal.Carry.carry_v194_4_9 m ρ c).symm)) (ix2 i k)
    · funext k j''; exact ((Cert.ReferenceIdeal.Stage.rwt1_0_wl V j'' k).trans (congrFun h15 _)).trans (Cert.KernelIdeal.Val.kwin4_wl1 m ρ c k j'').symm
    · funext k j''; exact ((Cert.ReferenceIdeal.Stage.rwt1_0_wr V j'' k).trans (congrFun h17 _)).trans (Cert.KernelIdeal.Val.kwin4_wr1 m ρ c k j'').symm
    · funext j''; exact ((Cert.ReferenceIdeal.Stage.rwt1_0_bl V j'').trans (congrFun h16 _)).trans (Cert.KernelIdeal.Val.kwin4_bl1 m ρ c j'').symm
    · -- the neighbour mean of relation 5
      funext k; exact congrFun ((M1_5 m ρ c V hA (X1s m ρ c V hA)).trans (Cert.KernelIdeal.Carry.carry_v357_7_9 m ρ c).symm) (ix2 i k)
    · -- the node's own features
      funext k; exact congrFun ((Cert.ReferenceIdeal.Stage.carry_main_v306_10_17 V).trans ((X1p m ρ c V hA).trans (Cert.KernelIdeal.Carry.carry_v194_4_9 m ρ c).symm)) (ix2 i k)
    · funext k j''; exact ((Cert.ReferenceIdeal.Stage.rwt1_5_wl V j'' k).trans (congrFun h15 _)).trans (Cert.KernelIdeal.Val.kwin4_wl2 m ρ c k j'').symm
    · funext k j''; exact ((Cert.ReferenceIdeal.Stage.rwt1_5_wr V j'' k).trans (congrFun h17 _)).trans (Cert.KernelIdeal.Val.kwin4_wr2 m ρ c k j'').symm
    · funext j''; exact ((Cert.ReferenceIdeal.Stage.rwt1_5_bl V j'').trans (congrFun h16 _)).trans (Cert.KernelIdeal.Val.kwin4_bl2 m ρ c j'').symm
  · -- the scale
    exact ((Cert.ReferenceIdeal.Stage.rpar1_1_g V j').trans (congrFun h18 _)).trans (Cert.KernelIdeal.Val.kwin4_g m ρ c j').symm
  · -- the shift
    exact ((Cert.ReferenceIdeal.Stage.rpar1_1_b V j').trans (congrFun h19 _)).trans (Cert.KernelIdeal.Val.kwin4_b m ρ c j').symm

end Cert.Glue

end
-- ==== Proof.KReg5.lean ====
/-
  Region 5 of the kernel program, read as a value. The region's 1 grid points each take a block of 5000 rows of the
  three row arrays (and the whole weight matrices and vectors) to the same block of rows of the output array, every
  row by the row formula. The 1 blocks tile the 5000 rows, so after the region the output array holds at every
  row the row formula of that row, the body's payload at an index being the row formula (a hypothesis here).
-/
import proofs.«159317_j31121333027532_1_alg».proof.Proof.KIFrameReg5
import proofs.«159317_j31121333027532_1_alg».proof.Proof.Spec
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.GenP Idealize.ShloMosaic Idealize.ShloMosaic.TcCoe Idealize.ShloMosaic.ValueIdx
open Idealize.ShloMosaic.Pipeline (Dat)

/-- The body's payload at an index is the row formula (proved elsewhere). -/
def Body5 : Prop := ∀ (x0 x1 x2 : Vec Ideal S5000x128 .f32) (x3 x4 x5 x6 : Vec Ideal S128x128 .f32) (x7 x8 x9 x10 : Vec Ideal S128 .f32) (p : Fin 5000) (q : Fin 128),
    k5_pay1 (F := Ideal) (k5_pay2 (F := Ideal) x0 x1 x2 x3 x4 x5 x6 x7 x8) (Scalar.ofBits .f32 0x3F000000#32) x9 x10 (ix2 p q)
      = Cert.Spec.row (fun k => x0 (ix2 p k)) (fun k => x1 (ix2 p k)) (fun k => x2 (ix2 p k))
          (fun k j => x3 (ix2 k j)) (fun k j => x4 (ix2 k j)) (fun k j => x5 (ix2 k j)) (fun k j => x6 (ix2 k j))
          (fun j => x7 (ix1 j)) (fun j => x8 (ix1 j)) (fun j => x9 (ix1 j)) (fun j => x10 (ix1 j)) q

namespace Reg5

/-- Row r, feature q of the region's result, from the three row arrays, the four weight matrices and the four vectors. -/
def rowAt (a0 a1 a2 : Vec Ideal S5000x128 .f32) (a3 a4 a5 a6 : Vec Ideal S128x128 .f32) (a7 a8 a9 a10 : Vec Ideal S128 .f32)
    (r : Fin 5000) (q : Fin 128) : EReal :=
  Cert.Spec.row (fun k => a0 (ix2 r k)) (fun k => a1 (ix2 r k)) (fun k => a2 (ix2 r k))
    (fun k j => a3 (ix2 k j)) (fun k j => a4 (ix2 k j)) (fun k j => a5 (ix2 k j)) (fun k j => a6 (ix2 k j))
    (fun j => a7 (ix1 j)) (fun j => a8 (ix1 j)) (fun j => a9 (ix1 j)) (fun j => a10 (ix1 j)) q

/-- The region's result array: every row is the row formula of the same row of the row arrays. -/
def result (a0 a1 a2 : Vec Ideal S5000x128 .f32) (a3 a4 a5 a6 : Vec Ideal S128x128 .f32) (a7 a8 a9 a10 : Vec Ideal S128 .f32) :
    Vec Ideal S5000x128 .f32 :=
  fun i => rowAt a0 a1 a2 a3 a4 a5 a6 a7 a8 a9 a10 (i 0) (i 1)

/-- The result array at row r, feature q. -/
theorem result_apply (a0 a1 a2 : Vec Ideal S5000x128 .f32) (a3 a4 a5 a6 : Vec Ideal S128x128 .f32) (a7 a8 a9 a10 : Vec Ideal S128 .f32)
    (r : Fin 5000) (q : Fin 128) :
    result a0 a1 a2 a3 a4 a5 a6 a7 a8 a9 a10 (ix2 r q)
      = Cert.Spec.row (fun k => a0 (ix2 r k)) (fun k => a1 (ix2 r k)) (fun k => a2 (ix2 r k))
          (fun k j => a3 (ix2 k j)) (fun k j => a4 (ix2 k j)) (fun k j => a5 (ix2 k j)) (fun k j => a6 (ix2 k j))
          (fun j => a7 (ix1 j)) (fun j => a8 (ix1 j)) (fun j => a9 (ix1 j)) (fun j => a10 (ix1 j)) q := rfl

/-- The row formula respects equality of each of its eleven arguments. -/
theorem row_congr {m1 m1' m2 m2' x x' : Fin 128 → EReal} {wl1 wl1' wl2 wl2' wr1 wr1' wr2 wr2' : Fin 128 → Fin 128 → EReal}
    {bl1 bl1' bl2 bl2' g g' b b' : Fin 128 → EReal}
    (ha : m1 = m1') (hb : m2 = m2') (hc : x = x') (hd : wl1 = wl1') (he : wl2 = wl2') (hf : wr1 = wr1') (hg : wr2 = wr2')
    (hh : bl1 = bl1') (hi : bl2 = bl2') (hj : g = g') (hk : b = b') (q : Fin 128) :
    Cert.Spec.row m1 m2 x wl1 wl2 wr1 wr2 bl1 bl2 g b q = Cert.Spec.row m1' m2' x' wl1' wl2' wr1' wr2' bl1' bl2' g' b' q := by
  subst ha hb hc hd he hf hg hh hi hj hk; rfl

theorem zeros_two : (![0, 0] : Fin 2 → Nat) = fun _ => 0 := funext fun a => by fin_cases a <;> rfl
theorem zeros_one : (![0] : Fin 1 → Nat) = fun _ => 0 := funext fun a => by fin_cases a <;> rfl

/-- Window 0's block index at point t: row block t, lane block 0. -/
theorem idx_rowsA : ∀ t : Fin cfg5.N, win5_0.index t (0 : Fin 2) = t.val ∧ win5_0.index t (1 : Fin 2) = 0 :=
  (by decide +kernel : ∀ t : Fin grid5.N, win5_0.index t (0 : Fin 2) = t.val ∧ win5_0.index t (1 : Fin 2) = 0)
/-- Window 1's block index at point t: row block t, lane block 0. -/
theorem idx_rowsB : ∀ t : Fin cfg5.N, win5_1.index t (0 : Fin 2) = t.val ∧ win5_1.index t (1 : Fin 2) = 0 :=
  (by decide +kernel : ∀ t : Fin grid5.N, win5_1.index t (0 : Fin 2) = t.val ∧ win5_1.index t (1 : Fin 2) = 0)
/-- Window 2's block index at point t: row block t, lane block 0. -/
theorem idx_rowsC : ∀ t : Fin cfg5.N, win5_2.index t (0 : Fin 2) = t.val ∧ win5_2.index t (1 : Fin 2) = 0 :=
  (by decide +kernel : ∀ t : Fin grid5.N, win5_2.index t (0 : Fin 2) = t.val ∧ win5_2.index t (1 : Fin 2) = 0)
/-- Window 11's block index at point t: row block t, lane block 0. -/
theorem idx_out : ∀ t : Fin cfg5.N, win5_11.index t (0 : Fin 2) = t.val ∧ win5_11.index t (1 : Fin 2) = 0 :=
  (by decide +kernel : ∀ t : Fin grid5.N, win5_11.index t (0 : Fin 2) = t.val ∧ win5_11.index t (1 : Fin 2) = 0)
/-- Window 3's block index is zero on both axes at every point: the whole matrix. -/
theorem idx_matA : ∀ t : Fin cfg5.N, win5_3.index t (0 : Fin 2) = 0 ∧ win5_3.index t (1 : Fin 2) = 0 :=
  (by decide +kernel : ∀ t : Fin grid5.N, win5_3.index t (0 : Fin 2) = 0 ∧ win5_3.index t (1 : Fin 2) = 0)
/-- Window 4's block index is zero on both axes at every point: the whole matrix. -/
theorem idx_matB : ∀ t : Fin cfg5.N, win5_4.index t (0 : Fin 2) = 0 ∧ win5_4.index t (1 : Fin 2) = 0 :=
  (by decide +kernel : ∀ t : Fin grid5.N, win5_4.index t (0 : Fin 2) = 0 ∧ win5_4.index t (1 : Fin 2) = 0)
/-- Window 5's block index is zero on both axes at every point: the whole matrix. -/
theorem idx_matC : ∀ t : Fin cfg5.N, win5_5.index t (0 : Fin 2) = 0 ∧ win5_5.index t (1 : Fin 2) = 0 :=
  (by decide +kernel : ∀ t : Fin grid5.N, win5_5.index t (0 : Fin 2) = 0 ∧ win5_5.index t (1 : Fin 2) = 0)
/-- Window 6's block index is zero on both axes at every point: the whole matrix. -/
theorem idx_matD : ∀ t : Fin cfg5.N, win5_6.index t (0 : Fin 2) = 0 ∧ win5_6.index t (1 : Fin 2) = 0 :=
  (by decide +kernel : ∀ t : Fin grid5.N, win5_6.index t (0 : Fin 2) = 0 ∧ win5_6.index t (1 : Fin 2) = 0)
/-- Window 7's block index is zero at every point: the whole vector. -/
theorem idx_vecA : ∀ t : Fin cfg5.N, win5_7.index t (0 : Fin 1) = 0 :=
  (by decide +kernel : ∀ t : Fin grid5.N, win5_7.index t (0 : Fin 1) = 0)
/-- Window 8's block index is zero at every point: the whole vector. -/
theorem idx_vecB : ∀ t : Fin cfg5.N, win5_8.index t (0 : Fin 1) = 0 :=
  (by decide +kernel : ∀ t : Fin grid5.N, win5_8.index t (0 : Fin 1) = 0)
/-- Window 9's block index is zero at every point: the whole vector. -/
theorem idx_vecC : ∀ t : Fin cfg5.N, win5_9.index t (0 : Fin 1) = 0 :=
  (by decide +kernel : ∀ t : Fin grid5.N, win5_9.index t (0 : Fin 1) = 0)
/-- Window 10's block index is zero at every point: the whole vector. -/
theorem idx_vecD : ∀ t : Fin cfg5.N, win5_10.index t (0 : Fin 1) = 0 :=
  (by decide +kernel : ∀ t : Fin grid5.N, win5_10.index t (0 : Fin 1) = 0)

/-- The row blocks fill the rows exactly. -/
theorem rows_eq : cfg5.N * 5000 = 5000 := (by decide +kernel : grid5.N * 5000 = 5000)

/-- The array row of row p of the block at point t. -/
def rowOf (t : Fin cfg5.N) (p : Fin 5000) : Fin 5000 :=
  ⟨t.val * 5000 + p.val, by have h := rows_eq; have ht := t.isLt; have hp := p.isLt; omega⟩

variable (V : (c : Dev nD) → (b : Ref sig .tc) → Buf (Elt Ideal) ((c : Thread nD τ).loc b))

/-- Row p of window 0's block at point t is row t * 5000 + p of its array. -/
theorem rowsA_apply (c : Dev nD) (t : Fin cfg5.N) (p : Fin 5000) (k : Fin 128) :
    (iblk5 V c 0 t : Vec Ideal S5000x128 .f32) (ix2 p k) = (V c main_v288 : Vec Ideal S5000x128 .f32) (ix2 (rowOf t p) k) := by
  obtain ⟨ea, eb⟩ := idx_rowsA t
  unfold iblk5
  rw [View.read_apply]
  show (V c main_v288 : Vec Ideal S5000x128 .f32) (((cfg5.win 0).blk t).view.emb (ix2 p k)) = _
  refine congrArg (V c main_v288 : Vec Ideal S5000x128 .f32) ?_
  funext a
  apply Fin.ext
  match a with
  | ⟨0, _⟩ => show win5_0.index t (0 : Fin 2) * 5000 + 1 * p.val = t.val * 5000 + p.val; omega
  | ⟨1, _⟩ => show win5_0.index t (1 : Fin 2) * 128 + 1 * k.val = k.val; omega
/-- Row p of window 1's block at point t is row t * 5000 + p of its array. -/
theorem rowsB_apply (c : Dev nD) (t : Fin cfg5.N) (p : Fin 5000) (k : Fin 128) :
    (iblk5 V c 1 t : Vec Ideal S5000x128 .f32) (ix2 p k) = (V c main_v334 : Vec Ideal S5000x128 .f32) (ix2 (rowOf t p) k) := by
  obtain ⟨ea, eb⟩ := idx_rowsB t
  unfold iblk5
  rw [View.read_apply]
  show (V c main_v334 : Vec Ideal S5000x128 .f32) (((cfg5.win 1).blk t).view.emb (ix2 p k)) = _
  refine congrArg (V c main_v334 : Vec Ideal S5000x128 .f32) ?_
  funext a
  apply Fin.ext
  match a with
  | ⟨0, _⟩ => show win5_1.index t (0 : Fin 2) * 5000 + 1 * p.val = t.val * 5000 + p.val; omega
  | ⟨1, _⟩ => show win5_1.index t (1 : Fin 2) * 128 + 1 * k.val = k.val; omega
/-- Row p of window 2's block at point t is row t * 5000 + p of its array. -/
theorem rowsC_apply (c : Dev nD) (t : Fin cfg5.N) (p : Fin 5000) (k : Fin 128) :
    (iblk5 V c 2 t : Vec Ideal S5000x128 .f32) (ix2 p k) = (V c main_v211 : Vec Ideal S5000x128 .f32) (ix2 (rowOf t p) k) := by
  obtain ⟨ea, eb⟩ := idx_rowsC t
  unfold iblk5
  rw [View.read_apply]
  show (V c main_v211 : Vec Ideal S5000x128 .f32) (((cfg5.win 2).blk t).view.emb (ix2 p k)) = _
  refine congrArg (V c main_v211 : Vec Ideal S5000x128 .f32) ?_
  funext a
  apply Fin.ext
  match a with
  | ⟨0, _⟩ => show win5_2.index t (0 : Fin 2) * 5000 + 1 * p.val = t.val * 5000 + p.val; omega
  | ⟨1, _⟩ => show win5_2.index t (1 : Fin 2) * 128 + 1 * k.val = k.val; omega
/-- Window 3's block at any point is its whole matrix. -/
theorem matA_apply (c : Dev nD) (t : Fin cfg5.N) (k j : Fin 128) :
    (iblk5 V c 3 t : Vec Ideal S128x128 .f32) (ix2 k j) = (V c main_v393 : Vec Ideal S128x128 .f32) (ix2 k j) := by
  obtain ⟨ea, eb⟩ := idx_matA t
  unfold iblk5
  rw [View.read_apply]
  show (V c main_v393 : Vec Ideal S128x128 .f32) (((cfg5.win 3).blk t).view.emb (ix2 k j)) = _
  refine congrArg (V c main_v393 : Vec Ideal S128x128 .f32) ?_
  funext a
  apply Fin.ext
  match a with
  | ⟨0, _⟩ => show win5_3.index t (0 : Fin 2) * 128 + 1 * k.val = k.val; omega
  | ⟨1, _⟩ => show win5_3.index t (1 : Fin 2) * 128 + 1 * j.val = j.val; omega
/-- Window 4's block at any point is its whole matrix. -/
theorem matB_apply (c : Dev nD) (t : Fin cfg5.N) (k j : Fin 128) :
    (iblk5 V c 4 t : Vec Ideal S128x128 .f32) (ix2 k j) = (V c main_v395 : Vec Ideal S128x128 .f32) (ix2 k j) := by
  obtain ⟨ea, eb⟩ := idx_matB t
  unfold iblk5
  rw [View.read_apply]
  show (V c main_v395 : Vec Ideal S128x128 .f32) (((cfg5.win 4).blk t).view.emb (ix2 k j)) = _
  refine congrArg (V c main_v395 : Vec Ideal S128x128 .f32) ?_
  funext a
  apply Fin.ext
  match a with
  | ⟨0, _⟩ => show win5_4.index t (0 : Fin 2) * 128 + 1 * k.val = k.val; omega
  | ⟨1, _⟩ => show win5_4.index t (1 : Fin 2) * 128 + 1 * j.val = j.val; omega
/-- Window 5's block at any point is its whole matrix. -/
theorem matC_apply (c : Dev nD) (t : Fin cfg5.N) (k j : Fin 128) :
    (iblk5 V c 5 t : Vec Ideal S128x128 .f32) (ix2 k j) = (V c main_v397 : Vec Ideal S128x128 .f32) (ix2 k j) := by
  obtain ⟨ea, eb⟩ := idx_matC t
  unfold iblk5
  rw [View.read_apply]
  show (V c main_v397 : Vec Ideal S128x128 .f32) (((cfg5.win 5).blk t).view.emb (ix2 k j)) = _
  refine congrArg (V c main_v397 : Vec Ideal S128x128 .f32) ?_
  funext a
  apply Fin.ext
  match a with
  | ⟨0, _⟩ => show win5_5.index t (0 : Fin 2) * 128 + 1 * k.val = k.val; omega
  | ⟨1, _⟩ => show win5_5.index t (1 : Fin 2) * 128 + 1 * j.val = j.val; omega
/-- Window 6's block at any point is its whole matrix. -/
theorem matD_apply (c : Dev nD) (t : Fin cfg5.N) (k j : Fin 128) :
    (iblk5 V c 6 t : Vec Ideal S128x128 .f32) (ix2 k j) = (V c main_v399 : Vec Ideal S128x128 .f32) (ix2 k j) := by
  obtain ⟨ea, eb⟩ := idx_matD t
  unfold iblk5
  rw [View.read_apply]
  show (V c main_v399 : Vec Ideal S128x128 .f32) (((cfg5.win 6).blk t).view.emb (ix2 k j)) = _
  refine congrArg (V c main_v399 : Vec Ideal S128x128 .f32) ?_
  funext a
  apply Fin.ext
  match a with
  | ⟨0, _⟩ => show win5_6.index t (0 : Fin 2) * 128 + 1 * k.val = k.val; omega
  | ⟨1, _⟩ => show win5_6.index t (1 : Fin 2) * 128 + 1 * j.val = j.val; omega
/-- Window 7's block at any point is its whole vector. -/
theorem vecA_apply (c : Dev nD) (t : Fin cfg5.N) (j : Fin 128) :
    (iblk5 V c 7 t : Vec Ideal S128 .f32) (ix1 j) = (V c main_v401 : Vec Ideal S128 .f32) (ix1 j) := by
  have ea := idx_vecA t
  unfold iblk5
  rw [View.read_apply]
  show (V c main_v401 : Vec Ideal S128 .f32) (((cfg5.win 7).blk t).view.emb (ix1 j)) = _
  refine congrArg (V c main_v401 : Vec Ideal S128 .f32) ?_
  funext a
  apply Fin.ext
  match a with
  | ⟨0, _⟩ => show win5_7.index t (0 : Fin 1) * 128 + 1 * j.val = j.val; omega
/-- Window 8's block at any point is its whole vector. -/
theorem vecB_apply (c : Dev nD) (t : Fin cfg5.N) (j : Fin 128) :
    (iblk5 V c 8 t : Vec Ideal S128 .f32) (ix1 j) = (V c main_v403 : Vec Ideal S128 .f32) (ix1 j) := by
  have ea := idx_vecB t
  unfold iblk5
  rw [View.read_apply]
  show (V c main_v403 : Vec Ideal S128 .f32) (((cfg5.win 8).blk t).view.emb (ix1 j)) = _
  refine congrArg (V c main_v403 : Vec Ideal S128 .f32) ?_
  funext a
  apply Fin.ext
  match a with
  | ⟨0, _⟩ => show win5_8.index t (0 : Fin 1) * 128 + 1 * j.val = j.val; omega
/-- Window 9's block at any point is its whole vector. -/
theorem vecC_apply (c : Dev nD) (t : Fin cfg5.N) (j : Fin 128) :
    (iblk5 V c 9 t : Vec Ideal S128 .f32) (ix1 j) = (V c main_v405 : Vec Ideal S128 .f32) (ix1 j) := by
  have ea := idx_vecC t
  unfold iblk5
  rw [View.read_apply]
  show (V c main_v405 : Vec Ideal S128 .f32) (((cfg5.win 9).blk t).view.emb (ix1 j)) = _
  refine congrArg (V c main_v405 : Vec Ideal S128 .f32) ?_
  funext a
  apply Fin.ext
  match a with
  | ⟨0, _⟩ => show win5_9.index t (0 : Fin 1) * 128 + 1 * j.val = j.val; omega
/-- Window 10's block at any point is its whole vector. -/
theorem vecD_apply (c : Dev nD) (t : Fin cfg5.N) (j : Fin 128) :
    (iblk5 V c 10 t : Vec Ideal S128 .f32) (ix1 j) = (V c main_v407 : Vec Ideal S128 .f32) (ix1 j) := by
  have ea := idx_vecD t
  unfold iblk5
  rw [View.read_apply]
  show (V c main_v407 : Vec Ideal S128 .f32) (((cfg5.win 10).blk t).view.emb (ix1 j)) = _
  refine congrArg (V c main_v407 : Vec Ideal S128 .f32) ?_
  funext a
  apply Fin.ext
  match a with
  | ⟨0, _⟩ => show win5_10.index t (0 : Fin 1) * 128 + 1 * j.val = j.val; omega

/-- Element (p, q) of the output's block at point t sits at row t * 5000 + p, lane q of the array. -/
theorem out_emb (t : Fin cfg5.N) (p : Fin 5000) (q : Fin 128) :
    (((cfg5.win 11).blk t).view.emb (ix2 p q) : S5000x128.Idx) = ix2 (rowOf t p) q := by
  obtain ⟨ea, eb⟩ := idx_out t
  funext a
  apply Fin.ext
  match a with
  | ⟨0, _⟩ => show win5_11.index t (0 : Fin 2) * 5000 + 1 * p.val = t.val * 5000 + p.val; omega
  | ⟨1, _⟩ => show win5_11.index t (1 : Fin 2) * 128 + 1 * q.val = q.val; omega

/-- An array read through the output's block at point t, at element (p, q), is the array at row t * 5000 + p, lane q. -/
theorem out_read (G : Vec Ideal S5000x128 .f32) (t : Fin cfg5.N) (p : Fin 5000) (q : Fin 128) :
    ((cfg5.win 11).blk t).view.read (Elt Ideal) G (ix2 p q) = G (ix2 (rowOf t p) q) := by
  rw [View.read_apply]
  show G (((cfg5.win 11).blk t).view.emb (ix2 p q)) = _
  exact congrArg G (out_emb t p q)

/-- What point t writes back is block t of the result array. -/
theorem flushed_eq (hbody : Body5) (c : Dev nD) (t : Fin cfg5.N) :
    (dat5 (F := Ideal) V c).flushed 11 t
      = ((cfg5.win 11).blk t).view.read (Elt Ideal) (result (V c main_v288) (V c main_v334) (V c main_v211) (V c main_v393) (V c main_v395) (V c main_v397) (V c main_v399) (V c main_v401) (V c main_v403) (V c main_v405) (V c main_v407)) := by
  show (cfg5.win 11).cut (grid5.coords t) ((dat5 V c).after 11 t) = _
  rw [after5_11]
  unfold out5_11
  rw [View.canon_unit_zero zeros_two]
  simp only [View.ld_unit_zero (S := S5000x128) zeros_two, View.ld_unit_zero (S := S128x128) zeros_two, View.ld_unit_zero (S := S128) zeros_one]
  funext y
  obtain ⟨p, q, rfl⟩ : ∃ (p : Fin 5000) (q : Fin 128), y = ix2 p q := ⟨y 0, y 1, eq_ix2 y⟩
  refine (hbody (iblk5 V c 0 t) (iblk5 V c 1 t) (iblk5 V c 2 t) (iblk5 V c 3 t) (iblk5 V c 4 t) (iblk5 V c 5 t) (iblk5 V c 6 t) (iblk5 V c 7 t) (iblk5 V c 8 t) (iblk5 V c 9 t) (iblk5 V c 10 t) p q).trans ?_
  refine Eq.trans ?_ (out_read (result (V c main_v288) (V c main_v334) (V c main_v211) (V c main_v393) (V c main_v395) (V c main_v397) (V c main_v399) (V c main_v401) (V c main_v403) (V c main_v405) (V c main_v407)) t p q).symm
  refine Eq.trans ?_ (result_apply (V c main_v288) (V c main_v334) (V c main_v211) (V c main_v393) (V c main_v395) (V c main_v397) (V c main_v399) (V c main_v401) (V c main_v403) (V c main_v405) (V c main_v407) (rowOf t p) q).symm
  exact row_congr (funext fun k => rowsA_apply V c t p k) (funext fun k => rowsB_apply V c t p k) (funext fun k => rowsC_apply V c t p k)
    (funext fun k => funext fun j => matA_apply V c t k j) (funext fun k => funext fun j => matB_apply V c t k j)
    (funext fun k => funext fun j => matC_apply V c t k j) (funext fun k => funext fun j => matD_apply V c t k j)
    (funext fun j => vecA_apply V c t j) (funext fun j => vecB_apply V c t j) (funext fun j => vecC_apply V c t j)
    (funext fun j => vecD_apply V c t j) q

/-- An index of the array is in point t's block iff each coordinate is in the block's range on its axis. -/
theorem mem_blk (t : Fin cfg5.N) (i : S5000x128.Idx) :
    i ∈ ((cfg5.win 11).blk t).view.set ↔ ∀ a : Fin 2, win5_11.index t a * S5000x128.size a ≤ (i a).val ∧ (i a).val < win5_11.index t a * S5000x128.size a + S5000x128.size a := by
  show i ∈ ((View.whole (Pipeline.arrRef spec5 11)).slice (win5_11.rect t)).set ↔ _
  rw [View.set_slice_whole, Rect.mem_set_unit]
  exact Iff.rfl

/-- Every index of the array is in the block of the point its row falls in. -/
theorem cover (i : S5000x128.Idx) : ∃ t : Fin cfg5.N, (cfg5.win 11).flush t = true ∧ i ∈ ((cfg5.win 11).blk t).view.set := by
  have hi0 : (i 0).val < 5000 := (i 0).isLt
  have hi1 : (i 1).val < 128 := (i 1).isLt
  have hN := rows_eq
  obtain ⟨t, ht⟩ : ∃ t : Fin cfg5.N, t.val = (i 0).val / 5000 := ⟨⟨(i 0).val / 5000, by omega⟩, rfl⟩
  obtain ⟨ea, eb⟩ := idx_out t
  refine ⟨t, flush5_11 t, ?_⟩
  rw [mem_blk]
  intro a
  match a with
  | ⟨0, _⟩ => show win5_11.index t (0 : Fin 2) * 5000 ≤ (i 0).val ∧ (i 0).val < win5_11.index t (0 : Fin 2) * 5000 + 5000; omega
  | ⟨1, _⟩ => show win5_11.index t (1 : Fin 2) * 128 ≤ (i 1).val ∧ (i 1).val < win5_11.index t (1 : Fin 2) * 128 + 128; omega

/-- After the region the output array is the result array. -/
theorem final (hbody : Body5) (c : Dev nD) :
    (dat5 (F := Ideal) V c).arrAt 11 cfg5.N = result (V c main_v288) (V c main_v334) (V c main_v211) (V c main_v393) (V c main_v395) (V c main_v397) (V c main_v399) (V c main_v401) (V c main_v403) (V c main_v405) (V c main_v407) :=
  (dat5 (F := Ideal) V c).arrAt_eq_of_cover 11 (result (V c main_v288) (V c main_v334) (V c main_v211) (V c main_v393) (V c main_v395) (V c main_v397) (V c main_v399) (V c main_v401) (V c main_v403) (V c main_v405) (V c main_v407))
    (fun t _ => flushed_eq V hbody c t) cover

end Reg5

/-- After region 5 its output array holds, at every row, the row formula of that row of the three row arrays. -/
theorem region5_apply (hbody : Body5)
    (V : (c : Dev nD) → (b : Ref sig .tc) → Buf (Elt Ideal) ((c : Thread nD τ).loc b)) (c : Dev nD) (i : Fin 5000) (j : Fin 128) :
    ((dat5 (F := Ideal) V c).arrAt 11 cfg5.N : Vec Ideal S5000x128 .f32) (ix2 i j)
      = Cert.Spec.row (fun k => (V c main_v288 : Vec Ideal S5000x128 .f32) (ix2 i k)) (fun k => (V c main_v334 : Vec Ideal S5000x128 .f32) (ix2 i k))
          (fun k => (V c main_v211 : Vec Ideal S5000x128 .f32) (ix2 i k))
          (fun k j => (V c main_v393 : Vec Ideal S128x128 .f32) (ix2 k j)) (fun k j => (V c main_v395 : Vec Ideal S128x128 .f32) (ix2 k j))
          (fun k j => (V c main_v397 : Vec Ideal S128x128 .f32) (ix2 k j)) (fun k j => (V c main_v399 : Vec Ideal S128x128 .f32) (ix2 k j))
          (fun j => (V c main_v401 : Vec Ideal S128 .f32) (ix1 j)) (fun j => (V c main_v403 : Vec Ideal S128 .f32) (ix1 j))
          (fun j => (V c main_v405 : Vec Ideal S128 .f32) (ix1 j)) (fun j => (V c main_v407 : Vec Ideal S128 .f32) (ix1 j)) j :=
  (congrFun (Reg5.final V hbody c) (ix2 i j)).trans
    (Reg5.result_apply (V c main_v288) (V c main_v334) (V c main_v211) (V c main_v393) (V c main_v395) (V c main_v397) (V c main_v399) (V c main_v401) (V c main_v403) (V c main_v405) (V c main_v407) i j)

end Cert.KernelIdeal.Val

end
-- ==== Proof.KBody5.lean ====
/-
  The kernel body's value at an index, for blocks of 5000 rows.

  For a block of 5000 rows of 128 features the body forms the two relations' outputs (four products of the block's
  rows with 128 × 128 weight matrices into zero accumulators, two bias rows, all summed), halves the sum, normalises
  each row along its 128 lanes (mean and variance as lane sums divided by 128, the variance shifted by a small
  constant before the reciprocal square root), scales and shifts per feature, and clips below at zero. Read at row p
  and feature q, that is the row formula `Cert.Spec.row` of the three input rows at p.
-/
import proofs.«159317_j31121333027532_1_alg».proof.Proof.Gen.KernelIdeal.Skeleton
import proofs.«159317_j31121333027532_1_alg».proof.Proof.Spec
import proofs.«159317_j31121333027532_1_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Val

open Cert.KernelIdeal Cert.KernelIdeal.Gen Idealize.ShloMosaic Idealize.ShloMosaic.ValueIdx

/-! ## A product of a block of rows with a square matrix, read at an index -/

/-- The left operand's index at output row `i 0`: its row coordinate. -/
theorem k5_lhs_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- Its column coordinate is the contraction index. -/
theorem k5_lhs_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- The right operand's row coordinate is the contraction index. -/
theorem k5_rhs_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- Its column coordinate is the output's. -/
theorem k5_rhs_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- Into the zero accumulator the product at (p, q) is the sum over k of the left operand at (p, k) times the right
    at (k, q). -/
theorem k5_matmul_apply (a : FVec Ideal S5000x128 .bf16) (w : FVec Ideal S128x128 .bf16) (p : Fin 5000) (q : Fin 128) :
    matmul dot_S5000x128_S128x128_S5000x128_1_0_0_1_n_n none a w (constant (F := Ideal) S5000x128 .f32 0x00000000#32) (ix2 p q)
      = ∑ k : Fin 128, a (ix2 p k) * w (ix2 k q) := by
  refine (Ideal.matmul_constant_zero_apply dot_S5000x128_S128x128_S5000x128_1_0_0_1_n_n none a w (ix2 p q)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact k5_lhs_0 _ _
    | ⟨1, _⟩ => exact (k5_lhs_1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (k5_rhs_0 _ _).trans hk
    | ⟨1, _⟩ => exact k5_rhs_1 _ _)
  rw [el, er]

/-! ## The layout operations of the payloads, read at an index -/

/-- A block of rows cast to its own shape reads the block. -/
theorem k5_cast_rows_apply (v : FVec Ideal S5000x128 .f32) (i : S5000x128.Idx) :
    shapeCast S5000x128 v shapeCasts_S5000x128_S5000x128 i = v i :=
  congrFun (shapeCast_self v shapeCasts_S5000x128_S5000x128) i

/-- A square matrix cast to its own shape reads the matrix. -/
theorem k5_cast_sq_apply (v : FVec Ideal S128x128 .f32) (i : S128x128.Idx) :
    shapeCast S128x128 v shapeCasts_S128x128_S128x128 i = v i :=
  congrFun (shapeCast_self v shapeCasts_S128x128_S128x128) i

/-- A feature vector cast to itself, then to a row [1, 128], and broadcast down the rows: at (p, q), the vector at q. -/
theorem k5_row_apply (v : FVec Ideal S128 .f32) (p : Fin 5000) (q : Fin 128) :
    broadcastTo S5000x128 (shapeCast S1x128 (shapeCast S128 v shapeCasts_S128_S128) shapeCasts_S128_S1x128)
      broadcasts_S1x128_S5000x128 (ix2 p q) = v (ix1 q) := by
  refine (broadcastTo_1b_ab_apply _ broadcasts_S1x128_S5000x128 p q).trans ?_
  refine (shapeCast_a_1a_apply _ shapeCasts_S128_S1x128 (0 : Fin 1) q).trans ?_
  exact congrFun (shapeCast_self v shapeCasts_S128_S128) _

/-- A column [5000, 1] broadcast across the lanes: at (p, q), the column at p. -/
theorem k5_col_apply (w : FVec Ideal S5000x1 .f32) (p : Fin 5000) (q : Fin 128) :
    broadcastTo S5000x128 w broadcasts_S5000x1_S5000x128 (ix2 p q) = w (ix2 p (0 : Fin 1)) := by
  refine broadcastTo_apply w broadcasts_S5000x1_S5000x128 (ix2 p q) (ix2 p (0 : Fin 1)) fun ax => ?_
  match ax with
  | ⟨0, _⟩ =>
    show p.val = if (5000 : ℕ) = 1 then 0 else p.val
    exact (if_neg (by decide)).symm
  | ⟨1, _⟩ => rfl

/-- A vector [5000] cast to a column [5000, 1]: at (p, 0), the vector at p. -/
theorem k5_colcast_apply (v : FVec Ideal S5000 .f32) (p : Fin 5000) :
    shapeCast S5000x1 v shapeCasts_S5000_S5000x1 (ix2 p (0 : Fin 1)) = v (ix1 p) := by
  refine shapeCast_apply v shapeCasts_S5000_S5000x1 _ _ ?_
  rw [Shape.rowMajor_val_one, Shape.rowMajor_val_two]
  show p.val = p.val * 1 + 0
  omega

/-- The sum along the lanes from the zero pattern, read at row p, is the sum of the row. -/
theorem k5_lane_sum_apply (src : FVec Ideal S5000x128 .f32) (hφ : FKind.Formats .f32)
    (hacc : @Eq (BitVec (FTy.bits .f32)) 0x00000000#32 0x00000000#32) (p : Fin 5000) :
    multiReduction (F := Ideal) .add ([1] : List (Fin 2)) S5000 src 0x00000000#32 reduces_S5000x128_S5000 hφ hacc (ix1 p)
      = ∑ k : Fin 128, src (ix2 p k) :=
  Cert.LibKeepdims.lane_sum_apply src reduces_S5000x128_S5000 hφ hacc p

/-- A reciprocal square root at an index is that of the element. -/
theorem k5_rsqrt_apply {s : Shape} (a : FVec Ideal s .f32) (i : s.Idx) : rsqrt a i = Ideal.rsqrt (a i) := rfl

/-! ## The two payloads at an index -/

/-- The sum of the two relations' outputs at (p, q). -/
theorem k5_pay2_apply (x0 x1 x2 : Vec Ideal S5000x128 .f32) (x3 x4 x5 x6 : Vec Ideal S128x128 .f32) (x7 x8 : Vec Ideal S128 .f32)
    (p : Fin 5000) (q : Fin 128) :
    k5_pay2 (F := Ideal) x0 x1 x2 x3 x4 x5 x6 x7 x8 (ix2 p q)
      = Cert.Spec.sage (fun k => x0 (ix2 p k)) (fun k => x2 (ix2 p k)) (fun k j => x3 (ix2 k j)) (fun k j => x5 (ix2 k j))
          (fun j => x7 (ix1 j)) q
        + Cert.Spec.sage (fun k => x1 (ix2 p k)) (fun k => x2 (ix2 p k)) (fun k j => x4 (ix2 k j)) (fun k j => x6 (ix2 k j))
          (fun j => x8 (ix1 j)) q := by
  unfold k5_pay2
  simp only [addf_apply, k5_matmul_apply, k5_row_apply, truncf_apply, k5_cast_rows_apply, k5_cast_sq_apply]
  rfl

/-- The halved, normalised, scaled, shifted and clipped row at (p, q). -/
theorem k5_pay1_apply (o : FVec Ideal S5000x128 .f32) (g b : Vec Ideal S128 .f32) (p : Fin 5000) (q : Fin 128) :
    k5_pay1 (F := Ideal) o (Scalar.ofBits .f32 0x3F000000#32) g b (ix2 p q)
      = Cert.Spec.lnrelu (fun j => o (ix2 p j)) (fun j => g (ix1 j)) (fun j => b (ix1 j)) q := by
  unfold k5_pay1
  simp only [maximumf_apply, addf_apply, mulf_apply, subf_apply, divf_apply, broadcast_apply, k5_rsqrt_apply, k5_row_apply,
    k5_col_apply, k5_colcast_apply, k5_lane_sum_apply]
  rfl

/-- The kernel body's value at (p, q) is the row formula of the three rows at p. -/
theorem body5_apply (x0 x1 x2 : Vec Ideal S5000x128 .f32) (x3 x4 x5 x6 : Vec Ideal S128x128 .f32) (x7 x8 x9 x10 : Vec Ideal S128 .f32)
    (p : Fin 5000) (q : Fin 128) :
    k5_pay1 (F := Ideal) (k5_pay2 (F := Ideal) x0 x1 x2 x3 x4 x5 x6 x7 x8) (Scalar.ofBits .f32 0x3F000000#32) x9 x10 (ix2 p q)
      = Cert.Spec.row (fun k => x0 (ix2 p k)) (fun k => x1 (ix2 p k)) (fun k => x2 (ix2 p k))
          (fun k j => x3 (ix2 k j)) (fun k j => x4 (ix2 k j)) (fun k j => x5 (ix2 k j)) (fun k j => x6 (ix2 k j))
          (fun j => x7 (ix1 j)) (fun j => x8 (ix1 j)) (fun j => x9 (ix1 j)) (fun j => x10 (ix1 j)) q := by
  refine (k5_pay1_apply _ x9 x10 p q).trans ?_
  unfold Cert.Spec.row
  exact congrArg (fun o => Cert.Spec.lnrelu o (fun j => x9 (ix1 j)) (fun j => x10 (ix1 j)) q)
    (funext fun j => k5_pay2_apply x0 x1 x2 x3 x4 x5 x6 x7 x8 p j)

end Cert.KernelIdeal.Val

end
-- ==== Proof.RStageS1s.lean ====
/-
  The reference's stretch that turns the two relation outputs of one node type into that type's new features, read at
  one row i and one feature j.

  The two arrays are added and multiplied by one half; along the 128 features of a row the mean is the sum divided by
  128, the deviation is the halved row less its mean, the variance is the sum of the squared deviations divided by 128;
  the deviation is multiplied by the reciprocal square root of the variance shifted by a small constant, scaled and
  shifted per feature by the slices at one layer and one node type of two 2 x 3 x 128 arrays, and clipped below at zero.
  Each operation that is not pointwise — a scalar spread over an array, the sum along a row, a vector made a column,
  a column spread across the features, a slice made a row and spread down the rows — is read at an index by one small
  lemma over arrays of the literal shapes; the pointwise ones read through by definition; the composed term is then the
  specification's function of the row, term for term.
-/
import proofs.«159317_j31121333027532_1_alg».proof.Proof.RefChunks
import proofs.«159317_j31121333027532_1_alg».proof.Proof.Spec
import Idealize.ShloMosaic.Lib.StableHlo.Run
import Idealize.ShloMosaic.Lib.Pipeline.Value
import Idealize.ShloMosaic.Lib.ValueIdx
import Idealize.ShloMosaic.PureOps.Ideal.Laws

noncomputable section

namespace Cert.ReferenceIdeal.Stage

open Cert.ReferenceIdeal Cert.ReferenceIdeal.Chunks Idealize.ShloMosaic Idealize.ShloMosaic.StableHlo Idealize.ShloMosaic.ValueIdx

/-- A scalar constant broadcast over the array reads its value everywhere. -/
theorem cS1_s_splat_apply (w : BitVec (FTy.bits .f32))
    (h : S_.BroadcastsInDim S5000x128 (![] : Fin 0 → Fin S5000x128.rank)) (p : S5000x128.Idx) :
    broadcastInDim S5000x128 (no_index ![]) h (constant (F := Ideal) S_ .f32 w) p = Ideal.ofBits .f32 w := rfl

/-- A scalar constant broadcast over the column reads its value everywhere. -/
theorem cS1_s_splat_col_apply (w : BitVec (FTy.bits .f32))
    (h : S_.BroadcastsInDim S5000x1 (![] : Fin 0 → Fin S5000x1.rank)) (p : S5000x1.Idx) :
    broadcastInDim S5000x1 (no_index ![]) h (constant (F := Ideal) S_ .f32 w) p = Ideal.ofBits .f32 w := rfl

/-- The host's sum along the 128 features from the zero pattern, read at row i, is the sum of the row. -/
theorem cS1_s_rowsum_apply (x : FVec Ideal S5000x128 .f32) (h' : S5000x128.ReducesTo [1] S5000)
    (hu : 0 < S_.numel) (i : Fin 5000) :
    Host.reduceAdd (F := Ideal) x (constant (F := Ideal) S_ .f32 0x00000000#32) h' hu (ix1 i)
      = ∑ k : Fin 128, x (ix2 i k) := by
  have h : S5000x128.Reduces [1] S5000 := by decide
  show Ideal.hostReduceAdd h' x (Ideal.ofBits .f32 0x00000000#32) (ix1 i) = _
  rw [Ideal.hostReduceAdd_single h' h, Ideal.ofBits_zero_f32, zero_add]
  exact Finset.sum_congr rfl fun k _ => congrArg x
    (funext fun ax => Fin.ext (by match ax with | ⟨0, _⟩ => rfl | ⟨1, _⟩ => rfl))

/-- A vector over the rows as a column: at (i, 0), the vector at i. -/
theorem cS1_s_column_apply (v : FVec Ideal S5000 .f32)
    (h : S5000.BroadcastsInDim S5000x1 (![0] : Fin 1 → Fin S5000x1.rank)) (i : Fin 5000) :
    broadcastInDim S5000x1 (no_index ![0]) h v (ix2 i (0 : Fin 1)) = v (ix1 i) := by
  refine broadcastInDim_apply _ h v _ (ix1 i) fun a => ?_
  match a with
  | ⟨0, _⟩ => rfl

/-- A column broadcast across the 128 features: at (i, j), the column at (i, 0). -/
theorem cS1_s_across_apply (c : FVec Ideal S5000x1 .f32)
    (h : S5000x1.BroadcastsInDim S5000x128 (![0, 1] : Fin 2 → Fin S5000x128.rank)) (i : Fin 5000) (j : Fin 128) :
    broadcastInDim S5000x128 (no_index ![0, 1]) h c (ix2 i j) = c (ix2 i (0 : Fin 1)) := by
  refine broadcastInDim_apply _ h c _ (ix2 i (0 : Fin 1)) fun a => ?_
  match a with
  | ⟨0, _⟩ => rfl
  | ⟨1, _⟩ => rfl

/-- A per-feature parameter, the slice at one layer and one node type of a 2 x 3 x 128 array made a vector, then a
    row, then broadcast down the rows: at (i, j), the array at that layer, that node type and feature j. -/
theorem cS1_s_param_apply (g : FVec Ideal S2x3x128 .f32) (hs : S2x3x128.Slices ![1, 2, 0] S1x1x128)
    (hc : S1x1x128.ShapeCasts S128) (h₁ : S128.BroadcastsInDim S1x128 (![1] : Fin 1 → Fin S1x128.rank))
    (h₂ : S1x128.BroadcastsInDim S5000x128 (![0, 1] : Fin 2 → Fin S5000x128.rank)) (i : Fin 5000) (j : Fin 128) :
    broadcastInDim S5000x128 (no_index ![0, 1]) h₂ (broadcastInDim S1x128 (no_index ![1]) h₁
        (shapeCast S128 (extractStridedSlice S1x1x128 (no_index ![1, 2, 0]) g hs) hc)) (ix2 i j)
      = g (ix3 (1 : Fin 2) (2 : Fin 3) j) := by
  refine (broadcastInDim_apply _ h₂ _ _ (ix2 (0 : Fin 1) j) fun a => ?_).trans
    ((broadcastInDim_apply _ h₁ _ _ (ix1 j) fun a => ?_).trans
      ((shapeCast_apply _ hc _ (ix3 (0 : Fin 1) (0 : Fin 1) j) ?_).trans
        (extractStridedSlice_apply _ g hs _ (ix3 (1 : Fin 2) (2 : Fin 3) j) fun a => ?_)))
  · match a with
    | ⟨0, _⟩ => rfl
    | ⟨1, _⟩ => rfl
  · match a with
    | ⟨0, _⟩ => rfl
  · rw [Shape.rowMajor_val_three, Shape.rowMajor_val_one]
    show (0 * 1 + 0) * 128 + j.val = j.val
    omega
  · match a with
    | ⟨0, _⟩ => rfl
    | ⟨1, _⟩ => rfl
    | ⟨2, _⟩ => show j.val = 0 + j.val; omega

/-- The host's division and reciprocal square root read at an index. -/
theorem cS1_s_hostDivf_apply {s : Shape} (a b : FVec Ideal s .f32) (p : s.Idx) :
    Host.divf a b p = Ideal.div (a p) (b p) := rfl
theorem cS1_s_hostRsqrt_apply {s : Shape} (a : FVec Ideal s .f32) (p : s.Idx) :
    Host.rsqrt a p = Ideal.rsqrt (a p) := rfl

/-- The forty operations as one term over the arrays they read, at (i, j): the two relation outputs added and
    halved (X), the row mean (m), the deviation (d), the row variance (v), the reciprocal root of the shifted
    variance (r); the deviation times r, scaled, shifted, clipped below at zero. -/
theorem cS1_s_value (x y : FVec Ideal S5000x128 .f32) (g b : FVec Ideal S2x3x128 .f32)
    (X d : FVec Ideal S5000x128 .f32) (m v r : FVec Ideal S5000x1 .f32)
    (hb0 : S_.BroadcastsInDim S5000x128 (![] : Fin 0 → Fin S5000x128.rank))
    (hb1 : S_.BroadcastsInDim S5000x1 (![] : Fin 0 → Fin S5000x1.rank))
    (hcol : S5000.BroadcastsInDim S5000x1 (![0] : Fin 1 → Fin S5000x1.rank))
    (hacr : S5000x1.BroadcastsInDim S5000x128 (![0, 1] : Fin 2 → Fin S5000x128.rank))
    (hred : S5000x128.ReducesTo [1] S5000) (hu : 0 < S_.numel)
    (hs : S2x3x128.Slices ![1, 2, 0] S1x1x128) (hc : S1x1x128.ShapeCasts S128)
    (h₁ : S128.BroadcastsInDim S1x128 (![1] : Fin 1 → Fin S1x128.rank))
    (h₂ : S1x128.BroadcastsInDim S5000x128 (![0, 1] : Fin 2 → Fin S5000x128.rank))
    (hX : X = mulf (broadcastInDim S5000x128 ![] hb0 (constant (F := Ideal) S_ .f32 0x3F000000#32)) (addf x y))
    (hm : m = Host.divf (broadcastInDim S5000x1 ![0] hcol
        (Host.reduceAdd (F := Ideal) X (constant (F := Ideal) S_ .f32 0x00000000#32) hred hu))
      (broadcastInDim S5000x1 ![] hb1 (constant (F := Ideal) S_ .f32 0x43000000#32)))
    (hd : d = subf X (broadcastInDim S5000x128 ![0, 1] hacr m))
    (hv : v = Host.divf (broadcastInDim S5000x1 ![0] hcol
        (Host.reduceAdd (F := Ideal) (mulf d d) (constant (F := Ideal) S_ .f32 0x00000000#32) hred hu))
      (broadcastInDim S5000x1 ![] hb1 (constant (F := Ideal) S_ .f32 0x43000000#32)))
    (hr : r = Host.rsqrt (addf v (broadcastInDim S5000x1 ![] hb1 (constant (F := Ideal) S_ .f32 0x3727C5AC#32))))
    (i : Fin 5000) (j : Fin 128) :
    maximumf
        (addf
          (mulf (mulf d (broadcastInDim S5000x128 ![0, 1] hacr r))
            (broadcastInDim S5000x128 ![0, 1] h₂ (broadcastInDim S1x128 ![1] h₁
              (shapeCast S128 (extractStridedSlice S1x1x128 ![1, 2, 0] g hs) hc))))
          (broadcastInDim S5000x128 ![0, 1] h₂ (broadcastInDim S1x128 ![1] h₁
            (shapeCast S128 (extractStridedSlice S1x1x128 ![1, 2, 0] b hs) hc))))
        (broadcastInDim S5000x128 ![] hb0 (constant (F := Ideal) S_ .f32 0x00000000#32)) (ix2 i j)
      = Cert.Spec.lnrelu (fun j => x (ix2 i j) + y (ix2 i j)) (fun j => g (ix3 (1 : Fin 2) (2 : Fin 3) j))
          (fun j => b (ix3 (1 : Fin 2) (2 : Fin 3) j)) j := by
  subst hr hv hd hm hX
  simp only [maximumf_apply, addf_apply, mulf_apply, subf_apply, cS1_s_hostDivf_apply, cS1_s_hostRsqrt_apply,
    cS1_s_splat_apply, cS1_s_splat_col_apply, cS1_s_rowsum_apply, cS1_s_column_apply, cS1_s_across_apply,
    cS1_s_param_apply]
  rfl

/-- The stretch's result at (i, j) is the specification's function of row i of the two relation outputs and of the
    two parameter slices. -/
theorem stageS1_s_apply (W : Valuation τ sig (Elt Ideal)) (i : Fin 5000) (j : Fin 128) :
    (after cS1_s W (Proc.devRef .tc main_v662) : Vec Ideal S5000x128 .f32) (ix2 i j)
      = Cert.Spec.lnrelu (fun j => HAdd.hAdd (α := EReal) (β := EReal) (γ := EReal) ((W (Proc.devRef .tc main_v455) : Vec Ideal S5000x128 .f32) (ix2 i j)) ((W (Proc.devRef .tc main_v529) : Vec Ideal S5000x128 .f32) (ix2 i j)))
          (fun j => (W (Proc.devRef .tc main_arg18) : Vec Ideal S2x3x128 .f32) (ix3 (1 : Fin 2) (2 : Fin 3) j))
          (fun j => (W (Proc.devRef .tc main_arg19) : Vec Ideal S2x3x128 .f32) (ix3 (1 : Fin 2) (2 : Fin 3) j)) j := by
  simp only [cS1_s]
  after_results_simp
  exact cS1_s_value (W (Proc.devRef .tc main_v455)) (W (Proc.devRef .tc main_v529)) (W (Proc.devRef .tc main_arg18))
    (W (Proc.devRef .tc main_arg19)) _ _ _ _ _ _ _ _ _ _ _ _ _ _ _ rfl rfl rfl rfl rfl i j

end Cert.ReferenceIdeal.Stage

end
-- ==== Proof.RStageE1_2.lean ====
/-
  One relation of the first layer, read at a row and a feature.

  The stretch slices the layer's stacked weights at the relation's position (a 128 × 128 left matrix, a bias row of 128, a
  128 × 128 right matrix), forms the mean message of every destination node from its neighbours' features, and returns
  message · leftᵀ + bias + features · rightᵀ, each product contracting the 128 features. Here the mean message stays an
  unopened array: the result at row `i` and feature `j` is `Cert.Spec.sage` of row `i` of the mean message, row `i` of
  the node features, and the relation's slabs of the stacked weights read transposed (entry `(k, j)` of a factor is
  entry `(j, k)` of the relation's slab of its stack).
-/
import proofs.«159317_j31121333027532_1_alg».proof.Proof.RefChunks
import proofs.«159317_j31121333027532_1_alg».proof.Proof.Spec
import Idealize.ShloMosaic.Lib.Pipeline.Value
import Idealize.ShloMosaic.Lib.ValueIdx
import Idealize.ShloMosaic.PureOps.Ideal.Laws

noncomputable section

namespace Cert.ReferenceIdeal.Stage

open Cert.ReferenceIdeal Cert.ReferenceIdeal.Gen Cert.ReferenceIdeal.Chunks Idealize.ShloMosaic Idealize.ShloMosaic.StableHlo Idealize.ShloMosaic.ValueIdx

/-! ## The layer's weights of one relation, read at an index -/

/-- The relation's slab of a stack of six 128 × 128 matrices, flattened to a matrix: its entry `(a, b)` is the slab's entry `(a, b)` in the stack. -/
theorem slabE1_2_apply (w : FVec Ideal S6x128x128 .f32) (a b : Fin 128) :
    (shapeCast S128x128 (extractStridedSlice S1x128x128 ![2, 0, 0] w slices_S6x128x128_S1x128x128_2_0_0)
      shapeCasts_S1x128x128_S128x128 : FVec Ideal S128x128 .f32) (ix2 a b) = w (ix3 (2 : Fin 6) a b) := by
  refine (shapeCast_apply _ shapeCasts_S1x128x128_S128x128 (ix2 a b) (ix3 (0 : Fin 1) a b) ?_).trans ?_
  · rw [Shape.rowMajor_val_three, Shape.rowMajor_val_two]
    show (0 * 128 + a.val) * 128 + b.val = a.val * 128 + b.val
    omega
  · exact extractStridedSlice_apply ![2, 0, 0] w slices_S6x128x128_S1x128x128_2_0_0 (ix3 (0 : Fin 1) a b) (ix3 (2 : Fin 6) a b)
      (fun c => match c with
        | ⟨0, _⟩ => by show 2 = 2 + 0; rfl
        | ⟨1, _⟩ => by show a.val = 0 + a.val; omega
        | ⟨2, _⟩ => by show b.val = 0 + b.val; omega)

/-- The transposed slab: entry `(k, j)` is the slab's entry `(j, k)` in the stack. -/
theorem slabTE1_2_apply (w : FVec Ideal S6x128x128 .f32) (k j : Fin 128) :
    (transpose S128x128 [1, 0] (shapeCast S128x128 (extractStridedSlice S1x128x128 ![2, 0, 0] w slices_S6x128x128_S1x128x128_2_0_0)
      shapeCasts_S1x128x128_S128x128) transposes_S128x128_S128x128_1_0 : FVec Ideal S128x128 .f32) (ix2 k j) = w (ix3 (2 : Fin 6) j k) := by
  refine (transpose_apply [1, 0] _ transposes_S128x128_S128x128_1_0 (ix2 k j) (ix2 j k) (fun c => match c with
    | ⟨0, _⟩ => rfl
    | ⟨1, _⟩ => rfl)).trans ?_
  exact slabE1_2_apply w j k

/-- The relation's row of a stack of six bias vectors, broadcast along the rows: entry `(i, j)` is the row's entry `j` in the stack. -/
theorem biasRowE1_2_apply (v : FVec Ideal S6x128 .f32) (i : Fin 5000) (j : Fin 128) :
    (broadcastInDim S5000x128 ![0, 1] bcast_S1x128_S5000x128_0_1 (broadcastInDim S1x128 ![1] bcast_S128_S1x128_1
      (shapeCast S128 (extractStridedSlice S1x128 ![2, 0] v slices_S6x128_S1x128_2_0) shapeCasts_S1x128_S128)) : FVec Ideal S5000x128 .f32) (ix2 i j)
      = v (ix2 (2 : Fin 6) j) := by
  refine (broadcastInDim_apply _ bcast_S1x128_S5000x128_0_1 _ (ix2 i j) (ix2 (0 : Fin 1) j) (fun c => match c with
    | ⟨0, _⟩ => by show 0 = if (1 : Nat) = 1 then 0 else i.val; rw [if_pos rfl]
    | ⟨1, _⟩ => by show j.val = if (128 : Nat) = 1 then 0 else j.val; rw [if_neg (by decide)])).trans ?_
  refine (broadcastInDim_apply _ bcast_S128_S1x128_1 _ (ix2 (0 : Fin 1) j) (ix1 j) (fun c => match c with
    | ⟨0, _⟩ => by show j.val = if (128 : Nat) = 1 then 0 else j.val; rw [if_neg (by decide)])).trans ?_
  refine (shapeCast_apply _ shapeCasts_S1x128_S128 (ix1 j) (ix2 (0 : Fin 1) j) ?_).trans ?_
  · rw [Shape.rowMajor_val_two, Shape.rowMajor_val_one]
    show 0 * 128 + j.val = j.val
    omega
  · exact extractStridedSlice_apply ![2, 0] v slices_S6x128_S1x128_2_0 (ix2 (0 : Fin 1) j) (ix2 (2 : Fin 6) j)
      (fun c => match c with
        | ⟨0, _⟩ => by show 2 = 2 + 0; rfl
        | ⟨1, _⟩ => by show j.val = 0 + j.val; omega)

/-! ## A product with a 128 × 128 matrix, read at an index -/

theorem lhsE1_2_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch from List.not_mem_nil), dif_pos (show (0 : Fin S5000x128.rank) ∈ dot_S5000x128_S128x128_S5000x128_1_0_0_1_n_n.lhsNonContracting from List.mem_singleton.mpr rfl)]
  rfl
theorem lhsE1_2_1 (i : S5000x128.Idx) (q : dot_S5000x128_S128x128_S5000x128_1_0_0_1_n_n.contr.Idx) :
    (dot_S5000x128_S128x128_S5000x128_1_0_0_1_n_n.lhsIdx i q 1).val = (q ⟨0, Nat.one_pos⟩).val :=
  dot_S5000x128_S128x128_S5000x128_1_0_0_1_n_n.lhsIdx_val_of_single rfl i q
theorem rhsE1_2_0 (i : S5000x128.Idx) (q : dot_S5000x128_S128x128_S5000x128_1_0_0_1_n_n.contr.Idx) :
    (dot_S5000x128_S128x128_S5000x128_1_0_0_1_n_n.rhsIdx i q 0).val = (q ⟨0, Nat.one_pos⟩).val :=
  dot_S5000x128_S128x128_S5000x128_1_0_0_1_n_n.rhsIdx_val_of_single rfl i q
theorem rhsE1_2_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch from List.not_mem_nil), dif_pos (show (1 : Fin S128x128.rank) ∈ dot_S5000x128_S128x128_S5000x128_1_0_0_1_n_n.rhsNonContracting from List.mem_singleton.mpr rfl)]
  rfl

/-- Rows times a matrix, contracting the 128 features: entry `(i, j)` is the sum over `k` of `l (i, k) * r (k, j)`. -/
theorem dotE1_2_apply (l : FVec Ideal S5000x128 .f32) (r : FVec Ideal S128x128 .f32) (i : Fin 5000) (j : Fin 128) :
    Host.dotGeneral (F := Ideal) dot_S5000x128_S128x128_S5000x128_1_0_0_1_n_n none l r (ix2 i j) = ∑ k : Fin 128, l (ix2 i k) * r (ix2 k j) := by
  simp only [Host.dotGeneral]
  rw [Ideal.dotGeneral_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 i j) ((ValueIdx.contrEquiv1 dot_S5000x128_S128x128_S5000x128_1_0_0_1_n_n 128 rfl rfl).symm k) = ix2 i k := funext fun a => Fin.ext (by
    match a with
    | ⟨0, _⟩ => exact lhsE1_2_0 _ _
    | ⟨1, _⟩ => exact (lhsE1_2_1 _ _).trans hk)
  have er : dot_S5000x128_S128x128_S5000x128_1_0_0_1_n_n.rhsIdx (ix2 i j) ((ValueIdx.contrEquiv1 dot_S5000x128_S128x128_S5000x128_1_0_0_1_n_n 128 rfl rfl).symm k) = ix2 k j := funext fun a => Fin.ext (by
    match a with
    | ⟨0, _⟩ => exact (rhsE1_2_0 _ _).trans hk
    | ⟨1, _⟩ => exact rhsE1_2_1 _ _)
  rw [el, er]

/-! ## The relation's output from the mean message -/

/-- The relation's output as the program composes it: the mean message times the transposed left slab, plus the bias
    row, plus the node features times the transposed right slab. -/
def relOutE1_2 {F : FTy → Type} [FloatOps F] (msg x : FVec F S5000x128 .f32) (wl wr : FVec F S6x128x128 .f32)
    (bl : FVec F S6x128 .f32) : FVec F S5000x128 .f32 :=
  addf (addf (Host.dotGeneral dot_S5000x128_S128x128_S5000x128_1_0_0_1_n_n none msg (transpose S128x128 [1, 0] (shapeCast S128x128 (extractStridedSlice S1x128x128 ![2, 0, 0] wl slices_S6x128x128_S1x128x128_2_0_0) shapeCasts_S1x128x128_S128x128) transposes_S128x128_S128x128_1_0))
      (broadcastInDim S5000x128 ![0, 1] bcast_S1x128_S5000x128_0_1 (broadcastInDim S1x128 ![1] bcast_S128_S1x128_1 (shapeCast S128 (extractStridedSlice S1x128 ![2, 0] bl slices_S6x128_S1x128_2_0) shapeCasts_S1x128_S128))))
    (Host.dotGeneral dot_S5000x128_S128x128_S5000x128_1_0_0_1_n_n none x (transpose S128x128 [1, 0] (shapeCast S128x128 (extractStridedSlice S1x128x128 ![2, 0, 0] wr slices_S6x128x128_S1x128x128_2_0_0) shapeCasts_S1x128x128_S128x128) transposes_S128x128_S128x128_1_0))

/-- Read at row `i` and feature `j`, it is the relation's law on the two rows. -/
theorem relOutE1_2_apply (msg x : FVec Ideal S5000x128 .f32) (wl wr : FVec Ideal S6x128x128 .f32) (bl : FVec Ideal S6x128 .f32)
    (i : Fin 5000) (j : Fin 128) :
    relOutE1_2 msg x wl wr bl (ix2 i j)
      = Cert.Spec.sage (fun k => msg (ix2 i k)) (fun k => x (ix2 i k)) (fun k j => wl (ix3 (2 : Fin 6) j k))
          (fun k j => wr (ix3 (2 : Fin 6) j k)) (fun j => bl (ix2 (2 : Fin 6) j)) j := by
  unfold relOutE1_2 Cert.Spec.sage
  rw [addf_apply, addf_apply, dotE1_2_apply, dotE1_2_apply, biasRowE1_2_apply]
  refine congrArg₂ (· + ·) (congrArg (· + bl (ix2 (2 : Fin 6) j)) (Finset.sum_congr rfl fun k _ => ?_)) (Finset.sum_congr rfl fun k _ => ?_)
  · exact congrArg (msg (ix2 i k) * ·) (slabTE1_2_apply wl k j)
  · exact congrArg (x (ix2 i k) * ·) (slabTE1_2_apply wr k j)

/-! ## The stretch -/

set_option maxHeartbeats 1000000 in
/-- After the stretch, the output buffer holds the relation's composition of the mean message buffer, the node
    features and the stacked weights the stretch reads. -/
theorem stageE1_2_eq {F : FTy → Type} [FloatOps F] (W : Valuation τ sig (Elt F)) :
    (after (cE1_2 (F := F)) W (Proc.devRef .tc main_v455) : FVec F S5000x128 .f32)
      = relOutE1_2 (after (cE1_2 (F := F)) W (Proc.devRef .tc main_v447)) (W (Proc.devRef .tc main_v338))
          (W (Proc.devRef .tc main_v340)) (W (Proc.devRef .tc main_v344)) (W (Proc.devRef .tc main_v342)) := by
  simp only [cE1_2]
  after_results_simp <;> rfl

/-- The stretch's output at row `i` and feature `j` is the relation's law on row `i` of the mean message and of the
    node features, with the relation's slabs of the stacked weights read transposed. -/
theorem stageE1_2_apply (W : Valuation τ sig (Elt Ideal)) (i : Fin 5000) (j : Fin 128) :
    (after cE1_2 W (Proc.devRef .tc main_v455) : Vec Ideal S5000x128 .f32) (ix2 i j)
      = Cert.Spec.sage (fun k => (after cE1_2 W (Proc.devRef .tc main_v447) : Vec Ideal S5000x128 .f32) (ix2 i k))
          (fun k => (W (Proc.devRef .tc main_v338) : Vec Ideal S5000x128 .f32) (ix2 i k))
          (fun k j => (W (Proc.devRef .tc main_v340) : Vec Ideal S6x128x128 .f32) (ix3 (2 : Fin 6) j k))
          (fun k j => (W (Proc.devRef .tc main_v344) : Vec Ideal S6x128x128 .f32) (ix3 (2 : Fin 6) j k))
          (fun j => (W (Proc.devRef .tc main_v342) : Vec Ideal S6x128 .f32) (ix2 (2 : Fin 6) j)) j :=
  (congrFun (stageE1_2_eq (F := Ideal) W) (ix2 i j)).trans (relOutE1_2_apply _ _ _ _ _ i j)

end Cert.ReferenceIdeal.Stage

end
-- ==== Proof.RStageE1_4.lean ====
/-
  One relation of the first layer, read at a row and a feature.

  The stretch slices the layer's stacked weights at the relation's position (a 128 × 128 left matrix, a bias row of 128, a
  128 × 128 right matrix), forms the mean message of every destination node from its neighbours' features, and returns
  message · leftᵀ + bias + features · rightᵀ, each product contracting the 128 features. Here the mean message stays an
  unopened array: the result at row `i` and feature `j` is `Cert.Spec.sage` of row `i` of the mean message, row `i` of
  the node features, and the relation's slabs of the stacked weights read transposed (entry `(k, j)` of a factor is
  entry `(j, k)` of the relation's slab of its stack).
-/
import proofs.«159317_j31121333027532_1_alg».proof.Proof.RefChunks
import proofs.«159317_j31121333027532_1_alg».proof.Proof.Spec
import Idealize.ShloMosaic.Lib.Pipeline.Value
import Idealize.ShloMosaic.Lib.ValueIdx
import Idealize.ShloMosaic.PureOps.Ideal.Laws

noncomputable section

namespace Cert.ReferenceIdeal.Stage

open Cert.ReferenceIdeal Cert.ReferenceIdeal.Gen Cert.ReferenceIdeal.Chunks Idealize.ShloMosaic Idealize.ShloMosaic.StableHlo Idealize.ShloMosaic.ValueIdx

/-! ## The layer's weights of one relation, read at an index -/

/-- The relation's slab of a stack of six 128 × 128 matrices, flattened to a matrix: its entry `(a, b)` is the slab's entry `(a, b)` in the stack. -/
theorem slabE1_4_apply (w : FVec Ideal S6x128x128 .f32) (a b : Fin 128) :
    (shapeCast S128x128 (extractStridedSlice S1x128x128 ![4, 0, 0] w slices_S6x128x128_S1x128x128_4_0_0)
      shapeCasts_S1x128x128_S128x128 : FVec Ideal S128x128 .f32) (ix2 a b) = w (ix3 (4 : Fin 6) a b) := by
  refine (shapeCast_apply _ shapeCasts_S1x128x128_S128x128 (ix2 a b) (ix3 (0 : Fin 1) a b) ?_).trans ?_
  · rw [Shape.rowMajor_val_three, Shape.rowMajor_val_two]
    show (0 * 128 + a.val) * 128 + b.val = a.val * 128 + b.val
    omega
  · exact extractStridedSlice_apply ![4, 0, 0] w slices_S6x128x128_S1x128x128_4_0_0 (ix3 (0 : Fin 1) a b) (ix3 (4 : Fin 6) a b)
      (fun c => match c with
        | ⟨0, _⟩ => by show 4 = 4 + 0; rfl
        | ⟨1, _⟩ => by show a.val = 0 + a.val; omega
        | ⟨2, _⟩ => by show b.val = 0 + b.val; omega)

/-- The transposed slab: entry `(k, j)` is the slab's entry `(j, k)` in the stack. -/
theorem slabTE1_4_apply (w : FVec Ideal S6x128x128 .f32) (k j : Fin 128) :
    (transpose S128x128 [1, 0] (shapeCast S128x128 (extractStridedSlice S1x128x128 ![4, 0, 0] w slices_S6x128x128_S1x128x128_4_0_0)
      shapeCasts_S1x128x128_S128x128) transposes_S128x128_S128x128_1_0 : FVec Ideal S128x128 .f32) (ix2 k j) = w (ix3 (4 : Fin 6) j k) := by
  refine (transpose_apply [1, 0] _ transposes_S128x128_S128x128_1_0 (ix2 k j) (ix2 j k) (fun c => match c with
    | ⟨0, _⟩ => rfl
    | ⟨1, _⟩ => rfl)).trans ?_
  exact slabE1_4_apply w j k

/-- The relation's row of a stack of six bias vectors, broadcast along the rows: entry `(i, j)` is the row's entry `j` in the stack. -/
theorem biasRowE1_4_apply (v : FVec Ideal S6x128 .f32) (i : Fin 5000) (j : Fin 128) :
    (broadcastInDim S5000x128 ![0, 1] bcast_S1x128_S5000x128_0_1 (broadcastInDim S1x128 ![1] bcast_S128_S1x128_1
      (shapeCast S128 (extractStridedSlice S1x128 ![4, 0] v slices_S6x128_S1x128_4_0) shapeCasts_S1x128_S128)) : FVec Ideal S5000x128 .f32) (ix2 i j)
      = v (ix2 (4 : Fin 6) j) := by
  refine (broadcastInDim_apply _ bcast_S1x128_S5000x128_0_1 _ (ix2 i j) (ix2 (0 : Fin 1) j) (fun c => match c with
    | ⟨0, _⟩ => by show 0 = if (1 : Nat) = 1 then 0 else i.val; rw [if_pos rfl]
    | ⟨1, _⟩ => by show j.val = if (128 : Nat) = 1 then 0 else j.val; rw [if_neg (by decide)])).trans ?_
  refine (broadcastInDim_apply _ bcast_S128_S1x128_1 _ (ix2 (0 : Fin 1) j) (ix1 j) (fun c => match c with
    | ⟨0, _⟩ => by show j.val = if (128 : Nat) = 1 then 0 else j.val; rw [if_neg (by decide)])).trans ?_
  refine (shapeCast_apply _ shapeCasts_S1x128_S128 (ix1 j) (ix2 (0 : Fin 1) j) ?_).trans ?_
  · rw [Shape.rowMajor_val_two, Shape.rowMajor_val_one]
    show 0 * 128 + j.val = j.val
    omega
  · exact extractStridedSlice_apply ![4, 0] v slices_S6x128_S1x128_4_0 (ix2 (0 : Fin 1) j) (ix2 (4 : Fin 6) j)
      (fun c => match c with
        | ⟨0, _⟩ => by show 4 = 4 + 0; rfl
        | ⟨1, _⟩ => by show j.val = 0 + j.val; omega)

/-! ## A product with a 128 × 128 matrix, read at an index -/

theorem lhsE1_4_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch from List.not_mem_nil), dif_pos (show (0 : Fin S5000x128.rank) ∈ dot_S5000x128_S128x128_S5000x128_1_0_0_1_n_n.lhsNonContracting from List.mem_singleton.mpr rfl)]
  rfl
theorem lhsE1_4_1 (i : S5000x128.Idx) (q : dot_S5000x128_S128x128_S5000x128_1_0_0_1_n_n.contr.Idx) :
    (dot_S5000x128_S128x128_S5000x128_1_0_0_1_n_n.lhsIdx i q 1).val = (q ⟨0, Nat.one_pos⟩).val :=
  dot_S5000x128_S128x128_S5000x128_1_0_0_1_n_n.lhsIdx_val_of_single rfl i q
theorem rhsE1_4_0 (i : S5000x128.Idx) (q : dot_S5000x128_S128x128_S5000x128_1_0_0_1_n_n.contr.Idx) :
    (dot_S5000x128_S128x128_S5000x128_1_0_0_1_n_n.rhsIdx i q 0).val = (q ⟨0, Nat.one_pos⟩).val :=
  dot_S5000x128_S128x128_S5000x128_1_0_0_1_n_n.rhsIdx_val_of_single rfl i q
theorem rhsE1_4_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch from List.not_mem_nil), dif_pos (show (1 : Fin S128x128.rank) ∈ dot_S5000x128_S128x128_S5000x128_1_0_0_1_n_n.rhsNonContracting from List.mem_singleton.mpr rfl)]
  rfl

/-- Rows times a matrix, contracting the 128 features: entry `(i, j)` is the sum over `k` of `l (i, k) * r (k, j)`. -/
theorem dotE1_4_apply (l : FVec Ideal S5000x128 .f32) (r : FVec Ideal S128x128 .f32) (i : Fin 5000) (j : Fin 128) :
    Host.dotGeneral (F := Ideal) dot_S5000x128_S128x128_S5000x128_1_0_0_1_n_n none l r (ix2 i j) = ∑ k : Fin 128, l (ix2 i k) * r (ix2 k j) := by
  simp only [Host.dotGeneral]
  rw [Ideal.dotGeneral_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 i j) ((ValueIdx.contrEquiv1 dot_S5000x128_S128x128_S5000x128_1_0_0_1_n_n 128 rfl rfl).symm k) = ix2 i k := funext fun a => Fin.ext (by
    match a with
    | ⟨0, _⟩ => exact lhsE1_4_0 _ _
    | ⟨1, _⟩ => exact (lhsE1_4_1 _ _).trans hk)
  have er : dot_S5000x128_S128x128_S5000x128_1_0_0_1_n_n.rhsIdx (ix2 i j) ((ValueIdx.contrEquiv1 dot_S5000x128_S128x128_S5000x128_1_0_0_1_n_n 128 rfl rfl).symm k) = ix2 k j := funext fun a => Fin.ext (by
    match a with
    | ⟨0, _⟩ => exact (rhsE1_4_0 _ _).trans hk
    | ⟨1, _⟩ => exact rhsE1_4_1 _ _)
  rw [el, er]

/-! ## The relation's output from the mean message -/

/-- The relation's output as the program composes it: the mean message times the transposed left slab, plus the bias
    row, plus the node features times the transposed right slab. -/
def relOutE1_4 {F : FTy → Type} [FloatOps F] (msg x : FVec F S5000x128 .f32) (wl wr : FVec F S6x128x128 .f32)
    (bl : FVec F S6x128 .f32) : FVec F S5000x128 .f32 :=
  addf (addf (Host.dotGeneral dot_S5000x128_S128x128_S5000x128_1_0_0_1_n_n none msg (transpose S128x128 [1, 0] (shapeCast S128x128 (extractStridedSlice S1x128x128 ![4, 0, 0] wl slices_S6x128x128_S1x128x128_4_0_0) shapeCasts_S1x128x128_S128x128) transposes_S128x128_S128x128_1_0))
      (broadcastInDim S5000x128 ![0, 1] bcast_S1x128_S5000x128_0_1 (broadcastInDim S1x128 ![1] bcast_S128_S1x128_1 (shapeCast S128 (extractStridedSlice S1x128 ![4, 0] bl slices_S6x128_S1x128_4_0) shapeCasts_S1x128_S128))))
    (Host.dotGeneral dot_S5000x128_S128x128_S5000x128_1_0_0_1_n_n none x (transpose S128x128 [1, 0] (shapeCast S128x128 (extractStridedSlice S1x128x128 ![4, 0, 0] wr slices_S6x128x128_S1x128x128_4_0_0) shapeCasts_S1x128x128_S128x128) transposes_S128x128_S128x128_1_0))

/-- Read at row `i` and feature `j`, it is the relation's law on the two rows. -/
theorem relOutE1_4_apply (msg x : FVec Ideal S5000x128 .f32) (wl wr : FVec Ideal S6x128x128 .f32) (bl : FVec Ideal S6x128 .f32)
    (i : Fin 5000) (j : Fin 128) :
    relOutE1_4 msg x wl wr bl (ix2 i j)
      = Cert.Spec.sage (fun k => msg (ix2 i k)) (fun k => x (ix2 i k)) (fun k j => wl (ix3 (4 : Fin 6) j k))
          (fun k j => wr (ix3 (4 : Fin 6) j k)) (fun j => bl (ix2 (4 : Fin 6) j)) j := by
  unfold relOutE1_4 Cert.Spec.sage
  rw [addf_apply, addf_apply, dotE1_4_apply, dotE1_4_apply, biasRowE1_4_apply]
  refine congrArg₂ (· + ·) (congrArg (· + bl (ix2 (4 : Fin 6) j)) (Finset.sum_congr rfl fun k _ => ?_)) (Finset.sum_congr rfl fun k _ => ?_)
  · exact congrArg (msg (ix2 i k) * ·) (slabTE1_4_apply wl k j)
  · exact congrArg (x (ix2 i k) * ·) (slabTE1_4_apply wr k j)

/-! ## The stretch -/

set_option maxHeartbeats 1000000 in
/-- After the stretch, the output buffer holds the relation's composition of the mean message buffer, the node
    features and the stacked weights the stretch reads. -/
theorem stageE1_4_eq {F : FTy → Type} [FloatOps F] (W : Valuation τ sig (Elt F)) :
    (after (cE1_4 (F := F)) W (Proc.devRef .tc main_v529) : FVec F S5000x128 .f32)
      = relOutE1_4 (after (cE1_4 (F := F)) W (Proc.devRef .tc main_v521)) (W (Proc.devRef .tc main_v338))
          (W (Proc.devRef .tc main_v340)) (W (Proc.devRef .tc main_v344)) (W (Proc.devRef .tc main_v342)) := by
  simp only [cE1_4]
  after_results_simp <;> rfl

/-- The stretch's output at row `i` and feature `j` is the relation's law on row `i` of the mean message and of the
    node features, with the relation's slabs of the stacked weights read transposed. -/
theorem stageE1_4_apply (W : Valuation τ sig (Elt Ideal)) (i : Fin 5000) (j : Fin 128) :
    (after cE1_4 W (Proc.devRef .tc main_v529) : Vec Ideal S5000x128 .f32) (ix2 i j)
      = Cert.Spec.sage (fun k => (after cE1_4 W (Proc.devRef .tc main_v521) : Vec Ideal S5000x128 .f32) (ix2 i k))
          (fun k => (W (Proc.devRef .tc main_v338) : Vec Ideal S5000x128 .f32) (ix2 i k))
          (fun k j => (W (Proc.devRef .tc main_v340) : Vec Ideal S6x128x128 .f32) (ix3 (4 : Fin 6) j k))
          (fun k j => (W (Proc.devRef .tc main_v344) : Vec Ideal S6x128x128 .f32) (ix3 (4 : Fin 6) j k))
          (fun j => (W (Proc.devRef .tc main_v342) : Vec Ideal S6x128 .f32) (ix2 (4 : Fin 6) j)) j :=
  (congrFun (stageE1_4_eq (F := Ideal) W) (ix2 i j)).trans (relOutE1_4_apply _ _ _ _ _ i j)

end Cert.ReferenceIdeal.Stage

end
-- ==== Proof.Layer1s.lean ====
/-
  Layer 1, node type 2 (5000 nodes): after the kernel program's pallas_call 5 and after the reference's stage of
  that node type, the node features are the same array. Row by row both are the row formula: on the kernel side of
  the blocks the pallas_call wrote back, on the reference side of the two relation outputs and the normalisation
  stage; the rows that go in agree — the neighbour means and the nodes' own features by the shared host operations,
  the weights, biases and normalisation parameters as the same entries of the arguments.
-/
import proofs.«159317_j31121333027532_1_alg».proof.Proof.KReg5
import proofs.«159317_j31121333027532_1_alg».proof.Proof.KBody5
import proofs.«159317_j31121333027532_1_alg».proof.Proof.KWin
import proofs.«159317_j31121333027532_1_alg».proof.Proof.RStageS1s
import proofs.«159317_j31121333027532_1_alg».proof.Proof.RStageE1_2
import proofs.«159317_j31121333027532_1_alg».proof.Proof.RStageE1_4
import proofs.«159317_j31121333027532_1_alg».proof.Proof.RWt
import proofs.«159317_j31121333027532_1_alg».proof.Proof.GlueHost
import proofs.«159317_j31121333027532_1_alg».proof.Proof.SpecCongr
import proofs.«159317_j31121333027532_1_alg».proof.Proof.Layer0c
import proofs.«159317_j31121333027532_1_alg».proof.Proof.Layer0p
import proofs.«159317_j31121333027532_1_alg».proof.Proof.Layer0s

noncomputable section

namespace Cert.Glue

open Idealize.ShloMosaic Idealize.ShloMosaic.TcCoe Idealize.SL.Sem Idealize.ShloMosaic.StableHlo Idealize.ShloMosaic.ValueIdx
open Cert.ReferenceIdeal.Chunks Cert.KernelIdeal.GenP

local notation:max "kb(" r ")" => Proc.devRef (τ := Cert.KernelIdeal.τ) (sig := Cert.KernelIdeal.sig) Proc.tc r
local notation:max "rb(" r ")" => Proc.devRef (τ := Cert.ReferenceIdeal.τ) (sig := Cert.ReferenceIdeal.sig) Proc.tc r

variable (m : (ℓ : Loc Cert.KernelIdeal.nD Cert.KernelIdeal.τ Cert.KernelIdeal.sig) → Buf (Elt Ideal) ℓ)
  (ρ : Dev Cert.KernelIdeal.nD → PrngReg) (c : Dev Cert.KernelIdeal.nD)
  (V : Valuation Cert.ReferenceIdeal.τ Cert.ReferenceIdeal.sig (Elt Ideal))

set_option maxHeartbeats 8000000 in
/-- The 5000 x 128 node features after layer 1: the reference's array is the kernel program's. -/
theorem X2s (hA : Agree m c V) :
    R21 V rb(Cert.ReferenceIdeal.main_v662) = W12 m ρ c kb(Cert.KernelIdeal.main_v408) := by
  have hA' := hA
  obtain ⟨h0, h1, h2, h3, h4, h5, h6, h7, h8, h9, h10, h11, h12, h13, h14, h15, h16, h17, h18, h19⟩ := hA'
  refine funext fun (idx : Cert.KernelIdeal.S5000x128.Idx) => ?_
  obtain ⟨i, j, rfl⟩ : ∃ (i : Fin 5000) (j : Fin 128), idx = ix2 i j := ⟨idx 0, idx 1, eq_ix2 idx⟩
  -- the reference's stage at (i, j), and the kernel program's array at (i, j)
  refine ((Cert.ReferenceIdeal.Stage.stageS1_s_apply (R20 V) i j).trans ?_).trans
    ((congrFun (W12_arr m ρ c 11) (ix2 i j)).trans
      (Cert.KernelIdeal.Val.region5_apply (fun x0 x1 x2 x3 x4 x5 x6 x7 x8 x9 x10 p q => Cert.KernelIdeal.Val.body5_apply x0 x1 x2 x3 x4 x5 x6 x7 x8 x9 x10 p q) (V11 m ρ) c i j)).symm
  rw [Cert.Spec.row_eq]
  refine Cert.Spec.lnrelu_congr (funext fun j' => ?_) (funext fun j' => ?_) (funext fun j' => ?_) j
  · -- the two relations' outputs at (i, j')
    have ho1 : (R20 V rb(Cert.ReferenceIdeal.main_v455)) (ix2 i j') = _ :=
      (congrFun (Cert.ReferenceIdeal.Stage.carry_main_v455_15_20 V) (ix2 i j')).trans (Cert.ReferenceIdeal.Stage.stageE1_2_apply (R14 V) i j')
    have ho2 : (R20 V rb(Cert.ReferenceIdeal.main_v529)) (ix2 i j') = _ :=
      (congrFun (Cert.ReferenceIdeal.Stage.carry_main_v529_17_20 V) (ix2 i j')).trans (Cert.ReferenceIdeal.Stage.stageE1_4_apply (R16 V) i j')
    refine (congrArg₂ (HAdd.hAdd (α := EReal) (β := EReal) (γ := EReal)) ho1 ho2).trans ?_
    refine congrArg₂ (HAdd.hAdd (α := EReal) (β := EReal) (γ := EReal)) (Cert.Spec.sage_congr ?_ ?_ ?_ ?_ ?_ j') (Cert.Spec.sage_congr ?_ ?_ ?_ ?_ ?_ j')
    · -- the neighbour mean of relation 2
      funext k; exact congrFun ((M1_2 m ρ c V hA (X1c m ρ c V hA)).trans (Cert.KernelIdeal.Carry.carry_v288_7_11 m ρ c).symm) (ix2 i k)
    · -- the node's own features
      funext k; exact congrFun ((Cert.ReferenceIdeal.Stage.carry_main_v338_11_14 V).trans ((X1s m ρ c V hA).trans (Cert.KernelIdeal.Carry.carry_v211_6_11 m ρ c).symm)) (ix2 i k)
    · funext k j''; exact ((Cert.ReferenceIdeal.Stage.rwt1_2_wl V j'' k).trans (congrFun h15 _)).trans (Cert.KernelIdeal.Val.kwin5_wl1 m ρ c k j'').symm
    · funext k j''; exact ((Cert.ReferenceIdeal.Stage.rwt1_2_wr V j'' k).trans (congrFun h17 _)).trans (Cert.KernelIdeal.Val.kwin5_wr1 m ρ c k j'').symm
    · funext j''; exact ((Cert.ReferenceIdeal.Stage.rwt1_2_bl V j'').trans (congrFun h16 _)).trans (Cert.KernelIdeal.Val.kwin5_bl1 m ρ c j'').symm
    · -- the neighbour mean of relation 4
      funext k; exact congrFun ((M1_4 m ρ c V hA (X1p m ρ c V hA)).trans (Cert.KernelIdeal.Carry.carry_v334_7_11 m ρ c).symm) (ix2 i k)
    · -- the node's own features
      funext k; exact congrFun ((Cert.ReferenceIdeal.Stage.carry_main_v338_11_16 V).trans ((X1s m ρ c V hA).trans (Cert.KernelIdeal.Carry.carry_v211_6_11 m ρ c).symm)) (ix2 i k)
    · funext k j''; exact ((Cert.ReferenceIdeal.Stage.rwt1_4_wl V j'' k).trans (congrFun h15 _)).trans (Cert.KernelIdeal.Val.kwin5_wl2 m ρ c k j'').symm
    · funext k j''; exact ((Cert.ReferenceIdeal.Stage.rwt1_4_wr V j'' k).trans (congrFun h17 _)).trans (Cert.KernelIdeal.Val.kwin5_wr2 m ρ c k j'').symm
    · funext j''; exact ((Cert.ReferenceIdeal.Stage.rwt1_4_bl V j'').trans (congrFun h16 _)).trans (Cert.KernelIdeal.Val.kwin5_bl2 m ρ c j'').symm
  · -- the scale
    exact ((Cert.ReferenceIdeal.Stage.rpar1_2_g V j').trans (congrFun h18 _)).trans (Cert.KernelIdeal.Val.kwin5_g m ρ c j').symm
  · -- the shift
    exact ((Cert.ReferenceIdeal.Stage.rpar1_2_b V j').trans (congrFun h19 _)).trans (Cert.KernelIdeal.Val.kwin5_b m ρ c j').symm

end Cert.Glue

end
-- ==== Proof.Final.lean ====
/-
  The three results. After the reference's last stretch and at the kernel program's last boundary the three result
  buffers hold the same arrays: each was written by its node type's second-layer stage (pallas_call) and carried
  unchanged to the end.
-/
import proofs.«159317_j31121333027532_1_alg».proof.Proof.Layer1c
import proofs.«159317_j31121333027532_1_alg».proof.Proof.Layer1p
import proofs.«159317_j31121333027532_1_alg».proof.Proof.Layer1s

noncomputable section

namespace Cert.Glue

open Idealize.ShloMosaic Idealize.ShloMosaic.TcCoe Idealize.SL.Sem Idealize.ShloMosaic.StableHlo
open Cert.ReferenceIdeal.Chunks Cert.KernelIdeal.GenP

local notation:max "kb(" r ")" => Proc.devRef (τ := Cert.KernelIdeal.τ) (sig := Cert.KernelIdeal.sig) Proc.tc r
local notation:max "rb(" r ")" => Proc.devRef (τ := Cert.ReferenceIdeal.τ) (sig := Cert.ReferenceIdeal.sig) Proc.tc r

variable (m : (ℓ : Loc Cert.KernelIdeal.nD Cert.KernelIdeal.τ Cert.KernelIdeal.sig) → Buf (Elt Ideal) ℓ)
  (ρ : Dev Cert.KernelIdeal.nD → PrngReg) (c : Dev Cert.KernelIdeal.nD)
  (V : Valuation Cert.ReferenceIdeal.τ Cert.ReferenceIdeal.sig (Elt Ideal))

set_option maxHeartbeats 4000000 in
theorem res0 (hA : Agree m c V) :
    after Cert.ReferenceIdeal.RefRun.ops V rb(Cert.ReferenceIdeal.main_v598) = W12 m ρ c kb(Cert.KernelIdeal.main_v374) :=
  (congrFun (after_ops V) _).trans ((Cert.ReferenceIdeal.Stage.carry_main_v598_19_21 V).trans
    ((X2c m ρ c V hA).trans (Cert.KernelIdeal.Carry.carry_v374_8_12 m ρ c).symm))

set_option maxHeartbeats 4000000 in
theorem res1 (hA : Agree m c V) :
    after Cert.ReferenceIdeal.RefRun.ops V rb(Cert.ReferenceIdeal.main_v630) = W12 m ρ c kb(Cert.KernelIdeal.main_v391) :=
  (congrFun (after_ops V) _).trans ((Cert.ReferenceIdeal.Stage.carry_main_v630_20_21 V).trans
    ((X2p m ρ c V hA).trans (Cert.KernelIdeal.Carry.carry_v391_10_12 m ρ c).symm))

set_option maxHeartbeats 4000000 in
theorem res2 (hA : Agree m c V) :
    after Cert.ReferenceIdeal.RefRun.ops V rb(Cert.ReferenceIdeal.main_v662) = W12 m ρ c kb(Cert.KernelIdeal.main_v408) :=
  (congrFun (after_ops V) _).trans (X2s m ρ c V hA)

/-! Every argument holds its launch contents after all of the reference's operations. -/

theorem ref_arg0 : after Cert.ReferenceIdeal.RefRun.ops V rb(Cert.ReferenceIdeal.main_arg0) = V rb(Cert.ReferenceIdeal.main_arg0) :=
  (congrFun (after_ops V) _).trans (Cert.ReferenceIdeal.Stage.argK_21_main_arg0 V)
theorem ref_arg1 : after Cert.ReferenceIdeal.RefRun.ops V rb(Cert.ReferenceIdeal.main_arg1) = V rb(Cert.ReferenceIdeal.main_arg1) :=
  (congrFun (after_ops V) _).trans (Cert.ReferenceIdeal.Stage.argK_21_main_arg1 V)
theorem ref_arg2 : after Cert.ReferenceIdeal.RefRun.ops V rb(Cert.ReferenceIdeal.main_arg2) = V rb(Cert.ReferenceIdeal.main_arg2) :=
  (congrFun (after_ops V) _).trans (Cert.ReferenceIdeal.Stage.argK_21_main_arg2 V)
theorem ref_arg3 : after Cert.ReferenceIdeal.RefRun.ops V rb(Cert.ReferenceIdeal.main_arg3) = V rb(Cert.ReferenceIdeal.main_arg3) :=
  (congrFun (after_ops V) _).trans (Cert.ReferenceIdeal.Stage.argK_21_main_arg3 V)
theorem ref_arg4 : after Cert.ReferenceIdeal.RefRun.ops V rb(Cert.ReferenceIdeal.main_arg4) = V rb(Cert.ReferenceIdeal.main_arg4) :=
  (congrFun (after_ops V) _).trans (Cert.ReferenceIdeal.Stage.argK_21_main_arg4 V)
theorem ref_arg5 : after Cert.ReferenceIdeal.RefRun.ops V rb(Cert.ReferenceIdeal.main_arg5) = V rb(Cert.ReferenceIdeal.main_arg5) :=
  (congrFun (after_ops V) _).trans (Cert.ReferenceIdeal.Stage.argK_21_main_arg5 V)
theorem ref_arg6 : after Cert.ReferenceIdeal.RefRun.ops V rb(Cert.ReferenceIdeal.main_arg6) = V rb(Cert.ReferenceIdeal.main_arg6) :=
  (congrFun (after_ops V) _).trans (Cert.ReferenceIdeal.Stage.argK_21_main_arg6 V)
theorem ref_arg7 : after Cert.ReferenceIdeal.RefRun.ops V rb(Cert.ReferenceIdeal.main_arg7) = V rb(Cert.ReferenceIdeal.main_arg7) :=
  (congrFun (after_ops V) _).trans (Cert.ReferenceIdeal.Stage.argK_21_main_arg7 V)
theorem ref_arg8 : after Cert.ReferenceIdeal.RefRun.ops V rb(Cert.ReferenceIdeal.main_arg8) = V rb(Cert.ReferenceIdeal.main_arg8) :=
  (congrFun (after_ops V) _).trans (Cert.ReferenceIdeal.Stage.argK_21_main_arg8 V)
theorem ref_arg9 : after Cert.ReferenceIdeal.RefRun.ops V rb(Cert.ReferenceIdeal.main_arg9) = V rb(Cert.ReferenceIdeal.main_arg9) :=
  (congrFun (after_ops V) _).trans (Cert.ReferenceIdeal.Stage.argK_21_main_arg9 V)
theorem ref_arg10 : after Cert.ReferenceIdeal.RefRun.ops V rb(Cert.ReferenceIdeal.main_arg10) = V rb(Cert.ReferenceIdeal.main_arg10) :=
  (congrFun (after_ops V) _).trans (Cert.ReferenceIdeal.Stage.argK_21_main_arg10 V)
theorem ref_arg11 : after Cert.ReferenceIdeal.RefRun.ops V rb(Cert.ReferenceIdeal.main_arg11) = V rb(Cert.ReferenceIdeal.main_arg11) :=
  (congrFun (after_ops V) _).trans (Cert.ReferenceIdeal.Stage.argK_21_main_arg11 V)
theorem ref_arg12 : after Cert.ReferenceIdeal.RefRun.ops V rb(Cert.ReferenceIdeal.main_arg12) = V rb(Cert.ReferenceIdeal.main_arg12) :=
  (congrFun (after_ops V) _).trans (Cert.ReferenceIdeal.Stage.argK_21_main_arg12 V)
theorem ref_arg13 : after Cert.ReferenceIdeal.RefRun.ops V rb(Cert.ReferenceIdeal.main_arg13) = V rb(Cert.ReferenceIdeal.main_arg13) :=
  (congrFun (after_ops V) _).trans (Cert.ReferenceIdeal.Stage.argK_21_main_arg13 V)
theorem ref_arg14 : after Cert.ReferenceIdeal.RefRun.ops V rb(Cert.ReferenceIdeal.main_arg14) = V rb(Cert.ReferenceIdeal.main_arg14) :=
  (congrFun (after_ops V) _).trans (Cert.ReferenceIdeal.Stage.argK_21_main_arg14 V)
theorem ref_arg15 : after Cert.ReferenceIdeal.RefRun.ops V rb(Cert.ReferenceIdeal.main_arg15) = V rb(Cert.ReferenceIdeal.main_arg15) :=
  (congrFun (after_ops V) _).trans (Cert.ReferenceIdeal.Stage.argK_21_main_arg15 V)
theorem ref_arg16 : after Cert.ReferenceIdeal.RefRun.ops V rb(Cert.ReferenceIdeal.main_arg16) = V rb(Cert.ReferenceIdeal.main_arg16) :=
  (congrFun (after_ops V) _).trans (Cert.ReferenceIdeal.Stage.argK_21_main_arg16 V)
theorem ref_arg17 : after Cert.ReferenceIdeal.RefRun.ops V rb(Cert.ReferenceIdeal.main_arg17) = V rb(Cert.ReferenceIdeal.main_arg17) :=
  (congrFun (after_ops V) _).trans (Cert.ReferenceIdeal.Stage.argK_21_main_arg17 V)
theorem ref_arg18 : after Cert.ReferenceIdeal.RefRun.ops V rb(Cert.ReferenceIdeal.main_arg18) = V rb(Cert.ReferenceIdeal.main_arg18) :=
  (congrFun (after_ops V) _).trans (Cert.ReferenceIdeal.Stage.argK_21_main_arg18 V)
theorem ref_arg19 : after Cert.ReferenceIdeal.RefRun.ops V rb(Cert.ReferenceIdeal.main_arg19) = V rb(Cert.ReferenceIdeal.main_arg19) :=
  (congrFun (after_ops V) _).trans (Cert.ReferenceIdeal.Stage.argK_21_main_arg19 V)

end Cert.Glue

end
-- ==== Proof.lean ====
/-
  The certificate's five claims.

  Both kernel programs' frames are the generated frame proofs (their patched copies). The reference is a straight line
  of host operations: it terminates with every buffer at the fold of its operations, and no operation writes an
  argument. Nothing was rewritten by the idealisation. And at the ideal values the two programs end with the same
  three arrays: per layer and node type, both compute the row formula of `Cert.Spec` on equal rows — the kernel
  program block by block inside its six pallas_calls, the reference by whole-array host operations — so the node
  features agree after the first layer, hence the second layer's neighbour means agree, hence the results.
-/
import proofs.«159317_j31121333027532_1_alg».proof.Defs
import proofs.«159317_j31121333027532_1_alg».proof.Proof.Gen.Kernel
import proofs.«159317_j31121333027532_1_alg».proof.Proof.Gen.KernelIdeal
import proofs.«159317_j31121333027532_1_alg».proof.Proof.Gen.ReferenceIdeal
import proofs.«159317_j31121333027532_1_alg».proof.Proof.Gen.Pre_finite_inputs
import proofs.«159317_j31121333027532_1_alg».proof.Proof.KBFrameRun
import proofs.«159317_j31121333027532_1_alg».proof.Proof.KRun
import proofs.«159317_j31121333027532_1_alg».proof.Proof.Final
import Idealize.ShloMosaic.Adequacy
import Idealize.ShloMosaic.Init

noncomputable section

namespace Cert.Proof

open Idealize.ShloMosaic Idealize.ShloMosaic.TcCoe Idealize.SL.Sem Idealize.ShloMosaic.StableHlo

theorem frame_k : @Cert.frame_Kernel Cert.Kernel.Gen.facts Cert.Pre_finite_inputs.Gen.facts :=
  fun m ρ _ => Cert.Kernel.GenP.frame m ρ

theorem frame_ki : @Cert.frame_KernelIdeal Cert.KernelIdeal.Gen.facts Cert.Pre_finite_inputs.Gen.facts :=
  fun m ρ _ => Cert.KernelIdeal.GenP.frame m ρ

set_option maxHeartbeats 4000000 in
/-- The reference ends with its arguments as launched: its run, read at the twenty argument buffers. -/
theorem frame_ri : @Cert.frame_ReferenceIdeal Cert.ReferenceIdeal.Gen.facts Cert.Pre_finite_inputs.Gen.facts :=
  fun m ρ _ => (θ_run Cert.ReferenceIdeal.defs _ _).mono (fun r h c =>
    ⟨(h c Cert.ReferenceIdeal.main_arg0).trans (Cert.Glue.ref_arg0 _),
      (h c Cert.ReferenceIdeal.main_arg1).trans (Cert.Glue.ref_arg1 _),
      (h c Cert.ReferenceIdeal.main_arg2).trans (Cert.Glue.ref_arg2 _),
      (h c Cert.ReferenceIdeal.main_arg3).trans (Cert.Glue.ref_arg3 _),
      (h c Cert.ReferenceIdeal.main_arg4).trans (Cert.Glue.ref_arg4 _),
      (h c Cert.ReferenceIdeal.main_arg5).trans (Cert.Glue.ref_arg5 _),
      (h c Cert.ReferenceIdeal.main_arg6).trans (Cert.Glue.ref_arg6 _),
      (h c Cert.ReferenceIdeal.main_arg7).trans (Cert.Glue.ref_arg7 _),
      (h c Cert.ReferenceIdeal.main_arg8).trans (Cert.Glue.ref_arg8 _),
      (h c Cert.ReferenceIdeal.main_arg9).trans (Cert.Glue.ref_arg9 _),
      (h c Cert.ReferenceIdeal.main_arg10).trans (Cert.Glue.ref_arg10 _),
      (h c Cert.ReferenceIdeal.main_arg11).trans (Cert.Glue.ref_arg11 _),
      (h c Cert.ReferenceIdeal.main_arg12).trans (Cert.Glue.ref_arg12 _),
      (h c Cert.ReferenceIdeal.main_arg13).trans (Cert.Glue.ref_arg13 _),
      (h c Cert.ReferenceIdeal.main_arg14).trans (Cert.Glue.ref_arg14 _),
      (h c Cert.ReferenceIdeal.main_arg15).trans (Cert.Glue.ref_arg15 _),
      (h c Cert.ReferenceIdeal.main_arg16).trans (Cert.Glue.ref_arg16 _),
      (h c Cert.ReferenceIdeal.main_arg17).trans (Cert.Glue.ref_arg17 _),
      (h c Cert.ReferenceIdeal.main_arg18).trans (Cert.Glue.ref_arg18 _),
      (h c Cert.ReferenceIdeal.main_arg19).trans (Cert.Glue.ref_arg19 _)⟩)
    (Cert.ReferenceIdeal.RefRun.run_after (F := Ideal) m ρ)

set_option maxHeartbeats 8000000 in
/-- From memories agreeing on the arguments both idealised programs end with the same three result arrays. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.KernelIdeal.GenP.W12 m ρ c (Proc.devRef .tc Cert.KernelIdeal.main_v374),
    fun c => Cert.KernelIdeal.GenP.W12 m ρ c (Proc.devRef .tc Cert.KernelIdeal.main_v391),
    fun c => Cert.KernelIdeal.GenP.W12 m ρ c (Proc.devRef .tc Cert.KernelIdeal.main_v408),
    Cert.KernelIdeal.GenRun.run_vals m ρ, ?_⟩
  refine (θ_run Cert.ReferenceIdeal.defs _ _).mono (fun r h c => ?_) (Cert.ReferenceIdeal.RefRun.run_after (F := Ideal) m' ρ')
  have hA : Cert.Glue.Agree m c (launchContents m' c) := hagree c
  exact ⟨(h c Cert.ReferenceIdeal.main_v598).trans (Cert.Glue.res0 m ρ c _ hA),
      (h c Cert.ReferenceIdeal.main_v630).trans (Cert.Glue.res1 m ρ c _ hA),
      (h c Cert.ReferenceIdeal.main_v662).trans (Cert.Glue.res2 m ρ c _ hA),
      (h c Cert.ReferenceIdeal.main_arg0).trans (Cert.Glue.ref_arg0 _),
      (h c Cert.ReferenceIdeal.main_arg1).trans (Cert.Glue.ref_arg1 _),
      (h c Cert.ReferenceIdeal.main_arg2).trans (Cert.Glue.ref_arg2 _),
      (h c Cert.ReferenceIdeal.main_arg3).trans (Cert.Glue.ref_arg3 _),
      (h c Cert.ReferenceIdeal.main_arg4).trans (Cert.Glue.ref_arg4 _),
      (h c Cert.ReferenceIdeal.main_arg5).trans (Cert.Glue.ref_arg5 _),
      (h c Cert.ReferenceIdeal.main_arg6).trans (Cert.Glue.ref_arg6 _),
      (h c Cert.ReferenceIdeal.main_arg7).trans (Cert.Glue.ref_arg7 _),
      (h c Cert.ReferenceIdeal.main_arg8).trans (Cert.Glue.ref_arg8 _),
      (h c Cert.ReferenceIdeal.main_arg9).trans (Cert.Glue.ref_arg9 _),
      (h c Cert.ReferenceIdeal.main_arg10).trans (Cert.Glue.ref_arg10 _),
      (h c Cert.ReferenceIdeal.main_arg11).trans (Cert.Glue.ref_arg11 _),
      (h c Cert.ReferenceIdeal.main_arg12).trans (Cert.Glue.ref_arg12 _),
      (h c Cert.ReferenceIdeal.main_arg13).trans (Cert.Glue.ref_arg13 _),
      (h c Cert.ReferenceIdeal.main_arg14).trans (Cert.Glue.ref_arg14 _),
      (h c Cert.ReferenceIdeal.main_arg15).trans (Cert.Glue.ref_arg15 _),
      (h c Cert.ReferenceIdeal.main_arg16).trans (Cert.Glue.ref_arg16 _),
      (h c Cert.ReferenceIdeal.main_arg17).trans (Cert.Glue.ref_arg17 _),
      (h c Cert.ReferenceIdeal.main_arg18).trans (Cert.Glue.ref_arg18 _),
      (h c Cert.ReferenceIdeal.main_arg19).trans (Cert.Glue.ref_arg19 _)⟩

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
